-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v207)) (v1 : (c : Dev Cert.KernelIdeal.nD) → Buf (Elt Ideal) ((c.tc : Thread Cert.KernelIdeal.nD Cert.KernelIdeal.τ).loc Cert.KernelIdeal.main_v209)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v207) = v0 c
          ∧ r.2.mem ((c.tc : Thread Cert.KernelIdeal.nD Cert.KernelIdeal.τ).loc Cert.KernelIdeal.main_v209) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S27094x64 : Shape := ⟨2, ![27094, 64]⟩
abbrev S42852x64 : Shape := ⟨2, ![42852, 64]⟩
abbrev S1285560 : Shape := ⟨1, ![1285560]⟩
abbrev S2000000 : Shape := ⟨1, ![2000000]⟩
abbrev S2x541880 : Shape := ⟨2, ![2, 541880]⟩
abbrev S2x1285560 : Shape := ⟨2, ![2, 1285560]⟩
abbrev S_ : Shape := ⟨0, ![]⟩

class Facts : Prop where
  bcast_S_S27094x64 : S_.BroadcastsInDim S27094x64 (![] : Fin 0 → Fin S27094x64.rank)
  reducesTo_S27094x64_S_d0_1 : S27094x64.ReducesTo [0, 1] S_
  h_S_ : 0 < S_.numel
  bcast_S_S42852x64 : S_.BroadcastsInDim S42852x64 (![] : Fin 0 → Fin S42852x64.rank)
  reducesTo_S42852x64_S_d0_1 : S42852x64.ReducesTo [0, 1] S_
  bcast_S_S1285560 : S_.BroadcastsInDim S1285560 (![] : Fin 0 → Fin S1285560.rank)
  reducesTo_S1285560_S_d0 : S1285560.ReducesTo [0] S_
  bcast_S_S2000000 : S_.BroadcastsInDim S2000000 (![] : Fin 0 → Fin S2000000.rank)
  reducesTo_S2000000_S_d0 : S2000000.ReducesTo [0] S_
  bcast_S_S2x541880 : S_.BroadcastsInDim S2x541880 (![] : Fin 0 → Fin S2x541880.rank)
  reducesTo_S2x541880_S_d0_1 : S2x541880.ReducesTo [0, 1] S_
  bcast_S_S2x1285560 : S_.BroadcastsInDim S2x1285560 (![] : Fin 0 → Fin S2x1285560.rank)
  reducesTo_S2x1285560_S_d0_1 : S2x1285560.ReducesTo [0, 1] S_

variable [Facts]

def fn_part2 {F : FTy → Type} [FloatOps F] (main_arg5 : IVec S2x541880 32) (main_arg6 : IVec S2x1285560 32) (main_v29 : IVec S_ 1) (main_v31 : IVec S2x541880 1) (main_c_13 : IVec S_ 1) : IVec S_ 1 :=
  let main_v32 : IVec S_ 1 := (fun x v => Host.reduce IntOp.andi x v reducesTo_S2x541880_S_d0_1 h_S_) main_v31 main_c_13
  let main_v33 : IVec S_ 1 := andi main_v29 main_v32
  let main_c_14 : IVec S_ 32 := constantI S_ 32 27094#32
  let main_v34 : IVec S2x541880 32 := broadcastInDim S2x541880 ![] bcast_S_S2x541880 main_c_14
  let main_v35 : IVec S2x541880 1 := cmpi .slt main_arg5 main_v34
  let main_c_15 : IVec S_ 1 := constantI S_ 1 1#1
  let main_v36 : IVec S_ 1 := (fun x v => Host.reduce IntOp.andi x v reducesTo_S2x541880_S_d0_1 h_S_) main_v35 main_c_15
  let main_v37 : IVec S_ 1 := andi main_v33 main_v36
  let main_c_16 : IVec S_ 32 := constantI S_ 32 0#32
  let main_v38 : IVec S2x1285560 32 := broadcastInDim S2x1285560 ![] bcast_S_S2x1285560 main_c_16
  let main_v39 : IVec S2x1285560 1 := cmpi .sge main_arg6 main_v38
  let main_c_17 : IVec S_ 1 := constantI S_ 1 1#1
  let main_v40 : IVec S_ 1 := (fun x v => Host.reduce IntOp.andi x v reducesTo_S2x1285560_S_d0_1 h_S_) main_v39 main_c_17
  let main_v41 : IVec S_ 1 := andi main_v37 main_v40
  let main_c_18 : IVec S_ 32 := constantI S_ 32 42852#32
  let main_v42 : IVec S2x1285560 32 := broadcastInDim S2x1285560 ![] bcast_S_S2x1285560 main_c_18
  let main_v43 : IVec S2x1285560 1 := cmpi .slt main_arg6 main_v42
  let main_c_19 : IVec S_ 1 := constantI S_ 1 1#1
  let main_v44 : IVec S_ 1 := (fun x v => Host.reduce IntOp.andi x v reducesTo_S2x1285560_S_d0_1 h_S_) main_v43 main_c_19
  let main_v45 : IVec S_ 1 := andi main_v41 main_v44
  main_v45

def fn_part1 {F : FTy → Type} [FloatOps F] (main_arg3 : IVec S2000000 32) (main_arg4 : IVec S2000000 32) (main_arg5 : IVec S2x541880 32) (main_arg6 : IVec S2x1285560 32) (main_v13 : IVec S_ 1) (main_v15 : IVec S2000000 1) (main_c_5 : IVec S_ 1) : IVec S_ 1 :=
  let main_v16 : IVec S_ 1 := (fun x v => Host.reduce IntOp.andi x v reducesTo_S2000000_S_d0 h_S_) main_v15 main_c_5
  let main_v17 : IVec S_ 1 := andi main_v13 main_v16
  let main_c_6 : IVec S_ 32 := constantI S_ 32 27094#32
  let main_v18 : IVec S2000000 32 := broadcastInDim S2000000 ![] bcast_S_S2000000 main_c_6
  let main_v19 : IVec S2000000 1 := cmpi .slt main_arg3 main_v18
  let main_c_7 : IVec S_ 1 := constantI S_ 1 1#1
  let main_v20 : IVec S_ 1 := (fun x v => Host.reduce IntOp.andi x v reducesTo_S2000000_S_d0 h_S_) main_v19 main_c_7
  let main_v21 : IVec S_ 1 := andi main_v17 main_v20
  let main_c_8 : IVec S_ 32 := constantI S_ 32 0#32
  let main_v22 : IVec S2000000 32 := broadcastInDim S2000000 ![] bcast_S_S2000000 main_c_8
  let main_v23 : IVec S2000000 1 := cmpi .sge main_arg4 main_v22
  let main_c_9 : IVec S_ 1 := constantI S_ 1 1#1
  let main_v24 : IVec S_ 1 := (fun x v => Host.reduce IntOp.andi x v reducesTo_S2000000_S_d0 h_S_) main_v23 main_c_9
  let main_v25 : IVec S_ 1 := andi main_v21 main_v24
  let main_c_10 : IVec S_ 32 := constantI S_ 32 42852#32
  let main_v26 : IVec S2000000 32 := broadcastInDim S2000000 ![] bcast_S_S2000000 main_c_10
  let main_v27 : IVec S2000000 1 := cmpi .slt main_arg4 main_v26
  let main_c_11 : IVec S_ 1 := constantI S_ 1 1#1
  let main_v28 : IVec S_ 1 := (fun x v => Host.reduce IntOp.andi x v reducesTo_S2000000_S_d0 h_S_) main_v27 main_c_11
  let main_v29 : IVec S_ 1 := andi main_v25 main_v28
  let main_c_12 : IVec S_ 32 := constantI S_ 32 0#32
  let main_v30 : IVec S2x541880 32 := broadcastInDim S2x541880 ![] bcast_S_S2x541880 main_c_12
  let main_v31 : IVec S2x541880 1 := cmpi .sge main_arg5 main_v30
  let main_c_13 : IVec S_ 1 := constantI S_ 1 1#1
  fn_part2 (F := F) main_arg5 main_arg6 main_v29 main_v31 main_c_13

def fn {F : FTy → Type} [FloatOps F] (main_arg0 : FVec F S27094x64 .f32) (main_arg1 : FVec F S42852x64 .f32) (main_arg2 : FVec F S1285560 .f32) (main_arg3 : IVec S2000000 32) (main_arg4 : IVec S2000000 32) (main_arg5 : IVec S2x541880 32) (main_arg6 : IVec S2x1285560 32) : IVec S_ 1 :=
  let main_v0 : FVec F S27094x64 .f32 := Host.absf main_arg0
  let main_cst : FVec F S_ .f32 := constant S_ .f32 0x7F800000#32
  let main_v1 : FVec F S27094x64 .f32 := broadcastInDim S27094x64 ![] bcast_S_S27094x64 main_cst
  let main_v2 : IVec S27094x64 1 := cmpf .olt main_v0 main_v1
  let main_c : IVec S_ 1 := constantI S_ 1 1#1
  let main_v3 : IVec S_ 1 := (fun x v => Host.reduce IntOp.andi x v reducesTo_S27094x64_S_d0_1 h_S_) main_v2 main_c
  let main_v4 : FVec F S42852x64 .f32 := Host.absf main_arg1
  let main_cst_0 : FVec F S_ .f32 := constant S_ .f32 0x7F800000#32
  let main_v5 : FVec F S42852x64 .f32 := broadcastInDim S42852x64 ![] bcast_S_S42852x64 main_cst_0
  let main_v6 : IVec S42852x64 1 := cmpf .olt main_v4 main_v5
  let main_c_1 : IVec S_ 1 := constantI S_ 1 1#1
  let main_v7 : IVec S_ 1 := (fun x v => Host.reduce IntOp.andi x v reducesTo_S42852x64_S_d0_1 h_S_) main_v6 main_c_1
  let main_v8 : IVec S_ 1 := andi main_v3 main_v7
  let main_v9 : FVec F S1285560 .f32 := Host.absf main_arg2
  let main_cst_2 : FVec F S_ .f32 := constant S_ .f32 0x7F800000#32
  let main_v10 : FVec F S1285560 .f32 := broadcastInDim S1285560 ![] bcast_S_S1285560 main_cst_2
  let main_v11 : IVec S1285560 1 := cmpf .olt main_v9 main_v10
  let main_c_3 : IVec S_ 1 := constantI S_ 1 1#1
  let main_v12 : IVec S_ 1 := (fun x v => Host.reduce IntOp.andi x v reducesTo_S1285560_S_d0 h_S_) main_v11 main_c_3
  let main_v13 : IVec S_ 1 := andi main_v8 main_v12
  let main_c_4 : IVec S_ 32 := constantI S_ 32 0#32
  let main_v14 : IVec S2000000 32 := broadcastInDim S2000000 ![] bcast_S_S2000000 main_c_4
  let main_v15 : IVec S2000000 1 := cmpi .sge main_arg3 main_v14
  let main_c_5 : IVec S_ 1 := constantI S_ 1 1#1
  fn_part1 (F := F) main_arg3 main_arg4 main_arg5 main_arg6 main_v13 main_v15 main_c_5
-- ==== Kernel.lean ====
abbrev S27094x64 : Shape := ⟨2, ![27094, 64]⟩
abbrev S42852x64 : Shape := ⟨2, ![42852, 64]⟩
abbrev S1285560 : Shape := ⟨1, ![1285560]⟩
abbrev S2000000 : Shape := ⟨1, ![2000000]⟩
abbrev S2x541880 : Shape := ⟨2, ![2, 541880]⟩
abbrev S2x1285560 : Shape := ⟨2, ![2, 1285560]⟩
abbrev S1x541880 : Shape := ⟨2, ![1, 541880]⟩
abbrev S541880 : Shape := ⟨1, ![541880]⟩
abbrev S_ : Shape := ⟨0, ![]⟩
abbrev S27094 : Shape := ⟨1, ![27094]⟩
abbrev S541880x1 : Shape := ⟨2, ![541880, 1]⟩
abbrev S27136x64 : Shape := ⟨2, ![27136, 64]⟩
abbrev S541952 : Shape := ⟨1, ![541952]⟩
abbrev S2x270976x1 : Shape := ⟨3, ![2, 270976, 1]⟩
abbrev S2x27136x64 : Shape := ⟨3, ![2, 27136, 64]⟩
abbrev S1x64x1 : Shape := ⟨3, ![1, 64, 1]⟩
abbrev S1x27136x64 : Shape := ⟨3, ![1, 27136, 64]⟩
abbrev S64x1 : Shape := ⟨2, ![64, 1]⟩
abbrev S64x27136 : Shape := ⟨2, ![64, 27136]⟩
abbrev S64x64 : Shape := ⟨2, ![64, 64]⟩
abbrev S1x1285560 : Shape := ⟨2, ![1, 1285560]⟩
abbrev S42852 : Shape := ⟨1, ![42852]⟩
abbrev S1285560x1 : Shape := ⟨2, ![1285560, 1]⟩
abbrev S42880x64 : Shape := ⟨2, ![42880, 64]⟩
abbrev S1285632 : Shape := ⟨1, ![1285632]⟩
abbrev S2x642816x1 : Shape := ⟨3, ![2, 642816, 1]⟩
abbrev S2x42880x64 : Shape := ⟨3, ![2, 42880, 64]⟩
abbrev S1x42880x64 : Shape := ⟨3, ![1, 42880, 64]⟩
abbrev S64x42880 : Shape := ⟨2, ![64, 42880]⟩
abbrev S2000000x1 : Shape := ⟨2, ![2000000, 1]⟩
abbrev S2x1000000x1 : Shape := ⟨3, ![2, 1000000, 1]⟩

abbrev nBuf : Space → Nat
  | .hbm => 310
  | .vmem => 72
  | .smem => 0
  | _ => 0

abbrev hbmTy0_0 (i : Nat) : BufTy := match i % 128 with
  | 0 => ⟨S27094x64, .f32⟩
  | 1 => ⟨S42852x64, .f32⟩
  | 2 => ⟨S1285560, .f32⟩
  | 3 => ⟨S2000000, .i32⟩
  | 4 => ⟨S2000000, .i32⟩
  | 5 => ⟨S2x541880, .i32⟩
  | 6 => ⟨S2x1285560, .i32⟩
  | 7 => ⟨S1x541880, .i32⟩
  | 8 => ⟨S541880, .i32⟩
  | 9 => ⟨S1x541880, .i32⟩
  | 10 => ⟨S541880, .i32⟩
  | 11 => ⟨S_, .f32⟩
  | 12 => ⟨S541880, .f32⟩
  | 13 => ⟨S_, .f32⟩
  | 14 => ⟨S27094, .f32⟩
  | 15 => ⟨S541880x1, .i32⟩
  | 16 => ⟨S27094, .f32⟩
  | 17 => ⟨S_, .f32⟩
  | 18 => ⟨S27094, .f32⟩
  | 19 => ⟨S27094, .i1⟩
  | 20 => ⟨S27094, .f32⟩
  | 21 => ⟨S_, .f32⟩
  | 22 => ⟨S_, .f32⟩
  | 23 => ⟨S27094, .f32⟩
  | 24 => ⟨S27094, .f32⟩
  | 25 => ⟨S_, .i32⟩
  | 26 => ⟨S541880, .i32⟩
  | 27 => ⟨S541880, .i1⟩
  | 28 => ⟨S_, .i32⟩
  | 29 => ⟨S541880, .i32⟩
  | 30 => ⟨S541880, .i32⟩
  | 31 => ⟨S541880, .i32⟩
  | 32 => ⟨S541880x1, .i32⟩
  | 33 => ⟨S541880, .f32⟩
  | 34 => ⟨S_, .i32⟩
  | 35 => ⟨S541880, .i32⟩
  | 36 => ⟨S541880, .i1⟩
  | 37 => ⟨S_, .i32⟩
  | 38 => ⟨S541880, .i32⟩
  | 39 => ⟨S541880, .i32⟩
  | 40 => ⟨S541880, .i32⟩
  | 41 => ⟨S541880x1, .i32⟩
  | 42 => ⟨S541880, .f32⟩
  | 43 => ⟨S541880, .f32⟩
  | 44 => ⟨S_, .i32⟩
  | 45 => ⟨S_, .f32⟩
  | 46 => ⟨S27136x64, .f32⟩
  | 47 => ⟨S27136x64, .bf16⟩
  | 48 => ⟨S_, .i32⟩
  | 49 => ⟨S_, .i32⟩
  | 50 => ⟨S541952, .i32⟩
  | 51 => ⟨S2x270976x1, .i32⟩
  | 52 => ⟨S_, .i32⟩
  | 53 => ⟨S_, .i32⟩
  | 54 => ⟨S541952, .i32⟩
  | 55 => ⟨S2x270976x1, .i32⟩
  | 56 => ⟨S_, .f32⟩
  | 57 => ⟨S_, .f32⟩
  | 58 => ⟨S541952, .f32⟩
  | 59 => ⟨S2x270976x1, .f32⟩
  | 60 => ⟨S2x27136x64, .f32⟩
  | 61 => ⟨S1x27136x64, .f32⟩
  | 62 => ⟨S27136x64, .f32⟩
  | 63 => ⟨S1x27136x64, .f32⟩
  | 64 => ⟨S27136x64, .f32⟩
  | 65 => ⟨S27136x64, .f32⟩
  | 66 => ⟨S27094x64, .f32⟩
  | 67 => ⟨S27094x64, .f32⟩
  | 68 => ⟨S1x1285560, .i32⟩
  | 69 => ⟨S1285560, .i32⟩
  | 70 => ⟨S1x1285560, .i32⟩
  | 71 => ⟨S1285560, .i32⟩
  | 72 => ⟨S_, .f32⟩
  | 73 => ⟨S42852, .f32⟩
  | 74 => ⟨S1285560x1, .i32⟩
  | 75 => ⟨S42852, .f32⟩
  | 76 => ⟨S_, .f32⟩
  | 77 => ⟨S42852, .f32⟩
  | 78 => ⟨S42852, .i1⟩
  | 79 => ⟨S42852, .f32⟩
  | 80 => ⟨S_, .f32⟩
  | 81 => ⟨S_, .f32⟩
  | 82 => ⟨S42852, .f32⟩
  | 83 => ⟨S42852, .f32⟩
  | 84 => ⟨S_, .i32⟩
  | 85 => ⟨S1285560, .i32⟩
  | 86 => ⟨S1285560, .i1⟩
  | 87 => ⟨S_, .i32⟩
  | 88 => ⟨S1285560, .i32⟩
  | 89 => ⟨S1285560, .i32⟩
  | 90 => ⟨S1285560, .i32⟩
  | 91 => ⟨S1285560x1, .i32⟩
  | 92 => ⟨S1285560, .f32⟩
  | 93 => ⟨S1285560, .f32⟩
  | 94 => ⟨S_, .i32⟩
  | 95 => ⟨S1285560, .i32⟩
  | 96 => ⟨S1285560, .i1⟩
  | 97 => ⟨S_, .i32⟩
  | 98 => ⟨S1285560, .i32⟩
  | 99 => ⟨S1285560, .i32⟩
  | 100 => ⟨S1285560, .i32⟩
  | 101 => ⟨S1285560x1, .i32⟩
  | 102 => ⟨S1285560, .f32⟩
  | 103 => ⟨S1285560, .f32⟩
  | 104 => ⟨S_, .i32⟩
  | 105 => ⟨S_, .f32⟩
  | 106 => ⟨S42880x64, .f32⟩
  | 107 => ⟨S42880x64, .bf16⟩
  | 108 => ⟨S_, .i32⟩
  | 109 => ⟨S_, .i32⟩
  | 110 => ⟨S1285632, .i32⟩
  | 111 => ⟨S2x642816x1, .i32⟩
  | 112 => ⟨S_, .i32⟩
  | 113 => ⟨S_, .i32⟩
  | 114 => ⟨S1285632, .i32⟩
  | 115 => ⟨S2x642816x1, .i32⟩
  | 116 => ⟨S_, .f32⟩
  | 117 => ⟨S_, .f32⟩
  | 118 => ⟨S1285632, .f32⟩
  | 119 => ⟨S2x642816x1, .f32⟩
  | 120 => ⟨S2x42880x64, .f32⟩
  | 121 => ⟨S1x42880x64, .f32⟩
  | 122 => ⟨S42880x64, .f32⟩
  | 123 => ⟨S1x42880x64, .f32⟩
  | 124 => ⟨S42880x64, .f32⟩
  | 125 => ⟨S42880x64, .f32⟩
  | 126 => ⟨S42852x64, .f32⟩
  | 127 => ⟨S42852x64, .f32⟩
  | _ => ⟨S27094x64, .f32⟩

abbrev hbmTy0_1 (i : Nat) : BufTy := match i % 128 with
  | 0 => ⟨S_, .f32⟩
  | 1 => ⟨S2000000, .f32⟩
  | 2 => ⟨S_, .f32⟩
  | 3 => ⟨S27094, .f32⟩
  | 4 => ⟨S2000000x1, .i32⟩
  | 5 => ⟨S27094, .f32⟩
  | 6 => ⟨S_, .f32⟩
  | 7 => ⟨S2000000, .f32⟩
  | 8 => ⟨S_, .f32⟩
  | 9 => ⟨S42852, .f32⟩
  | 10 => ⟨S2000000x1, .i32⟩
  | 11 => ⟨S42852, .f32⟩
  | 12 => ⟨S_, .i32⟩
  | 13 => ⟨S2000000, .i32⟩
  | 14 => ⟨S2000000, .i1⟩
  | 15 => ⟨S_, .i32⟩
  | 16 => ⟨S2000000, .i32⟩
  | 17 => ⟨S2000000, .i32⟩
  | 18 => ⟨S2000000, .i32⟩
  | 19 => ⟨S2000000x1, .i32⟩
  | 20 => ⟨S2000000, .f32⟩
  | 21 => ⟨S_, .i32⟩
  | 22 => ⟨S2000000, .i32⟩
  | 23 => ⟨S2000000, .i1⟩
  | 24 => ⟨S_, .i32⟩
  | 25 => ⟨S2000000, .i32⟩
  | 26 => ⟨S2000000, .i32⟩
  | 27 => ⟨S2000000, .i32⟩
  | 28 => ⟨S2000000x1, .i32⟩
  | 29 => ⟨S2000000, .f32⟩
  | 30 => ⟨S2000000, .f32⟩
  | 31 => ⟨S2000000, .f32⟩
  | 32 => ⟨S_, .i32⟩
  | 33 => ⟨S_, .f32⟩
  | 34 => ⟨S42880x64, .f32⟩
  | 35 => ⟨S42880x64, .bf16⟩
  | 36 => ⟨S_, .i32⟩
  | 37 => ⟨S_, .i32⟩
  | 38 => ⟨S2000000, .i32⟩
  | 39 => ⟨S2x1000000x1, .i32⟩
  | 40 => ⟨S_, .i32⟩
  | 41 => ⟨S_, .i32⟩
  | 42 => ⟨S2000000, .i32⟩
  | 43 => ⟨S2x1000000x1, .i32⟩
  | 44 => ⟨S_, .f32⟩
  | 45 => ⟨S_, .f32⟩
  | 46 => ⟨S2000000, .f32⟩
  | 47 => ⟨S2x1000000x1, .f32⟩
  | 48 => ⟨S2x27136x64, .f32⟩
  | 49 => ⟨S1x27136x64, .f32⟩
  | 50 => ⟨S27136x64, .f32⟩
  | 51 => ⟨S1x27136x64, .f32⟩
  | 52 => ⟨S27136x64, .f32⟩
  | 53 => ⟨S27136x64, .f32⟩
  | 54 => ⟨S27094x64, .f32⟩
  | 55 => ⟨S_, .i32⟩
  | 56 => ⟨S_, .f32⟩
  | 57 => ⟨S27136x64, .f32⟩
  | 58 => ⟨S27136x64, .bf16⟩
  | 59 => ⟨S_, .i32⟩
  | 60 => ⟨S_, .i32⟩
  | 61 => ⟨S2000000, .i32⟩
  | 62 => ⟨S2x1000000x1, .i32⟩
  | 63 => ⟨S_, .i32⟩
  | 64 => ⟨S_, .i32⟩
  | 65 => ⟨S2000000, .i32⟩
  | 66 => ⟨S2x1000000x1, .i32⟩
  | 67 => ⟨S_, .f32⟩
  | 68 => ⟨S_, .f32⟩
  | 69 => ⟨S2000000, .f32⟩
  | 70 => ⟨S2x1000000x1, .f32⟩
  | 71 => ⟨S2x42880x64, .f32⟩
  | 72 => ⟨S1x42880x64, .f32⟩
  | 73 => ⟨S42880x64, .f32⟩
  | 74 => ⟨S1x42880x64, .f32⟩
  | 75 => ⟨S42880x64, .f32⟩
  | 76 => ⟨S42880x64, .f32⟩
  | 77 => ⟨S42852x64, .f32⟩
  | 78 => ⟨S42852x64, .f32⟩
  | 79 => ⟨S27094x64, .f32⟩
  | 80 => ⟨S_, .i32⟩
  | 81 => ⟨S_, .f32⟩
  | 82 => ⟨S42880x64, .f32⟩
  | 83 => ⟨S42880x64, .bf16⟩
  | 84 => ⟨S_, .i32⟩
  | 85 => ⟨S_, .i32⟩
  | 86 => ⟨S2000000, .i32⟩
  | 87 => ⟨S2x1000000x1, .i32⟩
  | 88 => ⟨S_, .i32⟩
  | 89 => ⟨S_, .i32⟩
  | 90 => ⟨S2000000, .i32⟩
  | 91 => ⟨S2x1000000x1, .i32⟩
  | 92 => ⟨S_, .f32⟩
  | 93 => ⟨S_, .f32⟩
  | 94 => ⟨S2000000, .f32⟩
  | 95 => ⟨S2x1000000x1, .f32⟩
  | 96 => ⟨S2x27136x64, .f32⟩
  | 97 => ⟨S1x27136x64, .f32⟩
  | 98 => ⟨S27136x64, .f32⟩
  | 99 => ⟨S1x27136x64, .f32⟩
  | 100 => ⟨S27136x64, .f32⟩
  | 101 => ⟨S27136x64, .f32⟩
  | 102 => ⟨S27094x64, .f32⟩
  | 103 => ⟨S_, .i32⟩
  | 104 => ⟨S_, .f32⟩
  | 105 => ⟨S27136x64, .f32⟩
  | 106 => ⟨S27136x64, .bf16⟩
  | 107 => ⟨S_, .i32⟩
  | 108 => ⟨S_, .i32⟩
  | 109 => ⟨S2000000, .i32⟩
  | 110 => ⟨S2x1000000x1, .i32⟩
  | 111 => ⟨S_, .i32⟩
  | 112 => ⟨S_, .i32⟩
  | 113 => ⟨S2000000, .i32⟩
  | 114 => ⟨S2x1000000x1, .i32⟩
  | 115 => ⟨S_, .f32⟩
  | 116 => ⟨S_, .f32⟩
  | 117 => ⟨S2000000, .f32⟩
  | 118 => ⟨S2x1000000x1, .f32⟩
  | 119 => ⟨S2x42880x64, .f32⟩
  | 120 => ⟨S1x42880x64, .f32⟩
  | 121 => ⟨S42880x64, .f32⟩
  | 122 => ⟨S1x42880x64, .f32⟩
  | 123 => ⟨S42880x64, .f32⟩
  | 124 => ⟨S42880x64, .f32⟩
  | 125 => ⟨S42852x64, .f32⟩
  | 126 => ⟨S42852x64, .f32⟩
  | 127 => ⟨S27094x64, .f32⟩
  | _ => ⟨S27094x64, .f32⟩

abbrev hbmTy0_2 (i : Nat) : BufTy := match i % 128 with
  | 0 => ⟨S_, .i32⟩
  | 1 => ⟨S_, .f32⟩
  | 2 => ⟨S42880x64, .f32⟩
  | 3 => ⟨S42880x64, .bf16⟩
  | 4 => ⟨S_, .i32⟩
  | 5 => ⟨S_, .i32⟩
  | 6 => ⟨S2000000, .i32⟩
  | 7 => ⟨S2x1000000x1, .i32⟩
  | 8 => ⟨S_, .i32⟩
  | 9 => ⟨S_, .i32⟩
  | 10 => ⟨S2000000, .i32⟩
  | 11 => ⟨S2x1000000x1, .i32⟩
  | 12 => ⟨S_, .f32⟩
  | 13 => ⟨S_, .f32⟩
  | 14 => ⟨S2000000, .f32⟩
  | 15 => ⟨S2x1000000x1, .f32⟩
  | 16 => ⟨S2x27136x64, .f32⟩
  | 17 => ⟨S1x27136x64, .f32⟩
  | 18 => ⟨S27136x64, .f32⟩
  | 19 => ⟨S1x27136x64, .f32⟩
  | 20 => ⟨S27136x64, .f32⟩
  | 21 => ⟨S27136x64, .f32⟩
  | 22 => ⟨S27094x64, .f32⟩
  | 23 => ⟨S_, .i32⟩
  | 24 => ⟨S_, .f32⟩
  | 25 => ⟨S27136x64, .f32⟩
  | 26 => ⟨S27136x64, .bf16⟩
  | 27 => ⟨S_, .i32⟩
  | 28 => ⟨S_, .i32⟩
  | 29 => ⟨S2000000, .i32⟩
  | 30 => ⟨S2x1000000x1, .i32⟩
  | 31 => ⟨S_, .i32⟩
  | 32 => ⟨S_, .i32⟩
  | 33 => ⟨S2000000, .i32⟩
  | 34 => ⟨S2x1000000x1, .i32⟩
  | 35 => ⟨S_, .f32⟩
  | 36 => ⟨S_, .f32⟩
  | 37 => ⟨S2000000, .f32⟩
  | 38 => ⟨S2x1000000x1, .f32⟩
  | 39 => ⟨S2x42880x64, .f32⟩
  | 40 => ⟨S1x42880x64, .f32⟩
  | 41 => ⟨S42880x64, .f32⟩
  | 42 => ⟨S1x42880x64, .f32⟩
  | 43 => ⟨S42880x64, .f32⟩
  | 44 => ⟨S42880x64, .f32⟩
  | 45 => ⟨S42852x64, .f32⟩
  | 46 => ⟨S42852x64, .f32⟩
  | 47 => ⟨S27094x64, .f32⟩
  | 48 => ⟨S_, .f32⟩
  | 49 => ⟨S42852x64, .f32⟩
  | 50 => ⟨S42852x64, .f32⟩
  | 51 => ⟨S_, .f32⟩
  | 52 => ⟨S27094x64, .f32⟩
  | 53 => ⟨S27094x64, .f32⟩
  | _ => ⟨S27094x64, .f32⟩

abbrev hbmTy (i : Nat) : BufTy := match i / 128 with
  | 0 => hbmTy0_0 i
  | 1 => hbmTy0_1 i
  | 2 => hbmTy0_2 i
  | _ => ⟨S27094x64, .f32⟩

abbrev bufTy : (tb : Table) → Fin (tcTables nBuf tb) → BufTy
  | .hbm, ⟨i, _⟩ => hbmTy i
  | .local _ .vmem, ⟨0, _⟩ => ⟨S1x64x1, .i32⟩
  | .local _ .vmem, ⟨1, _⟩ => ⟨S1x64x1, .i32⟩
  | .local _ .vmem, ⟨2, _⟩ => ⟨S1x64x1, .i32⟩
  | .local _ .vmem, ⟨3, _⟩ => ⟨S1x64x1, .i32⟩
  | .local _ .vmem, ⟨4, _⟩ => ⟨S1x64x1, .f32⟩
  | .local _ .vmem, ⟨5, _⟩ => ⟨S1x64x1, .f32⟩
  | .local _ .vmem, ⟨6, _⟩ => ⟨S27136x64, .bf16⟩
  | .local _ .vmem, ⟨7, _⟩ => ⟨S1x27136x64, .f32⟩
  | .local _ .vmem, ⟨8, _⟩ => ⟨S1x27136x64, .f32⟩
  | .local _ .vmem, ⟨9, _⟩ => ⟨S1x64x1, .i32⟩
  | .local _ .vmem, ⟨10, _⟩ => ⟨S1x64x1, .i32⟩
  | .local _ .vmem, ⟨11, _⟩ => ⟨S1x64x1, .i32⟩
  | .local _ .vmem, ⟨12, _⟩ => ⟨S1x64x1, .i32⟩
  | .local _ .vmem, ⟨13, _⟩ => ⟨S1x64x1, .f32⟩
  | .local _ .vmem, ⟨14, _⟩ => ⟨S1x64x1, .f32⟩
  | .local _ .vmem, ⟨15, _⟩ => ⟨S42880x64, .bf16⟩
  | .local _ .vmem, ⟨16, _⟩ => ⟨S1x42880x64, .f32⟩
  | .local _ .vmem, ⟨17, _⟩ => ⟨S1x42880x64, .f32⟩
  | .local _ .vmem, ⟨18, _⟩ => ⟨S1x64x1, .i32⟩
  | .local _ .vmem, ⟨19, _⟩ => ⟨S1x64x1, .i32⟩
  | .local _ .vmem, ⟨20, _⟩ => ⟨S1x64x1, .i32⟩
  | .local _ .vmem, ⟨21, _⟩ => ⟨S1x64x1, .i32⟩
  | .local _ .vmem, ⟨22, _⟩ => ⟨S1x64x1, .f32⟩
  | .local _ .vmem, ⟨23, _⟩ => ⟨S1x64x1, .f32⟩
  | .local _ .vmem, ⟨24, _⟩ => ⟨S42880x64, .bf16⟩
  | .local _ .vmem, ⟨25, _⟩ => ⟨S1x27136x64, .f32⟩
  | .local _ .vmem, ⟨26, _⟩ => ⟨S1x27136x64, .f32⟩
  | .local _ .vmem, ⟨27, _⟩ => ⟨S1x64x1, .i32⟩
  | .local _ .vmem, ⟨28, _⟩ => ⟨S1x64x1, .i32⟩
  | .local _ .vmem, ⟨29, _⟩ => ⟨S1x64x1, .i32⟩
  | .local _ .vmem, ⟨30, _⟩ => ⟨S1x64x1, .i32⟩
  | .local _ .vmem, ⟨31, _⟩ => ⟨S1x64x1, .f32⟩
  | .local _ .vmem, ⟨32, _⟩ => ⟨S1x64x1, .f32⟩
  | .local _ .vmem, ⟨33, _⟩ => ⟨S27136x64, .bf16⟩
  | .local _ .vmem, ⟨34, _⟩ => ⟨S1x42880x64, .f32⟩
  | .local _ .vmem, ⟨35, _⟩ => ⟨S1x42880x64, .f32⟩
  | .local _ .vmem, ⟨36, _⟩ => ⟨S1x64x1, .i32⟩
  | .local _ .vmem, ⟨37, _⟩ => ⟨S1x64x1, .i32⟩
  | .local _ .vmem, ⟨38, _⟩ => ⟨S1x64x1, .i32⟩
  | .local _ .vmem, ⟨39, _⟩ => ⟨S1x64x1, .i32⟩
  | .local _ .vmem, ⟨40, _⟩ => ⟨S1x64x1, .f32⟩
  | .local _ .vmem, ⟨41, _⟩ => ⟨S1x64x1, .f32⟩
  | .local _ .vmem, ⟨42, _⟩ => ⟨S42880x64, .bf16⟩
  | .local _ .vmem, ⟨43, _⟩ => ⟨S1x27136x64, .f32⟩
  | .local _ .vmem, ⟨44, _⟩ => ⟨S1x27136x64, .f32⟩
  | .local _ .vmem, ⟨45, _⟩ => ⟨S1x64x1, .i32⟩
  | .local _ .vmem, ⟨46, _⟩ => ⟨S1x64x1, .i32⟩
  | .local _ .vmem, ⟨47, _⟩ => ⟨S1x64x1, .i32⟩
  | .local _ .vmem, ⟨48, _⟩ => ⟨S1x64x1, .i32⟩
  | .local _ .vmem, ⟨49, _⟩ => ⟨S1x64x1, .f32⟩
  | .local _ .vmem, ⟨50, _⟩ => ⟨S1x64x1, .f32⟩
  | .local _ .vmem, ⟨51, _⟩ => ⟨S27136x64, .bf16⟩
  | .local _ .vmem, ⟨52, _⟩ => ⟨S1x42880x64, .f32⟩
  | .local _ .vmem, ⟨53, _⟩ => ⟨S1x42880x64, .f32⟩
  | .local _ .vmem, ⟨54, _⟩ => ⟨S1x64x1, .i32⟩
  | .local _ .vmem, ⟨55, _⟩ => ⟨S1x64x1, .i32⟩
  | .local _ .vmem, ⟨56, _⟩ => ⟨S1x64x1, .i32⟩
  | .local _ .vmem, ⟨57, _⟩ => ⟨S1x64x1, .i32⟩
  | .local _ .vmem, ⟨58, _⟩ => ⟨S1x64x1, .f32⟩
  | .local _ .vmem, ⟨59, _⟩ => ⟨S1x64x1, .f32⟩
  | .local _ .vmem, ⟨60, _⟩ => ⟨S42880x64, .bf16⟩
  | .local _ .vmem, ⟨61, _⟩ => ⟨S1x27136x64, .f32⟩
  | .local _ .vmem, ⟨62, _⟩ => ⟨S1x27136x64, .f32⟩
  | .local _ .vmem, ⟨63, _⟩ => ⟨S1x64x1, .i32⟩
  | .local _ .vmem, ⟨64, _⟩ => ⟨S1x64x1, .i32⟩
  | .local _ .vmem, ⟨65, _⟩ => ⟨S1x64x1, .i32⟩
  | .local _ .vmem, ⟨66, _⟩ => ⟨S1x64x1, .i32⟩
  | .local _ .vmem, ⟨67, _⟩ => ⟨S1x64x1, .f32⟩
  | .local _ .vmem, ⟨68, _⟩ => ⟨S1x64x1, .f32⟩
  | .local _ .vmem, ⟨69, _⟩ => ⟨S27136x64, .bf16⟩
  | .local _ .vmem, ⟨70, _⟩ => ⟨S1x42880x64, .f32⟩
  | .local _ .vmem, ⟨71, _⟩ => ⟨S1x42880x64, .f32⟩
  | _, _ => ⟨S27094x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_call2_v0 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_call3_v0 : Ref sig .tc := ⟨.hbm, 53, rfl⟩
abbrev main_v31 : Ref sig .tc := ⟨.hbm, 54, rfl⟩
abbrev main_v32 : Ref sig .tc := ⟨.hbm, 55, rfl⟩
abbrev main_cst_9 : Ref sig .tc := ⟨.hbm, 56, rfl⟩
abbrev main_call4_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_call5_v0 : Ref sig .tc := ⟨.hbm, 81, rfl⟩
abbrev main_call5_v1 : Ref sig .tc := ⟨.hbm, 82, rfl⟩
abbrev main_v53 : Ref sig .tc := ⟨.hbm, 83, rfl⟩
abbrev main_c_13 : Ref sig .tc := ⟨.hbm, 84, rfl⟩
abbrev main_v54 : Ref sig .tc := ⟨.hbm, 85, rfl⟩
abbrev main_v55 : Ref sig .tc := ⟨.hbm, 86, rfl⟩
abbrev main_c_14 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_15 : Ref sig .tc := ⟨.hbm, 94, rfl⟩
abbrev main_v62 : Ref sig .tc := ⟨.hbm, 95, rfl⟩
abbrev main_v63 : Ref sig .tc := ⟨.hbm, 96, rfl⟩
abbrev main_c_16 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_17 : Ref sig .tc := ⟨.hbm, 104, rfl⟩
abbrev main_call6_v0 : Ref sig .tc := ⟨.hbm, 105, rfl⟩
abbrev main_v70 : Ref sig .tc := ⟨.hbm, 106, rfl⟩
abbrev main_v71 : Ref sig .tc := ⟨.hbm, 107, rfl⟩
abbrev main_c_18 : Ref sig .tc := ⟨.hbm, 108, rfl⟩
abbrev main_call7_v0 : Ref sig .tc := ⟨.hbm, 109, rfl⟩
abbrev main_v72 : Ref sig .tc := ⟨.hbm, 110, rfl⟩
abbrev main_v73 : Ref sig .tc := ⟨.hbm, 111, rfl⟩
abbrev main_c_19 : Ref sig .tc := ⟨.hbm, 112, rfl⟩
abbrev main_call8_v0 : Ref sig .tc := ⟨.hbm, 113, rfl⟩
abbrev main_v74 : Ref sig .tc := ⟨.hbm, 114, rfl⟩
abbrev main_v75 : Ref sig .tc := ⟨.hbm, 115, rfl⟩
abbrev main_cst_20 : Ref sig .tc := ⟨.hbm, 116, rfl⟩
abbrev main_call9_v0 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_21 : Ref sig .tc := ⟨.hbm, 128, rfl⟩
abbrev main_v86 : Ref sig .tc := ⟨.hbm, 129, rfl⟩
abbrev main_cst_22 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_23 : Ref sig .tc := ⟨.hbm, 134, rfl⟩
abbrev main_v90 : Ref sig .tc := ⟨.hbm, 135, rfl⟩
abbrev main_cst_24 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_c_25 : Ref sig .tc := ⟨.hbm, 140, rfl⟩
abbrev main_v94 : Ref sig .tc := ⟨.hbm, 141, rfl⟩
abbrev main_v95 : Ref sig .tc := ⟨.hbm, 142, rfl⟩
abbrev main_c_26 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_c_27 : Ref sig .tc := ⟨.hbm, 149, rfl⟩
abbrev main_v101 : Ref sig .tc := ⟨.hbm, 150, rfl⟩
abbrev main_v102 : Ref sig .tc := ⟨.hbm, 151, rfl⟩
abbrev main_c_28 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_c_29 : Ref sig .tc := ⟨.hbm, 160, rfl⟩
abbrev main_call10_v0 : Ref sig .tc := ⟨.hbm, 161, rfl⟩
abbrev main_v110 : Ref sig .tc := ⟨.hbm, 162, rfl⟩
abbrev main_v111 : Ref sig .tc := ⟨.hbm, 163, rfl⟩
abbrev main_c_30 : Ref sig .tc := ⟨.hbm, 164, rfl⟩
abbrev main_call11_v0 : Ref sig .tc := ⟨.hbm, 165, rfl⟩
abbrev main_v112 : Ref sig .tc := ⟨.hbm, 166, rfl⟩
abbrev main_v113 : Ref sig .tc := ⟨.hbm, 167, rfl⟩
abbrev main_c_31 : Ref sig .tc := ⟨.hbm, 168, rfl⟩
abbrev main_call12_v0 : Ref sig .tc := ⟨.hbm, 169, rfl⟩
abbrev main_v114 : Ref sig .tc := ⟨.hbm, 170, rfl⟩
abbrev main_v115 : Ref sig .tc := ⟨.hbm, 171, rfl⟩
abbrev main_cst_32 : Ref sig .tc := ⟨.hbm, 172, rfl⟩
abbrev main_call13_v0 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_c_33 : Ref sig .tc := ⟨.hbm, 183, rfl⟩
abbrev main_call14_v0 : Ref sig .tc := ⟨.hbm, 184, rfl⟩
abbrev main_v125 : Ref sig .tc := ⟨.hbm, 185, rfl⟩
abbrev main_v126 : Ref sig .tc := ⟨.hbm, 186, rfl⟩
abbrev main_c_34 : Ref sig .tc := ⟨.hbm, 187, rfl⟩
abbrev main_call15_v0 : Ref sig .tc := ⟨.hbm, 188, rfl⟩
abbrev main_v127 : Ref sig .tc := ⟨.hbm, 189, rfl⟩
abbrev main_v128 : Ref sig .tc := ⟨.hbm, 190, rfl⟩
abbrev main_c_35 : Ref sig .tc := ⟨.hbm, 191, rfl⟩
abbrev main_call16_v0 : Ref sig .tc := ⟨.hbm, 192, rfl⟩
abbrev main_v129 : Ref sig .tc := ⟨.hbm, 193, rfl⟩
abbrev main_v130 : Ref sig .tc := ⟨.hbm, 194, rfl⟩
abbrev main_cst_36 : Ref sig .tc := ⟨.hbm, 195, rfl⟩
abbrev main_call17_v0 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_c_37 : Ref sig .tc := ⟨.hbm, 208, rfl⟩
abbrev main_call18_v0 : Ref sig .tc := ⟨.hbm, 209, rfl⟩
abbrev main_v142 : Ref sig .tc := ⟨.hbm, 210, rfl⟩
abbrev main_v143 : Ref sig .tc := ⟨.hbm, 211, rfl⟩
abbrev main_c_38 : Ref sig .tc := ⟨.hbm, 212, rfl⟩
abbrev main_call19_v0 : Ref sig .tc := ⟨.hbm, 213, rfl⟩
abbrev main_v144 : Ref sig .tc := ⟨.hbm, 214, rfl⟩
abbrev main_v145 : Ref sig .tc := ⟨.hbm, 215, rfl⟩
abbrev main_c_39 : Ref sig .tc := ⟨.hbm, 216, rfl⟩
abbrev main_call20_v0 : Ref sig .tc := ⟨.hbm, 217, rfl⟩
abbrev main_v146 : Ref sig .tc := ⟨.hbm, 218, rfl⟩
abbrev main_v147 : Ref sig .tc := ⟨.hbm, 219, rfl⟩
abbrev main_cst_40 : Ref sig .tc := ⟨.hbm, 220, rfl⟩
abbrev main_call21_v0 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_c_41 : Ref sig .tc := ⟨.hbm, 231, rfl⟩
abbrev main_call22_v0 : Ref sig .tc := ⟨.hbm, 232, rfl⟩
abbrev main_v157 : Ref sig .tc := ⟨.hbm, 233, rfl⟩
abbrev main_v158 : Ref sig .tc := ⟨.hbm, 234, rfl⟩
abbrev main_c_42 : Ref sig .tc := ⟨.hbm, 235, rfl⟩
abbrev main_call23_v0 : Ref sig .tc := ⟨.hbm, 236, rfl⟩
abbrev main_v159 : Ref sig .tc := ⟨.hbm, 237, rfl⟩
abbrev main_v160 : Ref sig .tc := ⟨.hbm, 238, rfl⟩
abbrev main_c_43 : Ref sig .tc := ⟨.hbm, 239, rfl⟩
abbrev main_call24_v0 : Ref sig .tc := ⟨.hbm, 240, rfl⟩
abbrev main_v161 : Ref sig .tc := ⟨.hbm, 241, rfl⟩
abbrev main_v162 : Ref sig .tc := ⟨.hbm, 242, rfl⟩
abbrev main_cst_44 : Ref sig .tc := ⟨.hbm, 243, rfl⟩
abbrev main_call25_v0 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_c_45 : Ref sig .tc := ⟨.hbm, 256, rfl⟩
abbrev main_call26_v0 : Ref sig .tc := ⟨.hbm, 257, rfl⟩
abbrev main_v174 : Ref sig .tc := ⟨.hbm, 258, rfl⟩
abbrev main_v175 : Ref sig .tc := ⟨.hbm, 259, rfl⟩
abbrev main_c_46 : Ref sig .tc := ⟨.hbm, 260, rfl⟩
abbrev main_call27_v0 : Ref sig .tc := ⟨.hbm, 261, rfl⟩
abbrev main_v176 : Ref sig .tc := ⟨.hbm, 262, rfl⟩
abbrev main_v177 : Ref sig .tc := ⟨.hbm, 263, rfl⟩
abbrev main_c_47 : Ref sig .tc := ⟨.hbm, 264, rfl⟩
abbrev main_call28_v0 : Ref sig .tc := ⟨.hbm, 265, rfl⟩
abbrev main_v178 : Ref sig .tc := ⟨.hbm, 266, rfl⟩
abbrev main_v179 : Ref sig .tc := ⟨.hbm, 267, rfl⟩
abbrev main_cst_48 : Ref sig .tc := ⟨.hbm, 268, rfl⟩
abbrev main_call29_v0 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_c_49 : Ref sig .tc := ⟨.hbm, 279, rfl⟩
abbrev main_call30_v0 : Ref sig .tc := ⟨.hbm, 280, rfl⟩
abbrev main_v189 : Ref sig .tc := ⟨.hbm, 281, rfl⟩
abbrev main_v190 : Ref sig .tc := ⟨.hbm, 282, rfl⟩
abbrev main_c_50 : Ref sig .tc := ⟨.hbm, 283, rfl⟩
abbrev main_call31_v0 : Ref sig .tc := ⟨.hbm, 284, rfl⟩
abbrev main_v191 : Ref sig .tc := ⟨.hbm, 285, rfl⟩
abbrev main_v192 : Ref sig .tc := ⟨.hbm, 286, rfl⟩
abbrev main_c_51 : Ref sig .tc := ⟨.hbm, 287, rfl⟩
abbrev main_call32_v0 : Ref sig .tc := ⟨.hbm, 288, rfl⟩
abbrev main_v193 : Ref sig .tc := ⟨.hbm, 289, rfl⟩
abbrev main_v194 : Ref sig .tc := ⟨.hbm, 290, rfl⟩
abbrev main_cst_52 : Ref sig .tc := ⟨.hbm, 291, rfl⟩
abbrev main_call33_v0 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_cst_53 : Ref sig .tc := ⟨.hbm, 304, rfl⟩
abbrev main_v206 : Ref sig .tc := ⟨.hbm, 305, rfl⟩
abbrev main_v207 : Ref sig .tc := ⟨.hbm, 306, rfl⟩
abbrev main_cst_54 : Ref sig .tc := ⟨.hbm, 307, rfl⟩
abbrev main_v208 : Ref sig .tc := ⟨.hbm, 308, rfl⟩
abbrev main_v209 : Ref sig .tc := ⟨.hbm, 309, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg4_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg2_1 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg4_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc7_stg2_1 : Ref sig .tc := ⟨.vmem, 68, rfl⟩
abbrev cc7_stg3_0 : Ref sig .tc := ⟨.vmem, 69, rfl⟩
abbrev cc7_stg4_0 : Ref sig .tc := ⟨.vmem, 70, rfl⟩
abbrev cc7_stg4_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem4_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem4_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem2_1 : DmaSem sig := 59
abbrev cc6_sem3_0 : DmaSem sig := 60
abbrev cc6_sem4_0 : DmaSem sig := 61
abbrev cc6_sem4_1 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67
abbrev cc7_sem2_1 : DmaSem sig := 68
abbrev cc7_sem3_0 : DmaSem sig := 69
abbrev cc7_sem4_0 : DmaSem sig := 70
abbrev cc7_sem4_1 : DmaSem sig := 71

abbrev nD : Nat := 1
abbrev τ : Topo := Topo.v7x

variable {F : FTy → Type} [FloatOps F]

abbrev grid0 : Pipeline.Grid := ⟨2, ![2, 4234], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S27136x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x27136x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 10044], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S42880x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x42880x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![2, 15625], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x64x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x64x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S42880x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x27136x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![2, 15625], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x64x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x64x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x64x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S27136x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x42880x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![2, 15625], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x64x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x64x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x64x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S42880x64 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1x27136x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![2, 15625], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x64x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x64x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x64x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 1 → Memref sig .tc .vmem S27136x64 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 2 → Memref sig .tc .vmem S1x42880x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev grid6 : Pipeline.Grid := ⟨2, ![2, 15625], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x64x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x64x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x64x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 1 → Memref sig .tc .vmem S42880x64 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 2 → Memref sig .tc .vmem S1x27136x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev grid7 : Pipeline.Grid := ⟨2, ![2, 15625], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x64x1 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x64x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S1x64x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 1 → Memref sig .tc .vmem S27136x64 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 2 → Memref sig .tc .vmem S1x42880x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

class Facts₀ : Prop where
  slices_S2x541880_S1x541880_0_0 : S2x541880.Slices ![0, 0] S1x541880
  shapeCasts_S1x541880_S541880 : S1x541880.ShapeCasts S541880
  slices_S2x541880_S1x541880_1_0 : S2x541880.Slices ![1, 0] S1x541880
  bcast_S_S541880 : S_.BroadcastsInDim S541880 (![] : Fin 0 → Fin S541880.rank)
  bcast_S_S27094 : S_.BroadcastsInDim S27094 (![] : Fin 0 → Fin S27094.rank)
  bcast_S541880_S541880x1_0 : S541880.BroadcastsInDim S541880x1 (![0] : Fin 1 → Fin S541880x1.rank)
  pads_S27094x64_S27136x64_0420_000 : S27094x64.Pads (![0, 0] : Fin 2 → Nat) ![42, 0] ![0, 0] S27136x64
  h_S_ : 0 < S_.numel
  bitsLt_bf16_f32 : FTy.bits .bf16 < FTy.bits .f32
  pads_S541880_S541952_0720 : S541880.Pads (![0] : Fin 1 → Nat) ![72] ![0] S541952
  shapeCasts_S541952_S2x270976x1 : S541952.ShapeCasts S2x270976x1
  inb_S1x27136x64_S1x27136x64_0_0_0 : ∀ a, (![0, 0, 0] : Fin 3 → Nat) a + S1x27136x64.size a ≤ S1x27136x64.size a
  h_S1x27136x64 : 0 < S1x27136x64.numel
  shapeCasts_S1x27136x64_S27136x64 : S1x27136x64.ShapeCasts S27136x64
  shapeCasts_S27136x64_S1x27136x64 : S27136x64.ShapeCasts S1x27136x64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  iota_S64x27136_d1_w32 : S64x27136.Iotas .tc 32 [1]
  broadcasts_S64x1_S64x27136 : S64x1.Broadcasts S64x27136
  natLt_1_32 : 1 < 32
  inb_S27136x64_S27136x64_0_0 : ∀ a, (![0, 0] : Fin 2 → Nat) a + S27136x64.size a ≤ S27136x64.size a
  h_S27136x64 : 0 < S27136x64.numel
  shapeCasts_S27136x64_S27136x64 : S27136x64.ShapeCasts S27136x64
  broadcasts_S64x1_S64x64 : S64x1.Broadcasts S64x64
  slices_S2x27136x64_S1x27136x64_0_0_0 : S2x27136x64.Slices ![0, 0, 0] S1x27136x64
  slices_S2x27136x64_S1x27136x64_1_0_0 : S2x27136x64.Slices ![1, 0, 0] S1x27136x64
  slices_S27136x64_S27094x64_0_0 : S27136x64.Slices ![0, 0] S27094x64
  slices_S2x1285560_S1x1285560_0_0 : S2x1285560.Slices ![0, 0] S1x1285560
  shapeCasts_S1x1285560_S1285560 : S1x1285560.ShapeCasts S1285560
  slices_S2x1285560_S1x1285560_1_0 : S2x1285560.Slices ![1, 0] S1x1285560
  bcast_S_S42852 : S_.BroadcastsInDim S42852 (![] : Fin 0 → Fin S42852.rank)
  bcast_S1285560_S1285560x1_0 : S1285560.BroadcastsInDim S1285560x1 (![0] : Fin 1 → Fin S1285560x1.rank)
  bcast_S_S1285560 : S_.BroadcastsInDim S1285560 (![] : Fin 0 → Fin S1285560.rank)
  pads_S42852x64_S42880x64_0280_000 : S42852x64.Pads (![0, 0] : Fin 2 → Nat) ![28, 0] ![0, 0] S42880x64
  pads_S1285560_S1285632_0720 : S1285560.Pads (![0] : Fin 1 → Nat) ![72] ![0] S1285632
  shapeCasts_S1285632_S2x642816x1 : S1285632.ShapeCasts S2x642816x1
  inb_S1x42880x64_S1x42880x64_0_0_0 : ∀ a, (![0, 0, 0] : Fin 3 → Nat) a + S1x42880x64.size a ≤ S1x42880x64.size a
  h_S1x42880x64 : 0 < S1x42880x64.numel
  shapeCasts_S1x42880x64_S42880x64 : S1x42880x64.ShapeCasts S42880x64
  shapeCasts_S42880x64_S1x42880x64 : S42880x64.ShapeCasts S1x42880x64
  iota_S64x42880_d1_w32 : S64x42880.Iotas .tc 32 [1]
  broadcasts_S64x1_S64x42880 : S64x1.Broadcasts S64x42880
  inb_S42880x64_S42880x64_0_0 : ∀ a, (![0, 0] : Fin 2 → Nat) a + S42880x64.size a ≤ S42880x64.size a
  h_S42880x64 : 0 < S42880x64.numel
  shapeCasts_S42880x64_S42880x64 : S42880x64.ShapeCasts S42880x64
  slices_S2x42880x64_S1x42880x64_0_0_0 : S2x42880x64.Slices ![0, 0, 0] S1x42880x64
  slices_S2x42880x64_S1x42880x64_1_0_0 : S2x42880x64.Slices ![1, 0, 0] S1x42880x64
  slices_S42880x64_S42852x64_0_0 : S42880x64.Slices ![0, 0] S42852x64
  bcast_S_S2000000 : S_.BroadcastsInDim S2000000 (![] : Fin 0 → Fin S2000000.rank)
  bcast_S2000000_S2000000x1_0 : S2000000.BroadcastsInDim S2000000x1 (![0] : Fin 1 → Fin S2000000x1.rank)
  pads_S2000000_S2000000_000 : S2000000.Pads (![0] : Fin 1 → Nat) ![0] ![0] S2000000
  shapeCasts_S2000000_S2x1000000x1 : S2000000.ShapeCasts S2x1000000x1
  bcast_S_S42852x64 : S_.BroadcastsInDim S42852x64 (![] : Fin 0 → Fin S42852x64.rank)
  bcast_S_S27094x64 : S_.BroadcastsInDim S27094x64 (![] : Fin 0 → Fin S27094x64.rank)
  scatter_S27094_S541880x1_S541880_n_0_0_1_wf : ScatterDims.WF S27094 S541880x1 S541880 [] [0] [0] 1
  gather_S27094_S541880x1_S541880_n_0_n_n_0_1_1_wf : GatherDims.WF S27094 S541880x1 S541880 [] [0] [] [0] [] 1 ![1]
  dot_S64x27136_S27136x64_S64x64_1_0_0_1_n_n_wf : DotDims.WF S64x27136 S27136x64 S64x64 [1] [0] [0] [1] [] []
  dot_S64x27136_S64x64_S27136x64_0_0_1_1_n_n_wf : DotDims.WF S64x27136 S64x64 S27136x64 [0] [0] [1] [1] [] []
  scatter_S42852_S1285560x1_S1285560_n_0_0_1_wf : ScatterDims.WF S42852 S1285560x1 S1285560 [] [0] [0] 1
  gather_S42852_S1285560x1_S1285560_n_0_n_n_0_1_1_wf : GatherDims.WF S42852 S1285560x1 S1285560 [] [0] [] [0] [] 1 ![1]
  dot_S64x42880_S42880x64_S64x64_1_0_0_1_n_n_wf : DotDims.WF S64x42880 S42880x64 S64x64 [1] [0] [0] [1] [] []
  dot_S64x42880_S64x64_S42880x64_0_0_1_1_n_n_wf : DotDims.WF S64x42880 S64x64 S42880x64 [0] [0] [1] [1] [] []
  scatter_S27094_S2000000x1_S2000000_n_0_0_1_wf : ScatterDims.WF S27094 S2000000x1 S2000000 [] [0] [0] 1
  scatter_S42852_S2000000x1_S2000000_n_0_0_1_wf : ScatterDims.WF S42852 S2000000x1 S2000000 [] [0] [0] 1
  gather_S27094_S2000000x1_S2000000_n_0_n_n_0_1_1_wf : GatherDims.WF S27094 S2000000x1 S2000000 [] [0] [] [0] [] 1 ![1]
  gather_S42852_S2000000x1_S2000000_n_0_n_n_0_1_1_wf : GatherDims.WF S42852 S2000000x1 S2000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1.size a ≤ S2x270976x1.size a
  hwx0_0 : ∀ i : grid0.Coords, EltTy.bits .i32 = 32 ∨ (Rect.block (s := S2x270976x1) S1x64x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1.size a ≤ S2x270976x1.size a
  hwx0_1 : ∀ i : grid0.Coords, EltTy.bits .i32 = 32 ∨ (Rect.block (s := S2x270976x1) S1x64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1.size a ≤ S2x270976x1.size a
  hwx0_2 : ∀ i : grid0.Coords, EltTy.bits .f32 = 32 ∨ (Rect.block (s := S2x270976x1) S1x64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S27136x64.size a ≤ S27136x64.size a
  hwx0_3 : ∀ i : grid0.Coords, EltTy.bits .bf16 = 32 ∨ (Rect.block (s := S27136x64) S27136x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x27136x64.size a ≤ S2x27136x64.size a
  hwx0_4 : ∀ i : grid0.Coords, EltTy.bits .f32 = 32 ∨ (Rect.block (s := S2x27136x64) S1x27136x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x1.size a ≤ S2x642816x1.size a
  hwx1_0 : ∀ i : grid1.Coords, EltTy.bits .i32 = 32 ∨ (Rect.block (s := S2x642816x1) S1x64x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x1.size a ≤ S2x642816x1.size a
  hwx1_1 : ∀ i : grid1.Coords, EltTy.bits .i32 = 32 ∨ (Rect.block (s := S2x642816x1) S1x64x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x1.size a ≤ S2x642816x1.size a
  hwx1_2 : ∀ i : grid1.Coords, EltTy.bits .f32 = 32 ∨ (Rect.block (s := S2x642816x1) S1x64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S42880x64.size a ≤ S42880x64.size a
  hwx1_3 : ∀ i : grid1.Coords, EltTy.bits .bf16 = 32 ∨ (Rect.block (s := S42880x64) S42880x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x42880x64.size a ≤ S2x42880x64.size a
  hwx1_4 : ∀ i : grid1.Coords, EltTy.bits .f32 = 32 ∨ (Rect.block (s := S2x42880x64) S1x42880x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x64x1.size a ≤ S2x1000000x1.size a
  hwx2_0 : ∀ i : grid2.Coords, EltTy.bits .i32 = 32 ∨ (Rect.block (s := S2x1000000x1) S1x64x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x1.size a ≤ S2x1000000x1.size a
  hwx2_1 : ∀ i : grid2.Coords, EltTy.bits .i32 = 32 ∨ (Rect.block (s := S2x1000000x1) S1x64x1.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x64x1.size a ≤ S2x1000000x1.size a
  hwx2_2 : ∀ i : grid2.Coords, EltTy.bits .f32 = 32 ∨ (Rect.block (s := S2x1000000x1) S1x64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S42880x64.size a ≤ S42880x64.size a
  hwx2_3 : ∀ i : grid2.Coords, EltTy.bits .bf16 = 32 ∨ (Rect.block (s := S42880x64) S42880x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x27136x64.size a ≤ S2x27136x64.size a
  hwx2_4 : ∀ i : grid2.Coords, EltTy.bits .f32 = 32 ∨ (Rect.block (s := S2x27136x64) S1x27136x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x64x1.size a ≤ S2x1000000x1.size a
  hwx3_0 : ∀ i : grid3.Coords, EltTy.bits .i32 = 32 ∨ (Rect.block (s := S2x1000000x1) S1x64x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x64x1.size a ≤ S2x1000000x1.size a
  hwx3_1 : ∀ i : grid3.Coords, EltTy.bits .i32 = 32 ∨ (Rect.block (s := S2x1000000x1) S1x64x1.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x64x1.size a ≤ S2x1000000x1.size a
  hwx3_2 : ∀ i : grid3.Coords, EltTy.bits .f32 = 32 ∨ (Rect.block (s := S2x1000000x1) S1x64x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S27136x64.size a ≤ S27136x64.size a
  hwx3_3 : ∀ i : grid3.Coords, EltTy.bits .bf16 = 32 ∨ (Rect.block (s := S27136x64) S27136x64.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x42880x64.size a ≤ S2x42880x64.size a
  hwx3_4 : ∀ i : grid3.Coords, EltTy.bits .f32 = 32 ∨ (Rect.block (s := S2x42880x64) S1x42880x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x64x1.size a ≤ S2x1000000x1.size a
  hwx4_0 : ∀ i : grid4.Coords, EltTy.bits .i32 = 32 ∨ (Rect.block (s := S2x1000000x1) S1x64x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x64x1.size a ≤ S2x1000000x1.size a
  hwx4_1 : ∀ i : grid4.Coords, EltTy.bits .i32 = 32 ∨ (Rect.block (s := S2x1000000x1) S1x64x1.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x64x1.size a ≤ S2x1000000x1.size a
  hwx4_2 : ∀ i : grid4.Coords, EltTy.bits .f32 = 32 ∨ (Rect.block (s := S2x1000000x1) S1x64x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S42880x64.size a ≤ S42880x64.size a
  hwx4_3 : ∀ i : grid4.Coords, EltTy.bits .bf16 = 32 ∨ (Rect.block (s := S42880x64) S42880x64.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x27136x64.size a ≤ S2x27136x64.size a
  hwx4_4 : ∀ i : grid4.Coords, EltTy.bits .f32 = 32 ∨ (Rect.block (s := S2x27136x64) S1x27136x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x64x1.size a ≤ S2x1000000x1.size a
  hwx5_0 : ∀ i : grid5.Coords, EltTy.bits .i32 = 32 ∨ (Rect.block (s := S2x1000000x1) S1x64x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x64x1.size a ≤ S2x1000000x1.size a
  hwx5_1 : ∀ i : grid5.Coords, EltTy.bits .i32 = 32 ∨ (Rect.block (s := S2x1000000x1) S1x64x1.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x64x1.size a ≤ S2x1000000x1.size a
  hwx5_2 : ∀ i : grid5.Coords, EltTy.bits .f32 = 32 ∨ (Rect.block (s := S2x1000000x1) S1x64x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S27136x64.size a ≤ S27136x64.size a
  hwx5_3 : ∀ i : grid5.Coords, EltTy.bits .bf16 = 32 ∨ (Rect.block (s := S27136x64) S27136x64.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x42880x64.size a ≤ S2x42880x64.size a
  hwx5_4 : ∀ i : grid5.Coords, EltTy.bits .f32 = 32 ∨ (Rect.block (s := S2x42880x64) S1x42880x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x64x1.size a ≤ S2x1000000x1.size a
  hwx6_0 : ∀ i : grid6.Coords, EltTy.bits .i32 = 32 ∨ (Rect.block (s := S2x1000000x1) S1x64x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x64x1.size a ≤ S2x1000000x1.size a
  hwx6_1 : ∀ i : grid6.Coords, EltTy.bits .i32 = 32 ∨ (Rect.block (s := S2x1000000x1) S1x64x1.size (cc6_transform_1 i) (hinb6_1 i)).WholeWords (EltTy.packing .i32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x64x1.size a ≤ S2x1000000x1.size a
  hwx6_2 : ∀ i : grid6.Coords, EltTy.bits .f32 = 32 ∨ (Rect.block (s := S2x1000000x1) S1x64x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S42880x64.size a ≤ S42880x64.size a
  hwx6_3 : ∀ i : grid6.Coords, EltTy.bits .bf16 = 32 ∨ (Rect.block (s := S42880x64) S42880x64.size (cc6_transform_3 i) (hinb6_3 i)).WholeWords (EltTy.packing .bf16)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1x27136x64.size a ≤ S2x27136x64.size a
  hwx6_4 : ∀ i : grid6.Coords, EltTy.bits .f32 = 32 ∨ (Rect.block (s := S2x27136x64) S1x27136x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x64x1.size a ≤ S2x1000000x1.size a
  hwx7_0 : ∀ i : grid7.Coords, EltTy.bits .i32 = 32 ∨ (Rect.block (s := S2x1000000x1) S1x64x1.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x64x1.size a ≤ S2x1000000x1.size a
  hwx7_1 : ∀ i : grid7.Coords, EltTy.bits .i32 = 32 ∨ (Rect.block (s := S2x1000000x1) S1x64x1.size (cc7_transform_1 i) (hinb7_1 i)).WholeWords (EltTy.packing .i32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x64x1.size a ≤ S2x1000000x1.size a
  hwx7_2 : ∀ i : grid7.Coords, EltTy.bits .f32 = 32 ∨ (Rect.block (s := S2x1000000x1) S1x64x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S27136x64.size a ≤ S27136x64.size a
  hwx7_3 : ∀ i : grid7.Coords, EltTy.bits .bf16 = 32 ∨ (Rect.block (s := S27136x64) S27136x64.size (cc7_transform_3 i) (hinb7_3 i)).WholeWords (EltTy.packing .bf16)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x42880x64.size a ≤ S2x42880x64.size a
  hwx7_4 : ∀ i : grid7.Coords, EltTy.bits .f32 = 32 ∨ (Rect.block (s := S2x42880x64) S1x42880x64.size (cc7_transform_4 i) (hinb7_4 i)).WholeWords (EltTy.packing .f32)

variable [Facts₀]

def scatter_S27094_S541880x1_S541880_n_0_0_1 : ScatterDims S27094 S541880x1 S541880 where
  updateWindowDims := []
  insertedWindowDims := [0]
  scatterDimsToOperandDims := [0]
  indexVectorDim := 1
  wf := scatter_S27094_S541880x1_S541880_n_0_0_1_wf
def gather_S27094_S541880x1_S541880_n_0_n_n_0_1_1 : GatherDims S27094 S541880x1 S541880 where
  offsetDims := []
  collapsedSliceDims := [0]
  operandBatchingDims := []
  startIndicesBatchingDims := []
  startIndexMap := [0]
  indexVectorDim := 1
  sliceSizes := ![1]
  wf := gather_S27094_S541880x1_S541880_n_0_n_n_0_1_1_wf
def dot_S64x27136_S27136x64_S64x64_1_0_0_1_n_n : DotDims S64x27136 S27136x64 S64x64 where
  lhsContracting := [1]
  rhsContracting := [0]
  lhsNonContracting := [0]
  rhsNonContracting := [1]
  lhsBatch := []
  rhsBatch := []
  wf := dot_S64x27136_S27136x64_S64x64_1_0_0_1_n_n_wf
def dot_S64x27136_S64x64_S27136x64_0_0_1_1_n_n : DotDims S64x27136 S64x64 S27136x64 where
  lhsContracting := [0]
  rhsContracting := [0]
  lhsNonContracting := [1]
  rhsNonContracting := [1]
  lhsBatch := []
  rhsBatch := []
  wf := dot_S64x27136_S64x64_S27136x64_0_0_1_1_n_n_wf
def scatter_S42852_S1285560x1_S1285560_n_0_0_1 : ScatterDims S42852 S1285560x1 S1285560 where
  updateWindowDims := []
  insertedWindowDims := [0]
  scatterDimsToOperandDims := [0]
  indexVectorDim := 1
  wf := scatter_S42852_S1285560x1_S1285560_n_0_0_1_wf
def gather_S42852_S1285560x1_S1285560_n_0_n_n_0_1_1 : GatherDims S42852 S1285560x1 S1285560 where
  offsetDims := []
  collapsedSliceDims := [0]
  operandBatchingDims := []
  startIndicesBatchingDims := []
  startIndexMap := [0]
  indexVectorDim := 1
  sliceSizes := ![1]
  wf := gather_S42852_S1285560x1_S1285560_n_0_n_n_0_1_1_wf
def dot_S64x42880_S42880x64_S64x64_1_0_0_1_n_n : DotDims S64x42880 S42880x64 S64x64 where
  lhsContracting := [1]
  rhsContracting := [0]
  lhsNonContracting := [0]
  rhsNonContracting := [1]
  lhsBatch := []
  rhsBatch := []
  wf := dot_S64x42880_S42880x64_S64x64_1_0_0_1_n_n_wf
def dot_S64x42880_S64x64_S42880x64_0_0_1_1_n_n : DotDims S64x42880 S64x64 S42880x64 where
  lhsContracting := [0]
  rhsContracting := [0]
  lhsNonContracting := [1]
  rhsNonContracting := [1]
  lhsBatch := []
  rhsBatch := []
  wf := dot_S64x42880_S64x64_S42880x64_0_0_1_1_n_n_wf
def scatter_S27094_S2000000x1_S2000000_n_0_0_1 : ScatterDims S27094 S2000000x1 S2000000 where
  updateWindowDims := []
  insertedWindowDims := [0]
  scatterDimsToOperandDims := [0]
  indexVectorDim := 1
  wf := scatter_S27094_S2000000x1_S2000000_n_0_0_1_wf
def scatter_S42852_S2000000x1_S2000000_n_0_0_1 : ScatterDims S42852 S2000000x1 S2000000 where
  updateWindowDims := []
  insertedWindowDims := [0]
  scatterDimsToOperandDims := [0]
  indexVectorDim := 1
  wf := scatter_S42852_S2000000x1_S2000000_n_0_0_1_wf
def gather_S27094_S2000000x1_S2000000_n_0_n_n_0_1_1 : GatherDims S27094 S2000000x1 S2000000 where
  offsetDims := []
  collapsedSliceDims := [0]
  operandBatchingDims := []
  startIndicesBatchingDims := []
  startIndexMap := [0]
  indexVectorDim := 1
  sliceSizes := ![1]
  wf := gather_S27094_S2000000x1_S2000000_n_0_n_n_0_1_1_wf
def gather_S42852_S2000000x1_S2000000_n_0_n_n_0_1_1 : GatherDims S42852 S2000000x1 S2000000 where
  offsetDims := []
  collapsedSliceDims := [0]
  operandBatchingDims := []
  startIndicesBatchingDims := []
  startIndexMap := [0]
  indexVectorDim := 1
  sliceSizes := ![1]
  wf := gather_S42852_S2000000x1_S2000000_n_0_n_n_0_1_1_wf

abbrev win0_0 : Pipeline.Window sig grid0 :=
  Pipeline.Window.ofSpec (Memref.whole main_v30) S1x64x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1x64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S27136x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x27136x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v73) S1x64x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v75) S1x64x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v77) S1x64x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v71) S42880x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v78) S1x42880x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v113) S1x64x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v115) S1x64x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v117) S1x64x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v111) S42880x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v118) S1x27136x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v128) S1x64x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v130) S1x64x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v132) S1x64x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v126) S27136x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v133) S1x42880x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v145) S1x64x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v147) S1x64x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v149) S1x64x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v143) S42880x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v150) S1x27136x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v160) S1x64x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v162) S1x64x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v164) S1x64x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v158) S27136x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v165) S1x42880x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v177) S1x64x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v179) S1x64x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v181) S1x64x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v175) S42880x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v182) S1x27136x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v192) S1x64x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v194) S1x64x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v196) S1x64x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v190) S27136x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v197) S1x42880x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S27094x64 : Shape := ⟨2, ![27094, 64]⟩
abbrev S42852x64 : Shape := ⟨2, ![42852, 64]⟩
abbrev S1285560 : Shape := ⟨1, ![1285560]⟩
abbrev S2000000 : Shape := ⟨1, ![2000000]⟩
abbrev S2x541880 : Shape := ⟨2, ![2, 541880]⟩
abbrev S2x1285560 : Shape := ⟨2, ![2, 1285560]⟩
abbrev S_ : Shape := ⟨0, ![]⟩
abbrev S541880 : Shape := ⟨1, ![541880]⟩
abbrev S1x541880 : Shape := ⟨2, ![1, 541880]⟩
abbrev S27094 : Shape := ⟨1, ![27094]⟩
abbrev S541880x1 : Shape := ⟨2, ![541880, 1]⟩
abbrev S541880x64 : Shape := ⟨2, ![541880, 64]⟩
abbrev S1x1285560 : Shape := ⟨2, ![1, 1285560]⟩
abbrev S42852 : Shape := ⟨1, ![42852]⟩
abbrev S1285560x1 : Shape := ⟨2, ![1285560, 1]⟩
abbrev S1285560x64 : Shape := ⟨2, ![1285560, 64]⟩
abbrev S2000000x1 : Shape := ⟨2, ![2000000, 1]⟩
abbrev S2000000x64 : Shape := ⟨2, ![2000000, 64]⟩

abbrev nBuf : Space → Nat
  | .hbm => 250
  | .vmem => 0
  | .smem => 0
  | _ => 0

abbrev hbmTy0_0 (i : Nat) : BufTy := match i % 128 with
  | 0 => ⟨S27094x64, .f32⟩
  | 1 => ⟨S42852x64, .f32⟩
  | 2 => ⟨S1285560, .f32⟩
  | 3 => ⟨S2000000, .i32⟩
  | 4 => ⟨S2000000, .i32⟩
  | 5 => ⟨S2x541880, .i32⟩
  | 6 => ⟨S2x1285560, .i32⟩
  | 7 => ⟨S_, .f32⟩
  | 8 => ⟨S541880, .f32⟩
  | 9 => ⟨S1x541880, .i32⟩
  | 10 => ⟨S541880, .i32⟩
  | 11 => ⟨S1x541880, .i32⟩
  | 12 => ⟨S541880, .i32⟩
  | 13 => ⟨S_, .f32⟩
  | 14 => ⟨S27094, .f32⟩
  | 15 => ⟨S541880x1, .i32⟩
  | 16 => ⟨S27094, .f32⟩
  | 17 => ⟨S_, .f32⟩
  | 18 => ⟨S27094, .f32⟩
  | 19 => ⟨S27094, .i1⟩
  | 20 => ⟨S27094, .f32⟩
  | 21 => ⟨S_, .f32⟩
  | 22 => ⟨S_, .f32⟩
  | 23 => ⟨S27094, .f32⟩
  | 24 => ⟨S27094, .f32⟩
  | 25 => ⟨S_, .i32⟩
  | 26 => ⟨S541880, .i32⟩
  | 27 => ⟨S541880, .i1⟩
  | 28 => ⟨S_, .i32⟩
  | 29 => ⟨S541880, .i32⟩
  | 30 => ⟨S541880, .i32⟩
  | 31 => ⟨S541880, .i32⟩
  | 32 => ⟨S541880x1, .i32⟩
  | 33 => ⟨S541880, .f32⟩
  | 34 => ⟨S541880, .f32⟩
  | 35 => ⟨S_, .i32⟩
  | 36 => ⟨S541880, .i32⟩
  | 37 => ⟨S541880, .i1⟩
  | 38 => ⟨S_, .i32⟩
  | 39 => ⟨S541880, .i32⟩
  | 40 => ⟨S541880, .i32⟩
  | 41 => ⟨S541880, .i32⟩
  | 42 => ⟨S541880x1, .i32⟩
  | 43 => ⟨S541880, .f32⟩
  | 44 => ⟨S541880, .f32⟩
  | 45 => ⟨S541880x1, .f32⟩
  | 46 => ⟨S_, .i32⟩
  | 47 => ⟨S541880, .i32⟩
  | 48 => ⟨S541880, .i1⟩
  | 49 => ⟨S_, .i32⟩
  | 50 => ⟨S541880, .i32⟩
  | 51 => ⟨S541880, .i32⟩
  | 52 => ⟨S541880, .i32⟩
  | 53 => ⟨S541880x1, .i32⟩
  | 54 => ⟨S541880x64, .f32⟩
  | 55 => ⟨S541880x64, .f32⟩
  | 56 => ⟨S541880x64, .f32⟩
  | 57 => ⟨S_, .f32⟩
  | 58 => ⟨S27094x64, .f32⟩
  | 59 => ⟨S541880x1, .i32⟩
  | 60 => ⟨S27094x64, .f32⟩
  | 61 => ⟨S27094x64, .f32⟩
  | 62 => ⟨S1x1285560, .i32⟩
  | 63 => ⟨S1285560, .i32⟩
  | 64 => ⟨S1x1285560, .i32⟩
  | 65 => ⟨S1285560, .i32⟩
  | 66 => ⟨S_, .f32⟩
  | 67 => ⟨S42852, .f32⟩
  | 68 => ⟨S1285560x1, .i32⟩
  | 69 => ⟨S42852, .f32⟩
  | 70 => ⟨S_, .f32⟩
  | 71 => ⟨S42852, .f32⟩
  | 72 => ⟨S42852, .i1⟩
  | 73 => ⟨S42852, .f32⟩
  | 74 => ⟨S_, .f32⟩
  | 75 => ⟨S_, .f32⟩
  | 76 => ⟨S42852, .f32⟩
  | 77 => ⟨S42852, .f32⟩
  | 78 => ⟨S_, .i32⟩
  | 79 => ⟨S1285560, .i32⟩
  | 80 => ⟨S1285560, .i1⟩
  | 81 => ⟨S_, .i32⟩
  | 82 => ⟨S1285560, .i32⟩
  | 83 => ⟨S1285560, .i32⟩
  | 84 => ⟨S1285560, .i32⟩
  | 85 => ⟨S1285560x1, .i32⟩
  | 86 => ⟨S1285560, .f32⟩
  | 87 => ⟨S1285560, .f32⟩
  | 88 => ⟨S_, .i32⟩
  | 89 => ⟨S1285560, .i32⟩
  | 90 => ⟨S1285560, .i1⟩
  | 91 => ⟨S_, .i32⟩
  | 92 => ⟨S1285560, .i32⟩
  | 93 => ⟨S1285560, .i32⟩
  | 94 => ⟨S1285560, .i32⟩
  | 95 => ⟨S1285560x1, .i32⟩
  | 96 => ⟨S1285560, .f32⟩
  | 97 => ⟨S1285560, .f32⟩
  | 98 => ⟨S1285560x1, .f32⟩
  | 99 => ⟨S_, .i32⟩
  | 100 => ⟨S1285560, .i32⟩
  | 101 => ⟨S1285560, .i1⟩
  | 102 => ⟨S_, .i32⟩
  | 103 => ⟨S1285560, .i32⟩
  | 104 => ⟨S1285560, .i32⟩
  | 105 => ⟨S1285560, .i32⟩
  | 106 => ⟨S1285560x1, .i32⟩
  | 107 => ⟨S1285560x64, .f32⟩
  | 108 => ⟨S1285560x64, .f32⟩
  | 109 => ⟨S1285560x64, .f32⟩
  | 110 => ⟨S_, .f32⟩
  | 111 => ⟨S42852x64, .f32⟩
  | 112 => ⟨S1285560x1, .i32⟩
  | 113 => ⟨S42852x64, .f32⟩
  | 114 => ⟨S42852x64, .f32⟩
  | 115 => ⟨S_, .f32⟩
  | 116 => ⟨S2000000, .f32⟩
  | 117 => ⟨S_, .f32⟩
  | 118 => ⟨S27094, .f32⟩
  | 119 => ⟨S2000000x1, .i32⟩
  | 120 => ⟨S27094, .f32⟩
  | 121 => ⟨S_, .f32⟩
  | 122 => ⟨S2000000, .f32⟩
  | 123 => ⟨S_, .f32⟩
  | 124 => ⟨S42852, .f32⟩
  | 125 => ⟨S2000000x1, .i32⟩
  | 126 => ⟨S42852, .f32⟩
  | 127 => ⟨S_, .i32⟩
  | _ => ⟨S27094x64, .f32⟩

abbrev hbmTy0_1 (i : Nat) : BufTy := match i % 128 with
  | 0 => ⟨S2000000, .i32⟩
  | 1 => ⟨S2000000, .i1⟩
  | 2 => ⟨S_, .i32⟩
  | 3 => ⟨S2000000, .i32⟩
  | 4 => ⟨S2000000, .i32⟩
  | 5 => ⟨S2000000, .i32⟩
  | 6 => ⟨S2000000x1, .i32⟩
  | 7 => ⟨S2000000, .f32⟩
  | 8 => ⟨S_, .i32⟩
  | 9 => ⟨S2000000, .i32⟩
  | 10 => ⟨S2000000, .i1⟩
  | 11 => ⟨S_, .i32⟩
  | 12 => ⟨S2000000, .i32⟩
  | 13 => ⟨S2000000, .i32⟩
  | 14 => ⟨S2000000, .i32⟩
  | 15 => ⟨S2000000x1, .i32⟩
  | 16 => ⟨S2000000, .f32⟩
  | 17 => ⟨S2000000, .f32⟩
  | 18 => ⟨S2000000, .f32⟩
  | 19 => ⟨S2000000x1, .f32⟩
  | 20 => ⟨S_, .i32⟩
  | 21 => ⟨S2000000, .i32⟩
  | 22 => ⟨S2000000, .i1⟩
  | 23 => ⟨S_, .i32⟩
  | 24 => ⟨S2000000, .i32⟩
  | 25 => ⟨S2000000, .i32⟩
  | 26 => ⟨S2000000, .i32⟩
  | 27 => ⟨S2000000x1, .i32⟩
  | 28 => ⟨S2000000x64, .f32⟩
  | 29 => ⟨S2000000x64, .f32⟩
  | 30 => ⟨S2000000x64, .f32⟩
  | 31 => ⟨S_, .f32⟩
  | 32 => ⟨S27094x64, .f32⟩
  | 33 => ⟨S2000000x1, .i32⟩
  | 34 => ⟨S27094x64, .f32⟩
  | 35 => ⟨S_, .i32⟩
  | 36 => ⟨S2000000, .i32⟩
  | 37 => ⟨S2000000, .i1⟩
  | 38 => ⟨S_, .i32⟩
  | 39 => ⟨S2000000, .i32⟩
  | 40 => ⟨S2000000, .i32⟩
  | 41 => ⟨S2000000, .i32⟩
  | 42 => ⟨S2000000x1, .i32⟩
  | 43 => ⟨S2000000x64, .f32⟩
  | 44 => ⟨S2000000x64, .f32⟩
  | 45 => ⟨S2000000x64, .f32⟩
  | 46 => ⟨S_, .f32⟩
  | 47 => ⟨S42852x64, .f32⟩
  | 48 => ⟨S2000000x1, .i32⟩
  | 49 => ⟨S42852x64, .f32⟩
  | 50 => ⟨S42852x64, .f32⟩
  | 51 => ⟨S27094x64, .f32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000x64, .f32⟩
  | 61 => ⟨S2000000x64, .f32⟩
  | 62 => ⟨S2000000x64, .f32⟩
  | 63 => ⟨S_, .f32⟩
  | 64 => ⟨S27094x64, .f32⟩
  | 65 => ⟨S2000000x1, .i32⟩
  | 66 => ⟨S27094x64, .f32⟩
  | 67 => ⟨S_, .i32⟩
  | 68 => ⟨S2000000, .i32⟩
  | 69 => ⟨S2000000, .i1⟩
  | 70 => ⟨S_, .i32⟩
  | 71 => ⟨S2000000, .i32⟩
  | 72 => ⟨S2000000, .i32⟩
  | 73 => ⟨S2000000, .i32⟩
  | 74 => ⟨S2000000x1, .i32⟩
  | 75 => ⟨S2000000x64, .f32⟩
  | 76 => ⟨S2000000x64, .f32⟩
  | 77 => ⟨S2000000x64, .f32⟩
  | 78 => ⟨S_, .f32⟩
  | 79 => ⟨S42852x64, .f32⟩
  | 80 => ⟨S2000000x1, .i32⟩
  | 81 => ⟨S42852x64, .f32⟩
  | 82 => ⟨S42852x64, .f32⟩
  | 83 => ⟨S27094x64, .f32⟩
  | 84 => ⟨S_, .i32⟩
  | 85 => ⟨S2000000, .i32⟩
  | 86 => ⟨S2000000, .i1⟩
  | 87 => ⟨S_, .i32⟩
  | 88 => ⟨S2000000, .i32⟩
  | 89 => ⟨S2000000, .i32⟩
  | 90 => ⟨S2000000, .i32⟩
  | 91 => ⟨S2000000x1, .i32⟩
  | 92 => ⟨S2000000x64, .f32⟩
  | 93 => ⟨S2000000x64, .f32⟩
  | 94 => ⟨S2000000x64, .f32⟩
  | 95 => ⟨S_, .f32⟩
  | 96 => ⟨S27094x64, .f32⟩
  | 97 => ⟨S2000000x1, .i32⟩
  | 98 => ⟨S27094x64, .f32⟩
  | 99 => ⟨S_, .i32⟩
  | 100 => ⟨S2000000, .i32⟩
  | 101 => ⟨S2000000, .i1⟩
  | 102 => ⟨S_, .i32⟩
  | 103 => ⟨S2000000, .i32⟩
  | 104 => ⟨S2000000, .i32⟩
  | 105 => ⟨S2000000, .i32⟩
  | 106 => ⟨S2000000x1, .i32⟩
  | 107 => ⟨S2000000x64, .f32⟩
  | 108 => ⟨S2000000x64, .f32⟩
  | 109 => ⟨S2000000x64, .f32⟩
  | 110 => ⟨S_, .f32⟩
  | 111 => ⟨S42852x64, .f32⟩
  | 112 => ⟨S2000000x1, .i32⟩
  | 113 => ⟨S42852x64, .f32⟩
  | 114 => ⟨S42852x64, .f32⟩
  | 115 => ⟨S27094x64, .f32⟩
  | 116 => ⟨S_, .f32⟩
  | 117 => ⟨S42852x64, .f32⟩
  | 118 => ⟨S42852x64, .f32⟩
  | 119 => ⟨S_, .f32⟩
  | 120 => ⟨S27094x64, .f32⟩
  | 121 => ⟨S27094x64, .f32⟩
  | _ => ⟨S27094x64, .f32⟩

abbrev hbmTy (i : Nat) : BufTy := match i / 128 with
  | 0 => hbmTy0_0 i
  | 1 => hbmTy0_1 i
  | _ => ⟨S27094x64, .f32⟩

abbrev bufTy : (tb : Table) → Fin (tcTables nBuf tb) → BufTy
  | .hbm, ⟨i, _⟩ => hbmTy i
  | _, _ => ⟨S27094x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_call1_v0 : Ref sig .tc := ⟨.hbm, 75, rfl⟩
abbrev main_call1_v1 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_c_13 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_14 : Ref sig .tc := ⟨.hbm, 88, rfl⟩
abbrev main_v61 : Ref sig .tc := ⟨.hbm, 89, rfl⟩
abbrev main_v62 : Ref sig .tc := ⟨.hbm, 90, rfl⟩
abbrev main_c_15 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_16 : Ref sig .tc := ⟨.hbm, 99, rfl⟩
abbrev main_v70 : Ref sig .tc := ⟨.hbm, 100, rfl⟩
abbrev main_v71 : Ref sig .tc := ⟨.hbm, 101, rfl⟩
abbrev main_c_17 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_18 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_19 : Ref sig .tc := ⟨.hbm, 115, rfl⟩
abbrev main_v83 : Ref sig .tc := ⟨.hbm, 116, rfl⟩
abbrev main_cst_20 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_21 : Ref sig .tc := ⟨.hbm, 121, rfl⟩
abbrev main_v87 : Ref sig .tc := ⟨.hbm, 122, rfl⟩
abbrev main_cst_22 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_23 : Ref sig .tc := ⟨.hbm, 127, rfl⟩
abbrev main_v91 : Ref sig .tc := ⟨.hbm, 128, rfl⟩
abbrev main_v92 : Ref sig .tc := ⟨.hbm, 129, rfl⟩
abbrev main_c_24 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_c_25 : Ref sig .tc := ⟨.hbm, 136, rfl⟩
abbrev main_v98 : Ref sig .tc := ⟨.hbm, 137, rfl⟩
abbrev main_v99 : Ref sig .tc := ⟨.hbm, 138, rfl⟩
abbrev main_c_26 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_27 : Ref sig .tc := ⟨.hbm, 148, rfl⟩
abbrev main_v108 : Ref sig .tc := ⟨.hbm, 149, rfl⟩
abbrev main_v109 : Ref sig .tc := ⟨.hbm, 150, rfl⟩
abbrev main_c_28 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_29 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_c_30 : Ref sig .tc := ⟨.hbm, 163, rfl⟩
abbrev main_v120 : Ref sig .tc := ⟨.hbm, 164, rfl⟩
abbrev main_v121 : Ref sig .tc := ⟨.hbm, 165, rfl⟩
abbrev main_c_31 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_32 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_c_33 : Ref sig .tc := ⟨.hbm, 180, rfl⟩
abbrev main_v134 : Ref sig .tc := ⟨.hbm, 181, rfl⟩
abbrev main_v135 : Ref sig .tc := ⟨.hbm, 182, rfl⟩
abbrev main_c_34 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_35 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_c_36 : Ref sig .tc := ⟨.hbm, 195, rfl⟩
abbrev main_v146 : Ref sig .tc := ⟨.hbm, 196, rfl⟩
abbrev main_v147 : Ref sig .tc := ⟨.hbm, 197, rfl⟩
abbrev main_c_37 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_38 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_c_39 : Ref sig .tc := ⟨.hbm, 212, rfl⟩
abbrev main_v160 : Ref sig .tc := ⟨.hbm, 213, rfl⟩
abbrev main_v161 : Ref sig .tc := ⟨.hbm, 214, rfl⟩
abbrev main_c_40 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_cst_41 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_c_42 : Ref sig .tc := ⟨.hbm, 227, rfl⟩
abbrev main_v172 : Ref sig .tc := ⟨.hbm, 228, rfl⟩
abbrev main_v173 : Ref sig .tc := ⟨.hbm, 229, rfl⟩
abbrev main_c_43 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_cst_44 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_cst_45 : Ref sig .tc := ⟨.hbm, 244, rfl⟩
abbrev main_v186 : Ref sig .tc := ⟨.hbm, 245, rfl⟩
abbrev main_v187 : Ref sig .tc := ⟨.hbm, 246, rfl⟩
abbrev main_cst_46 : Ref sig .tc := ⟨.hbm, 247, rfl⟩
abbrev main_v188 : Ref sig .tc := ⟨.hbm, 248, rfl⟩
abbrev main_v189 : Ref sig .tc := ⟨.hbm, 249, rfl⟩

abbrev nD : Nat := 1
abbrev τ : Topo := Topo.v7x

variable {F : FTy → Type} [FloatOps F]

class Facts₀ : Prop where
  bcast_S_S541880 : S_.BroadcastsInDim S541880 (![] : Fin 0 → Fin S541880.rank)
  slices_S2x541880_S1x541880_0_0 : S2x541880.Slices ![0, 0] S1x541880
  shapeCasts_S1x541880_S541880 : S1x541880.ShapeCasts S541880
  slices_S2x541880_S1x541880_1_0 : S2x541880.Slices ![1, 0] S1x541880
  bcast_S_S27094 : S_.BroadcastsInDim S27094 (![] : Fin 0 → Fin S27094.rank)
  bcast_S541880_S541880x1_0 : S541880.BroadcastsInDim S541880x1 (![0] : Fin 1 → Fin S541880x1.rank)
  bcast_S541880x1_S541880x64_0_1 : S541880x1.BroadcastsInDim S541880x64 (![0, 1] : Fin 2 → Fin S541880x64.rank)
  bcast_S_S27094x64 : S_.BroadcastsInDim S27094x64 (![] : Fin 0 → Fin S27094x64.rank)
  slices_S2x1285560_S1x1285560_0_0 : S2x1285560.Slices ![0, 0] S1x1285560
  shapeCasts_S1x1285560_S1285560 : S1x1285560.ShapeCasts S1285560
  slices_S2x1285560_S1x1285560_1_0 : S2x1285560.Slices ![1, 0] S1x1285560
  bcast_S_S42852 : S_.BroadcastsInDim S42852 (![] : Fin 0 → Fin S42852.rank)
  bcast_S1285560_S1285560x1_0 : S1285560.BroadcastsInDim S1285560x1 (![0] : Fin 1 → Fin S1285560x1.rank)
  bcast_S_S1285560 : S_.BroadcastsInDim S1285560 (![] : Fin 0 → Fin S1285560.rank)
  bcast_S1285560x1_S1285560x64_0_1 : S1285560x1.BroadcastsInDim S1285560x64 (![0, 1] : Fin 2 → Fin S1285560x64.rank)
  bcast_S_S42852x64 : S_.BroadcastsInDim S42852x64 (![] : Fin 0 → Fin S42852x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  scatter_S27094_S541880x1_S541880_n_0_0_1_wf : ScatterDims.WF S27094 S541880x1 S541880 [] [0] [0] 1
  gather_S27094_S541880x1_S541880_n_0_n_n_0_1_1_wf : GatherDims.WF S27094 S541880x1 S541880 [] [0] [] [0] [] 1 ![1]
  gather_S27094x64_S541880x1_S541880x64_1_0_n_n_0_1_164_wf : GatherDims.WF S27094x64 S541880x1 S541880x64 [1] [0] [] [0] [] 1 ![1, 64]
  scatter_S27094x64_S541880x1_S541880x64_1_0_0_1_wf : ScatterDims.WF S27094x64 S541880x1 S541880x64 [1] [0] [0] 1
  scatter_S42852_S1285560x1_S1285560_n_0_0_1_wf : ScatterDims.WF S42852 S1285560x1 S1285560 [] [0] [0] 1
  gather_S42852_S1285560x1_S1285560_n_0_n_n_0_1_1_wf : GatherDims.WF S42852 S1285560x1 S1285560 [] [0] [] [0] [] 1 ![1]
  gather_S42852x64_S1285560x1_S1285560x64_1_0_n_n_0_1_164_wf : GatherDims.WF S42852x64 S1285560x1 S1285560x64 [1] [0] [] [0] [] 1 ![1, 64]
  scatter_S42852x64_S1285560x1_S1285560x64_1_0_0_1_wf : ScatterDims.WF S42852x64 S1285560x1 S1285560x64 [1] [0] [0] 1
  scatter_S27094_S2000000x1_S2000000_n_0_0_1_wf : ScatterDims.WF S27094 S2000000x1 S2000000 [] [0] [0] 1
  scatter_S42852_S2000000x1_S2000000_n_0_0_1_wf : ScatterDims.WF S42852 S2000000x1 S2000000 [] [0] [0] 1
  gather_S27094_S2000000x1_S2000000_n_0_n_n_0_1_1_wf : GatherDims.WF S27094 S2000000x1 S2000000 [] [0] [] [0] [] 1 ![1]
  gather_S42852_S2000000x1_S2000000_n_0_n_n_0_1_1_wf : GatherDims.WF S42852 S2000000x1 S2000000 [] [0] [] [0] [] 1 ![1]
  gather_S42852x64_S2000000x1_S2000000x64_1_0_n_n_0_1_164_wf : GatherDims.WF S42852x64 S2000000x1 S2000000x64 [1] [0] [] [0] [] 1 ![1, 64]
  scatter_S27094x64_S2000000x1_S2000000x64_1_0_0_1_wf : ScatterDims.WF S27094x64 S2000000x1 S2000000x64 [1] [0] [0] 1
  gather_S27094x64_S2000000x1_S2000000x64_1_0_n_n_0_1_164_wf : GatherDims.WF S27094x64 S2000000x1 S2000000x64 [1] [0] [] [0] [] 1 ![1, 64]
  scatter_S42852x64_S2000000x1_S2000000x64_1_0_0_1_wf : ScatterDims.WF S42852x64 S2000000x1 S2000000x64 [1] [0] [0] 1

variable [Facts₀]

def scatter_S27094_S541880x1_S541880_n_0_0_1 : ScatterDims S27094 S541880x1 S541880 where
  updateWindowDims := []
  insertedWindowDims := [0]
  scatterDimsToOperandDims := [0]
  indexVectorDim := 1
  wf := scatter_S27094_S541880x1_S541880_n_0_0_1_wf
def gather_S27094_S541880x1_S541880_n_0_n_n_0_1_1 : GatherDims S27094 S541880x1 S541880 where
  offsetDims := []
  collapsedSliceDims := [0]
  operandBatchingDims := []
  startIndicesBatchingDims := []
  startIndexMap := [0]
  indexVectorDim := 1
  sliceSizes := ![1]
  wf := gather_S27094_S541880x1_S541880_n_0_n_n_0_1_1_wf
def gather_S27094x64_S541880x1_S541880x64_1_0_n_n_0_1_164 : GatherDims S27094x64 S541880x1 S541880x64 where
  offsetDims := [1]
  collapsedSliceDims := [0]
  operandBatchingDims := []
  startIndicesBatchingDims := []
  startIndexMap := [0]
  indexVectorDim := 1
  sliceSizes := ![1, 64]
  wf := gather_S27094x64_S541880x1_S541880x64_1_0_n_n_0_1_164_wf
def scatter_S27094x64_S541880x1_S541880x64_1_0_0_1 : ScatterDims S27094x64 S541880x1 S541880x64 where
  updateWindowDims := [1]
  insertedWindowDims := [0]
  scatterDimsToOperandDims := [0]
  indexVectorDim := 1
  wf := scatter_S27094x64_S541880x1_S541880x64_1_0_0_1_wf
def scatter_S42852_S1285560x1_S1285560_n_0_0_1 : ScatterDims S42852 S1285560x1 S1285560 where
  updateWindowDims := []
  insertedWindowDims := [0]
  scatterDimsToOperandDims := [0]
  indexVectorDim := 1
  wf := scatter_S42852_S1285560x1_S1285560_n_0_0_1_wf
def gather_S42852_S1285560x1_S1285560_n_0_n_n_0_1_1 : GatherDims S42852 S1285560x1 S1285560 where
  offsetDims := []
  collapsedSliceDims := [0]
  operandBatchingDims := []
  startIndicesBatchingDims := []
  startIndexMap := [0]
  indexVectorDim := 1
  sliceSizes := ![1]
  wf := gather_S42852_S1285560x1_S1285560_n_0_n_n_0_1_1_wf
def gather_S42852x64_S1285560x1_S1285560x64_1_0_n_n_0_1_164 : GatherDims S42852x64 S1285560x1 S1285560x64 where
  offsetDims := [1]
  collapsedSliceDims := [0]
  operandBatchingDims := []
  startIndicesBatchingDims := []
  startIndexMap := [0]
  indexVectorDim := 1
  sliceSizes := ![1, 64]
  wf := gather_S42852x64_S1285560x1_S1285560x64_1_0_n_n_0_1_164_wf
def scatter_S42852x64_S1285560x1_S1285560x64_1_0_0_1 : ScatterDims S42852x64 S1285560x1 S1285560x64 where
  updateWindowDims := [1]
  insertedWindowDims := [0]
  scatterDimsToOperandDims := [0]
  indexVectorDim := 1
  wf := scatter_S42852x64_S1285560x1_S1285560x64_1_0_0_1_wf
def scatter_S27094_S2000000x1_S2000000_n_0_0_1 : ScatterDims S27094 S2000000x1 S2000000 where
  updateWindowDims := []
  insertedWindowDims := [0]
  scatterDimsToOperandDims := [0]
  indexVectorDim := 1
  wf := scatter_S27094_S2000000x1_S2000000_n_0_0_1_wf
def scatter_S42852_S2000000x1_S2000000_n_0_0_1 : ScatterDims S42852 S2000000x1 S2000000 where
  updateWindowDims := []
  insertedWindowDims := [0]
  scatterDimsToOperandDims := [0]
  indexVectorDim := 1
  wf := scatter_S42852_S2000000x1_S2000000_n_0_0_1_wf
def gather_S27094_S2000000x1_S2000000_n_0_n_n_0_1_1 : GatherDims S27094 S2000000x1 S2000000 where
  offsetDims := []
  collapsedSliceDims := [0]
  operandBatchingDims := []
  startIndicesBatchingDims := []
  startIndexMap := [0]
  indexVectorDim := 1
  sliceSizes := ![1]
  wf := gather_S27094_S2000000x1_S2000000_n_0_n_n_0_1_1_wf
def gather_S42852_S2000000x1_S2000000_n_0_n_n_0_1_1 : GatherDims S42852 S2000000x1 S2000000 where
  offsetDims := []
  collapsedSliceDims := [0]
  operandBatchingDims := []
  startIndicesBatchingDims := []
  startIndexMap := [0]
  indexVectorDim := 1
  sliceSizes := ![1]
  wf := gather_S42852_S2000000x1_S2000000_n_0_n_n_0_1_1_wf
def gather_S42852x64_S2000000x1_S2000000x64_1_0_n_n_0_1_164 : GatherDims S42852x64 S2000000x1 S2000000x64 where
  offsetDims := [1]
  collapsedSliceDims := [0]
  operandBatchingDims := []
  startIndicesBatchingDims := []
  startIndexMap := [0]
  indexVectorDim := 1
  sliceSizes := ![1, 64]
  wf := gather_S42852x64_S2000000x1_S2000000x64_1_0_n_n_0_1_164_wf
def scatter_S27094x64_S2000000x1_S2000000x64_1_0_0_1 : ScatterDims S27094x64 S2000000x1 S2000000x64 where
  updateWindowDims := [1]
  insertedWindowDims := [0]
  scatterDimsToOperandDims := [0]
  indexVectorDim := 1
  wf := scatter_S27094x64_S2000000x1_S2000000x64_1_0_0_1_wf
def gather_S27094x64_S2000000x1_S2000000x64_1_0_n_n_0_1_164 : GatherDims S27094x64 S2000000x1 S2000000x64 where
  offsetDims := [1]
  collapsedSliceDims := [0]
  operandBatchingDims := []
  startIndicesBatchingDims := []
  startIndexMap := [0]
  indexVectorDim := 1
  sliceSizes := ![1, 64]
  wf := gather_S27094x64_S2000000x1_S2000000x64_1_0_n_n_0_1_164_wf
def scatter_S42852x64_S2000000x1_S2000000x64_1_0_0_1 : ScatterDims S42852x64 S2000000x1 S2000000x64 where
  updateWindowDims := [1]
  insertedWindowDims := [0]
  scatterDimsToOperandDims := [0]
  indexVectorDim := 1
  wf := scatter_S42852x64_S2000000x1_S2000000x64_1_0_0_1_wf

class Facts : Prop extends Facts₀ where

variable [Facts]
-- ==== Proof.KHost0.lean ====
/- Host stretch 0 of the idealized kernel program's @main: what its operations leave in each buffer later code reads, as one
   function, the composition of the printed operations, of the contents of the buffers it starts from. -/
import proofs.«400075_j26585847562450_2_alg».proof.Proof.Gen.KernelIdeal.Launch
import Idealize.ShloMosaic.Lib.StableHlo.Run
import Idealize.ShloMosaic.PureOps.Ideal

set_option maxRecDepth 16384

noncomputable section

namespace Cert.KernelIdeal.KHost0

open Cert.KernelIdeal Cert.KernelIdeal.Gen Idealize.ShloMosaic Idealize.ShloMosaic.StableHlo Idealize.SL.Sem

variable {F : FTy → Type} [FloatOps F]

/-- The buffer contents after the stretch's operations, in order, from the contents V. -/
abbrev aft (V : Valuation τ sig (Elt F)) : Valuation τ sig (Elt F) := (after hostOps0_10 (after hostOps0_9 (after hostOps0_8 (after hostOps0_7 (after hostOps0_6 (after hostOps0_5 (after hostOps0_4 (after hostOps0_3 (after hostOps0_2 (after hostOps0_1 (after hostOps0 V)))))))))))

/-- What the stretch leaves in main_v1, as its operations compute it from main_arg5. -/
def v1 (p_arg5 : (main_arg5 : Ref sig .tc).ty.Contents (Elt F)) : (main_v1 : Ref sig .tc).ty.Contents (Elt F) :=
  (shapeCast _ (((extractStridedSlice S1x541880 ![0, 0] · slices_S2x541880_S1x541880_0_0) : (⟨S2x541880, .i32⟩ : BufTy).Contents (Elt F) → (⟨S1x541880, .i32⟩ : BufTy).Contents (Elt F)) p_arg5) shapeCasts_S1x541880_S541880)
set_option maxHeartbeats 8000000 in
theorem v1_eq (V : Valuation τ sig (Elt F)) : aft V (Proc.devRef .tc main_v1) = v1 (V (Proc.devRef .tc main_arg5)) := by
  unfold v1
  after_results_simp <;> rfl

/-- What the stretch leaves in main_v3, as its operations compute it from main_arg5. -/
def v3 (p_arg5 : (main_arg5 : Ref sig .tc).ty.Contents (Elt F)) : (main_v3 : Ref sig .tc).ty.Contents (Elt F) :=
  (shapeCast _ (((extractStridedSlice S1x541880 ![1, 0] · slices_S2x541880_S1x541880_1_0) : (⟨S2x541880, .i32⟩ : BufTy).Contents (Elt F) → (⟨S1x541880, .i32⟩ : BufTy).Contents (Elt F)) p_arg5) shapeCasts_S1x541880_S541880)
set_option maxHeartbeats 8000000 in
theorem v3_eq (V : Valuation τ sig (Elt F)) : aft V (Proc.devRef .tc main_v3) = v3 (V (Proc.devRef .tc main_arg5)) := by
  unfold v3
  after_results_simp <;> rfl

/-- What the stretch leaves in main_v11, as its operations compute it from main_v3. -/
def v11 (p_v3 : (main_v3 : Ref sig .tc).ty.Contents (Elt F)) : (main_v11 : Ref sig .tc).ty.Contents (Elt F) :=
  (select ((cmpf .ogt : (⟨S27094, .f32⟩ : BufTy).Contents (Elt F) → (⟨S27094, .f32⟩ : BufTy).Contents (Elt F) → (⟨S27094, .i1⟩ : BufTy).Contents (Elt F)) (((fun x i u => Host.scatterAdd scatter_S27094_S541880x1_S541880_n_0_0_1 x i u) : (⟨S27094, .f32⟩ : BufTy).Contents (Elt F) → (⟨S541880x1, .i32⟩ : BufTy).Contents (Elt F) → (⟨S541880, .f32⟩ : BufTy).Contents (Elt F) → (⟨S27094, .f32⟩ : BufTy).Contents (Elt F)) ((broadcastInDim S27094 ![] bcast_S_S27094 : (⟨S_, .f32⟩ : BufTy).Contents (Elt F) → (⟨S27094, .f32⟩ : BufTy).Contents (Elt F)) (constant (F := F) S_ .f32 0x00000000#32)) ((broadcastInDim S541880x1 ![0] bcast_S541880_S541880x1_0 : (⟨S541880, .i32⟩ : BufTy).Contents (Elt F) → (⟨S541880x1, .i32⟩ : BufTy).Contents (Elt F)) p_v3) ((broadcastInDim S541880 ![] bcast_S_S541880 : (⟨S_, .f32⟩ : BufTy).Contents (Elt F) → (⟨S541880, .f32⟩ : BufTy).Contents (Elt F)) (constant (F := F) S_ .f32 0x3F800000#32))) ((broadcastInDim S27094 ![] bcast_S_S27094 : (⟨S_, .f32⟩ : BufTy).Contents (Elt F) → (⟨S27094, .f32⟩ : BufTy).Contents (Elt F)) (constant (F := F) S_ .f32 0x00000000#32))) ((Host.rsqrt : (⟨S27094, .f32⟩ : BufTy).Contents (Elt F) → (⟨S27094, .f32⟩ : BufTy).Contents (Elt F)) (((fun x i u => Host.scatterAdd scatter_S27094_S541880x1_S541880_n_0_0_1 x i u) : (⟨S27094, .f32⟩ : BufTy).Contents (Elt F) → (⟨S541880x1, .i32⟩ : BufTy).Contents (Elt F) → (⟨S541880, .f32⟩ : BufTy).Contents (Elt F) → (⟨S27094, .f32⟩ : BufTy).Contents (Elt F)) ((broadcastInDim S27094 ![] bcast_S_S27094 : (⟨S_, .f32⟩ : BufTy).Contents (Elt F) → (⟨S27094, .f32⟩ : BufTy).Contents (Elt F)) (constant (F := F) S_ .f32 0x00000000#32)) ((broadcastInDim S541880x1 ![0] bcast_S541880_S541880x1_0 : (⟨S541880, .i32⟩ : BufTy).Contents (Elt F) → (⟨S541880x1, .i32⟩ : BufTy).Contents (Elt F)) p_v3) ((broadcastInDim S541880 ![] bcast_S_S541880 : (⟨S_, .f32⟩ : BufTy).Contents (Elt F) → (⟨S541880, .f32⟩ : BufTy).Contents (Elt F)) (constant (F := F) S_ .f32 0x3F800000#32)))) ((broadcastInDim S27094 ![] bcast_S_S27094) (id (constant (F := F) S_ .f32 0x00000000#32))))
set_option maxHeartbeats 8000000 in
theorem v11_eq (V : Valuation τ sig (Elt F)) : aft V (Proc.devRef .tc main_v11) = v11 (aft V (Proc.devRef .tc main_v3)) := by
  unfold v11
  after_results_simp <;> rfl

/-- What the stretch leaves in main_v26, as its operations compute it from main_v11, main_v1, main_v3. -/
def v26 (p_v11 : (main_v11 : Ref sig .tc).ty.Contents (Elt F)) (p_v1 : (main_v1 : Ref sig .tc).ty.Contents (Elt F)) (p_v3 : (main_v3 : Ref sig .tc).ty.Contents (Elt F)) : (main_v26 : Ref sig .tc).ty.Contents (Elt F) :=
  ((mulf : (⟨S541880, .f32⟩ : BufTy).Contents (Elt F) → (⟨S541880, .f32⟩ : BufTy).Contents (Elt F) → (⟨S541880, .f32⟩ : BufTy).Contents (Elt F)) (((fun x i => Host.gather gather_S27094_S541880x1_S541880_n_0_n_n_0_1_1 x i) : (⟨S27094, .f32⟩ : BufTy).Contents (Elt F) → (⟨S541880x1, .i32⟩ : BufTy).Contents (Elt F) → (⟨S541880, .f32⟩ : BufTy).Contents (Elt F)) p_v11 ((broadcastInDim S541880x1 ![0] bcast_S541880_S541880x1_0 : (⟨S541880, .i32⟩ : BufTy).Contents (Elt F) → (⟨S541880x1, .i32⟩ : BufTy).Contents (Elt F)) ((select : (⟨S541880, .i1⟩ : BufTy).Contents (Elt F) → (⟨S541880, .i32⟩ : BufTy).Contents (Elt F) → (⟨S541880, .i32⟩ : BufTy).Contents (Elt F) → (⟨S541880, .i32⟩ : BufTy).Contents (Elt F)) ((cmpi .slt : (⟨S541880, .i32⟩ : BufTy).Contents (Elt F) → (⟨S541880, .i32⟩ : BufTy).Contents (Elt F) → (⟨S541880, .i1⟩ : BufTy).Contents (Elt F)) p_v1 ((broadcastInDim S541880 ![] bcast_S_S541880 : (⟨S_, .i32⟩ : BufTy).Contents (Elt F) → (⟨S541880, .i32⟩ : BufTy).Contents (Elt F)) (constantI S_ 32 0#32))) ((addi : (⟨S541880, .i32⟩ : BufTy).Contents (Elt F) → (⟨S541880, .i32⟩ : BufTy).Contents (Elt F) → (⟨S541880, .i32⟩ : BufTy).Contents (Elt F)) p_v1 ((broadcastInDim S541880 ![] bcast_S_S541880 : (⟨S_, .i32⟩ : BufTy).Contents (Elt F) → (⟨S541880, .i32⟩ : BufTy).Contents (Elt F)) (constantI S_ 32 27094#32))) p_v1))) (((fun x i => Host.gather gather_S27094_S541880x1_S541880_n_0_n_n_0_1_1 x i) : (⟨S27094, .f32⟩ : BufTy).Contents (Elt F) → (⟨S541880x1, .i32⟩ : BufTy).Contents (Elt F) → (⟨S541880, .f32⟩ : BufTy).Contents (Elt F)) p_v11 ((broadcastInDim S541880x1 ![0] bcast_S541880_S541880x1_0 : (⟨S541880, .i32⟩ : BufTy).Contents (Elt F) → (⟨S541880x1, .i32⟩ : BufTy).Contents (Elt F)) ((select : (⟨S541880, .i1⟩ : BufTy).Contents (Elt F) → (⟨S541880, .i32⟩ : BufTy).Contents (Elt F) → (⟨S541880, .i32⟩ : BufTy).Contents (Elt F) → (⟨S541880, .i32⟩ : BufTy).Contents (Elt F)) ((cmpi .slt : (⟨S541880, .i32⟩ : BufTy).Contents (Elt F) → (⟨S541880, .i32⟩ : BufTy).Contents (Elt F) → (⟨S541880, .i1⟩ : BufTy).Contents (Elt F)) p_v3 ((broadcastInDim S541880 ![] bcast_S_S541880 : (⟨S_, .i32⟩ : BufTy).Contents (Elt F) → (⟨S541880, .i32⟩ : BufTy).Contents (Elt F)) (constantI S_ 32 0#32))) ((addi : (⟨S541880, .i32⟩ : BufTy).Contents (Elt F) → (⟨S541880, .i32⟩ : BufTy).Contents (Elt F) → (⟨S541880, .i32⟩ : BufTy).Contents (Elt F)) p_v3 ((broadcastInDim S541880 ![] bcast_S_S541880 : (⟨S_, .i32⟩ : BufTy).Contents (Elt F) → (⟨S541880, .i32⟩ : BufTy).Contents (Elt F)) (constantI S_ 32 27094#32))) p_v3))))
set_option maxHeartbeats 8000000 in
theorem v26_eq (V : Valuation τ sig (Elt F)) : aft V (Proc.devRef .tc main_v26) = v26 (aft V (Proc.devRef .tc main_v11)) (aft V (Proc.devRef .tc main_v1)) (aft V (Proc.devRef .tc main_v3)) := by
  unfold v26
  after_results_simp <;> rfl

/-- What the stretch leaves in main_v28, as its operations compute it from main_arg0. -/
def v28 (p_arg0 : (main_arg0 : Ref sig .tc).ty.Contents (Elt F)) : (main_v28 : Ref sig .tc).ty.Contents (Elt F) :=
  (((truncf .bf16 · bitsLt_bf16_f32) : (⟨S27136x64, .f32⟩ : BufTy).Contents (Elt F) → (⟨S27136x64, .bf16⟩ : BufTy).Contents (Elt F)) ((fun x v => pad S27136x64 ![0, 0] ![42, 0] ![0, 0] x v pads_S27094x64_S27136x64_0420_000 h_S_) p_arg0 ((sitofp (F := F) .f32) (constantI S_ 32 0#32))))
set_option maxHeartbeats 8000000 in
theorem v28_eq (V : Valuation τ sig (Elt F)) : aft V (Proc.devRef .tc main_v28) = v28 (V (Proc.devRef .tc main_arg0)) := by
  unfold v28
  after_results_simp <;> rfl

/-- What the stretch leaves in main_v30, as its operations compute it from main_v1. -/
def v30 (p_v1 : (main_v1 : Ref sig .tc).ty.Contents (Elt F)) : (main_v30 : Ref sig .tc).ty.Contents (Elt F) :=
  (shapeCast _ ((fun x v => pad S541952 ![0] ![72] ![0] x v pads_S541880_S541952_0720 h_S_) p_v1 (id (constantI S_ 32 4294967295#32))) shapeCasts_S541952_S2x270976x1)
set_option maxHeartbeats 8000000 in
theorem v30_eq (V : Valuation τ sig (Elt F)) : aft V (Proc.devRef .tc main_v30) = v30 (aft V (Proc.devRef .tc main_v1)) := by
  unfold v30
  after_results_simp <;> rfl

/-- What the stretch leaves in main_v32, as its operations compute it from main_v3. -/
def v32 (p_v3 : (main_v3 : Ref sig .tc).ty.Contents (Elt F)) : (main_v32 : Ref sig .tc).ty.Contents (Elt F) :=
  (shapeCast _ ((fun x v => pad S541952 ![0] ![72] ![0] x v pads_S541880_S541952_0720 h_S_) p_v3 (id (constantI S_ 32 4294967295#32))) shapeCasts_S541952_S2x270976x1)
set_option maxHeartbeats 8000000 in
theorem v32_eq (V : Valuation τ sig (Elt F)) : aft V (Proc.devRef .tc main_v32) = v32 (aft V (Proc.devRef .tc main_v3)) := by
  unfold v32
  after_results_simp <;> rfl

/-- What the stretch leaves in main_v34, as its operations compute it from main_v26. -/
def v34 (p_v26 : (main_v26 : Ref sig .tc).ty.Contents (Elt F)) : (main_v34 : Ref sig .tc).ty.Contents (Elt F) :=
  (shapeCast _ ((fun x v => pad S541952 ![0] ![72] ![0] x v pads_S541880_S541952_0720 h_S_) p_v26 (id (constant (F := F) S_ .f32 0x00000000#32))) shapeCasts_S541952_S2x270976x1)
set_option maxHeartbeats 8000000 in
theorem v34_eq (V : Valuation τ sig (Elt F)) : aft V (Proc.devRef .tc main_v34) = v34 (aft V (Proc.devRef .tc main_v26)) := by
  unfold v34
  after_results_simp <;> rfl

set_option maxHeartbeats 8000000 in
/-- The stretch writes nothing to main_arg0. -/
theorem keep_arg0 (V : Valuation τ sig (Elt F)) : aft V (Proc.devRef .tc main_arg0) = V (Proc.devRef .tc main_arg0) := by
  after_results_simp <;> rfl

set_option maxHeartbeats 8000000 in
/-- The stretch writes nothing to main_arg1. -/
theorem keep_arg1 (V : Valuation τ sig (Elt F)) : aft V (Proc.devRef .tc main_arg1) = V (Proc.devRef .tc main_arg1) := by
  after_results_simp <;> rfl

set_option maxHeartbeats 8000000 in
/-- The stretch writes nothing to main_arg2. -/
theorem keep_arg2 (V : Valuation τ sig (Elt F)) : aft V (Proc.devRef .tc main_arg2) = V (Proc.devRef .tc main_arg2) := by
  after_results_simp <;> rfl

set_option maxHeartbeats 8000000 in
/-- The stretch writes nothing to main_arg3. -/
theorem keep_arg3 (V : Valuation τ sig (Elt F)) : aft V (Proc.devRef .tc main_arg3) = V (Proc.devRef .tc main_arg3) := by
  after_results_simp <;> rfl

set_option maxHeartbeats 8000000 in
/-- The stretch writes nothing to main_arg4. -/
theorem keep_arg4 (V : Valuation τ sig (Elt F)) : aft V (Proc.devRef .tc main_arg4) = V (Proc.devRef .tc main_arg4) := by
  after_results_simp <;> rfl

set_option maxHeartbeats 8000000 in
/-- The stretch writes nothing to main_arg6. -/
theorem keep_arg6 (V : Valuation τ sig (Elt F)) : aft V (Proc.devRef .tc main_arg6) = V (Proc.devRef .tc main_arg6) := by
  after_results_simp <;> rfl

end Cert.KernelIdeal.KHost0

end
-- ==== Proof.KHost1.lean ====
/- Host stretch 1 of the idealized kernel program's @main: what its operations leave in each buffer later code reads, as one
   function, the composition of the printed operations, of the contents of the buffers it starts from. -/
import proofs.«400075_j26585847562450_2_alg».proof.Proof.Gen.KernelIdeal.Launch
import Idealize.ShloMosaic.Lib.StableHlo.Run
import Idealize.ShloMosaic.PureOps.Ideal

set_option maxRecDepth 16384

noncomputable section

namespace Cert.KernelIdeal.KHost1

open Cert.KernelIdeal Cert.KernelIdeal.Gen Idealize.ShloMosaic Idealize.ShloMosaic.StableHlo Idealize.SL.Sem

variable {F : FTy → Type} [FloatOps F]

/-- The buffer contents after the stretch's operations, in order, from the contents V. -/
abbrev aft (V : Valuation τ sig (Elt F)) : Valuation τ sig (Elt F) := (after hostOps1_10 (after hostOps1_9 (after hostOps1_8 (after hostOps1_7 (after hostOps1_6 (after hostOps1_5 (after hostOps1_4 (after hostOps1_3 (after hostOps1_2 (after hostOps1_1 (after hostOps1 V)))))))))))

/-- What the stretch leaves in main_v41, as its operations compute it from main_v35. -/
def v41 (p_v35 : (main_v35 : Ref sig .tc).ty.Contents (Elt F)) : (main_v41 : Ref sig .tc).ty.Contents (Elt F) :=
  (((extractStridedSlice S27094x64 ![0, 0] · slices_S27136x64_S27094x64_0_0) : (⟨S27136x64, .f32⟩ : BufTy).Contents (Elt F) → (⟨S27094x64, .f32⟩ : BufTy).Contents (Elt F)) ((addf : (⟨S27136x64, .f32⟩ : BufTy).Contents (Elt F) → (⟨S27136x64, .f32⟩ : BufTy).Contents (Elt F) → (⟨S27136x64, .f32⟩ : BufTy).Contents (Elt F)) (shapeCast _ (((extractStridedSlice S1x27136x64 ![0, 0, 0] · slices_S2x27136x64_S1x27136x64_0_0_0) : (⟨S2x27136x64, .f32⟩ : BufTy).Contents (Elt F) → (⟨S1x27136x64, .f32⟩ : BufTy).Contents (Elt F)) p_v35) shapeCasts_S1x27136x64_S27136x64) (shapeCast _ (((extractStridedSlice S1x27136x64 ![1, 0, 0] · slices_S2x27136x64_S1x27136x64_1_0_0) : (⟨S2x27136x64, .f32⟩ : BufTy).Contents (Elt F) → (⟨S1x27136x64, .f32⟩ : BufTy).Contents (Elt F)) p_v35) shapeCasts_S1x27136x64_S27136x64)))
set_option maxHeartbeats 8000000 in
theorem v41_eq (V : Valuation τ sig (Elt F)) : aft V (Proc.devRef .tc main_v41) = v41 (V (Proc.devRef .tc main_v35)) := by
  unfold v41
  after_results_simp <;> rfl

/-- What the stretch leaves in main_v42, as its operations compute it from main_arg0, main_v41. -/
def v42 (p_arg0 : (main_arg0 : Ref sig .tc).ty.Contents (Elt F)) (p_v41 : (main_v41 : Ref sig .tc).ty.Contents (Elt F)) : (main_v42 : Ref sig .tc).ty.Contents (Elt F) :=
  ((addf : (⟨S27094x64, .f32⟩ : BufTy).Contents (Elt F) → (⟨S27094x64, .f32⟩ : BufTy).Contents (Elt F) → (⟨S27094x64, .f32⟩ : BufTy).Contents (Elt F)) p_arg0 p_v41)
set_option maxHeartbeats 8000000 in
theorem v42_eq (V : Valuation τ sig (Elt F)) : aft V (Proc.devRef .tc main_v42) = v42 (V (Proc.devRef .tc main_arg0)) (aft V (Proc.devRef .tc main_v41)) := by
  unfold v42
  after_results_simp <;> rfl

/-- What the stretch leaves in main_v44, as its operations compute it from main_arg6. -/
def v44 (p_arg6 : (main_arg6 : Ref sig .tc).ty.Contents (Elt F)) : (main_v44 : Ref sig .tc).ty.Contents (Elt F) :=
  (shapeCast _ (((extractStridedSlice S1x1285560 ![0, 0] · slices_S2x1285560_S1x1285560_0_0) : (⟨S2x1285560, .i32⟩ : BufTy).Contents (Elt F) → (⟨S1x1285560, .i32⟩ : BufTy).Contents (Elt F)) p_arg6) shapeCasts_S1x1285560_S1285560)
set_option maxHeartbeats 8000000 in
theorem v44_eq (V : Valuation τ sig (Elt F)) : aft V (Proc.devRef .tc main_v44) = v44 (V (Proc.devRef .tc main_arg6)) := by
  unfold v44
  after_results_simp <;> rfl

/-- What the stretch leaves in main_v46, as its operations compute it from main_arg6. -/
def v46 (p_arg6 : (main_arg6 : Ref sig .tc).ty.Contents (Elt F)) : (main_v46 : Ref sig .tc).ty.Contents (Elt F) :=
  (shapeCast _ (((extractStridedSlice S1x1285560 ![1, 0] · slices_S2x1285560_S1x1285560_1_0) : (⟨S2x1285560, .i32⟩ : BufTy).Contents (Elt F) → (⟨S1x1285560, .i32⟩ : BufTy).Contents (Elt F)) p_arg6) shapeCasts_S1x1285560_S1285560)
set_option maxHeartbeats 8000000 in
theorem v46_eq (V : Valuation τ sig (Elt F)) : aft V (Proc.devRef .tc main_v46) = v46 (V (Proc.devRef .tc main_arg6)) := by
  unfold v46
  after_results_simp <;> rfl

/-- What the stretch leaves in main_v53, as its operations compute it from main_v46, main_arg2. -/
def v53 (p_v46 : (main_v46 : Ref sig .tc).ty.Contents (Elt F)) (p_arg2 : (main_arg2 : Ref sig .tc).ty.Contents (Elt F)) : (main_v53 : Ref sig .tc).ty.Contents (Elt F) :=
  (select ((cmpf .ogt : (⟨S42852, .f32⟩ : BufTy).Contents (Elt F) → (⟨S42852, .f32⟩ : BufTy).Contents (Elt F) → (⟨S42852, .i1⟩ : BufTy).Contents (Elt F)) (((fun x i u => Host.scatterAdd scatter_S42852_S1285560x1_S1285560_n_0_0_1 x i u) : (⟨S42852, .f32⟩ : BufTy).Contents (Elt F) → (⟨S1285560x1, .i32⟩ : BufTy).Contents (Elt F) → (⟨S1285560, .f32⟩ : BufTy).Contents (Elt F) → (⟨S42852, .f32⟩ : BufTy).Contents (Elt F)) ((broadcastInDim S42852 ![] bcast_S_S42852 : (⟨S_, .f32⟩ : BufTy).Contents (Elt F) → (⟨S42852, .f32⟩ : BufTy).Contents (Elt F)) (constant (F := F) S_ .f32 0x00000000#32)) ((broadcastInDim S1285560x1 ![0] bcast_S1285560_S1285560x1_0 : (⟨S1285560, .i32⟩ : BufTy).Contents (Elt F) → (⟨S1285560x1, .i32⟩ : BufTy).Contents (Elt F)) p_v46) p_arg2) ((broadcastInDim S42852 ![] bcast_S_S42852 : (⟨S_, .f32⟩ : BufTy).Contents (Elt F) → (⟨S42852, .f32⟩ : BufTy).Contents (Elt F)) (constant (F := F) S_ .f32 0x00000000#32))) ((Host.rsqrt : (⟨S42852, .f32⟩ : BufTy).Contents (Elt F) → (⟨S42852, .f32⟩ : BufTy).Contents (Elt F)) (((fun x i u => Host.scatterAdd scatter_S42852_S1285560x1_S1285560_n_0_0_1 x i u) : (⟨S42852, .f32⟩ : BufTy).Contents (Elt F) → (⟨S1285560x1, .i32⟩ : BufTy).Contents (Elt F) → (⟨S1285560, .f32⟩ : BufTy).Contents (Elt F) → (⟨S42852, .f32⟩ : BufTy).Contents (Elt F)) ((broadcastInDim S42852 ![] bcast_S_S42852 : (⟨S_, .f32⟩ : BufTy).Contents (Elt F) → (⟨S42852, .f32⟩ : BufTy).Contents (Elt F)) (constant (F := F) S_ .f32 0x00000000#32)) ((broadcastInDim S1285560x1 ![0] bcast_S1285560_S1285560x1_0 : (⟨S1285560, .i32⟩ : BufTy).Contents (Elt F) → (⟨S1285560x1, .i32⟩ : BufTy).Contents (Elt F)) p_v46) p_arg2)) ((broadcastInDim S42852 ![] bcast_S_S42852) (id (constant (F := F) S_ .f32 0x00000000#32))))
set_option maxHeartbeats 8000000 in
theorem v53_eq (V : Valuation τ sig (Elt F)) : aft V (Proc.devRef .tc main_v53) = v53 (aft V (Proc.devRef .tc main_v46)) (V (Proc.devRef .tc main_arg2)) := by
  unfold v53
  after_results_simp <;> rfl

/-- What the stretch leaves in main_v69, as its operations compute it from main_v53, main_v44, main_arg2, main_v46. -/
def v69 (p_v53 : (main_v53 : Ref sig .tc).ty.Contents (Elt F)) (p_v44 : (main_v44 : Ref sig .tc).ty.Contents (Elt F)) (p_arg2 : (main_arg2 : Ref sig .tc).ty.Contents (Elt F)) (p_v46 : (main_v46 : Ref sig .tc).ty.Contents (Elt F)) : (main_v69 : Ref sig .tc).ty.Contents (Elt F) :=
  ((mulf : (⟨S1285560, .f32⟩ : BufTy).Contents (Elt F) → (⟨S1285560, .f32⟩ : BufTy).Contents (Elt F) → (⟨S1285560, .f32⟩ : BufTy).Contents (Elt F)) ((mulf : (⟨S1285560, .f32⟩ : BufTy).Contents (Elt F) → (⟨S1285560, .f32⟩ : BufTy).Contents (Elt F) → (⟨S1285560, .f32⟩ : BufTy).Contents (Elt F)) (((fun x i => Host.gather gather_S42852_S1285560x1_S1285560_n_0_n_n_0_1_1 x i) : (⟨S42852, .f32⟩ : BufTy).Contents (Elt F) → (⟨S1285560x1, .i32⟩ : BufTy).Contents (Elt F) → (⟨S1285560, .f32⟩ : BufTy).Contents (Elt F)) p_v53 ((broadcastInDim S1285560x1 ![0] bcast_S1285560_S1285560x1_0 : (⟨S1285560, .i32⟩ : BufTy).Contents (Elt F) → (⟨S1285560x1, .i32⟩ : BufTy).Contents (Elt F)) ((select : (⟨S1285560, .i1⟩ : BufTy).Contents (Elt F) → (⟨S1285560, .i32⟩ : BufTy).Contents (Elt F) → (⟨S1285560, .i32⟩ : BufTy).Contents (Elt F) → (⟨S1285560, .i32⟩ : BufTy).Contents (Elt F)) ((cmpi .slt : (⟨S1285560, .i32⟩ : BufTy).Contents (Elt F) → (⟨S1285560, .i32⟩ : BufTy).Contents (Elt F) → (⟨S1285560, .i1⟩ : BufTy).Contents (Elt F)) p_v44 ((broadcastInDim S1285560 ![] bcast_S_S1285560 : (⟨S_, .i32⟩ : BufTy).Contents (Elt F) → (⟨S1285560, .i32⟩ : BufTy).Contents (Elt F)) (constantI S_ 32 0#32))) ((addi : (⟨S1285560, .i32⟩ : BufTy).Contents (Elt F) → (⟨S1285560, .i32⟩ : BufTy).Contents (Elt F) → (⟨S1285560, .i32⟩ : BufTy).Contents (Elt F)) p_v44 ((broadcastInDim S1285560 ![] bcast_S_S1285560 : (⟨S_, .i32⟩ : BufTy).Contents (Elt F) → (⟨S1285560, .i32⟩ : BufTy).Contents (Elt F)) (constantI S_ 32 42852#32))) p_v44))) p_arg2) (((fun x i => Host.gather gather_S42852_S1285560x1_S1285560_n_0_n_n_0_1_1 x i) : (⟨S42852, .f32⟩ : BufTy).Contents (Elt F) → (⟨S1285560x1, .i32⟩ : BufTy).Contents (Elt F) → (⟨S1285560, .f32⟩ : BufTy).Contents (Elt F)) p_v53 ((broadcastInDim S1285560x1 ![0] bcast_S1285560_S1285560x1_0 : (⟨S1285560, .i32⟩ : BufTy).Contents (Elt F) → (⟨S1285560x1, .i32⟩ : BufTy).Contents (Elt F)) ((select : (⟨S1285560, .i1⟩ : BufTy).Contents (Elt F) → (⟨S1285560, .i32⟩ : BufTy).Contents (Elt F) → (⟨S1285560, .i32⟩ : BufTy).Contents (Elt F) → (⟨S1285560, .i32⟩ : BufTy).Contents (Elt F)) ((cmpi .slt : (⟨S1285560, .i32⟩ : BufTy).Contents (Elt F) → (⟨S1285560, .i32⟩ : BufTy).Contents (Elt F) → (⟨S1285560, .i1⟩ : BufTy).Contents (Elt F)) p_v46 ((broadcastInDim S1285560 ![] bcast_S_S1285560 : (⟨S_, .i32⟩ : BufTy).Contents (Elt F) → (⟨S1285560, .i32⟩ : BufTy).Contents (Elt F)) (constantI S_ 32 0#32))) ((addi : (⟨S1285560, .i32⟩ : BufTy).Contents (Elt F) → (⟨S1285560, .i32⟩ : BufTy).Contents (Elt F) → (⟨S1285560, .i32⟩ : BufTy).Contents (Elt F)) p_v46 ((broadcastInDim S1285560 ![] bcast_S_S1285560 : (⟨S_, .i32⟩ : BufTy).Contents (Elt F) → (⟨S1285560, .i32⟩ : BufTy).Contents (Elt F)) (constantI S_ 32 42852#32))) p_v46))))
set_option maxHeartbeats 8000000 in
theorem v69_eq (V : Valuation τ sig (Elt F)) : aft V (Proc.devRef .tc main_v69) = v69 (aft V (Proc.devRef .tc main_v53)) (aft V (Proc.devRef .tc main_v44)) (V (Proc.devRef .tc main_arg2)) (aft V (Proc.devRef .tc main_v46)) := by
  unfold v69
  after_results_simp <;> rfl

/-- What the stretch leaves in main_v71, as its operations compute it from main_arg1. -/
def v71 (p_arg1 : (main_arg1 : Ref sig .tc).ty.Contents (Elt F)) : (main_v71 : Ref sig .tc).ty.Contents (Elt F) :=
  (((truncf .bf16 · bitsLt_bf16_f32) : (⟨S42880x64, .f32⟩ : BufTy).Contents (Elt F) → (⟨S42880x64, .bf16⟩ : BufTy).Contents (Elt F)) ((fun x v => pad S42880x64 ![0, 0] ![28, 0] ![0, 0] x v pads_S42852x64_S42880x64_0280_000 h_S_) p_arg1 ((sitofp (F := F) .f32) (constantI S_ 32 0#32))))
set_option maxHeartbeats 8000000 in
theorem v71_eq (V : Valuation τ sig (Elt F)) : aft V (Proc.devRef .tc main_v71) = v71 (V (Proc.devRef .tc main_arg1)) := by
  unfold v71
  after_results_simp <;> rfl

/-- What the stretch leaves in main_v73, as its operations compute it from main_v44. -/
def v73 (p_v44 : (main_v44 : Ref sig .tc).ty.Contents (Elt F)) : (main_v73 : Ref sig .tc).ty.Contents (Elt F) :=
  (shapeCast _ ((fun x v => pad S1285632 ![0] ![72] ![0] x v pads_S1285560_S1285632_0720 h_S_) p_v44 (id (constantI S_ 32 4294967295#32))) shapeCasts_S1285632_S2x642816x1)
set_option maxHeartbeats 8000000 in
theorem v73_eq (V : Valuation τ sig (Elt F)) : aft V (Proc.devRef .tc main_v73) = v73 (aft V (Proc.devRef .tc main_v44)) := by
  unfold v73
  after_results_simp <;> rfl

/-- What the stretch leaves in main_v75, as its operations compute it from main_v46. -/
def v75 (p_v46 : (main_v46 : Ref sig .tc).ty.Contents (Elt F)) : (main_v75 : Ref sig .tc).ty.Contents (Elt F) :=
  (shapeCast _ ((fun x v => pad S1285632 ![0] ![72] ![0] x v pads_S1285560_S1285632_0720 h_S_) p_v46 (id (constantI S_ 32 4294967295#32))) shapeCasts_S1285632_S2x642816x1)
set_option maxHeartbeats 8000000 in
theorem v75_eq (V : Valuation τ sig (Elt F)) : aft V (Proc.devRef .tc main_v75) = v75 (aft V (Proc.devRef .tc main_v46)) := by
  unfold v75
  after_results_simp <;> rfl

/-- What the stretch leaves in main_v77, as its operations compute it from main_v69. -/
def v77 (p_v69 : (main_v69 : Ref sig .tc).ty.Contents (Elt F)) : (main_v77 : Ref sig .tc).ty.Contents (Elt F) :=
  (shapeCast _ ((fun x v => pad S1285632 ![0] ![72] ![0] x v pads_S1285560_S1285632_0720 h_S_) p_v69 (id (constant (F := F) S_ .f32 0x00000000#32))) shapeCasts_S1285632_S2x642816x1)
set_option maxHeartbeats 8000000 in
theorem v77_eq (V : Valuation τ sig (Elt F)) : aft V (Proc.devRef .tc main_v77) = v77 (aft V (Proc.devRef .tc main_v69)) := by
  unfold v77
  after_results_simp <;> rfl

set_option maxHeartbeats 8000000 in
/-- The stretch writes nothing to main_arg1. -/
theorem keep_arg1 (V : Valuation τ sig (Elt F)) : aft V (Proc.devRef .tc main_arg1) = V (Proc.devRef .tc main_arg1) := by
  after_results_simp <;> rfl

set_option maxHeartbeats 8000000 in
/-- The stretch writes nothing to main_arg3. -/
theorem keep_arg3 (V : Valuation τ sig (Elt F)) : aft V (Proc.devRef .tc main_arg3) = V (Proc.devRef .tc main_arg3) := by
  after_results_simp <;> rfl

set_option maxHeartbeats 8000000 in
/-- The stretch writes nothing to main_arg4. -/
theorem keep_arg4 (V : Valuation τ sig (Elt F)) : aft V (Proc.devRef .tc main_arg4) = V (Proc.devRef .tc main_arg4) := by
  after_results_simp <;> rfl

end Cert.KernelIdeal.KHost1

end
-- ==== Proof.KHost2.lean ====
/- Host stretch 2 of the idealized kernel program's @main: what its operations leave in each buffer later code reads, as one
   function, the composition of the printed operations, of the contents of the buffers it starts from. -/
import proofs.«400075_j26585847562450_2_alg».proof.Proof.Gen.KernelIdeal.Launch
import Idealize.ShloMosaic.Lib.StableHlo.Run
import Idealize.ShloMosaic.PureOps.Ideal

set_option maxRecDepth 16384

noncomputable section

namespace Cert.KernelIdeal.KHost2

open Cert.KernelIdeal Cert.KernelIdeal.Gen Idealize.ShloMosaic Idealize.ShloMosaic.StableHlo Idealize.SL.Sem

variable {F : FTy → Type} [FloatOps F]

/-- The buffer contents after the stretch's operations, in order, from the contents V. -/
abbrev aft (V : Valuation τ sig (Elt F)) : Valuation τ sig (Elt F) := (after hostOps2_8 (after hostOps2_7 (after hostOps2_6 (after hostOps2_5 (after hostOps2_4 (after hostOps2_3 (after hostOps2_2 (after hostOps2_1 (after hostOps2 V)))))))))

/-- What the stretch leaves in main_v84, as its operations compute it from main_v78. -/
def v84 (p_v78 : (main_v78 : Ref sig .tc).ty.Contents (Elt F)) : (main_v84 : Ref sig .tc).ty.Contents (Elt F) :=
  (((extractStridedSlice S42852x64 ![0, 0] · slices_S42880x64_S42852x64_0_0) : (⟨S42880x64, .f32⟩ : BufTy).Contents (Elt F) → (⟨S42852x64, .f32⟩ : BufTy).Contents (Elt F)) ((addf : (⟨S42880x64, .f32⟩ : BufTy).Contents (Elt F) → (⟨S42880x64, .f32⟩ : BufTy).Contents (Elt F) → (⟨S42880x64, .f32⟩ : BufTy).Contents (Elt F)) (shapeCast _ (((extractStridedSlice S1x42880x64 ![0, 0, 0] · slices_S2x42880x64_S1x42880x64_0_0_0) : (⟨S2x42880x64, .f32⟩ : BufTy).Contents (Elt F) → (⟨S1x42880x64, .f32⟩ : BufTy).Contents (Elt F)) p_v78) shapeCasts_S1x42880x64_S42880x64) (shapeCast _ (((extractStridedSlice S1x42880x64 ![1, 0, 0] · slices_S2x42880x64_S1x42880x64_1_0_0) : (⟨S2x42880x64, .f32⟩ : BufTy).Contents (Elt F) → (⟨S1x42880x64, .f32⟩ : BufTy).Contents (Elt F)) p_v78) shapeCasts_S1x42880x64_S42880x64)))
set_option maxHeartbeats 8000000 in
theorem v84_eq (V : Valuation τ sig (Elt F)) : aft V (Proc.devRef .tc main_v84) = v84 (V (Proc.devRef .tc main_v78)) := by
  unfold v84
  after_results_simp <;> rfl

/-- What the stretch leaves in main_v85, as its operations compute it from main_arg1, main_v84. -/
def v85 (p_arg1 : (main_arg1 : Ref sig .tc).ty.Contents (Elt F)) (p_v84 : (main_v84 : Ref sig .tc).ty.Contents (Elt F)) : (main_v85 : Ref sig .tc).ty.Contents (Elt F) :=
  ((addf : (⟨S42852x64, .f32⟩ : BufTy).Contents (Elt F) → (⟨S42852x64, .f32⟩ : BufTy).Contents (Elt F) → (⟨S42852x64, .f32⟩ : BufTy).Contents (Elt F)) p_arg1 p_v84)
set_option maxHeartbeats 8000000 in
theorem v85_eq (V : Valuation τ sig (Elt F)) : aft V (Proc.devRef .tc main_v85) = v85 (V (Proc.devRef .tc main_arg1)) (aft V (Proc.devRef .tc main_v84)) := by
  unfold v85
  after_results_simp <;> rfl

/-- What the stretch leaves in main_v109, as its operations compute it from main_arg3, main_arg4. -/
def v109 (p_arg3 : (main_arg3 : Ref sig .tc).ty.Contents (Elt F)) (p_arg4 : (main_arg4 : Ref sig .tc).ty.Contents (Elt F)) : (main_v109 : Ref sig .tc).ty.Contents (Elt F) :=
  ((Host.rsqrt : (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) (((fun x i => Host.gather gather_S27094_S2000000x1_S2000000_n_0_n_n_0_1_1 x i) : (⟨S27094, .f32⟩ : BufTy).Contents (Elt F) → (⟨S2000000x1, .i32⟩ : BufTy).Contents (Elt F) → (⟨S2000000, .f32⟩ : BufTy).Contents (Elt F)) (((fun x i u => Host.scatterAdd scatter_S27094_S2000000x1_S2000000_n_0_0_1 x i u) : (⟨S27094, .f32⟩ : BufTy).Contents (Elt F) → (⟨S2000000x1, .i32⟩ : BufTy).Contents (Elt F) → (⟨S2000000, .f32⟩ : BufTy).Contents (Elt F) → (⟨S27094, .f32⟩ : BufTy).Contents (Elt F)) ((broadcastInDim S27094 ![] bcast_S_S27094 : (⟨S_, .f32⟩ : BufTy).Contents (Elt F) → (⟨S27094, .f32⟩ : BufTy).Contents (Elt F)) (constant (F := F) S_ .f32 0x00000000#32)) ((broadcastInDim S2000000x1 ![0] bcast_S2000000_S2000000x1_0 : (⟨S2000000, .i32⟩ : BufTy).Contents (Elt F) → (⟨S2000000x1, .i32⟩ : BufTy).Contents (Elt F)) p_arg3) ((broadcastInDim S2000000 ![] bcast_S_S2000000 : (⟨S_, .f32⟩ : BufTy).Contents (Elt F) → (⟨S2000000, .f32⟩ : BufTy).Contents (Elt F)) (constant (F := F) S_ .f32 0x3F800000#32))) ((broadcastInDim S2000000x1 ![0] bcast_S2000000_S2000000x1_0 : (⟨S2000000, .i32⟩ : BufTy).Contents (Elt F) → (⟨S2000000x1, .i32⟩ : BufTy).Contents (Elt F)) ((select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ((cmpi .slt : (⟨S2000000, .i32⟩ : BufTy).Contents (Elt F) → (⟨S2000000, .i32⟩ : BufTy).Contents (Elt F) → (⟨S2000000, .i1⟩ : BufTy).Contents (Elt F)) p_arg3 ((broadcastInDim S2000000 ![] bcast_S_S2000000 : (⟨S_, .i32⟩ : BufTy).Contents (Elt F) → (⟨S2000000, .i32⟩ : BufTy).Contents (Elt F)) (constantI S_ 32 0#32))) ((addi : (⟨S2000000, .i32⟩ : BufTy).Contents (Elt F) → (⟨S2000000, .i32⟩ : BufTy).Contents (Elt F) → (⟨S2000000, .i32⟩ : BufTy).Contents (Elt F)) p_arg3 ((broadcastInDim S2000000 ![] bcast_S_S2000000 : (⟨S_, .i32⟩ : BufTy).Contents (Elt F) → (⟨S2000000, .i32⟩ : BufTy).Contents (Elt F)) (constantI S_ 32 27094#32))) p_arg3))) (((fun x i => Host.gather gather_S42852_S2000000x1_S2000000_n_0_n_n_0_1_1 x i) : (⟨S42852, .f32⟩ : BufTy).Contents (Elt F) → (⟨S2000000x1, .i32⟩ : BufTy).Contents (Elt F) → (⟨S2000000, .f32⟩ : BufTy).Contents (Elt F)) (((fun x i u => Host.scatterAdd scatter_S42852_S2000000x1_S2000000_n_0_0_1 x i u) : (⟨S42852, .f32⟩ : BufTy).Contents (Elt F) → (⟨S2000000x1, .i32⟩ : BufTy).Contents (Elt F) → (⟨S2000000, .f32⟩ : BufTy).Contents (Elt F) → (⟨S42852, .f32⟩ : BufTy).Contents (Elt F)) ((broadcastInDim S42852 ![] bcast_S_S42852 : (⟨S_, .f32⟩ : BufTy).Contents (Elt F) → (⟨S42852, .f32⟩ : BufTy).Contents (Elt F)) (constant (F := F) S_ .f32 0x00000000#32)) ((broadcastInDim S2000000x1 ![0] bcast_S2000000_S2000000x1_0 : (⟨S2000000, .i32⟩ : BufTy).Contents (Elt F) → (⟨S2000000x1, .i32⟩ : BufTy).Contents (Elt F)) p_arg4) ((broadcastInDim S2000000 ![] bcast_S_S2000000 : (⟨S_, .f32⟩ : BufTy).Contents (Elt F) → (⟨S2000000, .f32⟩ : BufTy).Contents (Elt F)) (constant (F := F) S_ .f32 0x3F800000#32))) ((broadcastInDim S2000000x1 ![0] bcast_S2000000_S2000000x1_0 : (⟨S2000000, .i32⟩ : BufTy).Contents (Elt F) → (⟨S2000000x1, .i32⟩ : BufTy).Contents (Elt F)) ((select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ((cmpi .slt : (⟨S2000000, .i32⟩ : BufTy).Contents (Elt F) → (⟨S2000000, .i32⟩ : BufTy).Contents (Elt F) → (⟨S2000000, .i1⟩ : BufTy).Contents (Elt F)) p_arg4 ((broadcastInDim S2000000 ![] bcast_S_S2000000 : (⟨S_, .i32⟩ : BufTy).Contents (Elt F) → (⟨S2000000, .i32⟩ : BufTy).Contents (Elt F)) (constantI S_ 32 0#32))) ((addi : (⟨S2000000, .i32⟩ : BufTy).Contents (Elt F) → (⟨S2000000, .i32⟩ : BufTy).Contents (Elt F) → (⟨S2000000, .i32⟩ : BufTy).Contents (Elt F)) p_arg4 ((broadcastInDim S2000000 ![] bcast_S_S2000000 : (⟨S_, .i32⟩ : BufTy).Contents (Elt F) → (⟨S2000000, .i32⟩ : BufTy).Contents (Elt F)) (constantI S_ 32 42852#32))) p_arg4)))))
set_option maxHeartbeats 8000000 in
theorem v109_eq (V : Valuation τ sig (Elt F)) : aft V (Proc.devRef .tc main_v109) = v109 (V (Proc.devRef .tc main_arg3)) (V (Proc.devRef .tc main_arg4)) := by
  unfold v109
  after_results_simp <;> rfl

/-- What the stretch leaves in main_v111, as its operations compute it from main_v85. -/
def v111 (p_v85 : (main_v85 : Ref sig .tc).ty.Contents (Elt F)) : (main_v111 : Ref sig .tc).ty.Contents (Elt F) :=
  (((truncf .bf16 · bitsLt_bf16_f32) : (⟨S42880x64, .f32⟩ : BufTy).Contents (Elt F) → (⟨S42880x64, .bf16⟩ : BufTy).Contents (Elt F)) ((fun x v => pad S42880x64 ![0, 0] ![28, 0] ![0, 0] x v pads_S42852x64_S42880x64_0280_000 h_S_) p_v85 ((sitofp (F := F) .f32) (constantI S_ 32 0#32))))
set_option maxHeartbeats 8000000 in
theorem v111_eq (V : Valuation τ sig (Elt F)) : aft V (Proc.devRef .tc main_v111) = v111 (aft V (Proc.devRef .tc main_v85)) := by
  unfold v111
  after_results_simp <;> rfl

/-- What the stretch leaves in main_v113, as its operations compute it from main_arg4. -/
def v113 (p_arg4 : (main_arg4 : Ref sig .tc).ty.Contents (Elt F)) : (main_v113 : Ref sig .tc).ty.Contents (Elt F) :=
  (shapeCast _ ((fun x v => pad S2000000 ![0] ![0] ![0] x v pads_S2000000_S2000000_000 h_S_) p_arg4 (id (constantI S_ 32 4294967295#32))) shapeCasts_S2000000_S2x1000000x1)
set_option maxHeartbeats 8000000 in
theorem v113_eq (V : Valuation τ sig (Elt F)) : aft V (Proc.devRef .tc main_v113) = v113 (V (Proc.devRef .tc main_arg4)) := by
  unfold v113
  after_results_simp <;> rfl

/-- What the stretch leaves in main_v115, as its operations compute it from main_arg3. -/
def v115 (p_arg3 : (main_arg3 : Ref sig .tc).ty.Contents (Elt F)) : (main_v115 : Ref sig .tc).ty.Contents (Elt F) :=
  (shapeCast _ ((fun x v => pad S2000000 ![0] ![0] ![0] x v pads_S2000000_S2000000_000 h_S_) p_arg3 (id (constantI S_ 32 4294967295#32))) shapeCasts_S2000000_S2x1000000x1)
set_option maxHeartbeats 8000000 in
theorem v115_eq (V : Valuation τ sig (Elt F)) : aft V (Proc.devRef .tc main_v115) = v115 (V (Proc.devRef .tc main_arg3)) := by
  unfold v115
  after_results_simp <;> rfl

/-- What the stretch leaves in main_v117, as its operations compute it from main_v109. -/
def v117 (p_v109 : (main_v109 : Ref sig .tc).ty.Contents (Elt F)) : (main_v117 : Ref sig .tc).ty.Contents (Elt F) :=
  (shapeCast _ ((fun x v => pad S2000000 ![0] ![0] ![0] x v pads_S2000000_S2000000_000 h_S_) p_v109 (id (constant (F := F) S_ .f32 0x00000000#32))) shapeCasts_S2000000_S2x1000000x1)
set_option maxHeartbeats 8000000 in
theorem v117_eq (V : Valuation τ sig (Elt F)) : aft V (Proc.devRef .tc main_v117) = v117 (aft V (Proc.devRef .tc main_v109)) := by
  unfold v117
  after_results_simp <;> rfl

set_option maxHeartbeats 8000000 in
/-- The stretch writes nothing to main_arg3. -/
theorem keep_arg3 (V : Valuation τ sig (Elt F)) : aft V (Proc.devRef .tc main_arg3) = V (Proc.devRef .tc main_arg3) := by
  after_results_simp <;> rfl

set_option maxHeartbeats 8000000 in
/-- The stretch writes nothing to main_arg4. -/
theorem keep_arg4 (V : Valuation τ sig (Elt F)) : aft V (Proc.devRef .tc main_arg4) = V (Proc.devRef .tc main_arg4) := by
  after_results_simp <;> rfl

set_option maxHeartbeats 8000000 in
/-- The stretch writes nothing to main_v42. -/
theorem keep_v42 (V : Valuation τ sig (Elt F)) : aft V (Proc.devRef .tc main_v42) = V (Proc.devRef .tc main_v42) := by
  after_results_simp <;> rfl

end Cert.KernelIdeal.KHost2

end
-- ==== Proof.KHost3.lean ====
/- Host stretch 3 of the idealized kernel program's @main: what its operations leave in each buffer later code reads, as one
   function, the composition of the printed operations, of the contents of the buffers it starts from. -/
import proofs.«400075_j26585847562450_2_alg».proof.Proof.Gen.KernelIdeal.Launch
import Idealize.ShloMosaic.Lib.StableHlo.Run
import Idealize.ShloMosaic.PureOps.Ideal

set_option maxRecDepth 16384

noncomputable section

namespace Cert.KernelIdeal.KHost3

open Cert.KernelIdeal Cert.KernelIdeal.Gen Idealize.ShloMosaic Idealize.ShloMosaic.StableHlo Idealize.SL.Sem

variable {F : FTy → Type} [FloatOps F]

/-- The buffer contents after the stretch's operations, in order, from the contents V. -/
abbrev aft (V : Valuation τ sig (Elt F)) : Valuation τ sig (Elt F) := (after hostOps3_8 (after hostOps3_7 (after hostOps3_6 (after hostOps3_5 (after hostOps3_4 (after hostOps3_3 (after hostOps3_2 (after hostOps3_1 (after hostOps3 V)))))))))

/-- What the stretch leaves in main_v124, as its operations compute it from main_v118. -/
def v124 (p_v118 : (main_v118 : Ref sig .tc).ty.Contents (Elt F)) : (main_v124 : Ref sig .tc).ty.Contents (Elt F) :=
  (((extractStridedSlice S27094x64 ![0, 0] · slices_S27136x64_S27094x64_0_0) : (⟨S27136x64, .f32⟩ : BufTy).Contents (Elt F) → (⟨S27094x64, .f32⟩ : BufTy).Contents (Elt F)) ((addf : (⟨S27136x64, .f32⟩ : BufTy).Contents (Elt F) → (⟨S27136x64, .f32⟩ : BufTy).Contents (Elt F) → (⟨S27136x64, .f32⟩ : BufTy).Contents (Elt F)) (shapeCast _ (((extractStridedSlice S1x27136x64 ![0, 0, 0] · slices_S2x27136x64_S1x27136x64_0_0_0) : (⟨S2x27136x64, .f32⟩ : BufTy).Contents (Elt F) → (⟨S1x27136x64, .f32⟩ : BufTy).Contents (Elt F)) p_v118) shapeCasts_S1x27136x64_S27136x64) (shapeCast _ (((extractStridedSlice S1x27136x64 ![1, 0, 0] · slices_S2x27136x64_S1x27136x64_1_0_0) : (⟨S2x27136x64, .f32⟩ : BufTy).Contents (Elt F) → (⟨S1x27136x64, .f32⟩ : BufTy).Contents (Elt F)) p_v118) shapeCasts_S1x27136x64_S27136x64)))
set_option maxHeartbeats 8000000 in
theorem v124_eq (V : Valuation τ sig (Elt F)) : aft V (Proc.devRef .tc main_v124) = v124 (V (Proc.devRef .tc main_v118)) := by
  unfold v124
  after_results_simp <;> rfl

/-- What the stretch leaves in main_v126, as its operations compute it from main_v42. -/
def v126 (p_v42 : (main_v42 : Ref sig .tc).ty.Contents (Elt F)) : (main_v126 : Ref sig .tc).ty.Contents (Elt F) :=
  (((truncf .bf16 · bitsLt_bf16_f32) : (⟨S27136x64, .f32⟩ : BufTy).Contents (Elt F) → (⟨S27136x64, .bf16⟩ : BufTy).Contents (Elt F)) ((fun x v => pad S27136x64 ![0, 0] ![42, 0] ![0, 0] x v pads_S27094x64_S27136x64_0420_000 h_S_) p_v42 ((sitofp (F := F) .f32) (constantI S_ 32 0#32))))
set_option maxHeartbeats 8000000 in
theorem v126_eq (V : Valuation τ sig (Elt F)) : aft V (Proc.devRef .tc main_v126) = v126 (V (Proc.devRef .tc main_v42)) := by
  unfold v126
  after_results_simp <;> rfl

/-- What the stretch leaves in main_v128, as its operations compute it from main_arg3. -/
def v128 (p_arg3 : (main_arg3 : Ref sig .tc).ty.Contents (Elt F)) : (main_v128 : Ref sig .tc).ty.Contents (Elt F) :=
  (shapeCast _ ((fun x v => pad S2000000 ![0] ![0] ![0] x v pads_S2000000_S2000000_000 h_S_) p_arg3 (id (constantI S_ 32 4294967295#32))) shapeCasts_S2000000_S2x1000000x1)
set_option maxHeartbeats 8000000 in
theorem v128_eq (V : Valuation τ sig (Elt F)) : aft V (Proc.devRef .tc main_v128) = v128 (V (Proc.devRef .tc main_arg3)) := by
  unfold v128
  after_results_simp <;> rfl

/-- What the stretch leaves in main_v130, as its operations compute it from main_arg4. -/
def v130 (p_arg4 : (main_arg4 : Ref sig .tc).ty.Contents (Elt F)) : (main_v130 : Ref sig .tc).ty.Contents (Elt F) :=
  (shapeCast _ ((fun x v => pad S2000000 ![0] ![0] ![0] x v pads_S2000000_S2000000_000 h_S_) p_arg4 (id (constantI S_ 32 4294967295#32))) shapeCasts_S2000000_S2x1000000x1)
set_option maxHeartbeats 8000000 in
theorem v130_eq (V : Valuation τ sig (Elt F)) : aft V (Proc.devRef .tc main_v130) = v130 (V (Proc.devRef .tc main_arg4)) := by
  unfold v130
  after_results_simp <;> rfl

/-- What the stretch leaves in main_v132, as its operations compute it from main_v109. -/
def v132 (p_v109 : (main_v109 : Ref sig .tc).ty.Contents (Elt F)) : (main_v132 : Ref sig .tc).ty.Contents (Elt F) :=
  (shapeCast _ ((fun x v => pad S2000000 ![0] ![0] ![0] x v pads_S2000000_S2000000_000 h_S_) p_v109 (id (constant (F := F) S_ .f32 0x00000000#32))) shapeCasts_S2000000_S2x1000000x1)
set_option maxHeartbeats 8000000 in
theorem v132_eq (V : Valuation τ sig (Elt F)) : aft V (Proc.devRef .tc main_v132) = v132 (V (Proc.devRef .tc main_v109)) := by
  unfold v132
  after_results_simp <;> rfl

set_option maxHeartbeats 8000000 in
/-- The stretch writes nothing to main_arg3. -/
theorem keep_arg3 (V : Valuation τ sig (Elt F)) : aft V (Proc.devRef .tc main_arg3) = V (Proc.devRef .tc main_arg3) := by
  after_results_simp <;> rfl

set_option maxHeartbeats 8000000 in
/-- The stretch writes nothing to main_arg4. -/
theorem keep_arg4 (V : Valuation τ sig (Elt F)) : aft V (Proc.devRef .tc main_arg4) = V (Proc.devRef .tc main_arg4) := by
  after_results_simp <;> rfl

set_option maxHeartbeats 8000000 in
/-- The stretch writes nothing to main_v42. -/
theorem keep_v42 (V : Valuation τ sig (Elt F)) : aft V (Proc.devRef .tc main_v42) = V (Proc.devRef .tc main_v42) := by
  after_results_simp <;> rfl

set_option maxHeartbeats 8000000 in
/-- The stretch writes nothing to main_v85. -/
theorem keep_v85 (V : Valuation τ sig (Elt F)) : aft V (Proc.devRef .tc main_v85) = V (Proc.devRef .tc main_v85) := by
  after_results_simp <;> rfl

set_option maxHeartbeats 8000000 in
/-- The stretch writes nothing to main_v109. -/
theorem keep_v109 (V : Valuation τ sig (Elt F)) : aft V (Proc.devRef .tc main_v109) = V (Proc.devRef .tc main_v109) := by
  after_results_simp <;> rfl

end Cert.KernelIdeal.KHost3

end
-- ==== Proof.KHost4.lean ====
/- Host stretch 4 of the idealized kernel program's @main: what its operations leave in each buffer later code reads, as one
   function, the composition of the printed operations, of the contents of the buffers it starts from. -/
import proofs.«400075_j26585847562450_2_alg».proof.Proof.Gen.KernelIdeal.Launch
import Idealize.ShloMosaic.Lib.StableHlo.Run
import Idealize.ShloMosaic.PureOps.Ideal

set_option maxRecDepth 16384

noncomputable section

namespace Cert.KernelIdeal.KHost4

open Cert.KernelIdeal Cert.KernelIdeal.Gen Idealize.ShloMosaic Idealize.ShloMosaic.StableHlo Idealize.SL.Sem

variable {F : FTy → Type} [FloatOps F]

/-- The buffer contents after the stretch's operations, in order, from the contents V. -/
abbrev aft (V : Valuation τ sig (Elt F)) : Valuation τ sig (Elt F) := (after hostOps4_8 (after hostOps4_7 (after hostOps4_6 (after hostOps4_5 (after hostOps4_4 (after hostOps4_3 (after hostOps4_2 (after hostOps4_1 (after hostOps4 V)))))))))

/-- What the stretch leaves in main_v139, as its operations compute it from main_v133. -/
def v139 (p_v133 : (main_v133 : Ref sig .tc).ty.Contents (Elt F)) : (main_v139 : Ref sig .tc).ty.Contents (Elt F) :=
  (((extractStridedSlice S42852x64 ![0, 0] · slices_S42880x64_S42852x64_0_0) : (⟨S42880x64, .f32⟩ : BufTy).Contents (Elt F) → (⟨S42852x64, .f32⟩ : BufTy).Contents (Elt F)) ((addf : (⟨S42880x64, .f32⟩ : BufTy).Contents (Elt F) → (⟨S42880x64, .f32⟩ : BufTy).Contents (Elt F) → (⟨S42880x64, .f32⟩ : BufTy).Contents (Elt F)) (shapeCast _ (((extractStridedSlice S1x42880x64 ![0, 0, 0] · slices_S2x42880x64_S1x42880x64_0_0_0) : (⟨S2x42880x64, .f32⟩ : BufTy).Contents (Elt F) → (⟨S1x42880x64, .f32⟩ : BufTy).Contents (Elt F)) p_v133) shapeCasts_S1x42880x64_S42880x64) (shapeCast _ (((extractStridedSlice S1x42880x64 ![1, 0, 0] · slices_S2x42880x64_S1x42880x64_1_0_0) : (⟨S2x42880x64, .f32⟩ : BufTy).Contents (Elt F) → (⟨S1x42880x64, .f32⟩ : BufTy).Contents (Elt F)) p_v133) shapeCasts_S1x42880x64_S42880x64)))
set_option maxHeartbeats 8000000 in
theorem v139_eq (V : Valuation τ sig (Elt F)) : aft V (Proc.devRef .tc main_v139) = v139 (V (Proc.devRef .tc main_v133)) := by
  unfold v139
  after_results_simp <;> rfl

/-- What the stretch leaves in main_v140, as its operations compute it from main_v85, main_v139. -/
def v140 (p_v85 : (main_v85 : Ref sig .tc).ty.Contents (Elt F)) (p_v139 : (main_v139 : Ref sig .tc).ty.Contents (Elt F)) : (main_v140 : Ref sig .tc).ty.Contents (Elt F) :=
  ((addf : (⟨S42852x64, .f32⟩ : BufTy).Contents (Elt F) → (⟨S42852x64, .f32⟩ : BufTy).Contents (Elt F) → (⟨S42852x64, .f32⟩ : BufTy).Contents (Elt F)) p_v85 p_v139)
set_option maxHeartbeats 8000000 in
theorem v140_eq (V : Valuation τ sig (Elt F)) : aft V (Proc.devRef .tc main_v140) = v140 (V (Proc.devRef .tc main_v85)) (aft V (Proc.devRef .tc main_v139)) := by
  unfold v140
  after_results_simp <;> rfl

/-- What the stretch leaves in main_v141, as its operations compute it from main_v42, main_v124. -/
def v141 (p_v42 : (main_v42 : Ref sig .tc).ty.Contents (Elt F)) (p_v124 : (main_v124 : Ref sig .tc).ty.Contents (Elt F)) : (main_v141 : Ref sig .tc).ty.Contents (Elt F) :=
  ((addf : (⟨S27094x64, .f32⟩ : BufTy).Contents (Elt F) → (⟨S27094x64, .f32⟩ : BufTy).Contents (Elt F) → (⟨S27094x64, .f32⟩ : BufTy).Contents (Elt F)) p_v42 p_v124)
set_option maxHeartbeats 8000000 in
theorem v141_eq (V : Valuation τ sig (Elt F)) : aft V (Proc.devRef .tc main_v141) = v141 (V (Proc.devRef .tc main_v42)) (V (Proc.devRef .tc main_v124)) := by
  unfold v141
  after_results_simp <;> rfl

/-- What the stretch leaves in main_v143, as its operations compute it from main_v139. -/
def v143 (p_v139 : (main_v139 : Ref sig .tc).ty.Contents (Elt F)) : (main_v143 : Ref sig .tc).ty.Contents (Elt F) :=
  (((truncf .bf16 · bitsLt_bf16_f32) : (⟨S42880x64, .f32⟩ : BufTy).Contents (Elt F) → (⟨S42880x64, .bf16⟩ : BufTy).Contents (Elt F)) ((fun x v => pad S42880x64 ![0, 0] ![28, 0] ![0, 0] x v pads_S42852x64_S42880x64_0280_000 h_S_) p_v139 ((sitofp (F := F) .f32) (constantI S_ 32 0#32))))
set_option maxHeartbeats 8000000 in
theorem v143_eq (V : Valuation τ sig (Elt F)) : aft V (Proc.devRef .tc main_v143) = v143 (aft V (Proc.devRef .tc main_v139)) := by
  unfold v143
  after_results_simp <;> rfl

/-- What the stretch leaves in main_v145, as its operations compute it from main_arg4. -/
def v145 (p_arg4 : (main_arg4 : Ref sig .tc).ty.Contents (Elt F)) : (main_v145 : Ref sig .tc).ty.Contents (Elt F) :=
  (shapeCast _ ((fun x v => pad S2000000 ![0] ![0] ![0] x v pads_S2000000_S2000000_000 h_S_) p_arg4 (id (constantI S_ 32 4294967295#32))) shapeCasts_S2000000_S2x1000000x1)
set_option maxHeartbeats 8000000 in
theorem v145_eq (V : Valuation τ sig (Elt F)) : aft V (Proc.devRef .tc main_v145) = v145 (V (Proc.devRef .tc main_arg4)) := by
  unfold v145
  after_results_simp <;> rfl

/-- What the stretch leaves in main_v147, as its operations compute it from main_arg3. -/
def v147 (p_arg3 : (main_arg3 : Ref sig .tc).ty.Contents (Elt F)) : (main_v147 : Ref sig .tc).ty.Contents (Elt F) :=
  (shapeCast _ ((fun x v => pad S2000000 ![0] ![0] ![0] x v pads_S2000000_S2000000_000 h_S_) p_arg3 (id (constantI S_ 32 4294967295#32))) shapeCasts_S2000000_S2x1000000x1)
set_option maxHeartbeats 8000000 in
theorem v147_eq (V : Valuation τ sig (Elt F)) : aft V (Proc.devRef .tc main_v147) = v147 (V (Proc.devRef .tc main_arg3)) := by
  unfold v147
  after_results_simp <;> rfl

/-- What the stretch leaves in main_v149, as its operations compute it from main_v109. -/
def v149 (p_v109 : (main_v109 : Ref sig .tc).ty.Contents (Elt F)) : (main_v149 : Ref sig .tc).ty.Contents (Elt F) :=
  (shapeCast _ ((fun x v => pad S2000000 ![0] ![0] ![0] x v pads_S2000000_S2000000_000 h_S_) p_v109 (id (constant (F := F) S_ .f32 0x00000000#32))) shapeCasts_S2000000_S2x1000000x1)
set_option maxHeartbeats 8000000 in
theorem v149_eq (V : Valuation τ sig (Elt F)) : aft V (Proc.devRef .tc main_v149) = v149 (V (Proc.devRef .tc main_v109)) := by
  unfold v149
  after_results_simp <;> rfl

set_option maxHeartbeats 8000000 in
/-- The stretch writes nothing to main_arg3. -/
theorem keep_arg3 (V : Valuation τ sig (Elt F)) : aft V (Proc.devRef .tc main_arg3) = V (Proc.devRef .tc main_arg3) := by
  after_results_simp <;> rfl

set_option maxHeartbeats 8000000 in
/-- The stretch writes nothing to main_arg4. -/
theorem keep_arg4 (V : Valuation τ sig (Elt F)) : aft V (Proc.devRef .tc main_arg4) = V (Proc.devRef .tc main_arg4) := by
  after_results_simp <;> rfl

set_option maxHeartbeats 8000000 in
/-- The stretch writes nothing to main_v109. -/
theorem keep_v109 (V : Valuation τ sig (Elt F)) : aft V (Proc.devRef .tc main_v109) = V (Proc.devRef .tc main_v109) := by
  after_results_simp <;> rfl

set_option maxHeartbeats 8000000 in
/-- The stretch writes nothing to main_v124. -/
theorem keep_v124 (V : Valuation τ sig (Elt F)) : aft V (Proc.devRef .tc main_v124) = V (Proc.devRef .tc main_v124) := by
  after_results_simp <;> rfl

end Cert.KernelIdeal.KHost4

end
-- ==== Proof.KHost5.lean ====
/- Host stretch 5 of the idealized kernel program's @main: what its operations leave in each buffer later code reads, as one
   function, the composition of the printed operations, of the contents of the buffers it starts from. -/
import proofs.«400075_j26585847562450_2_alg».proof.Proof.Gen.KernelIdeal.Launch
import Idealize.ShloMosaic.Lib.StableHlo.Run
import Idealize.ShloMosaic.PureOps.Ideal

set_option maxRecDepth 16384

noncomputable section

namespace Cert.KernelIdeal.KHost5

open Cert.KernelIdeal Cert.KernelIdeal.Gen Idealize.ShloMosaic Idealize.ShloMosaic.StableHlo Idealize.SL.Sem

variable {F : FTy → Type} [FloatOps F]

/-- The buffer contents after the stretch's operations, in order, from the contents V. -/
abbrev aft (V : Valuation τ sig (Elt F)) : Valuation τ sig (Elt F) := (after hostOps5_8 (after hostOps5_7 (after hostOps5_6 (after hostOps5_5 (after hostOps5_4 (after hostOps5_3 (after hostOps5_2 (after hostOps5_1 (after hostOps5 V)))))))))

/-- What the stretch leaves in main_v156, as its operations compute it from main_v150. -/
def v156 (p_v150 : (main_v150 : Ref sig .tc).ty.Contents (Elt F)) : (main_v156 : Ref sig .tc).ty.Contents (Elt F) :=
  (((extractStridedSlice S27094x64 ![0, 0] · slices_S27136x64_S27094x64_0_0) : (⟨S27136x64, .f32⟩ : BufTy).Contents (Elt F) → (⟨S27094x64, .f32⟩ : BufTy).Contents (Elt F)) ((addf : (⟨S27136x64, .f32⟩ : BufTy).Contents (Elt F) → (⟨S27136x64, .f32⟩ : BufTy).Contents (Elt F) → (⟨S27136x64, .f32⟩ : BufTy).Contents (Elt F)) (shapeCast _ (((extractStridedSlice S1x27136x64 ![0, 0, 0] · slices_S2x27136x64_S1x27136x64_0_0_0) : (⟨S2x27136x64, .f32⟩ : BufTy).Contents (Elt F) → (⟨S1x27136x64, .f32⟩ : BufTy).Contents (Elt F)) p_v150) shapeCasts_S1x27136x64_S27136x64) (shapeCast _ (((extractStridedSlice S1x27136x64 ![1, 0, 0] · slices_S2x27136x64_S1x27136x64_1_0_0) : (⟨S2x27136x64, .f32⟩ : BufTy).Contents (Elt F) → (⟨S1x27136x64, .f32⟩ : BufTy).Contents (Elt F)) p_v150) shapeCasts_S1x27136x64_S27136x64)))
set_option maxHeartbeats 8000000 in
theorem v156_eq (V : Valuation τ sig (Elt F)) : aft V (Proc.devRef .tc main_v156) = v156 (V (Proc.devRef .tc main_v150)) := by
  unfold v156
  after_results_simp <;> rfl

/-- What the stretch leaves in main_v158, as its operations compute it from main_v124. -/
def v158 (p_v124 : (main_v124 : Ref sig .tc).ty.Contents (Elt F)) : (main_v158 : Ref sig .tc).ty.Contents (Elt F) :=
  (((truncf .bf16 · bitsLt_bf16_f32) : (⟨S27136x64, .f32⟩ : BufTy).Contents (Elt F) → (⟨S27136x64, .bf16⟩ : BufTy).Contents (Elt F)) ((fun x v => pad S27136x64 ![0, 0] ![42, 0] ![0, 0] x v pads_S27094x64_S27136x64_0420_000 h_S_) p_v124 ((sitofp (F := F) .f32) (constantI S_ 32 0#32))))
set_option maxHeartbeats 8000000 in
theorem v158_eq (V : Valuation τ sig (Elt F)) : aft V (Proc.devRef .tc main_v158) = v158 (V (Proc.devRef .tc main_v124)) := by
  unfold v158
  after_results_simp <;> rfl

/-- What the stretch leaves in main_v160, as its operations compute it from main_arg3. -/
def v160 (p_arg3 : (main_arg3 : Ref sig .tc).ty.Contents (Elt F)) : (main_v160 : Ref sig .tc).ty.Contents (Elt F) :=
  (shapeCast _ ((fun x v => pad S2000000 ![0] ![0] ![0] x v pads_S2000000_S2000000_000 h_S_) p_arg3 (id (constantI S_ 32 4294967295#32))) shapeCasts_S2000000_S2x1000000x1)
set_option maxHeartbeats 8000000 in
theorem v160_eq (V : Valuation τ sig (Elt F)) : aft V (Proc.devRef .tc main_v160) = v160 (V (Proc.devRef .tc main_arg3)) := by
  unfold v160
  after_results_simp <;> rfl

/-- What the stretch leaves in main_v162, as its operations compute it from main_arg4. -/
def v162 (p_arg4 : (main_arg4 : Ref sig .tc).ty.Contents (Elt F)) : (main_v162 : Ref sig .tc).ty.Contents (Elt F) :=
  (shapeCast _ ((fun x v => pad S2000000 ![0] ![0] ![0] x v pads_S2000000_S2000000_000 h_S_) p_arg4 (id (constantI S_ 32 4294967295#32))) shapeCasts_S2000000_S2x1000000x1)
set_option maxHeartbeats 8000000 in
theorem v162_eq (V : Valuation τ sig (Elt F)) : aft V (Proc.devRef .tc main_v162) = v162 (V (Proc.devRef .tc main_arg4)) := by
  unfold v162
  after_results_simp <;> rfl

/-- What the stretch leaves in main_v164, as its operations compute it from main_v109. -/
def v164 (p_v109 : (main_v109 : Ref sig .tc).ty.Contents (Elt F)) : (main_v164 : Ref sig .tc).ty.Contents (Elt F) :=
  (shapeCast _ ((fun x v => pad S2000000 ![0] ![0] ![0] x v pads_S2000000_S2000000_000 h_S_) p_v109 (id (constant (F := F) S_ .f32 0x00000000#32))) shapeCasts_S2000000_S2x1000000x1)
set_option maxHeartbeats 8000000 in
theorem v164_eq (V : Valuation τ sig (Elt F)) : aft V (Proc.devRef .tc main_v164) = v164 (V (Proc.devRef .tc main_v109)) := by
  unfold v164
  after_results_simp <;> rfl

set_option maxHeartbeats 8000000 in
/-- The stretch writes nothing to main_arg3. -/
theorem keep_arg3 (V : Valuation τ sig (Elt F)) : aft V (Proc.devRef .tc main_arg3) = V (Proc.devRef .tc main_arg3) := by
  after_results_simp <;> rfl

set_option maxHeartbeats 8000000 in
/-- The stretch writes nothing to main_arg4. -/
theorem keep_arg4 (V : Valuation τ sig (Elt F)) : aft V (Proc.devRef .tc main_arg4) = V (Proc.devRef .tc main_arg4) := by
  after_results_simp <;> rfl

set_option maxHeartbeats 8000000 in
/-- The stretch writes nothing to main_v109. -/
theorem keep_v109 (V : Valuation τ sig (Elt F)) : aft V (Proc.devRef .tc main_v109) = V (Proc.devRef .tc main_v109) := by
  after_results_simp <;> rfl

set_option maxHeartbeats 8000000 in
/-- The stretch writes nothing to main_v140. -/
theorem keep_v140 (V : Valuation τ sig (Elt F)) : aft V (Proc.devRef .tc main_v140) = V (Proc.devRef .tc main_v140) := by
  after_results_simp <;> rfl

set_option maxHeartbeats 8000000 in
/-- The stretch writes nothing to main_v141. -/
theorem keep_v141 (V : Valuation τ sig (Elt F)) : aft V (Proc.devRef .tc main_v141) = V (Proc.devRef .tc main_v141) := by
  after_results_simp <;> rfl

end Cert.KernelIdeal.KHost5

end
-- ==== Proof.KHost6.lean ====
/- Host stretch 6 of the idealized kernel program's @main: what its operations leave in each buffer later code reads, as one
   function, the composition of the printed operations, of the contents of the buffers it starts from. -/
import proofs.«400075_j26585847562450_2_alg».proof.Proof.Gen.KernelIdeal.Launch
import Idealize.ShloMosaic.Lib.StableHlo.Run
import Idealize.ShloMosaic.PureOps.Ideal

set_option maxRecDepth 16384

noncomputable section

namespace Cert.KernelIdeal.KHost6

open Cert.KernelIdeal Cert.KernelIdeal.Gen Idealize.ShloMosaic Idealize.ShloMosaic.StableHlo Idealize.SL.Sem

variable {F : FTy → Type} [FloatOps F]

/-- The buffer contents after the stretch's operations, in order, from the contents V. -/
abbrev aft (V : Valuation τ sig (Elt F)) : Valuation τ sig (Elt F) := (after hostOps6_8 (after hostOps6_7 (after hostOps6_6 (after hostOps6_5 (after hostOps6_4 (after hostOps6_3 (after hostOps6_2 (after hostOps6_1 (after hostOps6 V)))))))))

/-- What the stretch leaves in main_v171, as its operations compute it from main_v165. -/
def v171 (p_v165 : (main_v165 : Ref sig .tc).ty.Contents (Elt F)) : (main_v171 : Ref sig .tc).ty.Contents (Elt F) :=
  (((extractStridedSlice S42852x64 ![0, 0] · slices_S42880x64_S42852x64_0_0) : (⟨S42880x64, .f32⟩ : BufTy).Contents (Elt F) → (⟨S42852x64, .f32⟩ : BufTy).Contents (Elt F)) ((addf : (⟨S42880x64, .f32⟩ : BufTy).Contents (Elt F) → (⟨S42880x64, .f32⟩ : BufTy).Contents (Elt F) → (⟨S42880x64, .f32⟩ : BufTy).Contents (Elt F)) (shapeCast _ (((extractStridedSlice S1x42880x64 ![0, 0, 0] · slices_S2x42880x64_S1x42880x64_0_0_0) : (⟨S2x42880x64, .f32⟩ : BufTy).Contents (Elt F) → (⟨S1x42880x64, .f32⟩ : BufTy).Contents (Elt F)) p_v165) shapeCasts_S1x42880x64_S42880x64) (shapeCast _ (((extractStridedSlice S1x42880x64 ![1, 0, 0] · slices_S2x42880x64_S1x42880x64_1_0_0) : (⟨S2x42880x64, .f32⟩ : BufTy).Contents (Elt F) → (⟨S1x42880x64, .f32⟩ : BufTy).Contents (Elt F)) p_v165) shapeCasts_S1x42880x64_S42880x64)))
set_option maxHeartbeats 8000000 in
theorem v171_eq (V : Valuation τ sig (Elt F)) : aft V (Proc.devRef .tc main_v171) = v171 (V (Proc.devRef .tc main_v165)) := by
  unfold v171
  after_results_simp <;> rfl

/-- What the stretch leaves in main_v172, as its operations compute it from main_v140, main_v171. -/
def v172 (p_v140 : (main_v140 : Ref sig .tc).ty.Contents (Elt F)) (p_v171 : (main_v171 : Ref sig .tc).ty.Contents (Elt F)) : (main_v172 : Ref sig .tc).ty.Contents (Elt F) :=
  ((addf : (⟨S42852x64, .f32⟩ : BufTy).Contents (Elt F) → (⟨S42852x64, .f32⟩ : BufTy).Contents (Elt F) → (⟨S42852x64, .f32⟩ : BufTy).Contents (Elt F)) p_v140 p_v171)
set_option maxHeartbeats 8000000 in
theorem v172_eq (V : Valuation τ sig (Elt F)) : aft V (Proc.devRef .tc main_v172) = v172 (V (Proc.devRef .tc main_v140)) (aft V (Proc.devRef .tc main_v171)) := by
  unfold v172
  after_results_simp <;> rfl

/-- What the stretch leaves in main_v173, as its operations compute it from main_v141, main_v156. -/
def v173 (p_v141 : (main_v141 : Ref sig .tc).ty.Contents (Elt F)) (p_v156 : (main_v156 : Ref sig .tc).ty.Contents (Elt F)) : (main_v173 : Ref sig .tc).ty.Contents (Elt F) :=
  ((addf : (⟨S27094x64, .f32⟩ : BufTy).Contents (Elt F) → (⟨S27094x64, .f32⟩ : BufTy).Contents (Elt F) → (⟨S27094x64, .f32⟩ : BufTy).Contents (Elt F)) p_v141 p_v156)
set_option maxHeartbeats 8000000 in
theorem v173_eq (V : Valuation τ sig (Elt F)) : aft V (Proc.devRef .tc main_v173) = v173 (V (Proc.devRef .tc main_v141)) (V (Proc.devRef .tc main_v156)) := by
  unfold v173
  after_results_simp <;> rfl

/-- What the stretch leaves in main_v175, as its operations compute it from main_v171. -/
def v175 (p_v171 : (main_v171 : Ref sig .tc).ty.Contents (Elt F)) : (main_v175 : Ref sig .tc).ty.Contents (Elt F) :=
  (((truncf .bf16 · bitsLt_bf16_f32) : (⟨S42880x64, .f32⟩ : BufTy).Contents (Elt F) → (⟨S42880x64, .bf16⟩ : BufTy).Contents (Elt F)) ((fun x v => pad S42880x64 ![0, 0] ![28, 0] ![0, 0] x v pads_S42852x64_S42880x64_0280_000 h_S_) p_v171 ((sitofp (F := F) .f32) (constantI S_ 32 0#32))))
set_option maxHeartbeats 8000000 in
theorem v175_eq (V : Valuation τ sig (Elt F)) : aft V (Proc.devRef .tc main_v175) = v175 (aft V (Proc.devRef .tc main_v171)) := by
  unfold v175
  after_results_simp <;> rfl

/-- What the stretch leaves in main_v177, as its operations compute it from main_arg4. -/
def v177 (p_arg4 : (main_arg4 : Ref sig .tc).ty.Contents (Elt F)) : (main_v177 : Ref sig .tc).ty.Contents (Elt F) :=
  (shapeCast _ ((fun x v => pad S2000000 ![0] ![0] ![0] x v pads_S2000000_S2000000_000 h_S_) p_arg4 (id (constantI S_ 32 4294967295#32))) shapeCasts_S2000000_S2x1000000x1)
set_option maxHeartbeats 8000000 in
theorem v177_eq (V : Valuation τ sig (Elt F)) : aft V (Proc.devRef .tc main_v177) = v177 (V (Proc.devRef .tc main_arg4)) := by
  unfold v177
  after_results_simp <;> rfl

/-- What the stretch leaves in main_v179, as its operations compute it from main_arg3. -/
def v179 (p_arg3 : (main_arg3 : Ref sig .tc).ty.Contents (Elt F)) : (main_v179 : Ref sig .tc).ty.Contents (Elt F) :=
  (shapeCast _ ((fun x v => pad S2000000 ![0] ![0] ![0] x v pads_S2000000_S2000000_000 h_S_) p_arg3 (id (constantI S_ 32 4294967295#32))) shapeCasts_S2000000_S2x1000000x1)
set_option maxHeartbeats 8000000 in
theorem v179_eq (V : Valuation τ sig (Elt F)) : aft V (Proc.devRef .tc main_v179) = v179 (V (Proc.devRef .tc main_arg3)) := by
  unfold v179
  after_results_simp <;> rfl

/-- What the stretch leaves in main_v181, as its operations compute it from main_v109. -/
def v181 (p_v109 : (main_v109 : Ref sig .tc).ty.Contents (Elt F)) : (main_v181 : Ref sig .tc).ty.Contents (Elt F) :=
  (shapeCast _ ((fun x v => pad S2000000 ![0] ![0] ![0] x v pads_S2000000_S2000000_000 h_S_) p_v109 (id (constant (F := F) S_ .f32 0x00000000#32))) shapeCasts_S2000000_S2x1000000x1)
set_option maxHeartbeats 8000000 in
theorem v181_eq (V : Valuation τ sig (Elt F)) : aft V (Proc.devRef .tc main_v181) = v181 (V (Proc.devRef .tc main_v109)) := by
  unfold v181
  after_results_simp <;> rfl

set_option maxHeartbeats 8000000 in
/-- The stretch writes nothing to main_arg3. -/
theorem keep_arg3 (V : Valuation τ sig (Elt F)) : aft V (Proc.devRef .tc main_arg3) = V (Proc.devRef .tc main_arg3) := by
  after_results_simp <;> rfl

set_option maxHeartbeats 8000000 in
/-- The stretch writes nothing to main_arg4. -/
theorem keep_arg4 (V : Valuation τ sig (Elt F)) : aft V (Proc.devRef .tc main_arg4) = V (Proc.devRef .tc main_arg4) := by
  after_results_simp <;> rfl

set_option maxHeartbeats 8000000 in
/-- The stretch writes nothing to main_v109. -/
theorem keep_v109 (V : Valuation τ sig (Elt F)) : aft V (Proc.devRef .tc main_v109) = V (Proc.devRef .tc main_v109) := by
  after_results_simp <;> rfl

set_option maxHeartbeats 8000000 in
/-- The stretch writes nothing to main_v156. -/
theorem keep_v156 (V : Valuation τ sig (Elt F)) : aft V (Proc.devRef .tc main_v156) = V (Proc.devRef .tc main_v156) := by
  after_results_simp <;> rfl

end Cert.KernelIdeal.KHost6

end
-- ==== Proof.KHost7.lean ====
/- Host stretch 7 of the idealized kernel program's @main: what its operations leave in each buffer later code reads, as one
   function, the composition of the printed operations, of the contents of the buffers it starts from. -/
import proofs.«400075_j26585847562450_2_alg».proof.Proof.Gen.KernelIdeal.Launch
import Idealize.ShloMosaic.Lib.StableHlo.Run
import Idealize.ShloMosaic.PureOps.Ideal

set_option maxRecDepth 16384

noncomputable section

namespace Cert.KernelIdeal.KHost7

open Cert.KernelIdeal Cert.KernelIdeal.Gen Idealize.ShloMosaic Idealize.ShloMosaic.StableHlo Idealize.SL.Sem

variable {F : FTy → Type} [FloatOps F]

/-- The buffer contents after the stretch's operations, in order, from the contents V. -/
abbrev aft (V : Valuation τ sig (Elt F)) : Valuation τ sig (Elt F) := (after hostOps7_8 (after hostOps7_7 (after hostOps7_6 (after hostOps7_5 (after hostOps7_4 (after hostOps7_3 (after hostOps7_2 (after hostOps7_1 (after hostOps7 V)))))))))

/-- What the stretch leaves in main_v188, as its operations compute it from main_v182. -/
def v188 (p_v182 : (main_v182 : Ref sig .tc).ty.Contents (Elt F)) : (main_v188 : Ref sig .tc).ty.Contents (Elt F) :=
  (((extractStridedSlice S27094x64 ![0, 0] · slices_S27136x64_S27094x64_0_0) : (⟨S27136x64, .f32⟩ : BufTy).Contents (Elt F) → (⟨S27094x64, .f32⟩ : BufTy).Contents (Elt F)) ((addf : (⟨S27136x64, .f32⟩ : BufTy).Contents (Elt F) → (⟨S27136x64, .f32⟩ : BufTy).Contents (Elt F) → (⟨S27136x64, .f32⟩ : BufTy).Contents (Elt F)) (shapeCast _ (((extractStridedSlice S1x27136x64 ![0, 0, 0] · slices_S2x27136x64_S1x27136x64_0_0_0) : (⟨S2x27136x64, .f32⟩ : BufTy).Contents (Elt F) → (⟨S1x27136x64, .f32⟩ : BufTy).Contents (Elt F)) p_v182) shapeCasts_S1x27136x64_S27136x64) (shapeCast _ (((extractStridedSlice S1x27136x64 ![1, 0, 0] · slices_S2x27136x64_S1x27136x64_1_0_0) : (⟨S2x27136x64, .f32⟩ : BufTy).Contents (Elt F) → (⟨S1x27136x64, .f32⟩ : BufTy).Contents (Elt F)) p_v182) shapeCasts_S1x27136x64_S27136x64)))
set_option maxHeartbeats 8000000 in
theorem v188_eq (V : Valuation τ sig (Elt F)) : aft V (Proc.devRef .tc main_v188) = v188 (V (Proc.devRef .tc main_v182)) := by
  unfold v188
  after_results_simp <;> rfl

/-- What the stretch leaves in main_v190, as its operations compute it from main_v156. -/
def v190 (p_v156 : (main_v156 : Ref sig .tc).ty.Contents (Elt F)) : (main_v190 : Ref sig .tc).ty.Contents (Elt F) :=
  (((truncf .bf16 · bitsLt_bf16_f32) : (⟨S27136x64, .f32⟩ : BufTy).Contents (Elt F) → (⟨S27136x64, .bf16⟩ : BufTy).Contents (Elt F)) ((fun x v => pad S27136x64 ![0, 0] ![42, 0] ![0, 0] x v pads_S27094x64_S27136x64_0420_000 h_S_) p_v156 ((sitofp (F := F) .f32) (constantI S_ 32 0#32))))
set_option maxHeartbeats 8000000 in
theorem v190_eq (V : Valuation τ sig (Elt F)) : aft V (Proc.devRef .tc main_v190) = v190 (V (Proc.devRef .tc main_v156)) := by
  unfold v190
  after_results_simp <;> rfl

/-- What the stretch leaves in main_v192, as its operations compute it from main_arg3. -/
def v192 (p_arg3 : (main_arg3 : Ref sig .tc).ty.Contents (Elt F)) : (main_v192 : Ref sig .tc).ty.Contents (Elt F) :=
  (shapeCast _ ((fun x v => pad S2000000 ![0] ![0] ![0] x v pads_S2000000_S2000000_000 h_S_) p_arg3 (id (constantI S_ 32 4294967295#32))) shapeCasts_S2000000_S2x1000000x1)
set_option maxHeartbeats 8000000 in
theorem v192_eq (V : Valuation τ sig (Elt F)) : aft V (Proc.devRef .tc main_v192) = v192 (V (Proc.devRef .tc main_arg3)) := by
  unfold v192
  after_results_simp <;> rfl

/-- What the stretch leaves in main_v194, as its operations compute it from main_arg4. -/
def v194 (p_arg4 : (main_arg4 : Ref sig .tc).ty.Contents (Elt F)) : (main_v194 : Ref sig .tc).ty.Contents (Elt F) :=
  (shapeCast _ ((fun x v => pad S2000000 ![0] ![0] ![0] x v pads_S2000000_S2000000_000 h_S_) p_arg4 (id (constantI S_ 32 4294967295#32))) shapeCasts_S2000000_S2x1000000x1)
set_option maxHeartbeats 8000000 in
theorem v194_eq (V : Valuation τ sig (Elt F)) : aft V (Proc.devRef .tc main_v194) = v194 (V (Proc.devRef .tc main_arg4)) := by
  unfold v194
  after_results_simp <;> rfl

/-- What the stretch leaves in main_v196, as its operations compute it from main_v109. -/
def v196 (p_v109 : (main_v109 : Ref sig .tc).ty.Contents (Elt F)) : (main_v196 : Ref sig .tc).ty.Contents (Elt F) :=
  (shapeCast _ ((fun x v => pad S2000000 ![0] ![0] ![0] x v pads_S2000000_S2000000_000 h_S_) p_v109 (id (constant (F := F) S_ .f32 0x00000000#32))) shapeCasts_S2000000_S2x1000000x1)
set_option maxHeartbeats 8000000 in
theorem v196_eq (V : Valuation τ sig (Elt F)) : aft V (Proc.devRef .tc main_v196) = v196 (V (Proc.devRef .tc main_v109)) := by
  unfold v196
  after_results_simp <;> rfl

set_option maxHeartbeats 8000000 in
/-- The stretch writes nothing to main_v172. -/
theorem keep_v172 (V : Valuation τ sig (Elt F)) : aft V (Proc.devRef .tc main_v172) = V (Proc.devRef .tc main_v172) := by
  after_results_simp <;> rfl

set_option maxHeartbeats 8000000 in
/-- The stretch writes nothing to main_v173. -/
theorem keep_v173 (V : Valuation τ sig (Elt F)) : aft V (Proc.devRef .tc main_v173) = V (Proc.devRef .tc main_v173) := by
  after_results_simp <;> rfl

end Cert.KernelIdeal.KHost7

end
-- ==== Proof.KHost8.lean ====
/- Host stretch 8 of the idealized kernel program's @main: what its operations leave in each buffer later code reads, as one
   function, the composition of the printed operations, of the contents of the buffers it starts from. -/
import proofs.«400075_j26585847562450_2_alg».proof.Proof.Gen.KernelIdeal.Launch
import Idealize.ShloMosaic.Lib.StableHlo.Run
import Idealize.ShloMosaic.PureOps.Ideal

set_option maxRecDepth 16384

noncomputable section

namespace Cert.KernelIdeal.KHost8

open Cert.KernelIdeal Cert.KernelIdeal.Gen Idealize.ShloMosaic Idealize.ShloMosaic.StableHlo Idealize.SL.Sem

variable {F : FTy → Type} [FloatOps F]

/-- The buffer contents after the stretch's operations, in order, from the contents V. -/
abbrev aft (V : Valuation τ sig (Elt F)) : Valuation τ sig (Elt F) := (after hostOps8 V)

/-- What the stretch leaves in main_v203, as its operations compute it from main_v197. -/
def v203 (p_v197 : (main_v197 : Ref sig .tc).ty.Contents (Elt F)) : (main_v203 : Ref sig .tc).ty.Contents (Elt F) :=
  (((extractStridedSlice S42852x64 ![0, 0] · slices_S42880x64_S42852x64_0_0) : (⟨S42880x64, .f32⟩ : BufTy).Contents (Elt F) → (⟨S42852x64, .f32⟩ : BufTy).Contents (Elt F)) ((addf : (⟨S42880x64, .f32⟩ : BufTy).Contents (Elt F) → (⟨S42880x64, .f32⟩ : BufTy).Contents (Elt F) → (⟨S42880x64, .f32⟩ : BufTy).Contents (Elt F)) (shapeCast _ (((extractStridedSlice S1x42880x64 ![0, 0, 0] · slices_S2x42880x64_S1x42880x64_0_0_0) : (⟨S2x42880x64, .f32⟩ : BufTy).Contents (Elt F) → (⟨S1x42880x64, .f32⟩ : BufTy).Contents (Elt F)) p_v197) shapeCasts_S1x42880x64_S42880x64) (shapeCast _ (((extractStridedSlice S1x42880x64 ![1, 0, 0] · slices_S2x42880x64_S1x42880x64_1_0_0) : (⟨S2x42880x64, .f32⟩ : BufTy).Contents (Elt F) → (⟨S1x42880x64, .f32⟩ : BufTy).Contents (Elt F)) p_v197) shapeCasts_S1x42880x64_S42880x64)))
set_option maxHeartbeats 8000000 in
theorem v203_eq (V : Valuation τ sig (Elt F)) : aft V (Proc.devRef .tc main_v203) = v203 (V (Proc.devRef .tc main_v197)) := by
  unfold v203
  after_results_simp <;> rfl

/-- What the stretch leaves in main_v204, as its operations compute it from main_v172, main_v203. -/
def v204 (p_v172 : (main_v172 : Ref sig .tc).ty.Contents (Elt F)) (p_v203 : (main_v203 : Ref sig .tc).ty.Contents (Elt F)) : (main_v204 : Ref sig .tc).ty.Contents (Elt F) :=
  ((addf : (⟨S42852x64, .f32⟩ : BufTy).Contents (Elt F) → (⟨S42852x64, .f32⟩ : BufTy).Contents (Elt F) → (⟨S42852x64, .f32⟩ : BufTy).Contents (Elt F)) p_v172 p_v203)
set_option maxHeartbeats 8000000 in
theorem v204_eq (V : Valuation τ sig (Elt F)) : aft V (Proc.devRef .tc main_v204) = v204 (V (Proc.devRef .tc main_v172)) (aft V (Proc.devRef .tc main_v203)) := by
  unfold v204
  after_results_simp <;> rfl

/-- What the stretch leaves in main_v205, as its operations compute it from main_v173, main_v188. -/
def v205 (p_v173 : (main_v173 : Ref sig .tc).ty.Contents (Elt F)) (p_v188 : (main_v188 : Ref sig .tc).ty.Contents (Elt F)) : (main_v205 : Ref sig .tc).ty.Contents (Elt F) :=
  ((addf : (⟨S27094x64, .f32⟩ : BufTy).Contents (Elt F) → (⟨S27094x64, .f32⟩ : BufTy).Contents (Elt F) → (⟨S27094x64, .f32⟩ : BufTy).Contents (Elt F)) p_v173 p_v188)
set_option maxHeartbeats 8000000 in
theorem v205_eq (V : Valuation τ sig (Elt F)) : aft V (Proc.devRef .tc main_v205) = v205 (V (Proc.devRef .tc main_v173)) (V (Proc.devRef .tc main_v188)) := by
  unfold v205
  after_results_simp <;> rfl

/-- What the stretch leaves in main_v207, as its operations compute it from main_v204. -/
def v207 (p_v204 : (main_v204 : Ref sig .tc).ty.Contents (Elt F)) : (main_v207 : Ref sig .tc).ty.Contents (Elt F) :=
  ((mulf : (⟨S42852x64, .f32⟩ : BufTy).Contents (Elt F) → (⟨S42852x64, .f32⟩ : BufTy).Contents (Elt F) → (⟨S42852x64, .f32⟩ : BufTy).Contents (Elt F)) p_v204 ((broadcastInDim S42852x64 ![] bcast_S_S42852x64 : (⟨S_, .f32⟩ : BufTy).Contents (Elt F) → (⟨S42852x64, .f32⟩ : BufTy).Contents (Elt F)) (constant (F := F) S_ .f32 0x3E800000#32)))
set_option maxHeartbeats 8000000 in
theorem v207_eq (V : Valuation τ sig (Elt F)) : aft V (Proc.devRef .tc main_v207) = v207 (aft V (Proc.devRef .tc main_v204)) := by
  unfold v207
  after_results_simp <;> rfl

/-- What the stretch leaves in main_v209, as its operations compute it from main_v205. -/
def v209 (p_v205 : (main_v205 : Ref sig .tc).ty.Contents (Elt F)) : (main_v209 : Ref sig .tc).ty.Contents (Elt F) :=
  ((mulf : (⟨S27094x64, .f32⟩ : BufTy).Contents (Elt F) → (⟨S27094x64, .f32⟩ : BufTy).Contents (Elt F) → (⟨S27094x64, .f32⟩ : BufTy).Contents (Elt F)) p_v205 ((broadcastInDim S27094x64 ![] bcast_S_S27094x64 : (⟨S_, .f32⟩ : BufTy).Contents (Elt F) → (⟨S27094x64, .f32⟩ : BufTy).Contents (Elt F)) (constant (F := F) S_ .f32 0x3E800000#32)))
set_option maxHeartbeats 8000000 in
theorem v209_eq (V : Valuation τ sig (Elt F)) : aft V (Proc.devRef .tc main_v209) = v209 (aft V (Proc.devRef .tc main_v205)) := by
  unfold v209
  after_results_simp <;> rfl

end Cert.KernelIdeal.KHost8

end
-- ==== Proof.RegDefs.lean ====
/- What one grid point of each aggregation region adds to its accumulator block, the blocks of the padded edge
   arrays that point reads, and the region's output array as the sum of the points of one core. -/
import proofs.«400075_j26585847562450_2_alg».proof.Proof.Gen.KernelIdeal.Skeleton
import Idealize.ShloMosaic.PureOps.Ideal
import Idealize.ShloMosaic.Lib.ValueIdx

set_option synthInstance.maxSize 4096

noncomputable section

open Idealize.ShloMosaic Idealize.SL.Sem

namespace Cert.KernelIdeal.Reg0

open Cert.KernelIdeal Cert.KernelIdeal.Gen Idealize.ShloMosaic.ValueIdx

variable {F : FTy → Type} [FloatOps F]

/-- What one grid point adds to the accumulator block: from the point's 64 source indices, 64 destination indices
    and 64 scales (each a column block) and the whole node table, the one-hot gather of the table's rows, scaled,
    then scattered by the second one-hot product onto the 27136 destination rows. -/
def contrib (v3 : Vec F S1x64x1 .i32) (v5 : Vec F S1x64x1 .i32) (v7 : Vec F S1x64x1 .f32) (v15 : Vec F S27136x64 .bf16) : FVec F S27136x64 .f32 :=
  have v4 : IVec S64x1 32 := shapeCast S64x1 v3 shapeCasts_S1x64x1_S64x1
  have v6 : IVec S64x1 32 := shapeCast S64x1 v5 shapeCasts_S1x64x1_S64x1
  have v8 : FVec F S64x1 .f32 := shapeCast S64x1 v7 shapeCasts_S1x64x1_S64x1
  have v9 : IVec S64x27136 32 := iota .tc S64x27136 32 [1] iota_S64x27136_d1_w32
  have v10 : IVec S64x27136 32 := broadcastTo S64x27136 v4 broadcasts_S64x1_S64x27136
  have v11 : IVec S64x27136 1 := cmpi .eq v10 v9
  have v12 : IVec S64x27136 32 := extui 32 v11 natLt_1_32
  have v13 : FVec F S64x27136 .f32 := sitofp .f32 v12
  have v14 : FVec F S64x27136 .bf16 := truncf .bf16 v13 bitsLt_bf16_f32
  have v16 : FVec F S27136x64 .bf16 := shapeCast S27136x64 v15 shapeCasts_S27136x64_S27136x64
  have cst : FVec F S64x64 .f32 := constant S64x64 .f32 0x00000000#32
  have v17 : FVec F S64x64 .f32 := matmul dot_S64x27136_S27136x64_S64x64_1_0_0_1_n_n none v14 v16 cst
  have v18 : FVec F S64x64 .f32 := broadcastTo S64x64 v8 broadcasts_S64x1_S64x64
  have v19 : FVec F S64x64 .f32 := mulf v17 v18
  have v20 : FVec F S64x64 .bf16 := truncf .bf16 v19 bitsLt_bf16_f32
  have v21 : IVec S64x27136 32 := iota .tc S64x27136 32 [1] iota_S64x27136_d1_w32
  have v22 : IVec S64x27136 32 := broadcastTo S64x27136 v6 broadcasts_S64x1_S64x27136
  have v23 : IVec S64x27136 1 := cmpi .eq v22 v21
  have v24 : IVec S64x27136 32 := extui 32 v23 natLt_1_32
  have v25 : FVec F S64x27136 .f32 := sitofp .f32 v24
  have v26 : FVec F S64x27136 .bf16 := truncf .bf16 v25 bitsLt_bf16_f32
  have cst_11 : FVec F S27136x64 .f32 := constant S27136x64 .f32 0x00000000#32
  have v27 : FVec F S27136x64 .f32 := matmul dot_S64x27136_S64x64_S27136x64_0_0_1_1_n_n none v26 v20 cst_11
  v27

/-- Rows 64k .. 64k+63 of half h of a padded integer edge array, as the column block a grid point reads. -/
def blkI (A : IVec S2x270976x1 32) (h : Fin 2) (k : Fin 4234) : Vec F S1x64x1 .i32 :=
  fun j => A (ix3 h ⟨64 * k.val + (j 1).val, by have := k.isLt; have : (j 1).val < 64 := (j 1).isLt; omega⟩ (0 : Fin 1))

/-- The same rows of a padded float edge array. -/
def blkF (A : FVec F S2x270976x1 .f32) (h : Fin 2) (k : Fin 4234) : Vec F S1x64x1 .f32 :=
  fun j => A (ix3 h ⟨64 * k.val + (j 1).val, by have := k.isLt; have : (j 1).val < 64 := (j 1).isLt; omega⟩ (0 : Fin 1))

/-- The region's output array at the extended reals: entry (h, n, d) is the sum, over the 4234 grid points of core h,
    of what each point adds at (n, d). -/
def out (A0 A1 : IVec S2x270976x1 32) (A2 : FVec Ideal S2x270976x1 .f32) (A3 : FVec Ideal S27136x64 .bf16) : FVec Ideal S2x27136x64 .f32 :=
  fun i => ((∑ k : Fin 4234, (contrib (F := Ideal) (blkI (F := Ideal) A0 ⟨(i 0).val, (i 0).isLt⟩ k) (blkI (F := Ideal) A1 ⟨(i 0).val, (i 0).isLt⟩ k) (blkF A2 ⟨(i 0).val, (i 0).isLt⟩ k) A3
      (ix2 (⟨(i 1).val, (i 1).isLt⟩ : Fin 27136) (⟨(i 2).val, (i 2).isLt⟩ : Fin 64)) : EReal)) : EReal)

end Cert.KernelIdeal.Reg0

namespace Cert.KernelIdeal.Reg1

open Cert.KernelIdeal Cert.KernelIdeal.Gen Idealize.ShloMosaic.ValueIdx

variable {F : FTy → Type} [FloatOps F]

/-- What one grid point adds to the accumulator block: from the point's 64 source indices, 64 destination indices
    and 64 scales (each a column block) and the whole node table, the one-hot gather of the table's rows, scaled,
    then scattered by the second one-hot product onto the 42880 destination rows. -/
def contrib (v3 : Vec F S1x64x1 .i32) (v5 : Vec F S1x64x1 .i32) (v7 : Vec F S1x64x1 .f32) (v15 : Vec F S42880x64 .bf16) : FVec F S42880x64 .f32 :=
  have v4 : IVec S64x1 32 := shapeCast S64x1 v3 shapeCasts_S1x64x1_S64x1
  have v6 : IVec S64x1 32 := shapeCast S64x1 v5 shapeCasts_S1x64x1_S64x1
  have v8 : FVec F S64x1 .f32 := shapeCast S64x1 v7 shapeCasts_S1x64x1_S64x1
  have v9 : IVec S64x42880 32 := iota .tc S64x42880 32 [1] iota_S64x42880_d1_w32
  have v10 : IVec S64x42880 32 := broadcastTo S64x42880 v4 broadcasts_S64x1_S64x42880
  have v11 : IVec S64x42880 1 := cmpi .eq v10 v9
  have v12 : IVec S64x42880 32 := extui 32 v11 natLt_1_32
  have v13 : FVec F S64x42880 .f32 := sitofp .f32 v12
  have v14 : FVec F S64x42880 .bf16 := truncf .bf16 v13 bitsLt_bf16_f32
  have v16 : FVec F S42880x64 .bf16 := shapeCast S42880x64 v15 shapeCasts_S42880x64_S42880x64
  have cst : FVec F S64x64 .f32 := constant S64x64 .f32 0x00000000#32
  have v17 : FVec F S64x64 .f32 := matmul dot_S64x42880_S42880x64_S64x64_1_0_0_1_n_n none v14 v16 cst
  have v18 : FVec F S64x64 .f32 := broadcastTo S64x64 v8 broadcasts_S64x1_S64x64
  have v19 : FVec F S64x64 .f32 := mulf v17 v18
  have v20 : FVec F S64x64 .bf16 := truncf .bf16 v19 bitsLt_bf16_f32
  have v21 : IVec S64x42880 32 := iota .tc S64x42880 32 [1] iota_S64x42880_d1_w32
  have v22 : IVec S64x42880 32 := broadcastTo S64x42880 v6 broadcasts_S64x1_S64x42880
  have v23 : IVec S64x42880 1 := cmpi .eq v22 v21
  have v24 : IVec S64x42880 32 := extui 32 v23 natLt_1_32
  have v25 : FVec F S64x42880 .f32 := sitofp .f32 v24
  have v26 : FVec F S64x42880 .bf16 := truncf .bf16 v25 bitsLt_bf16_f32
  have cst_11 : FVec F S42880x64 .f32 := constant S42880x64 .f32 0x00000000#32
  have v27 : FVec F S42880x64 .f32 := matmul dot_S64x42880_S64x64_S42880x64_0_0_1_1_n_n none v26 v20 cst_11
  v27

/-- Rows 64k .. 64k+63 of half h of a padded integer edge array, as the column block a grid point reads. -/
def blkI (A : IVec S2x642816x1 32) (h : Fin 2) (k : Fin 10044) : Vec F S1x64x1 .i32 :=
  fun j => A (ix3 h ⟨64 * k.val + (j 1).val, by have := k.isLt; have : (j 1).val < 64 := (j 1).isLt; omega⟩ (0 : Fin 1))

/-- The same rows of a padded float edge array. -/
def blkF (A : FVec F S2x642816x1 .f32) (h : Fin 2) (k : Fin 10044) : Vec F S1x64x1 .f32 :=
  fun j => A (ix3 h ⟨64 * k.val + (j 1).val, by have := k.isLt; have : (j 1).val < 64 := (j 1).isLt; omega⟩ (0 : Fin 1))

/-- The region's output array at the extended reals: entry (h, n, d) is the sum, over the 10044 grid points of core h,
    of what each point adds at (n, d). -/
def out (A0 A1 : IVec S2x642816x1 32) (A2 : FVec Ideal S2x642816x1 .f32) (A3 : FVec Ideal S42880x64 .bf16) : FVec Ideal S2x42880x64 .f32 :=
  fun i => ((∑ k : Fin 10044, (contrib (F := Ideal) (blkI (F := Ideal) A0 ⟨(i 0).val, (i 0).isLt⟩ k) (blkI (F := Ideal) A1 ⟨(i 0).val, (i 0).isLt⟩ k) (blkF A2 ⟨(i 0).val, (i 0).isLt⟩ k) A3
      (ix2 (⟨(i 1).val, (i 1).isLt⟩ : Fin 42880) (⟨(i 2).val, (i 2).isLt⟩ : Fin 64)) : EReal)) : EReal)

end Cert.KernelIdeal.Reg1

namespace Cert.KernelIdeal.Reg2

open Cert.KernelIdeal Cert.KernelIdeal.Gen Idealize.ShloMosaic.ValueIdx

variable {F : FTy → Type} [FloatOps F]

/-- What one grid point adds to the accumulator block: from the point's 64 source indices, 64 destination indices
    and 64 scales (each a column block) and the whole node table, the one-hot gather of the table's rows, scaled,
    then scattered by the second one-hot product onto the 27136 destination rows. -/
def contrib (v3 : Vec F S1x64x1 .i32) (v5 : Vec F S1x64x1 .i32) (v7 : Vec F S1x64x1 .f32) (v15 : Vec F S42880x64 .bf16) : FVec F S27136x64 .f32 :=
  have v4 : IVec S64x1 32 := shapeCast S64x1 v3 shapeCasts_S1x64x1_S64x1
  have v6 : IVec S64x1 32 := shapeCast S64x1 v5 shapeCasts_S1x64x1_S64x1
  have v8 : FVec F S64x1 .f32 := shapeCast S64x1 v7 shapeCasts_S1x64x1_S64x1
  have v9 : IVec S64x42880 32 := iota .tc S64x42880 32 [1] iota_S64x42880_d1_w32
  have v10 : IVec S64x42880 32 := broadcastTo S64x42880 v4 broadcasts_S64x1_S64x42880
  have v11 : IVec S64x42880 1 := cmpi .eq v10 v9
  have v12 : IVec S64x42880 32 := extui 32 v11 natLt_1_32
  have v13 : FVec F S64x42880 .f32 := sitofp .f32 v12
  have v14 : FVec F S64x42880 .bf16 := truncf .bf16 v13 bitsLt_bf16_f32
  have v16 : FVec F S42880x64 .bf16 := shapeCast S42880x64 v15 shapeCasts_S42880x64_S42880x64
  have cst : FVec F S64x64 .f32 := constant S64x64 .f32 0x00000000#32
  have v17 : FVec F S64x64 .f32 := matmul dot_S64x42880_S42880x64_S64x64_1_0_0_1_n_n none v14 v16 cst
  have v18 : FVec F S64x64 .f32 := broadcastTo S64x64 v8 broadcasts_S64x1_S64x64
  have v19 : FVec F S64x64 .f32 := mulf v17 v18
  have v20 : FVec F S64x64 .bf16 := truncf .bf16 v19 bitsLt_bf16_f32
  have v21 : IVec S64x27136 32 := iota .tc S64x27136 32 [1] iota_S64x27136_d1_w32
  have v22 : IVec S64x27136 32 := broadcastTo S64x27136 v6 broadcasts_S64x1_S64x27136
  have v23 : IVec S64x27136 1 := cmpi .eq v22 v21
  have v24 : IVec S64x27136 32 := extui 32 v23 natLt_1_32
  have v25 : FVec F S64x27136 .f32 := sitofp .f32 v24
  have v26 : FVec F S64x27136 .bf16 := truncf .bf16 v25 bitsLt_bf16_f32
  have cst_11 : FVec F S27136x64 .f32 := constant S27136x64 .f32 0x00000000#32
  have v27 : FVec F S27136x64 .f32 := matmul dot_S64x27136_S64x64_S27136x64_0_0_1_1_n_n none v26 v20 cst_11
  v27

/-- Rows 64k .. 64k+63 of half h of a padded integer edge array, as the column block a grid point reads. -/
def blkI (A : IVec S2x1000000x1 32) (h : Fin 2) (k : Fin 15625) : Vec F S1x64x1 .i32 :=
  fun j => A (ix3 h ⟨64 * k.val + (j 1).val, by have := k.isLt; have : (j 1).val < 64 := (j 1).isLt; omega⟩ (0 : Fin 1))

/-- The same rows of a padded float edge array. -/
def blkF (A : FVec F S2x1000000x1 .f32) (h : Fin 2) (k : Fin 15625) : Vec F S1x64x1 .f32 :=
  fun j => A (ix3 h ⟨64 * k.val + (j 1).val, by have := k.isLt; have : (j 1).val < 64 := (j 1).isLt; omega⟩ (0 : Fin 1))

/-- The region's output array at the extended reals: entry (h, n, d) is the sum, over the 15625 grid points of core h,
    of what each point adds at (n, d). -/
def out (A0 A1 : IVec S2x1000000x1 32) (A2 : FVec Ideal S2x1000000x1 .f32) (A3 : FVec Ideal S42880x64 .bf16) : FVec Ideal S2x27136x64 .f32 :=
  fun i => ((∑ k : Fin 15625, (contrib (F := Ideal) (blkI (F := Ideal) A0 ⟨(i 0).val, (i 0).isLt⟩ k) (blkI (F := Ideal) A1 ⟨(i 0).val, (i 0).isLt⟩ k) (blkF A2 ⟨(i 0).val, (i 0).isLt⟩ k) A3
      (ix2 (⟨(i 1).val, (i 1).isLt⟩ : Fin 27136) (⟨(i 2).val, (i 2).isLt⟩ : Fin 64)) : EReal)) : EReal)

end Cert.KernelIdeal.Reg2

namespace Cert.KernelIdeal.Reg3

open Cert.KernelIdeal Cert.KernelIdeal.Gen Idealize.ShloMosaic.ValueIdx

variable {F : FTy → Type} [FloatOps F]

/-- What one grid point adds to the accumulator block: from the point's 64 source indices, 64 destination indices
    and 64 scales (each a column block) and the whole node table, the one-hot gather of the table's rows, scaled,
    then scattered by the second one-hot product onto the 42880 destination rows. -/
def contrib (v3 : Vec F S1x64x1 .i32) (v5 : Vec F S1x64x1 .i32) (v7 : Vec F S1x64x1 .f32) (v15 : Vec F S27136x64 .bf16) : FVec F S42880x64 .f32 :=
  have v4 : IVec S64x1 32 := shapeCast S64x1 v3 shapeCasts_S1x64x1_S64x1
  have v6 : IVec S64x1 32 := shapeCast S64x1 v5 shapeCasts_S1x64x1_S64x1
  have v8 : FVec F S64x1 .f32 := shapeCast S64x1 v7 shapeCasts_S1x64x1_S64x1
  have v9 : IVec S64x27136 32 := iota .tc S64x27136 32 [1] iota_S64x27136_d1_w32
  have v10 : IVec S64x27136 32 := broadcastTo S64x27136 v4 broadcasts_S64x1_S64x27136
  have v11 : IVec S64x27136 1 := cmpi .eq v10 v9
  have v12 : IVec S64x27136 32 := extui 32 v11 natLt_1_32
  have v13 : FVec F S64x27136 .f32 := sitofp .f32 v12
  have v14 : FVec F S64x27136 .bf16 := truncf .bf16 v13 bitsLt_bf16_f32
  have v16 : FVec F S27136x64 .bf16 := shapeCast S27136x64 v15 shapeCasts_S27136x64_S27136x64
  have cst : FVec F S64x64 .f32 := constant S64x64 .f32 0x00000000#32
  have v17 : FVec F S64x64 .f32 := matmul dot_S64x27136_S27136x64_S64x64_1_0_0_1_n_n none v14 v16 cst
  have v18 : FVec F S64x64 .f32 := broadcastTo S64x64 v8 broadcasts_S64x1_S64x64
  have v19 : FVec F S64x64 .f32 := mulf v17 v18
  have v20 : FVec F S64x64 .bf16 := truncf .bf16 v19 bitsLt_bf16_f32
  have v21 : IVec S64x42880 32 := iota .tc S64x42880 32 [1] iota_S64x42880_d1_w32
  have v22 : IVec S64x42880 32 := broadcastTo S64x42880 v6 broadcasts_S64x1_S64x42880
  have v23 : IVec S64x42880 1 := cmpi .eq v22 v21
  have v24 : IVec S64x42880 32 := extui 32 v23 natLt_1_32
  have v25 : FVec F S64x42880 .f32 := sitofp .f32 v24
  have v26 : FVec F S64x42880 .bf16 := truncf .bf16 v25 bitsLt_bf16_f32
  have cst_11 : FVec F S42880x64 .f32 := constant S42880x64 .f32 0x00000000#32
  have v27 : FVec F S42880x64 .f32 := matmul dot_S64x42880_S64x64_S42880x64_0_0_1_1_n_n none v26 v20 cst_11
  v27

/-- Rows 64k .. 64k+63 of half h of a padded integer edge array, as the column block a grid point reads. -/
def blkI (A : IVec S2x1000000x1 32) (h : Fin 2) (k : Fin 15625) : Vec F S1x64x1 .i32 :=
  fun j => A (ix3 h ⟨64 * k.val + (j 1).val, by have := k.isLt; have : (j 1).val < 64 := (j 1).isLt; omega⟩ (0 : Fin 1))

/-- The same rows of a padded float edge array. -/
def blkF (A : FVec F S2x1000000x1 .f32) (h : Fin 2) (k : Fin 15625) : Vec F S1x64x1 .f32 :=
  fun j => A (ix3 h ⟨64 * k.val + (j 1).val, by have := k.isLt; have : (j 1).val < 64 := (j 1).isLt; omega⟩ (0 : Fin 1))

/-- The region's output array at the extended reals: entry (h, n, d) is the sum, over the 15625 grid points of core h,
    of what each point adds at (n, d). -/
def out (A0 A1 : IVec S2x1000000x1 32) (A2 : FVec Ideal S2x1000000x1 .f32) (A3 : FVec Ideal S27136x64 .bf16) : FVec Ideal S2x42880x64 .f32 :=
  fun i => ((∑ k : Fin 15625, (contrib (F := Ideal) (blkI (F := Ideal) A0 ⟨(i 0).val, (i 0).isLt⟩ k) (blkI (F := Ideal) A1 ⟨(i 0).val, (i 0).isLt⟩ k) (blkF A2 ⟨(i 0).val, (i 0).isLt⟩ k) A3
      (ix2 (⟨(i 1).val, (i 1).isLt⟩ : Fin 42880) (⟨(i 2).val, (i 2).isLt⟩ : Fin 64)) : EReal)) : EReal)

end Cert.KernelIdeal.Reg3

namespace Cert.KernelIdeal.Reg4

open Cert.KernelIdeal Cert.KernelIdeal.Gen Idealize.ShloMosaic.ValueIdx

variable {F : FTy → Type} [FloatOps F]

/-- What one grid point adds to the accumulator block: from the point's 64 source indices, 64 destination indices
    and 64 scales (each a column block) and the whole node table, the one-hot gather of the table's rows, scaled,
    then scattered by the second one-hot product onto the 27136 destination rows. -/
def contrib (v3 : Vec F S1x64x1 .i32) (v5 : Vec F S1x64x1 .i32) (v7 : Vec F S1x64x1 .f32) (v15 : Vec F S42880x64 .bf16) : FVec F S27136x64 .f32 :=
  have v4 : IVec S64x1 32 := shapeCast S64x1 v3 shapeCasts_S1x64x1_S64x1
  have v6 : IVec S64x1 32 := shapeCast S64x1 v5 shapeCasts_S1x64x1_S64x1
  have v8 : FVec F S64x1 .f32 := shapeCast S64x1 v7 shapeCasts_S1x64x1_S64x1
  have v9 : IVec S64x42880 32 := iota .tc S64x42880 32 [1] iota_S64x42880_d1_w32
  have v10 : IVec S64x42880 32 := broadcastTo S64x42880 v4 broadcasts_S64x1_S64x42880
  have v11 : IVec S64x42880 1 := cmpi .eq v10 v9
  have v12 : IVec S64x42880 32 := extui 32 v11 natLt_1_32
  have v13 : FVec F S64x42880 .f32 := sitofp .f32 v12
  have v14 : FVec F S64x42880 .bf16 := truncf .bf16 v13 bitsLt_bf16_f32
  have v16 : FVec F S42880x64 .bf16 := shapeCast S42880x64 v15 shapeCasts_S42880x64_S42880x64
  have cst : FVec F S64x64 .f32 := constant S64x64 .f32 0x00000000#32
  have v17 : FVec F S64x64 .f32 := matmul dot_S64x42880_S42880x64_S64x64_1_0_0_1_n_n none v14 v16 cst
  have v18 : FVec F S64x64 .f32 := broadcastTo S64x64 v8 broadcasts_S64x1_S64x64
  have v19 : FVec F S64x64 .f32 := mulf v17 v18
  have v20 : FVec F S64x64 .bf16 := truncf .bf16 v19 bitsLt_bf16_f32
  have v21 : IVec S64x27136 32 := iota .tc S64x27136 32 [1] iota_S64x27136_d1_w32
  have v22 : IVec S64x27136 32 := broadcastTo S64x27136 v6 broadcasts_S64x1_S64x27136
  have v23 : IVec S64x27136 1 := cmpi .eq v22 v21
  have v24 : IVec S64x27136 32 := extui 32 v23 natLt_1_32
  have v25 : FVec F S64x27136 .f32 := sitofp .f32 v24
  have v26 : FVec F S64x27136 .bf16 := truncf .bf16 v25 bitsLt_bf16_f32
  have cst_11 : FVec F S27136x64 .f32 := constant S27136x64 .f32 0x00000000#32
  have v27 : FVec F S27136x64 .f32 := matmul dot_S64x27136_S64x64_S27136x64_0_0_1_1_n_n none v26 v20 cst_11
  v27

/-- Rows 64k .. 64k+63 of half h of a padded integer edge array, as the column block a grid point reads. -/
def blkI (A : IVec S2x1000000x1 32) (h : Fin 2) (k : Fin 15625) : Vec F S1x64x1 .i32 :=
  fun j => A (ix3 h ⟨64 * k.val + (j 1).val, by have := k.isLt; have : (j 1).val < 64 := (j 1).isLt; omega⟩ (0 : Fin 1))

/-- The same rows of a padded float edge array. -/
def blkF (A : FVec F S2x1000000x1 .f32) (h : Fin 2) (k : Fin 15625) : Vec F S1x64x1 .f32 :=
  fun j => A (ix3 h ⟨64 * k.val + (j 1).val, by have := k.isLt; have : (j 1).val < 64 := (j 1).isLt; omega⟩ (0 : Fin 1))

/-- The region's output array at the extended reals: entry (h, n, d) is the sum, over the 15625 grid points of core h,
    of what each point adds at (n, d). -/
def out (A0 A1 : IVec S2x1000000x1 32) (A2 : FVec Ideal S2x1000000x1 .f32) (A3 : FVec Ideal S42880x64 .bf16) : FVec Ideal S2x27136x64 .f32 :=
  fun i => ((∑ k : Fin 15625, (contrib (F := Ideal) (blkI (F := Ideal) A0 ⟨(i 0).val, (i 0).isLt⟩ k) (blkI (F := Ideal) A1 ⟨(i 0).val, (i 0).isLt⟩ k) (blkF A2 ⟨(i 0).val, (i 0).isLt⟩ k) A3
      (ix2 (⟨(i 1).val, (i 1).isLt⟩ : Fin 27136) (⟨(i 2).val, (i 2).isLt⟩ : Fin 64)) : EReal)) : EReal)

end Cert.KernelIdeal.Reg4

namespace Cert.KernelIdeal.Reg5

open Cert.KernelIdeal Cert.KernelIdeal.Gen Idealize.ShloMosaic.ValueIdx

variable {F : FTy → Type} [FloatOps F]

/-- What one grid point adds to the accumulator block: from the point's 64 source indices, 64 destination indices
    and 64 scales (each a column block) and the whole node table, the one-hot gather of the table's rows, scaled,
    then scattered by the second one-hot product onto the 42880 destination rows. -/
def contrib (v3 : Vec F S1x64x1 .i32) (v5 : Vec F S1x64x1 .i32) (v7 : Vec F S1x64x1 .f32) (v15 : Vec F S27136x64 .bf16) : FVec F S42880x64 .f32 :=
  have v4 : IVec S64x1 32 := shapeCast S64x1 v3 shapeCasts_S1x64x1_S64x1
  have v6 : IVec S64x1 32 := shapeCast S64x1 v5 shapeCasts_S1x64x1_S64x1
  have v8 : FVec F S64x1 .f32 := shapeCast S64x1 v7 shapeCasts_S1x64x1_S64x1
  have v9 : IVec S64x27136 32 := iota .tc S64x27136 32 [1] iota_S64x27136_d1_w32
  have v10 : IVec S64x27136 32 := broadcastTo S64x27136 v4 broadcasts_S64x1_S64x27136
  have v11 : IVec S64x27136 1 := cmpi .eq v10 v9
  have v12 : IVec S64x27136 32 := extui 32 v11 natLt_1_32
  have v13 : FVec F S64x27136 .f32 := sitofp .f32 v12
  have v14 : FVec F S64x27136 .bf16 := truncf .bf16 v13 bitsLt_bf16_f32
  have v16 : FVec F S27136x64 .bf16 := shapeCast S27136x64 v15 shapeCasts_S27136x64_S27136x64
  have cst : FVec F S64x64 .f32 := constant S64x64 .f32 0x00000000#32
  have v17 : FVec F S64x64 .f32 := matmul dot_S64x27136_S27136x64_S64x64_1_0_0_1_n_n none v14 v16 cst
  have v18 : FVec F S64x64 .f32 := broadcastTo S64x64 v8 broadcasts_S64x1_S64x64
  have v19 : FVec F S64x64 .f32 := mulf v17 v18
  have v20 : FVec F S64x64 .bf16 := truncf .bf16 v19 bitsLt_bf16_f32
  have v21 : IVec S64x42880 32 := iota .tc S64x42880 32 [1] iota_S64x42880_d1_w32
  have v22 : IVec S64x42880 32 := broadcastTo S64x42880 v6 broadcasts_S64x1_S64x42880
  have v23 : IVec S64x42880 1 := cmpi .eq v22 v21
  have v24 : IVec S64x42880 32 := extui 32 v23 natLt_1_32
  have v25 : FVec F S64x42880 .f32 := sitofp .f32 v24
  have v26 : FVec F S64x42880 .bf16 := truncf .bf16 v25 bitsLt_bf16_f32
  have cst_11 : FVec F S42880x64 .f32 := constant S42880x64 .f32 0x00000000#32
  have v27 : FVec F S42880x64 .f32 := matmul dot_S64x42880_S64x64_S42880x64_0_0_1_1_n_n none v26 v20 cst_11
  v27

/-- Rows 64k .. 64k+63 of half h of a padded integer edge array, as the column block a grid point reads. -/
def blkI (A : IVec S2x1000000x1 32) (h : Fin 2) (k : Fin 15625) : Vec F S1x64x1 .i32 :=
  fun j => A (ix3 h ⟨64 * k.val + (j 1).val, by have := k.isLt; have : (j 1).val < 64 := (j 1).isLt; omega⟩ (0 : Fin 1))

/-- The same rows of a padded float edge array. -/
def blkF (A : FVec F S2x1000000x1 .f32) (h : Fin 2) (k : Fin 15625) : Vec F S1x64x1 .f32 :=
  fun j => A (ix3 h ⟨64 * k.val + (j 1).val, by have := k.isLt; have : (j 1).val < 64 := (j 1).isLt; omega⟩ (0 : Fin 1))

/-- The region's output array at the extended reals: entry (h, n, d) is the sum, over the 15625 grid points of core h,
    of what each point adds at (n, d). -/
def out (A0 A1 : IVec S2x1000000x1 32) (A2 : FVec Ideal S2x1000000x1 .f32) (A3 : FVec Ideal S27136x64 .bf16) : FVec Ideal S2x42880x64 .f32 :=
  fun i => ((∑ k : Fin 15625, (contrib (F := Ideal) (blkI (F := Ideal) A0 ⟨(i 0).val, (i 0).isLt⟩ k) (blkI (F := Ideal) A1 ⟨(i 0).val, (i 0).isLt⟩ k) (blkF A2 ⟨(i 0).val, (i 0).isLt⟩ k) A3
      (ix2 (⟨(i 1).val, (i 1).isLt⟩ : Fin 42880) (⟨(i 2).val, (i 2).isLt⟩ : Fin 64)) : EReal)) : EReal)

end Cert.KernelIdeal.Reg5

namespace Cert.KernelIdeal.Reg6

open Cert.KernelIdeal Cert.KernelIdeal.Gen Idealize.ShloMosaic.ValueIdx

variable {F : FTy → Type} [FloatOps F]

/-- What one grid point adds to the accumulator block: from the point's 64 source indices, 64 destination indices
    and 64 scales (each a column block) and the whole node table, the one-hot gather of the table's rows, scaled,
    then scattered by the second one-hot product onto the 27136 destination rows. -/
def contrib (v3 : Vec F S1x64x1 .i32) (v5 : Vec F S1x64x1 .i32) (v7 : Vec F S1x64x1 .f32) (v15 : Vec F S42880x64 .bf16) : FVec F S27136x64 .f32 :=
  have v4 : IVec S64x1 32 := shapeCast S64x1 v3 shapeCasts_S1x64x1_S64x1
  have v6 : IVec S64x1 32 := shapeCast S64x1 v5 shapeCasts_S1x64x1_S64x1
  have v8 : FVec F S64x1 .f32 := shapeCast S64x1 v7 shapeCasts_S1x64x1_S64x1
  have v9 : IVec S64x42880 32 := iota .tc S64x42880 32 [1] iota_S64x42880_d1_w32
  have v10 : IVec S64x42880 32 := broadcastTo S64x42880 v4 broadcasts_S64x1_S64x42880
  have v11 : IVec S64x42880 1 := cmpi .eq v10 v9
  have v12 : IVec S64x42880 32 := extui 32 v11 natLt_1_32
  have v13 : FVec F S64x42880 .f32 := sitofp .f32 v12
  have v14 : FVec F S64x42880 .bf16 := truncf .bf16 v13 bitsLt_bf16_f32
  have v16 : FVec F S42880x64 .bf16 := shapeCast S42880x64 v15 shapeCasts_S42880x64_S42880x64
  have cst : FVec F S64x64 .f32 := constant S64x64 .f32 0x00000000#32
  have v17 : FVec F S64x64 .f32 := matmul dot_S64x42880_S42880x64_S64x64_1_0_0_1_n_n none v14 v16 cst
  have v18 : FVec F S64x64 .f32 := broadcastTo S64x64 v8 broadcasts_S64x1_S64x64
  have v19 : FVec F S64x64 .f32 := mulf v17 v18
  have v20 : FVec F S64x64 .bf16 := truncf .bf16 v19 bitsLt_bf16_f32
  have v21 : IVec S64x27136 32 := iota .tc S64x27136 32 [1] iota_S64x27136_d1_w32
  have v22 : IVec S64x27136 32 := broadcastTo S64x27136 v6 broadcasts_S64x1_S64x27136
  have v23 : IVec S64x27136 1 := cmpi .eq v22 v21
  have v24 : IVec S64x27136 32 := extui 32 v23 natLt_1_32
  have v25 : FVec F S64x27136 .f32 := sitofp .f32 v24
  have v26 : FVec F S64x27136 .bf16 := truncf .bf16 v25 bitsLt_bf16_f32
  have cst_11 : FVec F S27136x64 .f32 := constant S27136x64 .f32 0x00000000#32
  have v27 : FVec F S27136x64 .f32 := matmul dot_S64x27136_S64x64_S27136x64_0_0_1_1_n_n none v26 v20 cst_11
  v27

/-- Rows 64k .. 64k+63 of half h of a padded integer edge array, as the column block a grid point reads. -/
def blkI (A : IVec S2x1000000x1 32) (h : Fin 2) (k : Fin 15625) : Vec F S1x64x1 .i32 :=
  fun j => A (ix3 h ⟨64 * k.val + (j 1).val, by have := k.isLt; have : (j 1).val < 64 := (j 1).isLt; omega⟩ (0 : Fin 1))

/-- The same rows of a padded float edge array. -/
def blkF (A : FVec F S2x1000000x1 .f32) (h : Fin 2) (k : Fin 15625) : Vec F S1x64x1 .f32 :=
  fun j => A (ix3 h ⟨64 * k.val + (j 1).val, by have := k.isLt; have : (j 1).val < 64 := (j 1).isLt; omega⟩ (0 : Fin 1))

/-- The region's output array at the extended reals: entry (h, n, d) is the sum, over the 15625 grid points of core h,
    of what each point adds at (n, d). -/
def out (A0 A1 : IVec S2x1000000x1 32) (A2 : FVec Ideal S2x1000000x1 .f32) (A3 : FVec Ideal S42880x64 .bf16) : FVec Ideal S2x27136x64 .f32 :=
  fun i => ((∑ k : Fin 15625, (contrib (F := Ideal) (blkI (F := Ideal) A0 ⟨(i 0).val, (i 0).isLt⟩ k) (blkI (F := Ideal) A1 ⟨(i 0).val, (i 0).isLt⟩ k) (blkF A2 ⟨(i 0).val, (i 0).isLt⟩ k) A3
      (ix2 (⟨(i 1).val, (i 1).isLt⟩ : Fin 27136) (⟨(i 2).val, (i 2).isLt⟩ : Fin 64)) : EReal)) : EReal)

end Cert.KernelIdeal.Reg6

namespace Cert.KernelIdeal.Reg7

open Cert.KernelIdeal Cert.KernelIdeal.Gen Idealize.ShloMosaic.ValueIdx

variable {F : FTy → Type} [FloatOps F]

/-- What one grid point adds to the accumulator block: from the point's 64 source indices, 64 destination indices
    and 64 scales (each a column block) and the whole node table, the one-hot gather of the table's rows, scaled,
    then scattered by the second one-hot product onto the 42880 destination rows. -/
def contrib (v3 : Vec F S1x64x1 .i32) (v5 : Vec F S1x64x1 .i32) (v7 : Vec F S1x64x1 .f32) (v15 : Vec F S27136x64 .bf16) : FVec F S42880x64 .f32 :=
  have v4 : IVec S64x1 32 := shapeCast S64x1 v3 shapeCasts_S1x64x1_S64x1
  have v6 : IVec S64x1 32 := shapeCast S64x1 v5 shapeCasts_S1x64x1_S64x1
  have v8 : FVec F S64x1 .f32 := shapeCast S64x1 v7 shapeCasts_S1x64x1_S64x1
  have v9 : IVec S64x27136 32 := iota .tc S64x27136 32 [1] iota_S64x27136_d1_w32
  have v10 : IVec S64x27136 32 := broadcastTo S64x27136 v4 broadcasts_S64x1_S64x27136
  have v11 : IVec S64x27136 1 := cmpi .eq v10 v9
  have v12 : IVec S64x27136 32 := extui 32 v11 natLt_1_32
  have v13 : FVec F S64x27136 .f32 := sitofp .f32 v12
  have v14 : FVec F S64x27136 .bf16 := truncf .bf16 v13 bitsLt_bf16_f32
  have v16 : FVec F S27136x64 .bf16 := shapeCast S27136x64 v15 shapeCasts_S27136x64_S27136x64
  have cst : FVec F S64x64 .f32 := constant S64x64 .f32 0x00000000#32
  have v17 : FVec F S64x64 .f32 := matmul dot_S64x27136_S27136x64_S64x64_1_0_0_1_n_n none v14 v16 cst
  have v18 : FVec F S64x64 .f32 := broadcastTo S64x64 v8 broadcasts_S64x1_S64x64
  have v19 : FVec F S64x64 .f32 := mulf v17 v18
  have v20 : FVec F S64x64 .bf16 := truncf .bf16 v19 bitsLt_bf16_f32
  have v21 : IVec S64x42880 32 := iota .tc S64x42880 32 [1] iota_S64x42880_d1_w32
  have v22 : IVec S64x42880 32 := broadcastTo S64x42880 v6 broadcasts_S64x1_S64x42880
  have v23 : IVec S64x42880 1 := cmpi .eq v22 v21
  have v24 : IVec S64x42880 32 := extui 32 v23 natLt_1_32
  have v25 : FVec F S64x42880 .f32 := sitofp .f32 v24
  have v26 : FVec F S64x42880 .bf16 := truncf .bf16 v25 bitsLt_bf16_f32
  have cst_11 : FVec F S42880x64 .f32 := constant S42880x64 .f32 0x00000000#32
  have v27 : FVec F S42880x64 .f32 := matmul dot_S64x42880_S64x64_S42880x64_0_0_1_1_n_n none v26 v20 cst_11
  v27

/-- Rows 64k .. 64k+63 of half h of a padded integer edge array, as the column block a grid point reads. -/
def blkI (A : IVec S2x1000000x1 32) (h : Fin 2) (k : Fin 15625) : Vec F S1x64x1 .i32 :=
  fun j => A (ix3 h ⟨64 * k.val + (j 1).val, by have := k.isLt; have : (j 1).val < 64 := (j 1).isLt; omega⟩ (0 : Fin 1))

/-- The same rows of a padded float edge array. -/
def blkF (A : FVec F S2x1000000x1 .f32) (h : Fin 2) (k : Fin 15625) : Vec F S1x64x1 .f32 :=
  fun j => A (ix3 h ⟨64 * k.val + (j 1).val, by have := k.isLt; have : (j 1).val < 64 := (j 1).isLt; omega⟩ (0 : Fin 1))

/-- The region's output array at the extended reals: entry (h, n, d) is the sum, over the 15625 grid points of core h,
    of what each point adds at (n, d). -/
def out (A0 A1 : IVec S2x1000000x1 32) (A2 : FVec Ideal S2x1000000x1 .f32) (A3 : FVec Ideal S27136x64 .bf16) : FVec Ideal S2x42880x64 .f32 :=
  fun i => ((∑ k : Fin 15625, (contrib (F := Ideal) (blkI (F := Ideal) A0 ⟨(i 0).val, (i 0).isLt⟩ k) (blkI (F := Ideal) A1 ⟨(i 0).val, (i 0).isLt⟩ k) (blkF A2 ⟨(i 0).val, (i 0).isLt⟩ k) A3
      (ix2 (⟨(i 1).val, (i 1).isLt⟩ : Fin 42880) (⟨(i 2).val, (i 2).isLt⟩ : Fin 64)) : EReal)) : EReal)

end Cert.KernelIdeal.Reg7

end
-- ==== Proof.Reg0.lean ====
/-
  The value of aggregation region 0 of the idealized kernel program.

  The region runs its body at 2 × 4234 grid points, point t being step t % 4234 of core t / 4234. Its output window's
  block, [1, 27136, 64], is indexed by the core alone, so it stays in its staging buffer across a core's 4234 steps: the
  first step stores the zero block and then its update, every later step stores the update of what the step before
  left, and the block is written back to rows [core, :, :] of the output array after the core's last step. The update
  adds to the block what the step's 64 edges contribute: the gather of the node table's rows by the first one-hot
  product, scaled, scattered onto the 27136 destination rows by the second. Over the extended reals the block after
  step k is therefore the sum of the addends of steps 0 .. k (0 + x = x), and the output array ends holding, at
  (core, n, d), the sum over that core's 4234 steps of each step's addend at (n, d), the steps' blocks being rows
  64k .. 64k+63 of the core's half of the three padded edge arrays and the whole node table.
-/
import proofs.«400075_j26585847562450_2_alg».proof.Proof.RegDefs
import proofs.«400075_j26585847562450_2_alg».proof.Proof.KIF0
import Idealize.ShloMosaic.Lib.Pipeline.Value
import Idealize.ShloMosaic.Lib.Tactic
import Idealize.ShloMosaic.PureOps.Ideal.Laws
import Mathlib.Algebra.BigOperators.Fin

set_option maxRecDepth 65536

noncomputable section

open Idealize.ShloMosaic Idealize.ShloMosaic.TcCoe Idealize.SL.Sem
open Idealize.ShloMosaic.Pipeline (Dat)

namespace Cert.KernelIdeal.Reg0

open Cert.KernelIdeal Cert.KernelIdeal.Gen Idealize.ShloMosaic.ValueIdx

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## One grid point's update of the accumulator block, entry by entry -/

/-- The update a grid point stores: the accumulator block plus what the point adds, under the two changes of
    shape between the block [1, 27136, 64] and the matrix [27136, 64]. -/
theorem pay2_eq (x0 x1 : Vec F S1x64x1 .i32) (x2 : Vec F S1x64x1 .f32) (x3 : Vec F S27136x64 .bf16)
    (acc : Vec F S1x27136x64 .f32) :
    k0_pay2 x0 x1 x2 x3 acc
      = shapeCast S1x27136x64 (addf (shapeCast S27136x64 acc shapeCasts_S1x27136x64_S27136x64) (contrib x0 x1 x2 x3))
          shapeCasts_S27136x64_S1x27136x64 := rfl

/-- Over the extended reals, entry (0, n, d) of the stored update is the accumulator's entry plus the point's addend. -/
theorem pay2_apply (x0 x1 : Vec Ideal S1x64x1 .i32) (x2 : Vec Ideal S1x64x1 .f32) (x3 : Vec Ideal S27136x64 .bf16)
    (acc : Vec Ideal S1x27136x64 .f32) (n : Fin 27136) (d : Fin 64) :
    k0_pay2 (F := Ideal) x0 x1 x2 x3 acc (ix3 (0 : Fin 1) n d)
      = (acc (ix3 (0 : Fin 1) n d) : EReal) + (contrib (F := Ideal) x0 x1 x2 x3 (ix2 n d) : EReal) := by
  rw [pay2_eq]
  refine (shapeCast_addUnit_apply ![27136, 64] _ shapeCasts_S27136x64_S1x27136x64 (ix3 (0 : Fin 1) n d)).trans ?_
  have e2 : (fun a : Fin 2 => (ix3 (0 : Fin 1) n d : S1x27136x64.Idx) a.succ) = (ix2 n d : S27136x64.Idx) :=
    funext fun a => by match a with | ⟨0, _⟩ => rfl | ⟨1, _⟩ => rfl
  rw [e2]
  show (shapeCast S27136x64 acc shapeCasts_S1x27136x64_S27136x64 (ix2 n d) : EReal) + _ = _
  refine congrArg (· + (contrib (F := Ideal) x0 x1 x2 x3 (ix2 n d) : EReal)) ?_
  refine (shapeCast_dropUnit_apply ![27136, 64] acc shapeCasts_S1x27136x64_S27136x64 (ix2 n d)).trans ?_
  refine congrArg acc ?_
  funext a
  match a with
  | ⟨0, _⟩ => rfl
  | ⟨1, _⟩ => rfl
  | ⟨2, _⟩ => rfl

/-- The block a core's first point stores before its update is zero everywhere. -/
theorem pay1_apply (n : Fin 27136) (d : Fin 64) :
    (k0_pay1 (F := Ideal) (ix3 (0 : Fin 1) n d) : EReal) = 0 := by
  unfold k0_pay1
  refine (shapeCast_addUnit_apply ![27136, 64] _ shapeCasts_S27136x64_S1x27136x64 (ix3 (0 : Fin 1) n d)).trans ?_
  show (Ideal.ofBits .f32 0x00000000#32 : EReal) = 0
  exact Ideal.ofBits_zero_f32

/-! ## The output array as a sum over a core's steps -/

/-- What step j of core h adds at entry (n, d); zero for a step number past the core's last step. -/
def term (A0 A1 : IVec S2x270976x1 32) (A2 : FVec Ideal S2x270976x1 .f32) (A3 : FVec Ideal S27136x64 .bf16)
    (h : Fin 2) (n : Fin 27136) (d : Fin 64) (j : ℕ) : EReal :=
  if hj : j < 4234 then
    (contrib (F := Ideal) (blkI (F := Ideal) A0 h ⟨j, hj⟩) (blkI (F := Ideal) A1 h ⟨j, hj⟩) (blkF A2 h ⟨j, hj⟩) A3 (ix2 n d) : EReal)
  else 0

theorem term_of_lt (A0 A1 : IVec S2x270976x1 32) (A2 : FVec Ideal S2x270976x1 .f32) (A3 : FVec Ideal S27136x64 .bf16)
    (h : Fin 2) (n : Fin 27136) (d : Fin 64) (j : ℕ) (hj : j < 4234) :
    term A0 A1 A2 A3 h n d j
      = (contrib (F := Ideal) (blkI (F := Ideal) A0 h ⟨j, hj⟩) (blkI (F := Ideal) A1 h ⟨j, hj⟩) (blkF A2 h ⟨j, hj⟩) A3 (ix2 n d) : EReal) :=
  dif_pos hj

/-- Entry (h, n, d) of the output array is the sum of the addends of core h's 4234 steps. -/
theorem out_apply (A0 A1 : IVec S2x270976x1 32) (A2 : FVec Ideal S2x270976x1 .f32) (A3 : FVec Ideal S27136x64 .bf16)
    (h : Fin 2) (n : Fin 27136) (d : Fin 64) :
    (out A0 A1 A2 A3 (ix3 h n d) : EReal) = ∑ j ∈ Finset.range 4234, term A0 A1 A2 A3 h n d j := by
  rw [Finset.sum_range]
  exact Finset.sum_congr rfl fun k _ => (term_of_lt A0 A1 A2 A3 h n d k.val k.isLt).symm

/-! ## What each case of the body leaves in the output's staging buffer -/

/-- At a point that is not a core's first, the body leaves the update of what the buffer held. -/
theorem out_B (c : Dev nD) (i : grid0.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S27136x64 .bf16) (h5 : a5.IsWhole)
    (a6 : Memref sig .tc .vmem S1x27136x64 .f32) (h6 : a6.IsWhole) (hc : ¬cond0_0 i)
    (x0 x1 : Vec F S1x64x1 .i32) (x2 : Vec F S1x64x1 .f32) (x3 : Vec F S27136x64 .bf16) (xo : Vec F S1x27136x64 .f32) :
    out0_B_4 c i a2 h2 a3 h3 a4 h4 a5 h5 a6 h6 hc x0 x1 x2 x3 xo = k0_pay2 x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x64x1) hz3, View.ld_unit_zero (S := S27136x64) hz2, View.ld_unit_zero (S := S1x27136x64) hz3]

/-- At a core's first point, the body stores the zero block, reads it back, and leaves its update. -/
theorem out_A (c : Dev nD) (i : grid0.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S27136x64 .bf16) (h5 : a5.IsWhole)
    (a6 : Memref sig .tc .vmem S1x27136x64 .f32) (h6 : a6.IsWhole) (hc : cond0_0 i)
    (x0 x1 : Vec F S1x64x1 .i32) (x2 : Vec F S1x64x1 .f32) (x3 : Vec F S27136x64 .bf16) :
    out0_A_4 c i a2 h2 a3 h3 a4 h4 a5 h5 a6 h6 hc x0 x1 x2 x3 = k0_pay2 x0 x1 x2 x3 k0_pay1 := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x27136x64) hz3, View.readCov_unit_zero (S := S1x27136x64) _ hz3]
  simp only [View.readAt_eq_ld, h2.read_unread, h3.read_unread, h4.read_unread, h5.read_unread,
    View.ld_unit_zero (S := S1x64x1) hz3, View.ld_unit_zero (S := S27136x64) hz2, View.ld_unit_zero (S := S1x27136x64) hz3]

section Blocks

variable (V : (c : Dev nD) → (b : Ref sig .tc) → Buf (Elt F) ((c : Thread nD τ).loc b))

/-- The arrays of the region's four operands, as the region finds them, at their literal types. -/
abbrev arr0 (c : Dev nD) : IVec S2x270976x1 32 := V c (Pipeline.arrRef spec0 0)
abbrev arr1 (c : Dev nD) : IVec S2x270976x1 32 := V c (Pipeline.arrRef spec0 1)
abbrev arr2 (c : Dev nD) : FVec F S2x270976x1 .f32 := V c (Pipeline.arrRef spec0 2)
abbrev arr3 (c : Dev nD) : FVec F S27136x64 .bf16 := V c (Pipeline.arrRef spec0 3)

/-- The four blocks the body reads at point t, at their literal types. -/
abbrev xb0 (c : Dev nD) (t : Fin cfg0.N) : Vec F S1x64x1 .i32 := iblk0 V c 0 t
abbrev xb1 (c : Dev nD) (t : Fin cfg0.N) : Vec F S1x64x1 .i32 := iblk0 V c 1 t
abbrev xb2 (c : Dev nD) (t : Fin cfg0.N) : Vec F S1x64x1 .f32 := iblk0 V c 2 t
abbrev xb3 (c : Dev nD) (t : Fin cfg0.N) : Vec F S27136x64 .bf16 := iblk0 V c 3 t

/-- The staging buffer after a core's first point: the update of the zero block by that point's blocks. -/
theorem outsAt_A (c : Dev nD) (t : Fin cfg0.N) (h0 : t.val % 4234 = 0) :
    outsAt0 V c t.val t.isLt = k0_pay2 (xb0 V c t) (xb1 V c t) (xb2 V c t) (xb3 V c t) k0_pay1 :=
  (outsAt0_A V c t h0).trans
    (out_A c (grid0.coords t) (ms0_0 t) (hs0_0 t) (ms0_1 t) (hs0_1 t) (ms0_2 t) (hs0_2 t) (ms0_3 t) (hs0_3 t) (ms0_4 t) (hs0_4 t) ((hcond0_0 t).mpr h0)
      (xb0 V c t) (xb1 V c t) (xb2 V c t) (xb3 V c t))

/-- The staging buffer after any other point: the update, by that point's blocks, of what the point before left. -/
theorem outsAt_B (c : Dev nD) (t : Fin cfg0.N) (h0 : ¬t.val % 4234 = 0) :
    outsAt0 V c t.val t.isLt
      = k0_pay2 (xb0 V c t) (xb1 V c t) (xb2 V c t) (xb3 V c t)
          (outsAt0 V c (t.val - 1) (Nat.lt_of_le_of_lt (Nat.sub_le _ _) t.isLt)) :=
  (outsAt0_B V c t h0).trans
    (out_B c (grid0.coords t) (ms0_0 t) (hs0_0 t) (ms0_1 t) (hs0_1 t) (ms0_2 t) (hs0_2 t) (ms0_3 t) (hs0_3 t) (ms0_4 t) (hs0_4 t) (fun h => h0 ((hcond0_0 t).mp h))
      (xb0 V c t) (xb1 V c t) (xb2 V c t) (xb3 V c t)
      (outsAt0 V c (t.val - 1) (Nat.lt_of_le_of_lt (Nat.sub_le _ _) t.isLt)))

/-- The staging buffer's contents depend on the point's number only. -/
theorem outsAt_congr (c : Dev nD) (u v : ℕ) (hu : u < cfg0.N) (hv : v < cfg0.N) (e : u = v) :
    outsAt0 V c u hu = outsAt0 V c v hv := by
  subst e; rfl

/-! ## The blocks a point reads, as parts of the arrays -/

/-- The block index of every window at every point: the three edge windows are at (core, step, 0), the table at
    (0, 0), the output at (core, 0, 0), where point t is step t % 4234 of core t / 4234. The grid runs its last axis
    fastest, so point t has coordinates (t / 4234 % 2, t % 4234); below 2 × 4234 the first is t / 4234, and both are
    far below the 32-bit range the index maps compute in. -/
theorem idx_facts : ∀ t : Fin cfg0.N,
    win0_0.index t (0 : Fin 3) = t.val / 4234 ∧ win0_0.index t (1 : Fin 3) = t.val % 4234 ∧ win0_0.index t (2 : Fin 3) = 0
    ∧ win0_1.index t (0 : Fin 3) = t.val / 4234 ∧ win0_1.index t (1 : Fin 3) = t.val % 4234 ∧ win0_1.index t (2 : Fin 3) = 0
    ∧ win0_2.index t (0 : Fin 3) = t.val / 4234 ∧ win0_2.index t (1 : Fin 3) = t.val % 4234 ∧ win0_2.index t (2 : Fin 3) = 0
    ∧ win0_3.index t (0 : Fin 2) = 0 ∧ win0_3.index t (1 : Fin 2) = 0
    ∧ win0_4.index t (0 : Fin 3) = t.val / 4234 ∧ win0_4.index t (1 : Fin 3) = 0 ∧ win0_4.index t (2 : Fin 3) = 0 := by
  intro t
  have hN : t.val < 8468 := lt_of_lt_of_eq t.isLt N_0
  have s0 : grid0.stride (0 : Fin 2) = 4234 := by decide
  have s1 : grid0.stride (1 : Fin 2) = 1 := by decide
  have c0 : (BitVec.ofNat 32 (t.val / grid0.stride (0 : Fin 2) % 2)).toNat = t.val / 4234 := by
    rw [s0, BitVec.toNat_ofNat]; omega
  have c1 : (BitVec.ofNat 32 (t.val / grid0.stride (1 : Fin 2) % 4234)).toNat = t.val % 4234 := by
    rw [s1, BitVec.toNat_ofNat]; omega
  exact ⟨c0, c1, rfl, c0, c1, rfl, c0, c1, rfl, rfl, rfl, c0, rfl, rfl⟩

/-- At step k of core h, the first window's block is rows 64k .. 64k+63 of half h of its array. -/
theorem xb0_eq (c : Dev nD) (t : Fin cfg0.N) (h : Fin 2) (k : Fin 4234) (ht : t.val = 4234 * h.val + k.val) :
    xb0 V c t = blkI (F := F) (arr0 V c) h k := by
  obtain ⟨e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk0 V c 0 t j = _
  unfold iblk0 blkI
  rw [View.read_apply]
  show V c (Pipeline.arrRef spec0 0) (((cfg0.win 0).blk t).view.emb j) = V c (Pipeline.arrRef spec0 0) _
  refine congrArg (V c (Pipeline.arrRef spec0 0)) (funext fun a => Fin.ext ?_)
  match a with
  | ⟨0, _⟩ => show win0_0.index t (0 : Fin 3) * 1 + 1 * (j 0).val = h.val; omega
  | ⟨1, _⟩ => show win0_0.index t (1 : Fin 3) * 64 + 1 * (j 1).val = 64 * k.val + (j 1).val; omega
  | ⟨2, _⟩ => show win0_0.index t (2 : Fin 3) * 1 + 1 * (j 2).val = 0; omega

/-- The same for the second window. -/
theorem xb1_eq (c : Dev nD) (t : Fin cfg0.N) (h : Fin 2) (k : Fin 4234) (ht : t.val = 4234 * h.val + k.val) :
    xb1 V c t = blkI (F := F) (arr1 V c) h k := by
  obtain ⟨-, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk0 V c 1 t j = _
  unfold iblk0 blkI
  rw [View.read_apply]
  show V c (Pipeline.arrRef spec0 1) (((cfg0.win 1).blk t).view.emb j) = V c (Pipeline.arrRef spec0 1) _
  refine congrArg (V c (Pipeline.arrRef spec0 1)) (funext fun a => Fin.ext ?_)
  match a with
  | ⟨0, _⟩ => show win0_1.index t (0 : Fin 3) * 1 + 1 * (j 0).val = h.val; omega
  | ⟨1, _⟩ => show win0_1.index t (1 : Fin 3) * 64 + 1 * (j 1).val = 64 * k.val + (j 1).val; omega
  | ⟨2, _⟩ => show win0_1.index t (2 : Fin 3) * 1 + 1 * (j 2).val = 0; omega

/-- The same for the third window, of floats. -/
theorem xb2_eq (c : Dev nD) (t : Fin cfg0.N) (h : Fin 2) (k : Fin 4234) (ht : t.val = 4234 * h.val + k.val) :
    xb2 V c t = blkF (arr2 V c) h k := by
  obtain ⟨-, -, -, -, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk0 V c 2 t j = _
  unfold iblk0 blkF
  rw [View.read_apply]
  show V c (Pipeline.arrRef spec0 2) (((cfg0.win 2).blk t).view.emb j) = V c (Pipeline.arrRef spec0 2) _
  refine congrArg (V c (Pipeline.arrRef spec0 2)) (funext fun a => Fin.ext ?_)
  match a with
  | ⟨0, _⟩ => show win0_2.index t (0 : Fin 3) * 1 + 1 * (j 0).val = h.val; omega
  | ⟨1, _⟩ => show win0_2.index t (1 : Fin 3) * 64 + 1 * (j 1).val = 64 * k.val + (j 1).val; omega
  | ⟨2, _⟩ => show win0_2.index t (2 : Fin 3) * 1 + 1 * (j 2).val = 0; omega

/-- The fourth window's block is its whole array at every point. -/
theorem xb3_eq (c : Dev nD) (t : Fin cfg0.N) : xb3 V c t = arr3 V c := by
  obtain ⟨-, -, -, -, -, -, -, -, -, e0, e1, -⟩ := idx_facts t
  refine funext fun (j : S27136x64.Idx) => ?_
  show iblk0 V c 3 t j = _
  unfold iblk0
  rw [View.read_apply]
  show V c (Pipeline.arrRef spec0 3) (((cfg0.win 3).blk t).view.emb j) = V c (Pipeline.arrRef spec0 3) j
  refine congrArg (V c (Pipeline.arrRef spec0 3)) (funext fun a => Fin.ext ?_)
  match a with
  | ⟨0, _⟩ => show win0_3.index t (0 : Fin 2) * 27136 + 1 * (j 0).val = (j 0).val; omega
  | ⟨1, _⟩ => show win0_3.index t (1 : Fin 2) * 64 + 1 * (j 1).val = (j 1).val; omega

end Blocks

/-! ## The accumulation over a core's steps, and the array it is written back to -/

section AtIdeal

variable (V : (c : Dev nD) → (b : Ref sig .tc) → Buf (Elt Ideal) ((c : Thread nD τ).loc b))

/-- After step k of core h the staging buffer holds, at (0, n, d), the sum of the addends of steps 0 .. k:
    the first step adds to the zero block, every later step to what the step before left. -/
theorem acc_eq (c : Dev nD) (h : Fin 2) (n : Fin 27136) (d : Fin 64) :
    ∀ (k : ℕ) (hk : k < 4234) (hlt : 4234 * h.val + k < cfg0.N),
      (outsAt0 V c (4234 * h.val + k) hlt (ix3 (0 : Fin 1) n d) : EReal)
        = ∑ j ∈ Finset.range (k + 1), term (arr0 V c) (arr1 V c) (arr2 V c) (arr3 V c) h n d j
  | 0, hk, hlt => by
    have h0 : (⟨4234 * h.val + 0, hlt⟩ : Fin cfg0.N).val % 4234 = 0 := by dsimp only; omega
    refine (congrFun (outsAt_A V c ⟨4234 * h.val + 0, hlt⟩ h0) (ix3 (0 : Fin 1) n d)).trans ?_
    rw [pay2_apply, pay1_apply, zero_add, Finset.sum_range_one, term_of_lt _ _ _ _ _ _ _ 0 hk,
      xb0_eq V c ⟨4234 * h.val + 0, hlt⟩ h ⟨0, hk⟩ rfl, xb1_eq V c ⟨4234 * h.val + 0, hlt⟩ h ⟨0, hk⟩ rfl,
      xb2_eq V c ⟨4234 * h.val + 0, hlt⟩ h ⟨0, hk⟩ rfl, xb3_eq V c ⟨4234 * h.val + 0, hlt⟩]
  | k + 1, hk, hlt => by
    have hB : ¬(⟨4234 * h.val + (k + 1), hlt⟩ : Fin cfg0.N).val % 4234 = 0 := by dsimp only; omega
    have hlt' : 4234 * h.val + k < cfg0.N := by omega
    refine (congrFun (outsAt_B V c ⟨4234 * h.val + (k + 1), hlt⟩ hB) (ix3 (0 : Fin 1) n d)).trans ?_
    rw [pay2_apply, outsAt_congr V c _ (4234 * h.val + k) _ hlt' (by dsimp only; omega),
      acc_eq c h n d k (by omega) hlt', Finset.sum_range_succ _ (k + 1), term_of_lt _ _ _ _ _ _ _ (k + 1) hk,
      xb0_eq V c ⟨4234 * h.val + (k + 1), hlt⟩ h ⟨k + 1, hk⟩ rfl, xb1_eq V c ⟨4234 * h.val + (k + 1), hlt⟩ h ⟨k + 1, hk⟩ rfl,
      xb2_eq V c ⟨4234 * h.val + (k + 1), hlt⟩ h ⟨k + 1, hk⟩ rfl, xb3_eq V c ⟨4234 * h.val + (k + 1), hlt⟩]

/-- After a core's last step the staging buffer holds that core's part of the output array. -/
theorem last_eq (c : Dev nD) (t : Fin cfg0.N) (h3 : t.val % 4234 + 1 = 4234) (h : Fin 2) (hh : t.val / 4234 = h.val)
    (n : Fin 27136) (d : Fin 64) :
    (outsAt0 V c t.val t.isLt (ix3 (0 : Fin 1) n d) : EReal)
      = out (arr0 V c) (arr1 V c) (arr2 V c) (arr3 V c) (ix3 h n d) := by
  have e : t.val = 4234 * h.val + t.val % 4234 := by omega
  have hlt : 4234 * h.val + t.val % 4234 < cfg0.N := e ▸ t.isLt
  rw [outsAt_congr V c t.val (4234 * h.val + t.val % 4234) t.isLt hlt e,
    acc_eq V c h n d (t.val % 4234) (by omega) hlt, h3, out_apply]

/-- The region's output array, at its literal type. -/
abbrev result (c : Dev nD) : FVec Ideal S2x27136x64 .f32 := out (arr0 V c) (arr1 V c) (arr2 V c) (arr3 V c)

/-- What a core's last step writes back is that core's block of the output array. -/
theorem flushed_eq (c : Dev nD) (t : Fin cfg0.N) (hf : (cfg0.win 4).flush t = true) :
    (dat0 V c).flushed 4 t = ((cfg0.win 4).blk t).view.read (Elt Ideal) (result V c) := by
  have hN : cfg0.N = 8468 := N_0
  have hlt : t.val < 8468 := lt_of_lt_of_eq t.isLt hN
  have h3 : t.val % 4234 + 1 = 4234 := by have := (flush0_4 t).mp hf; omega
  obtain ⟨-, -, -, -, -, -, -, -, -, -, -, e0, e1, e2⟩ := idx_facts t
  show (cfg0.win 4).cut (grid0.coords t) ((dat0 V c).after 4 t) = _
  rw [after0_4]
  refine funext fun (y : S1x27136x64.Idx) => ?_
  rw [View.read_apply]
  have y0 : (y 0).val < 1 := (y 0).isLt
  have hy : y = ix3 (0 : Fin 1) (y 1) (y 2) := funext fun a => by
    match a with
    | ⟨0, _⟩ => exact Fin.ext (by show (y 0).val = 0; omega)
    | ⟨1, _⟩ => rfl
    | ⟨2, _⟩ => rfl
  show (outsAt0 V c t.val t.isLt y : EReal) = result V c (((cfg0.win 4).blk t).view.emb y)
  refine (congrArg (fun z : S1x27136x64.Idx => (outsAt0 V c t.val t.isLt z : EReal)) hy).trans ?_
  refine (last_eq V c t h3 ⟨t.val / 4234, by omega⟩ rfl (y 1) (y 2)).trans (congrArg (result V c) (funext fun a => Fin.ext ?_))
  match a with
  | ⟨0, _⟩ => show t.val / 4234 = win0_4.index t (0 : Fin 3) * 1 + 1 * (y 0).val; omega
  | ⟨1, _⟩ => show (y 1).val = win0_4.index t (1 : Fin 3) * 27136 + 1 * (y 1).val; omega
  | ⟨2, _⟩ => show (y 2).val = win0_4.index t (2 : Fin 3) * 64 + 1 * (y 2).val; omega

/-- THE REGION'S VALUE: after the run the output array holds, at (h, n, d), the sum over core h's 4234 steps of
    what each step adds at (n, d): every entry lies in the block its core's last step writes back. -/
theorem value (V : (c : Dev nD) → (b : Ref sig .tc) → Buf (Elt Ideal) ((c : Thread nD τ).loc b)) (c : Dev nD) :
    (Gen.dat0 (F := Ideal) V c).arrAt 4 cfg0.N
      = out (V c (Pipeline.arrRef spec0 0)) (V c (Pipeline.arrRef spec0 1)) (V c (Pipeline.arrRef spec0 2)) (V c (Pipeline.arrRef spec0 3)) :=
  (dat0 V c).arrAt_eq_of_cover 4 (result V c) (fun t hf => flushed_eq V c t hf) fun (i : S2x27136x64.Idx) => by
    have hN : cfg0.N = 8468 := N_0
    have i0 : (i 0).val < 2 := (i 0).isLt
    have i1 : (i 1).val < 27136 := (i 1).isLt
    have i2 : (i 2).val < 64 := (i 2).isLt
    have hlt : 4234 * (i 0).val + (4234 - 1) < cfg0.N := lt_of_lt_of_eq (by omega) hN.symm
    obtain ⟨-, -, -, -, -, -, -, -, -, -, -, e0, e1, e2⟩ := idx_facts ⟨4234 * (i 0).val + (4234 - 1), hlt⟩
    refine ⟨⟨4234 * (i 0).val + (4234 - 1), hlt⟩, (flush0_4 _).mpr (by dsimp only; omega), ?_⟩
    show i ∈ ((View.whole main_v35).slice (win0_4.rect ⟨4234 * (i 0).val + (4234 - 1), hlt⟩)).set
    rw [View.set_slice_whole, Rect.mem_set_unit]
    intro a
    match a with
    | ⟨0, _⟩ =>
      show win0_4.index ⟨4234 * (i 0).val + (4234 - 1), hlt⟩ (0 : Fin 3) * 1 ≤ (i 0).val
        ∧ (i 0).val < win0_4.index ⟨4234 * (i 0).val + (4234 - 1), hlt⟩ (0 : Fin 3) * 1 + 1
      rw [e0]; dsimp only; omega
    | ⟨1, _⟩ =>
      show win0_4.index ⟨4234 * (i 0).val + (4234 - 1), hlt⟩ (1 : Fin 3) * 27136 ≤ (i 1).val
        ∧ (i 1).val < win0_4.index ⟨4234 * (i 0).val + (4234 - 1), hlt⟩ (1 : Fin 3) * 27136 + 27136
      rw [e1]; omega
    | ⟨2, _⟩ =>
      show win0_4.index ⟨4234 * (i 0).val + (4234 - 1), hlt⟩ (2 : Fin 3) * 64 ≤ (i 2).val
        ∧ (i 2).val < win0_4.index ⟨4234 * (i 0).val + (4234 - 1), hlt⟩ (2 : Fin 3) * 64 + 64
      rw [e2]; omega

end AtIdeal

end Cert.KernelIdeal.Reg0

end
-- ==== Proof.Reg1.lean ====
/-
  The value of aggregation region 1 of the idealized kernel program.

  The region runs its body at 2 × 10044 grid points, point t being step t % 10044 of core t / 10044. Its output window's
  block, [1, 42880, 64], is indexed by the core alone, so it stays in its staging buffer across a core's 10044 steps: the
  first step stores the zero block and then its update, every later step stores the update of what the step before
  left, and the block is written back to rows [core, :, :] of the output array after the core's last step. The update
  adds to the block what the step's 64 edges contribute: the gather of the node table's rows by the first one-hot
  product, scaled, scattered onto the 42880 destination rows by the second. Over the extended reals the block after
  step k is therefore the sum of the addends of steps 0 .. k (0 + x = x), and the output array ends holding, at
  (core, n, d), the sum over that core's 10044 steps of each step's addend at (n, d), the steps' blocks being rows
  64k .. 64k+63 of the core's half of the three padded edge arrays and the whole node table.
-/
import proofs.«400075_j26585847562450_2_alg».proof.Proof.RegDefs
import proofs.«400075_j26585847562450_2_alg».proof.Proof.KIF1
import Idealize.ShloMosaic.Lib.Pipeline.Value
import Idealize.ShloMosaic.Lib.Tactic
import Idealize.ShloMosaic.PureOps.Ideal.Laws
import Mathlib.Algebra.BigOperators.Fin

set_option maxRecDepth 65536

noncomputable section

open Idealize.ShloMosaic Idealize.ShloMosaic.TcCoe Idealize.SL.Sem
open Idealize.ShloMosaic.Pipeline (Dat)

namespace Cert.KernelIdeal.Reg1

open Cert.KernelIdeal Cert.KernelIdeal.Gen Idealize.ShloMosaic.ValueIdx

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## One grid point's update of the accumulator block, entry by entry -/

/-- The update a grid point stores: the accumulator block plus what the point adds, under the two changes of
    shape between the block [1, 42880, 64] and the matrix [42880, 64]. -/
theorem pay2_eq (x0 x1 : Vec F S1x64x1 .i32) (x2 : Vec F S1x64x1 .f32) (x3 : Vec F S42880x64 .bf16)
    (acc : Vec F S1x42880x64 .f32) :
    k1_pay2 x0 x1 x2 x3 acc
      = shapeCast S1x42880x64 (addf (shapeCast S42880x64 acc shapeCasts_S1x42880x64_S42880x64) (contrib x0 x1 x2 x3))
          shapeCasts_S42880x64_S1x42880x64 := rfl

/-- Over the extended reals, entry (0, n, d) of the stored update is the accumulator's entry plus the point's addend. -/
theorem pay2_apply (x0 x1 : Vec Ideal S1x64x1 .i32) (x2 : Vec Ideal S1x64x1 .f32) (x3 : Vec Ideal S42880x64 .bf16)
    (acc : Vec Ideal S1x42880x64 .f32) (n : Fin 42880) (d : Fin 64) :
    k1_pay2 (F := Ideal) x0 x1 x2 x3 acc (ix3 (0 : Fin 1) n d)
      = (acc (ix3 (0 : Fin 1) n d) : EReal) + (contrib (F := Ideal) x0 x1 x2 x3 (ix2 n d) : EReal) := by
  rw [pay2_eq]
  refine (shapeCast_addUnit_apply ![42880, 64] _ shapeCasts_S42880x64_S1x42880x64 (ix3 (0 : Fin 1) n d)).trans ?_
  have e2 : (fun a : Fin 2 => (ix3 (0 : Fin 1) n d : S1x42880x64.Idx) a.succ) = (ix2 n d : S42880x64.Idx) :=
    funext fun a => by match a with | ⟨0, _⟩ => rfl | ⟨1, _⟩ => rfl
  rw [e2]
  show (shapeCast S42880x64 acc shapeCasts_S1x42880x64_S42880x64 (ix2 n d) : EReal) + _ = _
  refine congrArg (· + (contrib (F := Ideal) x0 x1 x2 x3 (ix2 n d) : EReal)) ?_
  refine (shapeCast_dropUnit_apply ![42880, 64] acc shapeCasts_S1x42880x64_S42880x64 (ix2 n d)).trans ?_
  refine congrArg acc ?_
  funext a
  match a with
  | ⟨0, _⟩ => rfl
  | ⟨1, _⟩ => rfl
  | ⟨2, _⟩ => rfl

/-- The block a core's first point stores before its update is zero everywhere. -/
theorem pay1_apply (n : Fin 42880) (d : Fin 64) :
    (k1_pay1 (F := Ideal) (ix3 (0 : Fin 1) n d) : EReal) = 0 := by
  unfold k1_pay1
  refine (shapeCast_addUnit_apply ![42880, 64] _ shapeCasts_S42880x64_S1x42880x64 (ix3 (0 : Fin 1) n d)).trans ?_
  show (Ideal.ofBits .f32 0x00000000#32 : EReal) = 0
  exact Ideal.ofBits_zero_f32

/-! ## The output array as a sum over a core's steps -/

/-- What step j of core h adds at entry (n, d); zero for a step number past the core's last step. -/
def term (A0 A1 : IVec S2x642816x1 32) (A2 : FVec Ideal S2x642816x1 .f32) (A3 : FVec Ideal S42880x64 .bf16)
    (h : Fin 2) (n : Fin 42880) (d : Fin 64) (j : ℕ) : EReal :=
  if hj : j < 10044 then
    (contrib (F := Ideal) (blkI (F := Ideal) A0 h ⟨j, hj⟩) (blkI (F := Ideal) A1 h ⟨j, hj⟩) (blkF A2 h ⟨j, hj⟩) A3 (ix2 n d) : EReal)
  else 0

theorem term_of_lt (A0 A1 : IVec S2x642816x1 32) (A2 : FVec Ideal S2x642816x1 .f32) (A3 : FVec Ideal S42880x64 .bf16)
    (h : Fin 2) (n : Fin 42880) (d : Fin 64) (j : ℕ) (hj : j < 10044) :
    term A0 A1 A2 A3 h n d j
      = (contrib (F := Ideal) (blkI (F := Ideal) A0 h ⟨j, hj⟩) (blkI (F := Ideal) A1 h ⟨j, hj⟩) (blkF A2 h ⟨j, hj⟩) A3 (ix2 n d) : EReal) :=
  dif_pos hj

/-- Entry (h, n, d) of the output array is the sum of the addends of core h's 10044 steps. -/
theorem out_apply (A0 A1 : IVec S2x642816x1 32) (A2 : FVec Ideal S2x642816x1 .f32) (A3 : FVec Ideal S42880x64 .bf16)
    (h : Fin 2) (n : Fin 42880) (d : Fin 64) :
    (out A0 A1 A2 A3 (ix3 h n d) : EReal) = ∑ j ∈ Finset.range 10044, term A0 A1 A2 A3 h n d j := by
  rw [Finset.sum_range]
  exact Finset.sum_congr rfl fun k _ => (term_of_lt A0 A1 A2 A3 h n d k.val k.isLt).symm

/-! ## What each case of the body leaves in the output's staging buffer -/

/-- At a point that is not a core's first, the body leaves the update of what the buffer held. -/
theorem out_B (c : Dev nD) (i : grid1.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S42880x64 .bf16) (h5 : a5.IsWhole)
    (a6 : Memref sig .tc .vmem S1x42880x64 .f32) (h6 : a6.IsWhole) (hc : ¬cond1_0 i)
    (x0 x1 : Vec F S1x64x1 .i32) (x2 : Vec F S1x64x1 .f32) (x3 : Vec F S42880x64 .bf16) (xo : Vec F S1x42880x64 .f32) :
    out1_B_4 c i a2 h2 a3 h3 a4 h4 a5 h5 a6 h6 hc x0 x1 x2 x3 xo = k1_pay2 x0 x1 x2 x3 xo := by
  unfold out1_B_4
  rw [View.read_writes_eq_canon _ _ _ (cover1_B_4 c i a2 h2 a3 h3 a4 h4 a5 h5 a6 h6 hc x0 x1 x2 x3 xo)]
  unfold kernelRun1_B
  dsimp only
  sl_unfold_words
  rw [View.canon_unit_zero hz3]
  simp only [View.readAt_eq_ld, h2.read_unread, h3.read_unread, h4.read_unread, h5.read_unread, h6.read_unread,
    View.ld_unit_zero (S := S1x64x1) hz3, View.ld_unit_zero (S := S42880x64) hz2, View.ld_unit_zero (S := S1x42880x64) hz3]

/-- At a core's first point, the body stores the zero block, reads it back, and leaves its update. -/
theorem out_A (c : Dev nD) (i : grid1.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S42880x64 .bf16) (h5 : a5.IsWhole)
    (a6 : Memref sig .tc .vmem S1x42880x64 .f32) (h6 : a6.IsWhole) (hc : cond1_0 i)
    (x0 x1 : Vec F S1x64x1 .i32) (x2 : Vec F S1x64x1 .f32) (x3 : Vec F S42880x64 .bf16) :
    out1_A_4 c i a2 h2 a3 h3 a4 h4 a5 h5 a6 h6 hc x0 x1 x2 x3 = k1_pay2 x0 x1 x2 x3 k1_pay1 := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x42880x64) hz3, View.readCov_unit_zero (S := S1x42880x64) _ hz3]
  simp only [View.readAt_eq_ld, h2.read_unread, h3.read_unread, h4.read_unread, h5.read_unread,
    View.ld_unit_zero (S := S1x64x1) hz3, View.ld_unit_zero (S := S42880x64) hz2, View.ld_unit_zero (S := S1x42880x64) hz3]

section Blocks

variable (V : (c : Dev nD) → (b : Ref sig .tc) → Buf (Elt F) ((c : Thread nD τ).loc b))

/-- The arrays of the region's four operands, as the region finds them, at their literal types. -/
abbrev arr0 (c : Dev nD) : IVec S2x642816x1 32 := V c (Pipeline.arrRef spec1 0)
abbrev arr1 (c : Dev nD) : IVec S2x642816x1 32 := V c (Pipeline.arrRef spec1 1)
abbrev arr2 (c : Dev nD) : FVec F S2x642816x1 .f32 := V c (Pipeline.arrRef spec1 2)
abbrev arr3 (c : Dev nD) : FVec F S42880x64 .bf16 := V c (Pipeline.arrRef spec1 3)

/-- The four blocks the body reads at point t, at their literal types. -/
abbrev xb0 (c : Dev nD) (t : Fin cfg1.N) : Vec F S1x64x1 .i32 := iblk1 V c 0 t
abbrev xb1 (c : Dev nD) (t : Fin cfg1.N) : Vec F S1x64x1 .i32 := iblk1 V c 1 t
abbrev xb2 (c : Dev nD) (t : Fin cfg1.N) : Vec F S1x64x1 .f32 := iblk1 V c 2 t
abbrev xb3 (c : Dev nD) (t : Fin cfg1.N) : Vec F S42880x64 .bf16 := iblk1 V c 3 t

/-- The staging buffer after a core's first point: the update of the zero block by that point's blocks. -/
theorem outsAt_A (c : Dev nD) (t : Fin cfg1.N) (h0 : t.val % 10044 = 0) :
    outsAt1 V c t.val t.isLt = k1_pay2 (xb0 V c t) (xb1 V c t) (xb2 V c t) (xb3 V c t) k1_pay1 :=
  (outsAt1_A V c t h0).trans
    (out_A c (grid1.coords t) (ms1_0 t) (hs1_0 t) (ms1_1 t) (hs1_1 t) (ms1_2 t) (hs1_2 t) (ms1_3 t) (hs1_3 t) (ms1_4 t) (hs1_4 t) ((hcond1_0 t).mpr h0)
      (xb0 V c t) (xb1 V c t) (xb2 V c t) (xb3 V c t))

/-- The staging buffer after any other point: the update, by that point's blocks, of what the point before left. -/
theorem outsAt_B (c : Dev nD) (t : Fin cfg1.N) (h0 : ¬t.val % 10044 = 0) :
    outsAt1 V c t.val t.isLt
      = k1_pay2 (xb0 V c t) (xb1 V c t) (xb2 V c t) (xb3 V c t)
          (outsAt1 V c (t.val - 1) (Nat.lt_of_le_of_lt (Nat.sub_le _ _) t.isLt)) :=
  (outsAt1_B V c t h0).trans
    (out_B c (grid1.coords t) (ms1_0 t) (hs1_0 t) (ms1_1 t) (hs1_1 t) (ms1_2 t) (hs1_2 t) (ms1_3 t) (hs1_3 t) (ms1_4 t) (hs1_4 t) (fun h => h0 ((hcond1_0 t).mp h))
      (xb0 V c t) (xb1 V c t) (xb2 V c t) (xb3 V c t)
      (outsAt1 V c (t.val - 1) (Nat.lt_of_le_of_lt (Nat.sub_le _ _) t.isLt)))

/-- The staging buffer's contents depend on the point's number only. -/
theorem outsAt_congr (c : Dev nD) (u v : ℕ) (hu : u < cfg1.N) (hv : v < cfg1.N) (e : u = v) :
    outsAt1 V c u hu = outsAt1 V c v hv := by
  subst e; rfl

/-! ## The blocks a point reads, as parts of the arrays -/

/-- The block index of every window at every point: the three edge windows are at (core, step, 0), the table at
    (0, 0), the output at (core, 0, 0), where point t is step t % 10044 of core t / 10044. The grid runs its last axis
    fastest, so point t has coordinates (t / 10044 % 2, t % 10044); below 2 × 10044 the first is t / 10044, and both are
    far below the 32-bit range the index maps compute in. -/
theorem idx_facts : ∀ t : Fin cfg1.N,
    win1_0.index t (0 : Fin 3) = t.val / 10044 ∧ win1_0.index t (1 : Fin 3) = t.val % 10044 ∧ win1_0.index t (2 : Fin 3) = 0
    ∧ win1_1.index t (0 : Fin 3) = t.val / 10044 ∧ win1_1.index t (1 : Fin 3) = t.val % 10044 ∧ win1_1.index t (2 : Fin 3) = 0
    ∧ win1_2.index t (0 : Fin 3) = t.val / 10044 ∧ win1_2.index t (1 : Fin 3) = t.val % 10044 ∧ win1_2.index t (2 : Fin 3) = 0
    ∧ win1_3.index t (0 : Fin 2) = 0 ∧ win1_3.index t (1 : Fin 2) = 0
    ∧ win1_4.index t (0 : Fin 3) = t.val / 10044 ∧ win1_4.index t (1 : Fin 3) = 0 ∧ win1_4.index t (2 : Fin 3) = 0 := by
  intro t
  have hN : t.val < 20088 := lt_of_lt_of_eq t.isLt N_1
  have s0 : grid1.stride (0 : Fin 2) = 10044 := by decide
  have s1 : grid1.stride (1 : Fin 2) = 1 := by decide
  have c0 : (BitVec.ofNat 32 (t.val / grid1.stride (0 : Fin 2) % 2)).toNat = t.val / 10044 := by
    rw [s0, BitVec.toNat_ofNat]; omega
  have c1 : (BitVec.ofNat 32 (t.val / grid1.stride (1 : Fin 2) % 10044)).toNat = t.val % 10044 := by
    rw [s1, BitVec.toNat_ofNat]; omega
  exact ⟨c0, c1, rfl, c0, c1, rfl, c0, c1, rfl, rfl, rfl, c0, rfl, rfl⟩

/-- At step k of core h, the first window's block is rows 64k .. 64k+63 of half h of its array. -/
theorem xb0_eq (c : Dev nD) (t : Fin cfg1.N) (h : Fin 2) (k : Fin 10044) (ht : t.val = 10044 * h.val + k.val) :
    xb0 V c t = blkI (F := F) (arr0 V c) h k := by
  obtain ⟨e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk1 V c 0 t j = _
  unfold iblk1 blkI
  rw [View.read_apply]
  show V c (Pipeline.arrRef spec1 0) (((cfg1.win 0).blk t).view.emb j) = V c (Pipeline.arrRef spec1 0) _
  refine congrArg (V c (Pipeline.arrRef spec1 0)) (funext fun a => Fin.ext ?_)
  match a with
  | ⟨0, _⟩ => show win1_0.index t (0 : Fin 3) * 1 + 1 * (j 0).val = h.val; omega
  | ⟨1, _⟩ => show win1_0.index t (1 : Fin 3) * 64 + 1 * (j 1).val = 64 * k.val + (j 1).val; omega
  | ⟨2, _⟩ => show win1_0.index t (2 : Fin 3) * 1 + 1 * (j 2).val = 0; omega

/-- The same for the second window. -/
theorem xb1_eq (c : Dev nD) (t : Fin cfg1.N) (h : Fin 2) (k : Fin 10044) (ht : t.val = 10044 * h.val + k.val) :
    xb1 V c t = blkI (F := F) (arr1 V c) h k := by
  obtain ⟨-, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk1 V c 1 t j = _
  unfold iblk1 blkI
  rw [View.read_apply]
  show V c (Pipeline.arrRef spec1 1) (((cfg1.win 1).blk t).view.emb j) = V c (Pipeline.arrRef spec1 1) _
  refine congrArg (V c (Pipeline.arrRef spec1 1)) (funext fun a => Fin.ext ?_)
  match a with
  | ⟨0, _⟩ => show win1_1.index t (0 : Fin 3) * 1 + 1 * (j 0).val = h.val; omega
  | ⟨1, _⟩ => show win1_1.index t (1 : Fin 3) * 64 + 1 * (j 1).val = 64 * k.val + (j 1).val; omega
  | ⟨2, _⟩ => show win1_1.index t (2 : Fin 3) * 1 + 1 * (j 2).val = 0; omega

/-- The same for the third window, of floats. -/
theorem xb2_eq (c : Dev nD) (t : Fin cfg1.N) (h : Fin 2) (k : Fin 10044) (ht : t.val = 10044 * h.val + k.val) :
    xb2 V c t = blkF (arr2 V c) h k := by
  obtain ⟨-, -, -, -, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk1 V c 2 t j = _
  unfold iblk1 blkF
  rw [View.read_apply]
  show V c (Pipeline.arrRef spec1 2) (((cfg1.win 2).blk t).view.emb j) = V c (Pipeline.arrRef spec1 2) _
  refine congrArg (V c (Pipeline.arrRef spec1 2)) (funext fun a => Fin.ext ?_)
  match a with
  | ⟨0, _⟩ => show win1_2.index t (0 : Fin 3) * 1 + 1 * (j 0).val = h.val; omega
  | ⟨1, _⟩ => show win1_2.index t (1 : Fin 3) * 64 + 1 * (j 1).val = 64 * k.val + (j 1).val; omega
  | ⟨2, _⟩ => show win1_2.index t (2 : Fin 3) * 1 + 1 * (j 2).val = 0; omega

/-- The fourth window's block is its whole array at every point. -/
theorem xb3_eq (c : Dev nD) (t : Fin cfg1.N) : xb3 V c t = arr3 V c := by
  obtain ⟨-, -, -, -, -, -, -, -, -, e0, e1, -⟩ := idx_facts t
  refine funext fun (j : S42880x64.Idx) => ?_
  show iblk1 V c 3 t j = _
  unfold iblk1
  rw [View.read_apply]
  show V c (Pipeline.arrRef spec1 3) (((cfg1.win 3).blk t).view.emb j) = V c (Pipeline.arrRef spec1 3) j
  refine congrArg (V c (Pipeline.arrRef spec1 3)) (funext fun a => Fin.ext ?_)
  match a with
  | ⟨0, _⟩ => show win1_3.index t (0 : Fin 2) * 42880 + 1 * (j 0).val = (j 0).val; omega
  | ⟨1, _⟩ => show win1_3.index t (1 : Fin 2) * 64 + 1 * (j 1).val = (j 1).val; omega

end Blocks

/-! ## The accumulation over a core's steps, and the array it is written back to -/

section AtIdeal

variable (V : (c : Dev nD) → (b : Ref sig .tc) → Buf (Elt Ideal) ((c : Thread nD τ).loc b))

/-- After step k of core h the staging buffer holds, at (0, n, d), the sum of the addends of steps 0 .. k:
    the first step adds to the zero block, every later step to what the step before left. -/
theorem acc_eq (c : Dev nD) (h : Fin 2) (n : Fin 42880) (d : Fin 64) :
    ∀ (k : ℕ) (hk : k < 10044) (hlt : 10044 * h.val + k < cfg1.N),
      (outsAt1 V c (10044 * h.val + k) hlt (ix3 (0 : Fin 1) n d) : EReal)
        = ∑ j ∈ Finset.range (k + 1), term (arr0 V c) (arr1 V c) (arr2 V c) (arr3 V c) h n d j
  | 0, hk, hlt => by
    have h0 : (⟨10044 * h.val + 0, hlt⟩ : Fin cfg1.N).val % 10044 = 0 := by dsimp only; omega
    refine (congrFun (outsAt_A V c ⟨10044 * h.val + 0, hlt⟩ h0) (ix3 (0 : Fin 1) n d)).trans ?_
    rw [pay2_apply, pay1_apply, zero_add, Finset.sum_range_one, term_of_lt _ _ _ _ _ _ _ 0 hk,
      xb0_eq V c ⟨10044 * h.val + 0, hlt⟩ h ⟨0, hk⟩ rfl, xb1_eq V c ⟨10044 * h.val + 0, hlt⟩ h ⟨0, hk⟩ rfl,
      xb2_eq V c ⟨10044 * h.val + 0, hlt⟩ h ⟨0, hk⟩ rfl, xb3_eq V c ⟨10044 * h.val + 0, hlt⟩]
  | k + 1, hk, hlt => by
    have hB : ¬(⟨10044 * h.val + (k + 1), hlt⟩ : Fin cfg1.N).val % 10044 = 0 := by dsimp only; omega
    have hlt' : 10044 * h.val + k < cfg1.N := by omega
    refine (congrFun (outsAt_B V c ⟨10044 * h.val + (k + 1), hlt⟩ hB) (ix3 (0 : Fin 1) n d)).trans ?_
    rw [pay2_apply, outsAt_congr V c _ (10044 * h.val + k) _ hlt' (by dsimp only; omega),
      acc_eq c h n d k (by omega) hlt', Finset.sum_range_succ _ (k + 1), term_of_lt _ _ _ _ _ _ _ (k + 1) hk,
      xb0_eq V c ⟨10044 * h.val + (k + 1), hlt⟩ h ⟨k + 1, hk⟩ rfl, xb1_eq V c ⟨10044 * h.val + (k + 1), hlt⟩ h ⟨k + 1, hk⟩ rfl,
      xb2_eq V c ⟨10044 * h.val + (k + 1), hlt⟩ h ⟨k + 1, hk⟩ rfl, xb3_eq V c ⟨10044 * h.val + (k + 1), hlt⟩]

/-- After a core's last step the staging buffer holds that core's part of the output array. -/
theorem last_eq (c : Dev nD) (t : Fin cfg1.N) (h3 : t.val % 10044 + 1 = 10044) (h : Fin 2) (hh : t.val / 10044 = h.val)
    (n : Fin 42880) (d : Fin 64) :
    (outsAt1 V c t.val t.isLt (ix3 (0 : Fin 1) n d) : EReal)
      = out (arr0 V c) (arr1 V c) (arr2 V c) (arr3 V c) (ix3 h n d) := by
  have e : t.val = 10044 * h.val + t.val % 10044 := by omega
  have hlt : 10044 * h.val + t.val % 10044 < cfg1.N := e ▸ t.isLt
  rw [outsAt_congr V c t.val (10044 * h.val + t.val % 10044) t.isLt hlt e,
    acc_eq V c h n d (t.val % 10044) (by omega) hlt, h3, out_apply]

/-- The region's output array, at its literal type. -/
abbrev result (c : Dev nD) : FVec Ideal S2x42880x64 .f32 := out (arr0 V c) (arr1 V c) (arr2 V c) (arr3 V c)

/-- What a core's last step writes back is that core's block of the output array. -/
theorem flushed_eq (c : Dev nD) (t : Fin cfg1.N) (hf : (cfg1.win 4).flush t = true) :
    (dat1 V c).flushed 4 t = ((cfg1.win 4).blk t).view.read (Elt Ideal) (result V c) := by
  have hN : cfg1.N = 20088 := N_1
  have hlt : t.val < 20088 := lt_of_lt_of_eq t.isLt hN
  have h3 : t.val % 10044 + 1 = 10044 := by have := (flush1_4 t).mp hf; omega
  obtain ⟨-, -, -, -, -, -, -, -, -, -, -, e0, e1, e2⟩ := idx_facts t
  show (cfg1.win 4).cut (grid1.coords t) ((dat1 V c).after 4 t) = _
  rw [after1_4]
  refine funext fun (y : S1x42880x64.Idx) => ?_
  rw [View.read_apply]
  have y0 : (y 0).val < 1 := (y 0).isLt
  have hy : y = ix3 (0 : Fin 1) (y 1) (y 2) := funext fun a => by
    match a with
    | ⟨0, _⟩ => exact Fin.ext (by show (y 0).val = 0; omega)
    | ⟨1, _⟩ => rfl
    | ⟨2, _⟩ => rfl
  show (outsAt1 V c t.val t.isLt y : EReal) = result V c (((cfg1.win 4).blk t).view.emb y)
  refine (congrArg (fun z : S1x42880x64.Idx => (outsAt1 V c t.val t.isLt z : EReal)) hy).trans ?_
  refine (last_eq V c t h3 ⟨t.val / 10044, by omega⟩ rfl (y 1) (y 2)).trans (congrArg (result V c) (funext fun a => Fin.ext ?_))
  match a with
  | ⟨0, _⟩ => show t.val / 10044 = win1_4.index t (0 : Fin 3) * 1 + 1 * (y 0).val; omega
  | ⟨1, _⟩ => show (y 1).val = win1_4.index t (1 : Fin 3) * 42880 + 1 * (y 1).val; omega
  | ⟨2, _⟩ => show (y 2).val = win1_4.index t (2 : Fin 3) * 64 + 1 * (y 2).val; omega

/-- THE REGION'S VALUE: after the run the output array holds, at (h, n, d), the sum over core h's 10044 steps of
    what each step adds at (n, d): every entry lies in the block its core's last step writes back. -/
theorem value (V : (c : Dev nD) → (b : Ref sig .tc) → Buf (Elt Ideal) ((c : Thread nD τ).loc b)) (c : Dev nD) :
    (Gen.dat1 (F := Ideal) V c).arrAt 4 cfg1.N
      = out (V c (Pipeline.arrRef spec1 0)) (V c (Pipeline.arrRef spec1 1)) (V c (Pipeline.arrRef spec1 2)) (V c (Pipeline.arrRef spec1 3)) :=
  (dat1 V c).arrAt_eq_of_cover 4 (result V c) (fun t hf => flushed_eq V c t hf) fun (i : S2x42880x64.Idx) => by
    have hN : cfg1.N = 20088 := N_1
    have i0 : (i 0).val < 2 := (i 0).isLt
    have i1 : (i 1).val < 42880 := (i 1).isLt
    have i2 : (i 2).val < 64 := (i 2).isLt
    have hlt : 10044 * (i 0).val + (10044 - 1) < cfg1.N := lt_of_lt_of_eq (by omega) hN.symm
    obtain ⟨-, -, -, -, -, -, -, -, -, -, -, e0, e1, e2⟩ := idx_facts ⟨10044 * (i 0).val + (10044 - 1), hlt⟩
    refine ⟨⟨10044 * (i 0).val + (10044 - 1), hlt⟩, (flush1_4 _).mpr (by dsimp only; omega), ?_⟩
    show i ∈ ((View.whole main_v78).slice (win1_4.rect ⟨10044 * (i 0).val + (10044 - 1), hlt⟩)).set
    rw [View.set_slice_whole, Rect.mem_set_unit]
    intro a
    match a with
    | ⟨0, _⟩ =>
      show win1_4.index ⟨10044 * (i 0).val + (10044 - 1), hlt⟩ (0 : Fin 3) * 1 ≤ (i 0).val
        ∧ (i 0).val < win1_4.index ⟨10044 * (i 0).val + (10044 - 1), hlt⟩ (0 : Fin 3) * 1 + 1
      rw [e0]; dsimp only; omega
    | ⟨1, _⟩ =>
      show win1_4.index ⟨10044 * (i 0).val + (10044 - 1), hlt⟩ (1 : Fin 3) * 42880 ≤ (i 1).val
        ∧ (i 1).val < win1_4.index ⟨10044 * (i 0).val + (10044 - 1), hlt⟩ (1 : Fin 3) * 42880 + 42880
      rw [e1]; omega
    | ⟨2, _⟩ =>
      show win1_4.index ⟨10044 * (i 0).val + (10044 - 1), hlt⟩ (2 : Fin 3) * 64 ≤ (i 2).val
        ∧ (i 2).val < win1_4.index ⟨10044 * (i 0).val + (10044 - 1), hlt⟩ (2 : Fin 3) * 64 + 64
      rw [e2]; omega

end AtIdeal

end Cert.KernelIdeal.Reg1

end
-- ==== Proof.Reg2.lean ====
/-
  The value of aggregation region 2 of the idealized kernel program.

  The region runs its body at 2 × 15625 grid points, point t being step t % 15625 of core t / 15625. Its output window's
  block, [1, 27136, 64], is indexed by the core alone, so it stays in its staging buffer across a core's 15625 steps: the
  first step stores the zero block and then its update, every later step stores the update of what the step before
  left, and the block is written back to rows [core, :, :] of the output array after the core's last step. The update
  adds to the block what the step's 64 edges contribute: the gather of the node table's rows by the first one-hot
  product, scaled, scattered onto the 27136 destination rows by the second. Over the extended reals the block after
  step k is therefore the sum of the addends of steps 0 .. k (0 + x = x), and the output array ends holding, at
  (core, n, d), the sum over that core's 15625 steps of each step's addend at (n, d), the steps' blocks being rows
  64k .. 64k+63 of the core's half of the three padded edge arrays and the whole node table.
-/
import proofs.«400075_j26585847562450_2_alg».proof.Proof.RegDefs
import proofs.«400075_j26585847562450_2_alg».proof.Proof.KIF2
import Idealize.ShloMosaic.Lib.Pipeline.Value
import Idealize.ShloMosaic.Lib.Tactic
import Idealize.ShloMosaic.PureOps.Ideal.Laws
import Mathlib.Algebra.BigOperators.Fin

set_option maxRecDepth 65536

noncomputable section

open Idealize.ShloMosaic Idealize.ShloMosaic.TcCoe Idealize.SL.Sem
open Idealize.ShloMosaic.Pipeline (Dat)

namespace Cert.KernelIdeal.Reg2

open Cert.KernelIdeal Cert.KernelIdeal.Gen Idealize.ShloMosaic.ValueIdx

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## One grid point's update of the accumulator block, entry by entry -/

/-- The update a grid point stores: the accumulator block plus what the point adds, under the two changes of
    shape between the block [1, 27136, 64] and the matrix [27136, 64]. -/
theorem pay2_eq (x0 x1 : Vec F S1x64x1 .i32) (x2 : Vec F S1x64x1 .f32) (x3 : Vec F S42880x64 .bf16)
    (acc : Vec F S1x27136x64 .f32) :
    k2_pay2 x0 x1 x2 x3 acc
      = shapeCast S1x27136x64 (addf (shapeCast S27136x64 acc shapeCasts_S1x27136x64_S27136x64) (contrib x0 x1 x2 x3))
          shapeCasts_S27136x64_S1x27136x64 := rfl

/-- Over the extended reals, entry (0, n, d) of the stored update is the accumulator's entry plus the point's addend. -/
theorem pay2_apply (x0 x1 : Vec Ideal S1x64x1 .i32) (x2 : Vec Ideal S1x64x1 .f32) (x3 : Vec Ideal S42880x64 .bf16)
    (acc : Vec Ideal S1x27136x64 .f32) (n : Fin 27136) (d : Fin 64) :
    k2_pay2 (F := Ideal) x0 x1 x2 x3 acc (ix3 (0 : Fin 1) n d)
      = (acc (ix3 (0 : Fin 1) n d) : EReal) + (contrib (F := Ideal) x0 x1 x2 x3 (ix2 n d) : EReal) := by
  rw [pay2_eq]
  refine (shapeCast_addUnit_apply ![27136, 64] _ shapeCasts_S27136x64_S1x27136x64 (ix3 (0 : Fin 1) n d)).trans ?_
  have e2 : (fun a : Fin 2 => (ix3 (0 : Fin 1) n d : S1x27136x64.Idx) a.succ) = (ix2 n d : S27136x64.Idx) :=
    funext fun a => by match a with | ⟨0, _⟩ => rfl | ⟨1, _⟩ => rfl
  rw [e2]
  show (shapeCast S27136x64 acc shapeCasts_S1x27136x64_S27136x64 (ix2 n d) : EReal) + _ = _
  refine congrArg (· + (contrib (F := Ideal) x0 x1 x2 x3 (ix2 n d) : EReal)) ?_
  refine (shapeCast_dropUnit_apply ![27136, 64] acc shapeCasts_S1x27136x64_S27136x64 (ix2 n d)).trans ?_
  refine congrArg acc ?_
  funext a
  match a with
  | ⟨0, _⟩ => rfl
  | ⟨1, _⟩ => rfl
  | ⟨2, _⟩ => rfl

/-- The block a core's first point stores before its update is zero everywhere. -/
theorem pay1_apply (n : Fin 27136) (d : Fin 64) :
    (k2_pay1 (F := Ideal) (ix3 (0 : Fin 1) n d) : EReal) = 0 := by
  unfold k2_pay1
  refine (shapeCast_addUnit_apply ![27136, 64] _ shapeCasts_S27136x64_S1x27136x64 (ix3 (0 : Fin 1) n d)).trans ?_
  show (Ideal.ofBits .f32 0x00000000#32 : EReal) = 0
  exact Ideal.ofBits_zero_f32

/-! ## The output array as a sum over a core's steps -/

/-- What step j of core h adds at entry (n, d); zero for a step number past the core's last step. -/
def term (A0 A1 : IVec S2x1000000x1 32) (A2 : FVec Ideal S2x1000000x1 .f32) (A3 : FVec Ideal S42880x64 .bf16)
    (h : Fin 2) (n : Fin 27136) (d : Fin 64) (j : ℕ) : EReal :=
  if hj : j < 15625 then
    (contrib (F := Ideal) (blkI (F := Ideal) A0 h ⟨j, hj⟩) (blkI (F := Ideal) A1 h ⟨j, hj⟩) (blkF A2 h ⟨j, hj⟩) A3 (ix2 n d) : EReal)
  else 0

theorem term_of_lt (A0 A1 : IVec S2x1000000x1 32) (A2 : FVec Ideal S2x1000000x1 .f32) (A3 : FVec Ideal S42880x64 .bf16)
    (h : Fin 2) (n : Fin 27136) (d : Fin 64) (j : ℕ) (hj : j < 15625) :
    term A0 A1 A2 A3 h n d j
      = (contrib (F := Ideal) (blkI (F := Ideal) A0 h ⟨j, hj⟩) (blkI (F := Ideal) A1 h ⟨j, hj⟩) (blkF A2 h ⟨j, hj⟩) A3 (ix2 n d) : EReal) :=
  dif_pos hj

/-- Entry (h, n, d) of the output array is the sum of the addends of core h's 15625 steps. -/
theorem out_apply (A0 A1 : IVec S2x1000000x1 32) (A2 : FVec Ideal S2x1000000x1 .f32) (A3 : FVec Ideal S42880x64 .bf16)
    (h : Fin 2) (n : Fin 27136) (d : Fin 64) :
    (out A0 A1 A2 A3 (ix3 h n d) : EReal) = ∑ j ∈ Finset.range 15625, term A0 A1 A2 A3 h n d j := by
  rw [Finset.sum_range]
  exact Finset.sum_congr rfl fun k _ => (term_of_lt A0 A1 A2 A3 h n d k.val k.isLt).symm

/-! ## What each case of the body leaves in the output's staging buffer -/

/-- At a point that is not a core's first, the body leaves the update of what the buffer held. -/
theorem out_B (c : Dev nD) (i : grid2.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S42880x64 .bf16) (h5 : a5.IsWhole)
    (a6 : Memref sig .tc .vmem S1x27136x64 .f32) (h6 : a6.IsWhole) (hc : ¬cond2_0 i)
    (x0 x1 : Vec F S1x64x1 .i32) (x2 : Vec F S1x64x1 .f32) (x3 : Vec F S42880x64 .bf16) (xo : Vec F S1x27136x64 .f32) :
    out2_B_4 c i a2 h2 a3 h3 a4 h4 a5 h5 a6 h6 hc x0 x1 x2 x3 xo = k2_pay2 x0 x1 x2 x3 xo := by
  unfold out2_B_4
  rw [View.read_writes_eq_canon _ _ _ (cover2_B_4 c i a2 h2 a3 h3 a4 h4 a5 h5 a6 h6 hc x0 x1 x2 x3 xo)]
  unfold kernelRun2_B
  dsimp only
  sl_unfold_words
  rw [View.canon_unit_zero hz3]
  simp only [View.readAt_eq_ld, h2.read_unread, h3.read_unread, h4.read_unread, h5.read_unread, h6.read_unread,
    View.ld_unit_zero (S := S1x64x1) hz3, View.ld_unit_zero (S := S42880x64) hz2, View.ld_unit_zero (S := S1x27136x64) hz3]

/-- At a core's first point, the body stores the zero block, reads it back, and leaves its update. -/
theorem out_A (c : Dev nD) (i : grid2.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S42880x64 .bf16) (h5 : a5.IsWhole)
    (a6 : Memref sig .tc .vmem S1x27136x64 .f32) (h6 : a6.IsWhole) (hc : cond2_0 i)
    (x0 x1 : Vec F S1x64x1 .i32) (x2 : Vec F S1x64x1 .f32) (x3 : Vec F S42880x64 .bf16) :
    out2_A_4 c i a2 h2 a3 h3 a4 h4 a5 h5 a6 h6 hc x0 x1 x2 x3 = k2_pay2 x0 x1 x2 x3 k2_pay1 := by
  unfold out2_A_4
  rw [View.read_writes_eq_canon _ _ _ (cover2_A_4 c i a2 h2 a3 h3 a4 h4 a5 h5 a6 h6 hc x0 x1 x2 x3)]
  unfold kernelRun2_A
  dsimp only
  sl_unfold_words
  rw [View.canon_cons_unit_zero (S := S1x27136x64) hz3, View.readCov_unit_zero (S := S1x27136x64) _ hz3]
  simp only [View.readAt_eq_ld, h2.read_unread, h3.read_unread, h4.read_unread, h5.read_unread,
    View.ld_unit_zero (S := S1x64x1) hz3, View.ld_unit_zero (S := S42880x64) hz2, View.ld_unit_zero (S := S1x27136x64) hz3]

section Blocks

variable (V : (c : Dev nD) → (b : Ref sig .tc) → Buf (Elt F) ((c : Thread nD τ).loc b))

/-- The arrays of the region's four operands, as the region finds them, at their literal types. -/
abbrev arr0 (c : Dev nD) : IVec S2x1000000x1 32 := V c (Pipeline.arrRef spec2 0)
abbrev arr1 (c : Dev nD) : IVec S2x1000000x1 32 := V c (Pipeline.arrRef spec2 1)
abbrev arr2 (c : Dev nD) : FVec F S2x1000000x1 .f32 := V c (Pipeline.arrRef spec2 2)
abbrev arr3 (c : Dev nD) : FVec F S42880x64 .bf16 := V c (Pipeline.arrRef spec2 3)

/-- The four blocks the body reads at point t, at their literal types. -/
abbrev xb0 (c : Dev nD) (t : Fin cfg2.N) : Vec F S1x64x1 .i32 := iblk2 V c 0 t
abbrev xb1 (c : Dev nD) (t : Fin cfg2.N) : Vec F S1x64x1 .i32 := iblk2 V c 1 t
abbrev xb2 (c : Dev nD) (t : Fin cfg2.N) : Vec F S1x64x1 .f32 := iblk2 V c 2 t
abbrev xb3 (c : Dev nD) (t : Fin cfg2.N) : Vec F S42880x64 .bf16 := iblk2 V c 3 t

/-- The staging buffer after a core's first point: the update of the zero block by that point's blocks. -/
theorem outsAt_A (c : Dev nD) (t : Fin cfg2.N) (h0 : t.val % 15625 = 0) :
    outsAt2 V c t.val t.isLt = k2_pay2 (xb0 V c t) (xb1 V c t) (xb2 V c t) (xb3 V c t) k2_pay1 :=
  (outsAt2_A V c t h0).trans
    (out_A c (grid2.coords t) (ms2_0 t) (hs2_0 t) (ms2_1 t) (hs2_1 t) (ms2_2 t) (hs2_2 t) (ms2_3 t) (hs2_3 t) (ms2_4 t) (hs2_4 t) ((hcond2_0 t).mpr h0)
      (xb0 V c t) (xb1 V c t) (xb2 V c t) (xb3 V c t))

/-- The staging buffer after any other point: the update, by that point's blocks, of what the point before left. -/
theorem outsAt_B (c : Dev nD) (t : Fin cfg2.N) (h0 : ¬t.val % 15625 = 0) :
    outsAt2 V c t.val t.isLt
      = k2_pay2 (xb0 V c t) (xb1 V c t) (xb2 V c t) (xb3 V c t)
          (outsAt2 V c (t.val - 1) (Nat.lt_of_le_of_lt (Nat.sub_le _ _) t.isLt)) :=
  (outsAt2_B V c t h0).trans
    (out_B c (grid2.coords t) (ms2_0 t) (hs2_0 t) (ms2_1 t) (hs2_1 t) (ms2_2 t) (hs2_2 t) (ms2_3 t) (hs2_3 t) (ms2_4 t) (hs2_4 t) (fun h => h0 ((hcond2_0 t).mp h))
      (xb0 V c t) (xb1 V c t) (xb2 V c t) (xb3 V c t)
      (outsAt2 V c (t.val - 1) (Nat.lt_of_le_of_lt (Nat.sub_le _ _) t.isLt)))

/-- The staging buffer's contents depend on the point's number only. -/
theorem outsAt_congr (c : Dev nD) (u v : ℕ) (hu : u < cfg2.N) (hv : v < cfg2.N) (e : u = v) :
    outsAt2 V c u hu = outsAt2 V c v hv := by
  subst e; rfl

/-! ## The blocks a point reads, as parts of the arrays -/

/-- The block index of every window at every point: the three edge windows are at (core, step, 0), the table at
    (0, 0), the output at (core, 0, 0), where point t is step t % 15625 of core t / 15625. The grid runs its last axis
    fastest, so point t has coordinates (t / 15625 % 2, t % 15625); below 2 × 15625 the first is t / 15625, and both are
    far below the 32-bit range the index maps compute in. -/
theorem idx_facts : ∀ t : Fin cfg2.N,
    win2_0.index t (0 : Fin 3) = t.val / 15625 ∧ win2_0.index t (1 : Fin 3) = t.val % 15625 ∧ win2_0.index t (2 : Fin 3) = 0
    ∧ win2_1.index t (0 : Fin 3) = t.val / 15625 ∧ win2_1.index t (1 : Fin 3) = t.val % 15625 ∧ win2_1.index t (2 : Fin 3) = 0
    ∧ win2_2.index t (0 : Fin 3) = t.val / 15625 ∧ win2_2.index t (1 : Fin 3) = t.val % 15625 ∧ win2_2.index t (2 : Fin 3) = 0
    ∧ win2_3.index t (0 : Fin 2) = 0 ∧ win2_3.index t (1 : Fin 2) = 0
    ∧ win2_4.index t (0 : Fin 3) = t.val / 15625 ∧ win2_4.index t (1 : Fin 3) = 0 ∧ win2_4.index t (2 : Fin 3) = 0 := by
  intro t
  have hN : t.val < 31250 := lt_of_lt_of_eq t.isLt N_2
  have s0 : grid2.stride (0 : Fin 2) = 15625 := by decide
  have s1 : grid2.stride (1 : Fin 2) = 1 := by decide
  have c0 : (BitVec.ofNat 32 (t.val / grid2.stride (0 : Fin 2) % 2)).toNat = t.val / 15625 := by
    rw [s0, BitVec.toNat_ofNat]; omega
  have c1 : (BitVec.ofNat 32 (t.val / grid2.stride (1 : Fin 2) % 15625)).toNat = t.val % 15625 := by
    rw [s1, BitVec.toNat_ofNat]; omega
  exact ⟨c0, c1, rfl, c0, c1, rfl, c0, c1, rfl, rfl, rfl, c0, rfl, rfl⟩

/-- At step k of core h, the first window's block is rows 64k .. 64k+63 of half h of its array. -/
theorem xb0_eq (c : Dev nD) (t : Fin cfg2.N) (h : Fin 2) (k : Fin 15625) (ht : t.val = 15625 * h.val + k.val) :
    xb0 V c t = blkI (F := F) (arr0 V c) h k := by
  obtain ⟨e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk2 V c 0 t j = _
  unfold iblk2 blkI
  rw [View.read_apply]
  show V c (Pipeline.arrRef spec2 0) (((cfg2.win 0).blk t).view.emb j) = V c (Pipeline.arrRef spec2 0) _
  refine congrArg (V c (Pipeline.arrRef spec2 0)) (funext fun a => Fin.ext ?_)
  match a with
  | ⟨0, _⟩ => show win2_0.index t (0 : Fin 3) * 1 + 1 * (j 0).val = h.val; omega
  | ⟨1, _⟩ => show win2_0.index t (1 : Fin 3) * 64 + 1 * (j 1).val = 64 * k.val + (j 1).val; omega
  | ⟨2, _⟩ => show win2_0.index t (2 : Fin 3) * 1 + 1 * (j 2).val = 0; omega

/-- The same for the second window. -/
theorem xb1_eq (c : Dev nD) (t : Fin cfg2.N) (h : Fin 2) (k : Fin 15625) (ht : t.val = 15625 * h.val + k.val) :
    xb1 V c t = blkI (F := F) (arr1 V c) h k := by
  obtain ⟨-, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk2 V c 1 t j = _
  unfold iblk2 blkI
  rw [View.read_apply]
  show V c (Pipeline.arrRef spec2 1) (((cfg2.win 1).blk t).view.emb j) = V c (Pipeline.arrRef spec2 1) _
  refine congrArg (V c (Pipeline.arrRef spec2 1)) (funext fun a => Fin.ext ?_)
  match a with
  | ⟨0, _⟩ => show win2_1.index t (0 : Fin 3) * 1 + 1 * (j 0).val = h.val; omega
  | ⟨1, _⟩ => show win2_1.index t (1 : Fin 3) * 64 + 1 * (j 1).val = 64 * k.val + (j 1).val; omega
  | ⟨2, _⟩ => show win2_1.index t (2 : Fin 3) * 1 + 1 * (j 2).val = 0; omega

/-- The same for the third window, of floats. -/
theorem xb2_eq (c : Dev nD) (t : Fin cfg2.N) (h : Fin 2) (k : Fin 15625) (ht : t.val = 15625 * h.val + k.val) :
    xb2 V c t = blkF (arr2 V c) h k := by
  obtain ⟨-, -, -, -, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk2 V c 2 t j = _
  unfold iblk2 blkF
  rw [View.read_apply]
  show V c (Pipeline.arrRef spec2 2) (((cfg2.win 2).blk t).view.emb j) = V c (Pipeline.arrRef spec2 2) _
  refine congrArg (V c (Pipeline.arrRef spec2 2)) (funext fun a => Fin.ext ?_)
  match a with
  | ⟨0, _⟩ => show win2_2.index t (0 : Fin 3) * 1 + 1 * (j 0).val = h.val; omega
  | ⟨1, _⟩ => show win2_2.index t (1 : Fin 3) * 64 + 1 * (j 1).val = 64 * k.val + (j 1).val; omega
  | ⟨2, _⟩ => show win2_2.index t (2 : Fin 3) * 1 + 1 * (j 2).val = 0; omega

/-- The fourth window's block is its whole array at every point. -/
theorem xb3_eq (c : Dev nD) (t : Fin cfg2.N) : xb3 V c t = arr3 V c := by
  obtain ⟨-, -, -, -, -, -, -, -, -, e0, e1, -⟩ := idx_facts t
  refine funext fun (j : S42880x64.Idx) => ?_
  show iblk2 V c 3 t j = _
  unfold iblk2
  rw [View.read_apply]
  show V c (Pipeline.arrRef spec2 3) (((cfg2.win 3).blk t).view.emb j) = V c (Pipeline.arrRef spec2 3) j
  refine congrArg (V c (Pipeline.arrRef spec2 3)) (funext fun a => Fin.ext ?_)
  match a with
  | ⟨0, _⟩ => show win2_3.index t (0 : Fin 2) * 42880 + 1 * (j 0).val = (j 0).val; omega
  | ⟨1, _⟩ => show win2_3.index t (1 : Fin 2) * 64 + 1 * (j 1).val = (j 1).val; omega

end Blocks

/-! ## The accumulation over a core's steps, and the array it is written back to -/

section AtIdeal

variable (V : (c : Dev nD) → (b : Ref sig .tc) → Buf (Elt Ideal) ((c : Thread nD τ).loc b))

/-- After step k of core h the staging buffer holds, at (0, n, d), the sum of the addends of steps 0 .. k:
    the first step adds to the zero block, every later step to what the step before left. -/
theorem acc_eq (c : Dev nD) (h : Fin 2) (n : Fin 27136) (d : Fin 64) :
    ∀ (k : ℕ) (hk : k < 15625) (hlt : 15625 * h.val + k < cfg2.N),
      (outsAt2 V c (15625 * h.val + k) hlt (ix3 (0 : Fin 1) n d) : EReal)
        = ∑ j ∈ Finset.range (k + 1), term (arr0 V c) (arr1 V c) (arr2 V c) (arr3 V c) h n d j
  | 0, hk, hlt => by
    have h0 : (⟨15625 * h.val + 0, hlt⟩ : Fin cfg2.N).val % 15625 = 0 := by dsimp only; omega
    refine (congrFun (outsAt_A V c ⟨15625 * h.val + 0, hlt⟩ h0) (ix3 (0 : Fin 1) n d)).trans ?_
    rw [pay2_apply, pay1_apply, zero_add, Finset.sum_range_one, term_of_lt _ _ _ _ _ _ _ 0 hk,
      xb0_eq V c ⟨15625 * h.val + 0, hlt⟩ h ⟨0, hk⟩ rfl, xb1_eq V c ⟨15625 * h.val + 0, hlt⟩ h ⟨0, hk⟩ rfl,
      xb2_eq V c ⟨15625 * h.val + 0, hlt⟩ h ⟨0, hk⟩ rfl, xb3_eq V c ⟨15625 * h.val + 0, hlt⟩]
  | k + 1, hk, hlt => by
    have hB : ¬(⟨15625 * h.val + (k + 1), hlt⟩ : Fin cfg2.N).val % 15625 = 0 := by dsimp only; omega
    have hlt' : 15625 * h.val + k < cfg2.N := by omega
    refine (congrFun (outsAt_B V c ⟨15625 * h.val + (k + 1), hlt⟩ hB) (ix3 (0 : Fin 1) n d)).trans ?_
    rw [pay2_apply, outsAt_congr V c _ (15625 * h.val + k) _ hlt' (by dsimp only; omega),
      acc_eq c h n d k (by omega) hlt', Finset.sum_range_succ _ (k + 1), term_of_lt _ _ _ _ _ _ _ (k + 1) hk,
      xb0_eq V c ⟨15625 * h.val + (k + 1), hlt⟩ h ⟨k + 1, hk⟩ rfl, xb1_eq V c ⟨15625 * h.val + (k + 1), hlt⟩ h ⟨k + 1, hk⟩ rfl,
      xb2_eq V c ⟨15625 * h.val + (k + 1), hlt⟩ h ⟨k + 1, hk⟩ rfl, xb3_eq V c ⟨15625 * h.val + (k + 1), hlt⟩]

/-- After a core's last step the staging buffer holds that core's part of the output array. -/
theorem last_eq (c : Dev nD) (t : Fin cfg2.N) (h3 : t.val % 15625 + 1 = 15625) (h : Fin 2) (hh : t.val / 15625 = h.val)
    (n : Fin 27136) (d : Fin 64) :
    (outsAt2 V c t.val t.isLt (ix3 (0 : Fin 1) n d) : EReal)
      = out (arr0 V c) (arr1 V c) (arr2 V c) (arr3 V c) (ix3 h n d) := by
  have e : t.val = 15625 * h.val + t.val % 15625 := by omega
  have hlt : 15625 * h.val + t.val % 15625 < cfg2.N := e ▸ t.isLt
  rw [outsAt_congr V c t.val (15625 * h.val + t.val % 15625) t.isLt hlt e,
    acc_eq V c h n d (t.val % 15625) (by omega) hlt, h3, out_apply]

/-- The region's output array, at its literal type. -/
abbrev result (c : Dev nD) : FVec Ideal S2x27136x64 .f32 := out (arr0 V c) (arr1 V c) (arr2 V c) (arr3 V c)

/-- What a core's last step writes back is that core's block of the output array. -/
theorem flushed_eq (c : Dev nD) (t : Fin cfg2.N) (hf : (cfg2.win 4).flush t = true) :
    (dat2 V c).flushed 4 t = ((cfg2.win 4).blk t).view.read (Elt Ideal) (result V c) := by
  have hN : cfg2.N = 31250 := N_2
  have hlt : t.val < 31250 := lt_of_lt_of_eq t.isLt hN
  have h3 : t.val % 15625 + 1 = 15625 := by have := (flush2_4 t).mp hf; omega
  obtain ⟨-, -, -, -, -, -, -, -, -, -, -, e0, e1, e2⟩ := idx_facts t
  show (cfg2.win 4).cut (grid2.coords t) ((dat2 V c).after 4 t) = _
  rw [after2_4]
  refine funext fun (y : S1x27136x64.Idx) => ?_
  rw [View.read_apply]
  have y0 : (y 0).val < 1 := (y 0).isLt
  have hy : y = ix3 (0 : Fin 1) (y 1) (y 2) := funext fun a => by
    match a with
    | ⟨0, _⟩ => exact Fin.ext (by show (y 0).val = 0; omega)
    | ⟨1, _⟩ => rfl
    | ⟨2, _⟩ => rfl
  show (outsAt2 V c t.val t.isLt y : EReal) = result V c (((cfg2.win 4).blk t).view.emb y)
  refine (congrArg (fun z : S1x27136x64.Idx => (outsAt2 V c t.val t.isLt z : EReal)) hy).trans ?_
  refine (last_eq V c t h3 ⟨t.val / 15625, by omega⟩ rfl (y 1) (y 2)).trans (congrArg (result V c) (funext fun a => Fin.ext ?_))
  match a with
  | ⟨0, _⟩ => show t.val / 15625 = win2_4.index t (0 : Fin 3) * 1 + 1 * (y 0).val; omega
  | ⟨1, _⟩ => show (y 1).val = win2_4.index t (1 : Fin 3) * 27136 + 1 * (y 1).val; omega
  | ⟨2, _⟩ => show (y 2).val = win2_4.index t (2 : Fin 3) * 64 + 1 * (y 2).val; omega

/-- THE REGION'S VALUE: after the run the output array holds, at (h, n, d), the sum over core h's 15625 steps of
    what each step adds at (n, d): every entry lies in the block its core's last step writes back. -/
theorem value (V : (c : Dev nD) → (b : Ref sig .tc) → Buf (Elt Ideal) ((c : Thread nD τ).loc b)) (c : Dev nD) :
    (Gen.dat2 (F := Ideal) V c).arrAt 4 cfg2.N
      = out (V c (Pipeline.arrRef spec2 0)) (V c (Pipeline.arrRef spec2 1)) (V c (Pipeline.arrRef spec2 2)) (V c (Pipeline.arrRef spec2 3)) :=
  (dat2 V c).arrAt_eq_of_cover 4 (result V c) (fun t hf => flushed_eq V c t hf) fun (i : S2x27136x64.Idx) => by
    have hN : cfg2.N = 31250 := N_2
    have i0 : (i 0).val < 2 := (i 0).isLt
    have i1 : (i 1).val < 27136 := (i 1).isLt
    have i2 : (i 2).val < 64 := (i 2).isLt
    have hlt : 15625 * (i 0).val + (15625 - 1) < cfg2.N := lt_of_lt_of_eq (by omega) hN.symm
    obtain ⟨-, -, -, -, -, -, -, -, -, -, -, e0, e1, e2⟩ := idx_facts ⟨15625 * (i 0).val + (15625 - 1), hlt⟩
    refine ⟨⟨15625 * (i 0).val + (15625 - 1), hlt⟩, (flush2_4 _).mpr (by dsimp only; omega), ?_⟩
    show i ∈ ((View.whole main_v118).slice (win2_4.rect ⟨15625 * (i 0).val + (15625 - 1), hlt⟩)).set
    rw [View.set_slice_whole, Rect.mem_set_unit]
    intro a
    match a with
    | ⟨0, _⟩ =>
      show win2_4.index ⟨15625 * (i 0).val + (15625 - 1), hlt⟩ (0 : Fin 3) * 1 ≤ (i 0).val
        ∧ (i 0).val < win2_4.index ⟨15625 * (i 0).val + (15625 - 1), hlt⟩ (0 : Fin 3) * 1 + 1
      rw [e0]; dsimp only; omega
    | ⟨1, _⟩ =>
      show win2_4.index ⟨15625 * (i 0).val + (15625 - 1), hlt⟩ (1 : Fin 3) * 27136 ≤ (i 1).val
        ∧ (i 1).val < win2_4.index ⟨15625 * (i 0).val + (15625 - 1), hlt⟩ (1 : Fin 3) * 27136 + 27136
      rw [e1]; omega
    | ⟨2, _⟩ =>
      show win2_4.index ⟨15625 * (i 0).val + (15625 - 1), hlt⟩ (2 : Fin 3) * 64 ≤ (i 2).val
        ∧ (i 2).val < win2_4.index ⟨15625 * (i 0).val + (15625 - 1), hlt⟩ (2 : Fin 3) * 64 + 64
      rw [e2]; omega

end AtIdeal

end Cert.KernelIdeal.Reg2

end
-- ==== Proof.Reg3.lean ====
/-
  The value of aggregation region 3 of the idealized kernel program.

  The region runs its body at 2 × 15625 grid points, point t being step t % 15625 of core t / 15625. Its output window's
  block, [1, 42880, 64], is indexed by the core alone, so it stays in its staging buffer across a core's 15625 steps: the
  first step stores the zero block and then its update, every later step stores the update of what the step before
  left, and the block is written back to rows [core, :, :] of the output array after the core's last step. The update
  adds to the block what the step's 64 edges contribute: the gather of the node table's rows by the first one-hot
  product, scaled, scattered onto the 42880 destination rows by the second. Over the extended reals the block after
  step k is therefore the sum of the addends of steps 0 .. k (0 + x = x), and the output array ends holding, at
  (core, n, d), the sum over that core's 15625 steps of each step's addend at (n, d), the steps' blocks being rows
  64k .. 64k+63 of the core's half of the three padded edge arrays and the whole node table.
-/
import proofs.«400075_j26585847562450_2_alg».proof.Proof.RegDefs
import proofs.«400075_j26585847562450_2_alg».proof.Proof.KIF3
import Idealize.ShloMosaic.Lib.Pipeline.Value
import Idealize.ShloMosaic.Lib.Tactic
import Idealize.ShloMosaic.PureOps.Ideal.Laws
import Mathlib.Algebra.BigOperators.Fin

set_option maxRecDepth 65536

noncomputable section

open Idealize.ShloMosaic Idealize.ShloMosaic.TcCoe Idealize.SL.Sem
open Idealize.ShloMosaic.Pipeline (Dat)

namespace Cert.KernelIdeal.Reg3

open Cert.KernelIdeal Cert.KernelIdeal.Gen Idealize.ShloMosaic.ValueIdx

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## One grid point's update of the accumulator block, entry by entry -/

/-- The update a grid point stores: the accumulator block plus what the point adds, under the two changes of
    shape between the block [1, 42880, 64] and the matrix [42880, 64]. -/
theorem pay2_eq (x0 x1 : Vec F S1x64x1 .i32) (x2 : Vec F S1x64x1 .f32) (x3 : Vec F S27136x64 .bf16)
    (acc : Vec F S1x42880x64 .f32) :
    k3_pay2 x0 x1 x2 x3 acc
      = shapeCast S1x42880x64 (addf (shapeCast S42880x64 acc shapeCasts_S1x42880x64_S42880x64) (contrib x0 x1 x2 x3))
          shapeCasts_S42880x64_S1x42880x64 := rfl

/-- Over the extended reals, entry (0, n, d) of the stored update is the accumulator's entry plus the point's addend. -/
theorem pay2_apply (x0 x1 : Vec Ideal S1x64x1 .i32) (x2 : Vec Ideal S1x64x1 .f32) (x3 : Vec Ideal S27136x64 .bf16)
    (acc : Vec Ideal S1x42880x64 .f32) (n : Fin 42880) (d : Fin 64) :
    k3_pay2 (F := Ideal) x0 x1 x2 x3 acc (ix3 (0 : Fin 1) n d)
      = (acc (ix3 (0 : Fin 1) n d) : EReal) + (contrib (F := Ideal) x0 x1 x2 x3 (ix2 n d) : EReal) := by
  rw [pay2_eq]
  refine (shapeCast_addUnit_apply ![42880, 64] _ shapeCasts_S42880x64_S1x42880x64 (ix3 (0 : Fin 1) n d)).trans ?_
  have e2 : (fun a : Fin 2 => (ix3 (0 : Fin 1) n d : S1x42880x64.Idx) a.succ) = (ix2 n d : S42880x64.Idx) :=
    funext fun a => by match a with | ⟨0, _⟩ => rfl | ⟨1, _⟩ => rfl
  rw [e2]
  show (shapeCast S42880x64 acc shapeCasts_S1x42880x64_S42880x64 (ix2 n d) : EReal) + _ = _
  refine congrArg (· + (contrib (F := Ideal) x0 x1 x2 x3 (ix2 n d) : EReal)) ?_
  refine (shapeCast_dropUnit_apply ![42880, 64] acc shapeCasts_S1x42880x64_S42880x64 (ix2 n d)).trans ?_
  refine congrArg acc ?_
  funext a
  match a with
  | ⟨0, _⟩ => rfl
  | ⟨1, _⟩ => rfl
  | ⟨2, _⟩ => rfl

/-- The block a core's first point stores before its update is zero everywhere. -/
theorem pay1_apply (n : Fin 42880) (d : Fin 64) :
    (k3_pay1 (F := Ideal) (ix3 (0 : Fin 1) n d) : EReal) = 0 := by
  unfold k3_pay1
  refine (shapeCast_addUnit_apply ![42880, 64] _ shapeCasts_S42880x64_S1x42880x64 (ix3 (0 : Fin 1) n d)).trans ?_
  show (Ideal.ofBits .f32 0x00000000#32 : EReal) = 0
  exact Ideal.ofBits_zero_f32

/-! ## The output array as a sum over a core's steps -/

/-- What step j of core h adds at entry (n, d); zero for a step number past the core's last step. -/
def term (A0 A1 : IVec S2x1000000x1 32) (A2 : FVec Ideal S2x1000000x1 .f32) (A3 : FVec Ideal S27136x64 .bf16)
    (h : Fin 2) (n : Fin 42880) (d : Fin 64) (j : ℕ) : EReal :=
  if hj : j < 15625 then
    (contrib (F := Ideal) (blkI (F := Ideal) A0 h ⟨j, hj⟩) (blkI (F := Ideal) A1 h ⟨j, hj⟩) (blkF A2 h ⟨j, hj⟩) A3 (ix2 n d) : EReal)
  else 0

theorem term_of_lt (A0 A1 : IVec S2x1000000x1 32) (A2 : FVec Ideal S2x1000000x1 .f32) (A3 : FVec Ideal S27136x64 .bf16)
    (h : Fin 2) (n : Fin 42880) (d : Fin 64) (j : ℕ) (hj : j < 15625) :
    term A0 A1 A2 A3 h n d j
      = (contrib (F := Ideal) (blkI (F := Ideal) A0 h ⟨j, hj⟩) (blkI (F := Ideal) A1 h ⟨j, hj⟩) (blkF A2 h ⟨j, hj⟩) A3 (ix2 n d) : EReal) :=
  dif_pos hj

/-- Entry (h, n, d) of the output array is the sum of the addends of core h's 15625 steps. -/
theorem out_apply (A0 A1 : IVec S2x1000000x1 32) (A2 : FVec Ideal S2x1000000x1 .f32) (A3 : FVec Ideal S27136x64 .bf16)
    (h : Fin 2) (n : Fin 42880) (d : Fin 64) :
    (out A0 A1 A2 A3 (ix3 h n d) : EReal) = ∑ j ∈ Finset.range 15625, term A0 A1 A2 A3 h n d j := by
  rw [Finset.sum_range]
  exact Finset.sum_congr rfl fun k _ => (term_of_lt A0 A1 A2 A3 h n d k.val k.isLt).symm

/-! ## What each case of the body leaves in the output's staging buffer -/

/-- At a point that is not a core's first, the body leaves the update of what the buffer held. -/
theorem out_B (c : Dev nD) (i : grid3.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S27136x64 .bf16) (h5 : a5.IsWhole)
    (a6 : Memref sig .tc .vmem S1x42880x64 .f32) (h6 : a6.IsWhole) (hc : ¬cond3_0 i)
    (x0 x1 : Vec F S1x64x1 .i32) (x2 : Vec F S1x64x1 .f32) (x3 : Vec F S27136x64 .bf16) (xo : Vec F S1x42880x64 .f32) :
    out3_B_4 c i a2 h2 a3 h3 a4 h4 a5 h5 a6 h6 hc x0 x1 x2 x3 xo = k3_pay2 x0 x1 x2 x3 xo := by
  unfold out3_B_4
  rw [View.read_writes_eq_canon _ _ _ (cover3_B_4 c i a2 h2 a3 h3 a4 h4 a5 h5 a6 h6 hc x0 x1 x2 x3 xo)]
  unfold kernelRun3_B
  dsimp only
  sl_unfold_words
  rw [View.canon_unit_zero hz3]
  simp only [View.readAt_eq_ld, h2.read_unread, h3.read_unread, h4.read_unread, h5.read_unread, h6.read_unread,
    View.ld_unit_zero (S := S1x64x1) hz3, View.ld_unit_zero (S := S27136x64) hz2, View.ld_unit_zero (S := S1x42880x64) hz3]

/-- At a core's first point, the body stores the zero block, reads it back, and leaves its update. -/
theorem out_A (c : Dev nD) (i : grid3.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S27136x64 .bf16) (h5 : a5.IsWhole)
    (a6 : Memref sig .tc .vmem S1x42880x64 .f32) (h6 : a6.IsWhole) (hc : cond3_0 i)
    (x0 x1 : Vec F S1x64x1 .i32) (x2 : Vec F S1x64x1 .f32) (x3 : Vec F S27136x64 .bf16) :
    out3_A_4 c i a2 h2 a3 h3 a4 h4 a5 h5 a6 h6 hc x0 x1 x2 x3 = k3_pay2 x0 x1 x2 x3 k3_pay1 := by
  unfold out3_A_4
  rw [View.read_writes_eq_canon _ _ _ (cover3_A_4 c i a2 h2 a3 h3 a4 h4 a5 h5 a6 h6 hc x0 x1 x2 x3)]
  unfold kernelRun3_A
  dsimp only
  sl_unfold_words
  rw [View.canon_cons_unit_zero (S := S1x42880x64) hz3, View.readCov_unit_zero (S := S1x42880x64) _ hz3]
  simp only [View.readAt_eq_ld, h2.read_unread, h3.read_unread, h4.read_unread, h5.read_unread,
    View.ld_unit_zero (S := S1x64x1) hz3, View.ld_unit_zero (S := S27136x64) hz2, View.ld_unit_zero (S := S1x42880x64) hz3]

section Blocks

variable (V : (c : Dev nD) → (b : Ref sig .tc) → Buf (Elt F) ((c : Thread nD τ).loc b))

/-- The arrays of the region's four operands, as the region finds them, at their literal types. -/
abbrev arr0 (c : Dev nD) : IVec S2x1000000x1 32 := V c (Pipeline.arrRef spec3 0)
abbrev arr1 (c : Dev nD) : IVec S2x1000000x1 32 := V c (Pipeline.arrRef spec3 1)
abbrev arr2 (c : Dev nD) : FVec F S2x1000000x1 .f32 := V c (Pipeline.arrRef spec3 2)
abbrev arr3 (c : Dev nD) : FVec F S27136x64 .bf16 := V c (Pipeline.arrRef spec3 3)

/-- The four blocks the body reads at point t, at their literal types. -/
abbrev xb0 (c : Dev nD) (t : Fin cfg3.N) : Vec F S1x64x1 .i32 := iblk3 V c 0 t
abbrev xb1 (c : Dev nD) (t : Fin cfg3.N) : Vec F S1x64x1 .i32 := iblk3 V c 1 t
abbrev xb2 (c : Dev nD) (t : Fin cfg3.N) : Vec F S1x64x1 .f32 := iblk3 V c 2 t
abbrev xb3 (c : Dev nD) (t : Fin cfg3.N) : Vec F S27136x64 .bf16 := iblk3 V c 3 t

/-- The staging buffer after a core's first point: the update of the zero block by that point's blocks. -/
theorem outsAt_A (c : Dev nD) (t : Fin cfg3.N) (h0 : t.val % 15625 = 0) :
    outsAt3 V c t.val t.isLt = k3_pay2 (xb0 V c t) (xb1 V c t) (xb2 V c t) (xb3 V c t) k3_pay1 :=
  (outsAt3_A V c t h0).trans
    (out_A c (grid3.coords t) (ms3_0 t) (hs3_0 t) (ms3_1 t) (hs3_1 t) (ms3_2 t) (hs3_2 t) (ms3_3 t) (hs3_3 t) (ms3_4 t) (hs3_4 t) ((hcond3_0 t).mpr h0)
      (xb0 V c t) (xb1 V c t) (xb2 V c t) (xb3 V c t))

/-- The staging buffer after any other point: the update, by that point's blocks, of what the point before left. -/
theorem outsAt_B (c : Dev nD) (t : Fin cfg3.N) (h0 : ¬t.val % 15625 = 0) :
    outsAt3 V c t.val t.isLt
      = k3_pay2 (xb0 V c t) (xb1 V c t) (xb2 V c t) (xb3 V c t)
          (outsAt3 V c (t.val - 1) (Nat.lt_of_le_of_lt (Nat.sub_le _ _) t.isLt)) :=
  (outsAt3_B V c t h0).trans
    (out_B c (grid3.coords t) (ms3_0 t) (hs3_0 t) (ms3_1 t) (hs3_1 t) (ms3_2 t) (hs3_2 t) (ms3_3 t) (hs3_3 t) (ms3_4 t) (hs3_4 t) (fun h => h0 ((hcond3_0 t).mp h))
      (xb0 V c t) (xb1 V c t) (xb2 V c t) (xb3 V c t)
      (outsAt3 V c (t.val - 1) (Nat.lt_of_le_of_lt (Nat.sub_le _ _) t.isLt)))

/-- The staging buffer's contents depend on the point's number only. -/
theorem outsAt_congr (c : Dev nD) (u v : ℕ) (hu : u < cfg3.N) (hv : v < cfg3.N) (e : u = v) :
    outsAt3 V c u hu = outsAt3 V c v hv := by
  subst e; rfl

/-! ## The blocks a point reads, as parts of the arrays -/

/-- The block index of every window at every point: the three edge windows are at (core, step, 0), the table at
    (0, 0), the output at (core, 0, 0), where point t is step t % 15625 of core t / 15625. The grid runs its last axis
    fastest, so point t has coordinates (t / 15625 % 2, t % 15625); below 2 × 15625 the first is t / 15625, and both are
    far below the 32-bit range the index maps compute in. -/
theorem idx_facts : ∀ t : Fin cfg3.N,
    win3_0.index t (0 : Fin 3) = t.val / 15625 ∧ win3_0.index t (1 : Fin 3) = t.val % 15625 ∧ win3_0.index t (2 : Fin 3) = 0
    ∧ win3_1.index t (0 : Fin 3) = t.val / 15625 ∧ win3_1.index t (1 : Fin 3) = t.val % 15625 ∧ win3_1.index t (2 : Fin 3) = 0
    ∧ win3_2.index t (0 : Fin 3) = t.val / 15625 ∧ win3_2.index t (1 : Fin 3) = t.val % 15625 ∧ win3_2.index t (2 : Fin 3) = 0
    ∧ win3_3.index t (0 : Fin 2) = 0 ∧ win3_3.index t (1 : Fin 2) = 0
    ∧ win3_4.index t (0 : Fin 3) = t.val / 15625 ∧ win3_4.index t (1 : Fin 3) = 0 ∧ win3_4.index t (2 : Fin 3) = 0 := by
  intro t
  have hN : t.val < 31250 := lt_of_lt_of_eq t.isLt N_3
  have s0 : grid3.stride (0 : Fin 2) = 15625 := by decide
  have s1 : grid3.stride (1 : Fin 2) = 1 := by decide
  have c0 : (BitVec.ofNat 32 (t.val / grid3.stride (0 : Fin 2) % 2)).toNat = t.val / 15625 := by
    rw [s0, BitVec.toNat_ofNat]; omega
  have c1 : (BitVec.ofNat 32 (t.val / grid3.stride (1 : Fin 2) % 15625)).toNat = t.val % 15625 := by
    rw [s1, BitVec.toNat_ofNat]; omega
  exact ⟨c0, c1, rfl, c0, c1, rfl, c0, c1, rfl, rfl, rfl, c0, rfl, rfl⟩

/-- At step k of core h, the first window's block is rows 64k .. 64k+63 of half h of its array. -/
theorem xb0_eq (c : Dev nD) (t : Fin cfg3.N) (h : Fin 2) (k : Fin 15625) (ht : t.val = 15625 * h.val + k.val) :
    xb0 V c t = blkI (F := F) (arr0 V c) h k := by
  obtain ⟨e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk3 V c 0 t j = _
  unfold iblk3 blkI
  rw [View.read_apply]
  show V c (Pipeline.arrRef spec3 0) (((cfg3.win 0).blk t).view.emb j) = V c (Pipeline.arrRef spec3 0) _
  refine congrArg (V c (Pipeline.arrRef spec3 0)) (funext fun a => Fin.ext ?_)
  match a with
  | ⟨0, _⟩ => show win3_0.index t (0 : Fin 3) * 1 + 1 * (j 0).val = h.val; omega
  | ⟨1, _⟩ => show win3_0.index t (1 : Fin 3) * 64 + 1 * (j 1).val = 64 * k.val + (j 1).val; omega
  | ⟨2, _⟩ => show win3_0.index t (2 : Fin 3) * 1 + 1 * (j 2).val = 0; omega

/-- The same for the second window. -/
theorem xb1_eq (c : Dev nD) (t : Fin cfg3.N) (h : Fin 2) (k : Fin 15625) (ht : t.val = 15625 * h.val + k.val) :
    xb1 V c t = blkI (F := F) (arr1 V c) h k := by
  obtain ⟨-, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk3 V c 1 t j = _
  unfold iblk3 blkI
  rw [View.read_apply]
  show V c (Pipeline.arrRef spec3 1) (((cfg3.win 1).blk t).view.emb j) = V c (Pipeline.arrRef spec3 1) _
  refine congrArg (V c (Pipeline.arrRef spec3 1)) (funext fun a => Fin.ext ?_)
  match a with
  | ⟨0, _⟩ => show win3_1.index t (0 : Fin 3) * 1 + 1 * (j 0).val = h.val; omega
  | ⟨1, _⟩ => show win3_1.index t (1 : Fin 3) * 64 + 1 * (j 1).val = 64 * k.val + (j 1).val; omega
  | ⟨2, _⟩ => show win3_1.index t (2 : Fin 3) * 1 + 1 * (j 2).val = 0; omega

/-- The same for the third window, of floats. -/
theorem xb2_eq (c : Dev nD) (t : Fin cfg3.N) (h : Fin 2) (k : Fin 15625) (ht : t.val = 15625 * h.val + k.val) :
    xb2 V c t = blkF (arr2 V c) h k := by
  obtain ⟨-, -, -, -, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk3 V c 2 t j = _
  unfold iblk3 blkF
  rw [View.read_apply]
  show V c (Pipeline.arrRef spec3 2) (((cfg3.win 2).blk t).view.emb j) = V c (Pipeline.arrRef spec3 2) _
  refine congrArg (V c (Pipeline.arrRef spec3 2)) (funext fun a => Fin.ext ?_)
  match a with
  | ⟨0, _⟩ => show win3_2.index t (0 : Fin 3) * 1 + 1 * (j 0).val = h.val; omega
  | ⟨1, _⟩ => show win3_2.index t (1 : Fin 3) * 64 + 1 * (j 1).val = 64 * k.val + (j 1).val; omega
  | ⟨2, _⟩ => show win3_2.index t (2 : Fin 3) * 1 + 1 * (j 2).val = 0; omega

/-- The fourth window's block is its whole array at every point. -/
theorem xb3_eq (c : Dev nD) (t : Fin cfg3.N) : xb3 V c t = arr3 V c := by
  obtain ⟨-, -, -, -, -, -, -, -, -, e0, e1, -⟩ := idx_facts t
  refine funext fun (j : S27136x64.Idx) => ?_
  show iblk3 V c 3 t j = _
  unfold iblk3
  rw [View.read_apply]
  show V c (Pipeline.arrRef spec3 3) (((cfg3.win 3).blk t).view.emb j) = V c (Pipeline.arrRef spec3 3) j
  refine congrArg (V c (Pipeline.arrRef spec3 3)) (funext fun a => Fin.ext ?_)
  match a with
  | ⟨0, _⟩ => show win3_3.index t (0 : Fin 2) * 27136 + 1 * (j 0).val = (j 0).val; omega
  | ⟨1, _⟩ => show win3_3.index t (1 : Fin 2) * 64 + 1 * (j 1).val = (j 1).val; omega

end Blocks

/-! ## The accumulation over a core's steps, and the array it is written back to -/

section AtIdeal

variable (V : (c : Dev nD) → (b : Ref sig .tc) → Buf (Elt Ideal) ((c : Thread nD τ).loc b))

/-- After step k of core h the staging buffer holds, at (0, n, d), the sum of the addends of steps 0 .. k:
    the first step adds to the zero block, every later step to what the step before left. -/
theorem acc_eq (c : Dev nD) (h : Fin 2) (n : Fin 42880) (d : Fin 64) :
    ∀ (k : ℕ) (hk : k < 15625) (hlt : 15625 * h.val + k < cfg3.N),
      (outsAt3 V c (15625 * h.val + k) hlt (ix3 (0 : Fin 1) n d) : EReal)
        = ∑ j ∈ Finset.range (k + 1), term (arr0 V c) (arr1 V c) (arr2 V c) (arr3 V c) h n d j
  | 0, hk, hlt => by
    have h0 : (⟨15625 * h.val + 0, hlt⟩ : Fin cfg3.N).val % 15625 = 0 := by dsimp only; omega
    refine (congrFun (outsAt_A V c ⟨15625 * h.val + 0, hlt⟩ h0) (ix3 (0 : Fin 1) n d)).trans ?_
    rw [pay2_apply, pay1_apply, zero_add, Finset.sum_range_one, term_of_lt _ _ _ _ _ _ _ 0 hk,
      xb0_eq V c ⟨15625 * h.val + 0, hlt⟩ h ⟨0, hk⟩ rfl, xb1_eq V c ⟨15625 * h.val + 0, hlt⟩ h ⟨0, hk⟩ rfl,
      xb2_eq V c ⟨15625 * h.val + 0, hlt⟩ h ⟨0, hk⟩ rfl, xb3_eq V c ⟨15625 * h.val + 0, hlt⟩]
  | k + 1, hk, hlt => by
    have hB : ¬(⟨15625 * h.val + (k + 1), hlt⟩ : Fin cfg3.N).val % 15625 = 0 := by dsimp only; omega
    have hlt' : 15625 * h.val + k < cfg3.N := by omega
    refine (congrFun (outsAt_B V c ⟨15625 * h.val + (k + 1), hlt⟩ hB) (ix3 (0 : Fin 1) n d)).trans ?_
    rw [pay2_apply, outsAt_congr V c _ (15625 * h.val + k) _ hlt' (by dsimp only; omega),
      acc_eq c h n d k (by omega) hlt', Finset.sum_range_succ _ (k + 1), term_of_lt _ _ _ _ _ _ _ (k + 1) hk,
      xb0_eq V c ⟨15625 * h.val + (k + 1), hlt⟩ h ⟨k + 1, hk⟩ rfl, xb1_eq V c ⟨15625 * h.val + (k + 1), hlt⟩ h ⟨k + 1, hk⟩ rfl,
      xb2_eq V c ⟨15625 * h.val + (k + 1), hlt⟩ h ⟨k + 1, hk⟩ rfl, xb3_eq V c ⟨15625 * h.val + (k + 1), hlt⟩]

/-- After a core's last step the staging buffer holds that core's part of the output array. -/
theorem last_eq (c : Dev nD) (t : Fin cfg3.N) (h3 : t.val % 15625 + 1 = 15625) (h : Fin 2) (hh : t.val / 15625 = h.val)
    (n : Fin 42880) (d : Fin 64) :
    (outsAt3 V c t.val t.isLt (ix3 (0 : Fin 1) n d) : EReal)
      = out (arr0 V c) (arr1 V c) (arr2 V c) (arr3 V c) (ix3 h n d) := by
  have e : t.val = 15625 * h.val + t.val % 15625 := by omega
  have hlt : 15625 * h.val + t.val % 15625 < cfg3.N := e ▸ t.isLt
  rw [outsAt_congr V c t.val (15625 * h.val + t.val % 15625) t.isLt hlt e,
    acc_eq V c h n d (t.val % 15625) (by omega) hlt, h3, out_apply]

/-- The region's output array, at its literal type. -/
abbrev result (c : Dev nD) : FVec Ideal S2x42880x64 .f32 := out (arr0 V c) (arr1 V c) (arr2 V c) (arr3 V c)

/-- What a core's last step writes back is that core's block of the output array. -/
theorem flushed_eq (c : Dev nD) (t : Fin cfg3.N) (hf : (cfg3.win 4).flush t = true) :
    (dat3 V c).flushed 4 t = ((cfg3.win 4).blk t).view.read (Elt Ideal) (result V c) := by
  have hN : cfg3.N = 31250 := N_3
  have hlt : t.val < 31250 := lt_of_lt_of_eq t.isLt hN
  have h3 : t.val % 15625 + 1 = 15625 := by have := (flush3_4 t).mp hf; omega
  obtain ⟨-, -, -, -, -, -, -, -, -, -, -, e0, e1, e2⟩ := idx_facts t
  show (cfg3.win 4).cut (grid3.coords t) ((dat3 V c).after 4 t) = _
  rw [after3_4]
  refine funext fun (y : S1x42880x64.Idx) => ?_
  rw [View.read_apply]
  have y0 : (y 0).val < 1 := (y 0).isLt
  have hy : y = ix3 (0 : Fin 1) (y 1) (y 2) := funext fun a => by
    match a with
    | ⟨0, _⟩ => exact Fin.ext (by show (y 0).val = 0; omega)
    | ⟨1, _⟩ => rfl
    | ⟨2, _⟩ => rfl
  show (outsAt3 V c t.val t.isLt y : EReal) = result V c (((cfg3.win 4).blk t).view.emb y)
  refine (congrArg (fun z : S1x42880x64.Idx => (outsAt3 V c t.val t.isLt z : EReal)) hy).trans ?_
  refine (last_eq V c t h3 ⟨t.val / 15625, by omega⟩ rfl (y 1) (y 2)).trans (congrArg (result V c) (funext fun a => Fin.ext ?_))
  match a with
  | ⟨0, _⟩ => show t.val / 15625 = win3_4.index t (0 : Fin 3) * 1 + 1 * (y 0).val; omega
  | ⟨1, _⟩ => show (y 1).val = win3_4.index t (1 : Fin 3) * 42880 + 1 * (y 1).val; omega
  | ⟨2, _⟩ => show (y 2).val = win3_4.index t (2 : Fin 3) * 64 + 1 * (y 2).val; omega

/-- THE REGION'S VALUE: after the run the output array holds, at (h, n, d), the sum over core h's 15625 steps of
    what each step adds at (n, d): every entry lies in the block its core's last step writes back. -/
theorem value (V : (c : Dev nD) → (b : Ref sig .tc) → Buf (Elt Ideal) ((c : Thread nD τ).loc b)) (c : Dev nD) :
    (Gen.dat3 (F := Ideal) V c).arrAt 4 cfg3.N
      = out (V c (Pipeline.arrRef spec3 0)) (V c (Pipeline.arrRef spec3 1)) (V c (Pipeline.arrRef spec3 2)) (V c (Pipeline.arrRef spec3 3)) :=
  (dat3 V c).arrAt_eq_of_cover 4 (result V c) (fun t hf => flushed_eq V c t hf) fun (i : S2x42880x64.Idx) => by
    have hN : cfg3.N = 31250 := N_3
    have i0 : (i 0).val < 2 := (i 0).isLt
    have i1 : (i 1).val < 42880 := (i 1).isLt
    have i2 : (i 2).val < 64 := (i 2).isLt
    have hlt : 15625 * (i 0).val + (15625 - 1) < cfg3.N := lt_of_lt_of_eq (by omega) hN.symm
    obtain ⟨-, -, -, -, -, -, -, -, -, -, -, e0, e1, e2⟩ := idx_facts ⟨15625 * (i 0).val + (15625 - 1), hlt⟩
    refine ⟨⟨15625 * (i 0).val + (15625 - 1), hlt⟩, (flush3_4 _).mpr (by dsimp only; omega), ?_⟩
    show i ∈ ((View.whole main_v133).slice (win3_4.rect ⟨15625 * (i 0).val + (15625 - 1), hlt⟩)).set
    rw [View.set_slice_whole, Rect.mem_set_unit]
    intro a
    match a with
    | ⟨0, _⟩ =>
      show win3_4.index ⟨15625 * (i 0).val + (15625 - 1), hlt⟩ (0 : Fin 3) * 1 ≤ (i 0).val
        ∧ (i 0).val < win3_4.index ⟨15625 * (i 0).val + (15625 - 1), hlt⟩ (0 : Fin 3) * 1 + 1
      rw [e0]; dsimp only; omega
    | ⟨1, _⟩ =>
      show win3_4.index ⟨15625 * (i 0).val + (15625 - 1), hlt⟩ (1 : Fin 3) * 42880 ≤ (i 1).val
        ∧ (i 1).val < win3_4.index ⟨15625 * (i 0).val + (15625 - 1), hlt⟩ (1 : Fin 3) * 42880 + 42880
      rw [e1]; omega
    | ⟨2, _⟩ =>
      show win3_4.index ⟨15625 * (i 0).val + (15625 - 1), hlt⟩ (2 : Fin 3) * 64 ≤ (i 2).val
        ∧ (i 2).val < win3_4.index ⟨15625 * (i 0).val + (15625 - 1), hlt⟩ (2 : Fin 3) * 64 + 64
      rw [e2]; omega

end AtIdeal

end Cert.KernelIdeal.Reg3

end
-- ==== Proof.Reg4.lean ====
/-
  The value of aggregation region 4 of the idealized kernel program.

  The region runs its body at 2 × 15625 grid points, point t being step t % 15625 of core t / 15625. Its output window's
  block, [1, 27136, 64], is indexed by the core alone, so it stays in its staging buffer across a core's 15625 steps: the
  first step stores the zero block and then its update, every later step stores the update of what the step before
  left, and the block is written back to rows [core, :, :] of the output array after the core's last step. The update
  adds to the block what the step's 64 edges contribute: the gather of the node table's rows by the first one-hot
  product, scaled, scattered onto the 27136 destination rows by the second. Over the extended reals the block after
  step k is therefore the sum of the addends of steps 0 .. k (0 + x = x), and the output array ends holding, at
  (core, n, d), the sum over that core's 15625 steps of each step's addend at (n, d), the steps' blocks being rows
  64k .. 64k+63 of the core's half of the three padded edge arrays and the whole node table.
-/
import proofs.«400075_j26585847562450_2_alg».proof.Proof.RegDefs
import proofs.«400075_j26585847562450_2_alg».proof.Proof.KIF4
import Idealize.ShloMosaic.Lib.Pipeline.Value
import Idealize.ShloMosaic.Lib.Tactic
import Idealize.ShloMosaic.PureOps.Ideal.Laws
import Mathlib.Algebra.BigOperators.Fin

set_option maxRecDepth 65536

noncomputable section

open Idealize.ShloMosaic Idealize.ShloMosaic.TcCoe Idealize.SL.Sem
open Idealize.ShloMosaic.Pipeline (Dat)

namespace Cert.KernelIdeal.Reg4

open Cert.KernelIdeal Cert.KernelIdeal.Gen Idealize.ShloMosaic.ValueIdx

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## One grid point's update of the accumulator block, entry by entry -/

/-- The update a grid point stores: the accumulator block plus what the point adds, under the two changes of
    shape between the block [1, 27136, 64] and the matrix [27136, 64]. -/
theorem pay2_eq (x0 x1 : Vec F S1x64x1 .i32) (x2 : Vec F S1x64x1 .f32) (x3 : Vec F S42880x64 .bf16)
    (acc : Vec F S1x27136x64 .f32) :
    k4_pay2 x0 x1 x2 x3 acc
      = shapeCast S1x27136x64 (addf (shapeCast S27136x64 acc shapeCasts_S1x27136x64_S27136x64) (contrib x0 x1 x2 x3))
          shapeCasts_S27136x64_S1x27136x64 := rfl

/-- Over the extended reals, entry (0, n, d) of the stored update is the accumulator's entry plus the point's addend. -/
theorem pay2_apply (x0 x1 : Vec Ideal S1x64x1 .i32) (x2 : Vec Ideal S1x64x1 .f32) (x3 : Vec Ideal S42880x64 .bf16)
    (acc : Vec Ideal S1x27136x64 .f32) (n : Fin 27136) (d : Fin 64) :
    k4_pay2 (F := Ideal) x0 x1 x2 x3 acc (ix3 (0 : Fin 1) n d)
      = (acc (ix3 (0 : Fin 1) n d) : EReal) + (contrib (F := Ideal) x0 x1 x2 x3 (ix2 n d) : EReal) := by
  rw [pay2_eq]
  refine (shapeCast_addUnit_apply ![27136, 64] _ shapeCasts_S27136x64_S1x27136x64 (ix3 (0 : Fin 1) n d)).trans ?_
  have e2 : (fun a : Fin 2 => (ix3 (0 : Fin 1) n d : S1x27136x64.Idx) a.succ) = (ix2 n d : S27136x64.Idx) :=
    funext fun a => by match a with | ⟨0, _⟩ => rfl | ⟨1, _⟩ => rfl
  rw [e2]
  show (shapeCast S27136x64 acc shapeCasts_S1x27136x64_S27136x64 (ix2 n d) : EReal) + _ = _
  refine congrArg (· + (contrib (F := Ideal) x0 x1 x2 x3 (ix2 n d) : EReal)) ?_
  refine (shapeCast_dropUnit_apply ![27136, 64] acc shapeCasts_S1x27136x64_S27136x64 (ix2 n d)).trans ?_
  refine congrArg acc ?_
  funext a
  match a with
  | ⟨0, _⟩ => rfl
  | ⟨1, _⟩ => rfl
  | ⟨2, _⟩ => rfl

/-- The block a core's first point stores before its update is zero everywhere. -/
theorem pay1_apply (n : Fin 27136) (d : Fin 64) :
    (k4_pay1 (F := Ideal) (ix3 (0 : Fin 1) n d) : EReal) = 0 := by
  unfold k4_pay1
  refine (shapeCast_addUnit_apply ![27136, 64] _ shapeCasts_S27136x64_S1x27136x64 (ix3 (0 : Fin 1) n d)).trans ?_
  show (Ideal.ofBits .f32 0x00000000#32 : EReal) = 0
  exact Ideal.ofBits_zero_f32

/-! ## The output array as a sum over a core's steps -/

/-- What step j of core h adds at entry (n, d); zero for a step number past the core's last step. -/
def term (A0 A1 : IVec S2x1000000x1 32) (A2 : FVec Ideal S2x1000000x1 .f32) (A3 : FVec Ideal S42880x64 .bf16)
    (h : Fin 2) (n : Fin 27136) (d : Fin 64) (j : ℕ) : EReal :=
  if hj : j < 15625 then
    (contrib (F := Ideal) (blkI (F := Ideal) A0 h ⟨j, hj⟩) (blkI (F := Ideal) A1 h ⟨j, hj⟩) (blkF A2 h ⟨j, hj⟩) A3 (ix2 n d) : EReal)
  else 0

theorem term_of_lt (A0 A1 : IVec S2x1000000x1 32) (A2 : FVec Ideal S2x1000000x1 .f32) (A3 : FVec Ideal S42880x64 .bf16)
    (h : Fin 2) (n : Fin 27136) (d : Fin 64) (j : ℕ) (hj : j < 15625) :
    term A0 A1 A2 A3 h n d j
      = (contrib (F := Ideal) (blkI (F := Ideal) A0 h ⟨j, hj⟩) (blkI (F := Ideal) A1 h ⟨j, hj⟩) (blkF A2 h ⟨j, hj⟩) A3 (ix2 n d) : EReal) :=
  dif_pos hj

/-- Entry (h, n, d) of the output array is the sum of the addends of core h's 15625 steps. -/
theorem out_apply (A0 A1 : IVec S2x1000000x1 32) (A2 : FVec Ideal S2x1000000x1 .f32) (A3 : FVec Ideal S42880x64 .bf16)
    (h : Fin 2) (n : Fin 27136) (d : Fin 64) :
    (out A0 A1 A2 A3 (ix3 h n d) : EReal) = ∑ j ∈ Finset.range 15625, term A0 A1 A2 A3 h n d j := by
  rw [Finset.sum_range]
  exact Finset.sum_congr rfl fun k _ => (term_of_lt A0 A1 A2 A3 h n d k.val k.isLt).symm

/-! ## What each case of the body leaves in the output's staging buffer -/

/-- At a point that is not a core's first, the body leaves the update of what the buffer held. -/
theorem out_B (c : Dev nD) (i : grid4.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S42880x64 .bf16) (h5 : a5.IsWhole)
    (a6 : Memref sig .tc .vmem S1x27136x64 .f32) (h6 : a6.IsWhole) (hc : ¬cond4_0 i)
    (x0 x1 : Vec F S1x64x1 .i32) (x2 : Vec F S1x64x1 .f32) (x3 : Vec F S42880x64 .bf16) (xo : Vec F S1x27136x64 .f32) :
    out4_B_4 c i a2 h2 a3 h3 a4 h4 a5 h5 a6 h6 hc x0 x1 x2 x3 xo = k4_pay2 x0 x1 x2 x3 xo := by
  unfold out4_B_4
  rw [View.read_writes_eq_canon _ _ _ (cover4_B_4 c i a2 h2 a3 h3 a4 h4 a5 h5 a6 h6 hc x0 x1 x2 x3 xo)]
  unfold kernelRun4_B
  dsimp only
  sl_unfold_words
  rw [View.canon_unit_zero hz3]
  simp only [View.readAt_eq_ld, h2.read_unread, h3.read_unread, h4.read_unread, h5.read_unread, h6.read_unread,
    View.ld_unit_zero (S := S1x64x1) hz3, View.ld_unit_zero (S := S42880x64) hz2, View.ld_unit_zero (S := S1x27136x64) hz3]

/-- At a core's first point, the body stores the zero block, reads it back, and leaves its update. -/
theorem out_A (c : Dev nD) (i : grid4.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S42880x64 .bf16) (h5 : a5.IsWhole)
    (a6 : Memref sig .tc .vmem S1x27136x64 .f32) (h6 : a6.IsWhole) (hc : cond4_0 i)
    (x0 x1 : Vec F S1x64x1 .i32) (x2 : Vec F S1x64x1 .f32) (x3 : Vec F S42880x64 .bf16) :
    out4_A_4 c i a2 h2 a3 h3 a4 h4 a5 h5 a6 h6 hc x0 x1 x2 x3 = k4_pay2 x0 x1 x2 x3 k4_pay1 := by
  unfold out4_A_4
  rw [View.read_writes_eq_canon _ _ _ (cover4_A_4 c i a2 h2 a3 h3 a4 h4 a5 h5 a6 h6 hc x0 x1 x2 x3)]
  unfold kernelRun4_A
  dsimp only
  sl_unfold_words
  rw [View.canon_cons_unit_zero (S := S1x27136x64) hz3, View.readCov_unit_zero (S := S1x27136x64) _ hz3]
  simp only [View.readAt_eq_ld, h2.read_unread, h3.read_unread, h4.read_unread, h5.read_unread,
    View.ld_unit_zero (S := S1x64x1) hz3, View.ld_unit_zero (S := S42880x64) hz2, View.ld_unit_zero (S := S1x27136x64) hz3]

section Blocks

variable (V : (c : Dev nD) → (b : Ref sig .tc) → Buf (Elt F) ((c : Thread nD τ).loc b))

/-- The arrays of the region's four operands, as the region finds them, at their literal types. -/
abbrev arr0 (c : Dev nD) : IVec S2x1000000x1 32 := V c (Pipeline.arrRef spec4 0)
abbrev arr1 (c : Dev nD) : IVec S2x1000000x1 32 := V c (Pipeline.arrRef spec4 1)
abbrev arr2 (c : Dev nD) : FVec F S2x1000000x1 .f32 := V c (Pipeline.arrRef spec4 2)
abbrev arr3 (c : Dev nD) : FVec F S42880x64 .bf16 := V c (Pipeline.arrRef spec4 3)

/-- The four blocks the body reads at point t, at their literal types. -/
abbrev xb0 (c : Dev nD) (t : Fin cfg4.N) : Vec F S1x64x1 .i32 := iblk4 V c 0 t
abbrev xb1 (c : Dev nD) (t : Fin cfg4.N) : Vec F S1x64x1 .i32 := iblk4 V c 1 t
abbrev xb2 (c : Dev nD) (t : Fin cfg4.N) : Vec F S1x64x1 .f32 := iblk4 V c 2 t
abbrev xb3 (c : Dev nD) (t : Fin cfg4.N) : Vec F S42880x64 .bf16 := iblk4 V c 3 t

/-- The staging buffer after a core's first point: the update of the zero block by that point's blocks. -/
theorem outsAt_A (c : Dev nD) (t : Fin cfg4.N) (h0 : t.val % 15625 = 0) :
    outsAt4 V c t.val t.isLt = k4_pay2 (xb0 V c t) (xb1 V c t) (xb2 V c t) (xb3 V c t) k4_pay1 :=
  (outsAt4_A V c t h0).trans
    (out_A c (grid4.coords t) (ms4_0 t) (hs4_0 t) (ms4_1 t) (hs4_1 t) (ms4_2 t) (hs4_2 t) (ms4_3 t) (hs4_3 t) (ms4_4 t) (hs4_4 t) ((hcond4_0 t).mpr h0)
      (xb0 V c t) (xb1 V c t) (xb2 V c t) (xb3 V c t))

/-- The staging buffer after any other point: the update, by that point's blocks, of what the point before left. -/
theorem outsAt_B (c : Dev nD) (t : Fin cfg4.N) (h0 : ¬t.val % 15625 = 0) :
    outsAt4 V c t.val t.isLt
      = k4_pay2 (xb0 V c t) (xb1 V c t) (xb2 V c t) (xb3 V c t)
          (outsAt4 V c (t.val - 1) (Nat.lt_of_le_of_lt (Nat.sub_le _ _) t.isLt)) :=
  (outsAt4_B V c t h0).trans
    (out_B c (grid4.coords t) (ms4_0 t) (hs4_0 t) (ms4_1 t) (hs4_1 t) (ms4_2 t) (hs4_2 t) (ms4_3 t) (hs4_3 t) (ms4_4 t) (hs4_4 t) (fun h => h0 ((hcond4_0 t).mp h))
      (xb0 V c t) (xb1 V c t) (xb2 V c t) (xb3 V c t)
      (outsAt4 V c (t.val - 1) (Nat.lt_of_le_of_lt (Nat.sub_le _ _) t.isLt)))

/-- The staging buffer's contents depend on the point's number only. -/
theorem outsAt_congr (c : Dev nD) (u v : ℕ) (hu : u < cfg4.N) (hv : v < cfg4.N) (e : u = v) :
    outsAt4 V c u hu = outsAt4 V c v hv := by
  subst e; rfl

/-! ## The blocks a point reads, as parts of the arrays -/

/-- The block index of every window at every point: the three edge windows are at (core, step, 0), the table at
    (0, 0), the output at (core, 0, 0), where point t is step t % 15625 of core t / 15625. The grid runs its last axis
    fastest, so point t has coordinates (t / 15625 % 2, t % 15625); below 2 × 15625 the first is t / 15625, and both are
    far below the 32-bit range the index maps compute in. -/
theorem idx_facts : ∀ t : Fin cfg4.N,
    win4_0.index t (0 : Fin 3) = t.val / 15625 ∧ win4_0.index t (1 : Fin 3) = t.val % 15625 ∧ win4_0.index t (2 : Fin 3) = 0
    ∧ win4_1.index t (0 : Fin 3) = t.val / 15625 ∧ win4_1.index t (1 : Fin 3) = t.val % 15625 ∧ win4_1.index t (2 : Fin 3) = 0
    ∧ win4_2.index t (0 : Fin 3) = t.val / 15625 ∧ win4_2.index t (1 : Fin 3) = t.val % 15625 ∧ win4_2.index t (2 : Fin 3) = 0
    ∧ win4_3.index t (0 : Fin 2) = 0 ∧ win4_3.index t (1 : Fin 2) = 0
    ∧ win4_4.index t (0 : Fin 3) = t.val / 15625 ∧ win4_4.index t (1 : Fin 3) = 0 ∧ win4_4.index t (2 : Fin 3) = 0 := by
  intro t
  have hN : t.val < 31250 := lt_of_lt_of_eq t.isLt N_4
  have s0 : grid4.stride (0 : Fin 2) = 15625 := by decide
  have s1 : grid4.stride (1 : Fin 2) = 1 := by decide
  have c0 : (BitVec.ofNat 32 (t.val / grid4.stride (0 : Fin 2) % 2)).toNat = t.val / 15625 := by
    rw [s0, BitVec.toNat_ofNat]; omega
  have c1 : (BitVec.ofNat 32 (t.val / grid4.stride (1 : Fin 2) % 15625)).toNat = t.val % 15625 := by
    rw [s1, BitVec.toNat_ofNat]; omega
  exact ⟨c0, c1, rfl, c0, c1, rfl, c0, c1, rfl, rfl, rfl, c0, rfl, rfl⟩

/-- At step k of core h, the first window's block is rows 64k .. 64k+63 of half h of its array. -/
theorem xb0_eq (c : Dev nD) (t : Fin cfg4.N) (h : Fin 2) (k : Fin 15625) (ht : t.val = 15625 * h.val + k.val) :
    xb0 V c t = blkI (F := F) (arr0 V c) h k := by
  obtain ⟨e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk4 V c 0 t j = _
  unfold iblk4 blkI
  rw [View.read_apply]
  show V c (Pipeline.arrRef spec4 0) (((cfg4.win 0).blk t).view.emb j) = V c (Pipeline.arrRef spec4 0) _
  refine congrArg (V c (Pipeline.arrRef spec4 0)) (funext fun a => Fin.ext ?_)
  match a with
  | ⟨0, _⟩ => show win4_0.index t (0 : Fin 3) * 1 + 1 * (j 0).val = h.val; omega
  | ⟨1, _⟩ => show win4_0.index t (1 : Fin 3) * 64 + 1 * (j 1).val = 64 * k.val + (j 1).val; omega
  | ⟨2, _⟩ => show win4_0.index t (2 : Fin 3) * 1 + 1 * (j 2).val = 0; omega

/-- The same for the second window. -/
theorem xb1_eq (c : Dev nD) (t : Fin cfg4.N) (h : Fin 2) (k : Fin 15625) (ht : t.val = 15625 * h.val + k.val) :
    xb1 V c t = blkI (F := F) (arr1 V c) h k := by
  obtain ⟨-, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk4 V c 1 t j = _
  unfold iblk4 blkI
  rw [View.read_apply]
  show V c (Pipeline.arrRef spec4 1) (((cfg4.win 1).blk t).view.emb j) = V c (Pipeline.arrRef spec4 1) _
  refine congrArg (V c (Pipeline.arrRef spec4 1)) (funext fun a => Fin.ext ?_)
  match a with
  | ⟨0, _⟩ => show win4_1.index t (0 : Fin 3) * 1 + 1 * (j 0).val = h.val; omega
  | ⟨1, _⟩ => show win4_1.index t (1 : Fin 3) * 64 + 1 * (j 1).val = 64 * k.val + (j 1).val; omega
  | ⟨2, _⟩ => show win4_1.index t (2 : Fin 3) * 1 + 1 * (j 2).val = 0; omega

/-- The same for the third window, of floats. -/
theorem xb2_eq (c : Dev nD) (t : Fin cfg4.N) (h : Fin 2) (k : Fin 15625) (ht : t.val = 15625 * h.val + k.val) :
    xb2 V c t = blkF (arr2 V c) h k := by
  obtain ⟨-, -, -, -, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk4 V c 2 t j = _
  unfold iblk4 blkF
  rw [View.read_apply]
  show V c (Pipeline.arrRef spec4 2) (((cfg4.win 2).blk t).view.emb j) = V c (Pipeline.arrRef spec4 2) _
  refine congrArg (V c (Pipeline.arrRef spec4 2)) (funext fun a => Fin.ext ?_)
  match a with
  | ⟨0, _⟩ => show win4_2.index t (0 : Fin 3) * 1 + 1 * (j 0).val = h.val; omega
  | ⟨1, _⟩ => show win4_2.index t (1 : Fin 3) * 64 + 1 * (j 1).val = 64 * k.val + (j 1).val; omega
  | ⟨2, _⟩ => show win4_2.index t (2 : Fin 3) * 1 + 1 * (j 2).val = 0; omega

/-- The fourth window's block is its whole array at every point. -/
theorem xb3_eq (c : Dev nD) (t : Fin cfg4.N) : xb3 V c t = arr3 V c := by
  obtain ⟨-, -, -, -, -, -, -, -, -, e0, e1, -⟩ := idx_facts t
  refine funext fun (j : S42880x64.Idx) => ?_
  show iblk4 V c 3 t j = _
  unfold iblk4
  rw [View.read_apply]
  show V c (Pipeline.arrRef spec4 3) (((cfg4.win 3).blk t).view.emb j) = V c (Pipeline.arrRef spec4 3) j
  refine congrArg (V c (Pipeline.arrRef spec4 3)) (funext fun a => Fin.ext ?_)
  match a with
  | ⟨0, _⟩ => show win4_3.index t (0 : Fin 2) * 42880 + 1 * (j 0).val = (j 0).val; omega
  | ⟨1, _⟩ => show win4_3.index t (1 : Fin 2) * 64 + 1 * (j 1).val = (j 1).val; omega

end Blocks

/-! ## The accumulation over a core's steps, and the array it is written back to -/

section AtIdeal

variable (V : (c : Dev nD) → (b : Ref sig .tc) → Buf (Elt Ideal) ((c : Thread nD τ).loc b))

/-- After step k of core h the staging buffer holds, at (0, n, d), the sum of the addends of steps 0 .. k:
    the first step adds to the zero block, every later step to what the step before left. -/
theorem acc_eq (c : Dev nD) (h : Fin 2) (n : Fin 27136) (d : Fin 64) :
    ∀ (k : ℕ) (hk : k < 15625) (hlt : 15625 * h.val + k < cfg4.N),
      (outsAt4 V c (15625 * h.val + k) hlt (ix3 (0 : Fin 1) n d) : EReal)
        = ∑ j ∈ Finset.range (k + 1), term (arr0 V c) (arr1 V c) (arr2 V c) (arr3 V c) h n d j
  | 0, hk, hlt => by
    have h0 : (⟨15625 * h.val + 0, hlt⟩ : Fin cfg4.N).val % 15625 = 0 := by dsimp only; omega
    refine (congrFun (outsAt_A V c ⟨15625 * h.val + 0, hlt⟩ h0) (ix3 (0 : Fin 1) n d)).trans ?_
    rw [pay2_apply, pay1_apply, zero_add, Finset.sum_range_one, term_of_lt _ _ _ _ _ _ _ 0 hk,
      xb0_eq V c ⟨15625 * h.val + 0, hlt⟩ h ⟨0, hk⟩ rfl, xb1_eq V c ⟨15625 * h.val + 0, hlt⟩ h ⟨0, hk⟩ rfl,
      xb2_eq V c ⟨15625 * h.val + 0, hlt⟩ h ⟨0, hk⟩ rfl, xb3_eq V c ⟨15625 * h.val + 0, hlt⟩]
  | k + 1, hk, hlt => by
    have hB : ¬(⟨15625 * h.val + (k + 1), hlt⟩ : Fin cfg4.N).val % 15625 = 0 := by dsimp only; omega
    have hlt' : 15625 * h.val + k < cfg4.N := by omega
    refine (congrFun (outsAt_B V c ⟨15625 * h.val + (k + 1), hlt⟩ hB) (ix3 (0 : Fin 1) n d)).trans ?_
    rw [pay2_apply, outsAt_congr V c _ (15625 * h.val + k) _ hlt' (by dsimp only; omega),
      acc_eq c h n d k (by omega) hlt', Finset.sum_range_succ _ (k + 1), term_of_lt _ _ _ _ _ _ _ (k + 1) hk,
      xb0_eq V c ⟨15625 * h.val + (k + 1), hlt⟩ h ⟨k + 1, hk⟩ rfl, xb1_eq V c ⟨15625 * h.val + (k + 1), hlt⟩ h ⟨k + 1, hk⟩ rfl,
      xb2_eq V c ⟨15625 * h.val + (k + 1), hlt⟩ h ⟨k + 1, hk⟩ rfl, xb3_eq V c ⟨15625 * h.val + (k + 1), hlt⟩]

/-- After a core's last step the staging buffer holds that core's part of the output array. -/
theorem last_eq (c : Dev nD) (t : Fin cfg4.N) (h3 : t.val % 15625 + 1 = 15625) (h : Fin 2) (hh : t.val / 15625 = h.val)
    (n : Fin 27136) (d : Fin 64) :
    (outsAt4 V c t.val t.isLt (ix3 (0 : Fin 1) n d) : EReal)
      = out (arr0 V c) (arr1 V c) (arr2 V c) (arr3 V c) (ix3 h n d) := by
  have e : t.val = 15625 * h.val + t.val % 15625 := by omega
  have hlt : 15625 * h.val + t.val % 15625 < cfg4.N := e ▸ t.isLt
  rw [outsAt_congr V c t.val (15625 * h.val + t.val % 15625) t.isLt hlt e,
    acc_eq V c h n d (t.val % 15625) (by omega) hlt, h3, out_apply]

/-- The region's output array, at its literal type. -/
abbrev result (c : Dev nD) : FVec Ideal S2x27136x64 .f32 := out (arr0 V c) (arr1 V c) (arr2 V c) (arr3 V c)

/-- What a core's last step writes back is that core's block of the output array. -/
theorem flushed_eq (c : Dev nD) (t : Fin cfg4.N) (hf : (cfg4.win 4).flush t = true) :
    (dat4 V c).flushed 4 t = ((cfg4.win 4).blk t).view.read (Elt Ideal) (result V c) := by
  have hN : cfg4.N = 31250 := N_4
  have hlt : t.val < 31250 := lt_of_lt_of_eq t.isLt hN
  have h3 : t.val % 15625 + 1 = 15625 := by have := (flush4_4 t).mp hf; omega
  obtain ⟨-, -, -, -, -, -, -, -, -, -, -, e0, e1, e2⟩ := idx_facts t
  show (cfg4.win 4).cut (grid4.coords t) ((dat4 V c).after 4 t) = _
  rw [after4_4]
  refine funext fun (y : S1x27136x64.Idx) => ?_
  rw [View.read_apply]
  have y0 : (y 0).val < 1 := (y 0).isLt
  have hy : y = ix3 (0 : Fin 1) (y 1) (y 2) := funext fun a => by
    match a with
    | ⟨0, _⟩ => exact Fin.ext (by show (y 0).val = 0; omega)
    | ⟨1, _⟩ => rfl
    | ⟨2, _⟩ => rfl
  show (outsAt4 V c t.val t.isLt y : EReal) = result V c (((cfg4.win 4).blk t).view.emb y)
  refine (congrArg (fun z : S1x27136x64.Idx => (outsAt4 V c t.val t.isLt z : EReal)) hy).trans ?_
  refine (last_eq V c t h3 ⟨t.val / 15625, by omega⟩ rfl (y 1) (y 2)).trans (congrArg (result V c) (funext fun a => Fin.ext ?_))
  match a with
  | ⟨0, _⟩ => show t.val / 15625 = win4_4.index t (0 : Fin 3) * 1 + 1 * (y 0).val; omega
  | ⟨1, _⟩ => show (y 1).val = win4_4.index t (1 : Fin 3) * 27136 + 1 * (y 1).val; omega
  | ⟨2, _⟩ => show (y 2).val = win4_4.index t (2 : Fin 3) * 64 + 1 * (y 2).val; omega

/-- THE REGION'S VALUE: after the run the output array holds, at (h, n, d), the sum over core h's 15625 steps of
    what each step adds at (n, d): every entry lies in the block its core's last step writes back. -/
theorem value (V : (c : Dev nD) → (b : Ref sig .tc) → Buf (Elt Ideal) ((c : Thread nD τ).loc b)) (c : Dev nD) :
    (Gen.dat4 (F := Ideal) V c).arrAt 4 cfg4.N
      = out (V c (Pipeline.arrRef spec4 0)) (V c (Pipeline.arrRef spec4 1)) (V c (Pipeline.arrRef spec4 2)) (V c (Pipeline.arrRef spec4 3)) :=
  (dat4 V c).arrAt_eq_of_cover 4 (result V c) (fun t hf => flushed_eq V c t hf) fun (i : S2x27136x64.Idx) => by
    have hN : cfg4.N = 31250 := N_4
    have i0 : (i 0).val < 2 := (i 0).isLt
    have i1 : (i 1).val < 27136 := (i 1).isLt
    have i2 : (i 2).val < 64 := (i 2).isLt
    have hlt : 15625 * (i 0).val + (15625 - 1) < cfg4.N := lt_of_lt_of_eq (by omega) hN.symm
    obtain ⟨-, -, -, -, -, -, -, -, -, -, -, e0, e1, e2⟩ := idx_facts ⟨15625 * (i 0).val + (15625 - 1), hlt⟩
    refine ⟨⟨15625 * (i 0).val + (15625 - 1), hlt⟩, (flush4_4 _).mpr (by dsimp only; omega), ?_⟩
    show i ∈ ((View.whole main_v150).slice (win4_4.rect ⟨15625 * (i 0).val + (15625 - 1), hlt⟩)).set
    rw [View.set_slice_whole, Rect.mem_set_unit]
    intro a
    match a with
    | ⟨0, _⟩ =>
      show win4_4.index ⟨15625 * (i 0).val + (15625 - 1), hlt⟩ (0 : Fin 3) * 1 ≤ (i 0).val
        ∧ (i 0).val < win4_4.index ⟨15625 * (i 0).val + (15625 - 1), hlt⟩ (0 : Fin 3) * 1 + 1
      rw [e0]; dsimp only; omega
    | ⟨1, _⟩ =>
      show win4_4.index ⟨15625 * (i 0).val + (15625 - 1), hlt⟩ (1 : Fin 3) * 27136 ≤ (i 1).val
        ∧ (i 1).val < win4_4.index ⟨15625 * (i 0).val + (15625 - 1), hlt⟩ (1 : Fin 3) * 27136 + 27136
      rw [e1]; omega
    | ⟨2, _⟩ =>
      show win4_4.index ⟨15625 * (i 0).val + (15625 - 1), hlt⟩ (2 : Fin 3) * 64 ≤ (i 2).val
        ∧ (i 2).val < win4_4.index ⟨15625 * (i 0).val + (15625 - 1), hlt⟩ (2 : Fin 3) * 64 + 64
      rw [e2]; omega

end AtIdeal

end Cert.KernelIdeal.Reg4

end
-- ==== Proof.Reg5.lean ====
/-
  The value of aggregation region 5 of the idealized kernel program.

  The region runs its body at 2 × 15625 grid points, point t being step t % 15625 of core t / 15625. Its output window's
  block, [1, 42880, 64], is indexed by the core alone, so it stays in its staging buffer across a core's 15625 steps: the
  first step stores the zero block and then its update, every later step stores the update of what the step before
  left, and the block is written back to rows [core, :, :] of the output array after the core's last step. The update
  adds to the block what the step's 64 edges contribute: the gather of the node table's rows by the first one-hot
  product, scaled, scattered onto the 42880 destination rows by the second. Over the extended reals the block after
  step k is therefore the sum of the addends of steps 0 .. k (0 + x = x), and the output array ends holding, at
  (core, n, d), the sum over that core's 15625 steps of each step's addend at (n, d), the steps' blocks being rows
  64k .. 64k+63 of the core's half of the three padded edge arrays and the whole node table.
-/
import proofs.«400075_j26585847562450_2_alg».proof.Proof.RegDefs
import proofs.«400075_j26585847562450_2_alg».proof.Proof.KIF5
import Idealize.ShloMosaic.Lib.Pipeline.Value
import Idealize.ShloMosaic.Lib.Tactic
import Idealize.ShloMosaic.PureOps.Ideal.Laws
import Mathlib.Algebra.BigOperators.Fin

set_option maxRecDepth 65536

noncomputable section

open Idealize.ShloMosaic Idealize.ShloMosaic.TcCoe Idealize.SL.Sem
open Idealize.ShloMosaic.Pipeline (Dat)

namespace Cert.KernelIdeal.Reg5

open Cert.KernelIdeal Cert.KernelIdeal.Gen Idealize.ShloMosaic.ValueIdx

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## One grid point's update of the accumulator block, entry by entry -/

/-- The update a grid point stores: the accumulator block plus what the point adds, under the two changes of
    shape between the block [1, 42880, 64] and the matrix [42880, 64]. -/
theorem pay2_eq (x0 x1 : Vec F S1x64x1 .i32) (x2 : Vec F S1x64x1 .f32) (x3 : Vec F S27136x64 .bf16)
    (acc : Vec F S1x42880x64 .f32) :
    k5_pay2 x0 x1 x2 x3 acc
      = shapeCast S1x42880x64 (addf (shapeCast S42880x64 acc shapeCasts_S1x42880x64_S42880x64) (contrib x0 x1 x2 x3))
          shapeCasts_S42880x64_S1x42880x64 := rfl

/-- Over the extended reals, entry (0, n, d) of the stored update is the accumulator's entry plus the point's addend. -/
theorem pay2_apply (x0 x1 : Vec Ideal S1x64x1 .i32) (x2 : Vec Ideal S1x64x1 .f32) (x3 : Vec Ideal S27136x64 .bf16)
    (acc : Vec Ideal S1x42880x64 .f32) (n : Fin 42880) (d : Fin 64) :
    k5_pay2 (F := Ideal) x0 x1 x2 x3 acc (ix3 (0 : Fin 1) n d)
      = (acc (ix3 (0 : Fin 1) n d) : EReal) + (contrib (F := Ideal) x0 x1 x2 x3 (ix2 n d) : EReal) := by
  rw [pay2_eq]
  refine (shapeCast_addUnit_apply ![42880, 64] _ shapeCasts_S42880x64_S1x42880x64 (ix3 (0 : Fin 1) n d)).trans ?_
  have e2 : (fun a : Fin 2 => (ix3 (0 : Fin 1) n d : S1x42880x64.Idx) a.succ) = (ix2 n d : S42880x64.Idx) :=
    funext fun a => by match a with | ⟨0, _⟩ => rfl | ⟨1, _⟩ => rfl
  rw [e2]
  show (shapeCast S42880x64 acc shapeCasts_S1x42880x64_S42880x64 (ix2 n d) : EReal) + _ = _
  refine congrArg (· + (contrib (F := Ideal) x0 x1 x2 x3 (ix2 n d) : EReal)) ?_
  refine (shapeCast_dropUnit_apply ![42880, 64] acc shapeCasts_S1x42880x64_S42880x64 (ix2 n d)).trans ?_
  refine congrArg acc ?_
  funext a
  match a with
  | ⟨0, _⟩ => rfl
  | ⟨1, _⟩ => rfl
  | ⟨2, _⟩ => rfl

/-- The block a core's first point stores before its update is zero everywhere. -/
theorem pay1_apply (n : Fin 42880) (d : Fin 64) :
    (k5_pay1 (F := Ideal) (ix3 (0 : Fin 1) n d) : EReal) = 0 := by
  unfold k5_pay1
  refine (shapeCast_addUnit_apply ![42880, 64] _ shapeCasts_S42880x64_S1x42880x64 (ix3 (0 : Fin 1) n d)).trans ?_
  show (Ideal.ofBits .f32 0x00000000#32 : EReal) = 0
  exact Ideal.ofBits_zero_f32

/-! ## The output array as a sum over a core's steps -/

/-- What step j of core h adds at entry (n, d); zero for a step number past the core's last step. -/
def term (A0 A1 : IVec S2x1000000x1 32) (A2 : FVec Ideal S2x1000000x1 .f32) (A3 : FVec Ideal S27136x64 .bf16)
    (h : Fin 2) (n : Fin 42880) (d : Fin 64) (j : ℕ) : EReal :=
  if hj : j < 15625 then
    (contrib (F := Ideal) (blkI (F := Ideal) A0 h ⟨j, hj⟩) (blkI (F := Ideal) A1 h ⟨j, hj⟩) (blkF A2 h ⟨j, hj⟩) A3 (ix2 n d) : EReal)
  else 0

theorem term_of_lt (A0 A1 : IVec S2x1000000x1 32) (A2 : FVec Ideal S2x1000000x1 .f32) (A3 : FVec Ideal S27136x64 .bf16)
    (h : Fin 2) (n : Fin 42880) (d : Fin 64) (j : ℕ) (hj : j < 15625) :
    term A0 A1 A2 A3 h n d j
      = (contrib (F := Ideal) (blkI (F := Ideal) A0 h ⟨j, hj⟩) (blkI (F := Ideal) A1 h ⟨j, hj⟩) (blkF A2 h ⟨j, hj⟩) A3 (ix2 n d) : EReal) :=
  dif_pos hj

/-- Entry (h, n, d) of the output array is the sum of the addends of core h's 15625 steps. -/
theorem out_apply (A0 A1 : IVec S2x1000000x1 32) (A2 : FVec Ideal S2x1000000x1 .f32) (A3 : FVec Ideal S27136x64 .bf16)
    (h : Fin 2) (n : Fin 42880) (d : Fin 64) :
    (out A0 A1 A2 A3 (ix3 h n d) : EReal) = ∑ j ∈ Finset.range 15625, term A0 A1 A2 A3 h n d j := by
  rw [Finset.sum_range]
  exact Finset.sum_congr rfl fun k _ => (term_of_lt A0 A1 A2 A3 h n d k.val k.isLt).symm

/-! ## What each case of the body leaves in the output's staging buffer -/

/-- At a point that is not a core's first, the body leaves the update of what the buffer held. -/
theorem out_B (c : Dev nD) (i : grid5.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S27136x64 .bf16) (h5 : a5.IsWhole)
    (a6 : Memref sig .tc .vmem S1x42880x64 .f32) (h6 : a6.IsWhole) (hc : ¬cond5_0 i)
    (x0 x1 : Vec F S1x64x1 .i32) (x2 : Vec F S1x64x1 .f32) (x3 : Vec F S27136x64 .bf16) (xo : Vec F S1x42880x64 .f32) :
    out5_B_4 c i a2 h2 a3 h3 a4 h4 a5 h5 a6 h6 hc x0 x1 x2 x3 xo = k5_pay2 x0 x1 x2 x3 xo := by
  unfold out5_B_4
  rw [View.read_writes_eq_canon _ _ _ (cover5_B_4 c i a2 h2 a3 h3 a4 h4 a5 h5 a6 h6 hc x0 x1 x2 x3 xo)]
  unfold kernelRun5_B
  dsimp only
  sl_unfold_words
  rw [View.canon_unit_zero hz3]
  simp only [View.readAt_eq_ld, h2.read_unread, h3.read_unread, h4.read_unread, h5.read_unread, h6.read_unread,
    View.ld_unit_zero (S := S1x64x1) hz3, View.ld_unit_zero (S := S27136x64) hz2, View.ld_unit_zero (S := S1x42880x64) hz3]

/-- At a core's first point, the body stores the zero block, reads it back, and leaves its update. -/
theorem out_A (c : Dev nD) (i : grid5.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S27136x64 .bf16) (h5 : a5.IsWhole)
    (a6 : Memref sig .tc .vmem S1x42880x64 .f32) (h6 : a6.IsWhole) (hc : cond5_0 i)
    (x0 x1 : Vec F S1x64x1 .i32) (x2 : Vec F S1x64x1 .f32) (x3 : Vec F S27136x64 .bf16) :
    out5_A_4 c i a2 h2 a3 h3 a4 h4 a5 h5 a6 h6 hc x0 x1 x2 x3 = k5_pay2 x0 x1 x2 x3 k5_pay1 := by
  unfold out5_A_4
  rw [View.read_writes_eq_canon _ _ _ (cover5_A_4 c i a2 h2 a3 h3 a4 h4 a5 h5 a6 h6 hc x0 x1 x2 x3)]
  unfold kernelRun5_A
  dsimp only
  sl_unfold_words
  rw [View.canon_cons_unit_zero (S := S1x42880x64) hz3, View.readCov_unit_zero (S := S1x42880x64) _ hz3]
  simp only [View.readAt_eq_ld, h2.read_unread, h3.read_unread, h4.read_unread, h5.read_unread,
    View.ld_unit_zero (S := S1x64x1) hz3, View.ld_unit_zero (S := S27136x64) hz2, View.ld_unit_zero (S := S1x42880x64) hz3]

section Blocks

variable (V : (c : Dev nD) → (b : Ref sig .tc) → Buf (Elt F) ((c : Thread nD τ).loc b))

/-- The arrays of the region's four operands, as the region finds them, at their literal types. -/
abbrev arr0 (c : Dev nD) : IVec S2x1000000x1 32 := V c (Pipeline.arrRef spec5 0)
abbrev arr1 (c : Dev nD) : IVec S2x1000000x1 32 := V c (Pipeline.arrRef spec5 1)
abbrev arr2 (c : Dev nD) : FVec F S2x1000000x1 .f32 := V c (Pipeline.arrRef spec5 2)
abbrev arr3 (c : Dev nD) : FVec F S27136x64 .bf16 := V c (Pipeline.arrRef spec5 3)

/-- The four blocks the body reads at point t, at their literal types. -/
abbrev xb0 (c : Dev nD) (t : Fin cfg5.N) : Vec F S1x64x1 .i32 := iblk5 V c 0 t
abbrev xb1 (c : Dev nD) (t : Fin cfg5.N) : Vec F S1x64x1 .i32 := iblk5 V c 1 t
abbrev xb2 (c : Dev nD) (t : Fin cfg5.N) : Vec F S1x64x1 .f32 := iblk5 V c 2 t
abbrev xb3 (c : Dev nD) (t : Fin cfg5.N) : Vec F S27136x64 .bf16 := iblk5 V c 3 t

/-- The staging buffer after a core's first point: the update of the zero block by that point's blocks. -/
theorem outsAt_A (c : Dev nD) (t : Fin cfg5.N) (h0 : t.val % 15625 = 0) :
    outsAt5 V c t.val t.isLt = k5_pay2 (xb0 V c t) (xb1 V c t) (xb2 V c t) (xb3 V c t) k5_pay1 :=
  (outsAt5_A V c t h0).trans
    (out_A c (grid5.coords t) (ms5_0 t) (hs5_0 t) (ms5_1 t) (hs5_1 t) (ms5_2 t) (hs5_2 t) (ms5_3 t) (hs5_3 t) (ms5_4 t) (hs5_4 t) ((hcond5_0 t).mpr h0)
      (xb0 V c t) (xb1 V c t) (xb2 V c t) (xb3 V c t))

/-- The staging buffer after any other point: the update, by that point's blocks, of what the point before left. -/
theorem outsAt_B (c : Dev nD) (t : Fin cfg5.N) (h0 : ¬t.val % 15625 = 0) :
    outsAt5 V c t.val t.isLt
      = k5_pay2 (xb0 V c t) (xb1 V c t) (xb2 V c t) (xb3 V c t)
          (outsAt5 V c (t.val - 1) (Nat.lt_of_le_of_lt (Nat.sub_le _ _) t.isLt)) :=
  (outsAt5_B V c t h0).trans
    (out_B c (grid5.coords t) (ms5_0 t) (hs5_0 t) (ms5_1 t) (hs5_1 t) (ms5_2 t) (hs5_2 t) (ms5_3 t) (hs5_3 t) (ms5_4 t) (hs5_4 t) (fun h => h0 ((hcond5_0 t).mp h))
      (xb0 V c t) (xb1 V c t) (xb2 V c t) (xb3 V c t)
      (outsAt5 V c (t.val - 1) (Nat.lt_of_le_of_lt (Nat.sub_le _ _) t.isLt)))

/-- The staging buffer's contents depend on the point's number only. -/
theorem outsAt_congr (c : Dev nD) (u v : ℕ) (hu : u < cfg5.N) (hv : v < cfg5.N) (e : u = v) :
    outsAt5 V c u hu = outsAt5 V c v hv := by
  subst e; rfl

/-! ## The blocks a point reads, as parts of the arrays -/

/-- The block index of every window at every point: the three edge windows are at (core, step, 0), the table at
    (0, 0), the output at (core, 0, 0), where point t is step t % 15625 of core t / 15625. The grid runs its last axis
    fastest, so point t has coordinates (t / 15625 % 2, t % 15625); below 2 × 15625 the first is t / 15625, and both are
    far below the 32-bit range the index maps compute in. -/
theorem idx_facts : ∀ t : Fin cfg5.N,
    win5_0.index t (0 : Fin 3) = t.val / 15625 ∧ win5_0.index t (1 : Fin 3) = t.val % 15625 ∧ win5_0.index t (2 : Fin 3) = 0
    ∧ win5_1.index t (0 : Fin 3) = t.val / 15625 ∧ win5_1.index t (1 : Fin 3) = t.val % 15625 ∧ win5_1.index t (2 : Fin 3) = 0
    ∧ win5_2.index t (0 : Fin 3) = t.val / 15625 ∧ win5_2.index t (1 : Fin 3) = t.val % 15625 ∧ win5_2.index t (2 : Fin 3) = 0
    ∧ win5_3.index t (0 : Fin 2) = 0 ∧ win5_3.index t (1 : Fin 2) = 0
    ∧ win5_4.index t (0 : Fin 3) = t.val / 15625 ∧ win5_4.index t (1 : Fin 3) = 0 ∧ win5_4.index t (2 : Fin 3) = 0 := by
  intro t
  have hN : t.val < 31250 := lt_of_lt_of_eq t.isLt N_5
  have s0 : grid5.stride (0 : Fin 2) = 15625 := by decide
  have s1 : grid5.stride (1 : Fin 2) = 1 := by decide
  have c0 : (BitVec.ofNat 32 (t.val / grid5.stride (0 : Fin 2) % 2)).toNat = t.val / 15625 := by
    rw [s0, BitVec.toNat_ofNat]; omega
  have c1 : (BitVec.ofNat 32 (t.val / grid5.stride (1 : Fin 2) % 15625)).toNat = t.val % 15625 := by
    rw [s1, BitVec.toNat_ofNat]; omega
  exact ⟨c0, c1, rfl, c0, c1, rfl, c0, c1, rfl, rfl, rfl, c0, rfl, rfl⟩

/-- At step k of core h, the first window's block is rows 64k .. 64k+63 of half h of its array. -/
theorem xb0_eq (c : Dev nD) (t : Fin cfg5.N) (h : Fin 2) (k : Fin 15625) (ht : t.val = 15625 * h.val + k.val) :
    xb0 V c t = blkI (F := F) (arr0 V c) h k := by
  obtain ⟨e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk5 V c 0 t j = _
  unfold iblk5 blkI
  rw [View.read_apply]
  show V c (Pipeline.arrRef spec5 0) (((cfg5.win 0).blk t).view.emb j) = V c (Pipeline.arrRef spec5 0) _
  refine congrArg (V c (Pipeline.arrRef spec5 0)) (funext fun a => Fin.ext ?_)
  match a with
  | ⟨0, _⟩ => show win5_0.index t (0 : Fin 3) * 1 + 1 * (j 0).val = h.val; omega
  | ⟨1, _⟩ => show win5_0.index t (1 : Fin 3) * 64 + 1 * (j 1).val = 64 * k.val + (j 1).val; omega
  | ⟨2, _⟩ => show win5_0.index t (2 : Fin 3) * 1 + 1 * (j 2).val = 0; omega

/-- The same for the second window. -/
theorem xb1_eq (c : Dev nD) (t : Fin cfg5.N) (h : Fin 2) (k : Fin 15625) (ht : t.val = 15625 * h.val + k.val) :
    xb1 V c t = blkI (F := F) (arr1 V c) h k := by
  obtain ⟨-, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk5 V c 1 t j = _
  unfold iblk5 blkI
  rw [View.read_apply]
  show V c (Pipeline.arrRef spec5 1) (((cfg5.win 1).blk t).view.emb j) = V c (Pipeline.arrRef spec5 1) _
  refine congrArg (V c (Pipeline.arrRef spec5 1)) (funext fun a => Fin.ext ?_)
  match a with
  | ⟨0, _⟩ => show win5_1.index t (0 : Fin 3) * 1 + 1 * (j 0).val = h.val; omega
  | ⟨1, _⟩ => show win5_1.index t (1 : Fin 3) * 64 + 1 * (j 1).val = 64 * k.val + (j 1).val; omega
  | ⟨2, _⟩ => show win5_1.index t (2 : Fin 3) * 1 + 1 * (j 2).val = 0; omega

/-- The same for the third window, of floats. -/
theorem xb2_eq (c : Dev nD) (t : Fin cfg5.N) (h : Fin 2) (k : Fin 15625) (ht : t.val = 15625 * h.val + k.val) :
    xb2 V c t = blkF (arr2 V c) h k := by
  obtain ⟨-, -, -, -, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk5 V c 2 t j = _
  unfold iblk5 blkF
  rw [View.read_apply]
  show V c (Pipeline.arrRef spec5 2) (((cfg5.win 2).blk t).view.emb j) = V c (Pipeline.arrRef spec5 2) _
  refine congrArg (V c (Pipeline.arrRef spec5 2)) (funext fun a => Fin.ext ?_)
  match a with
  | ⟨0, _⟩ => show win5_2.index t (0 : Fin 3) * 1 + 1 * (j 0).val = h.val; omega
  | ⟨1, _⟩ => show win5_2.index t (1 : Fin 3) * 64 + 1 * (j 1).val = 64 * k.val + (j 1).val; omega
  | ⟨2, _⟩ => show win5_2.index t (2 : Fin 3) * 1 + 1 * (j 2).val = 0; omega

/-- The fourth window's block is its whole array at every point. -/
theorem xb3_eq (c : Dev nD) (t : Fin cfg5.N) : xb3 V c t = arr3 V c := by
  obtain ⟨-, -, -, -, -, -, -, -, -, e0, e1, -⟩ := idx_facts t
  refine funext fun (j : S27136x64.Idx) => ?_
  show iblk5 V c 3 t j = _
  unfold iblk5
  rw [View.read_apply]
  show V c (Pipeline.arrRef spec5 3) (((cfg5.win 3).blk t).view.emb j) = V c (Pipeline.arrRef spec5 3) j
  refine congrArg (V c (Pipeline.arrRef spec5 3)) (funext fun a => Fin.ext ?_)
  match a with
  | ⟨0, _⟩ => show win5_3.index t (0 : Fin 2) * 27136 + 1 * (j 0).val = (j 0).val; omega
  | ⟨1, _⟩ => show win5_3.index t (1 : Fin 2) * 64 + 1 * (j 1).val = (j 1).val; omega

end Blocks

/-! ## The accumulation over a core's steps, and the array it is written back to -/

section AtIdeal

variable (V : (c : Dev nD) → (b : Ref sig .tc) → Buf (Elt Ideal) ((c : Thread nD τ).loc b))

/-- After step k of core h the staging buffer holds, at (0, n, d), the sum of the addends of steps 0 .. k:
    the first step adds to the zero block, every later step to what the step before left. -/
theorem acc_eq (c : Dev nD) (h : Fin 2) (n : Fin 42880) (d : Fin 64) :
    ∀ (k : ℕ) (hk : k < 15625) (hlt : 15625 * h.val + k < cfg5.N),
      (outsAt5 V c (15625 * h.val + k) hlt (ix3 (0 : Fin 1) n d) : EReal)
        = ∑ j ∈ Finset.range (k + 1), term (arr0 V c) (arr1 V c) (arr2 V c) (arr3 V c) h n d j
  | 0, hk, hlt => by
    have h0 : (⟨15625 * h.val + 0, hlt⟩ : Fin cfg5.N).val % 15625 = 0 := by dsimp only; omega
    refine (congrFun (outsAt_A V c ⟨15625 * h.val + 0, hlt⟩ h0) (ix3 (0 : Fin 1) n d)).trans ?_
    rw [pay2_apply, pay1_apply, zero_add, Finset.sum_range_one, term_of_lt _ _ _ _ _ _ _ 0 hk,
      xb0_eq V c ⟨15625 * h.val + 0, hlt⟩ h ⟨0, hk⟩ rfl, xb1_eq V c ⟨15625 * h.val + 0, hlt⟩ h ⟨0, hk⟩ rfl,
      xb2_eq V c ⟨15625 * h.val + 0, hlt⟩ h ⟨0, hk⟩ rfl, xb3_eq V c ⟨15625 * h.val + 0, hlt⟩]
  | k + 1, hk, hlt => by
    have hB : ¬(⟨15625 * h.val + (k + 1), hlt⟩ : Fin cfg5.N).val % 15625 = 0 := by dsimp only; omega
    have hlt' : 15625 * h.val + k < cfg5.N := by omega
    refine (congrFun (outsAt_B V c ⟨15625 * h.val + (k + 1), hlt⟩ hB) (ix3 (0 : Fin 1) n d)).trans ?_
    rw [pay2_apply, outsAt_congr V c _ (15625 * h.val + k) _ hlt' (by dsimp only; omega),
      acc_eq c h n d k (by omega) hlt', Finset.sum_range_succ _ (k + 1), term_of_lt _ _ _ _ _ _ _ (k + 1) hk,
      xb0_eq V c ⟨15625 * h.val + (k + 1), hlt⟩ h ⟨k + 1, hk⟩ rfl, xb1_eq V c ⟨15625 * h.val + (k + 1), hlt⟩ h ⟨k + 1, hk⟩ rfl,
      xb2_eq V c ⟨15625 * h.val + (k + 1), hlt⟩ h ⟨k + 1, hk⟩ rfl, xb3_eq V c ⟨15625 * h.val + (k + 1), hlt⟩]

/-- After a core's last step the staging buffer holds that core's part of the output array. -/
theorem last_eq (c : Dev nD) (t : Fin cfg5.N) (h3 : t.val % 15625 + 1 = 15625) (h : Fin 2) (hh : t.val / 15625 = h.val)
    (n : Fin 42880) (d : Fin 64) :
    (outsAt5 V c t.val t.isLt (ix3 (0 : Fin 1) n d) : EReal)
      = out (arr0 V c) (arr1 V c) (arr2 V c) (arr3 V c) (ix3 h n d) := by
  have e : t.val = 15625 * h.val + t.val % 15625 := by omega
  have hlt : 15625 * h.val + t.val % 15625 < cfg5.N := e ▸ t.isLt
  rw [outsAt_congr V c t.val (15625 * h.val + t.val % 15625) t.isLt hlt e,
    acc_eq V c h n d (t.val % 15625) (by omega) hlt, h3, out_apply]

/-- The region's output array, at its literal type. -/
abbrev result (c : Dev nD) : FVec Ideal S2x42880x64 .f32 := out (arr0 V c) (arr1 V c) (arr2 V c) (arr3 V c)

/-- What a core's last step writes back is that core's block of the output array. -/
theorem flushed_eq (c : Dev nD) (t : Fin cfg5.N) (hf : (cfg5.win 4).flush t = true) :
    (dat5 V c).flushed 4 t = ((cfg5.win 4).blk t).view.read (Elt Ideal) (result V c) := by
  have hN : cfg5.N = 31250 := N_5
  have hlt : t.val < 31250 := lt_of_lt_of_eq t.isLt hN
  have h3 : t.val % 15625 + 1 = 15625 := by have := (flush5_4 t).mp hf; omega
  obtain ⟨-, -, -, -, -, -, -, -, -, -, -, e0, e1, e2⟩ := idx_facts t
  show (cfg5.win 4).cut (grid5.coords t) ((dat5 V c).after 4 t) = _
  rw [after5_4]
  refine funext fun (y : S1x42880x64.Idx) => ?_
  rw [View.read_apply]
  have y0 : (y 0).val < 1 := (y 0).isLt
  have hy : y = ix3 (0 : Fin 1) (y 1) (y 2) := funext fun a => by
    match a with
    | ⟨0, _⟩ => exact Fin.ext (by show (y 0).val = 0; omega)
    | ⟨1, _⟩ => rfl
    | ⟨2, _⟩ => rfl
  show (outsAt5 V c t.val t.isLt y : EReal) = result V c (((cfg5.win 4).blk t).view.emb y)
  refine (congrArg (fun z : S1x42880x64.Idx => (outsAt5 V c t.val t.isLt z : EReal)) hy).trans ?_
  refine (last_eq V c t h3 ⟨t.val / 15625, by omega⟩ rfl (y 1) (y 2)).trans (congrArg (result V c) (funext fun a => Fin.ext ?_))
  match a with
  | ⟨0, _⟩ => show t.val / 15625 = win5_4.index t (0 : Fin 3) * 1 + 1 * (y 0).val; omega
  | ⟨1, _⟩ => show (y 1).val = win5_4.index t (1 : Fin 3) * 42880 + 1 * (y 1).val; omega
  | ⟨2, _⟩ => show (y 2).val = win5_4.index t (2 : Fin 3) * 64 + 1 * (y 2).val; omega

/-- THE REGION'S VALUE: after the run the output array holds, at (h, n, d), the sum over core h's 15625 steps of
    what each step adds at (n, d): every entry lies in the block its core's last step writes back. -/
theorem value (V : (c : Dev nD) → (b : Ref sig .tc) → Buf (Elt Ideal) ((c : Thread nD τ).loc b)) (c : Dev nD) :
    (Gen.dat5 (F := Ideal) V c).arrAt 4 cfg5.N
      = out (V c (Pipeline.arrRef spec5 0)) (V c (Pipeline.arrRef spec5 1)) (V c (Pipeline.arrRef spec5 2)) (V c (Pipeline.arrRef spec5 3)) :=
  (dat5 V c).arrAt_eq_of_cover 4 (result V c) (fun t hf => flushed_eq V c t hf) fun (i : S2x42880x64.Idx) => by
    have hN : cfg5.N = 31250 := N_5
    have i0 : (i 0).val < 2 := (i 0).isLt
    have i1 : (i 1).val < 42880 := (i 1).isLt
    have i2 : (i 2).val < 64 := (i 2).isLt
    have hlt : 15625 * (i 0).val + (15625 - 1) < cfg5.N := lt_of_lt_of_eq (by omega) hN.symm
    obtain ⟨-, -, -, -, -, -, -, -, -, -, -, e0, e1, e2⟩ := idx_facts ⟨15625 * (i 0).val + (15625 - 1), hlt⟩
    refine ⟨⟨15625 * (i 0).val + (15625 - 1), hlt⟩, (flush5_4 _).mpr (by dsimp only; omega), ?_⟩
    show i ∈ ((View.whole main_v165).slice (win5_4.rect ⟨15625 * (i 0).val + (15625 - 1), hlt⟩)).set
    rw [View.set_slice_whole, Rect.mem_set_unit]
    intro a
    match a with
    | ⟨0, _⟩ =>
      show win5_4.index ⟨15625 * (i 0).val + (15625 - 1), hlt⟩ (0 : Fin 3) * 1 ≤ (i 0).val
        ∧ (i 0).val < win5_4.index ⟨15625 * (i 0).val + (15625 - 1), hlt⟩ (0 : Fin 3) * 1 + 1
      rw [e0]; dsimp only; omega
    | ⟨1, _⟩ =>
      show win5_4.index ⟨15625 * (i 0).val + (15625 - 1), hlt⟩ (1 : Fin 3) * 42880 ≤ (i 1).val
        ∧ (i 1).val < win5_4.index ⟨15625 * (i 0).val + (15625 - 1), hlt⟩ (1 : Fin 3) * 42880 + 42880
      rw [e1]; omega
    | ⟨2, _⟩ =>
      show win5_4.index ⟨15625 * (i 0).val + (15625 - 1), hlt⟩ (2 : Fin 3) * 64 ≤ (i 2).val
        ∧ (i 2).val < win5_4.index ⟨15625 * (i 0).val + (15625 - 1), hlt⟩ (2 : Fin 3) * 64 + 64
      rw [e2]; omega

end AtIdeal

end Cert.KernelIdeal.Reg5

end
-- ==== Proof.Reg6.lean ====
/-
  The value of aggregation region 6 of the idealized kernel program.

  The region runs its body at 2 × 15625 grid points, point t being step t % 15625 of core t / 15625. Its output window's
  block, [1, 27136, 64], is indexed by the core alone, so it stays in its staging buffer across a core's 15625 steps: the
  first step stores the zero block and then its update, every later step stores the update of what the step before
  left, and the block is written back to rows [core, :, :] of the output array after the core's last step. The update
  adds to the block what the step's 64 edges contribute: the gather of the node table's rows by the first one-hot
  product, scaled, scattered onto the 27136 destination rows by the second. Over the extended reals the block after
  step k is therefore the sum of the addends of steps 0 .. k (0 + x = x), and the output array ends holding, at
  (core, n, d), the sum over that core's 15625 steps of each step's addend at (n, d), the steps' blocks being rows
  64k .. 64k+63 of the core's half of the three padded edge arrays and the whole node table.
-/
import proofs.«400075_j26585847562450_2_alg».proof.Proof.RegDefs
import proofs.«400075_j26585847562450_2_alg».proof.Proof.KIF6
import Idealize.ShloMosaic.Lib.Pipeline.Value
import Idealize.ShloMosaic.Lib.Tactic
import Idealize.ShloMosaic.PureOps.Ideal.Laws
import Mathlib.Algebra.BigOperators.Fin

set_option maxRecDepth 65536

noncomputable section

open Idealize.ShloMosaic Idealize.ShloMosaic.TcCoe Idealize.SL.Sem
open Idealize.ShloMosaic.Pipeline (Dat)

namespace Cert.KernelIdeal.Reg6

open Cert.KernelIdeal Cert.KernelIdeal.Gen Idealize.ShloMosaic.ValueIdx

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## One grid point's update of the accumulator block, entry by entry -/

/-- The update a grid point stores: the accumulator block plus what the point adds, under the two changes of
    shape between the block [1, 27136, 64] and the matrix [27136, 64]. -/
theorem pay2_eq (x0 x1 : Vec F S1x64x1 .i32) (x2 : Vec F S1x64x1 .f32) (x3 : Vec F S42880x64 .bf16)
    (acc : Vec F S1x27136x64 .f32) :
    k6_pay2 x0 x1 x2 x3 acc
      = shapeCast S1x27136x64 (addf (shapeCast S27136x64 acc shapeCasts_S1x27136x64_S27136x64) (contrib x0 x1 x2 x3))
          shapeCasts_S27136x64_S1x27136x64 := rfl

/-- Over the extended reals, entry (0, n, d) of the stored update is the accumulator's entry plus the point's addend. -/
theorem pay2_apply (x0 x1 : Vec Ideal S1x64x1 .i32) (x2 : Vec Ideal S1x64x1 .f32) (x3 : Vec Ideal S42880x64 .bf16)
    (acc : Vec Ideal S1x27136x64 .f32) (n : Fin 27136) (d : Fin 64) :
    k6_pay2 (F := Ideal) x0 x1 x2 x3 acc (ix3 (0 : Fin 1) n d)
      = (acc (ix3 (0 : Fin 1) n d) : EReal) + (contrib (F := Ideal) x0 x1 x2 x3 (ix2 n d) : EReal) := by
  rw [pay2_eq]
  refine (shapeCast_addUnit_apply ![27136, 64] _ shapeCasts_S27136x64_S1x27136x64 (ix3 (0 : Fin 1) n d)).trans ?_
  have e2 : (fun a : Fin 2 => (ix3 (0 : Fin 1) n d : S1x27136x64.Idx) a.succ) = (ix2 n d : S27136x64.Idx) :=
    funext fun a => by match a with | ⟨0, _⟩ => rfl | ⟨1, _⟩ => rfl
  rw [e2]
  show (shapeCast S27136x64 acc shapeCasts_S1x27136x64_S27136x64 (ix2 n d) : EReal) + _ = _
  refine congrArg (· + (contrib (F := Ideal) x0 x1 x2 x3 (ix2 n d) : EReal)) ?_
  refine (shapeCast_dropUnit_apply ![27136, 64] acc shapeCasts_S1x27136x64_S27136x64 (ix2 n d)).trans ?_
  refine congrArg acc ?_
  funext a
  match a with
  | ⟨0, _⟩ => rfl
  | ⟨1, _⟩ => rfl
  | ⟨2, _⟩ => rfl

/-- The block a core's first point stores before its update is zero everywhere. -/
theorem pay1_apply (n : Fin 27136) (d : Fin 64) :
    (k6_pay1 (F := Ideal) (ix3 (0 : Fin 1) n d) : EReal) = 0 := by
  unfold k6_pay1
  refine (shapeCast_addUnit_apply ![27136, 64] _ shapeCasts_S27136x64_S1x27136x64 (ix3 (0 : Fin 1) n d)).trans ?_
  show (Ideal.ofBits .f32 0x00000000#32 : EReal) = 0
  exact Ideal.ofBits_zero_f32

/-! ## The output array as a sum over a core's steps -/

/-- What step j of core h adds at entry (n, d); zero for a step number past the core's last step. -/
def term (A0 A1 : IVec S2x1000000x1 32) (A2 : FVec Ideal S2x1000000x1 .f32) (A3 : FVec Ideal S42880x64 .bf16)
    (h : Fin 2) (n : Fin 27136) (d : Fin 64) (j : ℕ) : EReal :=
  if hj : j < 15625 then
    (contrib (F := Ideal) (blkI (F := Ideal) A0 h ⟨j, hj⟩) (blkI (F := Ideal) A1 h ⟨j, hj⟩) (blkF A2 h ⟨j, hj⟩) A3 (ix2 n d) : EReal)
  else 0

theorem term_of_lt (A0 A1 : IVec S2x1000000x1 32) (A2 : FVec Ideal S2x1000000x1 .f32) (A3 : FVec Ideal S42880x64 .bf16)
    (h : Fin 2) (n : Fin 27136) (d : Fin 64) (j : ℕ) (hj : j < 15625) :
    term A0 A1 A2 A3 h n d j
      = (contrib (F := Ideal) (blkI (F := Ideal) A0 h ⟨j, hj⟩) (blkI (F := Ideal) A1 h ⟨j, hj⟩) (blkF A2 h ⟨j, hj⟩) A3 (ix2 n d) : EReal) :=
  dif_pos hj

/-- Entry (h, n, d) of the output array is the sum of the addends of core h's 15625 steps. -/
theorem out_apply (A0 A1 : IVec S2x1000000x1 32) (A2 : FVec Ideal S2x1000000x1 .f32) (A3 : FVec Ideal S42880x64 .bf16)
    (h : Fin 2) (n : Fin 27136) (d : Fin 64) :
    (out A0 A1 A2 A3 (ix3 h n d) : EReal) = ∑ j ∈ Finset.range 15625, term A0 A1 A2 A3 h n d j := by
  rw [Finset.sum_range]
  exact Finset.sum_congr rfl fun k _ => (term_of_lt A0 A1 A2 A3 h n d k.val k.isLt).symm

/-! ## What each case of the body leaves in the output's staging buffer -/

/-- At a point that is not a core's first, the body leaves the update of what the buffer held. -/
theorem out_B (c : Dev nD) (i : grid6.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S42880x64 .bf16) (h5 : a5.IsWhole)
    (a6 : Memref sig .tc .vmem S1x27136x64 .f32) (h6 : a6.IsWhole) (hc : ¬cond6_0 i)
    (x0 x1 : Vec F S1x64x1 .i32) (x2 : Vec F S1x64x1 .f32) (x3 : Vec F S42880x64 .bf16) (xo : Vec F S1x27136x64 .f32) :
    out6_B_4 c i a2 h2 a3 h3 a4 h4 a5 h5 a6 h6 hc x0 x1 x2 x3 xo = k6_pay2 x0 x1 x2 x3 xo := by
  unfold out6_B_4
  rw [View.read_writes_eq_canon _ _ _ (cover6_B_4 c i a2 h2 a3 h3 a4 h4 a5 h5 a6 h6 hc x0 x1 x2 x3 xo)]
  unfold kernelRun6_B
  dsimp only
  sl_unfold_words
  rw [View.canon_unit_zero hz3]
  simp only [View.readAt_eq_ld, h2.read_unread, h3.read_unread, h4.read_unread, h5.read_unread, h6.read_unread,
    View.ld_unit_zero (S := S1x64x1) hz3, View.ld_unit_zero (S := S42880x64) hz2, View.ld_unit_zero (S := S1x27136x64) hz3]

/-- At a core's first point, the body stores the zero block, reads it back, and leaves its update. -/
theorem out_A (c : Dev nD) (i : grid6.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S42880x64 .bf16) (h5 : a5.IsWhole)
    (a6 : Memref sig .tc .vmem S1x27136x64 .f32) (h6 : a6.IsWhole) (hc : cond6_0 i)
    (x0 x1 : Vec F S1x64x1 .i32) (x2 : Vec F S1x64x1 .f32) (x3 : Vec F S42880x64 .bf16) :
    out6_A_4 c i a2 h2 a3 h3 a4 h4 a5 h5 a6 h6 hc x0 x1 x2 x3 = k6_pay2 x0 x1 x2 x3 k6_pay1 := by
  unfold out6_A_4
  rw [View.read_writes_eq_canon _ _ _ (cover6_A_4 c i a2 h2 a3 h3 a4 h4 a5 h5 a6 h6 hc x0 x1 x2 x3)]
  unfold kernelRun6_A
  dsimp only
  sl_unfold_words
  rw [View.canon_cons_unit_zero (S := S1x27136x64) hz3, View.readCov_unit_zero (S := S1x27136x64) _ hz3]
  simp only [View.readAt_eq_ld, h2.read_unread, h3.read_unread, h4.read_unread, h5.read_unread,
    View.ld_unit_zero (S := S1x64x1) hz3, View.ld_unit_zero (S := S42880x64) hz2, View.ld_unit_zero (S := S1x27136x64) hz3]

section Blocks

variable (V : (c : Dev nD) → (b : Ref sig .tc) → Buf (Elt F) ((c : Thread nD τ).loc b))

/-- The arrays of the region's four operands, as the region finds them, at their literal types. -/
abbrev arr0 (c : Dev nD) : IVec S2x1000000x1 32 := V c (Pipeline.arrRef spec6 0)
abbrev arr1 (c : Dev nD) : IVec S2x1000000x1 32 := V c (Pipeline.arrRef spec6 1)
abbrev arr2 (c : Dev nD) : FVec F S2x1000000x1 .f32 := V c (Pipeline.arrRef spec6 2)
abbrev arr3 (c : Dev nD) : FVec F S42880x64 .bf16 := V c (Pipeline.arrRef spec6 3)

/-- The four blocks the body reads at point t, at their literal types. -/
abbrev xb0 (c : Dev nD) (t : Fin cfg6.N) : Vec F S1x64x1 .i32 := iblk6 V c 0 t
abbrev xb1 (c : Dev nD) (t : Fin cfg6.N) : Vec F S1x64x1 .i32 := iblk6 V c 1 t
abbrev xb2 (c : Dev nD) (t : Fin cfg6.N) : Vec F S1x64x1 .f32 := iblk6 V c 2 t
abbrev xb3 (c : Dev nD) (t : Fin cfg6.N) : Vec F S42880x64 .bf16 := iblk6 V c 3 t

/-- The staging buffer after a core's first point: the update of the zero block by that point's blocks. -/
theorem outsAt_A (c : Dev nD) (t : Fin cfg6.N) (h0 : t.val % 15625 = 0) :
    outsAt6 V c t.val t.isLt = k6_pay2 (xb0 V c t) (xb1 V c t) (xb2 V c t) (xb3 V c t) k6_pay1 :=
  (outsAt6_A V c t h0).trans
    (out_A c (grid6.coords t) (ms6_0 t) (hs6_0 t) (ms6_1 t) (hs6_1 t) (ms6_2 t) (hs6_2 t) (ms6_3 t) (hs6_3 t) (ms6_4 t) (hs6_4 t) ((hcond6_0 t).mpr h0)
      (xb0 V c t) (xb1 V c t) (xb2 V c t) (xb3 V c t))

/-- The staging buffer after any other point: the update, by that point's blocks, of what the point before left. -/
theorem outsAt_B (c : Dev nD) (t : Fin cfg6.N) (h0 : ¬t.val % 15625 = 0) :
    outsAt6 V c t.val t.isLt
      = k6_pay2 (xb0 V c t) (xb1 V c t) (xb2 V c t) (xb3 V c t)
          (outsAt6 V c (t.val - 1) (Nat.lt_of_le_of_lt (Nat.sub_le _ _) t.isLt)) :=
  (outsAt6_B V c t h0).trans
    (out_B c (grid6.coords t) (ms6_0 t) (hs6_0 t) (ms6_1 t) (hs6_1 t) (ms6_2 t) (hs6_2 t) (ms6_3 t) (hs6_3 t) (ms6_4 t) (hs6_4 t) (fun h => h0 ((hcond6_0 t).mp h))
      (xb0 V c t) (xb1 V c t) (xb2 V c t) (xb3 V c t)
      (outsAt6 V c (t.val - 1) (Nat.lt_of_le_of_lt (Nat.sub_le _ _) t.isLt)))

/-- The staging buffer's contents depend on the point's number only. -/
theorem outsAt_congr (c : Dev nD) (u v : ℕ) (hu : u < cfg6.N) (hv : v < cfg6.N) (e : u = v) :
    outsAt6 V c u hu = outsAt6 V c v hv := by
  subst e; rfl

/-! ## The blocks a point reads, as parts of the arrays -/

/-- The block index of every window at every point: the three edge windows are at (core, step, 0), the table at
    (0, 0), the output at (core, 0, 0), where point t is step t % 15625 of core t / 15625. The grid runs its last axis
    fastest, so point t has coordinates (t / 15625 % 2, t % 15625); below 2 × 15625 the first is t / 15625, and both are
    far below the 32-bit range the index maps compute in. -/
theorem idx_facts : ∀ t : Fin cfg6.N,
    win6_0.index t (0 : Fin 3) = t.val / 15625 ∧ win6_0.index t (1 : Fin 3) = t.val % 15625 ∧ win6_0.index t (2 : Fin 3) = 0
    ∧ win6_1.index t (0 : Fin 3) = t.val / 15625 ∧ win6_1.index t (1 : Fin 3) = t.val % 15625 ∧ win6_1.index t (2 : Fin 3) = 0
    ∧ win6_2.index t (0 : Fin 3) = t.val / 15625 ∧ win6_2.index t (1 : Fin 3) = t.val % 15625 ∧ win6_2.index t (2 : Fin 3) = 0
    ∧ win6_3.index t (0 : Fin 2) = 0 ∧ win6_3.index t (1 : Fin 2) = 0
    ∧ win6_4.index t (0 : Fin 3) = t.val / 15625 ∧ win6_4.index t (1 : Fin 3) = 0 ∧ win6_4.index t (2 : Fin 3) = 0 := by
  intro t
  have hN : t.val < 31250 := lt_of_lt_of_eq t.isLt N_6
  have s0 : grid6.stride (0 : Fin 2) = 15625 := by decide
  have s1 : grid6.stride (1 : Fin 2) = 1 := by decide
  have c0 : (BitVec.ofNat 32 (t.val / grid6.stride (0 : Fin 2) % 2)).toNat = t.val / 15625 := by
    rw [s0, BitVec.toNat_ofNat]; omega
  have c1 : (BitVec.ofNat 32 (t.val / grid6.stride (1 : Fin 2) % 15625)).toNat = t.val % 15625 := by
    rw [s1, BitVec.toNat_ofNat]; omega
  exact ⟨c0, c1, rfl, c0, c1, rfl, c0, c1, rfl, rfl, rfl, c0, rfl, rfl⟩

/-- At step k of core h, the first window's block is rows 64k .. 64k+63 of half h of its array. -/
theorem xb0_eq (c : Dev nD) (t : Fin cfg6.N) (h : Fin 2) (k : Fin 15625) (ht : t.val = 15625 * h.val + k.val) :
    xb0 V c t = blkI (F := F) (arr0 V c) h k := by
  obtain ⟨e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk6 V c 0 t j = _
  unfold iblk6 blkI
  rw [View.read_apply]
  show V c (Pipeline.arrRef spec6 0) (((cfg6.win 0).blk t).view.emb j) = V c (Pipeline.arrRef spec6 0) _
  refine congrArg (V c (Pipeline.arrRef spec6 0)) (funext fun a => Fin.ext ?_)
  match a with
  | ⟨0, _⟩ => show win6_0.index t (0 : Fin 3) * 1 + 1 * (j 0).val = h.val; omega
  | ⟨1, _⟩ => show win6_0.index t (1 : Fin 3) * 64 + 1 * (j 1).val = 64 * k.val + (j 1).val; omega
  | ⟨2, _⟩ => show win6_0.index t (2 : Fin 3) * 1 + 1 * (j 2).val = 0; omega

/-- The same for the second window. -/
theorem xb1_eq (c : Dev nD) (t : Fin cfg6.N) (h : Fin 2) (k : Fin 15625) (ht : t.val = 15625 * h.val + k.val) :
    xb1 V c t = blkI (F := F) (arr1 V c) h k := by
  obtain ⟨-, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk6 V c 1 t j = _
  unfold iblk6 blkI
  rw [View.read_apply]
  show V c (Pipeline.arrRef spec6 1) (((cfg6.win 1).blk t).view.emb j) = V c (Pipeline.arrRef spec6 1) _
  refine congrArg (V c (Pipeline.arrRef spec6 1)) (funext fun a => Fin.ext ?_)
  match a with
  | ⟨0, _⟩ => show win6_1.index t (0 : Fin 3) * 1 + 1 * (j 0).val = h.val; omega
  | ⟨1, _⟩ => show win6_1.index t (1 : Fin 3) * 64 + 1 * (j 1).val = 64 * k.val + (j 1).val; omega
  | ⟨2, _⟩ => show win6_1.index t (2 : Fin 3) * 1 + 1 * (j 2).val = 0; omega

/-- The same for the third window, of floats. -/
theorem xb2_eq (c : Dev nD) (t : Fin cfg6.N) (h : Fin 2) (k : Fin 15625) (ht : t.val = 15625 * h.val + k.val) :
    xb2 V c t = blkF (arr2 V c) h k := by
  obtain ⟨-, -, -, -, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk6 V c 2 t j = _
  unfold iblk6 blkF
  rw [View.read_apply]
  show V c (Pipeline.arrRef spec6 2) (((cfg6.win 2).blk t).view.emb j) = V c (Pipeline.arrRef spec6 2) _
  refine congrArg (V c (Pipeline.arrRef spec6 2)) (funext fun a => Fin.ext ?_)
  match a with
  | ⟨0, _⟩ => show win6_2.index t (0 : Fin 3) * 1 + 1 * (j 0).val = h.val; omega
  | ⟨1, _⟩ => show win6_2.index t (1 : Fin 3) * 64 + 1 * (j 1).val = 64 * k.val + (j 1).val; omega
  | ⟨2, _⟩ => show win6_2.index t (2 : Fin 3) * 1 + 1 * (j 2).val = 0; omega

/-- The fourth window's block is its whole array at every point. -/
theorem xb3_eq (c : Dev nD) (t : Fin cfg6.N) : xb3 V c t = arr3 V c := by
  obtain ⟨-, -, -, -, -, -, -, -, -, e0, e1, -⟩ := idx_facts t
  refine funext fun (j : S42880x64.Idx) => ?_
  show iblk6 V c 3 t j = _
  unfold iblk6
  rw [View.read_apply]
  show V c (Pipeline.arrRef spec6 3) (((cfg6.win 3).blk t).view.emb j) = V c (Pipeline.arrRef spec6 3) j
  refine congrArg (V c (Pipeline.arrRef spec6 3)) (funext fun a => Fin.ext ?_)
  match a with
  | ⟨0, _⟩ => show win6_3.index t (0 : Fin 2) * 42880 + 1 * (j 0).val = (j 0).val; omega
  | ⟨1, _⟩ => show win6_3.index t (1 : Fin 2) * 64 + 1 * (j 1).val = (j 1).val; omega

end Blocks

/-! ## The accumulation over a core's steps, and the array it is written back to -/

section AtIdeal

variable (V : (c : Dev nD) → (b : Ref sig .tc) → Buf (Elt Ideal) ((c : Thread nD τ).loc b))

/-- After step k of core h the staging buffer holds, at (0, n, d), the sum of the addends of steps 0 .. k:
    the first step adds to the zero block, every later step to what the step before left. -/
theorem acc_eq (c : Dev nD) (h : Fin 2) (n : Fin 27136) (d : Fin 64) :
    ∀ (k : ℕ) (hk : k < 15625) (hlt : 15625 * h.val + k < cfg6.N),
      (outsAt6 V c (15625 * h.val + k) hlt (ix3 (0 : Fin 1) n d) : EReal)
        = ∑ j ∈ Finset.range (k + 1), term (arr0 V c) (arr1 V c) (arr2 V c) (arr3 V c) h n d j
  | 0, hk, hlt => by
    have h0 : (⟨15625 * h.val + 0, hlt⟩ : Fin cfg6.N).val % 15625 = 0 := by dsimp only; omega
    refine (congrFun (outsAt_A V c ⟨15625 * h.val + 0, hlt⟩ h0) (ix3 (0 : Fin 1) n d)).trans ?_
    rw [pay2_apply, pay1_apply, zero_add, Finset.sum_range_one, term_of_lt _ _ _ _ _ _ _ 0 hk,
      xb0_eq V c ⟨15625 * h.val + 0, hlt⟩ h ⟨0, hk⟩ rfl, xb1_eq V c ⟨15625 * h.val + 0, hlt⟩ h ⟨0, hk⟩ rfl,
      xb2_eq V c ⟨15625 * h.val + 0, hlt⟩ h ⟨0, hk⟩ rfl, xb3_eq V c ⟨15625 * h.val + 0, hlt⟩]
  | k + 1, hk, hlt => by
    have hB : ¬(⟨15625 * h.val + (k + 1), hlt⟩ : Fin cfg6.N).val % 15625 = 0 := by dsimp only; omega
    have hlt' : 15625 * h.val + k < cfg6.N := by omega
    refine (congrFun (outsAt_B V c ⟨15625 * h.val + (k + 1), hlt⟩ hB) (ix3 (0 : Fin 1) n d)).trans ?_
    rw [pay2_apply, outsAt_congr V c _ (15625 * h.val + k) _ hlt' (by dsimp only; omega),
      acc_eq c h n d k (by omega) hlt', Finset.sum_range_succ _ (k + 1), term_of_lt _ _ _ _ _ _ _ (k + 1) hk,
      xb0_eq V c ⟨15625 * h.val + (k + 1), hlt⟩ h ⟨k + 1, hk⟩ rfl, xb1_eq V c ⟨15625 * h.val + (k + 1), hlt⟩ h ⟨k + 1, hk⟩ rfl,
      xb2_eq V c ⟨15625 * h.val + (k + 1), hlt⟩ h ⟨k + 1, hk⟩ rfl, xb3_eq V c ⟨15625 * h.val + (k + 1), hlt⟩]

/-- After a core's last step the staging buffer holds that core's part of the output array. -/
theorem last_eq (c : Dev nD) (t : Fin cfg6.N) (h3 : t.val % 15625 + 1 = 15625) (h : Fin 2) (hh : t.val / 15625 = h.val)
    (n : Fin 27136) (d : Fin 64) :
    (outsAt6 V c t.val t.isLt (ix3 (0 : Fin 1) n d) : EReal)
      = out (arr0 V c) (arr1 V c) (arr2 V c) (arr3 V c) (ix3 h n d) := by
  have e : t.val = 15625 * h.val + t.val % 15625 := by omega
  have hlt : 15625 * h.val + t.val % 15625 < cfg6.N := e ▸ t.isLt
  rw [outsAt_congr V c t.val (15625 * h.val + t.val % 15625) t.isLt hlt e,
    acc_eq V c h n d (t.val % 15625) (by omega) hlt, h3, out_apply]

/-- The region's output array, at its literal type. -/
abbrev result (c : Dev nD) : FVec Ideal S2x27136x64 .f32 := out (arr0 V c) (arr1 V c) (arr2 V c) (arr3 V c)

/-- What a core's last step writes back is that core's block of the output array. -/
theorem flushed_eq (c : Dev nD) (t : Fin cfg6.N) (hf : (cfg6.win 4).flush t = true) :
    (dat6 V c).flushed 4 t = ((cfg6.win 4).blk t).view.read (Elt Ideal) (result V c) := by
  have hN : cfg6.N = 31250 := N_6
  have hlt : t.val < 31250 := lt_of_lt_of_eq t.isLt hN
  have h3 : t.val % 15625 + 1 = 15625 := by have := (flush6_4 t).mp hf; omega
  obtain ⟨-, -, -, -, -, -, -, -, -, -, -, e0, e1, e2⟩ := idx_facts t
  show (cfg6.win 4).cut (grid6.coords t) ((dat6 V c).after 4 t) = _
  rw [after6_4]
  refine funext fun (y : S1x27136x64.Idx) => ?_
  rw [View.read_apply]
  have y0 : (y 0).val < 1 := (y 0).isLt
  have hy : y = ix3 (0 : Fin 1) (y 1) (y 2) := funext fun a => by
    match a with
    | ⟨0, _⟩ => exact Fin.ext (by show (y 0).val = 0; omega)
    | ⟨1, _⟩ => rfl
    | ⟨2, _⟩ => rfl
  show (outsAt6 V c t.val t.isLt y : EReal) = result V c (((cfg6.win 4).blk t).view.emb y)
  refine (congrArg (fun z : S1x27136x64.Idx => (outsAt6 V c t.val t.isLt z : EReal)) hy).trans ?_
  refine (last_eq V c t h3 ⟨t.val / 15625, by omega⟩ rfl (y 1) (y 2)).trans (congrArg (result V c) (funext fun a => Fin.ext ?_))
  match a with
  | ⟨0, _⟩ => show t.val / 15625 = win6_4.index t (0 : Fin 3) * 1 + 1 * (y 0).val; omega
  | ⟨1, _⟩ => show (y 1).val = win6_4.index t (1 : Fin 3) * 27136 + 1 * (y 1).val; omega
  | ⟨2, _⟩ => show (y 2).val = win6_4.index t (2 : Fin 3) * 64 + 1 * (y 2).val; omega

/-- THE REGION'S VALUE: after the run the output array holds, at (h, n, d), the sum over core h's 15625 steps of
    what each step adds at (n, d): every entry lies in the block its core's last step writes back. -/
theorem value (V : (c : Dev nD) → (b : Ref sig .tc) → Buf (Elt Ideal) ((c : Thread nD τ).loc b)) (c : Dev nD) :
    (Gen.dat6 (F := Ideal) V c).arrAt 4 cfg6.N
      = out (V c (Pipeline.arrRef spec6 0)) (V c (Pipeline.arrRef spec6 1)) (V c (Pipeline.arrRef spec6 2)) (V c (Pipeline.arrRef spec6 3)) :=
  (dat6 V c).arrAt_eq_of_cover 4 (result V c) (fun t hf => flushed_eq V c t hf) fun (i : S2x27136x64.Idx) => by
    have hN : cfg6.N = 31250 := N_6
    have i0 : (i 0).val < 2 := (i 0).isLt
    have i1 : (i 1).val < 27136 := (i 1).isLt
    have i2 : (i 2).val < 64 := (i 2).isLt
    have hlt : 15625 * (i 0).val + (15625 - 1) < cfg6.N := lt_of_lt_of_eq (by omega) hN.symm
    obtain ⟨-, -, -, -, -, -, -, -, -, -, -, e0, e1, e2⟩ := idx_facts ⟨15625 * (i 0).val + (15625 - 1), hlt⟩
    refine ⟨⟨15625 * (i 0).val + (15625 - 1), hlt⟩, (flush6_4 _).mpr (by dsimp only; omega), ?_⟩
    show i ∈ ((View.whole main_v182).slice (win6_4.rect ⟨15625 * (i 0).val + (15625 - 1), hlt⟩)).set
    rw [View.set_slice_whole, Rect.mem_set_unit]
    intro a
    match a with
    | ⟨0, _⟩ =>
      show win6_4.index ⟨15625 * (i 0).val + (15625 - 1), hlt⟩ (0 : Fin 3) * 1 ≤ (i 0).val
        ∧ (i 0).val < win6_4.index ⟨15625 * (i 0).val + (15625 - 1), hlt⟩ (0 : Fin 3) * 1 + 1
      rw [e0]; dsimp only; omega
    | ⟨1, _⟩ =>
      show win6_4.index ⟨15625 * (i 0).val + (15625 - 1), hlt⟩ (1 : Fin 3) * 27136 ≤ (i 1).val
        ∧ (i 1).val < win6_4.index ⟨15625 * (i 0).val + (15625 - 1), hlt⟩ (1 : Fin 3) * 27136 + 27136
      rw [e1]; omega
    | ⟨2, _⟩ =>
      show win6_4.index ⟨15625 * (i 0).val + (15625 - 1), hlt⟩ (2 : Fin 3) * 64 ≤ (i 2).val
        ∧ (i 2).val < win6_4.index ⟨15625 * (i 0).val + (15625 - 1), hlt⟩ (2 : Fin 3) * 64 + 64
      rw [e2]; omega

end AtIdeal

end Cert.KernelIdeal.Reg6

end
-- ==== Proof.Reg7.lean ====
/-
  The value of aggregation region 7 of the idealized kernel program.

  The region runs its body at 2 × 15625 grid points, point t being step t % 15625 of core t / 15625. Its output window's
  block, [1, 42880, 64], is indexed by the core alone, so it stays in its staging buffer across a core's 15625 steps: the
  first step stores the zero block and then its update, every later step stores the update of what the step before
  left, and the block is written back to rows [core, :, :] of the output array after the core's last step. The update
  adds to the block what the step's 64 edges contribute: the gather of the node table's rows by the first one-hot
  product, scaled, scattered onto the 42880 destination rows by the second. Over the extended reals the block after
  step k is therefore the sum of the addends of steps 0 .. k (0 + x = x), and the output array ends holding, at
  (core, n, d), the sum over that core's 15625 steps of each step's addend at (n, d), the steps' blocks being rows
  64k .. 64k+63 of the core's half of the three padded edge arrays and the whole node table.
-/
import proofs.«400075_j26585847562450_2_alg».proof.Proof.RegDefs
import proofs.«400075_j26585847562450_2_alg».proof.Proof.KIF7
import Idealize.ShloMosaic.Lib.Pipeline.Value
import Idealize.ShloMosaic.Lib.Tactic
import Idealize.ShloMosaic.PureOps.Ideal.Laws
import Mathlib.Algebra.BigOperators.Fin

set_option maxRecDepth 65536

noncomputable section

open Idealize.ShloMosaic Idealize.ShloMosaic.TcCoe Idealize.SL.Sem
open Idealize.ShloMosaic.Pipeline (Dat)

namespace Cert.KernelIdeal.Reg7

open Cert.KernelIdeal Cert.KernelIdeal.Gen Idealize.ShloMosaic.ValueIdx

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## One grid point's update of the accumulator block, entry by entry -/

/-- The update a grid point stores: the accumulator block plus what the point adds, under the two changes of
    shape between the block [1, 42880, 64] and the matrix [42880, 64]. -/
theorem pay2_eq (x0 x1 : Vec F S1x64x1 .i32) (x2 : Vec F S1x64x1 .f32) (x3 : Vec F S27136x64 .bf16)
    (acc : Vec F S1x42880x64 .f32) :
    k7_pay2 x0 x1 x2 x3 acc
      = shapeCast S1x42880x64 (addf (shapeCast S42880x64 acc shapeCasts_S1x42880x64_S42880x64) (contrib x0 x1 x2 x3))
          shapeCasts_S42880x64_S1x42880x64 := rfl

/-- Over the extended reals, entry (0, n, d) of the stored update is the accumulator's entry plus the point's addend. -/
theorem pay2_apply (x0 x1 : Vec Ideal S1x64x1 .i32) (x2 : Vec Ideal S1x64x1 .f32) (x3 : Vec Ideal S27136x64 .bf16)
    (acc : Vec Ideal S1x42880x64 .f32) (n : Fin 42880) (d : Fin 64) :
    k7_pay2 (F := Ideal) x0 x1 x2 x3 acc (ix3 (0 : Fin 1) n d)
      = (acc (ix3 (0 : Fin 1) n d) : EReal) + (contrib (F := Ideal) x0 x1 x2 x3 (ix2 n d) : EReal) := by
  rw [pay2_eq]
  refine (shapeCast_addUnit_apply ![42880, 64] _ shapeCasts_S42880x64_S1x42880x64 (ix3 (0 : Fin 1) n d)).trans ?_
  have e2 : (fun a : Fin 2 => (ix3 (0 : Fin 1) n d : S1x42880x64.Idx) a.succ) = (ix2 n d : S42880x64.Idx) :=
    funext fun a => by match a with | ⟨0, _⟩ => rfl | ⟨1, _⟩ => rfl
  rw [e2]
  show (shapeCast S42880x64 acc shapeCasts_S1x42880x64_S42880x64 (ix2 n d) : EReal) + _ = _
  refine congrArg (· + (contrib (F := Ideal) x0 x1 x2 x3 (ix2 n d) : EReal)) ?_
  refine (shapeCast_dropUnit_apply ![42880, 64] acc shapeCasts_S1x42880x64_S42880x64 (ix2 n d)).trans ?_
  refine congrArg acc ?_
  funext a
  match a with
  | ⟨0, _⟩ => rfl
  | ⟨1, _⟩ => rfl
  | ⟨2, _⟩ => rfl

/-- The block a core's first point stores before its update is zero everywhere. -/
theorem pay1_apply (n : Fin 42880) (d : Fin 64) :
    (k7_pay1 (F := Ideal) (ix3 (0 : Fin 1) n d) : EReal) = 0 := by
  unfold k7_pay1
  refine (shapeCast_addUnit_apply ![42880, 64] _ shapeCasts_S42880x64_S1x42880x64 (ix3 (0 : Fin 1) n d)).trans ?_
  show (Ideal.ofBits .f32 0x00000000#32 : EReal) = 0
  exact Ideal.ofBits_zero_f32

/-! ## The output array as a sum over a core's steps -/

/-- What step j of core h adds at entry (n, d); zero for a step number past the core's last step. -/
def term (A0 A1 : IVec S2x1000000x1 32) (A2 : FVec Ideal S2x1000000x1 .f32) (A3 : FVec Ideal S27136x64 .bf16)
    (h : Fin 2) (n : Fin 42880) (d : Fin 64) (j : ℕ) : EReal :=
  if hj : j < 15625 then
    (contrib (F := Ideal) (blkI (F := Ideal) A0 h ⟨j, hj⟩) (blkI (F := Ideal) A1 h ⟨j, hj⟩) (blkF A2 h ⟨j, hj⟩) A3 (ix2 n d) : EReal)
  else 0

theorem term_of_lt (A0 A1 : IVec S2x1000000x1 32) (A2 : FVec Ideal S2x1000000x1 .f32) (A3 : FVec Ideal S27136x64 .bf16)
    (h : Fin 2) (n : Fin 42880) (d : Fin 64) (j : ℕ) (hj : j < 15625) :
    term A0 A1 A2 A3 h n d j
      = (contrib (F := Ideal) (blkI (F := Ideal) A0 h ⟨j, hj⟩) (blkI (F := Ideal) A1 h ⟨j, hj⟩) (blkF A2 h ⟨j, hj⟩) A3 (ix2 n d) : EReal) :=
  dif_pos hj

/-- Entry (h, n, d) of the output array is the sum of the addends of core h's 15625 steps. -/
theorem out_apply (A0 A1 : IVec S2x1000000x1 32) (A2 : FVec Ideal S2x1000000x1 .f32) (A3 : FVec Ideal S27136x64 .bf16)
    (h : Fin 2) (n : Fin 42880) (d : Fin 64) :
    (out A0 A1 A2 A3 (ix3 h n d) : EReal) = ∑ j ∈ Finset.range 15625, term A0 A1 A2 A3 h n d j := by
  rw [Finset.sum_range]
  exact Finset.sum_congr rfl fun k _ => (term_of_lt A0 A1 A2 A3 h n d k.val k.isLt).symm

/-! ## What each case of the body leaves in the output's staging buffer -/

/-- At a point that is not a core's first, the body leaves the update of what the buffer held. -/
theorem out_B (c : Dev nD) (i : grid7.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S27136x64 .bf16) (h5 : a5.IsWhole)
    (a6 : Memref sig .tc .vmem S1x42880x64 .f32) (h6 : a6.IsWhole) (hc : ¬cond7_0 i)
    (x0 x1 : Vec F S1x64x1 .i32) (x2 : Vec F S1x64x1 .f32) (x3 : Vec F S27136x64 .bf16) (xo : Vec F S1x42880x64 .f32) :
    out7_B_4 c i a2 h2 a3 h3 a4 h4 a5 h5 a6 h6 hc x0 x1 x2 x3 xo = k7_pay2 x0 x1 x2 x3 xo := by
  unfold out7_B_4
  rw [View.read_writes_eq_canon _ _ _ (cover7_B_4 c i a2 h2 a3 h3 a4 h4 a5 h5 a6 h6 hc x0 x1 x2 x3 xo)]
  unfold kernelRun7_B
  dsimp only
  sl_unfold_words
  rw [View.canon_unit_zero hz3]
  simp only [View.readAt_eq_ld, h2.read_unread, h3.read_unread, h4.read_unread, h5.read_unread, h6.read_unread,
    View.ld_unit_zero (S := S1x64x1) hz3, View.ld_unit_zero (S := S27136x64) hz2, View.ld_unit_zero (S := S1x42880x64) hz3]

/-- At a core's first point, the body stores the zero block, reads it back, and leaves its update. -/
theorem out_A (c : Dev nD) (i : grid7.Coords) (a2 : Memref sig .tc .vmem S1x64x1 .i32) (h2 : a2.IsWhole) (a3 : Memref sig .tc .vmem S1x64x1 .i32) (h3 : a3.IsWhole)
    (a4 : Memref sig .tc .vmem S1x64x1 .f32) (h4 : a4.IsWhole) (a5 : Memref sig .tc .vmem S27136x64 .bf16) (h5 : a5.IsWhole)
    (a6 : Memref sig .tc .vmem S1x42880x64 .f32) (h6 : a6.IsWhole) (hc : cond7_0 i)
    (x0 x1 : Vec F S1x64x1 .i32) (x2 : Vec F S1x64x1 .f32) (x3 : Vec F S27136x64 .bf16) :
    out7_A_4 c i a2 h2 a3 h3 a4 h4 a5 h5 a6 h6 hc x0 x1 x2 x3 = k7_pay2 x0 x1 x2 x3 k7_pay1 := by
  unfold out7_A_4
  rw [View.read_writes_eq_canon _ _ _ (cover7_A_4 c i a2 h2 a3 h3 a4 h4 a5 h5 a6 h6 hc x0 x1 x2 x3)]
  unfold kernelRun7_A
  dsimp only
  sl_unfold_words
  rw [View.canon_cons_unit_zero (S := S1x42880x64) hz3, View.readCov_unit_zero (S := S1x42880x64) _ hz3]
  simp only [View.readAt_eq_ld, h2.read_unread, h3.read_unread, h4.read_unread, h5.read_unread,
    View.ld_unit_zero (S := S1x64x1) hz3, View.ld_unit_zero (S := S27136x64) hz2, View.ld_unit_zero (S := S1x42880x64) hz3]

section Blocks

variable (V : (c : Dev nD) → (b : Ref sig .tc) → Buf (Elt F) ((c : Thread nD τ).loc b))

/-- The arrays of the region's four operands, as the region finds them, at their literal types. -/
abbrev arr0 (c : Dev nD) : IVec S2x1000000x1 32 := V c (Pipeline.arrRef spec7 0)
abbrev arr1 (c : Dev nD) : IVec S2x1000000x1 32 := V c (Pipeline.arrRef spec7 1)
abbrev arr2 (c : Dev nD) : FVec F S2x1000000x1 .f32 := V c (Pipeline.arrRef spec7 2)
abbrev arr3 (c : Dev nD) : FVec F S27136x64 .bf16 := V c (Pipeline.arrRef spec7 3)

/-- The four blocks the body reads at point t, at their literal types. -/
abbrev xb0 (c : Dev nD) (t : Fin cfg7.N) : Vec F S1x64x1 .i32 := iblk7 V c 0 t
abbrev xb1 (c : Dev nD) (t : Fin cfg7.N) : Vec F S1x64x1 .i32 := iblk7 V c 1 t
abbrev xb2 (c : Dev nD) (t : Fin cfg7.N) : Vec F S1x64x1 .f32 := iblk7 V c 2 t
abbrev xb3 (c : Dev nD) (t : Fin cfg7.N) : Vec F S27136x64 .bf16 := iblk7 V c 3 t

/-- The staging buffer after a core's first point: the update of the zero block by that point's blocks. -/
theorem outsAt_A (c : Dev nD) (t : Fin cfg7.N) (h0 : t.val % 15625 = 0) :
    outsAt7 V c t.val t.isLt = k7_pay2 (xb0 V c t) (xb1 V c t) (xb2 V c t) (xb3 V c t) k7_pay1 :=
  (outsAt7_A V c t h0).trans
    (out_A c (grid7.coords t) (ms7_0 t) (hs7_0 t) (ms7_1 t) (hs7_1 t) (ms7_2 t) (hs7_2 t) (ms7_3 t) (hs7_3 t) (ms7_4 t) (hs7_4 t) ((hcond7_0 t).mpr h0)
      (xb0 V c t) (xb1 V c t) (xb2 V c t) (xb3 V c t))

/-- The staging buffer after any other point: the update, by that point's blocks, of what the point before left. -/
theorem outsAt_B (c : Dev nD) (t : Fin cfg7.N) (h0 : ¬t.val % 15625 = 0) :
    outsAt7 V c t.val t.isLt
      = k7_pay2 (xb0 V c t) (xb1 V c t) (xb2 V c t) (xb3 V c t)
          (outsAt7 V c (t.val - 1) (Nat.lt_of_le_of_lt (Nat.sub_le _ _) t.isLt)) :=
  (outsAt7_B V c t h0).trans
    (out_B c (grid7.coords t) (ms7_0 t) (hs7_0 t) (ms7_1 t) (hs7_1 t) (ms7_2 t) (hs7_2 t) (ms7_3 t) (hs7_3 t) (ms7_4 t) (hs7_4 t) (fun h => h0 ((hcond7_0 t).mp h))
      (xb0 V c t) (xb1 V c t) (xb2 V c t) (xb3 V c t)
      (outsAt7 V c (t.val - 1) (Nat.lt_of_le_of_lt (Nat.sub_le _ _) t.isLt)))

/-- The staging buffer's contents depend on the point's number only. -/
theorem outsAt_congr (c : Dev nD) (u v : ℕ) (hu : u < cfg7.N) (hv : v < cfg7.N) (e : u = v) :
    outsAt7 V c u hu = outsAt7 V c v hv := by
  subst e; rfl

/-! ## The blocks a point reads, as parts of the arrays -/

/-- The block index of every window at every point: the three edge windows are at (core, step, 0), the table at
    (0, 0), the output at (core, 0, 0), where point t is step t % 15625 of core t / 15625. The grid runs its last axis
    fastest, so point t has coordinates (t / 15625 % 2, t % 15625); below 2 × 15625 the first is t / 15625, and both are
    far below the 32-bit range the index maps compute in. -/
theorem idx_facts : ∀ t : Fin cfg7.N,
    win7_0.index t (0 : Fin 3) = t.val / 15625 ∧ win7_0.index t (1 : Fin 3) = t.val % 15625 ∧ win7_0.index t (2 : Fin 3) = 0
    ∧ win7_1.index t (0 : Fin 3) = t.val / 15625 ∧ win7_1.index t (1 : Fin 3) = t.val % 15625 ∧ win7_1.index t (2 : Fin 3) = 0
    ∧ win7_2.index t (0 : Fin 3) = t.val / 15625 ∧ win7_2.index t (1 : Fin 3) = t.val % 15625 ∧ win7_2.index t (2 : Fin 3) = 0
    ∧ win7_3.index t (0 : Fin 2) = 0 ∧ win7_3.index t (1 : Fin 2) = 0
    ∧ win7_4.index t (0 : Fin 3) = t.val / 15625 ∧ win7_4.index t (1 : Fin 3) = 0 ∧ win7_4.index t (2 : Fin 3) = 0 := by
  intro t
  have hN : t.val < 31250 := lt_of_lt_of_eq t.isLt N_7
  have s0 : grid7.stride (0 : Fin 2) = 15625 := by decide
  have s1 : grid7.stride (1 : Fin 2) = 1 := by decide
  have c0 : (BitVec.ofNat 32 (t.val / grid7.stride (0 : Fin 2) % 2)).toNat = t.val / 15625 := by
    rw [s0, BitVec.toNat_ofNat]; omega
  have c1 : (BitVec.ofNat 32 (t.val / grid7.stride (1 : Fin 2) % 15625)).toNat = t.val % 15625 := by
    rw [s1, BitVec.toNat_ofNat]; omega
  exact ⟨c0, c1, rfl, c0, c1, rfl, c0, c1, rfl, rfl, rfl, c0, rfl, rfl⟩

/-- At step k of core h, the first window's block is rows 64k .. 64k+63 of half h of its array. -/
theorem xb0_eq (c : Dev nD) (t : Fin cfg7.N) (h : Fin 2) (k : Fin 15625) (ht : t.val = 15625 * h.val + k.val) :
    xb0 V c t = blkI (F := F) (arr0 V c) h k := by
  obtain ⟨e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk7 V c 0 t j = _
  unfold iblk7 blkI
  rw [View.read_apply]
  show V c (Pipeline.arrRef spec7 0) (((cfg7.win 0).blk t).view.emb j) = V c (Pipeline.arrRef spec7 0) _
  refine congrArg (V c (Pipeline.arrRef spec7 0)) (funext fun a => Fin.ext ?_)
  match a with
  | ⟨0, _⟩ => show win7_0.index t (0 : Fin 3) * 1 + 1 * (j 0).val = h.val; omega
  | ⟨1, _⟩ => show win7_0.index t (1 : Fin 3) * 64 + 1 * (j 1).val = 64 * k.val + (j 1).val; omega
  | ⟨2, _⟩ => show win7_0.index t (2 : Fin 3) * 1 + 1 * (j 2).val = 0; omega

/-- The same for the second window. -/
theorem xb1_eq (c : Dev nD) (t : Fin cfg7.N) (h : Fin 2) (k : Fin 15625) (ht : t.val = 15625 * h.val + k.val) :
    xb1 V c t = blkI (F := F) (arr1 V c) h k := by
  obtain ⟨-, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk7 V c 1 t j = _
  unfold iblk7 blkI
  rw [View.read_apply]
  show V c (Pipeline.arrRef spec7 1) (((cfg7.win 1).blk t).view.emb j) = V c (Pipeline.arrRef spec7 1) _
  refine congrArg (V c (Pipeline.arrRef spec7 1)) (funext fun a => Fin.ext ?_)
  match a with
  | ⟨0, _⟩ => show win7_1.index t (0 : Fin 3) * 1 + 1 * (j 0).val = h.val; omega
  | ⟨1, _⟩ => show win7_1.index t (1 : Fin 3) * 64 + 1 * (j 1).val = 64 * k.val + (j 1).val; omega
  | ⟨2, _⟩ => show win7_1.index t (2 : Fin 3) * 1 + 1 * (j 2).val = 0; omega

/-- The same for the third window, of floats. -/
theorem xb2_eq (c : Dev nD) (t : Fin cfg7.N) (h : Fin 2) (k : Fin 15625) (ht : t.val = 15625 * h.val + k.val) :
    xb2 V c t = blkF (arr2 V c) h k := by
  obtain ⟨-, -, -, -, -, -, e0, e1, e2, -⟩ := idx_facts t
  refine funext fun (j : S1x64x1.Idx) => ?_
  have hk := k.isLt
  have hh := h.isLt
  have j0 : (j 0).val < 1 := (j 0).isLt
  have j2 : (j 2).val < 1 := (j 2).isLt
  show iblk7 V c 2 t j = _
  unfold iblk7 blkF
  rw [View.read_apply]
  show V c (Pipeline.arrRef spec7 2) (((cfg7.win 2).blk t).view.emb j) = V c (Pipeline.arrRef spec7 2) _
  refine congrArg (V c (Pipeline.arrRef spec7 2)) (funext fun a => Fin.ext ?_)
  match a with
  | ⟨0, _⟩ => show win7_2.index t (0 : Fin 3) * 1 + 1 * (j 0).val = h.val; omega
  | ⟨1, _⟩ => show win7_2.index t (1 : Fin 3) * 64 + 1 * (j 1).val = 64 * k.val + (j 1).val; omega
  | ⟨2, _⟩ => show win7_2.index t (2 : Fin 3) * 1 + 1 * (j 2).val = 0; omega

/-- The fourth window's block is its whole array at every point. -/
theorem xb3_eq (c : Dev nD) (t : Fin cfg7.N) : xb3 V c t = arr3 V c := by
  obtain ⟨-, -, -, -, -, -, -, -, -, e0, e1, -⟩ := idx_facts t
  refine funext fun (j : S27136x64.Idx) => ?_
  show iblk7 V c 3 t j = _
  unfold iblk7
  rw [View.read_apply]
  show V c (Pipeline.arrRef spec7 3) (((cfg7.win 3).blk t).view.emb j) = V c (Pipeline.arrRef spec7 3) j
  refine congrArg (V c (Pipeline.arrRef spec7 3)) (funext fun a => Fin.ext ?_)
  match a with
  | ⟨0, _⟩ => show win7_3.index t (0 : Fin 2) * 27136 + 1 * (j 0).val = (j 0).val; omega
  | ⟨1, _⟩ => show win7_3.index t (1 : Fin 2) * 64 + 1 * (j 1).val = (j 1).val; omega

end Blocks

/-! ## The accumulation over a core's steps, and the array it is written back to -/

section AtIdeal

variable (V : (c : Dev nD) → (b : Ref sig .tc) → Buf (Elt Ideal) ((c : Thread nD τ).loc b))

/-- After step k of core h the staging buffer holds, at (0, n, d), the sum of the addends of steps 0 .. k:
    the first step adds to the zero block, every later step to what the step before left. -/
theorem acc_eq (c : Dev nD) (h : Fin 2) (n : Fin 42880) (d : Fin 64) :
    ∀ (k : ℕ) (hk : k < 15625) (hlt : 15625 * h.val + k < cfg7.N),
      (outsAt7 V c (15625 * h.val + k) hlt (ix3 (0 : Fin 1) n d) : EReal)
        = ∑ j ∈ Finset.range (k + 1), term (arr0 V c) (arr1 V c) (arr2 V c) (arr3 V c) h n d j
  | 0, hk, hlt => by
    have h0 : (⟨15625 * h.val + 0, hlt⟩ : Fin cfg7.N).val % 15625 = 0 := by dsimp only; omega
    refine (congrFun (outsAt_A V c ⟨15625 * h.val + 0, hlt⟩ h0) (ix3 (0 : Fin 1) n d)).trans ?_
    rw [pay2_apply, pay1_apply, zero_add, Finset.sum_range_one, term_of_lt _ _ _ _ _ _ _ 0 hk,
      xb0_eq V c ⟨15625 * h.val + 0, hlt⟩ h ⟨0, hk⟩ rfl, xb1_eq V c ⟨15625 * h.val + 0, hlt⟩ h ⟨0, hk⟩ rfl,
      xb2_eq V c ⟨15625 * h.val + 0, hlt⟩ h ⟨0, hk⟩ rfl, xb3_eq V c ⟨15625 * h.val + 0, hlt⟩]
  | k + 1, hk, hlt => by
    have hB : ¬(⟨15625 * h.val + (k + 1), hlt⟩ : Fin cfg7.N).val % 15625 = 0 := by dsimp only; omega
    have hlt' : 15625 * h.val + k < cfg7.N := by omega
    refine (congrFun (outsAt_B V c ⟨15625 * h.val + (k + 1), hlt⟩ hB) (ix3 (0 : Fin 1) n d)).trans ?_
    rw [pay2_apply, outsAt_congr V c _ (15625 * h.val + k) _ hlt' (by dsimp only; omega),
      acc_eq c h n d k (by omega) hlt', Finset.sum_range_succ _ (k + 1), term_of_lt _ _ _ _ _ _ _ (k + 1) hk,
      xb0_eq V c ⟨15625 * h.val + (k + 1), hlt⟩ h ⟨k + 1, hk⟩ rfl, xb1_eq V c ⟨15625 * h.val + (k + 1), hlt⟩ h ⟨k + 1, hk⟩ rfl,
      xb2_eq V c ⟨15625 * h.val + (k + 1), hlt⟩ h ⟨k + 1, hk⟩ rfl, xb3_eq V c ⟨15625 * h.val + (k + 1), hlt⟩]

/-- After a core's last step the staging buffer holds that core's part of the output array. -/
theorem last_eq (c : Dev nD) (t : Fin cfg7.N) (h3 : t.val % 15625 + 1 = 15625) (h : Fin 2) (hh : t.val / 15625 = h.val)
    (n : Fin 42880) (d : Fin 64) :
    (outsAt7 V c t.val t.isLt (ix3 (0 : Fin 1) n d) : EReal)
      = out (arr0 V c) (arr1 V c) (arr2 V c) (arr3 V c) (ix3 h n d) := by
  have e : t.val = 15625 * h.val + t.val % 15625 := by omega
  have hlt : 15625 * h.val + t.val % 15625 < cfg7.N := e ▸ t.isLt
  rw [outsAt_congr V c t.val (15625 * h.val + t.val % 15625) t.isLt hlt e,
    acc_eq V c h n d (t.val % 15625) (by omega) hlt, h3, out_apply]

/-- The region's output array, at its literal type. -/
abbrev result (c : Dev nD) : FVec Ideal S2x42880x64 .f32 := out (arr0 V c) (arr1 V c) (arr2 V c) (arr3 V c)

/-- What a core's last step writes back is that core's block of the output array. -/
theorem flushed_eq (c : Dev nD) (t : Fin cfg7.N) (hf : (cfg7.win 4).flush t = true) :
    (dat7 V c).flushed 4 t = ((cfg7.win 4).blk t).view.read (Elt Ideal) (result V c) := by
  have hN : cfg7.N = 31250 := N_7
  have hlt : t.val < 31250 := lt_of_lt_of_eq t.isLt hN
  have h3 : t.val % 15625 + 1 = 15625 := by have := (flush7_4 t).mp hf; omega
  obtain ⟨-, -, -, -, -, -, -, -, -, -, -, e0, e1, e2⟩ := idx_facts t
  show (cfg7.win 4).cut (grid7.coords t) ((dat7 V c).after 4 t) = _
  rw [after7_4]
  refine funext fun (y : S1x42880x64.Idx) => ?_
  rw [View.read_apply]
  have y0 : (y 0).val < 1 := (y 0).isLt
  have hy : y = ix3 (0 : Fin 1) (y 1) (y 2) := funext fun a => by
    match a with
    | ⟨0, _⟩ => exact Fin.ext (by show (y 0).val = 0; omega)
    | ⟨1, _⟩ => rfl
    | ⟨2, _⟩ => rfl
  show (outsAt7 V c t.val t.isLt y : EReal) = result V c (((cfg7.win 4).blk t).view.emb y)
  refine (congrArg (fun z : S1x42880x64.Idx => (outsAt7 V c t.val t.isLt z : EReal)) hy).trans ?_
  refine (last_eq V c t h3 ⟨t.val / 15625, by omega⟩ rfl (y 1) (y 2)).trans (congrArg (result V c) (funext fun a => Fin.ext ?_))
  match a with
  | ⟨0, _⟩ => show t.val / 15625 = win7_4.index t (0 : Fin 3) * 1 + 1 * (y 0).val; omega
  | ⟨1, _⟩ => show (y 1).val = win7_4.index t (1 : Fin 3) * 42880 + 1 * (y 1).val; omega
  | ⟨2, _⟩ => show (y 2).val = win7_4.index t (2 : Fin 3) * 64 + 1 * (y 2).val; omega

/-- THE REGION'S VALUE: after the run the output array holds, at (h, n, d), the sum over core h's 15625 steps of
    what each step adds at (n, d): every entry lies in the block its core's last step writes back. -/
theorem value (V : (c : Dev nD) → (b : Ref sig .tc) → Buf (Elt Ideal) ((c : Thread nD τ).loc b)) (c : Dev nD) :
    (Gen.dat7 (F := Ideal) V c).arrAt 4 cfg7.N
      = out (V c (Pipeline.arrRef spec7 0)) (V c (Pipeline.arrRef spec7 1)) (V c (Pipeline.arrRef spec7 2)) (V c (Pipeline.arrRef spec7 3)) :=
  (dat7 V c).arrAt_eq_of_cover 4 (result V c) (fun t hf => flushed_eq V c t hf) fun (i : S2x42880x64.Idx) => by
    have hN : cfg7.N = 31250 := N_7
    have i0 : (i 0).val < 2 := (i 0).isLt
    have i1 : (i 1).val < 42880 := (i 1).isLt
    have i2 : (i 2).val < 64 := (i 2).isLt
    have hlt : 15625 * (i 0).val + (15625 - 1) < cfg7.N := lt_of_lt_of_eq (by omega) hN.symm
    obtain ⟨-, -, -, -, -, -, -, -, -, -, -, e0, e1, e2⟩ := idx_facts ⟨15625 * (i 0).val + (15625 - 1), hlt⟩
    refine ⟨⟨15625 * (i 0).val + (15625 - 1), hlt⟩, (flush7_4 _).mpr (by dsimp only; omega), ?_⟩
    show i ∈ ((View.whole main_v197).slice (win7_4.rect ⟨15625 * (i 0).val + (15625 - 1), hlt⟩)).set
    rw [View.set_slice_whole, Rect.mem_set_unit]
    intro a
    match a with
    | ⟨0, _⟩ =>
      show win7_4.index ⟨15625 * (i 0).val + (15625 - 1), hlt⟩ (0 : Fin 3) * 1 ≤ (i 0).val
        ∧ (i 0).val < win7_4.index ⟨15625 * (i 0).val + (15625 - 1), hlt⟩ (0 : Fin 3) * 1 + 1
      rw [e0]; dsimp only; omega
    | ⟨1, _⟩ =>
      show win7_4.index ⟨15625 * (i 0).val + (15625 - 1), hlt⟩ (1 : Fin 3) * 42880 ≤ (i 1).val
        ∧ (i 1).val < win7_4.index ⟨15625 * (i 0).val + (15625 - 1), hlt⟩ (1 : Fin 3) * 42880 + 42880
      rw [e1]; omega
    | ⟨2, _⟩ =>
      show win7_4.index ⟨15625 * (i 0).val + (15625 - 1), hlt⟩ (2 : Fin 3) * 64 ≤ (i 2).val
        ∧ (i 2).val < win7_4.index ⟨15625 * (i 0).val + (15625 - 1), hlt⟩ (2 : Fin 3) * 64 + 64
      rw [e2]; omega

end AtIdeal

end Cert.KernelIdeal.Reg7

end
-- ==== Proof.Args.lean ====
/-
  The seven argument arrays of the two programs, as one record: user and spot embeddings, the spot graph's edge weights, the
  bipartite edge list's user and spot indices, and the two graphs' (row, column) edge index arrays.
-/
import Idealize.ShloMosaic.PureOps.Ideal

noncomputable section

namespace Cert

open Idealize.ShloMosaic

structure Args where
  a0 : FVec Ideal ⟨2, ![27094, 64]⟩ .f32
  a1 : FVec Ideal ⟨2, ![42852, 64]⟩ .f32
  a2 : FVec Ideal ⟨1, ![1285560]⟩ .f32
  a3 : IVec ⟨1, ![2000000]⟩ 32
  a4 : IVec ⟨1, ![2000000]⟩ 32
  a5 : IVec ⟨2, ![2, 541880]⟩ 32
  a6 : IVec ⟨2, ![2, 1285560]⟩ 32

end Cert

end
-- ==== Proof.KDefs.lean ====
/- The idealized kernel program's named arrays as functions of the seven argument arrays: compositions of the host stretches'
   functions and the regions' output functions, in program order. -/
import proofs.«400075_j26585847562450_2_alg».proof.Proof.Args
import proofs.«400075_j26585847562450_2_alg».proof.Proof.RegDefs
import proofs.«400075_j26585847562450_2_alg».proof.Proof.KHost0
import proofs.«400075_j26585847562450_2_alg».proof.Proof.KHost1
import proofs.«400075_j26585847562450_2_alg».proof.Proof.KHost2
import proofs.«400075_j26585847562450_2_alg».proof.Proof.KHost3
import proofs.«400075_j26585847562450_2_alg».proof.Proof.KHost4
import proofs.«400075_j26585847562450_2_alg».proof.Proof.KHost5
import proofs.«400075_j26585847562450_2_alg».proof.Proof.KHost6
import proofs.«400075_j26585847562450_2_alg».proof.Proof.KHost7
import proofs.«400075_j26585847562450_2_alg».proof.Proof.KHost8

set_option maxRecDepth 16384

noncomputable section

namespace Cert.KernelIdeal.KDefs

open Cert.KernelIdeal Cert.KernelIdeal.Gen Idealize.ShloMosaic Idealize.SL.Sem

variable (A : Cert.Args)

def k1 : (main_v1 : Ref sig .tc).ty.Contents (Elt Ideal) := KHost0.v1 (F := Ideal) A.a5
def k3 : (main_v3 : Ref sig .tc).ty.Contents (Elt Ideal) := KHost0.v3 (F := Ideal) A.a5
def k11 : (main_v11 : Ref sig .tc).ty.Contents (Elt Ideal) := KHost0.v11 (F := Ideal) (k3 A)
def k26 : (main_v26 : Ref sig .tc).ty.Contents (Elt Ideal) := KHost0.v26 (F := Ideal) (k11 A) (k1 A) (k3 A)
def k28 : (main_v28 : Ref sig .tc).ty.Contents (Elt Ideal) := KHost0.v28 (F := Ideal) A.a0
def k30 : (main_v30 : Ref sig .tc).ty.Contents (Elt Ideal) := KHost0.v30 (F := Ideal) (k1 A)
def k32 : (main_v32 : Ref sig .tc).ty.Contents (Elt Ideal) := KHost0.v32 (F := Ideal) (k3 A)
def k34 : (main_v34 : Ref sig .tc).ty.Contents (Elt Ideal) := KHost0.v34 (F := Ideal) (k26 A)
def k35 : (main_v35 : Ref sig .tc).ty.Contents (Elt Ideal) := Reg0.out (k30 A) (k32 A) (k34 A) (k28 A)

def k41 : (main_v41 : Ref sig .tc).ty.Contents (Elt Ideal) := KHost1.v41 (F := Ideal) (k35 A)
def k42 : (main_v42 : Ref sig .tc).ty.Contents (Elt Ideal) := KHost1.v42 (F := Ideal) A.a0 (k41 A)
def k44 : (main_v44 : Ref sig .tc).ty.Contents (Elt Ideal) := KHost1.v44 (F := Ideal) A.a6
def k46 : (main_v46 : Ref sig .tc).ty.Contents (Elt Ideal) := KHost1.v46 (F := Ideal) A.a6
def k53 : (main_v53 : Ref sig .tc).ty.Contents (Elt Ideal) := KHost1.v53 (F := Ideal) (k46 A) A.a2
def k69 : (main_v69 : Ref sig .tc).ty.Contents (Elt Ideal) := KHost1.v69 (F := Ideal) (k53 A) (k44 A) A.a2 (k46 A)
def k71 : (main_v71 : Ref sig .tc).ty.Contents (Elt Ideal) := KHost1.v71 (F := Ideal) A.a1
def k73 : (main_v73 : Ref sig .tc).ty.Contents (Elt Ideal) := KHost1.v73 (F := Ideal) (k44 A)
def k75 : (main_v75 : Ref sig .tc).ty.Contents (Elt Ideal) := KHost1.v75 (F := Ideal) (k46 A)
def k77 : (main_v77 : Ref sig .tc).ty.Contents (Elt Ideal) := KHost1.v77 (F := Ideal) (k69 A)
def k78 : (main_v78 : Ref sig .tc).ty.Contents (Elt Ideal) := Reg1.out (k73 A) (k75 A) (k77 A) (k71 A)

def k84 : (main_v84 : Ref sig .tc).ty.Contents (Elt Ideal) := KHost2.v84 (F := Ideal) (k78 A)
def k85 : (main_v85 : Ref sig .tc).ty.Contents (Elt Ideal) := KHost2.v85 (F := Ideal) A.a1 (k84 A)
def k109 : (main_v109 : Ref sig .tc).ty.Contents (Elt Ideal) := KHost2.v109 (F := Ideal) A.a3 A.a4
def k111 : (main_v111 : Ref sig .tc).ty.Contents (Elt Ideal) := KHost2.v111 (F := Ideal) (k85 A)
def k113 : (main_v113 : Ref sig .tc).ty.Contents (Elt Ideal) := KHost2.v113 (F := Ideal) A.a4
def k115 : (main_v115 : Ref sig .tc).ty.Contents (Elt Ideal) := KHost2.v115 (F := Ideal) A.a3
def k117 : (main_v117 : Ref sig .tc).ty.Contents (Elt Ideal) := KHost2.v117 (F := Ideal) (k109 A)
def k118 : (main_v118 : Ref sig .tc).ty.Contents (Elt Ideal) := Reg2.out (k113 A) (k115 A) (k117 A) (k111 A)

def k124 : (main_v124 : Ref sig .tc).ty.Contents (Elt Ideal) := KHost3.v124 (F := Ideal) (k118 A)
def k126 : (main_v126 : Ref sig .tc).ty.Contents (Elt Ideal) := KHost3.v126 (F := Ideal) (k42 A)
def k128 : (main_v128 : Ref sig .tc).ty.Contents (Elt Ideal) := KHost3.v128 (F := Ideal) A.a3
def k130 : (main_v130 : Ref sig .tc).ty.Contents (Elt Ideal) := KHost3.v130 (F := Ideal) A.a4
def k132 : (main_v132 : Ref sig .tc).ty.Contents (Elt Ideal) := KHost3.v132 (F := Ideal) (k109 A)
def k133 : (main_v133 : Ref sig .tc).ty.Contents (Elt Ideal) := Reg3.out (k128 A) (k130 A) (k132 A) (k126 A)

def k139 : (main_v139 : Ref sig .tc).ty.Contents (Elt Ideal) := KHost4.v139 (F := Ideal) (k133 A)
def k140 : (main_v140 : Ref sig .tc).ty.Contents (Elt Ideal) := KHost4.v140 (F := Ideal) (k85 A) (k139 A)
def k141 : (main_v141 : Ref sig .tc).ty.Contents (Elt Ideal) := KHost4.v141 (F := Ideal) (k42 A) (k124 A)
def k143 : (main_v143 : Ref sig .tc).ty.Contents (Elt Ideal) := KHost4.v143 (F := Ideal) (k139 A)
def k145 : (main_v145 : Ref sig .tc).ty.Contents (Elt Ideal) := KHost4.v145 (F := Ideal) A.a4
def k147 : (main_v147 : Ref sig .tc).ty.Contents (Elt Ideal) := KHost4.v147 (F := Ideal) A.a3
def k149 : (main_v149 : Ref sig .tc).ty.Contents (Elt Ideal) := KHost4.v149 (F := Ideal) (k109 A)
def k150 : (main_v150 : Ref sig .tc).ty.Contents (Elt Ideal) := Reg4.out (k145 A) (k147 A) (k149 A) (k143 A)

def k156 : (main_v156 : Ref sig .tc).ty.Contents (Elt Ideal) := KHost5.v156 (F := Ideal) (k150 A)
def k158 : (main_v158 : Ref sig .tc).ty.Contents (Elt Ideal) := KHost5.v158 (F := Ideal) (k124 A)
def k160 : (main_v160 : Ref sig .tc).ty.Contents (Elt Ideal) := KHost5.v160 (F := Ideal) A.a3
def k162 : (main_v162 : Ref sig .tc).ty.Contents (Elt Ideal) := KHost5.v162 (F := Ideal) A.a4
def k164 : (main_v164 : Ref sig .tc).ty.Contents (Elt Ideal) := KHost5.v164 (F := Ideal) (k109 A)
def k165 : (main_v165 : Ref sig .tc).ty.Contents (Elt Ideal) := Reg5.out (k160 A) (k162 A) (k164 A) (k158 A)

def k171 : (main_v171 : Ref sig .tc).ty.Contents (Elt Ideal) := KHost6.v171 (F := Ideal) (k165 A)
def k172 : (main_v172 : Ref sig .tc).ty.Contents (Elt Ideal) := KHost6.v172 (F := Ideal) (k140 A) (k171 A)
def k173 : (main_v173 : Ref sig .tc).ty.Contents (Elt Ideal) := KHost6.v173 (F := Ideal) (k141 A) (k156 A)
def k175 : (main_v175 : Ref sig .tc).ty.Contents (Elt Ideal) := KHost6.v175 (F := Ideal) (k171 A)
def k177 : (main_v177 : Ref sig .tc).ty.Contents (Elt Ideal) := KHost6.v177 (F := Ideal) A.a4
def k179 : (main_v179 : Ref sig .tc).ty.Contents (Elt Ideal) := KHost6.v179 (F := Ideal) A.a3
def k181 : (main_v181 : Ref sig .tc).ty.Contents (Elt Ideal) := KHost6.v181 (F := Ideal) (k109 A)
def k182 : (main_v182 : Ref sig .tc).ty.Contents (Elt Ideal) := Reg6.out (k177 A) (k179 A) (k181 A) (k175 A)

def k188 : (main_v188 : Ref sig .tc).ty.Contents (Elt Ideal) := KHost7.v188 (F := Ideal) (k182 A)
def k190 : (main_v190 : Ref sig .tc).ty.Contents (Elt Ideal) := KHost7.v190 (F := Ideal) (k156 A)
def k192 : (main_v192 : Ref sig .tc).ty.Contents (Elt Ideal) := KHost7.v192 (F := Ideal) A.a3
def k194 : (main_v194 : Ref sig .tc).ty.Contents (Elt Ideal) := KHost7.v194 (F := Ideal) A.a4
def k196 : (main_v196 : Ref sig .tc).ty.Contents (Elt Ideal) := KHost7.v196 (F := Ideal) (k109 A)
def k197 : (main_v197 : Ref sig .tc).ty.Contents (Elt Ideal) := Reg7.out (k192 A) (k194 A) (k196 A) (k190 A)

def k203 : (main_v203 : Ref sig .tc).ty.Contents (Elt Ideal) := KHost8.v203 (F := Ideal) (k197 A)
def k204 : (main_v204 : Ref sig .tc).ty.Contents (Elt Ideal) := KHost8.v204 (F := Ideal) (k172 A) (k203 A)
def k205 : (main_v205 : Ref sig .tc).ty.Contents (Elt Ideal) := KHost8.v205 (F := Ideal) (k173 A) (k188 A)
def k207 : (main_v207 : Ref sig .tc).ty.Contents (Elt Ideal) := KHost8.v207 (F := Ideal) (k204 A)
def k209 : (main_v209 : Ref sig .tc).ty.Contents (Elt Ideal) := KHost8.v209 (F := Ideal) (k205 A)

end Cert.KernelIdeal.KDefs

end
-- ==== Proof.KVal.lean ====
/- The idealized kernel program's named arrays as functions of the launch memory, and the fold through @main's segments
   read at each of them: a host stretch's buffers by the stretch's functions, a region's output array by the region's
   value, a buffer a segment does not write by what it held before. -/
import proofs.«400075_j26585847562450_2_alg».proof.Proof.KIFW
import proofs.«400075_j26585847562450_2_alg».proof.Proof.KHost0
import proofs.«400075_j26585847562450_2_alg».proof.Proof.KHost1
import proofs.«400075_j26585847562450_2_alg».proof.Proof.KHost2
import proofs.«400075_j26585847562450_2_alg».proof.Proof.KHost3
import proofs.«400075_j26585847562450_2_alg».proof.Proof.KHost4
import proofs.«400075_j26585847562450_2_alg».proof.Proof.KHost5
import proofs.«400075_j26585847562450_2_alg».proof.Proof.KHost6
import proofs.«400075_j26585847562450_2_alg».proof.Proof.KHost7
import proofs.«400075_j26585847562450_2_alg».proof.Proof.KHost8
import proofs.«400075_j26585847562450_2_alg».proof.Proof.Reg0
import proofs.«400075_j26585847562450_2_alg».proof.Proof.Reg1
import proofs.«400075_j26585847562450_2_alg».proof.Proof.Reg2
import proofs.«400075_j26585847562450_2_alg».proof.Proof.Reg3
import proofs.«400075_j26585847562450_2_alg».proof.Proof.Reg4
import proofs.«400075_j26585847562450_2_alg».proof.Proof.Reg5
import proofs.«400075_j26585847562450_2_alg».proof.Proof.Reg6
import proofs.«400075_j26585847562450_2_alg».proof.Proof.Reg7
import proofs.«400075_j26585847562450_2_alg».proof.Proof.KDefs

set_option maxRecDepth 16384

noncomputable section

namespace Cert.KernelIdeal.KVal

open Cert.KernelIdeal Cert.KernelIdeal.Gen Cert.KernelIdeal.KDefs Idealize.ShloMosaic Idealize.ShloMosaic.TcCoe Idealize.SL.Sem

variable (m : (ℓ : Loc nD τ sig) → Buf (Elt Ideal) ℓ) (ρ : Dev nD → PrngReg) (c : Dev nD)

/-- The argument arrays as launched. -/
def argsK : Cert.Args := ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6)⟩

/-! ## The launch memory -/
theorem w0_arg0 : W0 m ρ c (Proc.devRef .tc main_arg0) = (argsK m c).a0 := rfl
theorem w0_arg1 : W0 m ρ c (Proc.devRef .tc main_arg1) = (argsK m c).a1 := rfl
theorem w0_arg2 : W0 m ρ c (Proc.devRef .tc main_arg2) = (argsK m c).a2 := rfl
theorem w0_arg3 : W0 m ρ c (Proc.devRef .tc main_arg3) = (argsK m c).a3 := rfl
theorem w0_arg4 : W0 m ρ c (Proc.devRef .tc main_arg4) = (argsK m c).a4 := rfl
theorem w0_arg5 : W0 m ρ c (Proc.devRef .tc main_arg5) = (argsK m c).a5 := rfl
theorem w0_arg6 : W0 m ρ c (Proc.devRef .tc main_arg6) = (argsK m c).a6 := rfl

/-! ## Host stretch 0: from W0 to W11 -/
theorem w11_v1 : W11 m ρ c (Proc.devRef .tc main_v1) = k1 (argsK m c) := by
  refine (KHost0.v1_eq (W0 m ρ c)).trans ?_
  show KHost0.v1 (F := Ideal) (W0 m ρ c (Proc.devRef .tc main_arg5)) = KHost0.v1 (F := Ideal) ((argsK m c).a5)
  rw [w0_arg5 m ρ c]
theorem w11_v3 : W11 m ρ c (Proc.devRef .tc main_v3) = k3 (argsK m c) := by
  refine (KHost0.v3_eq (W0 m ρ c)).trans ?_
  show KHost0.v3 (F := Ideal) (W0 m ρ c (Proc.devRef .tc main_arg5)) = KHost0.v3 (F := Ideal) ((argsK m c).a5)
  rw [w0_arg5 m ρ c]
theorem w11_v11 : W11 m ρ c (Proc.devRef .tc main_v11) = k11 (argsK m c) := by
  refine (KHost0.v11_eq (W0 m ρ c)).trans ?_
  show KHost0.v11 (F := Ideal) (W11 m ρ c (Proc.devRef .tc main_v3)) = KHost0.v11 (F := Ideal) (k3 (argsK m c))
  rw [w11_v3 m ρ c]
theorem w11_v26 : W11 m ρ c (Proc.devRef .tc main_v26) = k26 (argsK m c) := by
  refine (KHost0.v26_eq (W0 m ρ c)).trans ?_
  show KHost0.v26 (F := Ideal) (W11 m ρ c (Proc.devRef .tc main_v11)) (W11 m ρ c (Proc.devRef .tc main_v1)) (W11 m ρ c (Proc.devRef .tc main_v3)) = KHost0.v26 (F := Ideal) (k11 (argsK m c)) (k1 (argsK m c)) (k3 (argsK m c))
  rw [w11_v11 m ρ c, w11_v1 m ρ c, w11_v3 m ρ c]
theorem w11_v28 : W11 m ρ c (Proc.devRef .tc main_v28) = k28 (argsK m c) := by
  refine (KHost0.v28_eq (W0 m ρ c)).trans ?_
  show KHost0.v28 (F := Ideal) (W0 m ρ c (Proc.devRef .tc main_arg0)) = KHost0.v28 (F := Ideal) ((argsK m c).a0)
  rw [w0_arg0 m ρ c]
theorem w11_v30 : W11 m ρ c (Proc.devRef .tc main_v30) = k30 (argsK m c) := by
  refine (KHost0.v30_eq (W0 m ρ c)).trans ?_
  show KHost0.v30 (F := Ideal) (W11 m ρ c (Proc.devRef .tc main_v1)) = KHost0.v30 (F := Ideal) (k1 (argsK m c))
  rw [w11_v1 m ρ c]
theorem w11_v32 : W11 m ρ c (Proc.devRef .tc main_v32) = k32 (argsK m c) := by
  refine (KHost0.v32_eq (W0 m ρ c)).trans ?_
  show KHost0.v32 (F := Ideal) (W11 m ρ c (Proc.devRef .tc main_v3)) = KHost0.v32 (F := Ideal) (k3 (argsK m c))
  rw [w11_v3 m ρ c]
theorem w11_v34 : W11 m ρ c (Proc.devRef .tc main_v34) = k34 (argsK m c) := by
  refine (KHost0.v34_eq (W0 m ρ c)).trans ?_
  show KHost0.v34 (F := Ideal) (W11 m ρ c (Proc.devRef .tc main_v26)) = KHost0.v34 (F := Ideal) (k26 (argsK m c))
  rw [w11_v26 m ρ c]
theorem w11_arg0 : W11 m ρ c (Proc.devRef .tc main_arg0) = (argsK m c).a0 :=
  (KHost0.keep_arg0 (W0 m ρ c)).trans (w0_arg0 m ρ c)
theorem w11_arg1 : W11 m ρ c (Proc.devRef .tc main_arg1) = (argsK m c).a1 :=
  (KHost0.keep_arg1 (W0 m ρ c)).trans (w0_arg1 m ρ c)
theorem w11_arg2 : W11 m ρ c (Proc.devRef .tc main_arg2) = (argsK m c).a2 :=
  (KHost0.keep_arg2 (W0 m ρ c)).trans (w0_arg2 m ρ c)
theorem w11_arg3 : W11 m ρ c (Proc.devRef .tc main_arg3) = (argsK m c).a3 :=
  (KHost0.keep_arg3 (W0 m ρ c)).trans (w0_arg3 m ρ c)
theorem w11_arg4 : W11 m ρ c (Proc.devRef .tc main_arg4) = (argsK m c).a4 :=
  (KHost0.keep_arg4 (W0 m ρ c)).trans (w0_arg4 m ρ c)
theorem w11_arg6 : W11 m ρ c (Proc.devRef .tc main_arg6) = (argsK m c).a6 :=
  (KHost0.keep_arg6 (W0 m ρ c)).trans (w0_arg6 m ρ c)

/-! ## Region 0: from W11 to W12 -/
theorem w12_v35 : W12 m ρ c (Proc.devRef .tc main_v35) = k35 (argsK m c) := by
  refine (W12_arr m ρ c 4).trans ?_
  refine (Reg0.value (V11 m ρ) c).trans ?_
  show Reg0.out (W11 m ρ c (Proc.devRef .tc main_v30)) (W11 m ρ c (Proc.devRef .tc main_v32)) (W11 m ρ c (Proc.devRef .tc main_v34)) (W11 m ρ c (Proc.devRef .tc main_v28)) = Reg0.out (k30 (argsK m c)) (k32 (argsK m c)) (k34 (argsK m c)) (k28 (argsK m c))
  rw [w11_v30 m ρ c, w11_v32 m ρ c, w11_v34 m ρ c, w11_v28 m ρ c]
theorem w12_arg0 : W12 m ρ c (Proc.devRef .tc main_arg0) = (argsK m c).a0 :=
  (W12_of_ne m ρ c main_arg0 (by decide)).trans (w11_arg0 m ρ c)
theorem w12_arg1 : W12 m ρ c (Proc.devRef .tc main_arg1) = (argsK m c).a1 :=
  (W12_of_ne m ρ c main_arg1 (by decide)).trans (w11_arg1 m ρ c)
theorem w12_arg2 : W12 m ρ c (Proc.devRef .tc main_arg2) = (argsK m c).a2 :=
  (W12_of_ne m ρ c main_arg2 (by decide)).trans (w11_arg2 m ρ c)
theorem w12_arg3 : W12 m ρ c (Proc.devRef .tc main_arg3) = (argsK m c).a3 :=
  (W12_of_ne m ρ c main_arg3 (by decide)).trans (w11_arg3 m ρ c)
theorem w12_arg4 : W12 m ρ c (Proc.devRef .tc main_arg4) = (argsK m c).a4 :=
  (W12_of_ne m ρ c main_arg4 (by decide)).trans (w11_arg4 m ρ c)
theorem w12_arg6 : W12 m ρ c (Proc.devRef .tc main_arg6) = (argsK m c).a6 :=
  (W12_of_ne m ρ c main_arg6 (by decide)).trans (w11_arg6 m ρ c)

/-! ## Host stretch 1: from W12 to W23 -/
theorem w23_v41 : W23 m ρ c (Proc.devRef .tc main_v41) = k41 (argsK m c) := by
  refine (KHost1.v41_eq (W12 m ρ c)).trans ?_
  show KHost1.v41 (F := Ideal) (W12 m ρ c (Proc.devRef .tc main_v35)) = KHost1.v41 (F := Ideal) (k35 (argsK m c))
  rw [w12_v35 m ρ c]
theorem w23_v42 : W23 m ρ c (Proc.devRef .tc main_v42) = k42 (argsK m c) := by
  refine (KHost1.v42_eq (W12 m ρ c)).trans ?_
  show KHost1.v42 (F := Ideal) (W12 m ρ c (Proc.devRef .tc main_arg0)) (W23 m ρ c (Proc.devRef .tc main_v41)) = KHost1.v42 (F := Ideal) ((argsK m c).a0) (k41 (argsK m c))
  rw [w12_arg0 m ρ c, w23_v41 m ρ c]
theorem w23_v44 : W23 m ρ c (Proc.devRef .tc main_v44) = k44 (argsK m c) := by
  refine (KHost1.v44_eq (W12 m ρ c)).trans ?_
  show KHost1.v44 (F := Ideal) (W12 m ρ c (Proc.devRef .tc main_arg6)) = KHost1.v44 (F := Ideal) ((argsK m c).a6)
  rw [w12_arg6 m ρ c]
theorem w23_v46 : W23 m ρ c (Proc.devRef .tc main_v46) = k46 (argsK m c) := by
  refine (KHost1.v46_eq (W12 m ρ c)).trans ?_
  show KHost1.v46 (F := Ideal) (W12 m ρ c (Proc.devRef .tc main_arg6)) = KHost1.v46 (F := Ideal) ((argsK m c).a6)
  rw [w12_arg6 m ρ c]
theorem w23_v53 : W23 m ρ c (Proc.devRef .tc main_v53) = k53 (argsK m c) := by
  refine (KHost1.v53_eq (W12 m ρ c)).trans ?_
  show KHost1.v53 (F := Ideal) (W23 m ρ c (Proc.devRef .tc main_v46)) (W12 m ρ c (Proc.devRef .tc main_arg2)) = KHost1.v53 (F := Ideal) (k46 (argsK m c)) ((argsK m c).a2)
  rw [w23_v46 m ρ c, w12_arg2 m ρ c]
theorem w23_v69 : W23 m ρ c (Proc.devRef .tc main_v69) = k69 (argsK m c) := by
  refine (KHost1.v69_eq (W12 m ρ c)).trans ?_
  show KHost1.v69 (F := Ideal) (W23 m ρ c (Proc.devRef .tc main_v53)) (W23 m ρ c (Proc.devRef .tc main_v44)) (W12 m ρ c (Proc.devRef .tc main_arg2)) (W23 m ρ c (Proc.devRef .tc main_v46)) = KHost1.v69 (F := Ideal) (k53 (argsK m c)) (k44 (argsK m c)) ((argsK m c).a2) (k46 (argsK m c))
  rw [w23_v53 m ρ c, w23_v44 m ρ c, w12_arg2 m ρ c, w23_v46 m ρ c]
theorem w23_v71 : W23 m ρ c (Proc.devRef .tc main_v71) = k71 (argsK m c) := by
  refine (KHost1.v71_eq (W12 m ρ c)).trans ?_
  show KHost1.v71 (F := Ideal) (W12 m ρ c (Proc.devRef .tc main_arg1)) = KHost1.v71 (F := Ideal) ((argsK m c).a1)
  rw [w12_arg1 m ρ c]
theorem w23_v73 : W23 m ρ c (Proc.devRef .tc main_v73) = k73 (argsK m c) := by
  refine (KHost1.v73_eq (W12 m ρ c)).trans ?_
  show KHost1.v73 (F := Ideal) (W23 m ρ c (Proc.devRef .tc main_v44)) = KHost1.v73 (F := Ideal) (k44 (argsK m c))
  rw [w23_v44 m ρ c]
theorem w23_v75 : W23 m ρ c (Proc.devRef .tc main_v75) = k75 (argsK m c) := by
  refine (KHost1.v75_eq (W12 m ρ c)).trans ?_
  show KHost1.v75 (F := Ideal) (W23 m ρ c (Proc.devRef .tc main_v46)) = KHost1.v75 (F := Ideal) (k46 (argsK m c))
  rw [w23_v46 m ρ c]
theorem w23_v77 : W23 m ρ c (Proc.devRef .tc main_v77) = k77 (argsK m c) := by
  refine (KHost1.v77_eq (W12 m ρ c)).trans ?_
  show KHost1.v77 (F := Ideal) (W23 m ρ c (Proc.devRef .tc main_v69)) = KHost1.v77 (F := Ideal) (k69 (argsK m c))
  rw [w23_v69 m ρ c]
theorem w23_arg1 : W23 m ρ c (Proc.devRef .tc main_arg1) = (argsK m c).a1 :=
  (KHost1.keep_arg1 (W12 m ρ c)).trans (w12_arg1 m ρ c)
theorem w23_arg3 : W23 m ρ c (Proc.devRef .tc main_arg3) = (argsK m c).a3 :=
  (KHost1.keep_arg3 (W12 m ρ c)).trans (w12_arg3 m ρ c)
theorem w23_arg4 : W23 m ρ c (Proc.devRef .tc main_arg4) = (argsK m c).a4 :=
  (KHost1.keep_arg4 (W12 m ρ c)).trans (w12_arg4 m ρ c)

/-! ## Region 1: from W23 to W24 -/
theorem w24_v78 : W24 m ρ c (Proc.devRef .tc main_v78) = k78 (argsK m c) := by
  refine (W24_arr m ρ c 4).trans ?_
  refine (Reg1.value (V23 m ρ) c).trans ?_
  show Reg1.out (W23 m ρ c (Proc.devRef .tc main_v73)) (W23 m ρ c (Proc.devRef .tc main_v75)) (W23 m ρ c (Proc.devRef .tc main_v77)) (W23 m ρ c (Proc.devRef .tc main_v71)) = Reg1.out (k73 (argsK m c)) (k75 (argsK m c)) (k77 (argsK m c)) (k71 (argsK m c))
  rw [w23_v73 m ρ c, w23_v75 m ρ c, w23_v77 m ρ c, w23_v71 m ρ c]
theorem w24_arg1 : W24 m ρ c (Proc.devRef .tc main_arg1) = (argsK m c).a1 :=
  (W24_of_ne m ρ c main_arg1 (by decide)).trans (w23_arg1 m ρ c)
theorem w24_arg3 : W24 m ρ c (Proc.devRef .tc main_arg3) = (argsK m c).a3 :=
  (W24_of_ne m ρ c main_arg3 (by decide)).trans (w23_arg3 m ρ c)
theorem w24_arg4 : W24 m ρ c (Proc.devRef .tc main_arg4) = (argsK m c).a4 :=
  (W24_of_ne m ρ c main_arg4 (by decide)).trans (w23_arg4 m ρ c)
theorem w24_v42 : W24 m ρ c (Proc.devRef .tc main_v42) = k42 (argsK m c) :=
  (W24_of_ne m ρ c main_v42 (by decide)).trans (w23_v42 m ρ c)

/-! ## Host stretch 2: from W24 to W33 -/
theorem w33_v84 : W33 m ρ c (Proc.devRef .tc main_v84) = k84 (argsK m c) := by
  refine (KHost2.v84_eq (W24 m ρ c)).trans ?_
  show KHost2.v84 (F := Ideal) (W24 m ρ c (Proc.devRef .tc main_v78)) = KHost2.v84 (F := Ideal) (k78 (argsK m c))
  rw [w24_v78 m ρ c]
theorem w33_v85 : W33 m ρ c (Proc.devRef .tc main_v85) = k85 (argsK m c) := by
  refine (KHost2.v85_eq (W24 m ρ c)).trans ?_
  show KHost2.v85 (F := Ideal) (W24 m ρ c (Proc.devRef .tc main_arg1)) (W33 m ρ c (Proc.devRef .tc main_v84)) = KHost2.v85 (F := Ideal) ((argsK m c).a1) (k84 (argsK m c))
  rw [w24_arg1 m ρ c, w33_v84 m ρ c]
theorem w33_v109 : W33 m ρ c (Proc.devRef .tc main_v109) = k109 (argsK m c) := by
  refine (KHost2.v109_eq (W24 m ρ c)).trans ?_
  show KHost2.v109 (F := Ideal) (W24 m ρ c (Proc.devRef .tc main_arg3)) (W24 m ρ c (Proc.devRef .tc main_arg4)) = KHost2.v109 (F := Ideal) ((argsK m c).a3) ((argsK m c).a4)
  rw [w24_arg3 m ρ c, w24_arg4 m ρ c]
theorem w33_v111 : W33 m ρ c (Proc.devRef .tc main_v111) = k111 (argsK m c) := by
  refine (KHost2.v111_eq (W24 m ρ c)).trans ?_
  show KHost2.v111 (F := Ideal) (W33 m ρ c (Proc.devRef .tc main_v85)) = KHost2.v111 (F := Ideal) (k85 (argsK m c))
  rw [w33_v85 m ρ c]
theorem w33_v113 : W33 m ρ c (Proc.devRef .tc main_v113) = k113 (argsK m c) := by
  refine (KHost2.v113_eq (W24 m ρ c)).trans ?_
  show KHost2.v113 (F := Ideal) (W24 m ρ c (Proc.devRef .tc main_arg4)) = KHost2.v113 (F := Ideal) ((argsK m c).a4)
  rw [w24_arg4 m ρ c]
theorem w33_v115 : W33 m ρ c (Proc.devRef .tc main_v115) = k115 (argsK m c) := by
  refine (KHost2.v115_eq (W24 m ρ c)).trans ?_
  show KHost2.v115 (F := Ideal) (W24 m ρ c (Proc.devRef .tc main_arg3)) = KHost2.v115 (F := Ideal) ((argsK m c).a3)
  rw [w24_arg3 m ρ c]
theorem w33_v117 : W33 m ρ c (Proc.devRef .tc main_v117) = k117 (argsK m c) := by
  refine (KHost2.v117_eq (W24 m ρ c)).trans ?_
  show KHost2.v117 (F := Ideal) (W33 m ρ c (Proc.devRef .tc main_v109)) = KHost2.v117 (F := Ideal) (k109 (argsK m c))
  rw [w33_v109 m ρ c]
theorem w33_arg3 : W33 m ρ c (Proc.devRef .tc main_arg3) = (argsK m c).a3 :=
  (KHost2.keep_arg3 (W24 m ρ c)).trans (w24_arg3 m ρ c)
theorem w33_arg4 : W33 m ρ c (Proc.devRef .tc main_arg4) = (argsK m c).a4 :=
  (KHost2.keep_arg4 (W24 m ρ c)).trans (w24_arg4 m ρ c)
theorem w33_v42 : W33 m ρ c (Proc.devRef .tc main_v42) = k42 (argsK m c) :=
  (KHost2.keep_v42 (W24 m ρ c)).trans (w24_v42 m ρ c)

/-! ## Region 2: from W33 to W34 -/
theorem w34_v118 : W34 m ρ c (Proc.devRef .tc main_v118) = k118 (argsK m c) := by
  refine (W34_arr m ρ c 4).trans ?_
  refine (Reg2.value (V33 m ρ) c).trans ?_
  show Reg2.out (W33 m ρ c (Proc.devRef .tc main_v113)) (W33 m ρ c (Proc.devRef .tc main_v115)) (W33 m ρ c (Proc.devRef .tc main_v117)) (W33 m ρ c (Proc.devRef .tc main_v111)) = Reg2.out (k113 (argsK m c)) (k115 (argsK m c)) (k117 (argsK m c)) (k111 (argsK m c))
  rw [w33_v113 m ρ c, w33_v115 m ρ c, w33_v117 m ρ c, w33_v111 m ρ c]
theorem w34_arg3 : W34 m ρ c (Proc.devRef .tc main_arg3) = (argsK m c).a3 :=
  (W34_of_ne m ρ c main_arg3 (by decide)).trans (w33_arg3 m ρ c)
theorem w34_arg4 : W34 m ρ c (Proc.devRef .tc main_arg4) = (argsK m c).a4 :=
  (W34_of_ne m ρ c main_arg4 (by decide)).trans (w33_arg4 m ρ c)
theorem w34_v109 : W34 m ρ c (Proc.devRef .tc main_v109) = k109 (argsK m c) :=
  (W34_of_ne m ρ c main_v109 (by decide)).trans (w33_v109 m ρ c)
theorem w34_v42 : W34 m ρ c (Proc.devRef .tc main_v42) = k42 (argsK m c) :=
  (W34_of_ne m ρ c main_v42 (by decide)).trans (w33_v42 m ρ c)
theorem w34_v85 : W34 m ρ c (Proc.devRef .tc main_v85) = k85 (argsK m c) :=
  (W34_of_ne m ρ c main_v85 (by decide)).trans (w33_v85 m ρ c)

/-! ## Host stretch 3: from W34 to W43 -/
theorem w43_v124 : W43 m ρ c (Proc.devRef .tc main_v124) = k124 (argsK m c) := by
  refine (KHost3.v124_eq (W34 m ρ c)).trans ?_
  show KHost3.v124 (F := Ideal) (W34 m ρ c (Proc.devRef .tc main_v118)) = KHost3.v124 (F := Ideal) (k118 (argsK m c))
  rw [w34_v118 m ρ c]
theorem w43_v126 : W43 m ρ c (Proc.devRef .tc main_v126) = k126 (argsK m c) := by
  refine (KHost3.v126_eq (W34 m ρ c)).trans ?_
  show KHost3.v126 (F := Ideal) (W34 m ρ c (Proc.devRef .tc main_v42)) = KHost3.v126 (F := Ideal) (k42 (argsK m c))
  rw [w34_v42 m ρ c]
theorem w43_v128 : W43 m ρ c (Proc.devRef .tc main_v128) = k128 (argsK m c) := by
  refine (KHost3.v128_eq (W34 m ρ c)).trans ?_
  show KHost3.v128 (F := Ideal) (W34 m ρ c (Proc.devRef .tc main_arg3)) = KHost3.v128 (F := Ideal) ((argsK m c).a3)
  rw [w34_arg3 m ρ c]
theorem w43_v130 : W43 m ρ c (Proc.devRef .tc main_v130) = k130 (argsK m c) := by
  refine (KHost3.v130_eq (W34 m ρ c)).trans ?_
  show KHost3.v130 (F := Ideal) (W34 m ρ c (Proc.devRef .tc main_arg4)) = KHost3.v130 (F := Ideal) ((argsK m c).a4)
  rw [w34_arg4 m ρ c]
theorem w43_v132 : W43 m ρ c (Proc.devRef .tc main_v132) = k132 (argsK m c) := by
  refine (KHost3.v132_eq (W34 m ρ c)).trans ?_
  show KHost3.v132 (F := Ideal) (W34 m ρ c (Proc.devRef .tc main_v109)) = KHost3.v132 (F := Ideal) (k109 (argsK m c))
  rw [w34_v109 m ρ c]
theorem w43_arg3 : W43 m ρ c (Proc.devRef .tc main_arg3) = (argsK m c).a3 :=
  (KHost3.keep_arg3 (W34 m ρ c)).trans (w34_arg3 m ρ c)
theorem w43_arg4 : W43 m ρ c (Proc.devRef .tc main_arg4) = (argsK m c).a4 :=
  (KHost3.keep_arg4 (W34 m ρ c)).trans (w34_arg4 m ρ c)
theorem w43_v42 : W43 m ρ c (Proc.devRef .tc main_v42) = k42 (argsK m c) :=
  (KHost3.keep_v42 (W34 m ρ c)).trans (w34_v42 m ρ c)
theorem w43_v85 : W43 m ρ c (Proc.devRef .tc main_v85) = k85 (argsK m c) :=
  (KHost3.keep_v85 (W34 m ρ c)).trans (w34_v85 m ρ c)
theorem w43_v109 : W43 m ρ c (Proc.devRef .tc main_v109) = k109 (argsK m c) :=
  (KHost3.keep_v109 (W34 m ρ c)).trans (w34_v109 m ρ c)

/-! ## Region 3: from W43 to W44 -/
theorem w44_v133 : W44 m ρ c (Proc.devRef .tc main_v133) = k133 (argsK m c) := by
  refine (W44_arr m ρ c 4).trans ?_
  refine (Reg3.value (V43 m ρ) c).trans ?_
  show Reg3.out (W43 m ρ c (Proc.devRef .tc main_v128)) (W43 m ρ c (Proc.devRef .tc main_v130)) (W43 m ρ c (Proc.devRef .tc main_v132)) (W43 m ρ c (Proc.devRef .tc main_v126)) = Reg3.out (k128 (argsK m c)) (k130 (argsK m c)) (k132 (argsK m c)) (k126 (argsK m c))
  rw [w43_v128 m ρ c, w43_v130 m ρ c, w43_v132 m ρ c, w43_v126 m ρ c]
theorem w44_arg3 : W44 m ρ c (Proc.devRef .tc main_arg3) = (argsK m c).a3 :=
  (W44_of_ne m ρ c main_arg3 (by decide)).trans (w43_arg3 m ρ c)
theorem w44_arg4 : W44 m ρ c (Proc.devRef .tc main_arg4) = (argsK m c).a4 :=
  (W44_of_ne m ρ c main_arg4 (by decide)).trans (w43_arg4 m ρ c)
theorem w44_v109 : W44 m ρ c (Proc.devRef .tc main_v109) = k109 (argsK m c) :=
  (W44_of_ne m ρ c main_v109 (by decide)).trans (w43_v109 m ρ c)
theorem w44_v124 : W44 m ρ c (Proc.devRef .tc main_v124) = k124 (argsK m c) :=
  (W44_of_ne m ρ c main_v124 (by decide)).trans (w43_v124 m ρ c)
theorem w44_v42 : W44 m ρ c (Proc.devRef .tc main_v42) = k42 (argsK m c) :=
  (W44_of_ne m ρ c main_v42 (by decide)).trans (w43_v42 m ρ c)
theorem w44_v85 : W44 m ρ c (Proc.devRef .tc main_v85) = k85 (argsK m c) :=
  (W44_of_ne m ρ c main_v85 (by decide)).trans (w43_v85 m ρ c)

/-! ## Host stretch 4: from W44 to W53 -/
theorem w53_v139 : W53 m ρ c (Proc.devRef .tc main_v139) = k139 (argsK m c) := by
  refine (KHost4.v139_eq (W44 m ρ c)).trans ?_
  show KHost4.v139 (F := Ideal) (W44 m ρ c (Proc.devRef .tc main_v133)) = KHost4.v139 (F := Ideal) (k133 (argsK m c))
  rw [w44_v133 m ρ c]
theorem w53_v140 : W53 m ρ c (Proc.devRef .tc main_v140) = k140 (argsK m c) := by
  refine (KHost4.v140_eq (W44 m ρ c)).trans ?_
  show KHost4.v140 (F := Ideal) (W44 m ρ c (Proc.devRef .tc main_v85)) (W53 m ρ c (Proc.devRef .tc main_v139)) = KHost4.v140 (F := Ideal) (k85 (argsK m c)) (k139 (argsK m c))
  rw [w44_v85 m ρ c, w53_v139 m ρ c]
theorem w53_v141 : W53 m ρ c (Proc.devRef .tc main_v141) = k141 (argsK m c) := by
  refine (KHost4.v141_eq (W44 m ρ c)).trans ?_
  show KHost4.v141 (F := Ideal) (W44 m ρ c (Proc.devRef .tc main_v42)) (W44 m ρ c (Proc.devRef .tc main_v124)) = KHost4.v141 (F := Ideal) (k42 (argsK m c)) (k124 (argsK m c))
  rw [w44_v42 m ρ c, w44_v124 m ρ c]
theorem w53_v143 : W53 m ρ c (Proc.devRef .tc main_v143) = k143 (argsK m c) := by
  refine (KHost4.v143_eq (W44 m ρ c)).trans ?_
  show KHost4.v143 (F := Ideal) (W53 m ρ c (Proc.devRef .tc main_v139)) = KHost4.v143 (F := Ideal) (k139 (argsK m c))
  rw [w53_v139 m ρ c]
theorem w53_v145 : W53 m ρ c (Proc.devRef .tc main_v145) = k145 (argsK m c) := by
  refine (KHost4.v145_eq (W44 m ρ c)).trans ?_
  show KHost4.v145 (F := Ideal) (W44 m ρ c (Proc.devRef .tc main_arg4)) = KHost4.v145 (F := Ideal) ((argsK m c).a4)
  rw [w44_arg4 m ρ c]
theorem w53_v147 : W53 m ρ c (Proc.devRef .tc main_v147) = k147 (argsK m c) := by
  refine (KHost4.v147_eq (W44 m ρ c)).trans ?_
  show KHost4.v147 (F := Ideal) (W44 m ρ c (Proc.devRef .tc main_arg3)) = KHost4.v147 (F := Ideal) ((argsK m c).a3)
  rw [w44_arg3 m ρ c]
theorem w53_v149 : W53 m ρ c (Proc.devRef .tc main_v149) = k149 (argsK m c) := by
  refine (KHost4.v149_eq (W44 m ρ c)).trans ?_
  show KHost4.v149 (F := Ideal) (W44 m ρ c (Proc.devRef .tc main_v109)) = KHost4.v149 (F := Ideal) (k109 (argsK m c))
  rw [w44_v109 m ρ c]
theorem w53_arg3 : W53 m ρ c (Proc.devRef .tc main_arg3) = (argsK m c).a3 :=
  (KHost4.keep_arg3 (W44 m ρ c)).trans (w44_arg3 m ρ c)
theorem w53_arg4 : W53 m ρ c (Proc.devRef .tc main_arg4) = (argsK m c).a4 :=
  (KHost4.keep_arg4 (W44 m ρ c)).trans (w44_arg4 m ρ c)
theorem w53_v109 : W53 m ρ c (Proc.devRef .tc main_v109) = k109 (argsK m c) :=
  (KHost4.keep_v109 (W44 m ρ c)).trans (w44_v109 m ρ c)
theorem w53_v124 : W53 m ρ c (Proc.devRef .tc main_v124) = k124 (argsK m c) :=
  (KHost4.keep_v124 (W44 m ρ c)).trans (w44_v124 m ρ c)

/-! ## Region 4: from W53 to W54 -/
theorem w54_v150 : W54 m ρ c (Proc.devRef .tc main_v150) = k150 (argsK m c) := by
  refine (W54_arr m ρ c 4).trans ?_
  refine (Reg4.value (V53 m ρ) c).trans ?_
  show Reg4.out (W53 m ρ c (Proc.devRef .tc main_v145)) (W53 m ρ c (Proc.devRef .tc main_v147)) (W53 m ρ c (Proc.devRef .tc main_v149)) (W53 m ρ c (Proc.devRef .tc main_v143)) = Reg4.out (k145 (argsK m c)) (k147 (argsK m c)) (k149 (argsK m c)) (k143 (argsK m c))
  rw [w53_v145 m ρ c, w53_v147 m ρ c, w53_v149 m ρ c, w53_v143 m ρ c]
theorem w54_arg3 : W54 m ρ c (Proc.devRef .tc main_arg3) = (argsK m c).a3 :=
  (W54_of_ne m ρ c main_arg3 (by decide)).trans (w53_arg3 m ρ c)
theorem w54_arg4 : W54 m ρ c (Proc.devRef .tc main_arg4) = (argsK m c).a4 :=
  (W54_of_ne m ρ c main_arg4 (by decide)).trans (w53_arg4 m ρ c)
theorem w54_v109 : W54 m ρ c (Proc.devRef .tc main_v109) = k109 (argsK m c) :=
  (W54_of_ne m ρ c main_v109 (by decide)).trans (w53_v109 m ρ c)
theorem w54_v124 : W54 m ρ c (Proc.devRef .tc main_v124) = k124 (argsK m c) :=
  (W54_of_ne m ρ c main_v124 (by decide)).trans (w53_v124 m ρ c)
theorem w54_v140 : W54 m ρ c (Proc.devRef .tc main_v140) = k140 (argsK m c) :=
  (W54_of_ne m ρ c main_v140 (by decide)).trans (w53_v140 m ρ c)
theorem w54_v141 : W54 m ρ c (Proc.devRef .tc main_v141) = k141 (argsK m c) :=
  (W54_of_ne m ρ c main_v141 (by decide)).trans (w53_v141 m ρ c)

/-! ## Host stretch 5: from W54 to W63 -/
theorem w63_v156 : W63 m ρ c (Proc.devRef .tc main_v156) = k156 (argsK m c) := by
  refine (KHost5.v156_eq (W54 m ρ c)).trans ?_
  show KHost5.v156 (F := Ideal) (W54 m ρ c (Proc.devRef .tc main_v150)) = KHost5.v156 (F := Ideal) (k150 (argsK m c))
  rw [w54_v150 m ρ c]
theorem w63_v158 : W63 m ρ c (Proc.devRef .tc main_v158) = k158 (argsK m c) := by
  refine (KHost5.v158_eq (W54 m ρ c)).trans ?_
  show KHost5.v158 (F := Ideal) (W54 m ρ c (Proc.devRef .tc main_v124)) = KHost5.v158 (F := Ideal) (k124 (argsK m c))
  rw [w54_v124 m ρ c]
theorem w63_v160 : W63 m ρ c (Proc.devRef .tc main_v160) = k160 (argsK m c) := by
  refine (KHost5.v160_eq (W54 m ρ c)).trans ?_
  show KHost5.v160 (F := Ideal) (W54 m ρ c (Proc.devRef .tc main_arg3)) = KHost5.v160 (F := Ideal) ((argsK m c).a3)
  rw [w54_arg3 m ρ c]
theorem w63_v162 : W63 m ρ c (Proc.devRef .tc main_v162) = k162 (argsK m c) := by
  refine (KHost5.v162_eq (W54 m ρ c)).trans ?_
  show KHost5.v162 (F := Ideal) (W54 m ρ c (Proc.devRef .tc main_arg4)) = KHost5.v162 (F := Ideal) ((argsK m c).a4)
  rw [w54_arg4 m ρ c]
theorem w63_v164 : W63 m ρ c (Proc.devRef .tc main_v164) = k164 (argsK m c) := by
  refine (KHost5.v164_eq (W54 m ρ c)).trans ?_
  show KHost5.v164 (F := Ideal) (W54 m ρ c (Proc.devRef .tc main_v109)) = KHost5.v164 (F := Ideal) (k109 (argsK m c))
  rw [w54_v109 m ρ c]
theorem w63_arg3 : W63 m ρ c (Proc.devRef .tc main_arg3) = (argsK m c).a3 :=
  (KHost5.keep_arg3 (W54 m ρ c)).trans (w54_arg3 m ρ c)
theorem w63_arg4 : W63 m ρ c (Proc.devRef .tc main_arg4) = (argsK m c).a4 :=
  (KHost5.keep_arg4 (W54 m ρ c)).trans (w54_arg4 m ρ c)
theorem w63_v109 : W63 m ρ c (Proc.devRef .tc main_v109) = k109 (argsK m c) :=
  (KHost5.keep_v109 (W54 m ρ c)).trans (w54_v109 m ρ c)
theorem w63_v140 : W63 m ρ c (Proc.devRef .tc main_v140) = k140 (argsK m c) :=
  (KHost5.keep_v140 (W54 m ρ c)).trans (w54_v140 m ρ c)
theorem w63_v141 : W63 m ρ c (Proc.devRef .tc main_v141) = k141 (argsK m c) :=
  (KHost5.keep_v141 (W54 m ρ c)).trans (w54_v141 m ρ c)

/-! ## Region 5: from W63 to W64 -/
theorem w64_v165 : W64 m ρ c (Proc.devRef .tc main_v165) = k165 (argsK m c) := by
  refine (W64_arr m ρ c 4).trans ?_
  refine (Reg5.value (V63 m ρ) c).trans ?_
  show Reg5.out (W63 m ρ c (Proc.devRef .tc main_v160)) (W63 m ρ c (Proc.devRef .tc main_v162)) (W63 m ρ c (Proc.devRef .tc main_v164)) (W63 m ρ c (Proc.devRef .tc main_v158)) = Reg5.out (k160 (argsK m c)) (k162 (argsK m c)) (k164 (argsK m c)) (k158 (argsK m c))
  rw [w63_v160 m ρ c, w63_v162 m ρ c, w63_v164 m ρ c, w63_v158 m ρ c]
theorem w64_arg3 : W64 m ρ c (Proc.devRef .tc main_arg3) = (argsK m c).a3 :=
  (W64_of_ne m ρ c main_arg3 (by decide)).trans (w63_arg3 m ρ c)
theorem w64_arg4 : W64 m ρ c (Proc.devRef .tc main_arg4) = (argsK m c).a4 :=
  (W64_of_ne m ρ c main_arg4 (by decide)).trans (w63_arg4 m ρ c)
theorem w64_v109 : W64 m ρ c (Proc.devRef .tc main_v109) = k109 (argsK m c) :=
  (W64_of_ne m ρ c main_v109 (by decide)).trans (w63_v109 m ρ c)
theorem w64_v140 : W64 m ρ c (Proc.devRef .tc main_v140) = k140 (argsK m c) :=
  (W64_of_ne m ρ c main_v140 (by decide)).trans (w63_v140 m ρ c)
theorem w64_v141 : W64 m ρ c (Proc.devRef .tc main_v141) = k141 (argsK m c) :=
  (W64_of_ne m ρ c main_v141 (by decide)).trans (w63_v141 m ρ c)
theorem w64_v156 : W64 m ρ c (Proc.devRef .tc main_v156) = k156 (argsK m c) :=
  (W64_of_ne m ρ c main_v156 (by decide)).trans (w63_v156 m ρ c)

/-! ## Host stretch 6: from W64 to W73 -/
theorem w73_v171 : W73 m ρ c (Proc.devRef .tc main_v171) = k171 (argsK m c) := by
  refine (KHost6.v171_eq (W64 m ρ c)).trans ?_
  show KHost6.v171 (F := Ideal) (W64 m ρ c (Proc.devRef .tc main_v165)) = KHost6.v171 (F := Ideal) (k165 (argsK m c))
  rw [w64_v165 m ρ c]
theorem w73_v172 : W73 m ρ c (Proc.devRef .tc main_v172) = k172 (argsK m c) := by
  refine (KHost6.v172_eq (W64 m ρ c)).trans ?_
  show KHost6.v172 (F := Ideal) (W64 m ρ c (Proc.devRef .tc main_v140)) (W73 m ρ c (Proc.devRef .tc main_v171)) = KHost6.v172 (F := Ideal) (k140 (argsK m c)) (k171 (argsK m c))
  rw [w64_v140 m ρ c, w73_v171 m ρ c]
theorem w73_v173 : W73 m ρ c (Proc.devRef .tc main_v173) = k173 (argsK m c) := by
  refine (KHost6.v173_eq (W64 m ρ c)).trans ?_
  show KHost6.v173 (F := Ideal) (W64 m ρ c (Proc.devRef .tc main_v141)) (W64 m ρ c (Proc.devRef .tc main_v156)) = KHost6.v173 (F := Ideal) (k141 (argsK m c)) (k156 (argsK m c))
  rw [w64_v141 m ρ c, w64_v156 m ρ c]
theorem w73_v175 : W73 m ρ c (Proc.devRef .tc main_v175) = k175 (argsK m c) := by
  refine (KHost6.v175_eq (W64 m ρ c)).trans ?_
  show KHost6.v175 (F := Ideal) (W73 m ρ c (Proc.devRef .tc main_v171)) = KHost6.v175 (F := Ideal) (k171 (argsK m c))
  rw [w73_v171 m ρ c]
theorem w73_v177 : W73 m ρ c (Proc.devRef .tc main_v177) = k177 (argsK m c) := by
  refine (KHost6.v177_eq (W64 m ρ c)).trans ?_
  show KHost6.v177 (F := Ideal) (W64 m ρ c (Proc.devRef .tc main_arg4)) = KHost6.v177 (F := Ideal) ((argsK m c).a4)
  rw [w64_arg4 m ρ c]
theorem w73_v179 : W73 m ρ c (Proc.devRef .tc main_v179) = k179 (argsK m c) := by
  refine (KHost6.v179_eq (W64 m ρ c)).trans ?_
  show KHost6.v179 (F := Ideal) (W64 m ρ c (Proc.devRef .tc main_arg3)) = KHost6.v179 (F := Ideal) ((argsK m c).a3)
  rw [w64_arg3 m ρ c]
theorem w73_v181 : W73 m ρ c (Proc.devRef .tc main_v181) = k181 (argsK m c) := by
  refine (KHost6.v181_eq (W64 m ρ c)).trans ?_
  show KHost6.v181 (F := Ideal) (W64 m ρ c (Proc.devRef .tc main_v109)) = KHost6.v181 (F := Ideal) (k109 (argsK m c))
  rw [w64_v109 m ρ c]
theorem w73_arg3 : W73 m ρ c (Proc.devRef .tc main_arg3) = (argsK m c).a3 :=
  (KHost6.keep_arg3 (W64 m ρ c)).trans (w64_arg3 m ρ c)
theorem w73_arg4 : W73 m ρ c (Proc.devRef .tc main_arg4) = (argsK m c).a4 :=
  (KHost6.keep_arg4 (W64 m ρ c)).trans (w64_arg4 m ρ c)
theorem w73_v109 : W73 m ρ c (Proc.devRef .tc main_v109) = k109 (argsK m c) :=
  (KHost6.keep_v109 (W64 m ρ c)).trans (w64_v109 m ρ c)
theorem w73_v156 : W73 m ρ c (Proc.devRef .tc main_v156) = k156 (argsK m c) :=
  (KHost6.keep_v156 (W64 m ρ c)).trans (w64_v156 m ρ c)

/-! ## Region 6: from W73 to W74 -/
theorem w74_v182 : W74 m ρ c (Proc.devRef .tc main_v182) = k182 (argsK m c) := by
  refine (W74_arr m ρ c 4).trans ?_
  refine (Reg6.value (V73 m ρ) c).trans ?_
  show Reg6.out (W73 m ρ c (Proc.devRef .tc main_v177)) (W73 m ρ c (Proc.devRef .tc main_v179)) (W73 m ρ c (Proc.devRef .tc main_v181)) (W73 m ρ c (Proc.devRef .tc main_v175)) = Reg6.out (k177 (argsK m c)) (k179 (argsK m c)) (k181 (argsK m c)) (k175 (argsK m c))
  rw [w73_v177 m ρ c, w73_v179 m ρ c, w73_v181 m ρ c, w73_v175 m ρ c]
theorem w74_arg3 : W74 m ρ c (Proc.devRef .tc main_arg3) = (argsK m c).a3 :=
  (W74_of_ne m ρ c main_arg3 (by decide)).trans (w73_arg3 m ρ c)
theorem w74_arg4 : W74 m ρ c (Proc.devRef .tc main_arg4) = (argsK m c).a4 :=
  (W74_of_ne m ρ c main_arg4 (by decide)).trans (w73_arg4 m ρ c)
theorem w74_v109 : W74 m ρ c (Proc.devRef .tc main_v109) = k109 (argsK m c) :=
  (W74_of_ne m ρ c main_v109 (by decide)).trans (w73_v109 m ρ c)
theorem w74_v156 : W74 m ρ c (Proc.devRef .tc main_v156) = k156 (argsK m c) :=
  (W74_of_ne m ρ c main_v156 (by decide)).trans (w73_v156 m ρ c)
theorem w74_v172 : W74 m ρ c (Proc.devRef .tc main_v172) = k172 (argsK m c) :=
  (W74_of_ne m ρ c main_v172 (by decide)).trans (w73_v172 m ρ c)
theorem w74_v173 : W74 m ρ c (Proc.devRef .tc main_v173) = k173 (argsK m c) :=
  (W74_of_ne m ρ c main_v173 (by decide)).trans (w73_v173 m ρ c)

/-! ## Host stretch 7: from W74 to W83 -/
theorem w83_v188 : W83 m ρ c (Proc.devRef .tc main_v188) = k188 (argsK m c) := by
  refine (KHost7.v188_eq (W74 m ρ c)).trans ?_
  show KHost7.v188 (F := Ideal) (W74 m ρ c (Proc.devRef .tc main_v182)) = KHost7.v188 (F := Ideal) (k182 (argsK m c))
  rw [w74_v182 m ρ c]
theorem w83_v190 : W83 m ρ c (Proc.devRef .tc main_v190) = k190 (argsK m c) := by
  refine (KHost7.v190_eq (W74 m ρ c)).trans ?_
  show KHost7.v190 (F := Ideal) (W74 m ρ c (Proc.devRef .tc main_v156)) = KHost7.v190 (F := Ideal) (k156 (argsK m c))
  rw [w74_v156 m ρ c]
theorem w83_v192 : W83 m ρ c (Proc.devRef .tc main_v192) = k192 (argsK m c) := by
  refine (KHost7.v192_eq (W74 m ρ c)).trans ?_
  show KHost7.v192 (F := Ideal) (W74 m ρ c (Proc.devRef .tc main_arg3)) = KHost7.v192 (F := Ideal) ((argsK m c).a3)
  rw [w74_arg3 m ρ c]
theorem w83_v194 : W83 m ρ c (Proc.devRef .tc main_v194) = k194 (argsK m c) := by
  refine (KHost7.v194_eq (W74 m ρ c)).trans ?_
  show KHost7.v194 (F := Ideal) (W74 m ρ c (Proc.devRef .tc main_arg4)) = KHost7.v194 (F := Ideal) ((argsK m c).a4)
  rw [w74_arg4 m ρ c]
theorem w83_v196 : W83 m ρ c (Proc.devRef .tc main_v196) = k196 (argsK m c) := by
  refine (KHost7.v196_eq (W74 m ρ c)).trans ?_
  show KHost7.v196 (F := Ideal) (W74 m ρ c (Proc.devRef .tc main_v109)) = KHost7.v196 (F := Ideal) (k109 (argsK m c))
  rw [w74_v109 m ρ c]
theorem w83_v172 : W83 m ρ c (Proc.devRef .tc main_v172) = k172 (argsK m c) :=
  (KHost7.keep_v172 (W74 m ρ c)).trans (w74_v172 m ρ c)
theorem w83_v173 : W83 m ρ c (Proc.devRef .tc main_v173) = k173 (argsK m c) :=
  (KHost7.keep_v173 (W74 m ρ c)).trans (w74_v173 m ρ c)

/-! ## Region 7: from W83 to W84 -/
theorem w84_v197 : W84 m ρ c (Proc.devRef .tc main_v197) = k197 (argsK m c) := by
  refine (W84_arr m ρ c 4).trans ?_
  refine (Reg7.value (V83 m ρ) c).trans ?_
  show Reg7.out (W83 m ρ c (Proc.devRef .tc main_v192)) (W83 m ρ c (Proc.devRef .tc main_v194)) (W83 m ρ c (Proc.devRef .tc main_v196)) (W83 m ρ c (Proc.devRef .tc main_v190)) = Reg7.out (k192 (argsK m c)) (k194 (argsK m c)) (k196 (argsK m c)) (k190 (argsK m c))
  rw [w83_v192 m ρ c, w83_v194 m ρ c, w83_v196 m ρ c, w83_v190 m ρ c]
theorem w84_v172 : W84 m ρ c (Proc.devRef .tc main_v172) = k172 (argsK m c) :=
  (W84_of_ne m ρ c main_v172 (by decide)).trans (w83_v172 m ρ c)
theorem w84_v173 : W84 m ρ c (Proc.devRef .tc main_v173) = k173 (argsK m c) :=
  (W84_of_ne m ρ c main_v173 (by decide)).trans (w83_v173 m ρ c)
theorem w84_v188 : W84 m ρ c (Proc.devRef .tc main_v188) = k188 (argsK m c) :=
  (W84_of_ne m ρ c main_v188 (by decide)).trans (w83_v188 m ρ c)

/-! ## Host stretch 8: from W84 to W85 -/
theorem w85_v203 : W85 m ρ c (Proc.devRef .tc main_v203) = k203 (argsK m c) := by
  refine (KHost8.v203_eq (W84 m ρ c)).trans ?_
  show KHost8.v203 (F := Ideal) (W84 m ρ c (Proc.devRef .tc main_v197)) = KHost8.v203 (F := Ideal) (k197 (argsK m c))
  rw [w84_v197 m ρ c]
theorem w85_v204 : W85 m ρ c (Proc.devRef .tc main_v204) = k204 (argsK m c) := by
  refine (KHost8.v204_eq (W84 m ρ c)).trans ?_
  show KHost8.v204 (F := Ideal) (W84 m ρ c (Proc.devRef .tc main_v172)) (W85 m ρ c (Proc.devRef .tc main_v203)) = KHost8.v204 (F := Ideal) (k172 (argsK m c)) (k203 (argsK m c))
  rw [w84_v172 m ρ c, w85_v203 m ρ c]
theorem w85_v205 : W85 m ρ c (Proc.devRef .tc main_v205) = k205 (argsK m c) := by
  refine (KHost8.v205_eq (W84 m ρ c)).trans ?_
  show KHost8.v205 (F := Ideal) (W84 m ρ c (Proc.devRef .tc main_v173)) (W84 m ρ c (Proc.devRef .tc main_v188)) = KHost8.v205 (F := Ideal) (k173 (argsK m c)) (k188 (argsK m c))
  rw [w84_v173 m ρ c, w84_v188 m ρ c]
theorem w85_v207 : W85 m ρ c (Proc.devRef .tc main_v207) = k207 (argsK m c) := by
  refine (KHost8.v207_eq (W84 m ρ c)).trans ?_
  show KHost8.v207 (F := Ideal) (W85 m ρ c (Proc.devRef .tc main_v204)) = KHost8.v207 (F := Ideal) (k204 (argsK m c))
  rw [w85_v204 m ρ c]
theorem w85_v209 : W85 m ρ c (Proc.devRef .tc main_v209) = k209 (argsK m c) := by
  refine (KHost8.v209_eq (W84 m ρ c)).trans ?_
  show KHost8.v209 (F := Ideal) (W85 m ρ c (Proc.devRef .tc main_v205)) = KHost8.v209 (F := Ideal) (k205 (argsK m c))
  rw [w85_v205 m ρ c]

end Cert.KernelIdeal.KVal

end
-- ==== Proof.RStages.lean ====
/- The reference program's named intermediate arrays: row and column indices, inverse square-root degrees, edge norms, the eight
   scatter-add aggregations, the running sums and the two results, each the composition of the printed operations between it and
   the named arrays before it. -/
import proofs.«400075_j26585847562450_2_alg».proof.Proof.Gen.ReferenceIdeal
import Idealize.ShloMosaic.Lib.StableHlo.Run
import Idealize.ShloMosaic.PureOps.Ideal

set_option maxRecDepth 16384

noncomputable section

namespace Cert.ReferenceIdeal.RStages

open Cert.ReferenceIdeal Cert.ReferenceIdeal.Gen Idealize.ShloMosaic Idealize.ShloMosaic.StableHlo Idealize.SL.Sem

variable {F : FTy → Type} [FloatOps F]

/-- The reference's main_v2, as its operations compute it from main_arg5. -/
def v2 (p_arg5 : (main_arg5 : Ref sig .tc).ty.Contents (Elt F)) : (main_v2 : Ref sig .tc).ty.Contents (Elt F) :=
  (shapeCast _ (((extractStridedSlice S1x541880 ![0, 0] · slices_S2x541880_S1x541880_0_0) : (⟨S2x541880, .i32⟩ : BufTy).Contents (Elt F) → (⟨S1x541880, .i32⟩ : BufTy).Contents (Elt F)) p_arg5) shapeCasts_S1x541880_S541880)

/-- The reference's main_v4, as its operations compute it from main_arg5. -/
def v4 (p_arg5 : (main_arg5 : Ref sig .tc).ty.Contents (Elt F)) : (main_v4 : Ref sig .tc).ty.Contents (Elt F) :=
  (shapeCast _ (((extractStridedSlice S1x541880 ![1, 0] · slices_S2x541880_S1x541880_1_0) : (⟨S2x541880, .i32⟩ : BufTy).Contents (Elt F) → (⟨S1x541880, .i32⟩ : BufTy).Contents (Elt F)) p_arg5) shapeCasts_S1x541880_S541880)

/-- The reference's main_v11, as its operations compute it from main_v4. -/
def v11 (p_v4 : (main_v4 : Ref sig .tc).ty.Contents (Elt F)) : (main_v11 : Ref sig .tc).ty.Contents (Elt F) :=
  (select ((cmpf .ogt : (⟨S27094, .f32⟩ : BufTy).Contents (Elt F) → (⟨S27094, .f32⟩ : BufTy).Contents (Elt F) → (⟨S27094, .i1⟩ : BufTy).Contents (Elt F)) (((fun x i u => Host.scatterAdd scatter_S27094_S541880x1_S541880_n_0_0_1 x i u) : (⟨S27094, .f32⟩ : BufTy).Contents (Elt F) → (⟨S541880x1, .i32⟩ : BufTy).Contents (Elt F) → (⟨S541880, .f32⟩ : BufTy).Contents (Elt F) → (⟨S27094, .f32⟩ : BufTy).Contents (Elt F)) ((broadcastInDim S27094 ![] bcast_S_S27094 : (⟨S_, .f32⟩ : BufTy).Contents (Elt F) → (⟨S27094, .f32⟩ : BufTy).Contents (Elt F)) (constant (F := F) S_ .f32 0x00000000#32)) ((broadcastInDim S541880x1 ![0] bcast_S541880_S541880x1_0 : (⟨S541880, .i32⟩ : BufTy).Contents (Elt F) → (⟨S541880x1, .i32⟩ : BufTy).Contents (Elt F)) p_v4) ((broadcastInDim S541880 ![] bcast_S_S541880 : (⟨S_, .f32⟩ : BufTy).Contents (Elt F) → (⟨S541880, .f32⟩ : BufTy).Contents (Elt F)) (constant (F := F) S_ .f32 0x3F800000#32))) ((broadcastInDim S27094 ![] bcast_S_S27094 : (⟨S_, .f32⟩ : BufTy).Contents (Elt F) → (⟨S27094, .f32⟩ : BufTy).Contents (Elt F)) (constant (F := F) S_ .f32 0x00000000#32))) ((Host.rsqrt : (⟨S27094, .f32⟩ : BufTy).Contents (Elt F) → (⟨S27094, .f32⟩ : BufTy).Contents (Elt F)) (((fun x i u => Host.scatterAdd scatter_S27094_S541880x1_S541880_n_0_0_1 x i u) : (⟨S27094, .f32⟩ : BufTy).Contents (Elt F) → (⟨S541880x1, .i32⟩ : BufTy).Contents (Elt F) → (⟨S541880, .f32⟩ : BufTy).Contents (Elt F) → (⟨S27094, .f32⟩ : BufTy).Contents (Elt F)) ((broadcastInDim S27094 ![] bcast_S_S27094 : (⟨S_, .f32⟩ : BufTy).Contents (Elt F) → (⟨S27094, .f32⟩ : BufTy).Contents (Elt F)) (constant (F := F) S_ .f32 0x00000000#32)) ((broadcastInDim S541880x1 ![0] bcast_S541880_S541880x1_0 : (⟨S541880, .i32⟩ : BufTy).Contents (Elt F) → (⟨S541880x1, .i32⟩ : BufTy).Contents (Elt F)) p_v4) ((broadcastInDim S541880 ![] bcast_S_S541880 : (⟨S_, .f32⟩ : BufTy).Contents (Elt F) → (⟨S541880, .f32⟩ : BufTy).Contents (Elt F)) (constant (F := F) S_ .f32 0x3F800000#32)))) ((broadcastInDim S27094 ![] bcast_S_S27094) (id (constant (F := F) S_ .f32 0x00000000#32))))

/-- The reference's main_v27, as its operations compute it from main_v11, main_v2, main_v4. -/
def v27 (p_v11 : (main_v11 : Ref sig .tc).ty.Contents (Elt F)) (p_v2 : (main_v2 : Ref sig .tc).ty.Contents (Elt F)) (p_v4 : (main_v4 : Ref sig .tc).ty.Contents (Elt F)) : (main_v27 : Ref sig .tc).ty.Contents (Elt F) :=
  ((mulf : (⟨S541880, .f32⟩ : BufTy).Contents (Elt F) → (⟨S541880, .f32⟩ : BufTy).Contents (Elt F) → (⟨S541880, .f32⟩ : BufTy).Contents (Elt F)) ((mulf : (⟨S541880, .f32⟩ : BufTy).Contents (Elt F) → (⟨S541880, .f32⟩ : BufTy).Contents (Elt F) → (⟨S541880, .f32⟩ : BufTy).Contents (Elt F)) (((fun x i => Host.gather gather_S27094_S541880x1_S541880_n_0_n_n_0_1_1 x i) : (⟨S27094, .f32⟩ : BufTy).Contents (Elt F) → (⟨S541880x1, .i32⟩ : BufTy).Contents (Elt F) → (⟨S541880, .f32⟩ : BufTy).Contents (Elt F)) p_v11 ((broadcastInDim S541880x1 ![0] bcast_S541880_S541880x1_0 : (⟨S541880, .i32⟩ : BufTy).Contents (Elt F) → (⟨S541880x1, .i32⟩ : BufTy).Contents (Elt F)) ((select : (⟨S541880, .i1⟩ : BufTy).Contents (Elt F) → (⟨S541880, .i32⟩ : BufTy).Contents (Elt F) → (⟨S541880, .i32⟩ : BufTy).Contents (Elt F) → (⟨S541880, .i32⟩ : BufTy).Contents (Elt F)) ((cmpi .slt : (⟨S541880, .i32⟩ : BufTy).Contents (Elt F) → (⟨S541880, .i32⟩ : BufTy).Contents (Elt F) → (⟨S541880, .i1⟩ : BufTy).Contents (Elt F)) p_v2 ((broadcastInDim S541880 ![] bcast_S_S541880 : (⟨S_, .i32⟩ : BufTy).Contents (Elt F) → (⟨S541880, .i32⟩ : BufTy).Contents (Elt F)) (constantI S_ 32 0#32))) ((addi : (⟨S541880, .i32⟩ : BufTy).Contents (Elt F) → (⟨S541880, .i32⟩ : BufTy).Contents (Elt F) → (⟨S541880, .i32⟩ : BufTy).Contents (Elt F)) p_v2 ((broadcastInDim S541880 ![] bcast_S_S541880 : (⟨S_, .i32⟩ : BufTy).Contents (Elt F) → (⟨S541880, .i32⟩ : BufTy).Contents (Elt F)) (constantI S_ 32 27094#32))) p_v2))) ((broadcastInDim S541880 ![] bcast_S_S541880 : (⟨S_, .f32⟩ : BufTy).Contents (Elt F) → (⟨S541880, .f32⟩ : BufTy).Contents (Elt F)) (constant (F := F) S_ .f32 0x3F800000#32))) (((fun x i => Host.gather gather_S27094_S541880x1_S541880_n_0_n_n_0_1_1 x i) : (⟨S27094, .f32⟩ : BufTy).Contents (Elt F) → (⟨S541880x1, .i32⟩ : BufTy).Contents (Elt F) → (⟨S541880, .f32⟩ : BufTy).Contents (Elt F)) p_v11 ((broadcastInDim S541880x1 ![0] bcast_S541880_S541880x1_0 : (⟨S541880, .i32⟩ : BufTy).Contents (Elt F) → (⟨S541880x1, .i32⟩ : BufTy).Contents (Elt F)) ((select : (⟨S541880, .i1⟩ : BufTy).Contents (Elt F) → (⟨S541880, .i32⟩ : BufTy).Contents (Elt F) → (⟨S541880, .i32⟩ : BufTy).Contents (Elt F) → (⟨S541880, .i32⟩ : BufTy).Contents (Elt F)) ((cmpi .slt : (⟨S541880, .i32⟩ : BufTy).Contents (Elt F) → (⟨S541880, .i32⟩ : BufTy).Contents (Elt F) → (⟨S541880, .i1⟩ : BufTy).Contents (Elt F)) p_v4 ((broadcastInDim S541880 ![] bcast_S_S541880 : (⟨S_, .i32⟩ : BufTy).Contents (Elt F) → (⟨S541880, .i32⟩ : BufTy).Contents (Elt F)) (constantI S_ 32 0#32))) ((addi : (⟨S541880, .i32⟩ : BufTy).Contents (Elt F) → (⟨S541880, .i32⟩ : BufTy).Contents (Elt F) → (⟨S541880, .i32⟩ : BufTy).Contents (Elt F)) p_v4 ((broadcastInDim S541880 ![] bcast_S_S541880 : (⟨S_, .i32⟩ : BufTy).Contents (Elt F) → (⟨S541880, .i32⟩ : BufTy).Contents (Elt F)) (constantI S_ 32 27094#32))) p_v4))))

/-- The reference's main_v40, as its operations compute it from main_v4, main_v27, main_arg0, main_v2. -/
def v40 (p_v4 : (main_v4 : Ref sig .tc).ty.Contents (Elt F)) (p_v27 : (main_v27 : Ref sig .tc).ty.Contents (Elt F)) (p_arg0 : (main_arg0 : Ref sig .tc).ty.Contents (Elt F)) (p_v2 : (main_v2 : Ref sig .tc).ty.Contents (Elt F)) : (main_v40 : Ref sig .tc).ty.Contents (Elt F) :=
  (((fun x i u => Host.scatterAdd scatter_S27094x64_S541880x1_S541880x64_1_0_0_1 x i u) : (⟨S27094x64, .f32⟩ : BufTy).Contents (Elt F) → (⟨S541880x1, .i32⟩ : BufTy).Contents (Elt F) → (⟨S541880x64, .f32⟩ : BufTy).Contents (Elt F) → (⟨S27094x64, .f32⟩ : BufTy).Contents (Elt F)) ((broadcastInDim S27094x64 ![] bcast_S_S27094x64 : (⟨S_, .f32⟩ : BufTy).Contents (Elt F) → (⟨S27094x64, .f32⟩ : BufTy).Contents (Elt F)) (constant (F := F) S_ .f32 0x00000000#32)) ((broadcastInDim S541880x1 ![0] bcast_S541880_S541880x1_0 : (⟨S541880, .i32⟩ : BufTy).Contents (Elt F) → (⟨S541880x1, .i32⟩ : BufTy).Contents (Elt F)) p_v4) ((mulf : (⟨S541880x64, .f32⟩ : BufTy).Contents (Elt F) → (⟨S541880x64, .f32⟩ : BufTy).Contents (Elt F) → (⟨S541880x64, .f32⟩ : BufTy).Contents (Elt F)) ((broadcastInDim S541880x64 ![0, 1] bcast_S541880x1_S541880x64_0_1 : (⟨S541880x1, .f32⟩ : BufTy).Contents (Elt F) → (⟨S541880x64, .f32⟩ : BufTy).Contents (Elt F)) ((broadcastInDim S541880x1 ![0] bcast_S541880_S541880x1_0 : (⟨S541880, .f32⟩ : BufTy).Contents (Elt F) → (⟨S541880x1, .f32⟩ : BufTy).Contents (Elt F)) p_v27)) (((fun x i => Host.gather gather_S27094x64_S541880x1_S541880x64_1_0_n_n_0_1_164 x i) : (⟨S27094x64, .f32⟩ : BufTy).Contents (Elt F) → (⟨S541880x1, .i32⟩ : BufTy).Contents (Elt F) → (⟨S541880x64, .f32⟩ : BufTy).Contents (Elt F)) p_arg0 ((broadcastInDim S541880x1 ![0] bcast_S541880_S541880x1_0 : (⟨S541880, .i32⟩ : BufTy).Contents (Elt F) → (⟨S541880x1, .i32⟩ : BufTy).Contents (Elt F)) ((select : (⟨S541880, .i1⟩ : BufTy).Contents (Elt F) → (⟨S541880, .i32⟩ : BufTy).Contents (Elt F) → (⟨S541880, .i32⟩ : BufTy).Contents (Elt F) → (⟨S541880, .i32⟩ : BufTy).Contents (Elt F)) ((cmpi .slt : (⟨S541880, .i32⟩ : BufTy).Contents (Elt F) → (⟨S541880, .i32⟩ : BufTy).Contents (Elt F) → (⟨S541880, .i1⟩ : BufTy).Contents (Elt F)) p_v2 ((broadcastInDim S541880 ![] bcast_S_S541880 : (⟨S_, .i32⟩ : BufTy).Contents (Elt F) → (⟨S541880, .i32⟩ : BufTy).Contents (Elt F)) (constantI S_ 32 0#32))) ((addi : (⟨S541880, .i32⟩ : BufTy).Contents (Elt F) → (⟨S541880, .i32⟩ : BufTy).Contents (Elt F) → (⟨S541880, .i32⟩ : BufTy).Contents (Elt F)) p_v2 ((broadcastInDim S541880 ![] bcast_S_S541880 : (⟨S_, .i32⟩ : BufTy).Contents (Elt F) → (⟨S541880, .i32⟩ : BufTy).Contents (Elt F)) (constantI S_ 32 27094#32))) p_v2)))))

/-- The reference's main_v41, as its operations compute it from main_arg0, main_v40. -/
def v41 (p_arg0 : (main_arg0 : Ref sig .tc).ty.Contents (Elt F)) (p_v40 : (main_v40 : Ref sig .tc).ty.Contents (Elt F)) : (main_v41 : Ref sig .tc).ty.Contents (Elt F) :=
  ((addf : (⟨S27094x64, .f32⟩ : BufTy).Contents (Elt F) → (⟨S27094x64, .f32⟩ : BufTy).Contents (Elt F) → (⟨S27094x64, .f32⟩ : BufTy).Contents (Elt F)) p_arg0 p_v40)

/-- The reference's main_v43, as its operations compute it from main_arg6. -/
def v43 (p_arg6 : (main_arg6 : Ref sig .tc).ty.Contents (Elt F)) : (main_v43 : Ref sig .tc).ty.Contents (Elt F) :=
  (shapeCast _ (((extractStridedSlice S1x1285560 ![0, 0] · slices_S2x1285560_S1x1285560_0_0) : (⟨S2x1285560, .i32⟩ : BufTy).Contents (Elt F) → (⟨S1x1285560, .i32⟩ : BufTy).Contents (Elt F)) p_arg6) shapeCasts_S1x1285560_S1285560)

/-- The reference's main_v45, as its operations compute it from main_arg6. -/
def v45 (p_arg6 : (main_arg6 : Ref sig .tc).ty.Contents (Elt F)) : (main_v45 : Ref sig .tc).ty.Contents (Elt F) :=
  (shapeCast _ (((extractStridedSlice S1x1285560 ![1, 0] · slices_S2x1285560_S1x1285560_1_0) : (⟨S2x1285560, .i32⟩ : BufTy).Contents (Elt F) → (⟨S1x1285560, .i32⟩ : BufTy).Contents (Elt F)) p_arg6) shapeCasts_S1x1285560_S1285560)

/-- The reference's main_v52, as its operations compute it from main_v45, main_arg2. -/
def v52 (p_v45 : (main_v45 : Ref sig .tc).ty.Contents (Elt F)) (p_arg2 : (main_arg2 : Ref sig .tc).ty.Contents (Elt F)) : (main_v52 : Ref sig .tc).ty.Contents (Elt F) :=
  (select ((cmpf .ogt : (⟨S42852, .f32⟩ : BufTy).Contents (Elt F) → (⟨S42852, .f32⟩ : BufTy).Contents (Elt F) → (⟨S42852, .i1⟩ : BufTy).Contents (Elt F)) (((fun x i u => Host.scatterAdd scatter_S42852_S1285560x1_S1285560_n_0_0_1 x i u) : (⟨S42852, .f32⟩ : BufTy).Contents (Elt F) → (⟨S1285560x1, .i32⟩ : BufTy).Contents (Elt F) → (⟨S1285560, .f32⟩ : BufTy).Contents (Elt F) → (⟨S42852, .f32⟩ : BufTy).Contents (Elt F)) ((broadcastInDim S42852 ![] bcast_S_S42852 : (⟨S_, .f32⟩ : BufTy).Contents (Elt F) → (⟨S42852, .f32⟩ : BufTy).Contents (Elt F)) (constant (F := F) S_ .f32 0x00000000#32)) ((broadcastInDim S1285560x1 ![0] bcast_S1285560_S1285560x1_0 : (⟨S1285560, .i32⟩ : BufTy).Contents (Elt F) → (⟨S1285560x1, .i32⟩ : BufTy).Contents (Elt F)) p_v45) p_arg2) ((broadcastInDim S42852 ![] bcast_S_S42852 : (⟨S_, .f32⟩ : BufTy).Contents (Elt F) → (⟨S42852, .f32⟩ : BufTy).Contents (Elt F)) (constant (F := F) S_ .f32 0x00000000#32))) ((Host.rsqrt : (⟨S42852, .f32⟩ : BufTy).Contents (Elt F) → (⟨S42852, .f32⟩ : BufTy).Contents (Elt F)) (((fun x i u => Host.scatterAdd scatter_S42852_S1285560x1_S1285560_n_0_0_1 x i u) : (⟨S42852, .f32⟩ : BufTy).Contents (Elt F) → (⟨S1285560x1, .i32⟩ : BufTy).Contents (Elt F) → (⟨S1285560, .f32⟩ : BufTy).Contents (Elt F) → (⟨S42852, .f32⟩ : BufTy).Contents (Elt F)) ((broadcastInDim S42852 ![] bcast_S_S42852 : (⟨S_, .f32⟩ : BufTy).Contents (Elt F) → (⟨S42852, .f32⟩ : BufTy).Contents (Elt F)) (constant (F := F) S_ .f32 0x00000000#32)) ((broadcastInDim S1285560x1 ![0] bcast_S1285560_S1285560x1_0 : (⟨S1285560, .i32⟩ : BufTy).Contents (Elt F) → (⟨S1285560x1, .i32⟩ : BufTy).Contents (Elt F)) p_v45) p_arg2)) ((broadcastInDim S42852 ![] bcast_S_S42852) (id (constant (F := F) S_ .f32 0x00000000#32))))

/-- The reference's main_v68, as its operations compute it from main_v52, main_v43, main_arg2, main_v45. -/
def v68 (p_v52 : (main_v52 : Ref sig .tc).ty.Contents (Elt F)) (p_v43 : (main_v43 : Ref sig .tc).ty.Contents (Elt F)) (p_arg2 : (main_arg2 : Ref sig .tc).ty.Contents (Elt F)) (p_v45 : (main_v45 : Ref sig .tc).ty.Contents (Elt F)) : (main_v68 : Ref sig .tc).ty.Contents (Elt F) :=
  ((mulf : (⟨S1285560, .f32⟩ : BufTy).Contents (Elt F) → (⟨S1285560, .f32⟩ : BufTy).Contents (Elt F) → (⟨S1285560, .f32⟩ : BufTy).Contents (Elt F)) ((mulf : (⟨S1285560, .f32⟩ : BufTy).Contents (Elt F) → (⟨S1285560, .f32⟩ : BufTy).Contents (Elt F) → (⟨S1285560, .f32⟩ : BufTy).Contents (Elt F)) (((fun x i => Host.gather gather_S42852_S1285560x1_S1285560_n_0_n_n_0_1_1 x i) : (⟨S42852, .f32⟩ : BufTy).Contents (Elt F) → (⟨S1285560x1, .i32⟩ : BufTy).Contents (Elt F) → (⟨S1285560, .f32⟩ : BufTy).Contents (Elt F)) p_v52 ((broadcastInDim S1285560x1 ![0] bcast_S1285560_S1285560x1_0 : (⟨S1285560, .i32⟩ : BufTy).Contents (Elt F) → (⟨S1285560x1, .i32⟩ : BufTy).Contents (Elt F)) ((select : (⟨S1285560, .i1⟩ : BufTy).Contents (Elt F) → (⟨S1285560, .i32⟩ : BufTy).Contents (Elt F) → (⟨S1285560, .i32⟩ : BufTy).Contents (Elt F) → (⟨S1285560, .i32⟩ : BufTy).Contents (Elt F)) ((cmpi .slt : (⟨S1285560, .i32⟩ : BufTy).Contents (Elt F) → (⟨S1285560, .i32⟩ : BufTy).Contents (Elt F) → (⟨S1285560, .i1⟩ : BufTy).Contents (Elt F)) p_v43 ((broadcastInDim S1285560 ![] bcast_S_S1285560 : (⟨S_, .i32⟩ : BufTy).Contents (Elt F) → (⟨S1285560, .i32⟩ : BufTy).Contents (Elt F)) (constantI S_ 32 0#32))) ((addi : (⟨S1285560, .i32⟩ : BufTy).Contents (Elt F) → (⟨S1285560, .i32⟩ : BufTy).Contents (Elt F) → (⟨S1285560, .i32⟩ : BufTy).Contents (Elt F)) p_v43 ((broadcastInDim S1285560 ![] bcast_S_S1285560 : (⟨S_, .i32⟩ : BufTy).Contents (Elt F) → (⟨S1285560, .i32⟩ : BufTy).Contents (Elt F)) (constantI S_ 32 42852#32))) p_v43))) p_arg2) (((fun x i => Host.gather gather_S42852_S1285560x1_S1285560_n_0_n_n_0_1_1 x i) : (⟨S42852, .f32⟩ : BufTy).Contents (Elt F) → (⟨S1285560x1, .i32⟩ : BufTy).Contents (Elt F) → (⟨S1285560, .f32⟩ : BufTy).Contents (Elt F)) p_v52 ((broadcastInDim S1285560x1 ![0] bcast_S1285560_S1285560x1_0 : (⟨S1285560, .i32⟩ : BufTy).Contents (Elt F) → (⟨S1285560x1, .i32⟩ : BufTy).Contents (Elt F)) ((select : (⟨S1285560, .i1⟩ : BufTy).Contents (Elt F) → (⟨S1285560, .i32⟩ : BufTy).Contents (Elt F) → (⟨S1285560, .i32⟩ : BufTy).Contents (Elt F) → (⟨S1285560, .i32⟩ : BufTy).Contents (Elt F)) ((cmpi .slt : (⟨S1285560, .i32⟩ : BufTy).Contents (Elt F) → (⟨S1285560, .i32⟩ : BufTy).Contents (Elt F) → (⟨S1285560, .i1⟩ : BufTy).Contents (Elt F)) p_v45 ((broadcastInDim S1285560 ![] bcast_S_S1285560 : (⟨S_, .i32⟩ : BufTy).Contents (Elt F) → (⟨S1285560, .i32⟩ : BufTy).Contents (Elt F)) (constantI S_ 32 0#32))) ((addi : (⟨S1285560, .i32⟩ : BufTy).Contents (Elt F) → (⟨S1285560, .i32⟩ : BufTy).Contents (Elt F) → (⟨S1285560, .i32⟩ : BufTy).Contents (Elt F)) p_v45 ((broadcastInDim S1285560 ![] bcast_S_S1285560 : (⟨S_, .i32⟩ : BufTy).Contents (Elt F) → (⟨S1285560, .i32⟩ : BufTy).Contents (Elt F)) (constantI S_ 32 42852#32))) p_v45))))

/-- The reference's main_v81, as its operations compute it from main_v45, main_v68, main_arg1, main_v43. -/
def v81 (p_v45 : (main_v45 : Ref sig .tc).ty.Contents (Elt F)) (p_v68 : (main_v68 : Ref sig .tc).ty.Contents (Elt F)) (p_arg1 : (main_arg1 : Ref sig .tc).ty.Contents (Elt F)) (p_v43 : (main_v43 : Ref sig .tc).ty.Contents (Elt F)) : (main_v81 : Ref sig .tc).ty.Contents (Elt F) :=
  (((fun x i u => Host.scatterAdd scatter_S42852x64_S1285560x1_S1285560x64_1_0_0_1 x i u) : (⟨S42852x64, .f32⟩ : BufTy).Contents (Elt F) → (⟨S1285560x1, .i32⟩ : BufTy).Contents (Elt F) → (⟨S1285560x64, .f32⟩ : BufTy).Contents (Elt F) → (⟨S42852x64, .f32⟩ : BufTy).Contents (Elt F)) ((broadcastInDim S42852x64 ![] bcast_S_S42852x64 : (⟨S_, .f32⟩ : BufTy).Contents (Elt F) → (⟨S42852x64, .f32⟩ : BufTy).Contents (Elt F)) (constant (F := F) S_ .f32 0x00000000#32)) ((broadcastInDim S1285560x1 ![0] bcast_S1285560_S1285560x1_0 : (⟨S1285560, .i32⟩ : BufTy).Contents (Elt F) → (⟨S1285560x1, .i32⟩ : BufTy).Contents (Elt F)) p_v45) ((mulf : (⟨S1285560x64, .f32⟩ : BufTy).Contents (Elt F) → (⟨S1285560x64, .f32⟩ : BufTy).Contents (Elt F) → (⟨S1285560x64, .f32⟩ : BufTy).Contents (Elt F)) ((broadcastInDim S1285560x64 ![0, 1] bcast_S1285560x1_S1285560x64_0_1 : (⟨S1285560x1, .f32⟩ : BufTy).Contents (Elt F) → (⟨S1285560x64, .f32⟩ : BufTy).Contents (Elt F)) ((broadcastInDim S1285560x1 ![0] bcast_S1285560_S1285560x1_0 : (⟨S1285560, .f32⟩ : BufTy).Contents (Elt F) → (⟨S1285560x1, .f32⟩ : BufTy).Contents (Elt F)) p_v68)) (((fun x i => Host.gather gather_S42852x64_S1285560x1_S1285560x64_1_0_n_n_0_1_164 x i) : (⟨S42852x64, .f32⟩ : BufTy).Contents (Elt F) → (⟨S1285560x1, .i32⟩ : BufTy).Contents (Elt F) → (⟨S1285560x64, .f32⟩ : BufTy).Contents (Elt F)) p_arg1 ((broadcastInDim S1285560x1 ![0] bcast_S1285560_S1285560x1_0 : (⟨S1285560, .i32⟩ : BufTy).Contents (Elt F) → (⟨S1285560x1, .i32⟩ : BufTy).Contents (Elt F)) ((select : (⟨S1285560, .i1⟩ : BufTy).Contents (Elt F) → (⟨S1285560, .i32⟩ : BufTy).Contents (Elt F) → (⟨S1285560, .i32⟩ : BufTy).Contents (Elt F) → (⟨S1285560, .i32⟩ : BufTy).Contents (Elt F)) ((cmpi .slt : (⟨S1285560, .i32⟩ : BufTy).Contents (Elt F) → (⟨S1285560, .i32⟩ : BufTy).Contents (Elt F) → (⟨S1285560, .i1⟩ : BufTy).Contents (Elt F)) p_v43 ((broadcastInDim S1285560 ![] bcast_S_S1285560 : (⟨S_, .i32⟩ : BufTy).Contents (Elt F) → (⟨S1285560, .i32⟩ : BufTy).Contents (Elt F)) (constantI S_ 32 0#32))) ((addi : (⟨S1285560, .i32⟩ : BufTy).Contents (Elt F) → (⟨S1285560, .i32⟩ : BufTy).Contents (Elt F) → (⟨S1285560, .i32⟩ : BufTy).Contents (Elt F)) p_v43 ((broadcastInDim S1285560 ![] bcast_S_S1285560 : (⟨S_, .i32⟩ : BufTy).Contents (Elt F) → (⟨S1285560, .i32⟩ : BufTy).Contents (Elt F)) (constantI S_ 32 42852#32))) p_v43)))))

/-- The reference's main_v82, as its operations compute it from main_arg1, main_v81. -/
def v82 (p_arg1 : (main_arg1 : Ref sig .tc).ty.Contents (Elt F)) (p_v81 : (main_v81 : Ref sig .tc).ty.Contents (Elt F)) : (main_v82 : Ref sig .tc).ty.Contents (Elt F) :=
  ((addf : (⟨S42852x64, .f32⟩ : BufTy).Contents (Elt F) → (⟨S42852x64, .f32⟩ : BufTy).Contents (Elt F) → (⟨S42852x64, .f32⟩ : BufTy).Contents (Elt F)) p_arg1 p_v81)

/-- The reference's main_v106, as its operations compute it from main_arg3, main_arg4. -/
def v106 (p_arg3 : (main_arg3 : Ref sig .tc).ty.Contents (Elt F)) (p_arg4 : (main_arg4 : Ref sig .tc).ty.Contents (Elt F)) : (main_v106 : Ref sig .tc).ty.Contents (Elt F) :=
  ((Host.rsqrt : (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) (((fun x i => Host.gather gather_S27094_S2000000x1_S2000000_n_0_n_n_0_1_1 x i) : (⟨S27094, .f32⟩ : BufTy).Contents (Elt F) → (⟨S2000000x1, .i32⟩ : BufTy).Contents (Elt F) → (⟨S2000000, .f32⟩ : BufTy).Contents (Elt F)) (((fun x i u => Host.scatterAdd scatter_S27094_S2000000x1_S2000000_n_0_0_1 x i u) : (⟨S27094, .f32⟩ : BufTy).Contents (Elt F) → (⟨S2000000x1, .i32⟩ : BufTy).Contents (Elt F) → (⟨S2000000, .f32⟩ : BufTy).Contents (Elt F) → (⟨S27094, .f32⟩ : BufTy).Contents (Elt F)) ((broadcastInDim S27094 ![] bcast_S_S27094 : (⟨S_, .f32⟩ : BufTy).Contents (Elt F) → (⟨S27094, .f32⟩ : BufTy).Contents (Elt F)) (constant (F := F) S_ .f32 0x00000000#32)) ((broadcastInDim S2000000x1 ![0] bcast_S2000000_S2000000x1_0 : (⟨S2000000, .i32⟩ : BufTy).Contents (Elt F) → (⟨S2000000x1, .i32⟩ : BufTy).Contents (Elt F)) p_arg3) ((broadcastInDim S2000000 ![] bcast_S_S2000000 : (⟨S_, .f32⟩ : BufTy).Contents (Elt F) → (⟨S2000000, .f32⟩ : BufTy).Contents (Elt F)) (constant (F := F) S_ .f32 0x3F800000#32))) ((broadcastInDim S2000000x1 ![0] bcast_S2000000_S2000000x1_0 : (⟨S2000000, .i32⟩ : BufTy).Contents (Elt F) → (⟨S2000000x1, .i32⟩ : BufTy).Contents (Elt F)) ((select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ((cmpi .slt : (⟨S2000000, .i32⟩ : BufTy).Contents (Elt F) → (⟨S2000000, .i32⟩ : BufTy).Contents (Elt F) → (⟨S2000000, .i1⟩ : BufTy).Contents (Elt F)) p_arg3 ((broadcastInDim S2000000 ![] bcast_S_S2000000 : (⟨S_, .i32⟩ : BufTy).Contents (Elt F) → (⟨S2000000, .i32⟩ : BufTy).Contents (Elt F)) (constantI S_ 32 0#32))) ((addi : (⟨S2000000, .i32⟩ : BufTy).Contents (Elt F) → (⟨S2000000, .i32⟩ : BufTy).Contents (Elt F) → (⟨S2000000, .i32⟩ : BufTy).Contents (Elt F)) p_arg3 ((broadcastInDim S2000000 ![] bcast_S_S2000000 : (⟨S_, .i32⟩ : BufTy).Contents (Elt F) → (⟨S2000000, .i32⟩ : BufTy).Contents (Elt F)) (constantI S_ 32 27094#32))) p_arg3))) (((fun x i => Host.gather gather_S42852_S2000000x1_S2000000_n_0_n_n_0_1_1 x i) : (⟨S42852, .f32⟩ : BufTy).Contents (Elt F) → (⟨S2000000x1, .i32⟩ : BufTy).Contents (Elt F) → (⟨S2000000, .f32⟩ : BufTy).Contents (Elt F)) (((fun x i u => Host.scatterAdd scatter_S42852_S2000000x1_S2000000_n_0_0_1 x i u) : (⟨S42852, .f32⟩ : BufTy).Contents (Elt F) → (⟨S2000000x1, .i32⟩ : BufTy).Contents (Elt F) → (⟨S2000000, .f32⟩ : BufTy).Contents (Elt F) → (⟨S42852, .f32⟩ : BufTy).Contents (Elt F)) ((broadcastInDim S42852 ![] bcast_S_S42852 : (⟨S_, .f32⟩ : BufTy).Contents (Elt F) → (⟨S42852, .f32⟩ : BufTy).Contents (Elt F)) (constant (F := F) S_ .f32 0x00000000#32)) ((broadcastInDim S2000000x1 ![0] bcast_S2000000_S2000000x1_0 : (⟨S2000000, .i32⟩ : BufTy).Contents (Elt F) → (⟨S2000000x1, .i32⟩ : BufTy).Contents (Elt F)) p_arg4) ((broadcastInDim S2000000 ![] bcast_S_S2000000 : (⟨S_, .f32⟩ : BufTy).Contents (Elt F) → (⟨S2000000, .f32⟩ : BufTy).Contents (Elt F)) (constant (F := F) S_ .f32 0x3F800000#32))) ((broadcastInDim S2000000x1 ![0] bcast_S2000000_S2000000x1_0 : (⟨S2000000, .i32⟩ : BufTy).Contents (Elt F) → (⟨S2000000x1, .i32⟩ : BufTy).Contents (Elt F)) ((select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ((cmpi .slt : (⟨S2000000, .i32⟩ : BufTy).Contents (Elt F) → (⟨S2000000, .i32⟩ : BufTy).Contents (Elt F) → (⟨S2000000, .i1⟩ : BufTy).Contents (Elt F)) p_arg4 ((broadcastInDim S2000000 ![] bcast_S_S2000000 : (⟨S_, .i32⟩ : BufTy).Contents (Elt F) → (⟨S2000000, .i32⟩ : BufTy).Contents (Elt F)) (constantI S_ 32 0#32))) ((addi : (⟨S2000000, .i32⟩ : BufTy).Contents (Elt F) → (⟨S2000000, .i32⟩ : BufTy).Contents (Elt F) → (⟨S2000000, .i32⟩ : BufTy).Contents (Elt F)) p_arg4 ((broadcastInDim S2000000 ![] bcast_S_S2000000 : (⟨S_, .i32⟩ : BufTy).Contents (Elt F) → (⟨S2000000, .i32⟩ : BufTy).Contents (Elt F)) (constantI S_ 32 42852#32))) p_arg4)))))

/-- The reference's main_v119, as its operations compute it from main_arg3, main_v82, main_arg4, main_v106. -/
def v119 (p_arg3 : (main_arg3 : Ref sig .tc).ty.Contents (Elt F)) (p_v82 : (main_v82 : Ref sig .tc).ty.Contents (Elt F)) (p_arg4 : (main_arg4 : Ref sig .tc).ty.Contents (Elt F)) (p_v106 : (main_v106 : Ref sig .tc).ty.Contents (Elt F)) : (main_v119 : Ref sig .tc).ty.Contents (Elt F) :=
  (((fun x i u => Host.scatterAdd scatter_S27094x64_S2000000x1_S2000000x64_1_0_0_1 x i u) : (⟨S27094x64, .f32⟩ : BufTy).Contents (Elt F) → (⟨S2000000x1, .i32⟩ : BufTy).Contents (Elt F) → (⟨S2000000x64, .f32⟩ : BufTy).Contents (Elt F) → (⟨S27094x64, .f32⟩ : BufTy).Contents (Elt F)) ((broadcastInDim S27094x64 ![] bcast_S_S27094x64 : (⟨S_, .f32⟩ : BufTy).Contents (Elt F) → (⟨S27094x64, .f32⟩ : BufTy).Contents (Elt F)) (constant (F := F) S_ .f32 0x00000000#32)) ((broadcastInDim S2000000x1 ![0] bcast_S2000000_S2000000x1_0 : (⟨S2000000, .i32⟩ : BufTy).Contents (Elt F) → (⟨S2000000x1, .i32⟩ : BufTy).Contents (Elt F)) p_arg3) ((mulf : (⟨S2000000x64, .f32⟩ : BufTy).Contents (Elt F) → (⟨S2000000x64, .f32⟩ : BufTy).Contents (Elt F) → (⟨S2000000x64, .f32⟩ : BufTy).Contents (Elt F)) (((fun x i => Host.gather gather_S42852x64_S2000000x1_S2000000x64_1_0_n_n_0_1_164 x i) : (⟨S42852x64, .f32⟩ : BufTy).Contents (Elt F) → (⟨S2000000x1, .i32⟩ : BufTy).Contents (Elt F) → (⟨S2000000x64, .f32⟩ : BufTy).Contents (Elt F)) p_v82 ((broadcastInDim S2000000x1 ![0] bcast_S2000000_S2000000x1_0 : (⟨S2000000, .i32⟩ : BufTy).Contents (Elt F) → (⟨S2000000x1, .i32⟩ : BufTy).Contents (Elt F)) ((select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ((cmpi .slt : (⟨S2000000, .i32⟩ : BufTy).Contents (Elt F) → (⟨S2000000, .i32⟩ : BufTy).Contents (Elt F) → (⟨S2000000, .i1⟩ : BufTy).Contents (Elt F)) p_arg4 ((broadcastInDim S2000000 ![] bcast_S_S2000000 : (⟨S_, .i32⟩ : BufTy).Contents (Elt F) → (⟨S2000000, .i32⟩ : BufTy).Contents (Elt F)) (constantI S_ 32 0#32))) ((addi : (⟨S2000000, .i32⟩ : BufTy).Contents (Elt F) → (⟨S2000000, .i32⟩ : BufTy).Contents (Elt F) → (⟨S2000000, .i32⟩ : BufTy).Contents (Elt F)) p_arg4 ((broadcastInDim S2000000 ![] bcast_S_S2000000 : (⟨S_, .i32⟩ : BufTy).Contents (Elt F) → (⟨S2000000, .i32⟩ : BufTy).Contents (Elt F)) (constantI S_ 32 42852#32))) p_arg4))) ((broadcastInDim S2000000x64 ![0, 1] bcast_S2000000x1_S2000000x64_0_1 : (⟨S2000000x1, .f32⟩ : BufTy).Contents (Elt F) → (⟨S2000000x64, .f32⟩ : BufTy).Contents (Elt F)) ((broadcastInDim S2000000x1 ![0] bcast_S2000000_S2000000x1_0 : (⟨S2000000, .f32⟩ : BufTy).Contents (Elt F) → (⟨S2000000x1, .f32⟩ : BufTy).Contents (Elt F)) p_v106))))

/-- The reference's main_v131, as its operations compute it from main_arg4, main_v41, main_arg3, main_v106. -/
def v131 (p_arg4 : (main_arg4 : Ref sig .tc).ty.Contents (Elt F)) (p_v41 : (main_v41 : Ref sig .tc).ty.Contents (Elt F)) (p_arg3 : (main_arg3 : Ref sig .tc).ty.Contents (Elt F)) (p_v106 : (main_v106 : Ref sig .tc).ty.Contents (Elt F)) : (main_v131 : Ref sig .tc).ty.Contents (Elt F) :=
  (((fun x i u => Host.scatterAdd scatter_S42852x64_S2000000x1_S2000000x64_1_0_0_1 x i u) : (⟨S42852x64, .f32⟩ : BufTy).Contents (Elt F) → (⟨S2000000x1, .i32⟩ : BufTy).Contents (Elt F) → (⟨S2000000x64, .f32⟩ : BufTy).Contents (Elt F) → (⟨S42852x64, .f32⟩ : BufTy).Contents (Elt F)) ((broadcastInDim S42852x64 ![] bcast_S_S42852x64 : (⟨S_, .f32⟩ : BufTy).Contents (Elt F) → (⟨S42852x64, .f32⟩ : BufTy).Contents (Elt F)) (constant (F := F) S_ .f32 0x00000000#32)) ((broadcastInDim S2000000x1 ![0] bcast_S2000000_S2000000x1_0 : (⟨S2000000, .i32⟩ : BufTy).Contents (Elt F) → (⟨S2000000x1, .i32⟩ : BufTy).Contents (Elt F)) p_arg4) ((mulf : (⟨S2000000x64, .f32⟩ : BufTy).Contents (Elt F) → (⟨S2000000x64, .f32⟩ : BufTy).Contents (Elt F) → (⟨S2000000x64, .f32⟩ : BufTy).Contents (Elt F)) (((fun x i => Host.gather gather_S27094x64_S2000000x1_S2000000x64_1_0_n_n_0_1_164 x i) : (⟨S27094x64, .f32⟩ : BufTy).Contents (Elt F) → (⟨S2000000x1, .i32⟩ : BufTy).Contents (Elt F) → (⟨S2000000x64, .f32⟩ : BufTy).Contents (Elt F)) p_v41 ((broadcastInDim S2000000x1 ![0] bcast_S2000000_S2000000x1_0 : (⟨S2000000, .i32⟩ : BufTy).Contents (Elt F) → (⟨S2000000x1, .i32⟩ : BufTy).Contents (Elt F)) ((select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ((cmpi .slt : (⟨S2000000, .i32⟩ : BufTy).Contents (Elt F) → (⟨S2000000, .i32⟩ : BufTy).Contents (Elt F) → (⟨S2000000, .i1⟩ : BufTy).Contents (Elt F)) p_arg3 ((broadcastInDim S2000000 ![] bcast_S_S2000000 : (⟨S_, .i32⟩ : BufTy).Contents (Elt F) → (⟨S2000000, .i32⟩ : BufTy).Contents (Elt F)) (constantI S_ 32 0#32))) ((addi : (⟨S2000000, .i32⟩ : BufTy).Contents (Elt F) → (⟨S2000000, .i32⟩ : BufTy).Contents (Elt F) → (⟨S2000000, .i32⟩ : BufTy).Contents (Elt F)) p_arg3 ((broadcastInDim S2000000 ![] bcast_S_S2000000 : (⟨S_, .i32⟩ : BufTy).Contents (Elt F) → (⟨S2000000, .i32⟩ : BufTy).Contents (Elt F)) (constantI S_ 32 27094#32))) p_arg3))) ((broadcastInDim S2000000x64 ![0, 1] bcast_S2000000x1_S2000000x64_0_1 : (⟨S2000000x1, .f32⟩ : BufTy).Contents (Elt F) → (⟨S2000000x64, .f32⟩ : BufTy).Contents (Elt F)) ((broadcastInDim S2000000x1 ![0] bcast_S2000000_S2000000x1_0 : (⟨S2000000, .f32⟩ : BufTy).Contents (Elt F) → (⟨S2000000x1, .f32⟩ : BufTy).Contents (Elt F)) p_v106))))

/-- The reference's main_v132, as its operations compute it from main_v82, main_v131. -/
def v132 (p_v82 : (main_v82 : Ref sig .tc).ty.Contents (Elt F)) (p_v131 : (main_v131 : Ref sig .tc).ty.Contents (Elt F)) : (main_v132 : Ref sig .tc).ty.Contents (Elt F) :=
  ((addf : (⟨S42852x64, .f32⟩ : BufTy).Contents (Elt F) → (⟨S42852x64, .f32⟩ : BufTy).Contents (Elt F) → (⟨S42852x64, .f32⟩ : BufTy).Contents (Elt F)) p_v82 p_v131)

/-- The reference's main_v133, as its operations compute it from main_v41, main_v119. -/
def v133 (p_v41 : (main_v41 : Ref sig .tc).ty.Contents (Elt F)) (p_v119 : (main_v119 : Ref sig .tc).ty.Contents (Elt F)) : (main_v133 : Ref sig .tc).ty.Contents (Elt F) :=
  ((addf : (⟨S27094x64, .f32⟩ : BufTy).Contents (Elt F) → (⟨S27094x64, .f32⟩ : BufTy).Contents (Elt F) → (⟨S27094x64, .f32⟩ : BufTy).Contents (Elt F)) p_v41 p_v119)

/-- The reference's main_v145, as its operations compute it from main_arg3, main_v131, main_arg4, main_v106. -/
def v145 (p_arg3 : (main_arg3 : Ref sig .tc).ty.Contents (Elt F)) (p_v131 : (main_v131 : Ref sig .tc).ty.Contents (Elt F)) (p_arg4 : (main_arg4 : Ref sig .tc).ty.Contents (Elt F)) (p_v106 : (main_v106 : Ref sig .tc).ty.Contents (Elt F)) : (main_v145 : Ref sig .tc).ty.Contents (Elt F) :=
  (((fun x i u => Host.scatterAdd scatter_S27094x64_S2000000x1_S2000000x64_1_0_0_1 x i u) : (⟨S27094x64, .f32⟩ : BufTy).Contents (Elt F) → (⟨S2000000x1, .i32⟩ : BufTy).Contents (Elt F) → (⟨S2000000x64, .f32⟩ : BufTy).Contents (Elt F) → (⟨S27094x64, .f32⟩ : BufTy).Contents (Elt F)) ((broadcastInDim S27094x64 ![] bcast_S_S27094x64 : (⟨S_, .f32⟩ : BufTy).Contents (Elt F) → (⟨S27094x64, .f32⟩ : BufTy).Contents (Elt F)) (constant (F := F) S_ .f32 0x00000000#32)) ((broadcastInDim S2000000x1 ![0] bcast_S2000000_S2000000x1_0 : (⟨S2000000, .i32⟩ : BufTy).Contents (Elt F) → (⟨S2000000x1, .i32⟩ : BufTy).Contents (Elt F)) p_arg3) ((mulf : (⟨S2000000x64, .f32⟩ : BufTy).Contents (Elt F) → (⟨S2000000x64, .f32⟩ : BufTy).Contents (Elt F) → (⟨S2000000x64, .f32⟩ : BufTy).Contents (Elt F)) (((fun x i => Host.gather gather_S42852x64_S2000000x1_S2000000x64_1_0_n_n_0_1_164 x i) : (⟨S42852x64, .f32⟩ : BufTy).Contents (Elt F) → (⟨S2000000x1, .i32⟩ : BufTy).Contents (Elt F) → (⟨S2000000x64, .f32⟩ : BufTy).Contents (Elt F)) p_v131 ((broadcastInDim S2000000x1 ![0] bcast_S2000000_S2000000x1_0 : (⟨S2000000, .i32⟩ : BufTy).Contents (Elt F) → (⟨S2000000x1, .i32⟩ : BufTy).Contents (Elt F)) ((select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ((cmpi .slt : (⟨S2000000, .i32⟩ : BufTy).Contents (Elt F) → (⟨S2000000, .i32⟩ : BufTy).Contents (Elt F) → (⟨S2000000, .i1⟩ : BufTy).Contents (Elt F)) p_arg4 ((broadcastInDim S2000000 ![] bcast_S_S2000000 : (⟨S_, .i32⟩ : BufTy).Contents (Elt F) → (⟨S2000000, .i32⟩ : BufTy).Contents (Elt F)) (constantI S_ 32 0#32))) ((addi : (⟨S2000000, .i32⟩ : BufTy).Contents (Elt F) → (⟨S2000000, .i32⟩ : BufTy).Contents (Elt F) → (⟨S2000000, .i32⟩ : BufTy).Contents (Elt F)) p_arg4 ((broadcastInDim S2000000 ![] bcast_S_S2000000 : (⟨S_, .i32⟩ : BufTy).Contents (Elt F) → (⟨S2000000, .i32⟩ : BufTy).Contents (Elt F)) (constantI S_ 32 42852#32))) p_arg4))) ((broadcastInDim S2000000x64 ![0, 1] bcast_S2000000x1_S2000000x64_0_1 : (⟨S2000000x1, .f32⟩ : BufTy).Contents (Elt F) → (⟨S2000000x64, .f32⟩ : BufTy).Contents (Elt F)) ((broadcastInDim S2000000x1 ![0] bcast_S2000000_S2000000x1_0 : (⟨S2000000, .f32⟩ : BufTy).Contents (Elt F) → (⟨S2000000x1, .f32⟩ : BufTy).Contents (Elt F)) p_v106))))

/-- The reference's main_v157, as its operations compute it from main_arg4, main_v119, main_arg3, main_v106. -/
def v157 (p_arg4 : (main_arg4 : Ref sig .tc).ty.Contents (Elt F)) (p_v119 : (main_v119 : Ref sig .tc).ty.Contents (Elt F)) (p_arg3 : (main_arg3 : Ref sig .tc).ty.Contents (Elt F)) (p_v106 : (main_v106 : Ref sig .tc).ty.Contents (Elt F)) : (main_v157 : Ref sig .tc).ty.Contents (Elt F) :=
  (((fun x i u => Host.scatterAdd scatter_S42852x64_S2000000x1_S2000000x64_1_0_0_1 x i u) : (⟨S42852x64, .f32⟩ : BufTy).Contents (Elt F) → (⟨S2000000x1, .i32⟩ : BufTy).Contents (Elt F) → (⟨S2000000x64, .f32⟩ : BufTy).Contents (Elt F) → (⟨S42852x64, .f32⟩ : BufTy).Contents (Elt F)) ((broadcastInDim S42852x64 ![] bcast_S_S42852x64 : (⟨S_, .f32⟩ : BufTy).Contents (Elt F) → (⟨S42852x64, .f32⟩ : BufTy).Contents (Elt F)) (constant (F := F) S_ .f32 0x00000000#32)) ((broadcastInDim S2000000x1 ![0] bcast_S2000000_S2000000x1_0 : (⟨S2000000, .i32⟩ : BufTy).Contents (Elt F) → (⟨S2000000x1, .i32⟩ : BufTy).Contents (Elt F)) p_arg4) ((mulf : (⟨S2000000x64, .f32⟩ : BufTy).Contents (Elt F) → (⟨S2000000x64, .f32⟩ : BufTy).Contents (Elt F) → (⟨S2000000x64, .f32⟩ : BufTy).Contents (Elt F)) (((fun x i => Host.gather gather_S27094x64_S2000000x1_S2000000x64_1_0_n_n_0_1_164 x i) : (⟨S27094x64, .f32⟩ : BufTy).Contents (Elt F) → (⟨S2000000x1, .i32⟩ : BufTy).Contents (Elt F) → (⟨S2000000x64, .f32⟩ : BufTy).Contents (Elt F)) p_v119 ((broadcastInDim S2000000x1 ![0] bcast_S2000000_S2000000x1_0 : (⟨S2000000, .i32⟩ : BufTy).Contents (Elt F) → (⟨S2000000x1, .i32⟩ : BufTy).Contents (Elt F)) ((select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ((cmpi .slt : (⟨S2000000, .i32⟩ : BufTy).Contents (Elt F) → (⟨S2000000, .i32⟩ : BufTy).Contents (Elt F) → (⟨S2000000, .i1⟩ : BufTy).Contents (Elt F)) p_arg3 ((broadcastInDim S2000000 ![] bcast_S_S2000000 : (⟨S_, .i32⟩ : BufTy).Contents (Elt F) → (⟨S2000000, .i32⟩ : BufTy).Contents (Elt F)) (constantI S_ 32 0#32))) ((addi : (⟨S2000000, .i32⟩ : BufTy).Contents (Elt F) → (⟨S2000000, .i32⟩ : BufTy).Contents (Elt F) → (⟨S2000000, .i32⟩ : BufTy).Contents (Elt F)) p_arg3 ((broadcastInDim S2000000 ![] bcast_S_S2000000 : (⟨S_, .i32⟩ : BufTy).Contents (Elt F) → (⟨S2000000, .i32⟩ : BufTy).Contents (Elt F)) (constantI S_ 32 27094#32))) p_arg3))) ((broadcastInDim S2000000x64 ![0, 1] bcast_S2000000x1_S2000000x64_0_1 : (⟨S2000000x1, .f32⟩ : BufTy).Contents (Elt F) → (⟨S2000000x64, .f32⟩ : BufTy).Contents (Elt F)) ((broadcastInDim S2000000x1 ![0] bcast_S2000000_S2000000x1_0 : (⟨S2000000, .f32⟩ : BufTy).Contents (Elt F) → (⟨S2000000x1, .f32⟩ : BufTy).Contents (Elt F)) p_v106))))

/-- The reference's main_v158, as its operations compute it from main_v132, main_v157. -/
def v158 (p_v132 : (main_v132 : Ref sig .tc).ty.Contents (Elt F)) (p_v157 : (main_v157 : Ref sig .tc).ty.Contents (Elt F)) : (main_v158 : Ref sig .tc).ty.Contents (Elt F) :=
  ((addf : (⟨S42852x64, .f32⟩ : BufTy).Contents (Elt F) → (⟨S42852x64, .f32⟩ : BufTy).Contents (Elt F) → (⟨S42852x64, .f32⟩ : BufTy).Contents (Elt F)) p_v132 p_v157)

/-- The reference's main_v159, as its operations compute it from main_v133, main_v145. -/
def v159 (p_v133 : (main_v133 : Ref sig .tc).ty.Contents (Elt F)) (p_v145 : (main_v145 : Ref sig .tc).ty.Contents (Elt F)) : (main_v159 : Ref sig .tc).ty.Contents (Elt F) :=
  ((addf : (⟨S27094x64, .f32⟩ : BufTy).Contents (Elt F) → (⟨S27094x64, .f32⟩ : BufTy).Contents (Elt F) → (⟨S27094x64, .f32⟩ : BufTy).Contents (Elt F)) p_v133 p_v145)

/-- The reference's main_v171, as its operations compute it from main_arg3, main_v157, main_arg4, main_v106. -/
def v171 (p_arg3 : (main_arg3 : Ref sig .tc).ty.Contents (Elt F)) (p_v157 : (main_v157 : Ref sig .tc).ty.Contents (Elt F)) (p_arg4 : (main_arg4 : Ref sig .tc).ty.Contents (Elt F)) (p_v106 : (main_v106 : Ref sig .tc).ty.Contents (Elt F)) : (main_v171 : Ref sig .tc).ty.Contents (Elt F) :=
  (((fun x i u => Host.scatterAdd scatter_S27094x64_S2000000x1_S2000000x64_1_0_0_1 x i u) : (⟨S27094x64, .f32⟩ : BufTy).Contents (Elt F) → (⟨S2000000x1, .i32⟩ : BufTy).Contents (Elt F) → (⟨S2000000x64, .f32⟩ : BufTy).Contents (Elt F) → (⟨S27094x64, .f32⟩ : BufTy).Contents (Elt F)) ((broadcastInDim S27094x64 ![] bcast_S_S27094x64 : (⟨S_, .f32⟩ : BufTy).Contents (Elt F) → (⟨S27094x64, .f32⟩ : BufTy).Contents (Elt F)) (constant (F := F) S_ .f32 0x00000000#32)) ((broadcastInDim S2000000x1 ![0] bcast_S2000000_S2000000x1_0 : (⟨S2000000, .i32⟩ : BufTy).Contents (Elt F) → (⟨S2000000x1, .i32⟩ : BufTy).Contents (Elt F)) p_arg3) ((mulf : (⟨S2000000x64, .f32⟩ : BufTy).Contents (Elt F) → (⟨S2000000x64, .f32⟩ : BufTy).Contents (Elt F) → (⟨S2000000x64, .f32⟩ : BufTy).Contents (Elt F)) (((fun x i => Host.gather gather_S42852x64_S2000000x1_S2000000x64_1_0_n_n_0_1_164 x i) : (⟨S42852x64, .f32⟩ : BufTy).Contents (Elt F) → (⟨S2000000x1, .i32⟩ : BufTy).Contents (Elt F) → (⟨S2000000x64, .f32⟩ : BufTy).Contents (Elt F)) p_v157 ((broadcastInDim S2000000x1 ![0] bcast_S2000000_S2000000x1_0 : (⟨S2000000, .i32⟩ : BufTy).Contents (Elt F) → (⟨S2000000x1, .i32⟩ : BufTy).Contents (Elt F)) ((select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ((cmpi .slt : (⟨S2000000, .i32⟩ : BufTy).Contents (Elt F) → (⟨S2000000, .i32⟩ : BufTy).Contents (Elt F) → (⟨S2000000, .i1⟩ : BufTy).Contents (Elt F)) p_arg4 ((broadcastInDim S2000000 ![] bcast_S_S2000000 : (⟨S_, .i32⟩ : BufTy).Contents (Elt F) → (⟨S2000000, .i32⟩ : BufTy).Contents (Elt F)) (constantI S_ 32 0#32))) ((addi : (⟨S2000000, .i32⟩ : BufTy).Contents (Elt F) → (⟨S2000000, .i32⟩ : BufTy).Contents (Elt F) → (⟨S2000000, .i32⟩ : BufTy).Contents (Elt F)) p_arg4 ((broadcastInDim S2000000 ![] bcast_S_S2000000 : (⟨S_, .i32⟩ : BufTy).Contents (Elt F) → (⟨S2000000, .i32⟩ : BufTy).Contents (Elt F)) (constantI S_ 32 42852#32))) p_arg4))) ((broadcastInDim S2000000x64 ![0, 1] bcast_S2000000x1_S2000000x64_0_1 : (⟨S2000000x1, .f32⟩ : BufTy).Contents (Elt F) → (⟨S2000000x64, .f32⟩ : BufTy).Contents (Elt F)) ((broadcastInDim S2000000x1 ![0] bcast_S2000000_S2000000x1_0 : (⟨S2000000, .f32⟩ : BufTy).Contents (Elt F) → (⟨S2000000x1, .f32⟩ : BufTy).Contents (Elt F)) p_v106))))

/-- The reference's main_v183, as its operations compute it from main_arg4, main_v145, main_arg3, main_v106. -/
def v183 (p_arg4 : (main_arg4 : Ref sig .tc).ty.Contents (Elt F)) (p_v145 : (main_v145 : Ref sig .tc).ty.Contents (Elt F)) (p_arg3 : (main_arg3 : Ref sig .tc).ty.Contents (Elt F)) (p_v106 : (main_v106 : Ref sig .tc).ty.Contents (Elt F)) : (main_v183 : Ref sig .tc).ty.Contents (Elt F) :=
  (((fun x i u => Host.scatterAdd scatter_S42852x64_S2000000x1_S2000000x64_1_0_0_1 x i u) : (⟨S42852x64, .f32⟩ : BufTy).Contents (Elt F) → (⟨S2000000x1, .i32⟩ : BufTy).Contents (Elt F) → (⟨S2000000x64, .f32⟩ : BufTy).Contents (Elt F) → (⟨S42852x64, .f32⟩ : BufTy).Contents (Elt F)) ((broadcastInDim S42852x64 ![] bcast_S_S42852x64 : (⟨S_, .f32⟩ : BufTy).Contents (Elt F) → (⟨S42852x64, .f32⟩ : BufTy).Contents (Elt F)) (constant (F := F) S_ .f32 0x00000000#32)) ((broadcastInDim S2000000x1 ![0] bcast_S2000000_S2000000x1_0 : (⟨S2000000, .i32⟩ : BufTy).Contents (Elt F) → (⟨S2000000x1, .i32⟩ : BufTy).Contents (Elt F)) p_arg4) ((mulf : (⟨S2000000x64, .f32⟩ : BufTy).Contents (Elt F) → (⟨S2000000x64, .f32⟩ : BufTy).Contents (Elt F) → (⟨S2000000x64, .f32⟩ : BufTy).Contents (Elt F)) (((fun x i => Host.gather gather_S27094x64_S2000000x1_S2000000x64_1_0_n_n_0_1_164 x i) : (⟨S27094x64, .f32⟩ : BufTy).Contents (Elt F) → (⟨S2000000x1, .i32⟩ : BufTy).Contents (Elt F) → (⟨S2000000x64, .f32⟩ : BufTy).Contents (Elt F)) p_v145 ((broadcastInDim S2000000x1 ![0] bcast_S2000000_S2000000x1_0 : (⟨S2000000, .i32⟩ : BufTy).Contents (Elt F) → (⟨S2000000x1, .i32⟩ : BufTy).Contents (Elt F)) ((select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ((cmpi .slt : (⟨S2000000, .i32⟩ : BufTy).Contents (Elt F) → (⟨S2000000, .i32⟩ : BufTy).Contents (Elt F) → (⟨S2000000, .i1⟩ : BufTy).Contents (Elt F)) p_arg3 ((broadcastInDim S2000000 ![] bcast_S_S2000000 : (⟨S_, .i32⟩ : BufTy).Contents (Elt F) → (⟨S2000000, .i32⟩ : BufTy).Contents (Elt F)) (constantI S_ 32 0#32))) ((addi : (⟨S2000000, .i32⟩ : BufTy).Contents (Elt F) → (⟨S2000000, .i32⟩ : BufTy).Contents (Elt F) → (⟨S2000000, .i32⟩ : BufTy).Contents (Elt F)) p_arg3 ((broadcastInDim S2000000 ![] bcast_S_S2000000 : (⟨S_, .i32⟩ : BufTy).Contents (Elt F) → (⟨S2000000, .i32⟩ : BufTy).Contents (Elt F)) (constantI S_ 32 27094#32))) p_arg3))) ((broadcastInDim S2000000x64 ![0, 1] bcast_S2000000x1_S2000000x64_0_1 : (⟨S2000000x1, .f32⟩ : BufTy).Contents (Elt F) → (⟨S2000000x64, .f32⟩ : BufTy).Contents (Elt F)) ((broadcastInDim S2000000x1 ![0] bcast_S2000000_S2000000x1_0 : (⟨S2000000, .f32⟩ : BufTy).Contents (Elt F) → (⟨S2000000x1, .f32⟩ : BufTy).Contents (Elt F)) p_v106))))

/-- The reference's main_v184, as its operations compute it from main_v158, main_v183. -/
def v184 (p_v158 : (main_v158 : Ref sig .tc).ty.Contents (Elt F)) (p_v183 : (main_v183 : Ref sig .tc).ty.Contents (Elt F)) : (main_v184 : Ref sig .tc).ty.Contents (Elt F) :=
  ((addf : (⟨S42852x64, .f32⟩ : BufTy).Contents (Elt F) → (⟨S42852x64, .f32⟩ : BufTy).Contents (Elt F) → (⟨S42852x64, .f32⟩ : BufTy).Contents (Elt F)) p_v158 p_v183)

/-- The reference's main_v185, as its operations compute it from main_v159, main_v171. -/
def v185 (p_v159 : (main_v159 : Ref sig .tc).ty.Contents (Elt F)) (p_v171 : (main_v171 : Ref sig .tc).ty.Contents (Elt F)) : (main_v185 : Ref sig .tc).ty.Contents (Elt F) :=
  ((addf : (⟨S27094x64, .f32⟩ : BufTy).Contents (Elt F) → (⟨S27094x64, .f32⟩ : BufTy).Contents (Elt F) → (⟨S27094x64, .f32⟩ : BufTy).Contents (Elt F)) p_v159 p_v171)

/-- The reference's main_v187, as its operations compute it from main_v184. -/
def v187 (p_v184 : (main_v184 : Ref sig .tc).ty.Contents (Elt F)) : (main_v187 : Ref sig .tc).ty.Contents (Elt F) :=
  ((mulf : (⟨S42852x64, .f32⟩ : BufTy).Contents (Elt F) → (⟨S42852x64, .f32⟩ : BufTy).Contents (Elt F) → (⟨S42852x64, .f32⟩ : BufTy).Contents (Elt F)) p_v184 ((broadcastInDim S42852x64 ![] bcast_S_S42852x64 : (⟨S_, .f32⟩ : BufTy).Contents (Elt F) → (⟨S42852x64, .f32⟩ : BufTy).Contents (Elt F)) (constant (F := F) S_ .f32 0x3E800000#32)))

/-- The reference's main_v189, as its operations compute it from main_v185. -/
def v189 (p_v185 : (main_v185 : Ref sig .tc).ty.Contents (Elt F)) : (main_v189 : Ref sig .tc).ty.Contents (Elt F) :=
  ((mulf : (⟨S27094x64, .f32⟩ : BufTy).Contents (Elt F) → (⟨S27094x64, .f32⟩ : BufTy).Contents (Elt F) → (⟨S27094x64, .f32⟩ : BufTy).Contents (Elt F)) p_v185 ((broadcastInDim S27094x64 ![] bcast_S_S27094x64 : (⟨S_, .f32⟩ : BufTy).Contents (Elt F) → (⟨S27094x64, .f32⟩ : BufTy).Contents (Elt F)) (constant (F := F) S_ .f32 0x3E800000#32)))

end Cert.ReferenceIdeal.RStages

end
-- ==== Proof.RDefs.lean ====
/- The idealized reference program's named arrays as functions of the seven argument arrays, in program order. -/
import proofs.«400075_j26585847562450_2_alg».proof.Proof.Args
import proofs.«400075_j26585847562450_2_alg».proof.Proof.RStages

set_option maxRecDepth 16384

noncomputable section

namespace Cert.ReferenceIdeal.RDefs

open Cert.ReferenceIdeal Cert.ReferenceIdeal.Gen Idealize.ShloMosaic Idealize.SL.Sem

variable (A : Cert.Args)

def r2 : (main_v2 : Ref sig .tc).ty.Contents (Elt Ideal) := RStages.v2 (F := Ideal) A.a5
def r4 : (main_v4 : Ref sig .tc).ty.Contents (Elt Ideal) := RStages.v4 (F := Ideal) A.a5
def r11 : (main_v11 : Ref sig .tc).ty.Contents (Elt Ideal) := RStages.v11 (F := Ideal) (r4 A)
def r27 : (main_v27 : Ref sig .tc).ty.Contents (Elt Ideal) := RStages.v27 (F := Ideal) (r11 A) (r2 A) (r4 A)
def r40 : (main_v40 : Ref sig .tc).ty.Contents (Elt Ideal) := RStages.v40 (F := Ideal) (r4 A) (r27 A) A.a0 (r2 A)
def r41 : (main_v41 : Ref sig .tc).ty.Contents (Elt Ideal) := RStages.v41 (F := Ideal) A.a0 (r40 A)
def r43 : (main_v43 : Ref sig .tc).ty.Contents (Elt Ideal) := RStages.v43 (F := Ideal) A.a6
def r45 : (main_v45 : Ref sig .tc).ty.Contents (Elt Ideal) := RStages.v45 (F := Ideal) A.a6
def r52 : (main_v52 : Ref sig .tc).ty.Contents (Elt Ideal) := RStages.v52 (F := Ideal) (r45 A) A.a2
def r68 : (main_v68 : Ref sig .tc).ty.Contents (Elt Ideal) := RStages.v68 (F := Ideal) (r52 A) (r43 A) A.a2 (r45 A)
def r81 : (main_v81 : Ref sig .tc).ty.Contents (Elt Ideal) := RStages.v81 (F := Ideal) (r45 A) (r68 A) A.a1 (r43 A)
def r82 : (main_v82 : Ref sig .tc).ty.Contents (Elt Ideal) := RStages.v82 (F := Ideal) A.a1 (r81 A)
def r106 : (main_v106 : Ref sig .tc).ty.Contents (Elt Ideal) := RStages.v106 (F := Ideal) A.a3 A.a4
def r119 : (main_v119 : Ref sig .tc).ty.Contents (Elt Ideal) := RStages.v119 (F := Ideal) A.a3 (r82 A) A.a4 (r106 A)
def r131 : (main_v131 : Ref sig .tc).ty.Contents (Elt Ideal) := RStages.v131 (F := Ideal) A.a4 (r41 A) A.a3 (r106 A)
def r132 : (main_v132 : Ref sig .tc).ty.Contents (Elt Ideal) := RStages.v132 (F := Ideal) (r82 A) (r131 A)
def r133 : (main_v133 : Ref sig .tc).ty.Contents (Elt Ideal) := RStages.v133 (F := Ideal) (r41 A) (r119 A)
def r145 : (main_v145 : Ref sig .tc).ty.Contents (Elt Ideal) := RStages.v145 (F := Ideal) A.a3 (r131 A) A.a4 (r106 A)
def r157 : (main_v157 : Ref sig .tc).ty.Contents (Elt Ideal) := RStages.v157 (F := Ideal) A.a4 (r119 A) A.a3 (r106 A)
def r158 : (main_v158 : Ref sig .tc).ty.Contents (Elt Ideal) := RStages.v158 (F := Ideal) (r132 A) (r157 A)
def r159 : (main_v159 : Ref sig .tc).ty.Contents (Elt Ideal) := RStages.v159 (F := Ideal) (r133 A) (r145 A)
def r171 : (main_v171 : Ref sig .tc).ty.Contents (Elt Ideal) := RStages.v171 (F := Ideal) A.a3 (r157 A) A.a4 (r106 A)
def r183 : (main_v183 : Ref sig .tc).ty.Contents (Elt Ideal) := RStages.v183 (F := Ideal) A.a4 (r145 A) A.a3 (r106 A)
def r184 : (main_v184 : Ref sig .tc).ty.Contents (Elt Ideal) := RStages.v184 (F := Ideal) (r158 A) (r183 A)
def r185 : (main_v185 : Ref sig .tc).ty.Contents (Elt Ideal) := RStages.v185 (F := Ideal) (r159 A) (r171 A)
def r187 : (main_v187 : Ref sig .tc).ty.Contents (Elt Ideal) := RStages.v187 (F := Ideal) (r184 A)
def r189 : (main_v189 : Ref sig .tc).ty.Contents (Elt Ideal) := RStages.v189 (F := Ideal) (r185 A)

end Cert.ReferenceIdeal.RDefs

end
-- ==== Proof.AggSpec.lean ====
/-
  What one aggregation computes, as a sum over the edges: entry (n, d) of the result is the sum, over the edges e whose
  destination index is n, of the source table's row at e's source index, at column d, times e's scale. The kernel (a one-hot
  gather, a scaling and a one-hot scatter, tile by tile over the padded edge list, the two halves added) and the reference (a
  gather, a scaling and a scatter-add) are each shown equal to this function when every index lies in its table.
  Four instances by the sizes of the two tables and the edge list; a source index is read modulo its table's row count only to
  make the function total (under the range hypotheses it is the index itself).
-/
import Idealize.ShloMosaic.PureOps.Ideal
import Idealize.ShloMosaic.Lib.ValueIdx
import Idealize.ShloMosaic.Lib.ValueIdxRank1

noncomputable section

namespace Cert.AggSpec

open Idealize.ShloMosaic Idealize.ShloMosaic.ValueIdx

abbrev S27094x64 : Shape := ⟨2, ![27094, 64]⟩
abbrev S42852x64 : Shape := ⟨2, ![42852, 64]⟩
abbrev S541880 : Shape := ⟨1, ![541880]⟩
abbrev S1285560 : Shape := ⟨1, ![1285560]⟩
abbrev S2000000 : Shape := ⟨1, ![2000000]⟩

/-- The aggregation over an edge list of length E from a table of ns rows onto nd rows. -/
def agg (ns nd E : ℕ) (hns : 0 < ns) (tbl : FVec Ideal ⟨2, ![ns, 64]⟩ .f32) (src dst : IVec ⟨1, ![E]⟩ 32) (sc : FVec Ideal ⟨1, ![E]⟩ .f32) :
    FVec Ideal ⟨2, ![nd, 64]⟩ .f32 :=
  fun i => ∑ e : Fin E,
    if (dst (ix1 e)).toNat = (i 0).val then
      ((tbl (ix2 (⟨(src (ix1 e)).toNat % ns, Nat.mod_lt _ hns⟩ : Fin ns) (⟨(i 1).val, (i 1).isLt⟩ : Fin 64)) : EReal) * (sc (ix1 e) : EReal) : EReal)
    else 0

/-- User table to user rows over the user graph's edges. -/
abbrev aggUU (tbl : FVec Ideal S27094x64 .f32) (src dst : IVec S541880 32) (sc : FVec Ideal S541880 .f32) : FVec Ideal S27094x64 .f32 :=
  agg 27094 27094 541880 (by decide) tbl src dst sc
/-- Spot table to spot rows over the spot graph's edges. -/
abbrev aggSS (tbl : FVec Ideal S42852x64 .f32) (src dst : IVec S1285560 32) (sc : FVec Ideal S1285560 .f32) : FVec Ideal S42852x64 .f32 :=
  agg 42852 42852 1285560 (by decide) tbl src dst sc
/-- Spot table to user rows over the bipartite edges. -/
abbrev aggSU (tbl : FVec Ideal S42852x64 .f32) (src dst : IVec S2000000 32) (sc : FVec Ideal S2000000 .f32) : FVec Ideal S27094x64 .f32 :=
  agg 42852 27094 2000000 (by decide) tbl src dst sc
/-- User table to spot rows over the bipartite edges. -/
abbrev aggUS (tbl : FVec Ideal S27094x64 .f32) (src dst : IVec S2000000 32) (sc : FVec Ideal S2000000 .f32) : FVec Ideal S42852x64 .f32 :=
  agg 27094 42852 2000000 (by decide) tbl src dst sc

end Cert.AggSpec

end
-- ==== Proof.Spec.lean ====
/-
  Arithmetic of one-hot gathers and scatters over the extended reals.

  A one-hot row times a table picks one entry of the table; an all-zero row
  picks nothing. A sum taken tile by tile over a padded index range split in
  two halves is the sum over the whole range, and weighting the terms by an
  indicator that vanishes on the padding leaves the sum over the true indices
  that satisfy the predicate. Only the commutative-monoid structure of addition
  and the laws 0 * x = 0 and 1 * x = x (valid for every extended real, the
  infinite ones included) are used; no distributivity.
-/
import Mathlib.Data.EReal.Inv
import Mathlib.Algebra.BigOperators.Group.Finset.Basic
import Mathlib.Algebra.BigOperators.Group.Finset.Piecewise
import Mathlib.Data.Fintype.BigOperators

namespace Cert.Spec

open Finset

/-- A one-hot weight times a term is the term where the weight is hot, else zero. -/
private theorem onehot_mul {ι : Type*} [DecidableEq ι] (j s : ι) (x : EReal) :
    (if j = s then (1 : EReal) else 0) * x = if j = s then x else 0 := by
  split_ifs
  · exact one_mul x
  · exact zero_mul x

/-- A one-hot row at position j (inside the range) picks the j-th term. -/
theorem onehot_sum_range (N j : ℕ) (hj : j < N) (t : ℕ → EReal) :
    (∑ s ∈ range N, (if j = s then (1 : EReal) else 0) * t s) = t j := by
  rw [sum_congr rfl (fun s _ => onehot_mul j s (t s)), sum_ite_eq]
  exact if_pos (mem_range.mpr hj)

/-- A row whose indicator is false everywhere on the range sums to zero. -/
theorem onehot_sum_range_none (N : ℕ) (p : ℕ → Prop) [DecidablePred p]
    (hp : ∀ s < N, ¬ p s) (t : ℕ → EReal) :
    (∑ s ∈ range N, (if p s then (1 : EReal) else 0) * t s) = 0 := by
  apply sum_eq_zero
  intro s hs
  rw [if_neg (hp s (mem_range.mp hs)), zero_mul]

/-- A one-hot row over a finite index type picks its hot term. -/
theorem onehot_sum_fintype {ι : Type*} [Fintype ι] [DecidableEq ι] (j : ι) (t : ι → EReal) :
    (∑ s : ι, (if j = s then (1 : EReal) else 0) * t s) = t j := by
  rw [sum_congr rfl (fun s _ => onehot_mul j s (t s)), sum_ite_eq]
  exact if_pos (mem_univ j)

/-- T consecutive blocks of 64 indices make up the first 64 * T indices. -/
private theorem block_sum (T : ℕ) (G : ℕ → EReal) :
    (∑ k ∈ range T, ∑ r ∈ range 64, G (64 * k + r)) = ∑ x ∈ range (64 * T), G x := by
  induction T with
  | zero => simp
  | succ T ih => rw [sum_range_succ, ih, Nat.mul_succ, sum_range_add]

/-- Two halves, each of T tiles of 64 indices, make up the padded range of
    2 * (64 * T) indices. -/
theorem tiles_sum (T : ℕ) (F : ℕ → EReal) :
    (∑ c ∈ range 2, ∑ k ∈ range T, ∑ r ∈ range 64, F (c * (64 * T) + 64 * k + r))
      = ∑ e ∈ range (2 * (64 * T)), F e := by
  have h : ∀ c, (∑ k ∈ range T, ∑ r ∈ range 64, F (c * (64 * T) + 64 * k + r))
      = ∑ x ∈ range (64 * T), F (c * (64 * T) + x) := by
    intro c
    have hb := block_sum T (fun x => F (c * (64 * T) + x))
    simp only [← Nat.add_assoc] at hb
    exact hb
  rw [sum_congr rfl (fun c _ => h c), sum_range_succ, sum_range_one, two_mul, sum_range_add,
    zero_mul, one_mul]
  simp only [zero_add]

/-- The tiled sum of indicator-weighted messages over the padded range equals the
    sum of the messages over the true indices that satisfy the predicate: the
    weight vanishes on the padding, is the indicator of P below E, and the
    gathered term agrees with the message below E. -/
theorem agg_nat (E T : ℕ) (hE : E ≤ 2 * (64 * T)) (ohd g f : ℕ → EReal)
    (P : ℕ → Prop) [DecidablePred P]
    (h1 : ∀ e < E, ohd e = if P e then 1 else 0) (h0 : ∀ e, E ≤ e → ohd e = 0)
    (hg : ∀ e < E, g e = f e) :
    (∑ c ∈ range 2, ∑ k ∈ range T, ∑ r ∈ range 64,
        ohd (c * (64 * T) + 64 * k + r) * g (c * (64 * T) + 64 * k + r))
      = ∑ e ∈ (range E).filter P, f e := by
  rw [tiles_sum T (fun e => ohd e * g e)]
  obtain ⟨m, hm⟩ := Nat.exists_eq_add_of_le hE
  rw [hm, sum_range_add]
  have hup : (∑ x ∈ range m, ohd (E + x) * g (E + x)) = 0 := by
    apply sum_eq_zero
    intro x _
    rw [h0 (E + x) (Nat.le_add_right E x), zero_mul]
  rw [hup, add_zero, sum_filter]
  apply sum_congr rfl
  intro e he
  have he' : e < E := mem_range.mp he
  rw [h1 e he', hg e he']
  split_ifs
  · exact one_mul (f e)
  · exact zero_mul (f e)

/-- A sum over Fin N of a function of the value is the sum over range N. -/
theorem sum_fin_eq_range (N : ℕ) (F : ℕ → EReal) :
    (∑ i : Fin N, F i.val) = ∑ i ∈ range N, F i :=
  Fin.sum_univ_eq_sum_range F N

/-- The same for sums restricted by a predicate on the value. -/
theorem filter_sum_fin (N : ℕ) (P : ℕ → Prop) [DecidablePred P] (F : ℕ → EReal) :
    (∑ i ∈ (univ : Finset (Fin N)).filter (fun i => P i.val), F i.val)
      = ∑ i ∈ (range N).filter P, F i := by
  rw [sum_filter, sum_filter]
  exact Fin.sum_univ_eq_sum_range (fun i => if P i then F i else 0) N

end Cert.Spec
-- ==== Proof.AggK0.lean ====
/-
  The kernel side of the first aggregation (user table onto user rows over the user graph's edges): what the idealized
  kernel program computes, read index by index at the extended reals, is the plain sum over the edges.

  The host pads the two index arrays with the all-ones word and the scales with zero up to a multiple of 128 entries and
  views each as two halves of column blocks; it pads the table with zero rows. One grid point takes a tile of 64 edges:
  the compare of the tile's source indices with the position along the row is the one-hot matrix of the sources, whose
  product with the table is the gathered rows; these are scaled; the one-hot matrix of the destinations, contracted over
  the tile with the scaled rows, is what the point adds. The region's output holds, per half, the sum over the half's
  points; the host adds the two halves and drops the padding rows.
  Read at (n, d): a padded edge's destination word is no row, so it adds nothing; a real edge's one-hot source row picks
  the table's row at its source index, which is inside the table, so never a padding row; its destination entry at n is
  one exactly when its destination index is n. Only 0 * x = 0, 1 * x = x and the commutative-monoid laws of addition are
  used. The sums over (half, tile, row) re-index to the edge number.
-/
import proofs.«400075_j26585847562450_2_alg».proof.Proof.KHost0
import proofs.«400075_j26585847562450_2_alg».proof.Proof.KHost1
import proofs.«400075_j26585847562450_2_alg».proof.Proof.RegDefs
import proofs.«400075_j26585847562450_2_alg».proof.Proof.Spec
import proofs.«400075_j26585847562450_2_alg».proof.Proof.AggSpec
import Idealize.ShloMosaic.Lib.ValueIdx
import Idealize.ShloMosaic.Lib.ValueIdxRank1
import Idealize.ShloMosaic.Lib.Pipeline.Value
import Idealize.ShloMosaic.Lib.KernelVsHost
import Idealize.ShloMosaic.PureOps.Ideal.Laws

noncomputable section

namespace Cert.AggK0

open Cert.KernelIdeal Idealize.ShloMosaic Idealize.ShloMosaic.ValueIdx

/-! ## The padded edge arrays at a natural position -/

/-- An integer edge array read at a natural position: the array inside its range, the all-ones word past its end. -/
def natI (x : IVec S541880 32) (e : ℕ) : BitVec 32 := if h : e < 541880 then x (ix1 ⟨e, h⟩) else 4294967295#32

/-- A float edge array read at a natural position: the array inside its range, zero past its end. -/
def natF (x : FVec Ideal S541880 .f32) (e : ℕ) : EReal := if h : e < 541880 then x (ix1 ⟨e, h⟩) else 0

/-- A rank-1 array padded at its high end, read at a position: the array inside, the padding value outside. -/
theorem pad1_apply {α : Type} (x : S541880.Idx → α) (v : S_.Idx → α)
    (h : S541880.Pads (![0] : Fin 1 → ℕ) ![72] ![0] S541952) (hu : 0 < S_.numel) (e : Fin 541952) :
    pad S541952 ![0] ![72] ![0] x v h hu (ix1 e)
      = if he : e.val < 541880 then x (ix1 ⟨e.val, he⟩) else v (Shape.Idx.first hu) := by
  by_cases he : e.val < 541880
  · rw [dif_pos he]
    exact pad_apply_of_inside _ _ _ x v h hu (ix1 e) (ix1 ⟨e.val, he⟩) (fun a => by
      match a with
      | ⟨0, _⟩ => show e.val = 0 + e.val * (0 + 1); omega)
  · rw [dif_neg he]
    exact pad_apply_of_not_inside _ _ _ x v h hu (ix1 e) (0 : Fin 1) (by
      show ¬(0 ≤ e.val ∧ (e.val - 0) % (0 + 1) = 0 ∧ (e.val - 0) / (0 + 1) < 541880)
      omega)

/-- The padded, reshaped source indices at (half, position, 0): the source array at half * 270976 + position. -/
theorem v30_apply (src : IVec S541880 32) (h : Fin 2) (m : Fin 270976) :
    KHost0.v30 (F := Ideal) src (ix3 h m (0 : Fin 1)) = natI src (h.val * (64 * 4234) + m.val) := by
  unfold KHost0.v30
  refine (shapeCast_apply _ _ (ix3 h m (0 : Fin 1)) (ix1 (⟨h.val * (64 * 4234) + m.val, by omega⟩ : Fin 541952)) ?_).trans ?_
  · rw [Shape.rowMajor_val_one, Shape.rowMajor_val_three]
    show h.val * (64 * 4234) + m.val = (h.val * 270976 + m.val) * 1 + 0
    omega
  · refine (pad1_apply _ _ _ _ _).trans ?_
    unfold natI
    rfl

/-- The padded, reshaped destination indices likewise. -/
theorem v32_apply (dst : IVec S541880 32) (h : Fin 2) (m : Fin 270976) :
    KHost0.v32 (F := Ideal) dst (ix3 h m (0 : Fin 1)) = natI dst (h.val * (64 * 4234) + m.val) := by
  unfold KHost0.v32
  refine (shapeCast_apply _ _ (ix3 h m (0 : Fin 1)) (ix1 (⟨h.val * (64 * 4234) + m.val, by omega⟩ : Fin 541952)) ?_).trans ?_
  · rw [Shape.rowMajor_val_one, Shape.rowMajor_val_three]
    show h.val * (64 * 4234) + m.val = (h.val * 270976 + m.val) * 1 + 0
    omega
  · refine (pad1_apply _ _ _ _ _).trans ?_
    unfold natI
    rfl

/-- The padded, reshaped scales likewise, zero past the end. -/
theorem v34_apply (sc : FVec Ideal S541880 .f32) (h : Fin 2) (m : Fin 270976) :
    KHost0.v34 (F := Ideal) sc (ix3 h m (0 : Fin 1)) = natF sc (h.val * (64 * 4234) + m.val) := by
  unfold KHost0.v34
  refine (shapeCast_apply _ _ (ix3 h m (0 : Fin 1)) (ix1 (⟨h.val * (64 * 4234) + m.val, by omega⟩ : Fin 541952)) ?_).trans ?_
  · rw [Shape.rowMajor_val_one, Shape.rowMajor_val_three]
    show h.val * (64 * 4234) + m.val = (h.val * 270976 + m.val) * 1 + 0
    omega
  · refine (pad1_apply _ _ _ _ _).trans ?_
    unfold natF
    by_cases he : h.val * (64 * 4234) + m.val < 541880
    · rw [dif_pos he, dif_pos he]
    · rw [dif_neg he, dif_neg he]
      exact Ideal.ofBits_zero_f32

/-- A table padded with rows at its high end, read at a row of the table: the table there. -/
theorem pad2_apply {α : Type} (x : S27094x64.Idx → α) (v : S_.Idx → α)
    (h : S27094x64.Pads (![0, 0] : Fin 2 → ℕ) ![42, 0] ![0, 0] S27136x64) (hu : 0 < S_.numel) (s : Fin 27094) (d : Fin 64) :
    pad S27136x64 ![0, 0] ![42, 0] ![0, 0] x v h hu (ix2 (⟨s.val, by omega⟩ : Fin 27136) d) = x (ix2 s d) :=
  pad_apply_of_inside _ _ _ x v h hu (ix2 (⟨s.val, by omega⟩ : Fin 27136) d) (ix2 s d) (fun a => by
    match a with
    | ⟨0, _⟩ => show s.val = 0 + s.val * (0 + 1); omega
    | ⟨1, _⟩ => show d.val = 0 + d.val * (0 + 1); omega)

/-- The table padded with zero rows and changed of format (the identity on the extended reals), read at a row of the
    table: the table there. -/
theorem v28_apply (tbl : FVec Ideal S27094x64 .f32) (s : Fin 27094) (d : Fin 64) :
    KHost0.v28 (F := Ideal) tbl (ix2 (⟨s.val, by omega⟩ : Fin 27136) d) = tbl (ix2 s d) := by
  unfold KHost0.v28
  dsimp only
  refine (truncf_apply (φ := .f32) (ψ := .bf16) _ _ _).trans ?_
  exact pad2_apply tbl _ _ _ s d

/-! ## The one-hot matrices -/

/-- The word comparison, widened and converted: one where the words agree, zero where they do not. -/
theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  unfold IntOp.cmpi
  by_cases hab : a = b
  · have h1 : (a == b) = true := by simpa using hab
    have h2 : ((BitVec.ofBool true).setWidth 32).toInt = 1 := by decide
    rw [if_pos hab]
    show ((((BitVec.ofBool (a == b)).setWidth 32).toInt : ℝ) : EReal) = 1
    rw [h1, h2]
    simp
  · have h1 : (a == b) = false := by simpa using hab
    have h2 : ((BitVec.ofBool false).setWidth 32).toInt = 0 := by decide
    rw [if_neg hab]
    show ((((BitVec.ofBool (a == b)).setWidth 32).toInt : ℝ) : EReal) = 0
    rw [h1, h2]
    simp

/-- The compare of a broadcast index column with the position along the row, widened and converted: the one-hot matrix. -/
theorem onehot_apply (v4 : IVec S64x1 32) (hb : S64x1.Broadcasts S64x27136) (hi : S64x27136.Iotas .tc 32 [1])
    (h1 : 1 < 32) (hbits : FTy.bf16.bits < FTy.f32.bits) (r : Fin 64) (s : Fin 27136) :
    (truncf .bf16 (sitofp (F := Ideal) .f32 (extui 32 (cmpi .eq (broadcastTo S64x27136 v4 hb) (iota .tc S64x27136 32 [1] hi)) h1)) hbits
        : FVec Ideal S64x27136 .bf16) (ix2 r s)
      = if v4 (ix2 r (0 : Fin 1)) = BitVec.ofNat 32 s.val then 1 else 0 := by
  have e1 : broadcastTo S64x27136 v4 hb (ix2 r s) = v4 (ix2 r (0 : Fin 1)) :=
    broadcastTo_apply v4 hb (ix2 r s) (ix2 r (0 : Fin 1)) (fun a => match a with | ⟨0, _⟩ => rfl | ⟨1, _⟩ => rfl)
  have e2 : iota .tc S64x27136 32 [1] hi (ix2 r s) = BitVec.ofNat 32 s.val :=
    iota_single_apply .tc S64x27136 32 1 hi (ix2 r s)
  show (FloatOps.sitofp (F := Ideal) .f32
      ((IntOp.cmpi .eq (broadcastTo S64x27136 v4 hb (ix2 r s)) (iota .tc S64x27136 32 [1] hi (ix2 r s))).setWidth 32) : EReal) = _
  rw [e1, e2]
  exact onehot_word _ _

/-- A column block [1, 64, 1] viewed [64, 1], read at a row. -/
theorem blk_cast_apply {α : Type} (v : S1x64x1.Idx → α) (h : S1x64x1.ShapeCasts S64x1) (r : Fin 64) :
    shapeCast S64x1 v h (ix2 r (0 : Fin 1)) = v (ix3 (0 : Fin 1) r (0 : Fin 1)) :=
  shapeCast_apply v h (ix2 r (0 : Fin 1)) (ix3 (0 : Fin 1) r (0 : Fin 1)) (by
    rw [Shape.rowMajor_val_three, Shape.rowMajor_val_two]
    show (0 * 64 + r.val) * 1 + 0 = r.val * 1 + 0
    omega)

/-- The scale column broadcast along the rows, read at an index. -/
theorem scale_bcast_apply {α : Type} (v8 : S64x1.Idx → α) (hb : S64x1.Broadcasts S64x64) (r d : Fin 64) :
    broadcastTo S64x64 v8 hb (ix2 r d) = v8 (ix2 r (0 : Fin 1)) :=
  broadcastTo_apply v8 hb (ix2 r d) (ix2 r (0 : Fin 1)) (fun a => match a with | ⟨0, _⟩ => rfl | ⟨1, _⟩ => rfl)

/-! ## The two matrix products -/

/-- A product contracting the left operand's columns with the right operand's rows, into a zero accumulator, read at an index. -/
theorem matmul_rows_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product contracting the rows of both operands, into a zero accumulator, read at an index. -/
theorem matmul_cols_apply {m k n : ℕ} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    matmul (⟨[0], [0], [1], [1], [], [], w⟩ : DotDims ⟨2, ![k, m]⟩ ⟨2, ![k, n]⟩ ⟨2, ![m, n]⟩) prec A B
        (constant (F := Ideal) ⟨2, ![m, n]⟩ .f32 0x00000000#32) (ix2 a b)
      = ∑ c : Fin k, A (ix2 c a) * B (ix2 c b) := by
  show FloatOps.matmul _ prec A B _ (ix2 a b) = _
  rw [Ideal.matmul_constant_zero_apply,
    ← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## One tile -/

/-- What one grid point adds at (n, d): the sum over the tile's 64 rows of the destination one-hot entry times the
    gathered, scaled table entry. -/
theorem contrib_apply (v3 v5 : IVec S1x64x1 32) (v7 : FVec Ideal S1x64x1 .f32) (v15 : FVec Ideal S27136x64 .bf16)
    (n : Fin 27136) (d : Fin 64) :
    Reg0.contrib (F := Ideal) v3 v5 v7 v15 (ix2 n d)
      = ∑ r : Fin 64, (if v5 (ix3 (0 : Fin 1) r (0 : Fin 1)) = BitVec.ofNat 32 n.val then (1 : EReal) else 0)
          * ((∑ s : Fin 27136, (if v3 (ix3 (0 : Fin 1) r (0 : Fin 1)) = BitVec.ofNat 32 s.val then (1 : EReal) else 0) * v15 (ix2 s d))
              * v7 (ix3 (0 : Fin 1) r (0 : Fin 1))) := by
  unfold Reg0.contrib
  dsimp only
  refine (matmul_cols_apply _ none _ _ n d).trans ?_
  refine Finset.sum_congr rfl fun r _ => ?_
  refine congrArg₂ (· * ·) ?_ ?_
  · refine (onehot_apply _ _ _ _ _ r n).trans ?_
    rw [blk_cast_apply]
  · refine (truncf_apply (φ := .f32) (ψ := .bf16) _ _ _).trans ?_
    refine (mulf_apply _ _ _).trans ?_
    refine congrArg₂ (· * ·) ?_ ?_
    · refine (matmul_rows_apply _ none _ _ r d).trans ?_
      refine Finset.sum_congr rfl fun s _ => ?_
      refine congrArg₂ (· * ·) ?_ ?_
      · refine (onehot_apply _ _ _ _ _ r s).trans ?_
        rw [blk_cast_apply]
      · rw [shapeCast_self]
    · refine (scale_bcast_apply _ _ r d).trans ?_
      exact blk_cast_apply _ _ r

/-! ## Words and ranges -/

/-- A 32-bit word is the word of a natural below 2^32 exactly when that natural is its value. -/
theorem word_eq_iff (x : BitVec 32) (n : ℕ) (hn : n < 4294967296) : x = BitVec.ofNat 32 n ↔ x.toNat = n := by
  constructor
  · intro h
    rw [h, BitVec.toNat_ofNat]
    omega
  · intro h
    apply BitVec.eq_of_toNat_eq
    rw [BitVec.toNat_ofNat, h]
    omega

/-- A word whose signed value lies in [0, 27094) has its unsigned value there. -/
theorem toNat_lt_of_toInt (w : BitVec 32) (h : 0 ≤ w.toInt ∧ w.toInt < 27094) : w.toNat < 27094 := by
  have hw := w.isLt
  rw [BitVec.toInt_eq_toNat_cond] at h
  split at h <;> omega

theorem natI_lt (x : IVec S541880 32) (e : ℕ) (he : e < 541880) : natI x e = x (ix1 ⟨e, he⟩) := dif_pos he
theorem natI_ge (x : IVec S541880 32) (e : ℕ) (he : 541880 ≤ e) : natI x e = 4294967295#32 := dif_neg (by omega)
theorem natF_lt (x : FVec Ideal S541880 .f32) (e : ℕ) (he : e < 541880) : natF x e = x (ix1 ⟨e, he⟩) := dif_pos he
theorem natI_fin (x : IVec S541880 32) (e : Fin 541880) : natI x e.val = x (ix1 e) := dif_pos e.isLt
theorem natF_fin (x : FVec Ideal S541880 .f32) (e : Fin 541880) : natF x e.val = x (ix1 e) := dif_pos e.isLt

/-! ## The edge at a natural position -/

/-- The destination one-hot entry of the edge at position e, at row n. -/
def ohd (dst : IVec S541880 32) (n : ℕ) (e : ℕ) : EReal := if natI dst e = BitVec.ofNat 32 n then 1 else 0

/-- The gathered, scaled table entry of the edge at position e, at column d, as a tile computes it. -/
def gat (tbl : FVec Ideal S27094x64 .f32) (src : IVec S541880 32) (sc : FVec Ideal S541880 .f32) (d : Fin 64) (e : ℕ) : EReal :=
  (∑ s : Fin 27136, (if natI src e = BitVec.ofNat 32 s.val then (1 : EReal) else 0) * KHost0.v28 (F := Ideal) tbl (ix2 s d)) * natF sc e

/-- The message of the edge at position e, at column d: the table's row at the edge's source index, scaled. -/
def msg (tbl : FVec Ideal S27094x64 .f32) (src : IVec S541880 32) (sc : FVec Ideal S541880 .f32) (d : Fin 64) (e : ℕ) : EReal :=
  tbl (ix2 (⟨(natI src e).toNat % 27094, Nat.mod_lt _ (by decide)⟩ : Fin 27094) d) * natF sc e

/-- The block a grid point reads of a padded integer edge array, at a row. -/
theorem blkI_apply (A : IVec S2x270976x1 32) (h : Fin 2) (k : Fin 4234) (r : Fin 64) :
    Reg0.blkI (F := Ideal) A h k (ix3 (0 : Fin 1) r (0 : Fin 1))
      = A (ix3 h (⟨64 * k.val + r.val, by have := k.isLt; have := r.isLt; omega⟩ : Fin 270976) (0 : Fin 1)) := rfl

/-- The block a grid point reads of a padded float edge array, at a row. -/
theorem blkF_apply (A : FVec Ideal S2x270976x1 .f32) (h : Fin 2) (k : Fin 4234) (r : Fin 64) :
    Reg0.blkF (F := Ideal) A h k (ix3 (0 : Fin 1) r (0 : Fin 1))
      = A (ix3 h (⟨64 * k.val + r.val, by have := k.isLt; have := r.isLt; omega⟩ : Fin 270976) (0 : Fin 1)) := rfl

/-- One grid point's contribution over the padded edge arrays: the sum over the tile's rows of the edges' terms. -/
theorem tile_apply (tbl : FVec Ideal S27094x64 .f32) (src dst : IVec S541880 32) (sc : FVec Ideal S541880 .f32)
    (h : Fin 2) (k : Fin 4234) (n : Fin 27136) (d : Fin 64) :
    Reg0.contrib (F := Ideal) (Reg0.blkI (F := Ideal) (KHost0.v30 (F := Ideal) src) h k)
        (Reg0.blkI (F := Ideal) (KHost0.v32 (F := Ideal) dst) h k) (Reg0.blkF (F := Ideal) (KHost0.v34 (F := Ideal) sc) h k)
        (KHost0.v28 (F := Ideal) tbl) (ix2 n d)
      = ∑ r : Fin 64, ohd dst n.val (h.val * (64 * 4234) + 64 * k.val + r.val)
          * gat tbl src sc d (h.val * (64 * 4234) + 64 * k.val + r.val) := by
  refine (contrib_apply _ _ _ _ n d).trans ?_
  refine Finset.sum_congr rfl fun r _ => ?_
  have e0 : Reg0.blkI (F := Ideal) (KHost0.v30 (F := Ideal) src) h k (ix3 (0 : Fin 1) r (0 : Fin 1))
      = natI src (h.val * (64 * 4234) + 64 * k.val + r.val) :=
    (blkI_apply _ h k r).trans ((v30_apply src h _).trans (congrArg (natI src) (Nat.add_assoc _ _ _).symm))
  have e1 : Reg0.blkI (F := Ideal) (KHost0.v32 (F := Ideal) dst) h k (ix3 (0 : Fin 1) r (0 : Fin 1))
      = natI dst (h.val * (64 * 4234) + 64 * k.val + r.val) :=
    (blkI_apply _ h k r).trans ((v32_apply dst h _).trans (congrArg (natI dst) (Nat.add_assoc _ _ _).symm))
  have e2 : Reg0.blkF (F := Ideal) (KHost0.v34 (F := Ideal) sc) h k (ix3 (0 : Fin 1) r (0 : Fin 1))
      = natF sc (h.val * (64 * 4234) + 64 * k.val + r.val) :=
    (blkF_apply _ h k r).trans ((v34_apply sc h _).trans (congrArg (natF sc) (Nat.add_assoc _ _ _).symm))
  rw [e0, e1, e2]
  rfl

/-- The region's output array read at (half, n, d). -/
theorem out_def (A0 A1 : IVec S2x270976x1 32) (A2 : FVec Ideal S2x270976x1 .f32) (A3 : FVec Ideal S27136x64 .bf16)
    (h : Fin 2) (n : Fin 27136) (d : Fin 64) :
    Reg0.out A0 A1 A2 A3 (ix3 h n d)
      = ∑ k : Fin 4234, Reg0.contrib (F := Ideal) (Reg0.blkI (F := Ideal) A0 h k) (Reg0.blkI (F := Ideal) A1 h k)
          (Reg0.blkF (F := Ideal) A2 h k) A3 (ix2 n d) := rfl

/-- One half's output over the padded edge arrays at (n, d): the sum over its tiles and their rows of the edges' terms. -/
theorem out_apply (tbl : FVec Ideal S27094x64 .f32) (src dst : IVec S541880 32) (sc : FVec Ideal S541880 .f32)
    (c : ℕ) (hc : c < 2) (n : Fin 27136) (d : Fin 64) :
    Reg0.out (KHost0.v30 (F := Ideal) src) (KHost0.v32 (F := Ideal) dst) (KHost0.v34 (F := Ideal) sc) (KHost0.v28 (F := Ideal) tbl)
        (ix3 (⟨c, hc⟩ : Fin 2) n d)
      = ∑ k ∈ Finset.range 4234, ∑ r ∈ Finset.range 64,
          ohd dst n.val (c * (64 * 4234) + 64 * k + r) * gat tbl src sc d (c * (64 * 4234) + 64 * k + r) := by
  refine (out_def _ _ _ _ ⟨c, hc⟩ n d).trans ?_
  refine (Finset.sum_congr rfl fun k _ => tile_apply tbl src dst sc ⟨c, hc⟩ k n d).trans ?_
  refine (Finset.sum_congr rfl fun k _ => Cert.Spec.sum_fin_eq_range 64
    (fun r => ohd dst n.val (c * (64 * 4234) + 64 * k.val + r) * gat tbl src sc d (c * (64 * 4234) + 64 * k.val + r))).trans ?_
  exact Cert.Spec.sum_fin_eq_range 4234 (fun k => ∑ r ∈ Finset.range 64,
    ohd dst n.val (c * (64 * 4234) + 64 * k + r) * gat tbl src sc d (c * (64 * 4234) + 64 * k + r))

/-- The message at a position inside the edge array. -/
theorem msg_fin (tbl : FVec Ideal S27094x64 .f32) (src : IVec S541880 32) (sc : FVec Ideal S541880 .f32) (d : Fin 64) (e : Fin 541880) :
    msg tbl src sc d e.val
      = tbl (ix2 (⟨(src (ix1 e)).toNat % 27094, Nat.mod_lt _ (by decide)⟩ : Fin 27094) d) * sc (ix1 e) := by
  unfold msg
  rw [natF_fin]
  refine congrArg (· * sc (ix1 e)) ?_
  exact congrArg (fun s : Fin 27094 => tbl (ix2 s d)) (Fin.ext (by
    show (natI src e.val).toNat % 27094 = (src (ix1 e)).toNat % 27094
    rw [natI_fin]))

/-- A sum over the two halves. -/
theorem sum_two (Y : ℕ → EReal) : ∑ c ∈ Finset.range 2, Y c = Y 0 + Y 1 := by
  rw [Finset.sum_range_succ, Finset.sum_range_one]

/-! ## The two halves together are the sum over the edges -/

/-- The sum of the two halves' outputs at (n, d) is the aggregation's sum over the edges: a padded edge adds nothing (its
    destination word is no row), a real edge's one-hot source row picks its table row, and the (half, tile, row) sums
    re-index to the edge number. -/
theorem halves_sum (tbl : FVec Ideal S27094x64 .f32) (src dst : IVec S541880 32) (sc : FVec Ideal S541880 .f32)
    (hsrc : ∀ i, 0 ≤ (src i).toInt ∧ (src i).toInt < 27094) (n : Fin 27094) (d : Fin 64) :
    Reg0.out (KHost0.v30 (F := Ideal) src) (KHost0.v32 (F := Ideal) dst) (KHost0.v34 (F := Ideal) sc) (KHost0.v28 (F := Ideal) tbl)
        (ix3 (⟨0, by decide⟩ : Fin 2) (⟨n.val, by omega⟩ : Fin 27136) d)
      + Reg0.out (KHost0.v30 (F := Ideal) src) (KHost0.v32 (F := Ideal) dst) (KHost0.v34 (F := Ideal) sc) (KHost0.v28 (F := Ideal) tbl)
        (ix3 (⟨1, by decide⟩ : Fin 2) (⟨n.val, by omega⟩ : Fin 27136) d)
      = Cert.AggSpec.aggUU tbl src dst sc (ix2 n d) := by
  have hn := n.isLt
  have h1 : ∀ e < 541880, ohd dst n.val e = if (natI dst e).toNat = n.val then 1 else 0 := fun e _ =>
    if_congr (word_eq_iff _ _ (by omega)) rfl rfl
  have h0 : ∀ e, 541880 ≤ e → ohd dst n.val e = 0 := fun e he => by
    unfold ohd
    rw [natI_ge _ _ he]
    refine if_neg fun h => ?_
    have h2 := (word_eq_iff _ _ (by omega)).mp h
    have h3 : (4294967295#32 : BitVec 32).toNat = 4294967295 := by decide
    omega
  have hg : ∀ e < 541880, gat tbl src sc d e = msg tbl src sc d e := fun e he => by
    have hw : (natI src e).toNat < 27094 := toNat_lt_of_toInt _ (by rw [natI_lt _ _ he]; exact hsrc _)
    have hsel : ∀ s : Fin 27136, (natI src e = BitVec.ofNat 32 s.val) ↔ ((⟨(natI src e).toNat, by omega⟩ : Fin 27136) = s) := fun s =>
      (word_eq_iff _ _ (by have := s.isLt; omega)).trans ⟨fun h => Fin.ext h, fun h => congrArg Fin.val h⟩
    unfold gat msg
    refine congrArg (· * natF sc e) ?_
    refine (Finset.sum_congr rfl fun s _ => congrArg (· * KHost0.v28 (F := Ideal) tbl (ix2 s d)) (if_congr (hsel s) rfl rfl)).trans ?_
    refine (Cert.Spec.onehot_sum_fintype (⟨(natI src e).toNat, by omega⟩ : Fin 27136) (fun s => KHost0.v28 (F := Ideal) tbl (ix2 s d))).trans ?_
    refine (v28_apply tbl ⟨(natI src e).toNat, hw⟩ d).trans ?_
    exact congrArg (fun s : Fin 27094 => tbl (ix2 s d)) (Fin.ext (Nat.mod_eq_of_lt hw).symm)
  have hsum := Cert.Spec.agg_nat 541880 4234 (by norm_num) (ohd dst n.val) (gat tbl src sc d) (msg tbl src sc d)
    (fun e => (natI dst e).toNat = n.val) h1 h0 hg
  refine (congrArg₂ (· + ·) (out_apply tbl src dst sc 0 (by decide) _ d) (out_apply tbl src dst sc 1 (by decide) _ d)).trans ?_
  refine Eq.trans (sum_two (fun c => ∑ k ∈ Finset.range 4234, ∑ r ∈ Finset.range 64,
    ohd dst n.val (c * (64 * 4234) + 64 * k + r) * gat tbl src sc d (c * (64 * 4234) + 64 * k + r))).symm (hsum.trans ?_)
  rw [Finset.sum_filter]
  refine (Cert.Spec.sum_fin_eq_range 541880 (fun e => if (natI dst e).toNat = n.val then msg tbl src sc d e else 0)).symm.trans ?_
  refine Finset.sum_congr rfl fun e _ => ?_
  exact if_congr (by rw [natI_fin]) (msg_fin tbl src sc d e) rfl

/-! ## The host's tail: the two halves added, the padding rows dropped -/

/-- One half of the region's output array, sliced out and viewed without its unit axis, read at (n, d). -/
theorem half_apply {α : Type} (X : S2x27136x64.Idx → α) (c : ℕ) (hc : c < 2) (hs : S2x27136x64.Slices ![c, 0, 0] S1x27136x64)
    (hcast : S1x27136x64.ShapeCasts S27136x64) (n : Fin 27136) (d : Fin 64) :
    shapeCast S27136x64 (extractStridedSlice S1x27136x64 ![c, 0, 0] X hs) hcast (ix2 n d) = X (ix3 (⟨c, hc⟩ : Fin 2) n d) := by
  refine (shapeCast_apply _ hcast (ix2 n d) (ix3 (0 : Fin 1) n d) ?_).trans ?_
  · rw [Shape.rowMajor_val_three, Shape.rowMajor_val_two]
    show (0 * 27136 + n.val) * 64 + d.val = n.val * 64 + d.val
    omega
  · exact extractStridedSlice_apply _ X hs _ _ (fun a => by
      match a with
      | ⟨0, _⟩ => show c = c + 0; omega
      | ⟨1, _⟩ => show n.val = 0 + n.val; omega
      | ⟨2, _⟩ => show d.val = 0 + d.val; omega)

/-- The host's tail read at (n, d): the two halves of the region's output array at row n, added. -/
theorem v41_apply (X : FVec Ideal S2x27136x64 .f32) (n : Fin 27094) (d : Fin 64) :
    KHost1.v41 (F := Ideal) X (ix2 n d)
      = X (ix3 (⟨0, by decide⟩ : Fin 2) (⟨n.val, by omega⟩ : Fin 27136) d)
        + X (ix3 (⟨1, by decide⟩ : Fin 2) (⟨n.val, by omega⟩ : Fin 27136) d) := by
  unfold KHost1.v41
  dsimp only
  refine (extractStridedSlice_apply _ _ _ (ix2 n d) (ix2 (⟨n.val, by omega⟩ : Fin 27136) d) (fun a => by
    match a with
    | ⟨0, _⟩ => show n.val = 0 + n.val; omega
    | ⟨1, _⟩ => show d.val = 0 + d.val; omega)).trans ?_
  refine (addf_apply _ _ _).trans ?_
  exact congrArg₂ (· + ·) (half_apply X 0 (by decide) _ _ _ d) (half_apply X 1 (by decide) _ _ _ d)

/-- THE KERNEL SIDE OF THE AGGREGATION: what the idealized kernel program computes, read index by index at the extended
    reals, is the plain sum over the edges. -/
theorem aggK0 (tbl : FVec Ideal S27094x64 .f32) (src dst : IVec S541880 32) (sc : FVec Ideal S541880 .f32)
    (hsrc : ∀ i, 0 ≤ (src i).toInt ∧ (src i).toInt < 27094) (hdst : ∀ i, 0 ≤ (dst i).toInt ∧ (dst i).toInt < 27094) :
    KHost1.v41 (F := Ideal) (Reg0.out (KHost0.v30 (F := Ideal) src) (KHost0.v32 (F := Ideal) dst) (KHost0.v34 (F := Ideal) sc) (KHost0.v28 (F := Ideal) tbl))
      = Cert.AggSpec.aggUU tbl src dst sc := by
  funext i
  obtain ⟨n, d, rfl⟩ : ∃ (n : Fin 27094) (d : Fin 64), i = ix2 n d := ⟨i 0, i 1, eq_ix2 i⟩
  exact (v41_apply _ n d).trans (halves_sum tbl src dst sc hsrc n d)

end Cert.AggK0

end
-- ==== Proof.AggK1.lean ====
/-
  The kernel side of the second aggregation (spot table onto spot rows over the spot graph's edges): what the idealized
  kernel program computes, read index by index at the extended reals, is the plain sum over the edges.

  The host pads the two index arrays with the all-ones word and the scales with zero up to a multiple of 128 entries and
  views each as two halves of column blocks; it pads the table with zero rows. One grid point takes a tile of 64 edges:
  the compare of the tile's source indices with the position along the row is the one-hot matrix of the sources, whose
  product with the table is the gathered rows; these are scaled; the one-hot matrix of the destinations, contracted over
  the tile with the scaled rows, is what the point adds. The region's output holds, per half, the sum over the half's
  points; the host adds the two halves and drops the padding rows.
  Read at (n, d): a padded edge's destination word is no row, so it adds nothing; a real edge's one-hot source row picks
  the table's row at its source index, which is inside the table, so never a padding row; its destination entry at n is
  one exactly when its destination index is n. Only 0 * x = 0, 1 * x = x and the commutative-monoid laws of addition are
  used. The sums over (half, tile, row) re-index to the edge number.
-/
import proofs.«400075_j26585847562450_2_alg».proof.Proof.KHost1
import proofs.«400075_j26585847562450_2_alg».proof.Proof.KHost2
import proofs.«400075_j26585847562450_2_alg».proof.Proof.RegDefs
import proofs.«400075_j26585847562450_2_alg».proof.Proof.Spec
import proofs.«400075_j26585847562450_2_alg».proof.Proof.AggSpec
import Idealize.ShloMosaic.Lib.ValueIdx
import Idealize.ShloMosaic.Lib.ValueIdxRank1
import Idealize.ShloMosaic.Lib.Pipeline.Value
import Idealize.ShloMosaic.Lib.KernelVsHost
import Idealize.ShloMosaic.PureOps.Ideal.Laws

noncomputable section

namespace Cert.AggK1

open Cert.KernelIdeal Idealize.ShloMosaic Idealize.ShloMosaic.ValueIdx

/-! ## The padded edge arrays at a natural position -/

/-- An integer edge array read at a natural position: the array inside its range, the all-ones word past its end. -/
def natI (x : IVec S1285560 32) (e : ℕ) : BitVec 32 := if h : e < 1285560 then x (ix1 ⟨e, h⟩) else 4294967295#32

/-- A float edge array read at a natural position: the array inside its range, zero past its end. -/
def natF (x : FVec Ideal S1285560 .f32) (e : ℕ) : EReal := if h : e < 1285560 then x (ix1 ⟨e, h⟩) else 0

/-- A rank-1 array padded at its high end, read at a position: the array inside, the padding value outside. -/
theorem pad1_apply {α : Type} (x : S1285560.Idx → α) (v : S_.Idx → α)
    (h : S1285560.Pads (![0] : Fin 1 → ℕ) ![72] ![0] S1285632) (hu : 0 < S_.numel) (e : Fin 1285632) :
    pad S1285632 ![0] ![72] ![0] x v h hu (ix1 e)
      = if he : e.val < 1285560 then x (ix1 ⟨e.val, he⟩) else v (Shape.Idx.first hu) := by
  by_cases he : e.val < 1285560
  · rw [dif_pos he]
    exact pad_apply_of_inside _ _ _ x v h hu (ix1 e) (ix1 ⟨e.val, he⟩) (fun a => by
      match a with
      | ⟨0, _⟩ => show e.val = 0 + e.val * (0 + 1); omega)
  · rw [dif_neg he]
    exact pad_apply_of_not_inside _ _ _ x v h hu (ix1 e) (0 : Fin 1) (by
      show ¬(0 ≤ e.val ∧ (e.val - 0) % (0 + 1) = 0 ∧ (e.val - 0) / (0 + 1) < 1285560)
      omega)

/-- The padded, reshaped source indices at (half, position, 0): the source array at half * 642816 + position. -/
theorem v73_apply (src : IVec S1285560 32) (h : Fin 2) (m : Fin 642816) :
    KHost1.v73 (F := Ideal) src (ix3 h m (0 : Fin 1)) = natI src (h.val * (64 * 10044) + m.val) := by
  unfold KHost1.v73
  refine (shapeCast_apply _ _ (ix3 h m (0 : Fin 1)) (ix1 (⟨h.val * (64 * 10044) + m.val, by omega⟩ : Fin 1285632)) ?_).trans ?_
  · rw [Shape.rowMajor_val_one, Shape.rowMajor_val_three]
    show h.val * (64 * 10044) + m.val = (h.val * 642816 + m.val) * 1 + 0
    omega
  · refine (pad1_apply _ _ _ _ _).trans ?_
    unfold natI
    rfl

/-- The padded, reshaped destination indices likewise. -/
theorem v75_apply (dst : IVec S1285560 32) (h : Fin 2) (m : Fin 642816) :
    KHost1.v75 (F := Ideal) dst (ix3 h m (0 : Fin 1)) = natI dst (h.val * (64 * 10044) + m.val) := by
  unfold KHost1.v75
  refine (shapeCast_apply _ _ (ix3 h m (0 : Fin 1)) (ix1 (⟨h.val * (64 * 10044) + m.val, by omega⟩ : Fin 1285632)) ?_).trans ?_
  · rw [Shape.rowMajor_val_one, Shape.rowMajor_val_three]
    show h.val * (64 * 10044) + m.val = (h.val * 642816 + m.val) * 1 + 0
    omega
  · refine (pad1_apply _ _ _ _ _).trans ?_
    unfold natI
    rfl

/-- The padded, reshaped scales likewise, zero past the end. -/
theorem v77_apply (sc : FVec Ideal S1285560 .f32) (h : Fin 2) (m : Fin 642816) :
    KHost1.v77 (F := Ideal) sc (ix3 h m (0 : Fin 1)) = natF sc (h.val * (64 * 10044) + m.val) := by
  unfold KHost1.v77
  refine (shapeCast_apply _ _ (ix3 h m (0 : Fin 1)) (ix1 (⟨h.val * (64 * 10044) + m.val, by omega⟩ : Fin 1285632)) ?_).trans ?_
  · rw [Shape.rowMajor_val_one, Shape.rowMajor_val_three]
    show h.val * (64 * 10044) + m.val = (h.val * 642816 + m.val) * 1 + 0
    omega
  · refine (pad1_apply _ _ _ _ _).trans ?_
    unfold natF
    by_cases he : h.val * (64 * 10044) + m.val < 1285560
    · rw [dif_pos he, dif_pos he]
    · rw [dif_neg he, dif_neg he]
      exact Ideal.ofBits_zero_f32

/-- A table padded with rows at its high end, read at a row of the table: the table there. -/
theorem pad2_apply {α : Type} (x : S42852x64.Idx → α) (v : S_.Idx → α)
    (h : S42852x64.Pads (![0, 0] : Fin 2 → ℕ) ![28, 0] ![0, 0] S42880x64) (hu : 0 < S_.numel) (s : Fin 42852) (d : Fin 64) :
    pad S42880x64 ![0, 0] ![28, 0] ![0, 0] x v h hu (ix2 (⟨s.val, by omega⟩ : Fin 42880) d) = x (ix2 s d) :=
  pad_apply_of_inside _ _ _ x v h hu (ix2 (⟨s.val, by omega⟩ : Fin 42880) d) (ix2 s d) (fun a => by
    match a with
    | ⟨0, _⟩ => show s.val = 0 + s.val * (0 + 1); omega
    | ⟨1, _⟩ => show d.val = 0 + d.val * (0 + 1); omega)

/-- The table padded with zero rows and changed of format (the identity on the extended reals), read at a row of the
    table: the table there. -/
theorem v71_apply (tbl : FVec Ideal S42852x64 .f32) (s : Fin 42852) (d : Fin 64) :
    KHost1.v71 (F := Ideal) tbl (ix2 (⟨s.val, by omega⟩ : Fin 42880) d) = tbl (ix2 s d) := by
  unfold KHost1.v71
  dsimp only
  refine (truncf_apply (φ := .f32) (ψ := .bf16) _ _ _).trans ?_
  exact pad2_apply tbl _ _ _ s d

/-! ## The one-hot matrices -/

/-- The word comparison, widened and converted: one where the words agree, zero where they do not. -/
theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  unfold IntOp.cmpi
  by_cases hab : a = b
  · have h1 : (a == b) = true := by simpa using hab
    have h2 : ((BitVec.ofBool true).setWidth 32).toInt = 1 := by decide
    rw [if_pos hab]
    show ((((BitVec.ofBool (a == b)).setWidth 32).toInt : ℝ) : EReal) = 1
    rw [h1, h2]
    simp
  · have h1 : (a == b) = false := by simpa using hab
    have h2 : ((BitVec.ofBool false).setWidth 32).toInt = 0 := by decide
    rw [if_neg hab]
    show ((((BitVec.ofBool (a == b)).setWidth 32).toInt : ℝ) : EReal) = 0
    rw [h1, h2]
    simp

/-- The compare of a broadcast index column with the position along the row, widened and converted: the one-hot matrix. -/
theorem onehot_apply (v4 : IVec S64x1 32) (hb : S64x1.Broadcasts S64x42880) (hi : S64x42880.Iotas .tc 32 [1])
    (h1 : 1 < 32) (hbits : FTy.bf16.bits < FTy.f32.bits) (r : Fin 64) (s : Fin 42880) :
    (truncf .bf16 (sitofp (F := Ideal) .f32 (extui 32 (cmpi .eq (broadcastTo S64x42880 v4 hb) (iota .tc S64x42880 32 [1] hi)) h1)) hbits
        : FVec Ideal S64x42880 .bf16) (ix2 r s)
      = if v4 (ix2 r (0 : Fin 1)) = BitVec.ofNat 32 s.val then 1 else 0 := by
  have e1 : broadcastTo S64x42880 v4 hb (ix2 r s) = v4 (ix2 r (0 : Fin 1)) :=
    broadcastTo_apply v4 hb (ix2 r s) (ix2 r (0 : Fin 1)) (fun a => match a with | ⟨0, _⟩ => rfl | ⟨1, _⟩ => rfl)
  have e2 : iota .tc S64x42880 32 [1] hi (ix2 r s) = BitVec.ofNat 32 s.val :=
    iota_single_apply .tc S64x42880 32 1 hi (ix2 r s)
  show (FloatOps.sitofp (F := Ideal) .f32
      ((IntOp.cmpi .eq (broadcastTo S64x42880 v4 hb (ix2 r s)) (iota .tc S64x42880 32 [1] hi (ix2 r s))).setWidth 32) : EReal) = _
  rw [e1, e2]
  exact onehot_word _ _

/-- A column block [1, 64, 1] viewed [64, 1], read at a row. -/
theorem blk_cast_apply {α : Type} (v : S1x64x1.Idx → α) (h : S1x64x1.ShapeCasts S64x1) (r : Fin 64) :
    shapeCast S64x1 v h (ix2 r (0 : Fin 1)) = v (ix3 (0 : Fin 1) r (0 : Fin 1)) :=
  shapeCast_apply v h (ix2 r (0 : Fin 1)) (ix3 (0 : Fin 1) r (0 : Fin 1)) (by
    rw [Shape.rowMajor_val_three, Shape.rowMajor_val_two]
    show (0 * 64 + r.val) * 1 + 0 = r.val * 1 + 0
    omega)

/-- The scale column broadcast along the rows, read at an index. -/
theorem scale_bcast_apply {α : Type} (v8 : S64x1.Idx → α) (hb : S64x1.Broadcasts S64x64) (r d : Fin 64) :
    broadcastTo S64x64 v8 hb (ix2 r d) = v8 (ix2 r (0 : Fin 1)) :=
  broadcastTo_apply v8 hb (ix2 r d) (ix2 r (0 : Fin 1)) (fun a => match a with | ⟨0, _⟩ => rfl | ⟨1, _⟩ => rfl)

/-! ## The two matrix products -/

/-- A product contracting the left operand's columns with the right operand's rows, into a zero accumulator, read at an index. -/
theorem matmul_rows_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product contracting the rows of both operands, into a zero accumulator, read at an index. -/
theorem matmul_cols_apply {m k n : ℕ} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    matmul (⟨[0], [0], [1], [1], [], [], w⟩ : DotDims ⟨2, ![k, m]⟩ ⟨2, ![k, n]⟩ ⟨2, ![m, n]⟩) prec A B
        (constant (F := Ideal) ⟨2, ![m, n]⟩ .f32 0x00000000#32) (ix2 a b)
      = ∑ c : Fin k, A (ix2 c a) * B (ix2 c b) := by
  show FloatOps.matmul _ prec A B _ (ix2 a b) = _
  rw [Ideal.matmul_constant_zero_apply,
    ← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## One tile -/

/-- What one grid point adds at (n, d): the sum over the tile's 64 rows of the destination one-hot entry times the
    gathered, scaled table entry. -/
theorem contrib_apply (v3 v5 : IVec S1x64x1 32) (v7 : FVec Ideal S1x64x1 .f32) (v15 : FVec Ideal S42880x64 .bf16)
    (n : Fin 42880) (d : Fin 64) :
    Reg1.contrib (F := Ideal) v3 v5 v7 v15 (ix2 n d)
      = ∑ r : Fin 64, (if v5 (ix3 (0 : Fin 1) r (0 : Fin 1)) = BitVec.ofNat 32 n.val then (1 : EReal) else 0)
          * ((∑ s : Fin 42880, (if v3 (ix3 (0 : Fin 1) r (0 : Fin 1)) = BitVec.ofNat 32 s.val then (1 : EReal) else 0) * v15 (ix2 s d))
              * v7 (ix3 (0 : Fin 1) r (0 : Fin 1))) := by
  unfold Reg1.contrib
  dsimp only
  refine (matmul_cols_apply _ none _ _ n d).trans ?_
  refine Finset.sum_congr rfl fun r _ => ?_
  refine congrArg₂ (· * ·) ?_ ?_
  · refine (onehot_apply _ _ _ _ _ r n).trans ?_
    rw [blk_cast_apply]
  · refine (truncf_apply (φ := .f32) (ψ := .bf16) _ _ _).trans ?_
    refine (mulf_apply _ _ _).trans ?_
    refine congrArg₂ (· * ·) ?_ ?_
    · refine (matmul_rows_apply _ none _ _ r d).trans ?_
      refine Finset.sum_congr rfl fun s _ => ?_
      refine congrArg₂ (· * ·) ?_ ?_
      · refine (onehot_apply _ _ _ _ _ r s).trans ?_
        rw [blk_cast_apply]
      · rw [shapeCast_self]
    · refine (scale_bcast_apply _ _ r d).trans ?_
      exact blk_cast_apply _ _ r

/-! ## Words and ranges -/

/-- A 32-bit word is the word of a natural below 2^32 exactly when that natural is its value. -/
theorem word_eq_iff (x : BitVec 32) (n : ℕ) (hn : n < 4294967296) : x = BitVec.ofNat 32 n ↔ x.toNat = n := by
  constructor
  · intro h
    rw [h, BitVec.toNat_ofNat]
    omega
  · intro h
    apply BitVec.eq_of_toNat_eq
    rw [BitVec.toNat_ofNat, h]
    omega

/-- A word whose signed value lies in [0, 42852) has its unsigned value there. -/
theorem toNat_lt_of_toInt (w : BitVec 32) (h : 0 ≤ w.toInt ∧ w.toInt < 42852) : w.toNat < 42852 := by
  have hw := w.isLt
  rw [BitVec.toInt_eq_toNat_cond] at h
  split at h <;> omega

theorem natI_lt (x : IVec S1285560 32) (e : ℕ) (he : e < 1285560) : natI x e = x (ix1 ⟨e, he⟩) := dif_pos he
theorem natI_ge (x : IVec S1285560 32) (e : ℕ) (he : 1285560 ≤ e) : natI x e = 4294967295#32 := dif_neg (by omega)
theorem natF_lt (x : FVec Ideal S1285560 .f32) (e : ℕ) (he : e < 1285560) : natF x e = x (ix1 ⟨e, he⟩) := dif_pos he
theorem natI_fin (x : IVec S1285560 32) (e : Fin 1285560) : natI x e.val = x (ix1 e) := dif_pos e.isLt
theorem natF_fin (x : FVec Ideal S1285560 .f32) (e : Fin 1285560) : natF x e.val = x (ix1 e) := dif_pos e.isLt

/-! ## The edge at a natural position -/

/-- The destination one-hot entry of the edge at position e, at row n. -/
def ohd (dst : IVec S1285560 32) (n : ℕ) (e : ℕ) : EReal := if natI dst e = BitVec.ofNat 32 n then 1 else 0

/-- The gathered, scaled table entry of the edge at position e, at column d, as a tile computes it. -/
def gat (tbl : FVec Ideal S42852x64 .f32) (src : IVec S1285560 32) (sc : FVec Ideal S1285560 .f32) (d : Fin 64) (e : ℕ) : EReal :=
  (∑ s : Fin 42880, (if natI src e = BitVec.ofNat 32 s.val then (1 : EReal) else 0) * KHost1.v71 (F := Ideal) tbl (ix2 s d)) * natF sc e

/-- The message of the edge at position e, at column d: the table's row at the edge's source index, scaled. -/
def msg (tbl : FVec Ideal S42852x64 .f32) (src : IVec S1285560 32) (sc : FVec Ideal S1285560 .f32) (d : Fin 64) (e : ℕ) : EReal :=
  tbl (ix2 (⟨(natI src e).toNat % 42852, Nat.mod_lt _ (by decide)⟩ : Fin 42852) d) * natF sc e

/-- The block a grid point reads of a padded integer edge array, at a row. -/
theorem blkI_apply (A : IVec S2x642816x1 32) (h : Fin 2) (k : Fin 10044) (r : Fin 64) :
    Reg1.blkI (F := Ideal) A h k (ix3 (0 : Fin 1) r (0 : Fin 1))
      = A (ix3 h (⟨64 * k.val + r.val, by have := k.isLt; have := r.isLt; omega⟩ : Fin 642816) (0 : Fin 1)) := rfl

/-- The block a grid point reads of a padded float edge array, at a row. -/
theorem blkF_apply (A : FVec Ideal S2x642816x1 .f32) (h : Fin 2) (k : Fin 10044) (r : Fin 64) :
    Reg1.blkF (F := Ideal) A h k (ix3 (0 : Fin 1) r (0 : Fin 1))
      = A (ix3 h (⟨64 * k.val + r.val, by have := k.isLt; have := r.isLt; omega⟩ : Fin 642816) (0 : Fin 1)) := rfl

/-- One grid point's contribution over the padded edge arrays: the sum over the tile's rows of the edges' terms. -/
theorem tile_apply (tbl : FVec Ideal S42852x64 .f32) (src dst : IVec S1285560 32) (sc : FVec Ideal S1285560 .f32)
    (h : Fin 2) (k : Fin 10044) (n : Fin 42880) (d : Fin 64) :
    Reg1.contrib (F := Ideal) (Reg1.blkI (F := Ideal) (KHost1.v73 (F := Ideal) src) h k)
        (Reg1.blkI (F := Ideal) (KHost1.v75 (F := Ideal) dst) h k) (Reg1.blkF (F := Ideal) (KHost1.v77 (F := Ideal) sc) h k)
        (KHost1.v71 (F := Ideal) tbl) (ix2 n d)
      = ∑ r : Fin 64, ohd dst n.val (h.val * (64 * 10044) + 64 * k.val + r.val)
          * gat tbl src sc d (h.val * (64 * 10044) + 64 * k.val + r.val) := by
  refine (contrib_apply _ _ _ _ n d).trans ?_
  refine Finset.sum_congr rfl fun r _ => ?_
  have e0 : Reg1.blkI (F := Ideal) (KHost1.v73 (F := Ideal) src) h k (ix3 (0 : Fin 1) r (0 : Fin 1))
      = natI src (h.val * (64 * 10044) + 64 * k.val + r.val) :=
    (blkI_apply _ h k r).trans ((v73_apply src h _).trans (congrArg (natI src) (Nat.add_assoc _ _ _).symm))
  have e1 : Reg1.blkI (F := Ideal) (KHost1.v75 (F := Ideal) dst) h k (ix3 (0 : Fin 1) r (0 : Fin 1))
      = natI dst (h.val * (64 * 10044) + 64 * k.val + r.val) :=
    (blkI_apply _ h k r).trans ((v75_apply dst h _).trans (congrArg (natI dst) (Nat.add_assoc _ _ _).symm))
  have e2 : Reg1.blkF (F := Ideal) (KHost1.v77 (F := Ideal) sc) h k (ix3 (0 : Fin 1) r (0 : Fin 1))
      = natF sc (h.val * (64 * 10044) + 64 * k.val + r.val) :=
    (blkF_apply _ h k r).trans ((v77_apply sc h _).trans (congrArg (natF sc) (Nat.add_assoc _ _ _).symm))
  rw [e0, e1, e2]
  rfl

/-- The region's output array read at (half, n, d). -/
theorem out_def (A0 A1 : IVec S2x642816x1 32) (A2 : FVec Ideal S2x642816x1 .f32) (A3 : FVec Ideal S42880x64 .bf16)
    (h : Fin 2) (n : Fin 42880) (d : Fin 64) :
    Reg1.out A0 A1 A2 A3 (ix3 h n d)
      = ∑ k : Fin 10044, Reg1.contrib (F := Ideal) (Reg1.blkI (F := Ideal) A0 h k) (Reg1.blkI (F := Ideal) A1 h k)
          (Reg1.blkF (F := Ideal) A2 h k) A3 (ix2 n d) := rfl

/-- One half's output over the padded edge arrays at (n, d): the sum over its tiles and their rows of the edges' terms. -/
theorem out_apply (tbl : FVec Ideal S42852x64 .f32) (src dst : IVec S1285560 32) (sc : FVec Ideal S1285560 .f32)
    (c : ℕ) (hc : c < 2) (n : Fin 42880) (d : Fin 64) :
    Reg1.out (KHost1.v73 (F := Ideal) src) (KHost1.v75 (F := Ideal) dst) (KHost1.v77 (F := Ideal) sc) (KHost1.v71 (F := Ideal) tbl)
        (ix3 (⟨c, hc⟩ : Fin 2) n d)
      = ∑ k ∈ Finset.range 10044, ∑ r ∈ Finset.range 64,
          ohd dst n.val (c * (64 * 10044) + 64 * k + r) * gat tbl src sc d (c * (64 * 10044) + 64 * k + r) := by
  refine (out_def _ _ _ _ ⟨c, hc⟩ n d).trans ?_
  refine (Finset.sum_congr rfl fun k _ => tile_apply tbl src dst sc ⟨c, hc⟩ k n d).trans ?_
  refine (Finset.sum_congr rfl fun k _ => Cert.Spec.sum_fin_eq_range 64
    (fun r => ohd dst n.val (c * (64 * 10044) + 64 * k.val + r) * gat tbl src sc d (c * (64 * 10044) + 64 * k.val + r))).trans ?_
  exact Cert.Spec.sum_fin_eq_range 10044 (fun k => ∑ r ∈ Finset.range 64,
    ohd dst n.val (c * (64 * 10044) + 64 * k + r) * gat tbl src sc d (c * (64 * 10044) + 64 * k + r))

/-- The message at a position inside the edge array. -/
theorem msg_fin (tbl : FVec Ideal S42852x64 .f32) (src : IVec S1285560 32) (sc : FVec Ideal S1285560 .f32) (d : Fin 64) (e : Fin 1285560) :
    msg tbl src sc d e.val
      = tbl (ix2 (⟨(src (ix1 e)).toNat % 42852, Nat.mod_lt _ (by decide)⟩ : Fin 42852) d) * sc (ix1 e) := by
  unfold msg
  rw [natF_fin]
  refine congrArg (· * sc (ix1 e)) ?_
  exact congrArg (fun s : Fin 42852 => tbl (ix2 s d)) (Fin.ext (by
    show (natI src e.val).toNat % 42852 = (src (ix1 e)).toNat % 42852
    rw [natI_fin]))

/-- A sum over the two halves. -/
theorem sum_two (Y : ℕ → EReal) : ∑ c ∈ Finset.range 2, Y c = Y 0 + Y 1 := by
  rw [Finset.sum_range_succ, Finset.sum_range_one]

/-! ## The two halves together are the sum over the edges -/

/-- The sum of the two halves' outputs at (n, d) is the aggregation's sum over the edges: a padded edge adds nothing (its
    destination word is no row), a real edge's one-hot source row picks its table row, and the (half, tile, row) sums
    re-index to the edge number. -/
theorem halves_sum (tbl : FVec Ideal S42852x64 .f32) (src dst : IVec S1285560 32) (sc : FVec Ideal S1285560 .f32)
    (hsrc : ∀ i, 0 ≤ (src i).toInt ∧ (src i).toInt < 42852) (n : Fin 42852) (d : Fin 64) :
    Reg1.out (KHost1.v73 (F := Ideal) src) (KHost1.v75 (F := Ideal) dst) (KHost1.v77 (F := Ideal) sc) (KHost1.v71 (F := Ideal) tbl)
        (ix3 (⟨0, by decide⟩ : Fin 2) (⟨n.val, by omega⟩ : Fin 42880) d)
      + Reg1.out (KHost1.v73 (F := Ideal) src) (KHost1.v75 (F := Ideal) dst) (KHost1.v77 (F := Ideal) sc) (KHost1.v71 (F := Ideal) tbl)
        (ix3 (⟨1, by decide⟩ : Fin 2) (⟨n.val, by omega⟩ : Fin 42880) d)
      = Cert.AggSpec.aggSS tbl src dst sc (ix2 n d) := by
  have hn := n.isLt
  have h1 : ∀ e < 1285560, ohd dst n.val e = if (natI dst e).toNat = n.val then 1 else 0 := fun e _ =>
    if_congr (word_eq_iff _ _ (by omega)) rfl rfl
  have h0 : ∀ e, 1285560 ≤ e → ohd dst n.val e = 0 := fun e he => by
    unfold ohd
    rw [natI_ge _ _ he]
    refine if_neg fun h => ?_
    have h2 := (word_eq_iff _ _ (by omega)).mp h
    have h3 : (4294967295#32 : BitVec 32).toNat = 4294967295 := by decide
    omega
  have hg : ∀ e < 1285560, gat tbl src sc d e = msg tbl src sc d e := fun e he => by
    have hw : (natI src e).toNat < 42852 := toNat_lt_of_toInt _ (by rw [natI_lt _ _ he]; exact hsrc _)
    have hsel : ∀ s : Fin 42880, (natI src e = BitVec.ofNat 32 s.val) ↔ ((⟨(natI src e).toNat, by omega⟩ : Fin 42880) = s) := fun s =>
      (word_eq_iff _ _ (by have := s.isLt; omega)).trans ⟨fun h => Fin.ext h, fun h => congrArg Fin.val h⟩
    unfold gat msg
    refine congrArg (· * natF sc e) ?_
    refine (Finset.sum_congr rfl fun s _ => congrArg (· * KHost1.v71 (F := Ideal) tbl (ix2 s d)) (if_congr (hsel s) rfl rfl)).trans ?_
    refine (Cert.Spec.onehot_sum_fintype (⟨(natI src e).toNat, by omega⟩ : Fin 42880) (fun s => KHost1.v71 (F := Ideal) tbl (ix2 s d))).trans ?_
    refine (v71_apply tbl ⟨(natI src e).toNat, hw⟩ d).trans ?_
    exact congrArg (fun s : Fin 42852 => tbl (ix2 s d)) (Fin.ext (Nat.mod_eq_of_lt hw).symm)
  have hsum := Cert.Spec.agg_nat 1285560 10044 (by norm_num) (ohd dst n.val) (gat tbl src sc d) (msg tbl src sc d)
    (fun e => (natI dst e).toNat = n.val) h1 h0 hg
  refine (congrArg₂ (· + ·) (out_apply tbl src dst sc 0 (by decide) _ d) (out_apply tbl src dst sc 1 (by decide) _ d)).trans ?_
  refine Eq.trans (sum_two (fun c => ∑ k ∈ Finset.range 10044, ∑ r ∈ Finset.range 64,
    ohd dst n.val (c * (64 * 10044) + 64 * k + r) * gat tbl src sc d (c * (64 * 10044) + 64 * k + r))).symm (hsum.trans ?_)
  rw [Finset.sum_filter]
  refine (Cert.Spec.sum_fin_eq_range 1285560 (fun e => if (natI dst e).toNat = n.val then msg tbl src sc d e else 0)).symm.trans ?_
  refine Finset.sum_congr rfl fun e _ => ?_
  exact if_congr (by rw [natI_fin]) (msg_fin tbl src sc d e) rfl

/-! ## The host's tail: the two halves added, the padding rows dropped -/

/-- One half of the region's output array, sliced out and viewed without its unit axis, read at (n, d). -/
theorem half_apply {α : Type} (X : S2x42880x64.Idx → α) (c : ℕ) (hc : c < 2) (hs : S2x42880x64.Slices ![c, 0, 0] S1x42880x64)
    (hcast : S1x42880x64.ShapeCasts S42880x64) (n : Fin 42880) (d : Fin 64) :
    shapeCast S42880x64 (extractStridedSlice S1x42880x64 ![c, 0, 0] X hs) hcast (ix2 n d) = X (ix3 (⟨c, hc⟩ : Fin 2) n d) := by
  refine (shapeCast_apply _ hcast (ix2 n d) (ix3 (0 : Fin 1) n d) ?_).trans ?_
  · rw [Shape.rowMajor_val_three, Shape.rowMajor_val_two]
    show (0 * 42880 + n.val) * 64 + d.val = n.val * 64 + d.val
    omega
  · exact extractStridedSlice_apply _ X hs _ _ (fun a => by
      match a with
      | ⟨0, _⟩ => show c = c + 0; omega
      | ⟨1, _⟩ => show n.val = 0 + n.val; omega
      | ⟨2, _⟩ => show d.val = 0 + d.val; omega)

/-- The host's tail read at (n, d): the two halves of the region's output array at row n, added. -/
theorem v84_apply (X : FVec Ideal S2x42880x64 .f32) (n : Fin 42852) (d : Fin 64) :
    KHost2.v84 (F := Ideal) X (ix2 n d)
      = X (ix3 (⟨0, by decide⟩ : Fin 2) (⟨n.val, by omega⟩ : Fin 42880) d)
        + X (ix3 (⟨1, by decide⟩ : Fin 2) (⟨n.val, by omega⟩ : Fin 42880) d) := by
  unfold KHost2.v84
  dsimp only
  refine (extractStridedSlice_apply _ _ _ (ix2 n d) (ix2 (⟨n.val, by omega⟩ : Fin 42880) d) (fun a => by
    match a with
    | ⟨0, _⟩ => show n.val = 0 + n.val; omega
    | ⟨1, _⟩ => show d.val = 0 + d.val; omega)).trans ?_
  refine (addf_apply _ _ _).trans ?_
  exact congrArg₂ (· + ·) (half_apply X 0 (by decide) _ _ _ d) (half_apply X 1 (by decide) _ _ _ d)

/-- THE KERNEL SIDE OF THE AGGREGATION: what the idealized kernel program computes, read index by index at the extended
    reals, is the plain sum over the edges. -/
theorem aggK1 (tbl : FVec Ideal S42852x64 .f32) (src dst : IVec S1285560 32) (sc : FVec Ideal S1285560 .f32)
    (hsrc : ∀ i, 0 ≤ (src i).toInt ∧ (src i).toInt < 42852) (hdst : ∀ i, 0 ≤ (dst i).toInt ∧ (dst i).toInt < 42852) :
    KHost2.v84 (F := Ideal) (Reg1.out (KHost1.v73 (F := Ideal) src) (KHost1.v75 (F := Ideal) dst) (KHost1.v77 (F := Ideal) sc) (KHost1.v71 (F := Ideal) tbl))
      = Cert.AggSpec.aggSS tbl src dst sc := by
  funext i
  obtain ⟨n, d, rfl⟩ : ∃ (n : Fin 42852) (d : Fin 64), i = ix2 n d := ⟨i 0, i 1, eq_ix2 i⟩
  exact (v84_apply _ n d).trans (halves_sum tbl src dst sc hsrc n d)

end Cert.AggK1

end
-- ==== Proof.AggK2.lean ====
/-
  The kernel side of the aggregation from the spot table onto the user rows over the bipartite edges.

  The idealized kernel program pads the edge arrays and the table, runs one region over two halves of the padded edge
  list, tile by tile (64 edges a tile), and adds the two halves. Read index by index at the extended reals this is the
  plain sum over the edges: in a tile the one-hot matrix of the source indices times the table gathers one table row per
  edge (a one-hot row picks exactly one entry of a column; the table's zero padding rows lie beyond every true index),
  the rows are scaled, and the one-hot matrix of the destination indices, contracted over the tile, adds each scaled row
  to its destination row. Re-indexing (half, tile, row) to the edge number turns the tiled sum into the sum over the
  edges whose destination is the row read.
-/
import proofs.«400075_j26585847562450_2_alg».proof.Proof.KHost2
import proofs.«400075_j26585847562450_2_alg».proof.Proof.KHost3
import proofs.«400075_j26585847562450_2_alg».proof.Proof.RegDefs
import proofs.«400075_j26585847562450_2_alg».proof.Proof.Spec
import proofs.«400075_j26585847562450_2_alg».proof.Proof.AggSpec
import Idealize.ShloMosaic.Lib.Pipeline.Value
import Idealize.ShloMosaic.Lib.KernelVsHost
import Idealize.ShloMosaic.Lib.StableHlo.Predicate
import Idealize.ShloMosaic.PureOps.Ideal.Laws
import Idealize.ShloMosaic.Lib.ValueIdx
import Idealize.ShloMosaic.Lib.ValueIdxRank1

noncomputable section

namespace Cert.AggK2

open Cert.KernelIdeal Cert.KernelIdeal.Gen Idealize.ShloMosaic Idealize.ShloMosaic.ValueIdx Idealize.ShloMosaic.StableHlo

/-! ## One tile: the two one-hot products at an entry -/

/-- A compared pair of words, widened and converted, is 1 where the words agree and 0 elsewhere. -/
theorem onehot_word (a b : BitVec 32) :
    (((((IntOp.cmpi .eq a b).setWidth 32).toInt : ℝ) : EReal)) = if a = b then (1 : EReal) else 0 := by
  by_cases h : a = b
  · rw [if_pos h, Predicate.cmpi_eq_iff.mpr h]
    show ((((1 : ℤ) : ℝ) : EReal)) = 1
    simp
  · have h0 : IntOp.cmpi .eq a b = 0#1 := by
      rcases (show ∀ x : BitVec 1, x = 1#1 ∨ x = 0#1 from by decide) (IntOp.cmpi .eq a b) with h1 | h1
      · exact absurd (Predicate.cmpi_eq_iff.mp h1) h
      · exact h1
    rw [if_neg h, h0]
    show ((((0 : ℤ) : ℝ) : EReal)) = 0
    simp

/-- A tile's column block viewed as a 64 × 1 column, at a row. -/
theorem col_apply {α : Type} (v : S1x64x1.Idx → α) (r : Fin 64) :
    shapeCast S64x1 v shapeCasts_S1x64x1_S64x1 (ix2 r (0 : Fin 1)) = v (ix3 (0 : Fin 1) r (0 : Fin 1)) := by
  refine shapeCast_apply _ _ (ix2 r (0 : Fin 1)) (ix3 (0 : Fin 1) r (0 : Fin 1)) ?_
  rw [Shape.rowMajor_val_three, Shape.rowMajor_val_two]
  show (0 * 64 + r.val) * 1 + 0 = r.val * 1 + 0
  omega

/-- The one-hot matrix of a tile's indices against the 42880 row numbers, at an entry. -/
theorem onehot42880_apply (v3 : IVec S1x64x1 32) (r : Fin 64) (s : Fin 42880) :
    (truncf .bf16 (sitofp (F := Ideal) .f32 (extui 32 (cmpi .eq (broadcastTo S64x42880 (shapeCast S64x1 v3 shapeCasts_S1x64x1_S64x1) broadcasts_S64x1_S64x42880)
      (iota .tc S64x42880 32 [1] iota_S64x42880_d1_w32)) natLt_1_32)) bitsLt_bf16_f32 : FVec Ideal S64x42880 .bf16) (ix2 r s)
      = if v3 (ix3 (0 : Fin 1) r (0 : Fin 1)) = BitVec.ofNat 32 s.val then (1 : EReal) else 0 := by
  have hb : broadcastTo S64x42880 (shapeCast S64x1 v3 shapeCasts_S1x64x1_S64x1) broadcasts_S64x1_S64x42880 (ix2 r s)
      = v3 (ix3 (0 : Fin 1) r (0 : Fin 1)) :=
    (broadcastTo_apply _ _ (ix2 r s) (ix2 r (0 : Fin 1)) (fun a => match a with | ⟨0, _⟩ => rfl | ⟨1, _⟩ => rfl)).trans (col_apply v3 r)
  have hi : iota .tc S64x42880 32 [1] iota_S64x42880_d1_w32 (ix2 r s) = BitVec.ofNat 32 s.val :=
    iota_single_apply .tc S64x42880 32 1 iota_S64x42880_d1_w32 (ix2 r s)
  show (((((IntOp.cmpi .eq (broadcastTo S64x42880 (shapeCast S64x1 v3 shapeCasts_S1x64x1_S64x1) broadcasts_S64x1_S64x42880 (ix2 r s))
      (iota .tc S64x42880 32 [1] iota_S64x42880_d1_w32 (ix2 r s))).setWidth 32).toInt : ℝ) : EReal)) = _
  rw [hb, hi]
  exact onehot_word _ _

/-- The scales of a tile broadcast along the 64 columns, at an entry. -/
theorem scale_apply (v7 : FVec Ideal S1x64x1 .f32) (r q : Fin 64) :
    broadcastTo S64x64 (shapeCast S64x1 v7 shapeCasts_S1x64x1_S64x1) broadcasts_S64x1_S64x64 (ix2 r q) = v7 (ix3 (0 : Fin 1) r (0 : Fin 1)) :=
  (broadcastTo_apply _ _ (ix2 r q) (ix2 r (0 : Fin 1)) (fun a => match a with | ⟨0, _⟩ => rfl | ⟨1, _⟩ => rfl)).trans (col_apply v7 r)

/-! The operand indices of the first product (64 × 42880 by 42880 × 64), coordinate by coordinate. -/
theorem lhsG_0 (j : S64x64.Idx) (k : dot_S64x42880_S42880x64_S64x64_1_0_0_1_n_n.contr.Idx) :
    (dot_S64x42880_S42880x64_S64x64_1_0_0_1_n_n.lhsIdx j k 0 : ℕ) = j 0 := by
  simp [DotDims.lhsIdx, dot_S64x42880_S42880x64_S64x64_1_0_0_1_n_n]; rfl
theorem lhsG_1 (j : S64x64.Idx) (k : dot_S64x42880_S42880x64_S64x64_1_0_0_1_n_n.contr.Idx) :
    (dot_S64x42880_S42880x64_S64x64_1_0_0_1_n_n.lhsIdx j k 1 : ℕ) = k ⟨0, by decide⟩ := by
  simp [DotDims.lhsIdx, dot_S64x42880_S42880x64_S64x64_1_0_0_1_n_n]; rfl
theorem rhsG_0 (j : S64x64.Idx) (k : dot_S64x42880_S42880x64_S64x64_1_0_0_1_n_n.contr.Idx) :
    (dot_S64x42880_S42880x64_S64x64_1_0_0_1_n_n.rhsIdx j k 0 : ℕ) = k ⟨0, by decide⟩ := by
  simp [DotDims.rhsIdx, dot_S64x42880_S42880x64_S64x64_1_0_0_1_n_n]; rfl
theorem rhsG_1 (j : S64x64.Idx) (k : dot_S64x42880_S42880x64_S64x64_1_0_0_1_n_n.contr.Idx) :
    (dot_S64x42880_S42880x64_S64x64_1_0_0_1_n_n.rhsIdx j k 1 : ℕ) = j 1 := by
  simp [DotDims.rhsIdx, dot_S64x42880_S42880x64_S64x64_1_0_0_1_n_n]; rfl

/-- The first product, into the zero accumulator, at an entry: the plain sum over the contracted coordinate. -/
theorem gatherProd_apply (A : FVec Ideal S64x42880 .bf16) (B : FVec Ideal S42880x64 .bf16) (r q : Fin 64) :
    matmul dot_S64x42880_S42880x64_S64x64_1_0_0_1_n_n none A B (constant (F := Ideal) S64x64 .f32 0x00000000#32) (ix2 r q)
      = ∑ s : Fin 42880, A (ix2 r s) * B (ix2 s q) := by
  show FloatOps.matmul dot_S64x42880_S42880x64_S64x64_1_0_0_1_n_n none A B (constant (F := Ideal) S64x64 .f32 0x00000000#32) (ix2 r q) = _
  rw [Ideal.matmul_constant_zero_apply,
    ← Equiv.sum_comp (contrEquiv1 dot_S64x42880_S42880x64_S64x64_1_0_0_1_n_n 42880 rfl rfl).symm]
  refine Finset.sum_congr rfl fun c _ => ?_
  have hc := contrEquiv1_symm_val dot_S64x42880_S42880x64_S64x64_1_0_0_1_n_n 42880 rfl rfl c
  have hl : dot_S64x42880_S42880x64_S64x64_1_0_0_1_n_n.lhsIdx (ix2 r q)
      ((contrEquiv1 dot_S64x42880_S42880x64_S64x64_1_0_0_1_n_n 42880 rfl rfl).symm c) = ix2 r c := by
    funext ax; apply Fin.ext
    match ax with
    | ⟨0, _⟩ => exact lhsG_0 _ _
    | ⟨1, _⟩ => exact (lhsG_1 _ _).trans hc
  have hr : dot_S64x42880_S42880x64_S64x64_1_0_0_1_n_n.rhsIdx (ix2 r q)
      ((contrEquiv1 dot_S64x42880_S42880x64_S64x64_1_0_0_1_n_n 42880 rfl rfl).symm c) = ix2 c q := by
    funext ax; apply Fin.ext
    match ax with
    | ⟨0, _⟩ => exact (rhsG_0 _ _).trans hc
    | ⟨1, _⟩ => exact rhsG_1 _ _
  rw [hl, hr]

/-- The one-hot matrix of a tile's indices against the 27136 row numbers, at an entry. -/
theorem onehot27136_apply (v5 : IVec S1x64x1 32) (r : Fin 64) (p : Fin 27136) :
    (truncf .bf16 (sitofp (F := Ideal) .f32 (extui 32 (cmpi .eq (broadcastTo S64x27136 (shapeCast S64x1 v5 shapeCasts_S1x64x1_S64x1) broadcasts_S64x1_S64x27136)
      (iota .tc S64x27136 32 [1] iota_S64x27136_d1_w32)) natLt_1_32)) bitsLt_bf16_f32 : FVec Ideal S64x27136 .bf16) (ix2 r p)
      = if v5 (ix3 (0 : Fin 1) r (0 : Fin 1)) = BitVec.ofNat 32 p.val then (1 : EReal) else 0 := by
  have hb : broadcastTo S64x27136 (shapeCast S64x1 v5 shapeCasts_S1x64x1_S64x1) broadcasts_S64x1_S64x27136 (ix2 r p)
      = v5 (ix3 (0 : Fin 1) r (0 : Fin 1)) :=
    (broadcastTo_apply _ _ (ix2 r p) (ix2 r (0 : Fin 1)) (fun a => match a with | ⟨0, _⟩ => rfl | ⟨1, _⟩ => rfl)).trans (col_apply v5 r)
  have hi : iota .tc S64x27136 32 [1] iota_S64x27136_d1_w32 (ix2 r p) = BitVec.ofNat 32 p.val :=
    iota_single_apply .tc S64x27136 32 1 iota_S64x27136_d1_w32 (ix2 r p)
  show (((((IntOp.cmpi .eq (broadcastTo S64x27136 (shapeCast S64x1 v5 shapeCasts_S1x64x1_S64x1) broadcasts_S64x1_S64x27136 (ix2 r p))
      (iota .tc S64x27136 32 [1] iota_S64x27136_d1_w32 (ix2 r p))).setWidth 32).toInt : ℝ) : EReal)) = _
  rw [hb, hi]
  exact onehot_word _ _

/-! The operand indices of the second product (64 × 27136 and 64 × 64, both contracted on their first axis),
    coordinate by coordinate. -/
theorem lhsS_0 (j : S27136x64.Idx) (k : dot_S64x27136_S64x64_S27136x64_0_0_1_1_n_n.contr.Idx) :
    (dot_S64x27136_S64x64_S27136x64_0_0_1_1_n_n.lhsIdx j k 0 : ℕ) = k ⟨0, by decide⟩ := by
  simp [DotDims.lhsIdx, dot_S64x27136_S64x64_S27136x64_0_0_1_1_n_n]; rfl
theorem lhsS_1 (j : S27136x64.Idx) (k : dot_S64x27136_S64x64_S27136x64_0_0_1_1_n_n.contr.Idx) :
    (dot_S64x27136_S64x64_S27136x64_0_0_1_1_n_n.lhsIdx j k 1 : ℕ) = j 0 := by
  simp [DotDims.lhsIdx, dot_S64x27136_S64x64_S27136x64_0_0_1_1_n_n]; rfl
theorem rhsS_0 (j : S27136x64.Idx) (k : dot_S64x27136_S64x64_S27136x64_0_0_1_1_n_n.contr.Idx) :
    (dot_S64x27136_S64x64_S27136x64_0_0_1_1_n_n.rhsIdx j k 0 : ℕ) = k ⟨0, by decide⟩ := by
  simp [DotDims.rhsIdx, dot_S64x27136_S64x64_S27136x64_0_0_1_1_n_n]; rfl
theorem rhsS_1 (j : S27136x64.Idx) (k : dot_S64x27136_S64x64_S27136x64_0_0_1_1_n_n.contr.Idx) :
    (dot_S64x27136_S64x64_S27136x64_0_0_1_1_n_n.rhsIdx j k 1 : ℕ) = j 1 := by
  simp [DotDims.rhsIdx, dot_S64x27136_S64x64_S27136x64_0_0_1_1_n_n]; rfl

/-- The second product, into the zero accumulator, at an entry: the plain sum over the tile's 64 rows. -/
theorem scatterProd_apply (A : FVec Ideal S64x27136 .bf16) (B : FVec Ideal S64x64 .bf16) (p : Fin 27136) (q : Fin 64) :
    matmul dot_S64x27136_S64x64_S27136x64_0_0_1_1_n_n none A B (constant (F := Ideal) S27136x64 .f32 0x00000000#32) (ix2 p q)
      = ∑ r : Fin 64, A (ix2 r p) * B (ix2 r q) := by
  show FloatOps.matmul dot_S64x27136_S64x64_S27136x64_0_0_1_1_n_n none A B (constant (F := Ideal) S27136x64 .f32 0x00000000#32) (ix2 p q) = _
  rw [Ideal.matmul_constant_zero_apply,
    ← Equiv.sum_comp (contrEquiv1 dot_S64x27136_S64x64_S27136x64_0_0_1_1_n_n 64 rfl rfl).symm]
  refine Finset.sum_congr rfl fun c _ => ?_
  have hc := contrEquiv1_symm_val dot_S64x27136_S64x64_S27136x64_0_0_1_1_n_n 64 rfl rfl c
  have hl : dot_S64x27136_S64x64_S27136x64_0_0_1_1_n_n.lhsIdx (ix2 p q)
      ((contrEquiv1 dot_S64x27136_S64x64_S27136x64_0_0_1_1_n_n 64 rfl rfl).symm c) = ix2 c p := by
    funext ax; apply Fin.ext
    match ax with
    | ⟨0, _⟩ => exact (lhsS_0 _ _).trans hc
    | ⟨1, _⟩ => exact lhsS_1 _ _
  have hr : dot_S64x27136_S64x64_S27136x64_0_0_1_1_n_n.rhsIdx (ix2 p q)
      ((contrEquiv1 dot_S64x27136_S64x64_S27136x64_0_0_1_1_n_n 64 rfl rfl).symm c) = ix2 c q := by
    funext ax; apply Fin.ext
    match ax with
    | ⟨0, _⟩ => exact (rhsS_0 _ _).trans hc
    | ⟨1, _⟩ => exact rhsS_1 _ _
  rw [hl, hr]

/-- What one grid point adds at an entry: over the tile's 64 edges, the one-hot weight of the edge's destination at
    the entry's row times the gathered table entry (itself the one-hot row of the edge's source against the table's
    column) times the edge's scale. -/
theorem contrib_apply (v3 v5 : IVec S1x64x1 32) (v7 : FVec Ideal S1x64x1 .f32) (v15 : FVec Ideal S42880x64 .bf16)
    (p : Fin 27136) (q : Fin 64) :
    Reg2.contrib (F := Ideal) v3 v5 v7 v15 (ix2 p q)
      = ∑ r : Fin 64, (if v5 (ix3 (0 : Fin 1) r (0 : Fin 1)) = BitVec.ofNat 32 p.val then (1 : EReal) else 0)
          * ((∑ s : Fin 42880, (if v3 (ix3 (0 : Fin 1) r (0 : Fin 1)) = BitVec.ofNat 32 s.val then (1 : EReal) else 0) * v15 (ix2 s q))
              * v7 (ix3 (0 : Fin 1) r (0 : Fin 1))) := by
  unfold Reg2.contrib
  refine (scatterProd_apply _ _ p q).trans (Finset.sum_congr rfl fun r _ => ?_)
  refine congrArg₂ (· * ·) (onehot27136_apply v5 r p) ?_
  refine (truncf_apply (φ := .f32) (ψ := .bf16) _ bitsLt_bf16_f32 (ix2 r q)).trans ?_
  refine (mulf_apply (φ := .f32) _ _ (ix2 r q)).trans ?_
  refine congrArg₂ (· * ·) ?_ (scale_apply v7 r q)
  refine (gatherProd_apply _ _ r q).trans (Finset.sum_congr rfl fun s _ => ?_)
  refine congrArg₂ (· * ·) (onehot42880_apply v3 r s) ?_
  exact congrFun (shapeCast_self v15 shapeCasts_S42880x64_S42880x64) (ix2 s q)

/-! ## The padded arrays read at an index -/

/-- An edge array read at an edge number, with a fixed value beyond the last edge. -/
def rd {α : Type} (z : α) (x : S2000000.Idx → α) (e : ℕ) : α := if h : e < 2000000 then x (ix1 ⟨e, h⟩) else z

theorem rd_fin {α : Type} (z : α) (x : S2000000.Idx → α) (i : Fin 2000000) : rd z x i.val = x (ix1 i) := dif_pos i.isLt

theorem rd_of_le {α : Type} (z : α) (x : S2000000.Idx → α) (e : ℕ) (h : 2000000 ≤ e) : rd z x e = z := dif_neg (by omega)

/-- The padded edge array, split in two halves, at row 64 k + r of half h: edge number h · (64 · 15625) + 64 k + r. -/
theorem halves_read {α : Type} (z : α) (x : S2000000.Idx → α) (v : S_.Idx → α) (h : Fin 2) (k : Fin 15625) (r : Fin 64)
    (hm : 64 * k.val + r.val < 1000000) :
    shapeCast S2x1000000x1 (pad S2000000 ![0] ![0] ![0] x v pads_S2000000_S2000000_000 h_S_) shapeCasts_S2000000_S2x1000000x1
        (ix3 h (⟨64 * k.val + r.val, hm⟩ : Fin 1000000) (0 : Fin 1))
      = rd z x (h.val * (64 * 15625) + 64 * k.val + r.val) := by
  have he : h.val * (64 * 15625) + 64 * k.val + r.val < 2000000 := by have := h.isLt; omega
  refine (shapeCast_apply _ _ (ix3 h (⟨64 * k.val + r.val, hm⟩ : Fin 1000000) (0 : Fin 1))
    (ix1 (⟨h.val * (64 * 15625) + 64 * k.val + r.val, he⟩ : Fin 2000000)) ?_).trans ?_
  · rw [Shape.rowMajor_val_one, Shape.rowMajor_val_three]
    show h.val * (64 * 15625) + 64 * k.val + r.val = (h.val * 1000000 + (64 * k.val + r.val)) * 1 + 0
    omega
  · refine (pad_apply_of_inside _ _ _ x v pads_S2000000_S2000000_000 h_S_
      (ix1 (⟨h.val * (64 * 15625) + 64 * k.val + r.val, he⟩ : Fin 2000000))
      (ix1 (⟨h.val * (64 * 15625) + 64 * k.val + r.val, he⟩ : Fin 2000000)) (fun a => match a with
        | ⟨0, _⟩ => by
          show h.val * (64 * 15625) + 64 * k.val + r.val = 0 + (h.val * (64 * 15625) + 64 * k.val + r.val) * (0 + 1)
          omega)).trans ?_
    exact (rd_fin z x (⟨h.val * (64 * 15625) + 64 * k.val + r.val, he⟩ : Fin 2000000)).symm

/-- The table padded with zero rows, at a row below the true row count: the table's own entry. -/
theorem table_read (tbl : FVec Ideal S42852x64 .f32) (v : FVec Ideal S_ .f32) (s : Fin 42880) (hs : s.val < 42852) (q : Fin 64) :
    (truncf .bf16 (pad S42880x64 ![0, 0] ![28, 0] ![0, 0] tbl v pads_S42852x64_S42880x64_0280_000 h_S_) bitsLt_bf16_f32
        : FVec Ideal S42880x64 .bf16) (ix2 s q) = tbl (ix2 (⟨s.val, hs⟩ : Fin 42852) q) := by
  refine (truncf_apply (φ := .f32) (ψ := .bf16) _ bitsLt_bf16_f32 (ix2 s q)).trans ?_
  exact pad_apply_of_inside _ _ _ tbl v pads_S42852x64_S42880x64_0280_000 h_S_ (ix2 s q) (ix2 (⟨s.val, hs⟩ : Fin 42852) q)
    (fun a => match a with
      | ⟨0, _⟩ => by show s.val = 0 + s.val * (0 + 1); omega
      | ⟨1, _⟩ => by show q.val = 0 + q.val * (0 + 1); omega)

/-- The two halves of the result added and cut to the true row count, at an entry. -/
theorem halves_add_read (X : FVec Ideal S2x27136x64 .f32) (n : Fin 27094) (d : Fin 64) (hn : n.val < 27136) :
    extractStridedSlice S27094x64 ![0, 0]
        (addf (shapeCast S27136x64 (extractStridedSlice S1x27136x64 ![0, 0, 0] X slices_S2x27136x64_S1x27136x64_0_0_0) shapeCasts_S1x27136x64_S27136x64)
          (shapeCast S27136x64 (extractStridedSlice S1x27136x64 ![1, 0, 0] X slices_S2x27136x64_S1x27136x64_1_0_0) shapeCasts_S1x27136x64_S27136x64))
        slices_S27136x64_S27094x64_0_0 (ix2 n d)
      = X (ix3 (0 : Fin 2) (⟨n.val, hn⟩ : Fin 27136) d) + X (ix3 (1 : Fin 2) (⟨n.val, hn⟩ : Fin 27136) d) := by
  refine (extractStridedSlice_apply _ _ slices_S27136x64_S27094x64_0_0 (ix2 n d) (ix2 (⟨n.val, hn⟩ : Fin 27136) d)
    (fun a => match a with
      | ⟨0, _⟩ => by show n.val = 0 + n.val; omega
      | ⟨1, _⟩ => by show d.val = 0 + d.val; omega)).trans ?_
  refine (addf_apply (φ := .f32) _ _ (ix2 (⟨n.val, hn⟩ : Fin 27136) d)).trans ?_
  refine congrArg₂ (· + ·) ?_ ?_
  · refine (shapeCast_apply _ _ (ix2 (⟨n.val, hn⟩ : Fin 27136) d) (ix3 (0 : Fin 1) (⟨n.val, hn⟩ : Fin 27136) d) ?_).trans ?_
    · rw [Shape.rowMajor_val_three, Shape.rowMajor_val_two]
      show (0 * 27136 + n.val) * 64 + d.val = n.val * 64 + d.val
      omega
    · exact extractStridedSlice_apply _ X slices_S2x27136x64_S1x27136x64_0_0_0 (ix3 (0 : Fin 1) (⟨n.val, hn⟩ : Fin 27136) d)
        (ix3 (0 : Fin 2) (⟨n.val, hn⟩ : Fin 27136) d) (fun a => match a with
          | ⟨0, _⟩ => by show 0 = 0 + 0; omega
          | ⟨1, _⟩ => by show n.val = 0 + n.val; omega
          | ⟨2, _⟩ => by show d.val = 0 + d.val; omega)
  · refine (shapeCast_apply _ _ (ix2 (⟨n.val, hn⟩ : Fin 27136) d) (ix3 (0 : Fin 1) (⟨n.val, hn⟩ : Fin 27136) d) ?_).trans ?_
    · rw [Shape.rowMajor_val_three, Shape.rowMajor_val_two]
      show (0 * 27136 + n.val) * 64 + d.val = n.val * 64 + d.val
      omega
    · exact extractStridedSlice_apply _ X slices_S2x27136x64_S1x27136x64_1_0_0 (ix3 (0 : Fin 1) (⟨n.val, hn⟩ : Fin 27136) d)
        (ix3 (1 : Fin 2) (⟨n.val, hn⟩ : Fin 27136) d) (fun a => match a with
          | ⟨0, _⟩ => by show 1 = 1 + 0; omega
          | ⟨1, _⟩ => by show n.val = 0 + n.val; omega
          | ⟨2, _⟩ => by show d.val = 0 + d.val; omega)

/-! ## Words and numbers -/

/-- A 32-bit word equals the word of a small number exactly when its value is that number. -/
theorem word_eq_iff (w : BitVec 32) (n : ℕ) (hn : n < 4294967296) : w = BitVec.ofNat 32 n ↔ w.toNat = n := by
  constructor
  · intro h
    rw [h, BitVec.toNat_ofNat]
    exact Nat.mod_eq_of_lt (by omega)
  · intro h
    apply BitVec.eq_of_toNat_eq
    rw [BitVec.toNat_ofNat, Nat.mod_eq_of_lt (by omega), h]

/-- A word whose signed value lies in [0, N) has its unsigned value below N. -/
theorem toNat_lt_of_toInt (w : BitVec 32) (N : ℕ) (h0 : 0 ≤ w.toInt) (h1 : w.toInt < (N : ℤ)) : w.toNat < N := by
  have hw := w.isLt
  rw [BitVec.toInt_eq_toNat_cond] at h0 h1
  split_ifs at h0 h1 <;> omega

/-- A one-hot row against the row numbers of the padded table picks the row of the word's value. -/
theorem gather_row (T : FVec Ideal S42880x64 .bf16) (w : BitVec 32) (hw : w.toNat < 42880) (q : Fin 64) :
    ∑ s : Fin 42880, (if w = BitVec.ofNat 32 s.val then (1 : EReal) else 0) * T (ix2 s q)
      = T (ix2 (⟨w.toNat, hw⟩ : Fin 42880) q) := by
  refine Eq.trans (Finset.sum_congr rfl fun s _ => ?_)
    (Cert.Spec.onehot_sum_fintype (⟨w.toNat, hw⟩ : Fin 42880) (fun s => T (ix2 s q)))
  refine congrArg (· * T (ix2 s q)) ?_
  refine if_congr ?_ rfl rfl
  rw [word_eq_iff w s.val (by have := s.isLt; omega)]
  exact ⟨fun h => Fin.ext h, fun h => congrArg Fin.val h⟩

/-! ## One edge's term -/

/-- The one-hot weight of edge e's destination at row p; beyond the last edge the index is the all-ones word, which
    is no row number. -/
def ohd (dst : IVec S2000000 32) (p : ℕ) (e : ℕ) : EReal :=
  if rd 4294967295#32 dst e = BitVec.ofNat 32 p then 1 else 0

/-- The row the one-hot product gathers for edge e from the padded table, at column q, times the edge's scale. -/
def gat (T : FVec Ideal S42880x64 .bf16) (src : IVec S2000000 32) (sc : FVec Ideal S2000000 .f32) (q : Fin 64) (e : ℕ) : EReal :=
  (∑ s : Fin 42880, (if rd 4294967295#32 src e = BitVec.ofNat 32 s.val then (1 : EReal) else 0) * T (ix2 s q))
    * rd (α := EReal) 0 sc e

/-- The specification's term of edge e at column q. -/
def spf (tbl : FVec Ideal S42852x64 .f32) (src : IVec S2000000 32) (sc : FVec Ideal S2000000 .f32) (q : Fin 64) (e : ℕ) : EReal :=
  tbl (ix2 (⟨(rd 4294967295#32 src e).toNat % 42852, Nat.mod_lt _ (by omega)⟩ : Fin 42852) q) * rd (α := EReal) 0 sc e

/-- Edge e's destination is row n. -/
def hits (dst : IVec S2000000 32) (n : ℕ) (e : ℕ) : Prop := (rd 4294967295#32 dst e).toNat = n

instance (dst : IVec S2000000 32) (n : ℕ) : DecidablePred (hits dst n) := fun e => inferInstanceAs (Decidable (_ = _))

theorem ohd_of_lt (dst : IVec S2000000 32) (n : ℕ) (hn : n < 4294967295) (e : ℕ) :
    ohd dst n e = if hits dst n e then 1 else 0 :=
  if_congr (word_eq_iff _ n (by omega)) rfl rfl

theorem ohd_of_le (dst : IVec S2000000 32) (n : ℕ) (hn : n < 4294967295) (e : ℕ) (he : 2000000 ≤ e) : ohd dst n e = 0 := by
  unfold ohd
  rw [rd_of_le _ _ _ he]
  refine if_neg fun h => ?_
  have h1 := (word_eq_iff _ n (by omega)).mp h
  have h2 : (4294967295#32 : BitVec 32).toNat = 4294967295 := rfl
  omega

theorem gat_eq_spf (tbl : FVec Ideal S42852x64 .f32) (v : FVec Ideal S_ .f32) (src : IVec S2000000 32) (sc : FVec Ideal S2000000 .f32)
    (hsrc : ∀ i, 0 ≤ (src i).toInt ∧ (src i).toInt < 42852) (q : Fin 64) (e : ℕ) (he : e < 2000000) :
    gat (truncf .bf16 (pad S42880x64 ![0, 0] ![28, 0] ![0, 0] tbl v pads_S42852x64_S42880x64_0280_000 h_S_) bitsLt_bf16_f32) src sc q e
      = spf tbl src sc q e := by
  unfold gat spf
  have hw : rd 4294967295#32 src e = src (ix1 (⟨e, he⟩ : Fin 2000000)) := rd_fin _ src (⟨e, he⟩ : Fin 2000000)
  obtain ⟨h0, h1⟩ := hsrc (ix1 (⟨e, he⟩ : Fin 2000000))
  rw [← hw] at h0 h1
  have hlt : (rd 4294967295#32 src e).toNat < 42852 := toNat_lt_of_toInt _ 42852 h0 h1
  refine congrArg (· * rd (α := EReal) 0 sc e) ?_
  refine (gather_row _ _ (by omega) q).trans ?_
  refine (table_read tbl v _ hlt q).trans ?_
  exact congrArg (fun a => tbl (ix2 a q)) (Fin.ext (Nat.mod_eq_of_lt hlt).symm)

/-! ## The region's output and the whole aggregation -/

theorem out_apply (A0 A1 : IVec S2x1000000x1 32) (A2 : FVec Ideal S2x1000000x1 .f32) (A3 : FVec Ideal S42880x64 .bf16)
    (h : Fin 2) (p : Fin 27136) (q : Fin 64) :
    Reg2.out A0 A1 A2 A3 (ix3 h p q)
      = ∑ k : Fin 15625, Reg2.contrib (F := Ideal) (Reg2.blkI (F := Ideal) A0 h k) (Reg2.blkI (F := Ideal) A1 h k) (Reg2.blkF A2 h k) A3 (ix2 p q) := rfl

theorem blkI_read (z : BitVec 32) (x : IVec S2000000 32) (v : IVec S_ 32) (h : Fin 2) (k : Fin 15625) (r : Fin 64) :
    Reg2.blkI (F := Ideal) (shapeCast S2x1000000x1 (pad S2000000 ![0] ![0] ![0] x v pads_S2000000_S2000000_000 h_S_) shapeCasts_S2000000_S2x1000000x1)
        h k (ix3 (0 : Fin 1) r (0 : Fin 1))
      = rd z x (h.val * (64 * 15625) + 64 * k.val + r.val) :=
  halves_read z x v h k r (by have := k.isLt; have := r.isLt; omega)

theorem blkF_read (z : EReal) (x : FVec Ideal S2000000 .f32) (v : FVec Ideal S_ .f32) (h : Fin 2) (k : Fin 15625) (r : Fin 64) :
    Reg2.blkF (F := Ideal) (shapeCast S2x1000000x1 (pad S2000000 ![0] ![0] ![0] x v pads_S2000000_S2000000_000 h_S_) shapeCasts_S2000000_S2x1000000x1)
        h k (ix3 (0 : Fin 1) r (0 : Fin 1))
      = rd (α := EReal) z x (h.val * (64 * 15625) + 64 * k.val + r.val) :=
  halves_read (α := EReal) z x v h k r (by have := k.isLt; have := r.isLt; omega)

/-- One half of the region's output at an entry: the tiled sum of the edges' terms. -/
theorem half_apply (T : FVec Ideal S42880x64 .bf16) (src dst : IVec S2000000 32) (sc : FVec Ideal S2000000 .f32)
    (vs vd : IVec S_ 32) (vf : FVec Ideal S_ .f32) (h : Fin 2) (p : Fin 27136) (q : Fin 64) :
    Reg2.out
        (shapeCast S2x1000000x1 (pad S2000000 ![0] ![0] ![0] src vs pads_S2000000_S2000000_000 h_S_) shapeCasts_S2000000_S2x1000000x1)
        (shapeCast S2x1000000x1 (pad S2000000 ![0] ![0] ![0] dst vd pads_S2000000_S2000000_000 h_S_) shapeCasts_S2000000_S2x1000000x1)
        (shapeCast S2x1000000x1 (pad S2000000 ![0] ![0] ![0] sc vf pads_S2000000_S2000000_000 h_S_) shapeCasts_S2000000_S2x1000000x1)
        T (ix3 h p q)
      = ∑ k ∈ Finset.range 15625, ∑ r ∈ Finset.range 64,
          ohd dst p.val (h.val * (64 * 15625) + 64 * k + r) * gat T src sc q (h.val * (64 * 15625) + 64 * k + r) := by
  refine (out_apply _ _ _ T h p q).trans ?_
  refine Eq.trans ?_ (Cert.Spec.sum_fin_eq_range 15625 (fun k => ∑ r ∈ Finset.range 64,
    ohd dst p.val (h.val * (64 * 15625) + 64 * k + r) * gat T src sc q (h.val * (64 * 15625) + 64 * k + r)))
  refine Finset.sum_congr rfl fun k _ => ?_
  refine (contrib_apply _ _ _ T p q).trans ?_
  refine Eq.trans ?_ (Cert.Spec.sum_fin_eq_range 64 (fun r =>
    ohd dst p.val (h.val * (64 * 15625) + 64 * k.val + r) * gat T src sc q (h.val * (64 * 15625) + 64 * k.val + r)))
  refine Finset.sum_congr rfl fun r _ => ?_
  rw [blkI_read 4294967295#32 dst vd h k r, blkI_read 4294967295#32 src vs h k r, blkF_read 0 sc vf h k r]
  rfl

theorem sum_two (Φ : ℕ → EReal) : ∑ c ∈ Finset.range 2, Φ c = Φ 0 + Φ 1 := by
  rw [Finset.sum_range_succ, Finset.sum_range_one]

/-- The two halves' tiled sums of the edges' terms add up to the specification's sum over the edges, once the gathered
    term of every true edge is the specification's. -/
theorem tiled_eq_spec (T : FVec Ideal S42880x64 .bf16) (tbl : FVec Ideal S42852x64 .f32) (src dst : IVec S2000000 32)
    (sc : FVec Ideal S2000000 .f32) (n : Fin 27094) (d : Fin 64)
    (hg : ∀ e, e < 2000000 → gat T src sc d e = spf tbl src sc d e) :
    (∑ k ∈ Finset.range 15625, ∑ r ∈ Finset.range 64,
        ohd dst n.val ((0 : Fin 2).val * (64 * 15625) + 64 * k + r) * gat T src sc d ((0 : Fin 2).val * (64 * 15625) + 64 * k + r))
      + (∑ k ∈ Finset.range 15625, ∑ r ∈ Finset.range 64,
        ohd dst n.val ((1 : Fin 2).val * (64 * 15625) + 64 * k + r) * gat T src sc d ((1 : Fin 2).val * (64 * 15625) + 64 * k + r))
      = Cert.AggSpec.aggSU tbl src dst sc (ix2 n d) := by
  have hn' : n.val < 4294967295 := by have := n.isLt; omega
  have h1 : ∀ e, e < 2000000 → ohd dst n.val e = if hits dst n.val e then 1 else 0 := fun e _ => ohd_of_lt dst n.val hn' e
  have h0 : ∀ e, 2000000 ≤ e → ohd dst n.val e = 0 := fun e he => ohd_of_le dst n.val hn' e he
  have key := Cert.Spec.agg_nat 2000000 15625 (by omega) (ohd dst n.val) (gat T src sc d) (spf tbl src sc d) (hits dst n.val) h1 h0 hg
  rw [sum_two] at key
  refine Eq.trans ?_ (key.trans ?_)
  · rfl
  · refine (Cert.Spec.filter_sum_fin 2000000 (hits dst n.val) (spf tbl src sc d)).symm.trans ?_
    rw [Finset.sum_filter]
    refine Finset.sum_congr rfl fun e _ => ?_
    refine if_congr ?_ ?_ rfl
    · show (rd 4294967295#32 dst e.val).toNat = n.val ↔ (dst (ix1 e)).toNat = n.val
      rw [rd_fin]
    · show tbl (ix2 (⟨(rd 4294967295#32 src e.val).toNat % 42852, Nat.mod_lt _ (by omega)⟩ : Fin 42852) d) * rd (α := EReal) 0 sc e.val = _
      rw [rd_fin, rd_fin]

/-- The kernel's result at an entry is the specification's sum over the edges. -/
theorem kernel_sum (tbl : FVec Ideal S42852x64 .f32) (src dst : IVec S2000000 32) (sc : FVec Ideal S2000000 .f32)
    (vs vd : IVec S_ 32) (vf vt : FVec Ideal S_ .f32)
    (hsrc : ∀ i, 0 ≤ (src i).toInt ∧ (src i).toInt < 42852) (n : Fin 27094) (d : Fin 64) :
    extractStridedSlice S27094x64 ![0, 0]
        (addf
          (shapeCast S27136x64 (extractStridedSlice S1x27136x64 ![0, 0, 0]
            (Reg2.out
              (shapeCast S2x1000000x1 (pad S2000000 ![0] ![0] ![0] src vs pads_S2000000_S2000000_000 h_S_) shapeCasts_S2000000_S2x1000000x1)
              (shapeCast S2x1000000x1 (pad S2000000 ![0] ![0] ![0] dst vd pads_S2000000_S2000000_000 h_S_) shapeCasts_S2000000_S2x1000000x1)
              (shapeCast S2x1000000x1 (pad S2000000 ![0] ![0] ![0] sc vf pads_S2000000_S2000000_000 h_S_) shapeCasts_S2000000_S2x1000000x1)
              (truncf .bf16 (pad S42880x64 ![0, 0] ![28, 0] ![0, 0] tbl vt pads_S42852x64_S42880x64_0280_000 h_S_) bitsLt_bf16_f32))
            slices_S2x27136x64_S1x27136x64_0_0_0) shapeCasts_S1x27136x64_S27136x64)
          (shapeCast S27136x64 (extractStridedSlice S1x27136x64 ![1, 0, 0]
            (Reg2.out
              (shapeCast S2x1000000x1 (pad S2000000 ![0] ![0] ![0] src vs pads_S2000000_S2000000_000 h_S_) shapeCasts_S2000000_S2x1000000x1)
              (shapeCast S2x1000000x1 (pad S2000000 ![0] ![0] ![0] dst vd pads_S2000000_S2000000_000 h_S_) shapeCasts_S2000000_S2x1000000x1)
              (shapeCast S2x1000000x1 (pad S2000000 ![0] ![0] ![0] sc vf pads_S2000000_S2000000_000 h_S_) shapeCasts_S2000000_S2x1000000x1)
              (truncf .bf16 (pad S42880x64 ![0, 0] ![28, 0] ![0, 0] tbl vt pads_S42852x64_S42880x64_0280_000 h_S_) bitsLt_bf16_f32))
            slices_S2x27136x64_S1x27136x64_1_0_0) shapeCasts_S1x27136x64_S27136x64))
        slices_S27136x64_S27094x64_0_0 (ix2 n d)
      = Cert.AggSpec.aggSU tbl src dst sc (ix2 n d) := by
  have hn : n.val < 27136 := by have := n.isLt; omega
  refine (halves_add_read _ n d hn).trans ?_
  rw [half_apply _ src dst sc vs vd vf (0 : Fin 2), half_apply _ src dst sc vs vd vf (1 : Fin 2)]
  exact tiled_eq_spec _ tbl src dst sc n d (fun e he => gat_eq_spf tbl vt src sc hsrc d e he)

/-- The kernel side of the aggregation: the padded and halved edge arrays and the padded table run through the region,
    the two halves added and cut to the true rows, is the sum over the edges. -/
theorem aggK2 (tbl : FVec Ideal S42852x64 .f32) (src dst : IVec S2000000 32) (sc : FVec Ideal S2000000 .f32)
    (hsrc : ∀ i, 0 ≤ (src i).toInt ∧ (src i).toInt < 42852) (hdst : ∀ i, 0 ≤ (dst i).toInt ∧ (dst i).toInt < 27094) :
    KHost3.v124 (F := Ideal) (Reg2.out (KHost2.v113 (F := Ideal) src) (KHost2.v115 (F := Ideal) dst)
        (KHost2.v117 (F := Ideal) sc) (KHost2.v111 (F := Ideal) tbl))
      = Cert.AggSpec.aggSU tbl src dst sc := by
  funext i
  obtain ⟨n, d, rfl⟩ : ∃ (n : Fin 27094) (d : Fin 64), i = ix2 n d := ⟨i 0, i 1, eq_ix2 i⟩
  exact kernel_sum tbl src dst sc _ _ _ _ hsrc n d

end Cert.AggK2

end
-- ==== Proof.AggK3.lean ====
/-
  The kernel side of the aggregation from the user table onto the spot rows over the bipartite edges.

  The idealized kernel program pads the edge arrays and the table, runs one region over two halves of the padded edge
  list, tile by tile (64 edges a tile), and adds the two halves. Read index by index at the extended reals this is the
  plain sum over the edges: in a tile the one-hot matrix of the source indices times the table gathers one table row per
  edge (a one-hot row picks exactly one entry of a column; the table's zero padding rows lie beyond every true index),
  the rows are scaled, and the one-hot matrix of the destination indices, contracted over the tile, adds each scaled row
  to its destination row. Re-indexing (half, tile, row) to the edge number turns the tiled sum into the sum over the
  edges whose destination is the row read.
-/
import proofs.«400075_j26585847562450_2_alg».proof.Proof.KHost3
import proofs.«400075_j26585847562450_2_alg».proof.Proof.KHost4
import proofs.«400075_j26585847562450_2_alg».proof.Proof.RegDefs
import proofs.«400075_j26585847562450_2_alg».proof.Proof.Spec
import proofs.«400075_j26585847562450_2_alg».proof.Proof.AggSpec
import Idealize.ShloMosaic.Lib.Pipeline.Value
import Idealize.ShloMosaic.Lib.KernelVsHost
import Idealize.ShloMosaic.Lib.StableHlo.Predicate
import Idealize.ShloMosaic.PureOps.Ideal.Laws
import Idealize.ShloMosaic.Lib.ValueIdx
import Idealize.ShloMosaic.Lib.ValueIdxRank1

noncomputable section

namespace Cert.AggK3

open Cert.KernelIdeal Cert.KernelIdeal.Gen Idealize.ShloMosaic Idealize.ShloMosaic.ValueIdx Idealize.ShloMosaic.StableHlo

/-! ## One tile: the two one-hot products at an entry -/

/-- A compared pair of words, widened and converted, is 1 where the words agree and 0 elsewhere. -/
theorem onehot_word (a b : BitVec 32) :
    (((((IntOp.cmpi .eq a b).setWidth 32).toInt : ℝ) : EReal)) = if a = b then (1 : EReal) else 0 := by
  by_cases h : a = b
  · rw [if_pos h, Predicate.cmpi_eq_iff.mpr h]
    show ((((1 : ℤ) : ℝ) : EReal)) = 1
    simp
  · have h0 : IntOp.cmpi .eq a b = 0#1 := by
      rcases (show ∀ x : BitVec 1, x = 1#1 ∨ x = 0#1 from by decide) (IntOp.cmpi .eq a b) with h1 | h1
      · exact absurd (Predicate.cmpi_eq_iff.mp h1) h
      · exact h1
    rw [if_neg h, h0]
    show ((((0 : ℤ) : ℝ) : EReal)) = 0
    simp

/-- A tile's column block viewed as a 64 × 1 column, at a row. -/
theorem col_apply {α : Type} (v : S1x64x1.Idx → α) (r : Fin 64) :
    shapeCast S64x1 v shapeCasts_S1x64x1_S64x1 (ix2 r (0 : Fin 1)) = v (ix3 (0 : Fin 1) r (0 : Fin 1)) := by
  refine shapeCast_apply _ _ (ix2 r (0 : Fin 1)) (ix3 (0 : Fin 1) r (0 : Fin 1)) ?_
  rw [Shape.rowMajor_val_three, Shape.rowMajor_val_two]
  show (0 * 64 + r.val) * 1 + 0 = r.val * 1 + 0
  omega

/-- The one-hot matrix of a tile's indices against the 27136 row numbers, at an entry. -/
theorem onehot27136_apply (v3 : IVec S1x64x1 32) (r : Fin 64) (s : Fin 27136) :
    (truncf .bf16 (sitofp (F := Ideal) .f32 (extui 32 (cmpi .eq (broadcastTo S64x27136 (shapeCast S64x1 v3 shapeCasts_S1x64x1_S64x1) broadcasts_S64x1_S64x27136)
      (iota .tc S64x27136 32 [1] iota_S64x27136_d1_w32)) natLt_1_32)) bitsLt_bf16_f32 : FVec Ideal S64x27136 .bf16) (ix2 r s)
      = if v3 (ix3 (0 : Fin 1) r (0 : Fin 1)) = BitVec.ofNat 32 s.val then (1 : EReal) else 0 := by
  have hb : broadcastTo S64x27136 (shapeCast S64x1 v3 shapeCasts_S1x64x1_S64x1) broadcasts_S64x1_S64x27136 (ix2 r s)
      = v3 (ix3 (0 : Fin 1) r (0 : Fin 1)) :=
    (broadcastTo_apply _ _ (ix2 r s) (ix2 r (0 : Fin 1)) (fun a => match a with | ⟨0, _⟩ => rfl | ⟨1, _⟩ => rfl)).trans (col_apply v3 r)
  have hi : iota .tc S64x27136 32 [1] iota_S64x27136_d1_w32 (ix2 r s) = BitVec.ofNat 32 s.val :=
    iota_single_apply .tc S64x27136 32 1 iota_S64x27136_d1_w32 (ix2 r s)
  show (((((IntOp.cmpi .eq (broadcastTo S64x27136 (shapeCast S64x1 v3 shapeCasts_S1x64x1_S64x1) broadcasts_S64x1_S64x27136 (ix2 r s))
      (iota .tc S64x27136 32 [1] iota_S64x27136_d1_w32 (ix2 r s))).setWidth 32).toInt : ℝ) : EReal)) = _
  rw [hb, hi]
  exact onehot_word _ _

/-- The scales of a tile broadcast along the 64 columns, at an entry. -/
theorem scale_apply (v7 : FVec Ideal S1x64x1 .f32) (r q : Fin 64) :
    broadcastTo S64x64 (shapeCast S64x1 v7 shapeCasts_S1x64x1_S64x1) broadcasts_S64x1_S64x64 (ix2 r q) = v7 (ix3 (0 : Fin 1) r (0 : Fin 1)) :=
  (broadcastTo_apply _ _ (ix2 r q) (ix2 r (0 : Fin 1)) (fun a => match a with | ⟨0, _⟩ => rfl | ⟨1, _⟩ => rfl)).trans (col_apply v7 r)

/-! The operand indices of the first product (64 × 27136 by 27136 × 64), coordinate by coordinate. -/
theorem lhsG_0 (j : S64x64.Idx) (k : dot_S64x27136_S27136x64_S64x64_1_0_0_1_n_n.contr.Idx) :
    (dot_S64x27136_S27136x64_S64x64_1_0_0_1_n_n.lhsIdx j k 0 : ℕ) = j 0 := by
  simp [DotDims.lhsIdx, dot_S64x27136_S27136x64_S64x64_1_0_0_1_n_n]; rfl
theorem lhsG_1 (j : S64x64.Idx) (k : dot_S64x27136_S27136x64_S64x64_1_0_0_1_n_n.contr.Idx) :
    (dot_S64x27136_S27136x64_S64x64_1_0_0_1_n_n.lhsIdx j k 1 : ℕ) = k ⟨0, by decide⟩ := by
  simp [DotDims.lhsIdx, dot_S64x27136_S27136x64_S64x64_1_0_0_1_n_n]; rfl
theorem rhsG_0 (j : S64x64.Idx) (k : dot_S64x27136_S27136x64_S64x64_1_0_0_1_n_n.contr.Idx) :
    (dot_S64x27136_S27136x64_S64x64_1_0_0_1_n_n.rhsIdx j k 0 : ℕ) = k ⟨0, by decide⟩ := by
  simp [DotDims.rhsIdx, dot_S64x27136_S27136x64_S64x64_1_0_0_1_n_n]; rfl
theorem rhsG_1 (j : S64x64.Idx) (k : dot_S64x27136_S27136x64_S64x64_1_0_0_1_n_n.contr.Idx) :
    (dot_S64x27136_S27136x64_S64x64_1_0_0_1_n_n.rhsIdx j k 1 : ℕ) = j 1 := by
  simp [DotDims.rhsIdx, dot_S64x27136_S27136x64_S64x64_1_0_0_1_n_n]; rfl

/-- The first product, into the zero accumulator, at an entry: the plain sum over the contracted coordinate. -/
theorem gatherProd_apply (A : FVec Ideal S64x27136 .bf16) (B : FVec Ideal S27136x64 .bf16) (r q : Fin 64) :
    matmul dot_S64x27136_S27136x64_S64x64_1_0_0_1_n_n none A B (constant (F := Ideal) S64x64 .f32 0x00000000#32) (ix2 r q)
      = ∑ s : Fin 27136, A (ix2 r s) * B (ix2 s q) := by
  show FloatOps.matmul dot_S64x27136_S27136x64_S64x64_1_0_0_1_n_n none A B (constant (F := Ideal) S64x64 .f32 0x00000000#32) (ix2 r q) = _
  rw [Ideal.matmul_constant_zero_apply,
    ← Equiv.sum_comp (contrEquiv1 dot_S64x27136_S27136x64_S64x64_1_0_0_1_n_n 27136 rfl rfl).symm]
  refine Finset.sum_congr rfl fun c _ => ?_
  have hc := contrEquiv1_symm_val dot_S64x27136_S27136x64_S64x64_1_0_0_1_n_n 27136 rfl rfl c
  have hl : dot_S64x27136_S27136x64_S64x64_1_0_0_1_n_n.lhsIdx (ix2 r q)
      ((contrEquiv1 dot_S64x27136_S27136x64_S64x64_1_0_0_1_n_n 27136 rfl rfl).symm c) = ix2 r c := by
    funext ax; apply Fin.ext
    match ax with
    | ⟨0, _⟩ => exact lhsG_0 _ _
    | ⟨1, _⟩ => exact (lhsG_1 _ _).trans hc
  have hr : dot_S64x27136_S27136x64_S64x64_1_0_0_1_n_n.rhsIdx (ix2 r q)
      ((contrEquiv1 dot_S64x27136_S27136x64_S64x64_1_0_0_1_n_n 27136 rfl rfl).symm c) = ix2 c q := by
    funext ax; apply Fin.ext
    match ax with
    | ⟨0, _⟩ => exact (rhsG_0 _ _).trans hc
    | ⟨1, _⟩ => exact rhsG_1 _ _
  rw [hl, hr]

/-- The one-hot matrix of a tile's indices against the 42880 row numbers, at an entry. -/
theorem onehot42880_apply (v5 : IVec S1x64x1 32) (r : Fin 64) (p : Fin 42880) :
    (truncf .bf16 (sitofp (F := Ideal) .f32 (extui 32 (cmpi .eq (broadcastTo S64x42880 (shapeCast S64x1 v5 shapeCasts_S1x64x1_S64x1) broadcasts_S64x1_S64x42880)
      (iota .tc S64x42880 32 [1] iota_S64x42880_d1_w32)) natLt_1_32)) bitsLt_bf16_f32 : FVec Ideal S64x42880 .bf16) (ix2 r p)
      = if v5 (ix3 (0 : Fin 1) r (0 : Fin 1)) = BitVec.ofNat 32 p.val then (1 : EReal) else 0 := by
  have hb : broadcastTo S64x42880 (shapeCast S64x1 v5 shapeCasts_S1x64x1_S64x1) broadcasts_S64x1_S64x42880 (ix2 r p)
      = v5 (ix3 (0 : Fin 1) r (0 : Fin 1)) :=
    (broadcastTo_apply _ _ (ix2 r p) (ix2 r (0 : Fin 1)) (fun a => match a with | ⟨0, _⟩ => rfl | ⟨1, _⟩ => rfl)).trans (col_apply v5 r)
  have hi : iota .tc S64x42880 32 [1] iota_S64x42880_d1_w32 (ix2 r p) = BitVec.ofNat 32 p.val :=
    iota_single_apply .tc S64x42880 32 1 iota_S64x42880_d1_w32 (ix2 r p)
  show (((((IntOp.cmpi .eq (broadcastTo S64x42880 (shapeCast S64x1 v5 shapeCasts_S1x64x1_S64x1) broadcasts_S64x1_S64x42880 (ix2 r p))
      (iota .tc S64x42880 32 [1] iota_S64x42880_d1_w32 (ix2 r p))).setWidth 32).toInt : ℝ) : EReal)) = _
  rw [hb, hi]
  exact onehot_word _ _

/-! The operand indices of the second product (64 × 42880 and 64 × 64, both contracted on their first axis),
    coordinate by coordinate. -/
theorem lhsS_0 (j : S42880x64.Idx) (k : dot_S64x42880_S64x64_S42880x64_0_0_1_1_n_n.contr.Idx) :
    (dot_S64x42880_S64x64_S42880x64_0_0_1_1_n_n.lhsIdx j k 0 : ℕ) = k ⟨0, by decide⟩ := by
  simp [DotDims.lhsIdx, dot_S64x42880_S64x64_S42880x64_0_0_1_1_n_n]; rfl
theorem lhsS_1 (j : S42880x64.Idx) (k : dot_S64x42880_S64x64_S42880x64_0_0_1_1_n_n.contr.Idx) :
    (dot_S64x42880_S64x64_S42880x64_0_0_1_1_n_n.lhsIdx j k 1 : ℕ) = j 0 := by
  simp [DotDims.lhsIdx, dot_S64x42880_S64x64_S42880x64_0_0_1_1_n_n]; rfl
theorem rhsS_0 (j : S42880x64.Idx) (k : dot_S64x42880_S64x64_S42880x64_0_0_1_1_n_n.contr.Idx) :
    (dot_S64x42880_S64x64_S42880x64_0_0_1_1_n_n.rhsIdx j k 0 : ℕ) = k ⟨0, by decide⟩ := by
  simp [DotDims.rhsIdx, dot_S64x42880_S64x64_S42880x64_0_0_1_1_n_n]; rfl
theorem rhsS_1 (j : S42880x64.Idx) (k : dot_S64x42880_S64x64_S42880x64_0_0_1_1_n_n.contr.Idx) :
    (dot_S64x42880_S64x64_S42880x64_0_0_1_1_n_n.rhsIdx j k 1 : ℕ) = j 1 := by
  simp [DotDims.rhsIdx, dot_S64x42880_S64x64_S42880x64_0_0_1_1_n_n]; rfl

/-- The second product, into the zero accumulator, at an entry: the plain sum over the tile's 64 rows. -/
theorem scatterProd_apply (A : FVec Ideal S64x42880 .bf16) (B : FVec Ideal S64x64 .bf16) (p : Fin 42880) (q : Fin 64) :
    matmul dot_S64x42880_S64x64_S42880x64_0_0_1_1_n_n none A B (constant (F := Ideal) S42880x64 .f32 0x00000000#32) (ix2 p q)
      = ∑ r : Fin 64, A (ix2 r p) * B (ix2 r q) := by
  show FloatOps.matmul dot_S64x42880_S64x64_S42880x64_0_0_1_1_n_n none A B (constant (F := Ideal) S42880x64 .f32 0x00000000#32) (ix2 p q) = _
  rw [Ideal.matmul_constant_zero_apply,
    ← Equiv.sum_comp (contrEquiv1 dot_S64x42880_S64x64_S42880x64_0_0_1_1_n_n 64 rfl rfl).symm]
  refine Finset.sum_congr rfl fun c _ => ?_
  have hc := contrEquiv1_symm_val dot_S64x42880_S64x64_S42880x64_0_0_1_1_n_n 64 rfl rfl c
  have hl : dot_S64x42880_S64x64_S42880x64_0_0_1_1_n_n.lhsIdx (ix2 p q)
      ((contrEquiv1 dot_S64x42880_S64x64_S42880x64_0_0_1_1_n_n 64 rfl rfl).symm c) = ix2 c p := by
    funext ax; apply Fin.ext
    match ax with
    | ⟨0, _⟩ => exact (lhsS_0 _ _).trans hc
    | ⟨1, _⟩ => exact lhsS_1 _ _
  have hr : dot_S64x42880_S64x64_S42880x64_0_0_1_1_n_n.rhsIdx (ix2 p q)
      ((contrEquiv1 dot_S64x42880_S64x64_S42880x64_0_0_1_1_n_n 64 rfl rfl).symm c) = ix2 c q := by
    funext ax; apply Fin.ext
    match ax with
    | ⟨0, _⟩ => exact (rhsS_0 _ _).trans hc
    | ⟨1, _⟩ => exact rhsS_1 _ _
  rw [hl, hr]

/-- What one grid point adds at an entry: over the tile's 64 edges, the one-hot weight of the edge's destination at
    the entry's row times the gathered table entry (itself the one-hot row of the edge's source against the table's
    column) times the edge's scale. -/
theorem contrib_apply (v3 v5 : IVec S1x64x1 32) (v7 : FVec Ideal S1x64x1 .f32) (v15 : FVec Ideal S27136x64 .bf16)
    (p : Fin 42880) (q : Fin 64) :
    Reg3.contrib (F := Ideal) v3 v5 v7 v15 (ix2 p q)
      = ∑ r : Fin 64, (if v5 (ix3 (0 : Fin 1) r (0 : Fin 1)) = BitVec.ofNat 32 p.val then (1 : EReal) else 0)
          * ((∑ s : Fin 27136, (if v3 (ix3 (0 : Fin 1) r (0 : Fin 1)) = BitVec.ofNat 32 s.val then (1 : EReal) else 0) * v15 (ix2 s q))
              * v7 (ix3 (0 : Fin 1) r (0 : Fin 1))) := by
  unfold Reg3.contrib
  refine (scatterProd_apply _ _ p q).trans (Finset.sum_congr rfl fun r _ => ?_)
  refine congrArg₂ (· * ·) (onehot42880_apply v5 r p) ?_
  refine (truncf_apply (φ := .f32) (ψ := .bf16) _ bitsLt_bf16_f32 (ix2 r q)).trans ?_
  refine (mulf_apply (φ := .f32) _ _ (ix2 r q)).trans ?_
  refine congrArg₂ (· * ·) ?_ (scale_apply v7 r q)
  refine (gatherProd_apply _ _ r q).trans (Finset.sum_congr rfl fun s _ => ?_)
  refine congrArg₂ (· * ·) (onehot27136_apply v3 r s) ?_
  exact congrFun (shapeCast_self v15 shapeCasts_S27136x64_S27136x64) (ix2 s q)

/-! ## The padded arrays read at an index -/

/-- An edge array read at an edge number, with a fixed value beyond the last edge. -/
def rd {α : Type} (z : α) (x : S2000000.Idx → α) (e : ℕ) : α := if h : e < 2000000 then x (ix1 ⟨e, h⟩) else z

theorem rd_fin {α : Type} (z : α) (x : S2000000.Idx → α) (i : Fin 2000000) : rd z x i.val = x (ix1 i) := dif_pos i.isLt

theorem rd_of_le {α : Type} (z : α) (x : S2000000.Idx → α) (e : ℕ) (h : 2000000 ≤ e) : rd z x e = z := dif_neg (by omega)

/-- The padded edge array, split in two halves, at row 64 k + r of half h: edge number h · (64 · 15625) + 64 k + r. -/
theorem halves_read {α : Type} (z : α) (x : S2000000.Idx → α) (v : S_.Idx → α) (h : Fin 2) (k : Fin 15625) (r : Fin 64)
    (hm : 64 * k.val + r.val < 1000000) :
    shapeCast S2x1000000x1 (pad S2000000 ![0] ![0] ![0] x v pads_S2000000_S2000000_000 h_S_) shapeCasts_S2000000_S2x1000000x1
        (ix3 h (⟨64 * k.val + r.val, hm⟩ : Fin 1000000) (0 : Fin 1))
      = rd z x (h.val * (64 * 15625) + 64 * k.val + r.val) := by
  have he : h.val * (64 * 15625) + 64 * k.val + r.val < 2000000 := by have := h.isLt; omega
  refine (shapeCast_apply _ _ (ix3 h (⟨64 * k.val + r.val, hm⟩ : Fin 1000000) (0 : Fin 1))
    (ix1 (⟨h.val * (64 * 15625) + 64 * k.val + r.val, he⟩ : Fin 2000000)) ?_).trans ?_
  · rw [Shape.rowMajor_val_one, Shape.rowMajor_val_three]
    show h.val * (64 * 15625) + 64 * k.val + r.val = (h.val * 1000000 + (64 * k.val + r.val)) * 1 + 0
    omega
  · refine (pad_apply_of_inside _ _ _ x v pads_S2000000_S2000000_000 h_S_
      (ix1 (⟨h.val * (64 * 15625) + 64 * k.val + r.val, he⟩ : Fin 2000000))
      (ix1 (⟨h.val * (64 * 15625) + 64 * k.val + r.val, he⟩ : Fin 2000000)) (fun a => match a with
        | ⟨0, _⟩ => by
          show h.val * (64 * 15625) + 64 * k.val + r.val = 0 + (h.val * (64 * 15625) + 64 * k.val + r.val) * (0 + 1)
          omega)).trans ?_
    exact (rd_fin z x (⟨h.val * (64 * 15625) + 64 * k.val + r.val, he⟩ : Fin 2000000)).symm

/-- The table padded with zero rows, at a row below the true row count: the table's own entry. -/
theorem table_read (tbl : FVec Ideal S27094x64 .f32) (v : FVec Ideal S_ .f32) (s : Fin 27136) (hs : s.val < 27094) (q : Fin 64) :
    (truncf .bf16 (pad S27136x64 ![0, 0] ![42, 0] ![0, 0] tbl v pads_S27094x64_S27136x64_0420_000 h_S_) bitsLt_bf16_f32
        : FVec Ideal S27136x64 .bf16) (ix2 s q) = tbl (ix2 (⟨s.val, hs⟩ : Fin 27094) q) := by
  refine (truncf_apply (φ := .f32) (ψ := .bf16) _ bitsLt_bf16_f32 (ix2 s q)).trans ?_
  exact pad_apply_of_inside _ _ _ tbl v pads_S27094x64_S27136x64_0420_000 h_S_ (ix2 s q) (ix2 (⟨s.val, hs⟩ : Fin 27094) q)
    (fun a => match a with
      | ⟨0, _⟩ => by show s.val = 0 + s.val * (0 + 1); omega
      | ⟨1, _⟩ => by show q.val = 0 + q.val * (0 + 1); omega)

/-- The two halves of the result added and cut to the true row count, at an entry. -/
theorem halves_add_read (X : FVec Ideal S2x42880x64 .f32) (n : Fin 42852) (d : Fin 64) (hn : n.val < 42880) :
    extractStridedSlice S42852x64 ![0, 0]
        (addf (shapeCast S42880x64 (extractStridedSlice S1x42880x64 ![0, 0, 0] X slices_S2x42880x64_S1x42880x64_0_0_0) shapeCasts_S1x42880x64_S42880x64)
          (shapeCast S42880x64 (extractStridedSlice S1x42880x64 ![1, 0, 0] X slices_S2x42880x64_S1x42880x64_1_0_0) shapeCasts_S1x42880x64_S42880x64))
        slices_S42880x64_S42852x64_0_0 (ix2 n d)
      = X (ix3 (0 : Fin 2) (⟨n.val, hn⟩ : Fin 42880) d) + X (ix3 (1 : Fin 2) (⟨n.val, hn⟩ : Fin 42880) d) := by
  refine (extractStridedSlice_apply _ _ slices_S42880x64_S42852x64_0_0 (ix2 n d) (ix2 (⟨n.val, hn⟩ : Fin 42880) d)
    (fun a => match a with
      | ⟨0, _⟩ => by show n.val = 0 + n.val; omega
      | ⟨1, _⟩ => by show d.val = 0 + d.val; omega)).trans ?_
  refine (addf_apply (φ := .f32) _ _ (ix2 (⟨n.val, hn⟩ : Fin 42880) d)).trans ?_
  refine congrArg₂ (· + ·) ?_ ?_
  · refine (shapeCast_apply _ _ (ix2 (⟨n.val, hn⟩ : Fin 42880) d) (ix3 (0 : Fin 1) (⟨n.val, hn⟩ : Fin 42880) d) ?_).trans ?_
    · rw [Shape.rowMajor_val_three, Shape.rowMajor_val_two]
      show (0 * 42880 + n.val) * 64 + d.val = n.val * 64 + d.val
      omega
    · exact extractStridedSlice_apply _ X slices_S2x42880x64_S1x42880x64_0_0_0 (ix3 (0 : Fin 1) (⟨n.val, hn⟩ : Fin 42880) d)
        (ix3 (0 : Fin 2) (⟨n.val, hn⟩ : Fin 42880) d) (fun a => match a with
          | ⟨0, _⟩ => by show 0 = 0 + 0; omega
          | ⟨1, _⟩ => by show n.val = 0 + n.val; omega
          | ⟨2, _⟩ => by show d.val = 0 + d.val; omega)
  · refine (shapeCast_apply _ _ (ix2 (⟨n.val, hn⟩ : Fin 42880) d) (ix3 (0 : Fin 1) (⟨n.val, hn⟩ : Fin 42880) d) ?_).trans ?_
    · rw [Shape.rowMajor_val_three, Shape.rowMajor_val_two]
      show (0 * 42880 + n.val) * 64 + d.val = n.val * 64 + d.val
      omega
    · exact extractStridedSlice_apply _ X slices_S2x42880x64_S1x42880x64_1_0_0 (ix3 (0 : Fin 1) (⟨n.val, hn⟩ : Fin 42880) d)
        (ix3 (1 : Fin 2) (⟨n.val, hn⟩ : Fin 42880) d) (fun a => match a with
          | ⟨0, _⟩ => by show 1 = 1 + 0; omega
          | ⟨1, _⟩ => by show n.val = 0 + n.val; omega
          | ⟨2, _⟩ => by show d.val = 0 + d.val; omega)

/-! ## Words and numbers -/

/-- A 32-bit word equals the word of a small number exactly when its value is that number. -/
theorem word_eq_iff (w : BitVec 32) (n : ℕ) (hn : n < 4294967296) : w = BitVec.ofNat 32 n ↔ w.toNat = n := by
  constructor
  · intro h
    rw [h, BitVec.toNat_ofNat]
    exact Nat.mod_eq_of_lt (by omega)
  · intro h
    apply BitVec.eq_of_toNat_eq
    rw [BitVec.toNat_ofNat, Nat.mod_eq_of_lt (by omega), h]

/-- A word whose signed value lies in [0, N) has its unsigned value below N. -/
theorem toNat_lt_of_toInt (w : BitVec 32) (N : ℕ) (h0 : 0 ≤ w.toInt) (h1 : w.toInt < (N : ℤ)) : w.toNat < N := by
  have hw := w.isLt
  rw [BitVec.toInt_eq_toNat_cond] at h0 h1
  split_ifs at h0 h1 <;> omega

/-- A one-hot row against the row numbers of the padded table picks the row of the word's value. -/
theorem gather_row (T : FVec Ideal S27136x64 .bf16) (w : BitVec 32) (hw : w.toNat < 27136) (q : Fin 64) :
    ∑ s : Fin 27136, (if w = BitVec.ofNat 32 s.val then (1 : EReal) else 0) * T (ix2 s q)
      = T (ix2 (⟨w.toNat, hw⟩ : Fin 27136) q) := by
  refine Eq.trans (Finset.sum_congr rfl fun s _ => ?_)
    (Cert.Spec.onehot_sum_fintype (⟨w.toNat, hw⟩ : Fin 27136) (fun s => T (ix2 s q)))
  refine congrArg (· * T (ix2 s q)) ?_
  refine if_congr ?_ rfl rfl
  rw [word_eq_iff w s.val (by have := s.isLt; omega)]
  exact ⟨fun h => Fin.ext h, fun h => congrArg Fin.val h⟩

/-! ## One edge's term -/

/-- The one-hot weight of edge e's destination at row p; beyond the last edge the index is the all-ones word, which
    is no row number. -/
def ohd (dst : IVec S2000000 32) (p : ℕ) (e : ℕ) : EReal :=
  if rd 4294967295#32 dst e = BitVec.ofNat 32 p then 1 else 0

/-- The row the one-hot product gathers for edge e from the padded table, at column q, times the edge's scale. -/
def gat (T : FVec Ideal S27136x64 .bf16) (src : IVec S2000000 32) (sc : FVec Ideal S2000000 .f32) (q : Fin 64) (e : ℕ) : EReal :=
  (∑ s : Fin 27136, (if rd 4294967295#32 src e = BitVec.ofNat 32 s.val then (1 : EReal) else 0) * T (ix2 s q))
    * rd (α := EReal) 0 sc e

/-- The specification's term of edge e at column q. -/
def spf (tbl : FVec Ideal S27094x64 .f32) (src : IVec S2000000 32) (sc : FVec Ideal S2000000 .f32) (q : Fin 64) (e : ℕ) : EReal :=
  tbl (ix2 (⟨(rd 4294967295#32 src e).toNat % 27094, Nat.mod_lt _ (by omega)⟩ : Fin 27094) q) * rd (α := EReal) 0 sc e

/-- Edge e's destination is row n. -/
def hits (dst : IVec S2000000 32) (n : ℕ) (e : ℕ) : Prop := (rd 4294967295#32 dst e).toNat = n

instance (dst : IVec S2000000 32) (n : ℕ) : DecidablePred (hits dst n) := fun e => inferInstanceAs (Decidable (_ = _))

theorem ohd_of_lt (dst : IVec S2000000 32) (n : ℕ) (hn : n < 4294967295) (e : ℕ) :
    ohd dst n e = if hits dst n e then 1 else 0 :=
  if_congr (word_eq_iff _ n (by omega)) rfl rfl

theorem ohd_of_le (dst : IVec S2000000 32) (n : ℕ) (hn : n < 4294967295) (e : ℕ) (he : 2000000 ≤ e) : ohd dst n e = 0 := by
  unfold ohd
  rw [rd_of_le _ _ _ he]
  refine if_neg fun h => ?_
  have h1 := (word_eq_iff _ n (by omega)).mp h
  have h2 : (4294967295#32 : BitVec 32).toNat = 4294967295 := rfl
  omega

theorem gat_eq_spf (tbl : FVec Ideal S27094x64 .f32) (v : FVec Ideal S_ .f32) (src : IVec S2000000 32) (sc : FVec Ideal S2000000 .f32)
    (hsrc : ∀ i, 0 ≤ (src i).toInt ∧ (src i).toInt < 27094) (q : Fin 64) (e : ℕ) (he : e < 2000000) :
    gat (truncf .bf16 (pad S27136x64 ![0, 0] ![42, 0] ![0, 0] tbl v pads_S27094x64_S27136x64_0420_000 h_S_) bitsLt_bf16_f32) src sc q e
      = spf tbl src sc q e := by
  unfold gat spf
  have hw : rd 4294967295#32 src e = src (ix1 (⟨e, he⟩ : Fin 2000000)) := rd_fin _ src (⟨e, he⟩ : Fin 2000000)
  obtain ⟨h0, h1⟩ := hsrc (ix1 (⟨e, he⟩ : Fin 2000000))
  rw [← hw] at h0 h1
  have hlt : (rd 4294967295#32 src e).toNat < 27094 := toNat_lt_of_toInt _ 27094 h0 h1
  refine congrArg (· * rd (α := EReal) 0 sc e) ?_
  refine (gather_row _ _ (by omega) q).trans ?_
  refine (table_read tbl v _ hlt q).trans ?_
  exact congrArg (fun a => tbl (ix2 a q)) (Fin.ext (Nat.mod_eq_of_lt hlt).symm)

/-! ## The region's output and the whole aggregation -/

theorem out_apply (A0 A1 : IVec S2x1000000x1 32) (A2 : FVec Ideal S2x1000000x1 .f32) (A3 : FVec Ideal S27136x64 .bf16)
    (h : Fin 2) (p : Fin 42880) (q : Fin 64) :
    Reg3.out A0 A1 A2 A3 (ix3 h p q)
      = ∑ k : Fin 15625, Reg3.contrib (F := Ideal) (Reg3.blkI (F := Ideal) A0 h k) (Reg3.blkI (F := Ideal) A1 h k) (Reg3.blkF A2 h k) A3 (ix2 p q) := rfl

theorem blkI_read (z : BitVec 32) (x : IVec S2000000 32) (v : IVec S_ 32) (h : Fin 2) (k : Fin 15625) (r : Fin 64) :
    Reg3.blkI (F := Ideal) (shapeCast S2x1000000x1 (pad S2000000 ![0] ![0] ![0] x v pads_S2000000_S2000000_000 h_S_) shapeCasts_S2000000_S2x1000000x1)
        h k (ix3 (0 : Fin 1) r (0 : Fin 1))
      = rd z x (h.val * (64 * 15625) + 64 * k.val + r.val) :=
  halves_read z x v h k r (by have := k.isLt; have := r.isLt; omega)

theorem blkF_read (z : EReal) (x : FVec Ideal S2000000 .f32) (v : FVec Ideal S_ .f32) (h : Fin 2) (k : Fin 15625) (r : Fin 64) :
    Reg3.blkF (F := Ideal) (shapeCast S2x1000000x1 (pad S2000000 ![0] ![0] ![0] x v pads_S2000000_S2000000_000 h_S_) shapeCasts_S2000000_S2x1000000x1)
        h k (ix3 (0 : Fin 1) r (0 : Fin 1))
      = rd (α := EReal) z x (h.val * (64 * 15625) + 64 * k.val + r.val) :=
  halves_read (α := EReal) z x v h k r (by have := k.isLt; have := r.isLt; omega)

/-- One half of the region's output at an entry: the tiled sum of the edges' terms. -/
theorem half_apply (T : FVec Ideal S27136x64 .bf16) (src dst : IVec S2000000 32) (sc : FVec Ideal S2000000 .f32)
    (vs vd : IVec S_ 32) (vf : FVec Ideal S_ .f32) (h : Fin 2) (p : Fin 42880) (q : Fin 64) :
    Reg3.out
        (shapeCast S2x1000000x1 (pad S2000000 ![0] ![0] ![0] src vs pads_S2000000_S2000000_000 h_S_) shapeCasts_S2000000_S2x1000000x1)
        (shapeCast S2x1000000x1 (pad S2000000 ![0] ![0] ![0] dst vd pads_S2000000_S2000000_000 h_S_) shapeCasts_S2000000_S2x1000000x1)
        (shapeCast S2x1000000x1 (pad S2000000 ![0] ![0] ![0] sc vf pads_S2000000_S2000000_000 h_S_) shapeCasts_S2000000_S2x1000000x1)
        T (ix3 h p q)
      = ∑ k ∈ Finset.range 15625, ∑ r ∈ Finset.range 64,
          ohd dst p.val (h.val * (64 * 15625) + 64 * k + r) * gat T src sc q (h.val * (64 * 15625) + 64 * k + r) := by
  refine (out_apply _ _ _ T h p q).trans ?_
  refine Eq.trans ?_ (Cert.Spec.sum_fin_eq_range 15625 (fun k => ∑ r ∈ Finset.range 64,
    ohd dst p.val (h.val * (64 * 15625) + 64 * k + r) * gat T src sc q (h.val * (64 * 15625) + 64 * k + r)))
  refine Finset.sum_congr rfl fun k _ => ?_
  refine (contrib_apply _ _ _ T p q).trans ?_
  refine Eq.trans ?_ (Cert.Spec.sum_fin_eq_range 64 (fun r =>
    ohd dst p.val (h.val * (64 * 15625) + 64 * k.val + r) * gat T src sc q (h.val * (64 * 15625) + 64 * k.val + r)))
  refine Finset.sum_congr rfl fun r _ => ?_
  rw [blkI_read 4294967295#32 dst vd h k r, blkI_read 4294967295#32 src vs h k r, blkF_read 0 sc vf h k r]
  rfl

theorem sum_two (Φ : ℕ → EReal) : ∑ c ∈ Finset.range 2, Φ c = Φ 0 + Φ 1 := by
  rw [Finset.sum_range_succ, Finset.sum_range_one]

/-- The two halves' tiled sums of the edges' terms add up to the specification's sum over the edges, once the gathered
    term of every true edge is the specification's. -/
theorem tiled_eq_spec (T : FVec Ideal S27136x64 .bf16) (tbl : FVec Ideal S27094x64 .f32) (src dst : IVec S2000000 32)
    (sc : FVec Ideal S2000000 .f32) (n : Fin 42852) (d : Fin 64)
    (hg : ∀ e, e < 2000000 → gat T src sc d e = spf tbl src sc d e) :
    (∑ k ∈ Finset.range 15625, ∑ r ∈ Finset.range 64,
        ohd dst n.val ((0 : Fin 2).val * (64 * 15625) + 64 * k + r) * gat T src sc d ((0 : Fin 2).val * (64 * 15625) + 64 * k + r))
      + (∑ k ∈ Finset.range 15625, ∑ r ∈ Finset.range 64,
        ohd dst n.val ((1 : Fin 2).val * (64 * 15625) + 64 * k + r) * gat T src sc d ((1 : Fin 2).val * (64 * 15625) + 64 * k + r))
      = Cert.AggSpec.aggUS tbl src dst sc (ix2 n d) := by
  have hn' : n.val < 4294967295 := by have := n.isLt; omega
  have h1 : ∀ e, e < 2000000 → ohd dst n.val e = if hits dst n.val e then 1 else 0 := fun e _ => ohd_of_lt dst n.val hn' e
  have h0 : ∀ e, 2000000 ≤ e → ohd dst n.val e = 0 := fun e he => ohd_of_le dst n.val hn' e he
  have key := Cert.Spec.agg_nat 2000000 15625 (by omega) (ohd dst n.val) (gat T src sc d) (spf tbl src sc d) (hits dst n.val) h1 h0 hg
  rw [sum_two] at key
  refine Eq.trans ?_ (key.trans ?_)
  · rfl
  · refine (Cert.Spec.filter_sum_fin 2000000 (hits dst n.val) (spf tbl src sc d)).symm.trans ?_
    rw [Finset.sum_filter]
    refine Finset.sum_congr rfl fun e _ => ?_
    refine if_congr ?_ ?_ rfl
    · show (rd 4294967295#32 dst e.val).toNat = n.val ↔ (dst (ix1 e)).toNat = n.val
      rw [rd_fin]
    · show tbl (ix2 (⟨(rd 4294967295#32 src e.val).toNat % 27094, Nat.mod_lt _ (by omega)⟩ : Fin 27094) d) * rd (α := EReal) 0 sc e.val = _
      rw [rd_fin, rd_fin]

/-- The kernel's result at an entry is the specification's sum over the edges. -/
theorem kernel_sum (tbl : FVec Ideal S27094x64 .f32) (src dst : IVec S2000000 32) (sc : FVec Ideal S2000000 .f32)
    (vs vd : IVec S_ 32) (vf vt : FVec Ideal S_ .f32)
    (hsrc : ∀ i, 0 ≤ (src i).toInt ∧ (src i).toInt < 27094) (n : Fin 42852) (d : Fin 64) :
    extractStridedSlice S42852x64 ![0, 0]
        (addf
          (shapeCast S42880x64 (extractStridedSlice S1x42880x64 ![0, 0, 0]
            (Reg3.out
              (shapeCast S2x1000000x1 (pad S2000000 ![0] ![0] ![0] src vs pads_S2000000_S2000000_000 h_S_) shapeCasts_S2000000_S2x1000000x1)
              (shapeCast S2x1000000x1 (pad S2000000 ![0] ![0] ![0] dst vd pads_S2000000_S2000000_000 h_S_) shapeCasts_S2000000_S2x1000000x1)
              (shapeCast S2x1000000x1 (pad S2000000 ![0] ![0] ![0] sc vf pads_S2000000_S2000000_000 h_S_) shapeCasts_S2000000_S2x1000000x1)
              (truncf .bf16 (pad S27136x64 ![0, 0] ![42, 0] ![0, 0] tbl vt pads_S27094x64_S27136x64_0420_000 h_S_) bitsLt_bf16_f32))
            slices_S2x42880x64_S1x42880x64_0_0_0) shapeCasts_S1x42880x64_S42880x64)
          (shapeCast S42880x64 (extractStridedSlice S1x42880x64 ![1, 0, 0]
            (Reg3.out
              (shapeCast S2x1000000x1 (pad S2000000 ![0] ![0] ![0] src vs pads_S2000000_S2000000_000 h_S_) shapeCasts_S2000000_S2x1000000x1)
              (shapeCast S2x1000000x1 (pad S2000000 ![0] ![0] ![0] dst vd pads_S2000000_S2000000_000 h_S_) shapeCasts_S2000000_S2x1000000x1)
              (shapeCast S2x1000000x1 (pad S2000000 ![0] ![0] ![0] sc vf pads_S2000000_S2000000_000 h_S_) shapeCasts_S2000000_S2x1000000x1)
              (truncf .bf16 (pad S27136x64 ![0, 0] ![42, 0] ![0, 0] tbl vt pads_S27094x64_S27136x64_0420_000 h_S_) bitsLt_bf16_f32))
            slices_S2x42880x64_S1x42880x64_1_0_0) shapeCasts_S1x42880x64_S42880x64))
        slices_S42880x64_S42852x64_0_0 (ix2 n d)
      = Cert.AggSpec.aggUS tbl src dst sc (ix2 n d) := by
  have hn : n.val < 42880 := by have := n.isLt; omega
  refine (halves_add_read _ n d hn).trans ?_
  rw [half_apply _ src dst sc vs vd vf (0 : Fin 2), half_apply _ src dst sc vs vd vf (1 : Fin 2)]
  exact tiled_eq_spec _ tbl src dst sc n d (fun e he => gat_eq_spf tbl vt src sc hsrc d e he)

/-- The kernel side of the aggregation: the padded and halved edge arrays and the padded table run through the region,
    the two halves added and cut to the true rows, is the sum over the edges. -/
theorem aggK3 (tbl : FVec Ideal S27094x64 .f32) (src dst : IVec S2000000 32) (sc : FVec Ideal S2000000 .f32)
    (hsrc : ∀ i, 0 ≤ (src i).toInt ∧ (src i).toInt < 27094) (hdst : ∀ i, 0 ≤ (dst i).toInt ∧ (dst i).toInt < 42852) :
    KHost4.v139 (F := Ideal) (Reg3.out (KHost3.v128 (F := Ideal) src) (KHost3.v130 (F := Ideal) dst)
        (KHost3.v132 (F := Ideal) sc) (KHost3.v126 (F := Ideal) tbl))
      = Cert.AggSpec.aggUS tbl src dst sc := by
  funext i
  obtain ⟨n, d, rfl⟩ : ∃ (n : Fin 42852) (d : Fin 64), i = ix2 n d := ⟨i 0, i 1, eq_ix2 i⟩
  exact kernel_sum tbl src dst sc _ _ _ _ hsrc n d

end Cert.AggK3

end
-- ==== Proof.AggK4.lean ====
/-
  The kernel side of the aggregation from the spot table onto the user rows over the bipartite edges.

  The idealized kernel program pads the edge arrays and the table, runs one region over two halves of the padded edge
  list, tile by tile (64 edges a tile), and adds the two halves. Read index by index at the extended reals this is the
  plain sum over the edges: in a tile the one-hot matrix of the source indices times the table gathers one table row per
  edge (a one-hot row picks exactly one entry of a column; the table's zero padding rows lie beyond every true index),
  the rows are scaled, and the one-hot matrix of the destination indices, contracted over the tile, adds each scaled row
  to its destination row. Re-indexing (half, tile, row) to the edge number turns the tiled sum into the sum over the
  edges whose destination is the row read.
-/
import proofs.«400075_j26585847562450_2_alg».proof.Proof.KHost4
import proofs.«400075_j26585847562450_2_alg».proof.Proof.KHost5
import proofs.«400075_j26585847562450_2_alg».proof.Proof.RegDefs
import proofs.«400075_j26585847562450_2_alg».proof.Proof.Spec
import proofs.«400075_j26585847562450_2_alg».proof.Proof.AggSpec
import Idealize.ShloMosaic.Lib.Pipeline.Value
import Idealize.ShloMosaic.Lib.KernelVsHost
import Idealize.ShloMosaic.Lib.StableHlo.Predicate
import Idealize.ShloMosaic.PureOps.Ideal.Laws
import Idealize.ShloMosaic.Lib.ValueIdx
import Idealize.ShloMosaic.Lib.ValueIdxRank1

noncomputable section

namespace Cert.AggK4

open Cert.KernelIdeal Cert.KernelIdeal.Gen Idealize.ShloMosaic Idealize.ShloMosaic.ValueIdx Idealize.ShloMosaic.StableHlo

/-! ## One tile: the two one-hot products at an entry -/

/-- A compared pair of words, widened and converted, is 1 where the words agree and 0 elsewhere. -/
theorem onehot_word (a b : BitVec 32) :
    (((((IntOp.cmpi .eq a b).setWidth 32).toInt : ℝ) : EReal)) = if a = b then (1 : EReal) else 0 := by
  by_cases h : a = b
  · rw [if_pos h, Predicate.cmpi_eq_iff.mpr h]
    show ((((1 : ℤ) : ℝ) : EReal)) = 1
    simp
  · have h0 : IntOp.cmpi .eq a b = 0#1 := by
      rcases (show ∀ x : BitVec 1, x = 1#1 ∨ x = 0#1 from by decide) (IntOp.cmpi .eq a b) with h1 | h1
      · exact absurd (Predicate.cmpi_eq_iff.mp h1) h
      · exact h1
    rw [if_neg h, h0]
    show ((((0 : ℤ) : ℝ) : EReal)) = 0
    simp

/-- A tile's column block viewed as a 64 × 1 column, at a row. -/
theorem col_apply {α : Type} (v : S1x64x1.Idx → α) (r : Fin 64) :
    shapeCast S64x1 v shapeCasts_S1x64x1_S64x1 (ix2 r (0 : Fin 1)) = v (ix3 (0 : Fin 1) r (0 : Fin 1)) := by
  refine shapeCast_apply _ _ (ix2 r (0 : Fin 1)) (ix3 (0 : Fin 1) r (0 : Fin 1)) ?_
  rw [Shape.rowMajor_val_three, Shape.rowMajor_val_two]
  show (0 * 64 + r.val) * 1 + 0 = r.val * 1 + 0
  omega

/-- The one-hot matrix of a tile's indices against the 42880 row numbers, at an entry. -/
theorem onehot42880_apply (v3 : IVec S1x64x1 32) (r : Fin 64) (s : Fin 42880) :
    (truncf .bf16 (sitofp (F := Ideal) .f32 (extui 32 (cmpi .eq (broadcastTo S64x42880 (shapeCast S64x1 v3 shapeCasts_S1x64x1_S64x1) broadcasts_S64x1_S64x42880)
      (iota .tc S64x42880 32 [1] iota_S64x42880_d1_w32)) natLt_1_32)) bitsLt_bf16_f32 : FVec Ideal S64x42880 .bf16) (ix2 r s)
      = if v3 (ix3 (0 : Fin 1) r (0 : Fin 1)) = BitVec.ofNat 32 s.val then (1 : EReal) else 0 := by
  have hb : broadcastTo S64x42880 (shapeCast S64x1 v3 shapeCasts_S1x64x1_S64x1) broadcasts_S64x1_S64x42880 (ix2 r s)
      = v3 (ix3 (0 : Fin 1) r (0 : Fin 1)) :=
    (broadcastTo_apply _ _ (ix2 r s) (ix2 r (0 : Fin 1)) (fun a => match a with | ⟨0, _⟩ => rfl | ⟨1, _⟩ => rfl)).trans (col_apply v3 r)
  have hi : iota .tc S64x42880 32 [1] iota_S64x42880_d1_w32 (ix2 r s) = BitVec.ofNat 32 s.val :=
    iota_single_apply .tc S64x42880 32 1 iota_S64x42880_d1_w32 (ix2 r s)
  show (((((IntOp.cmpi .eq (broadcastTo S64x42880 (shapeCast S64x1 v3 shapeCasts_S1x64x1_S64x1) broadcasts_S64x1_S64x42880 (ix2 r s))
      (iota .tc S64x42880 32 [1] iota_S64x42880_d1_w32 (ix2 r s))).setWidth 32).toInt : ℝ) : EReal)) = _
  rw [hb, hi]
  exact onehot_word _ _

/-- The scales of a tile broadcast along the 64 columns, at an entry. -/
theorem scale_apply (v7 : FVec Ideal S1x64x1 .f32) (r q : Fin 64) :
    broadcastTo S64x64 (shapeCast S64x1 v7 shapeCasts_S1x64x1_S64x1) broadcasts_S64x1_S64x64 (ix2 r q) = v7 (ix3 (0 : Fin 1) r (0 : Fin 1)) :=
  (broadcastTo_apply _ _ (ix2 r q) (ix2 r (0 : Fin 1)) (fun a => match a with | ⟨0, _⟩ => rfl | ⟨1, _⟩ => rfl)).trans (col_apply v7 r)

/-! The operand indices of the first product (64 × 42880 by 42880 × 64), coordinate by coordinate. -/
theorem lhsG_0 (j : S64x64.Idx) (k : dot_S64x42880_S42880x64_S64x64_1_0_0_1_n_n.contr.Idx) :
    (dot_S64x42880_S42880x64_S64x64_1_0_0_1_n_n.lhsIdx j k 0 : ℕ) = j 0 := by
  simp [DotDims.lhsIdx, dot_S64x42880_S42880x64_S64x64_1_0_0_1_n_n]; rfl
theorem lhsG_1 (j : S64x64.Idx) (k : dot_S64x42880_S42880x64_S64x64_1_0_0_1_n_n.contr.Idx) :
    (dot_S64x42880_S42880x64_S64x64_1_0_0_1_n_n.lhsIdx j k 1 : ℕ) = k ⟨0, by decide⟩ := by
  simp [DotDims.lhsIdx, dot_S64x42880_S42880x64_S64x64_1_0_0_1_n_n]; rfl
theorem rhsG_0 (j : S64x64.Idx) (k : dot_S64x42880_S42880x64_S64x64_1_0_0_1_n_n.contr.Idx) :
    (dot_S64x42880_S42880x64_S64x64_1_0_0_1_n_n.rhsIdx j k 0 : ℕ) = k ⟨0, by decide⟩ := by
  simp [DotDims.rhsIdx, dot_S64x42880_S42880x64_S64x64_1_0_0_1_n_n]; rfl
theorem rhsG_1 (j : S64x64.Idx) (k : dot_S64x42880_S42880x64_S64x64_1_0_0_1_n_n.contr.Idx) :
    (dot_S64x42880_S42880x64_S64x64_1_0_0_1_n_n.rhsIdx j k 1 : ℕ) = j 1 := by
  simp [DotDims.rhsIdx, dot_S64x42880_S42880x64_S64x64_1_0_0_1_n_n]; rfl

/-- The first product, into the zero accumulator, at an entry: the plain sum over the contracted coordinate. -/
theorem gatherProd_apply (A : FVec Ideal S64x42880 .bf16) (B : FVec Ideal S42880x64 .bf16) (r q : Fin 64) :
    matmul dot_S64x42880_S42880x64_S64x64_1_0_0_1_n_n none A B (constant (F := Ideal) S64x64 .f32 0x00000000#32) (ix2 r q)
      = ∑ s : Fin 42880, A (ix2 r s) * B (ix2 s q) := by
  show FloatOps.matmul dot_S64x42880_S42880x64_S64x64_1_0_0_1_n_n none A B (constant (F := Ideal) S64x64 .f32 0x00000000#32) (ix2 r q) = _
  rw [Ideal.matmul_constant_zero_apply,
    ← Equiv.sum_comp (contrEquiv1 dot_S64x42880_S42880x64_S64x64_1_0_0_1_n_n 42880 rfl rfl).symm]
  refine Finset.sum_congr rfl fun c _ => ?_
  have hc := contrEquiv1_symm_val dot_S64x42880_S42880x64_S64x64_1_0_0_1_n_n 42880 rfl rfl c
  have hl : dot_S64x42880_S42880x64_S64x64_1_0_0_1_n_n.lhsIdx (ix2 r q)
      ((contrEquiv1 dot_S64x42880_S42880x64_S64x64_1_0_0_1_n_n 42880 rfl rfl).symm c) = ix2 r c := by
    funext ax; apply Fin.ext
    match ax with
    | ⟨0, _⟩ => exact lhsG_0 _ _
    | ⟨1, _⟩ => exact (lhsG_1 _ _).trans hc
  have hr : dot_S64x42880_S42880x64_S64x64_1_0_0_1_n_n.rhsIdx (ix2 r q)
      ((contrEquiv1 dot_S64x42880_S42880x64_S64x64_1_0_0_1_n_n 42880 rfl rfl).symm c) = ix2 c q := by
    funext ax; apply Fin.ext
    match ax with
    | ⟨0, _⟩ => exact (rhsG_0 _ _).trans hc
    | ⟨1, _⟩ => exact rhsG_1 _ _
  rw [hl, hr]

/-- The one-hot matrix of a tile's indices against the 27136 row numbers, at an entry. -/
theorem onehot27136_apply (v5 : IVec S1x64x1 32) (r : Fin 64) (p : Fin 27136) :
    (truncf .bf16 (sitofp (F := Ideal) .f32 (extui 32 (cmpi .eq (broadcastTo S64x27136 (shapeCast S64x1 v5 shapeCasts_S1x64x1_S64x1) broadcasts_S64x1_S64x27136)
      (iota .tc S64x27136 32 [1] iota_S64x27136_d1_w32)) natLt_1_32)) bitsLt_bf16_f32 : FVec Ideal S64x27136 .bf16) (ix2 r p)
      = if v5 (ix3 (0 : Fin 1) r (0 : Fin 1)) = BitVec.ofNat 32 p.val then (1 : EReal) else 0 := by
  have hb : broadcastTo S64x27136 (shapeCast S64x1 v5 shapeCasts_S1x64x1_S64x1) broadcasts_S64x1_S64x27136 (ix2 r p)
      = v5 (ix3 (0 : Fin 1) r (0 : Fin 1)) :=
    (broadcastTo_apply _ _ (ix2 r p) (ix2 r (0 : Fin 1)) (fun a => match a with | ⟨0, _⟩ => rfl | ⟨1, _⟩ => rfl)).trans (col_apply v5 r)
  have hi : iota .tc S64x27136 32 [1] iota_S64x27136_d1_w32 (ix2 r p) = BitVec.ofNat 32 p.val :=
    iota_single_apply .tc S64x27136 32 1 iota_S64x27136_d1_w32 (ix2 r p)
  show (((((IntOp.cmpi .eq (broadcastTo S64x27136 (shapeCast S64x1 v5 shapeCasts_S1x64x1_S64x1) broadcasts_S64x1_S64x27136 (ix2 r p))
      (iota .tc S64x27136 32 [1] iota_S64x27136_d1_w32 (ix2 r p))).setWidth 32).toInt : ℝ) : EReal)) = _
  rw [hb, hi]
  exact onehot_word _ _

/-! The operand indices of the second product (64 × 27136 and 64 × 64, both contracted on their first axis),
    coordinate by coordinate. -/
theorem lhsS_0 (j : S27136x64.Idx) (k : dot_S64x27136_S64x64_S27136x64_0_0_1_1_n_n.contr.Idx) :
    (dot_S64x27136_S64x64_S27136x64_0_0_1_1_n_n.lhsIdx j k 0 : ℕ) = k ⟨0, by decide⟩ := by
  simp [DotDims.lhsIdx, dot_S64x27136_S64x64_S27136x64_0_0_1_1_n_n]; rfl
theorem lhsS_1 (j : S27136x64.Idx) (k : dot_S64x27136_S64x64_S27136x64_0_0_1_1_n_n.contr.Idx) :
    (dot_S64x27136_S64x64_S27136x64_0_0_1_1_n_n.lhsIdx j k 1 : ℕ) = j 0 := by
  simp [DotDims.lhsIdx, dot_S64x27136_S64x64_S27136x64_0_0_1_1_n_n]; rfl
theorem rhsS_0 (j : S27136x64.Idx) (k : dot_S64x27136_S64x64_S27136x64_0_0_1_1_n_n.contr.Idx) :
    (dot_S64x27136_S64x64_S27136x64_0_0_1_1_n_n.rhsIdx j k 0 : ℕ) = k ⟨0, by decide⟩ := by
  simp [DotDims.rhsIdx, dot_S64x27136_S64x64_S27136x64_0_0_1_1_n_n]; rfl
theorem rhsS_1 (j : S27136x64.Idx) (k : dot_S64x27136_S64x64_S27136x64_0_0_1_1_n_n.contr.Idx) :
    (dot_S64x27136_S64x64_S27136x64_0_0_1_1_n_n.rhsIdx j k 1 : ℕ) = j 1 := by
  simp [DotDims.rhsIdx, dot_S64x27136_S64x64_S27136x64_0_0_1_1_n_n]; rfl

/-- The second product, into the zero accumulator, at an entry: the plain sum over the tile's 64 rows. -/
theorem scatterProd_apply (A : FVec Ideal S64x27136 .bf16) (B : FVec Ideal S64x64 .bf16) (p : Fin 27136) (q : Fin 64) :
    matmul dot_S64x27136_S64x64_S27136x64_0_0_1_1_n_n none A B (constant (F := Ideal) S27136x64 .f32 0x00000000#32) (ix2 p q)
      = ∑ r : Fin 64, A (ix2 r p) * B (ix2 r q) := by
  show FloatOps.matmul dot_S64x27136_S64x64_S27136x64_0_0_1_1_n_n none A B (constant (F := Ideal) S27136x64 .f32 0x00000000#32) (ix2 p q) = _
  rw [Ideal.matmul_constant_zero_apply,
    ← Equiv.sum_comp (contrEquiv1 dot_S64x27136_S64x64_S27136x64_0_0_1_1_n_n 64 rfl rfl).symm]
  refine Finset.sum_congr rfl fun c _ => ?_
  have hc := contrEquiv1_symm_val dot_S64x27136_S64x64_S27136x64_0_0_1_1_n_n 64 rfl rfl c
  have hl : dot_S64x27136_S64x64_S27136x64_0_0_1_1_n_n.lhsIdx (ix2 p q)
      ((contrEquiv1 dot_S64x27136_S64x64_S27136x64_0_0_1_1_n_n 64 rfl rfl).symm c) = ix2 c p := by
    funext ax; apply Fin.ext
    match ax with
    | ⟨0, _⟩ => exact (lhsS_0 _ _).trans hc
    | ⟨1, _⟩ => exact lhsS_1 _ _
  have hr : dot_S64x27136_S64x64_S27136x64_0_0_1_1_n_n.rhsIdx (ix2 p q)
      ((contrEquiv1 dot_S64x27136_S64x64_S27136x64_0_0_1_1_n_n 64 rfl rfl).symm c) = ix2 c q := by
    funext ax; apply Fin.ext
    match ax with
    | ⟨0, _⟩ => exact (rhsS_0 _ _).trans hc
    | ⟨1, _⟩ => exact rhsS_1 _ _
  rw [hl, hr]

/-- What one grid point adds at an entry: over the tile's 64 edges, the one-hot weight of the edge's destination at
    the entry's row times the gathered table entry (itself the one-hot row of the edge's source against the table's
    column) times the edge's scale. -/
theorem contrib_apply (v3 v5 : IVec S1x64x1 32) (v7 : FVec Ideal S1x64x1 .f32) (v15 : FVec Ideal S42880x64 .bf16)
    (p : Fin 27136) (q : Fin 64) :
    Reg4.contrib (F := Ideal) v3 v5 v7 v15 (ix2 p q)
      = ∑ r : Fin 64, (if v5 (ix3 (0 : Fin 1) r (0 : Fin 1)) = BitVec.ofNat 32 p.val then (1 : EReal) else 0)
          * ((∑ s : Fin 42880, (if v3 (ix3 (0 : Fin 1) r (0 : Fin 1)) = BitVec.ofNat 32 s.val then (1 : EReal) else 0) * v15 (ix2 s q))
              * v7 (ix3 (0 : Fin 1) r (0 : Fin 1))) := by
  unfold Reg4.contrib
  refine (scatterProd_apply _ _ p q).trans (Finset.sum_congr rfl fun r _ => ?_)
  refine congrArg₂ (· * ·) (onehot27136_apply v5 r p) ?_
  refine (truncf_apply (φ := .f32) (ψ := .bf16) _ bitsLt_bf16_f32 (ix2 r q)).trans ?_
  refine (mulf_apply (φ := .f32) _ _ (ix2 r q)).trans ?_
  refine congrArg₂ (· * ·) ?_ (scale_apply v7 r q)
  refine (gatherProd_apply _ _ r q).trans (Finset.sum_congr rfl fun s _ => ?_)
  refine congrArg₂ (· * ·) (onehot42880_apply v3 r s) ?_
  exact congrFun (shapeCast_self v15 shapeCasts_S42880x64_S42880x64) (ix2 s q)

/-! ## The padded arrays read at an index -/

/-- An edge array read at an edge number, with a fixed value beyond the last edge. -/
def rd {α : Type} (z : α) (x : S2000000.Idx → α) (e : ℕ) : α := if h : e < 2000000 then x (ix1 ⟨e, h⟩) else z

theorem rd_fin {α : Type} (z : α) (x : S2000000.Idx → α) (i : Fin 2000000) : rd z x i.val = x (ix1 i) := dif_pos i.isLt

theorem rd_of_le {α : Type} (z : α) (x : S2000000.Idx → α) (e : ℕ) (h : 2000000 ≤ e) : rd z x e = z := dif_neg (by omega)

/-- The padded edge array, split in two halves, at row 64 k + r of half h: edge number h · (64 · 15625) + 64 k + r. -/
theorem halves_read {α : Type} (z : α) (x : S2000000.Idx → α) (v : S_.Idx → α) (h : Fin 2) (k : Fin 15625) (r : Fin 64)
    (hm : 64 * k.val + r.val < 1000000) :
    shapeCast S2x1000000x1 (pad S2000000 ![0] ![0] ![0] x v pads_S2000000_S2000000_000 h_S_) shapeCasts_S2000000_S2x1000000x1
        (ix3 h (⟨64 * k.val + r.val, hm⟩ : Fin 1000000) (0 : Fin 1))
      = rd z x (h.val * (64 * 15625) + 64 * k.val + r.val) := by
  have he : h.val * (64 * 15625) + 64 * k.val + r.val < 2000000 := by have := h.isLt; omega
  refine (shapeCast_apply _ _ (ix3 h (⟨64 * k.val + r.val, hm⟩ : Fin 1000000) (0 : Fin 1))
    (ix1 (⟨h.val * (64 * 15625) + 64 * k.val + r.val, he⟩ : Fin 2000000)) ?_).trans ?_
  · rw [Shape.rowMajor_val_one, Shape.rowMajor_val_three]
    show h.val * (64 * 15625) + 64 * k.val + r.val = (h.val * 1000000 + (64 * k.val + r.val)) * 1 + 0
    omega
  · refine (pad_apply_of_inside _ _ _ x v pads_S2000000_S2000000_000 h_S_
      (ix1 (⟨h.val * (64 * 15625) + 64 * k.val + r.val, he⟩ : Fin 2000000))
      (ix1 (⟨h.val * (64 * 15625) + 64 * k.val + r.val, he⟩ : Fin 2000000)) (fun a => match a with
        | ⟨0, _⟩ => by
          show h.val * (64 * 15625) + 64 * k.val + r.val = 0 + (h.val * (64 * 15625) + 64 * k.val + r.val) * (0 + 1)
          omega)).trans ?_
    exact (rd_fin z x (⟨h.val * (64 * 15625) + 64 * k.val + r.val, he⟩ : Fin 2000000)).symm

/-- The table padded with zero rows, at a row below the true row count: the table's own entry. -/
theorem table_read (tbl : FVec Ideal S42852x64 .f32) (v : FVec Ideal S_ .f32) (s : Fin 42880) (hs : s.val < 42852) (q : Fin 64) :
    (truncf .bf16 (pad S42880x64 ![0, 0] ![28, 0] ![0, 0] tbl v pads_S42852x64_S42880x64_0280_000 h_S_) bitsLt_bf16_f32
        : FVec Ideal S42880x64 .bf16) (ix2 s q) = tbl (ix2 (⟨s.val, hs⟩ : Fin 42852) q) := by
  refine (truncf_apply (φ := .f32) (ψ := .bf16) _ bitsLt_bf16_f32 (ix2 s q)).trans ?_
  exact pad_apply_of_inside _ _ _ tbl v pads_S42852x64_S42880x64_0280_000 h_S_ (ix2 s q) (ix2 (⟨s.val, hs⟩ : Fin 42852) q)
    (fun a => match a with
      | ⟨0, _⟩ => by show s.val = 0 + s.val * (0 + 1); omega
      | ⟨1, _⟩ => by show q.val = 0 + q.val * (0 + 1); omega)

/-- The two halves of the result added and cut to the true row count, at an entry. -/
theorem halves_add_read (X : FVec Ideal S2x27136x64 .f32) (n : Fin 27094) (d : Fin 64) (hn : n.val < 27136) :
    extractStridedSlice S27094x64 ![0, 0]
        (addf (shapeCast S27136x64 (extractStridedSlice S1x27136x64 ![0, 0, 0] X slices_S2x27136x64_S1x27136x64_0_0_0) shapeCasts_S1x27136x64_S27136x64)
          (shapeCast S27136x64 (extractStridedSlice S1x27136x64 ![1, 0, 0] X slices_S2x27136x64_S1x27136x64_1_0_0) shapeCasts_S1x27136x64_S27136x64))
        slices_S27136x64_S27094x64_0_0 (ix2 n d)
      = X (ix3 (0 : Fin 2) (⟨n.val, hn⟩ : Fin 27136) d) + X (ix3 (1 : Fin 2) (⟨n.val, hn⟩ : Fin 27136) d) := by
  refine (extractStridedSlice_apply _ _ slices_S27136x64_S27094x64_0_0 (ix2 n d) (ix2 (⟨n.val, hn⟩ : Fin 27136) d)
    (fun a => match a with
      | ⟨0, _⟩ => by show n.val = 0 + n.val; omega
      | ⟨1, _⟩ => by show d.val = 0 + d.val; omega)).trans ?_
  refine (addf_apply (φ := .f32) _ _ (ix2 (⟨n.val, hn⟩ : Fin 27136) d)).trans ?_
  refine congrArg₂ (· + ·) ?_ ?_
  · refine (shapeCast_apply _ _ (ix2 (⟨n.val, hn⟩ : Fin 27136) d) (ix3 (0 : Fin 1) (⟨n.val, hn⟩ : Fin 27136) d) ?_).trans ?_
    · rw [Shape.rowMajor_val_three, Shape.rowMajor_val_two]
      show (0 * 27136 + n.val) * 64 + d.val = n.val * 64 + d.val
      omega
    · exact extractStridedSlice_apply _ X slices_S2x27136x64_S1x27136x64_0_0_0 (ix3 (0 : Fin 1) (⟨n.val, hn⟩ : Fin 27136) d)
        (ix3 (0 : Fin 2) (⟨n.val, hn⟩ : Fin 27136) d) (fun a => match a with
          | ⟨0, _⟩ => by show 0 = 0 + 0; omega
          | ⟨1, _⟩ => by show n.val = 0 + n.val; omega
          | ⟨2, _⟩ => by show d.val = 0 + d.val; omega)
  · refine (shapeCast_apply _ _ (ix2 (⟨n.val, hn⟩ : Fin 27136) d) (ix3 (0 : Fin 1) (⟨n.val, hn⟩ : Fin 27136) d) ?_).trans ?_
    · rw [Shape.rowMajor_val_three, Shape.rowMajor_val_two]
      show (0 * 27136 + n.val) * 64 + d.val = n.val * 64 + d.val
      omega
    · exact extractStridedSlice_apply _ X slices_S2x27136x64_S1x27136x64_1_0_0 (ix3 (0 : Fin 1) (⟨n.val, hn⟩ : Fin 27136) d)
        (ix3 (1 : Fin 2) (⟨n.val, hn⟩ : Fin 27136) d) (fun a => match a with
          | ⟨0, _⟩ => by show 1 = 1 + 0; omega
          | ⟨1, _⟩ => by show n.val = 0 + n.val; omega
          | ⟨2, _⟩ => by show d.val = 0 + d.val; omega)

/-! ## Words and numbers -/

/-- A 32-bit word equals the word of a small number exactly when its value is that number. -/
theorem word_eq_iff (w : BitVec 32) (n : ℕ) (hn : n < 4294967296) : w = BitVec.ofNat 32 n ↔ w.toNat = n := by
  constructor
  · intro h
    rw [h, BitVec.toNat_ofNat]
    exact Nat.mod_eq_of_lt (by omega)
  · intro h
    apply BitVec.eq_of_toNat_eq
    rw [BitVec.toNat_ofNat, Nat.mod_eq_of_lt (by omega), h]

/-- A word whose signed value lies in [0, N) has its unsigned value below N. -/
theorem toNat_lt_of_toInt (w : BitVec 32) (N : ℕ) (h0 : 0 ≤ w.toInt) (h1 : w.toInt < (N : ℤ)) : w.toNat < N := by
  have hw := w.isLt
  rw [BitVec.toInt_eq_toNat_cond] at h0 h1
  split_ifs at h0 h1 <;> omega

/-- A one-hot row against the row numbers of the padded table picks the row of the word's value. -/
theorem gather_row (T : FVec Ideal S42880x64 .bf16) (w : BitVec 32) (hw : w.toNat < 42880) (q : Fin 64) :
    ∑ s : Fin 42880, (if w = BitVec.ofNat 32 s.val then (1 : EReal) else 0) * T (ix2 s q)
      = T (ix2 (⟨w.toNat, hw⟩ : Fin 42880) q) := by
  refine Eq.trans (Finset.sum_congr rfl fun s _ => ?_)
    (Cert.Spec.onehot_sum_fintype (⟨w.toNat, hw⟩ : Fin 42880) (fun s => T (ix2 s q)))
  refine congrArg (· * T (ix2 s q)) ?_
  refine if_congr ?_ rfl rfl
  rw [word_eq_iff w s.val (by have := s.isLt; omega)]
  exact ⟨fun h => Fin.ext h, fun h => congrArg Fin.val h⟩

/-! ## One edge's term -/

/-- The one-hot weight of edge e's destination at row p; beyond the last edge the index is the all-ones word, which
    is no row number. -/
def ohd (dst : IVec S2000000 32) (p : ℕ) (e : ℕ) : EReal :=
  if rd 4294967295#32 dst e = BitVec.ofNat 32 p then 1 else 0

/-- The row the one-hot product gathers for edge e from the padded table, at column q, times the edge's scale. -/
def gat (T : FVec Ideal S42880x64 .bf16) (src : IVec S2000000 32) (sc : FVec Ideal S2000000 .f32) (q : Fin 64) (e : ℕ) : EReal :=
  (∑ s : Fin 42880, (if rd 4294967295#32 src e = BitVec.ofNat 32 s.val then (1 : EReal) else 0) * T (ix2 s q))
    * rd (α := EReal) 0 sc e

/-- The specification's term of edge e at column q. -/
def spf (tbl : FVec Ideal S42852x64 .f32) (src : IVec S2000000 32) (sc : FVec Ideal S2000000 .f32) (q : Fin 64) (e : ℕ) : EReal :=
  tbl (ix2 (⟨(rd 4294967295#32 src e).toNat % 42852, Nat.mod_lt _ (by omega)⟩ : Fin 42852) q) * rd (α := EReal) 0 sc e

/-- Edge e's destination is row n. -/
def hits (dst : IVec S2000000 32) (n : ℕ) (e : ℕ) : Prop := (rd 4294967295#32 dst e).toNat = n

instance (dst : IVec S2000000 32) (n : ℕ) : DecidablePred (hits dst n) := fun e => inferInstanceAs (Decidable (_ = _))

theorem ohd_of_lt (dst : IVec S2000000 32) (n : ℕ) (hn : n < 4294967295) (e : ℕ) :
    ohd dst n e = if hits dst n e then 1 else 0 :=
  if_congr (word_eq_iff _ n (by omega)) rfl rfl

theorem ohd_of_le (dst : IVec S2000000 32) (n : ℕ) (hn : n < 4294967295) (e : ℕ) (he : 2000000 ≤ e) : ohd dst n e = 0 := by
  unfold ohd
  rw [rd_of_le _ _ _ he]
  refine if_neg fun h => ?_
  have h1 := (word_eq_iff _ n (by omega)).mp h
  have h2 : (4294967295#32 : BitVec 32).toNat = 4294967295 := rfl
  omega

theorem gat_eq_spf (tbl : FVec Ideal S42852x64 .f32) (v : FVec Ideal S_ .f32) (src : IVec S2000000 32) (sc : FVec Ideal S2000000 .f32)
    (hsrc : ∀ i, 0 ≤ (src i).toInt ∧ (src i).toInt < 42852) (q : Fin 64) (e : ℕ) (he : e < 2000000) :
    gat (truncf .bf16 (pad S42880x64 ![0, 0] ![28, 0] ![0, 0] tbl v pads_S42852x64_S42880x64_0280_000 h_S_) bitsLt_bf16_f32) src sc q e
      = spf tbl src sc q e := by
  unfold gat spf
  have hw : rd 4294967295#32 src e = src (ix1 (⟨e, he⟩ : Fin 2000000)) := rd_fin _ src (⟨e, he⟩ : Fin 2000000)
  obtain ⟨h0, h1⟩ := hsrc (ix1 (⟨e, he⟩ : Fin 2000000))
  rw [← hw] at h0 h1
  have hlt : (rd 4294967295#32 src e).toNat < 42852 := toNat_lt_of_toInt _ 42852 h0 h1
  refine congrArg (· * rd (α := EReal) 0 sc e) ?_
  refine (gather_row _ _ (by omega) q).trans ?_
  refine (table_read tbl v _ hlt q).trans ?_
  exact congrArg (fun a => tbl (ix2 a q)) (Fin.ext (Nat.mod_eq_of_lt hlt).symm)

/-! ## The region's output and the whole aggregation -/

theorem out_apply (A0 A1 : IVec S2x1000000x1 32) (A2 : FVec Ideal S2x1000000x1 .f32) (A3 : FVec Ideal S42880x64 .bf16)
    (h : Fin 2) (p : Fin 27136) (q : Fin 64) :
    Reg4.out A0 A1 A2 A3 (ix3 h p q)
      = ∑ k : Fin 15625, Reg4.contrib (F := Ideal) (Reg4.blkI (F := Ideal) A0 h k) (Reg4.blkI (F := Ideal) A1 h k) (Reg4.blkF A2 h k) A3 (ix2 p q) := rfl

theorem blkI_read (z : BitVec 32) (x : IVec S2000000 32) (v : IVec S_ 32) (h : Fin 2) (k : Fin 15625) (r : Fin 64) :
    Reg4.blkI (F := Ideal) (shapeCast S2x1000000x1 (pad S2000000 ![0] ![0] ![0] x v pads_S2000000_S2000000_000 h_S_) shapeCasts_S2000000_S2x1000000x1)
        h k (ix3 (0 : Fin 1) r (0 : Fin 1))
      = rd z x (h.val * (64 * 15625) + 64 * k.val + r.val) :=
  halves_read z x v h k r (by have := k.isLt; have := r.isLt; omega)

theorem blkF_read (z : EReal) (x : FVec Ideal S2000000 .f32) (v : FVec Ideal S_ .f32) (h : Fin 2) (k : Fin 15625) (r : Fin 64) :
    Reg4.blkF (F := Ideal) (shapeCast S2x1000000x1 (pad S2000000 ![0] ![0] ![0] x v pads_S2000000_S2000000_000 h_S_) shapeCasts_S2000000_S2x1000000x1)
        h k (ix3 (0 : Fin 1) r (0 : Fin 1))
      = rd (α := EReal) z x (h.val * (64 * 15625) + 64 * k.val + r.val) :=
  halves_read (α := EReal) z x v h k r (by have := k.isLt; have := r.isLt; omega)

/-- One half of the region's output at an entry: the tiled sum of the edges' terms. -/
theorem half_apply (T : FVec Ideal S42880x64 .bf16) (src dst : IVec S2000000 32) (sc : FVec Ideal S2000000 .f32)
    (vs vd : IVec S_ 32) (vf : FVec Ideal S_ .f32) (h : Fin 2) (p : Fin 27136) (q : Fin 64) :
    Reg4.out
        (shapeCast S2x1000000x1 (pad S2000000 ![0] ![0] ![0] src vs pads_S2000000_S2000000_000 h_S_) shapeCasts_S2000000_S2x1000000x1)
        (shapeCast S2x1000000x1 (pad S2000000 ![0] ![0] ![0] dst vd pads_S2000000_S2000000_000 h_S_) shapeCasts_S2000000_S2x1000000x1)
        (shapeCast S2x1000000x1 (pad S2000000 ![0] ![0] ![0] sc vf pads_S2000000_S2000000_000 h_S_) shapeCasts_S2000000_S2x1000000x1)
        T (ix3 h p q)
      = ∑ k ∈ Finset.range 15625, ∑ r ∈ Finset.range 64,
          ohd dst p.val (h.val * (64 * 15625) + 64 * k + r) * gat T src sc q (h.val * (64 * 15625) + 64 * k + r) := by
  refine (out_apply _ _ _ T h p q).trans ?_
  refine Eq.trans ?_ (Cert.Spec.sum_fin_eq_range 15625 (fun k => ∑ r ∈ Finset.range 64,
    ohd dst p.val (h.val * (64 * 15625) + 64 * k + r) * gat T src sc q (h.val * (64 * 15625) + 64 * k + r)))
  refine Finset.sum_congr rfl fun k _ => ?_
  refine (contrib_apply _ _ _ T p q).trans ?_
  refine Eq.trans ?_ (Cert.Spec.sum_fin_eq_range 64 (fun r =>
    ohd dst p.val (h.val * (64 * 15625) + 64 * k.val + r) * gat T src sc q (h.val * (64 * 15625) + 64 * k.val + r)))
  refine Finset.sum_congr rfl fun r _ => ?_
  rw [blkI_read 4294967295#32 dst vd h k r, blkI_read 4294967295#32 src vs h k r, blkF_read 0 sc vf h k r]
  rfl

theorem sum_two (Φ : ℕ → EReal) : ∑ c ∈ Finset.range 2, Φ c = Φ 0 + Φ 1 := by
  rw [Finset.sum_range_succ, Finset.sum_range_one]

/-- The two halves' tiled sums of the edges' terms add up to the specification's sum over the edges, once the gathered
    term of every true edge is the specification's. -/
theorem tiled_eq_spec (T : FVec Ideal S42880x64 .bf16) (tbl : FVec Ideal S42852x64 .f32) (src dst : IVec S2000000 32)
    (sc : FVec Ideal S2000000 .f32) (n : Fin 27094) (d : Fin 64)
    (hg : ∀ e, e < 2000000 → gat T src sc d e = spf tbl src sc d e) :
    (∑ k ∈ Finset.range 15625, ∑ r ∈ Finset.range 64,
        ohd dst n.val ((0 : Fin 2).val * (64 * 15625) + 64 * k + r) * gat T src sc d ((0 : Fin 2).val * (64 * 15625) + 64 * k + r))
      + (∑ k ∈ Finset.range 15625, ∑ r ∈ Finset.range 64,
        ohd dst n.val ((1 : Fin 2).val * (64 * 15625) + 64 * k + r) * gat T src sc d ((1 : Fin 2).val * (64 * 15625) + 64 * k + r))
      = Cert.AggSpec.aggSU tbl src dst sc (ix2 n d) := by
  have hn' : n.val < 4294967295 := by have := n.isLt; omega
  have h1 : ∀ e, e < 2000000 → ohd dst n.val e = if hits dst n.val e then 1 else 0 := fun e _ => ohd_of_lt dst n.val hn' e
  have h0 : ∀ e, 2000000 ≤ e → ohd dst n.val e = 0 := fun e he => ohd_of_le dst n.val hn' e he
  have key := Cert.Spec.agg_nat 2000000 15625 (by omega) (ohd dst n.val) (gat T src sc d) (spf tbl src sc d) (hits dst n.val) h1 h0 hg
  rw [sum_two] at key
  refine Eq.trans ?_ (key.trans ?_)
  · rfl
  · refine (Cert.Spec.filter_sum_fin 2000000 (hits dst n.val) (spf tbl src sc d)).symm.trans ?_
    rw [Finset.sum_filter]
    refine Finset.sum_congr rfl fun e _ => ?_
    refine if_congr ?_ ?_ rfl
    · show (rd 4294967295#32 dst e.val).toNat = n.val ↔ (dst (ix1 e)).toNat = n.val
      rw [rd_fin]
    · show tbl (ix2 (⟨(rd 4294967295#32 src e.val).toNat % 42852, Nat.mod_lt _ (by omega)⟩ : Fin 42852) d) * rd (α := EReal) 0 sc e.val = _
      rw [rd_fin, rd_fin]

/-- The kernel's result at an entry is the specification's sum over the edges. -/
theorem kernel_sum (tbl : FVec Ideal S42852x64 .f32) (src dst : IVec S2000000 32) (sc : FVec Ideal S2000000 .f32)
    (vs vd : IVec S_ 32) (vf vt : FVec Ideal S_ .f32)
    (hsrc : ∀ i, 0 ≤ (src i).toInt ∧ (src i).toInt < 42852) (n : Fin 27094) (d : Fin 64) :
    extractStridedSlice S27094x64 ![0, 0]
        (addf
          (shapeCast S27136x64 (extractStridedSlice S1x27136x64 ![0, 0, 0]
            (Reg4.out
              (shapeCast S2x1000000x1 (pad S2000000 ![0] ![0] ![0] src vs pads_S2000000_S2000000_000 h_S_) shapeCasts_S2000000_S2x1000000x1)
              (shapeCast S2x1000000x1 (pad S2000000 ![0] ![0] ![0] dst vd pads_S2000000_S2000000_000 h_S_) shapeCasts_S2000000_S2x1000000x1)
              (shapeCast S2x1000000x1 (pad S2000000 ![0] ![0] ![0] sc vf pads_S2000000_S2000000_000 h_S_) shapeCasts_S2000000_S2x1000000x1)
              (truncf .bf16 (pad S42880x64 ![0, 0] ![28, 0] ![0, 0] tbl vt pads_S42852x64_S42880x64_0280_000 h_S_) bitsLt_bf16_f32))
            slices_S2x27136x64_S1x27136x64_0_0_0) shapeCasts_S1x27136x64_S27136x64)
          (shapeCast S27136x64 (extractStridedSlice S1x27136x64 ![1, 0, 0]
            (Reg4.out
              (shapeCast S2x1000000x1 (pad S2000000 ![0] ![0] ![0] src vs pads_S2000000_S2000000_000 h_S_) shapeCasts_S2000000_S2x1000000x1)
              (shapeCast S2x1000000x1 (pad S2000000 ![0] ![0] ![0] dst vd pads_S2000000_S2000000_000 h_S_) shapeCasts_S2000000_S2x1000000x1)
              (shapeCast S2x1000000x1 (pad S2000000 ![0] ![0] ![0] sc vf pads_S2000000_S2000000_000 h_S_) shapeCasts_S2000000_S2x1000000x1)
              (truncf .bf16 (pad S42880x64 ![0, 0] ![28, 0] ![0, 0] tbl vt pads_S42852x64_S42880x64_0280_000 h_S_) bitsLt_bf16_f32))
            slices_S2x27136x64_S1x27136x64_1_0_0) shapeCasts_S1x27136x64_S27136x64))
        slices_S27136x64_S27094x64_0_0 (ix2 n d)
      = Cert.AggSpec.aggSU tbl src dst sc (ix2 n d) := by
  have hn : n.val < 27136 := by have := n.isLt; omega
  refine (halves_add_read _ n d hn).trans ?_
  rw [half_apply _ src dst sc vs vd vf (0 : Fin 2), half_apply _ src dst sc vs vd vf (1 : Fin 2)]
  exact tiled_eq_spec _ tbl src dst sc n d (fun e he => gat_eq_spf tbl vt src sc hsrc d e he)

/-- The kernel side of the aggregation: the padded and halved edge arrays and the padded table run through the region,
    the two halves added and cut to the true rows, is the sum over the edges. -/
theorem aggK4 (tbl : FVec Ideal S42852x64 .f32) (src dst : IVec S2000000 32) (sc : FVec Ideal S2000000 .f32)
    (hsrc : ∀ i, 0 ≤ (src i).toInt ∧ (src i).toInt < 42852) (hdst : ∀ i, 0 ≤ (dst i).toInt ∧ (dst i).toInt < 27094) :
    KHost5.v156 (F := Ideal) (Reg4.out (KHost4.v145 (F := Ideal) src) (KHost4.v147 (F := Ideal) dst)
        (KHost4.v149 (F := Ideal) sc) (KHost4.v143 (F := Ideal) tbl))
      = Cert.AggSpec.aggSU tbl src dst sc := by
  funext i
  obtain ⟨n, d, rfl⟩ : ∃ (n : Fin 27094) (d : Fin 64), i = ix2 n d := ⟨i 0, i 1, eq_ix2 i⟩
  exact kernel_sum tbl src dst sc _ _ _ _ hsrc n d

end Cert.AggK4

end
-- ==== Proof.AggK5.lean ====
/-
  The kernel side of the aggregation from the user table onto the spot rows over the bipartite edges.

  The idealized kernel program pads the edge arrays and the table, runs one region over two halves of the padded edge
  list, tile by tile (64 edges a tile), and adds the two halves. Read index by index at the extended reals this is the
  plain sum over the edges: in a tile the one-hot matrix of the source indices times the table gathers one table row per
  edge (a one-hot row picks exactly one entry of a column; the table's zero padding rows lie beyond every true index),
  the rows are scaled, and the one-hot matrix of the destination indices, contracted over the tile, adds each scaled row
  to its destination row. Re-indexing (half, tile, row) to the edge number turns the tiled sum into the sum over the
  edges whose destination is the row read.
-/
import proofs.«400075_j26585847562450_2_alg».proof.Proof.KHost5
import proofs.«400075_j26585847562450_2_alg».proof.Proof.KHost6
import proofs.«400075_j26585847562450_2_alg».proof.Proof.RegDefs
import proofs.«400075_j26585847562450_2_alg».proof.Proof.Spec
import proofs.«400075_j26585847562450_2_alg».proof.Proof.AggSpec
import Idealize.ShloMosaic.Lib.Pipeline.Value
import Idealize.ShloMosaic.Lib.KernelVsHost
import Idealize.ShloMosaic.Lib.StableHlo.Predicate
import Idealize.ShloMosaic.PureOps.Ideal.Laws
import Idealize.ShloMosaic.Lib.ValueIdx
import Idealize.ShloMosaic.Lib.ValueIdxRank1

noncomputable section

namespace Cert.AggK5

open Cert.KernelIdeal Cert.KernelIdeal.Gen Idealize.ShloMosaic Idealize.ShloMosaic.ValueIdx Idealize.ShloMosaic.StableHlo

/-! ## One tile: the two one-hot products at an entry -/

/-- A compared pair of words, widened and converted, is 1 where the words agree and 0 elsewhere. -/
theorem onehot_word (a b : BitVec 32) :
    (((((IntOp.cmpi .eq a b).setWidth 32).toInt : ℝ) : EReal)) = if a = b then (1 : EReal) else 0 := by
  by_cases h : a = b
  · rw [if_pos h, Predicate.cmpi_eq_iff.mpr h]
    show ((((1 : ℤ) : ℝ) : EReal)) = 1
    simp
  · have h0 : IntOp.cmpi .eq a b = 0#1 := by
      rcases (show ∀ x : BitVec 1, x = 1#1 ∨ x = 0#1 from by decide) (IntOp.cmpi .eq a b) with h1 | h1
      · exact absurd (Predicate.cmpi_eq_iff.mp h1) h
      · exact h1
    rw [if_neg h, h0]
    show ((((0 : ℤ) : ℝ) : EReal)) = 0
    simp

/-- A tile's column block viewed as a 64 × 1 column, at a row. -/
theorem col_apply {α : Type} (v : S1x64x1.Idx → α) (r : Fin 64) :
    shapeCast S64x1 v shapeCasts_S1x64x1_S64x1 (ix2 r (0 : Fin 1)) = v (ix3 (0 : Fin 1) r (0 : Fin 1)) := by
  refine shapeCast_apply _ _ (ix2 r (0 : Fin 1)) (ix3 (0 : Fin 1) r (0 : Fin 1)) ?_
  rw [Shape.rowMajor_val_three, Shape.rowMajor_val_two]
  show (0 * 64 + r.val) * 1 + 0 = r.val * 1 + 0
  omega

/-- The one-hot matrix of a tile's indices against the 27136 row numbers, at an entry. -/
theorem onehot27136_apply (v3 : IVec S1x64x1 32) (r : Fin 64) (s : Fin 27136) :
    (truncf .bf16 (sitofp (F := Ideal) .f32 (extui 32 (cmpi .eq (broadcastTo S64x27136 (shapeCast S64x1 v3 shapeCasts_S1x64x1_S64x1) broadcasts_S64x1_S64x27136)
      (iota .tc S64x27136 32 [1] iota_S64x27136_d1_w32)) natLt_1_32)) bitsLt_bf16_f32 : FVec Ideal S64x27136 .bf16) (ix2 r s)
      = if v3 (ix3 (0 : Fin 1) r (0 : Fin 1)) = BitVec.ofNat 32 s.val then (1 : EReal) else 0 := by
  have hb : broadcastTo S64x27136 (shapeCast S64x1 v3 shapeCasts_S1x64x1_S64x1) broadcasts_S64x1_S64x27136 (ix2 r s)
      = v3 (ix3 (0 : Fin 1) r (0 : Fin 1)) :=
    (broadcastTo_apply _ _ (ix2 r s) (ix2 r (0 : Fin 1)) (fun a => match a with | ⟨0, _⟩ => rfl | ⟨1, _⟩ => rfl)).trans (col_apply v3 r)
  have hi : iota .tc S64x27136 32 [1] iota_S64x27136_d1_w32 (ix2 r s) = BitVec.ofNat 32 s.val :=
    iota_single_apply .tc S64x27136 32 1 iota_S64x27136_d1_w32 (ix2 r s)
  show (((((IntOp.cmpi .eq (broadcastTo S64x27136 (shapeCast S64x1 v3 shapeCasts_S1x64x1_S64x1) broadcasts_S64x1_S64x27136 (ix2 r s))
      (iota .tc S64x27136 32 [1] iota_S64x27136_d1_w32 (ix2 r s))).setWidth 32).toInt : ℝ) : EReal)) = _
  rw [hb, hi]
  exact onehot_word _ _

/-- The scales of a tile broadcast along the 64 columns, at an entry. -/
theorem scale_apply (v7 : FVec Ideal S1x64x1 .f32) (r q : Fin 64) :
    broadcastTo S64x64 (shapeCast S64x1 v7 shapeCasts_S1x64x1_S64x1) broadcasts_S64x1_S64x64 (ix2 r q) = v7 (ix3 (0 : Fin 1) r (0 : Fin 1)) :=
  (broadcastTo_apply _ _ (ix2 r q) (ix2 r (0 : Fin 1)) (fun a => match a with | ⟨0, _⟩ => rfl | ⟨1, _⟩ => rfl)).trans (col_apply v7 r)

/-! The operand indices of the first product (64 × 27136 by 27136 × 64), coordinate by coordinate. -/
theorem lhsG_0 (j : S64x64.Idx) (k : dot_S64x27136_S27136x64_S64x64_1_0_0_1_n_n.contr.Idx) :
    (dot_S64x27136_S27136x64_S64x64_1_0_0_1_n_n.lhsIdx j k 0 : ℕ) = j 0 := by
  simp [DotDims.lhsIdx, dot_S64x27136_S27136x64_S64x64_1_0_0_1_n_n]; rfl
theorem lhsG_1 (j : S64x64.Idx) (k : dot_S64x27136_S27136x64_S64x64_1_0_0_1_n_n.contr.Idx) :
    (dot_S64x27136_S27136x64_S64x64_1_0_0_1_n_n.lhsIdx j k 1 : ℕ) = k ⟨0, by decide⟩ := by
  simp [DotDims.lhsIdx, dot_S64x27136_S27136x64_S64x64_1_0_0_1_n_n]; rfl
theorem rhsG_0 (j : S64x64.Idx) (k : dot_S64x27136_S27136x64_S64x64_1_0_0_1_n_n.contr.Idx) :
    (dot_S64x27136_S27136x64_S64x64_1_0_0_1_n_n.rhsIdx j k 0 : ℕ) = k ⟨0, by decide⟩ := by
  simp [DotDims.rhsIdx, dot_S64x27136_S27136x64_S64x64_1_0_0_1_n_n]; rfl
theorem rhsG_1 (j : S64x64.Idx) (k : dot_S64x27136_S27136x64_S64x64_1_0_0_1_n_n.contr.Idx) :
    (dot_S64x27136_S27136x64_S64x64_1_0_0_1_n_n.rhsIdx j k 1 : ℕ) = j 1 := by
  simp [DotDims.rhsIdx, dot_S64x27136_S27136x64_S64x64_1_0_0_1_n_n]; rfl

/-- The first product, into the zero accumulator, at an entry: the plain sum over the contracted coordinate. -/
theorem gatherProd_apply (A : FVec Ideal S64x27136 .bf16) (B : FVec Ideal S27136x64 .bf16) (r q : Fin 64) :
    matmul dot_S64x27136_S27136x64_S64x64_1_0_0_1_n_n none A B (constant (F := Ideal) S64x64 .f32 0x00000000#32) (ix2 r q)
      = ∑ s : Fin 27136, A (ix2 r s) * B (ix2 s q) := by
  show FloatOps.matmul dot_S64x27136_S27136x64_S64x64_1_0_0_1_n_n none A B (constant (F := Ideal) S64x64 .f32 0x00000000#32) (ix2 r q) = _
  rw [Ideal.matmul_constant_zero_apply,
    ← Equiv.sum_comp (contrEquiv1 dot_S64x27136_S27136x64_S64x64_1_0_0_1_n_n 27136 rfl rfl).symm]
  refine Finset.sum_congr rfl fun c _ => ?_
  have hc := contrEquiv1_symm_val dot_S64x27136_S27136x64_S64x64_1_0_0_1_n_n 27136 rfl rfl c
  have hl : dot_S64x27136_S27136x64_S64x64_1_0_0_1_n_n.lhsIdx (ix2 r q)
      ((contrEquiv1 dot_S64x27136_S27136x64_S64x64_1_0_0_1_n_n 27136 rfl rfl).symm c) = ix2 r c := by
    funext ax; apply Fin.ext
    match ax with
    | ⟨0, _⟩ => exact lhsG_0 _ _
    | ⟨1, _⟩ => exact (lhsG_1 _ _).trans hc
  have hr : dot_S64x27136_S27136x64_S64x64_1_0_0_1_n_n.rhsIdx (ix2 r q)
      ((contrEquiv1 dot_S64x27136_S27136x64_S64x64_1_0_0_1_n_n 27136 rfl rfl).symm c) = ix2 c q := by
    funext ax; apply Fin.ext
    match ax with
    | ⟨0, _⟩ => exact (rhsG_0 _ _).trans hc
    | ⟨1, _⟩ => exact rhsG_1 _ _
  rw [hl, hr]

/-- The one-hot matrix of a tile's indices against the 42880 row numbers, at an entry. -/
theorem onehot42880_apply (v5 : IVec S1x64x1 32) (r : Fin 64) (p : Fin 42880) :
    (truncf .bf16 (sitofp (F := Ideal) .f32 (extui 32 (cmpi .eq (broadcastTo S64x42880 (shapeCast S64x1 v5 shapeCasts_S1x64x1_S64x1) broadcasts_S64x1_S64x42880)
      (iota .tc S64x42880 32 [1] iota_S64x42880_d1_w32)) natLt_1_32)) bitsLt_bf16_f32 : FVec Ideal S64x42880 .bf16) (ix2 r p)
      = if v5 (ix3 (0 : Fin 1) r (0 : Fin 1)) = BitVec.ofNat 32 p.val then (1 : EReal) else 0 := by
  have hb : broadcastTo S64x42880 (shapeCast S64x1 v5 shapeCasts_S1x64x1_S64x1) broadcasts_S64x1_S64x42880 (ix2 r p)
      = v5 (ix3 (0 : Fin 1) r (0 : Fin 1)) :=
    (broadcastTo_apply _ _ (ix2 r p) (ix2 r (0 : Fin 1)) (fun a => match a with | ⟨0, _⟩ => rfl | ⟨1, _⟩ => rfl)).trans (col_apply v5 r)
  have hi : iota .tc S64x42880 32 [1] iota_S64x42880_d1_w32 (ix2 r p) = BitVec.ofNat 32 p.val :=
    iota_single_apply .tc S64x42880 32 1 iota_S64x42880_d1_w32 (ix2 r p)
  show (((((IntOp.cmpi .eq (broadcastTo S64x42880 (shapeCast S64x1 v5 shapeCasts_S1x64x1_S64x1) broadcasts_S64x1_S64x42880 (ix2 r p))
      (iota .tc S64x42880 32 [1] iota_S64x42880_d1_w32 (ix2 r p))).setWidth 32).toInt : ℝ) : EReal)) = _
  rw [hb, hi]
  exact onehot_word _ _

/-! The operand indices of the second product (64 × 42880 and 64 × 64, both contracted on their first axis),
    coordinate by coordinate. -/
theorem lhsS_0 (j : S42880x64.Idx) (k : dot_S64x42880_S64x64_S42880x64_0_0_1_1_n_n.contr.Idx) :
    (dot_S64x42880_S64x64_S42880x64_0_0_1_1_n_n.lhsIdx j k 0 : ℕ) = k ⟨0, by decide⟩ := by
  simp [DotDims.lhsIdx, dot_S64x42880_S64x64_S42880x64_0_0_1_1_n_n]; rfl
theorem lhsS_1 (j : S42880x64.Idx) (k : dot_S64x42880_S64x64_S42880x64_0_0_1_1_n_n.contr.Idx) :
    (dot_S64x42880_S64x64_S42880x64_0_0_1_1_n_n.lhsIdx j k 1 : ℕ) = j 0 := by
  simp [DotDims.lhsIdx, dot_S64x42880_S64x64_S42880x64_0_0_1_1_n_n]; rfl
theorem rhsS_0 (j : S42880x64.Idx) (k : dot_S64x42880_S64x64_S42880x64_0_0_1_1_n_n.contr.Idx) :
    (dot_S64x42880_S64x64_S42880x64_0_0_1_1_n_n.rhsIdx j k 0 : ℕ) = k ⟨0, by decide⟩ := by
  simp [DotDims.rhsIdx, dot_S64x42880_S64x64_S42880x64_0_0_1_1_n_n]; rfl
theorem rhsS_1 (j : S42880x64.Idx) (k : dot_S64x42880_S64x64_S42880x64_0_0_1_1_n_n.contr.Idx) :
    (dot_S64x42880_S64x64_S42880x64_0_0_1_1_n_n.rhsIdx j k 1 : ℕ) = j 1 := by
  simp [DotDims.rhsIdx, dot_S64x42880_S64x64_S42880x64_0_0_1_1_n_n]; rfl

/-- The second product, into the zero accumulator, at an entry: the plain sum over the tile's 64 rows. -/
theorem scatterProd_apply (A : FVec Ideal S64x42880 .bf16) (B : FVec Ideal S64x64 .bf16) (p : Fin 42880) (q : Fin 64) :
    matmul dot_S64x42880_S64x64_S42880x64_0_0_1_1_n_n none A B (constant (F := Ideal) S42880x64 .f32 0x00000000#32) (ix2 p q)
      = ∑ r : Fin 64, A (ix2 r p) * B (ix2 r q) := by
  show FloatOps.matmul dot_S64x42880_S64x64_S42880x64_0_0_1_1_n_n none A B (constant (F := Ideal) S42880x64 .f32 0x00000000#32) (ix2 p q) = _
  rw [Ideal.matmul_constant_zero_apply,
    ← Equiv.sum_comp (contrEquiv1 dot_S64x42880_S64x64_S42880x64_0_0_1_1_n_n 64 rfl rfl).symm]
  refine Finset.sum_congr rfl fun c _ => ?_
  have hc := contrEquiv1_symm_val dot_S64x42880_S64x64_S42880x64_0_0_1_1_n_n 64 rfl rfl c
  have hl : dot_S64x42880_S64x64_S42880x64_0_0_1_1_n_n.lhsIdx (ix2 p q)
      ((contrEquiv1 dot_S64x42880_S64x64_S42880x64_0_0_1_1_n_n 64 rfl rfl).symm c) = ix2 c p := by
    funext ax; apply Fin.ext
    match ax with
    | ⟨0, _⟩ => exact (lhsS_0 _ _).trans hc
    | ⟨1, _⟩ => exact lhsS_1 _ _
  have hr : dot_S64x42880_S64x64_S42880x64_0_0_1_1_n_n.rhsIdx (ix2 p q)
      ((contrEquiv1 dot_S64x42880_S64x64_S42880x64_0_0_1_1_n_n 64 rfl rfl).symm c) = ix2 c q := by
    funext ax; apply Fin.ext
    match ax with
    | ⟨0, _⟩ => exact (rhsS_0 _ _).trans hc
    | ⟨1, _⟩ => exact rhsS_1 _ _
  rw [hl, hr]

/-- What one grid point adds at an entry: over the tile's 64 edges, the one-hot weight of the edge's destination at
    the entry's row times the gathered table entry (itself the one-hot row of the edge's source against the table's
    column) times the edge's scale. -/
theorem contrib_apply (v3 v5 : IVec S1x64x1 32) (v7 : FVec Ideal S1x64x1 .f32) (v15 : FVec Ideal S27136x64 .bf16)
    (p : Fin 42880) (q : Fin 64) :
    Reg5.contrib (F := Ideal) v3 v5 v7 v15 (ix2 p q)
      = ∑ r : Fin 64, (if v5 (ix3 (0 : Fin 1) r (0 : Fin 1)) = BitVec.ofNat 32 p.val then (1 : EReal) else 0)
          * ((∑ s : Fin 27136, (if v3 (ix3 (0 : Fin 1) r (0 : Fin 1)) = BitVec.ofNat 32 s.val then (1 : EReal) else 0) * v15 (ix2 s q))
              * v7 (ix3 (0 : Fin 1) r (0 : Fin 1))) := by
  unfold Reg5.contrib
  refine (scatterProd_apply _ _ p q).trans (Finset.sum_congr rfl fun r _ => ?_)
  refine congrArg₂ (· * ·) (onehot42880_apply v5 r p) ?_
  refine (truncf_apply (φ := .f32) (ψ := .bf16) _ bitsLt_bf16_f32 (ix2 r q)).trans ?_
  refine (mulf_apply (φ := .f32) _ _ (ix2 r q)).trans ?_
  refine congrArg₂ (· * ·) ?_ (scale_apply v7 r q)
  refine (gatherProd_apply _ _ r q).trans (Finset.sum_congr rfl fun s _ => ?_)
  refine congrArg₂ (· * ·) (onehot27136_apply v3 r s) ?_
  exact congrFun (shapeCast_self v15 shapeCasts_S27136x64_S27136x64) (ix2 s q)

/-! ## The padded arrays read at an index -/

/-- An edge array read at an edge number, with a fixed value beyond the last edge. -/
def rd {α : Type} (z : α) (x : S2000000.Idx → α) (e : ℕ) : α := if h : e < 2000000 then x (ix1 ⟨e, h⟩) else z

theorem rd_fin {α : Type} (z : α) (x : S2000000.Idx → α) (i : Fin 2000000) : rd z x i.val = x (ix1 i) := dif_pos i.isLt

theorem rd_of_le {α : Type} (z : α) (x : S2000000.Idx → α) (e : ℕ) (h : 2000000 ≤ e) : rd z x e = z := dif_neg (by omega)

/-- The padded edge array, split in two halves, at row 64 k + r of half h: edge number h · (64 · 15625) + 64 k + r. -/
theorem halves_read {α : Type} (z : α) (x : S2000000.Idx → α) (v : S_.Idx → α) (h : Fin 2) (k : Fin 15625) (r : Fin 64)
    (hm : 64 * k.val + r.val < 1000000) :
    shapeCast S2x1000000x1 (pad S2000000 ![0] ![0] ![0] x v pads_S2000000_S2000000_000 h_S_) shapeCasts_S2000000_S2x1000000x1
        (ix3 h (⟨64 * k.val + r.val, hm⟩ : Fin 1000000) (0 : Fin 1))
      = rd z x (h.val * (64 * 15625) + 64 * k.val + r.val) := by
  have he : h.val * (64 * 15625) + 64 * k.val + r.val < 2000000 := by have := h.isLt; omega
  refine (shapeCast_apply _ _ (ix3 h (⟨64 * k.val + r.val, hm⟩ : Fin 1000000) (0 : Fin 1))
    (ix1 (⟨h.val * (64 * 15625) + 64 * k.val + r.val, he⟩ : Fin 2000000)) ?_).trans ?_
  · rw [Shape.rowMajor_val_one, Shape.rowMajor_val_three]
    show h.val * (64 * 15625) + 64 * k.val + r.val = (h.val * 1000000 + (64 * k.val + r.val)) * 1 + 0
    omega
  · refine (pad_apply_of_inside _ _ _ x v pads_S2000000_S2000000_000 h_S_
      (ix1 (⟨h.val * (64 * 15625) + 64 * k.val + r.val, he⟩ : Fin 2000000))
      (ix1 (⟨h.val * (64 * 15625) + 64 * k.val + r.val, he⟩ : Fin 2000000)) (fun a => match a with
        | ⟨0, _⟩ => by
          show h.val * (64 * 15625) + 64 * k.val + r.val = 0 + (h.val * (64 * 15625) + 64 * k.val + r.val) * (0 + 1)
          omega)).trans ?_
    exact (rd_fin z x (⟨h.val * (64 * 15625) + 64 * k.val + r.val, he⟩ : Fin 2000000)).symm

/-- The table padded with zero rows, at a row below the true row count: the table's own entry. -/
theorem table_read (tbl : FVec Ideal S27094x64 .f32) (v : FVec Ideal S_ .f32) (s : Fin 27136) (hs : s.val < 27094) (q : Fin 64) :
    (truncf .bf16 (pad S27136x64 ![0, 0] ![42, 0] ![0, 0] tbl v pads_S27094x64_S27136x64_0420_000 h_S_) bitsLt_bf16_f32
        : FVec Ideal S27136x64 .bf16) (ix2 s q) = tbl (ix2 (⟨s.val, hs⟩ : Fin 27094) q) := by
  refine (truncf_apply (φ := .f32) (ψ := .bf16) _ bitsLt_bf16_f32 (ix2 s q)).trans ?_
  exact pad_apply_of_inside _ _ _ tbl v pads_S27094x64_S27136x64_0420_000 h_S_ (ix2 s q) (ix2 (⟨s.val, hs⟩ : Fin 27094) q)
    (fun a => match a with
      | ⟨0, _⟩ => by show s.val = 0 + s.val * (0 + 1); omega
      | ⟨1, _⟩ => by show q.val = 0 + q.val * (0 + 1); omega)

/-- The two halves of the result added and cut to the true row count, at an entry. -/
theorem halves_add_read (X : FVec Ideal S2x42880x64 .f32) (n : Fin 42852) (d : Fin 64) (hn : n.val < 42880) :
    extractStridedSlice S42852x64 ![0, 0]
        (addf (shapeCast S42880x64 (extractStridedSlice S1x42880x64 ![0, 0, 0] X slices_S2x42880x64_S1x42880x64_0_0_0) shapeCasts_S1x42880x64_S42880x64)
          (shapeCast S42880x64 (extractStridedSlice S1x42880x64 ![1, 0, 0] X slices_S2x42880x64_S1x42880x64_1_0_0) shapeCasts_S1x42880x64_S42880x64))
        slices_S42880x64_S42852x64_0_0 (ix2 n d)
      = X (ix3 (0 : Fin 2) (⟨n.val, hn⟩ : Fin 42880) d) + X (ix3 (1 : Fin 2) (⟨n.val, hn⟩ : Fin 42880) d) := by
  refine (extractStridedSlice_apply _ _ slices_S42880x64_S42852x64_0_0 (ix2 n d) (ix2 (⟨n.val, hn⟩ : Fin 42880) d)
    (fun a => match a with
      | ⟨0, _⟩ => by show n.val = 0 + n.val; omega
      | ⟨1, _⟩ => by show d.val = 0 + d.val; omega)).trans ?_
  refine (addf_apply (φ := .f32) _ _ (ix2 (⟨n.val, hn⟩ : Fin 42880) d)).trans ?_
  refine congrArg₂ (· + ·) ?_ ?_
  · refine (shapeCast_apply _ _ (ix2 (⟨n.val, hn⟩ : Fin 42880) d) (ix3 (0 : Fin 1) (⟨n.val, hn⟩ : Fin 42880) d) ?_).trans ?_
    · rw [Shape.rowMajor_val_three, Shape.rowMajor_val_two]
      show (0 * 42880 + n.val) * 64 + d.val = n.val * 64 + d.val
      omega
    · exact extractStridedSlice_apply _ X slices_S2x42880x64_S1x42880x64_0_0_0 (ix3 (0 : Fin 1) (⟨n.val, hn⟩ : Fin 42880) d)
        (ix3 (0 : Fin 2) (⟨n.val, hn⟩ : Fin 42880) d) (fun a => match a with
          | ⟨0, _⟩ => by show 0 = 0 + 0; omega
          | ⟨1, _⟩ => by show n.val = 0 + n.val; omega
          | ⟨2, _⟩ => by show d.val = 0 + d.val; omega)
  · refine (shapeCast_apply _ _ (ix2 (⟨n.val, hn⟩ : Fin 42880) d) (ix3 (0 : Fin 1) (⟨n.val, hn⟩ : Fin 42880) d) ?_).trans ?_
    · rw [Shape.rowMajor_val_three, Shape.rowMajor_val_two]
      show (0 * 42880 + n.val) * 64 + d.val = n.val * 64 + d.val
      omega
    · exact extractStridedSlice_apply _ X slices_S2x42880x64_S1x42880x64_1_0_0 (ix3 (0 : Fin 1) (⟨n.val, hn⟩ : Fin 42880) d)
        (ix3 (1 : Fin 2) (⟨n.val, hn⟩ : Fin 42880) d) (fun a => match a with
          | ⟨0, _⟩ => by show 1 = 1 + 0; omega
          | ⟨1, _⟩ => by show n.val = 0 + n.val; omega
          | ⟨2, _⟩ => by show d.val = 0 + d.val; omega)

/-! ## Words and numbers -/

/-- A 32-bit word equals the word of a small number exactly when its value is that number. -/
theorem word_eq_iff (w : BitVec 32) (n : ℕ) (hn : n < 4294967296) : w = BitVec.ofNat 32 n ↔ w.toNat = n := by
  constructor
  · intro h
    rw [h, BitVec.toNat_ofNat]
    exact Nat.mod_eq_of_lt (by omega)
  · intro h
    apply BitVec.eq_of_toNat_eq
    rw [BitVec.toNat_ofNat, Nat.mod_eq_of_lt (by omega), h]

/-- A word whose signed value lies in [0, N) has its unsigned value below N. -/
theorem toNat_lt_of_toInt (w : BitVec 32) (N : ℕ) (h0 : 0 ≤ w.toInt) (h1 : w.toInt < (N : ℤ)) : w.toNat < N := by
  have hw := w.isLt
  rw [BitVec.toInt_eq_toNat_cond] at h0 h1
  split_ifs at h0 h1 <;> omega

/-- A one-hot row against the row numbers of the padded table picks the row of the word's value. -/
theorem gather_row (T : FVec Ideal S27136x64 .bf16) (w : BitVec 32) (hw : w.toNat < 27136) (q : Fin 64) :
    ∑ s : Fin 27136, (if w = BitVec.ofNat 32 s.val then (1 : EReal) else 0) * T (ix2 s q)
      = T (ix2 (⟨w.toNat, hw⟩ : Fin 27136) q) := by
  refine Eq.trans (Finset.sum_congr rfl fun s _ => ?_)
    (Cert.Spec.onehot_sum_fintype (⟨w.toNat, hw⟩ : Fin 27136) (fun s => T (ix2 s q)))
  refine congrArg (· * T (ix2 s q)) ?_
  refine if_congr ?_ rfl rfl
  rw [word_eq_iff w s.val (by have := s.isLt; omega)]
  exact ⟨fun h => Fin.ext h, fun h => congrArg Fin.val h⟩

/-! ## One edge's term -/

/-- The one-hot weight of edge e's destination at row p; beyond the last edge the index is the all-ones word, which
    is no row number. -/
def ohd (dst : IVec S2000000 32) (p : ℕ) (e : ℕ) : EReal :=
  if rd 4294967295#32 dst e = BitVec.ofNat 32 p then 1 else 0

/-- The row the one-hot product gathers for edge e from the padded table, at column q, times the edge's scale. -/
def gat (T : FVec Ideal S27136x64 .bf16) (src : IVec S2000000 32) (sc : FVec Ideal S2000000 .f32) (q : Fin 64) (e : ℕ) : EReal :=
  (∑ s : Fin 27136, (if rd 4294967295#32 src e = BitVec.ofNat 32 s.val then (1 : EReal) else 0) * T (ix2 s q))
    * rd (α := EReal) 0 sc e

/-- The specification's term of edge e at column q. -/
def spf (tbl : FVec Ideal S27094x64 .f32) (src : IVec S2000000 32) (sc : FVec Ideal S2000000 .f32) (q : Fin 64) (e : ℕ) : EReal :=
  tbl (ix2 (⟨(rd 4294967295#32 src e).toNat % 27094, Nat.mod_lt _ (by omega)⟩ : Fin 27094) q) * rd (α := EReal) 0 sc e

/-- Edge e's destination is row n. -/
def hits (dst : IVec S2000000 32) (n : ℕ) (e : ℕ) : Prop := (rd 4294967295#32 dst e).toNat = n

instance (dst : IVec S2000000 32) (n : ℕ) : DecidablePred (hits dst n) := fun e => inferInstanceAs (Decidable (_ = _))

theorem ohd_of_lt (dst : IVec S2000000 32) (n : ℕ) (hn : n < 4294967295) (e : ℕ) :
    ohd dst n e = if hits dst n e then 1 else 0 :=
  if_congr (word_eq_iff _ n (by omega)) rfl rfl

theorem ohd_of_le (dst : IVec S2000000 32) (n : ℕ) (hn : n < 4294967295) (e : ℕ) (he : 2000000 ≤ e) : ohd dst n e = 0 := by
  unfold ohd
  rw [rd_of_le _ _ _ he]
  refine if_neg fun h => ?_
  have h1 := (word_eq_iff _ n (by omega)).mp h
  have h2 : (4294967295#32 : BitVec 32).toNat = 4294967295 := rfl
  omega

theorem gat_eq_spf (tbl : FVec Ideal S27094x64 .f32) (v : FVec Ideal S_ .f32) (src : IVec S2000000 32) (sc : FVec Ideal S2000000 .f32)
    (hsrc : ∀ i, 0 ≤ (src i).toInt ∧ (src i).toInt < 27094) (q : Fin 64) (e : ℕ) (he : e < 2000000) :
    gat (truncf .bf16 (pad S27136x64 ![0, 0] ![42, 0] ![0, 0] tbl v pads_S27094x64_S27136x64_0420_000 h_S_) bitsLt_bf16_f32) src sc q e
      = spf tbl src sc q e := by
  unfold gat spf
  have hw : rd 4294967295#32 src e = src (ix1 (⟨e, he⟩ : Fin 2000000)) := rd_fin _ src (⟨e, he⟩ : Fin 2000000)
  obtain ⟨h0, h1⟩ := hsrc (ix1 (⟨e, he⟩ : Fin 2000000))
  rw [← hw] at h0 h1
  have hlt : (rd 4294967295#32 src e).toNat < 27094 := toNat_lt_of_toInt _ 27094 h0 h1
  refine congrArg (· * rd (α := EReal) 0 sc e) ?_
  refine (gather_row _ _ (by omega) q).trans ?_
  refine (table_read tbl v _ hlt q).trans ?_
  exact congrArg (fun a => tbl (ix2 a q)) (Fin.ext (Nat.mod_eq_of_lt hlt).symm)

/-! ## The region's output and the whole aggregation -/

theorem out_apply (A0 A1 : IVec S2x1000000x1 32) (A2 : FVec Ideal S2x1000000x1 .f32) (A3 : FVec Ideal S27136x64 .bf16)
    (h : Fin 2) (p : Fin 42880) (q : Fin 64) :
    Reg5.out A0 A1 A2 A3 (ix3 h p q)
      = ∑ k : Fin 15625, Reg5.contrib (F := Ideal) (Reg5.blkI (F := Ideal) A0 h k) (Reg5.blkI (F := Ideal) A1 h k) (Reg5.blkF A2 h k) A3 (ix2 p q) := rfl

theorem blkI_read (z : BitVec 32) (x : IVec S2000000 32) (v : IVec S_ 32) (h : Fin 2) (k : Fin 15625) (r : Fin 64) :
    Reg5.blkI (F := Ideal) (shapeCast S2x1000000x1 (pad S2000000 ![0] ![0] ![0] x v pads_S2000000_S2000000_000 h_S_) shapeCasts_S2000000_S2x1000000x1)
        h k (ix3 (0 : Fin 1) r (0 : Fin 1))
      = rd z x (h.val * (64 * 15625) + 64 * k.val + r.val) :=
  halves_read z x v h k r (by have := k.isLt; have := r.isLt; omega)

theorem blkF_read (z : EReal) (x : FVec Ideal S2000000 .f32) (v : FVec Ideal S_ .f32) (h : Fin 2) (k : Fin 15625) (r : Fin 64) :
    Reg5.blkF (F := Ideal) (shapeCast S2x1000000x1 (pad S2000000 ![0] ![0] ![0] x v pads_S2000000_S2000000_000 h_S_) shapeCasts_S2000000_S2x1000000x1)
        h k (ix3 (0 : Fin 1) r (0 : Fin 1))
      = rd (α := EReal) z x (h.val * (64 * 15625) + 64 * k.val + r.val) :=
  halves_read (α := EReal) z x v h k r (by have := k.isLt; have := r.isLt; omega)

/-- One half of the region's output at an entry: the tiled sum of the edges' terms. -/
theorem half_apply (T : FVec Ideal S27136x64 .bf16) (src dst : IVec S2000000 32) (sc : FVec Ideal S2000000 .f32)
    (vs vd : IVec S_ 32) (vf : FVec Ideal S_ .f32) (h : Fin 2) (p : Fin 42880) (q : Fin 64) :
    Reg5.out
        (shapeCast S2x1000000x1 (pad S2000000 ![0] ![0] ![0] src vs pads_S2000000_S2000000_000 h_S_) shapeCasts_S2000000_S2x1000000x1)
        (shapeCast S2x1000000x1 (pad S2000000 ![0] ![0] ![0] dst vd pads_S2000000_S2000000_000 h_S_) shapeCasts_S2000000_S2x1000000x1)
        (shapeCast S2x1000000x1 (pad S2000000 ![0] ![0] ![0] sc vf pads_S2000000_S2000000_000 h_S_) shapeCasts_S2000000_S2x1000000x1)
        T (ix3 h p q)
      = ∑ k ∈ Finset.range 15625, ∑ r ∈ Finset.range 64,
          ohd dst p.val (h.val * (64 * 15625) + 64 * k + r) * gat T src sc q (h.val * (64 * 15625) + 64 * k + r) := by
  refine (out_apply _ _ _ T h p q).trans ?_
  refine Eq.trans ?_ (Cert.Spec.sum_fin_eq_range 15625 (fun k => ∑ r ∈ Finset.range 64,
    ohd dst p.val (h.val * (64 * 15625) + 64 * k + r) * gat T src sc q (h.val * (64 * 15625) + 64 * k + r)))
  refine Finset.sum_congr rfl fun k _ => ?_
  refine (contrib_apply _ _ _ T p q).trans ?_
  refine Eq.trans ?_ (Cert.Spec.sum_fin_eq_range 64 (fun r =>
    ohd dst p.val (h.val * (64 * 15625) + 64 * k.val + r) * gat T src sc q (h.val * (64 * 15625) + 64 * k.val + r)))
  refine Finset.sum_congr rfl fun r _ => ?_
  rw [blkI_read 4294967295#32 dst vd h k r, blkI_read 4294967295#32 src vs h k r, blkF_read 0 sc vf h k r]
  rfl

theorem sum_two (Φ : ℕ → EReal) : ∑ c ∈ Finset.range 2, Φ c = Φ 0 + Φ 1 := by
  rw [Finset.sum_range_succ, Finset.sum_range_one]

/-- The two halves' tiled sums of the edges' terms add up to the specification's sum over the edges, once the gathered
    term of every true edge is the specification's. -/
theorem tiled_eq_spec (T : FVec Ideal S27136x64 .bf16) (tbl : FVec Ideal S27094x64 .f32) (src dst : IVec S2000000 32)
    (sc : FVec Ideal S2000000 .f32) (n : Fin 42852) (d : Fin 64)
    (hg : ∀ e, e < 2000000 → gat T src sc d e = spf tbl src sc d e) :
    (∑ k ∈ Finset.range 15625, ∑ r ∈ Finset.range 64,
        ohd dst n.val ((0 : Fin 2).val * (64 * 15625) + 64 * k + r) * gat T src sc d ((0 : Fin 2).val * (64 * 15625) + 64 * k + r))
      + (∑ k ∈ Finset.range 15625, ∑ r ∈ Finset.range 64,
        ohd dst n.val ((1 : Fin 2).val * (64 * 15625) + 64 * k + r) * gat T src sc d ((1 : Fin 2).val * (64 * 15625) + 64 * k + r))
      = Cert.AggSpec.aggUS tbl src dst sc (ix2 n d) := by
  have hn' : n.val < 4294967295 := by have := n.isLt; omega
  have h1 : ∀ e, e < 2000000 → ohd dst n.val e = if hits dst n.val e then 1 else 0 := fun e _ => ohd_of_lt dst n.val hn' e
  have h0 : ∀ e, 2000000 ≤ e → ohd dst n.val e = 0 := fun e he => ohd_of_le dst n.val hn' e he
  have key := Cert.Spec.agg_nat 2000000 15625 (by omega) (ohd dst n.val) (gat T src sc d) (spf tbl src sc d) (hits dst n.val) h1 h0 hg
  rw [sum_two] at key
  refine Eq.trans ?_ (key.trans ?_)
  · rfl
  · refine (Cert.Spec.filter_sum_fin 2000000 (hits dst n.val) (spf tbl src sc d)).symm.trans ?_
    rw [Finset.sum_filter]
    refine Finset.sum_congr rfl fun e _ => ?_
    refine if_congr ?_ ?_ rfl
    · show (rd 4294967295#32 dst e.val).toNat = n.val ↔ (dst (ix1 e)).toNat = n.val
      rw [rd_fin]
    · show tbl (ix2 (⟨(rd 4294967295#32 src e.val).toNat % 27094, Nat.mod_lt _ (by omega)⟩ : Fin 27094) d) * rd (α := EReal) 0 sc e.val = _
      rw [rd_fin, rd_fin]

/-- The kernel's result at an entry is the specification's sum over the edges. -/
theorem kernel_sum (tbl : FVec Ideal S27094x64 .f32) (src dst : IVec S2000000 32) (sc : FVec Ideal S2000000 .f32)
    (vs vd : IVec S_ 32) (vf vt : FVec Ideal S_ .f32)
    (hsrc : ∀ i, 0 ≤ (src i).toInt ∧ (src i).toInt < 27094) (n : Fin 42852) (d : Fin 64) :
    extractStridedSlice S42852x64 ![0, 0]
        (addf
          (shapeCast S42880x64 (extractStridedSlice S1x42880x64 ![0, 0, 0]
            (Reg5.out
              (shapeCast S2x1000000x1 (pad S2000000 ![0] ![0] ![0] src vs pads_S2000000_S2000000_000 h_S_) shapeCasts_S2000000_S2x1000000x1)
              (shapeCast S2x1000000x1 (pad S2000000 ![0] ![0] ![0] dst vd pads_S2000000_S2000000_000 h_S_) shapeCasts_S2000000_S2x1000000x1)
              (shapeCast S2x1000000x1 (pad S2000000 ![0] ![0] ![0] sc vf pads_S2000000_S2000000_000 h_S_) shapeCasts_S2000000_S2x1000000x1)
              (truncf .bf16 (pad S27136x64 ![0, 0] ![42, 0] ![0, 0] tbl vt pads_S27094x64_S27136x64_0420_000 h_S_) bitsLt_bf16_f32))
            slices_S2x42880x64_S1x42880x64_0_0_0) shapeCasts_S1x42880x64_S42880x64)
          (shapeCast S42880x64 (extractStridedSlice S1x42880x64 ![1, 0, 0]
            (Reg5.out
              (shapeCast S2x1000000x1 (pad S2000000 ![0] ![0] ![0] src vs pads_S2000000_S2000000_000 h_S_) shapeCasts_S2000000_S2x1000000x1)
              (shapeCast S2x1000000x1 (pad S2000000 ![0] ![0] ![0] dst vd pads_S2000000_S2000000_000 h_S_) shapeCasts_S2000000_S2x1000000x1)
              (shapeCast S2x1000000x1 (pad S2000000 ![0] ![0] ![0] sc vf pads_S2000000_S2000000_000 h_S_) shapeCasts_S2000000_S2x1000000x1)
              (truncf .bf16 (pad S27136x64 ![0, 0] ![42, 0] ![0, 0] tbl vt pads_S27094x64_S27136x64_0420_000 h_S_) bitsLt_bf16_f32))
            slices_S2x42880x64_S1x42880x64_1_0_0) shapeCasts_S1x42880x64_S42880x64))
        slices_S42880x64_S42852x64_0_0 (ix2 n d)
      = Cert.AggSpec.aggUS tbl src dst sc (ix2 n d) := by
  have hn : n.val < 42880 := by have := n.isLt; omega
  refine (halves_add_read _ n d hn).trans ?_
  rw [half_apply _ src dst sc vs vd vf (0 : Fin 2), half_apply _ src dst sc vs vd vf (1 : Fin 2)]
  exact tiled_eq_spec _ tbl src dst sc n d (fun e he => gat_eq_spf tbl vt src sc hsrc d e he)

/-- The kernel side of the aggregation: the padded and halved edge arrays and the padded table run through the region,
    the two halves added and cut to the true rows, is the sum over the edges. -/
theorem aggK5 (tbl : FVec Ideal S27094x64 .f32) (src dst : IVec S2000000 32) (sc : FVec Ideal S2000000 .f32)
    (hsrc : ∀ i, 0 ≤ (src i).toInt ∧ (src i).toInt < 27094) (hdst : ∀ i, 0 ≤ (dst i).toInt ∧ (dst i).toInt < 42852) :
    KHost6.v171 (F := Ideal) (Reg5.out (KHost5.v160 (F := Ideal) src) (KHost5.v162 (F := Ideal) dst)
        (KHost5.v164 (F := Ideal) sc) (KHost5.v158 (F := Ideal) tbl))
      = Cert.AggSpec.aggUS tbl src dst sc := by
  funext i
  obtain ⟨n, d, rfl⟩ : ∃ (n : Fin 42852) (d : Fin 64), i = ix2 n d := ⟨i 0, i 1, eq_ix2 i⟩
  exact kernel_sum tbl src dst sc _ _ _ _ hsrc n d

end Cert.AggK5

end
-- ==== Proof.AggK6.lean ====
/-
  The kernel side of the aggregation from the spot table onto the user rows over the bipartite edges.

  The idealized kernel program pads the edge arrays and the table, runs one region over two halves of the padded edge
  list, tile by tile (64 edges a tile), and adds the two halves. Read index by index at the extended reals this is the
  plain sum over the edges: in a tile the one-hot matrix of the source indices times the table gathers one table row per
  edge (a one-hot row picks exactly one entry of a column; the table's zero padding rows lie beyond every true index),
  the rows are scaled, and the one-hot matrix of the destination indices, contracted over the tile, adds each scaled row
  to its destination row. Re-indexing (half, tile, row) to the edge number turns the tiled sum into the sum over the
  edges whose destination is the row read.
-/
import proofs.«400075_j26585847562450_2_alg».proof.Proof.KHost6
import proofs.«400075_j26585847562450_2_alg».proof.Proof.KHost7
import proofs.«400075_j26585847562450_2_alg».proof.Proof.RegDefs
import proofs.«400075_j26585847562450_2_alg».proof.Proof.Spec
import proofs.«400075_j26585847562450_2_alg».proof.Proof.AggSpec
import Idealize.ShloMosaic.Lib.Pipeline.Value
import Idealize.ShloMosaic.Lib.KernelVsHost
import Idealize.ShloMosaic.Lib.StableHlo.Predicate
import Idealize.ShloMosaic.PureOps.Ideal.Laws
import Idealize.ShloMosaic.Lib.ValueIdx
import Idealize.ShloMosaic.Lib.ValueIdxRank1

noncomputable section

namespace Cert.AggK6

open Cert.KernelIdeal Cert.KernelIdeal.Gen Idealize.ShloMosaic Idealize.ShloMosaic.ValueIdx Idealize.ShloMosaic.StableHlo

/-! ## One tile: the two one-hot products at an entry -/

/-- A compared pair of words, widened and converted, is 1 where the words agree and 0 elsewhere. -/
theorem onehot_word (a b : BitVec 32) :
    (((((IntOp.cmpi .eq a b).setWidth 32).toInt : ℝ) : EReal)) = if a = b then (1 : EReal) else 0 := by
  by_cases h : a = b
  · rw [if_pos h, Predicate.cmpi_eq_iff.mpr h]
    show ((((1 : ℤ) : ℝ) : EReal)) = 1
    simp
  · have h0 : IntOp.cmpi .eq a b = 0#1 := by
      rcases (show ∀ x : BitVec 1, x = 1#1 ∨ x = 0#1 from by decide) (IntOp.cmpi .eq a b) with h1 | h1
      · exact absurd (Predicate.cmpi_eq_iff.mp h1) h
      · exact h1
    rw [if_neg h, h0]
    show ((((0 : ℤ) : ℝ) : EReal)) = 0
    simp

/-- A tile's column block viewed as a 64 × 1 column, at a row. -/
theorem col_apply {α : Type} (v : S1x64x1.Idx → α) (r : Fin 64) :
    shapeCast S64x1 v shapeCasts_S1x64x1_S64x1 (ix2 r (0 : Fin 1)) = v (ix3 (0 : Fin 1) r (0 : Fin 1)) := by
  refine shapeCast_apply _ _ (ix2 r (0 : Fin 1)) (ix3 (0 : Fin 1) r (0 : Fin 1)) ?_
  rw [Shape.rowMajor_val_three, Shape.rowMajor_val_two]
  show (0 * 64 + r.val) * 1 + 0 = r.val * 1 + 0
  omega

/-- The one-hot matrix of a tile's indices against the 42880 row numbers, at an entry. -/
theorem onehot42880_apply (v3 : IVec S1x64x1 32) (r : Fin 64) (s : Fin 42880) :
    (truncf .bf16 (sitofp (F := Ideal) .f32 (extui 32 (cmpi .eq (broadcastTo S64x42880 (shapeCast S64x1 v3 shapeCasts_S1x64x1_S64x1) broadcasts_S64x1_S64x42880)
      (iota .tc S64x42880 32 [1] iota_S64x42880_d1_w32)) natLt_1_32)) bitsLt_bf16_f32 : FVec Ideal S64x42880 .bf16) (ix2 r s)
      = if v3 (ix3 (0 : Fin 1) r (0 : Fin 1)) = BitVec.ofNat 32 s.val then (1 : EReal) else 0 := by
  have hb : broadcastTo S64x42880 (shapeCast S64x1 v3 shapeCasts_S1x64x1_S64x1) broadcasts_S64x1_S64x42880 (ix2 r s)
      = v3 (ix3 (0 : Fin 1) r (0 : Fin 1)) :=
    (broadcastTo_apply _ _ (ix2 r s) (ix2 r (0 : Fin 1)) (fun a => match a with | ⟨0, _⟩ => rfl | ⟨1, _⟩ => rfl)).trans (col_apply v3 r)
  have hi : iota .tc S64x42880 32 [1] iota_S64x42880_d1_w32 (ix2 r s) = BitVec.ofNat 32 s.val :=
    iota_single_apply .tc S64x42880 32 1 iota_S64x42880_d1_w32 (ix2 r s)
  show (((((IntOp.cmpi .eq (broadcastTo S64x42880 (shapeCast S64x1 v3 shapeCasts_S1x64x1_S64x1) broadcasts_S64x1_S64x42880 (ix2 r s))
      (iota .tc S64x42880 32 [1] iota_S64x42880_d1_w32 (ix2 r s))).setWidth 32).toInt : ℝ) : EReal)) = _
  rw [hb, hi]
  exact onehot_word _ _

/-- The scales of a tile broadcast along the 64 columns, at an entry. -/
theorem scale_apply (v7 : FVec Ideal S1x64x1 .f32) (r q : Fin 64) :
    broadcastTo S64x64 (shapeCast S64x1 v7 shapeCasts_S1x64x1_S64x1) broadcasts_S64x1_S64x64 (ix2 r q) = v7 (ix3 (0 : Fin 1) r (0 : Fin 1)) :=
  (broadcastTo_apply _ _ (ix2 r q) (ix2 r (0 : Fin 1)) (fun a => match a with | ⟨0, _⟩ => rfl | ⟨1, _⟩ => rfl)).trans (col_apply v7 r)

/-! The operand indices of the first product (64 × 42880 by 42880 × 64), coordinate by coordinate. -/
theorem lhsG_0 (j : S64x64.Idx) (k : dot_S64x42880_S42880x64_S64x64_1_0_0_1_n_n.contr.Idx) :
    (dot_S64x42880_S42880x64_S64x64_1_0_0_1_n_n.lhsIdx j k 0 : ℕ) = j 0 := by
  simp [DotDims.lhsIdx, dot_S64x42880_S42880x64_S64x64_1_0_0_1_n_n]; rfl
theorem lhsG_1 (j : S64x64.Idx) (k : dot_S64x42880_S42880x64_S64x64_1_0_0_1_n_n.contr.Idx) :
    (dot_S64x42880_S42880x64_S64x64_1_0_0_1_n_n.lhsIdx j k 1 : ℕ) = k ⟨0, by decide⟩ := by
  simp [DotDims.lhsIdx, dot_S64x42880_S42880x64_S64x64_1_0_0_1_n_n]; rfl
theorem rhsG_0 (j : S64x64.Idx) (k : dot_S64x42880_S42880x64_S64x64_1_0_0_1_n_n.contr.Idx) :
    (dot_S64x42880_S42880x64_S64x64_1_0_0_1_n_n.rhsIdx j k 0 : ℕ) = k ⟨0, by decide⟩ := by
  simp [DotDims.rhsIdx, dot_S64x42880_S42880x64_S64x64_1_0_0_1_n_n]; rfl
theorem rhsG_1 (j : S64x64.Idx) (k : dot_S64x42880_S42880x64_S64x64_1_0_0_1_n_n.contr.Idx) :
    (dot_S64x42880_S42880x64_S64x64_1_0_0_1_n_n.rhsIdx j k 1 : ℕ) = j 1 := by
  simp [DotDims.rhsIdx, dot_S64x42880_S42880x64_S64x64_1_0_0_1_n_n]; rfl

/-- The first product, into the zero accumulator, at an entry: the plain sum over the contracted coordinate. -/
theorem gatherProd_apply (A : FVec Ideal S64x42880 .bf16) (B : FVec Ideal S42880x64 .bf16) (r q : Fin 64) :
    matmul dot_S64x42880_S42880x64_S64x64_1_0_0_1_n_n none A B (constant (F := Ideal) S64x64 .f32 0x00000000#32) (ix2 r q)
      = ∑ s : Fin 42880, A (ix2 r s) * B (ix2 s q) := by
  show FloatOps.matmul dot_S64x42880_S42880x64_S64x64_1_0_0_1_n_n none A B (constant (F := Ideal) S64x64 .f32 0x00000000#32) (ix2 r q) = _
  rw [Ideal.matmul_constant_zero_apply,
    ← Equiv.sum_comp (contrEquiv1 dot_S64x42880_S42880x64_S64x64_1_0_0_1_n_n 42880 rfl rfl).symm]
  refine Finset.sum_congr rfl fun c _ => ?_
  have hc := contrEquiv1_symm_val dot_S64x42880_S42880x64_S64x64_1_0_0_1_n_n 42880 rfl rfl c
  have hl : dot_S64x42880_S42880x64_S64x64_1_0_0_1_n_n.lhsIdx (ix2 r q)
      ((contrEquiv1 dot_S64x42880_S42880x64_S64x64_1_0_0_1_n_n 42880 rfl rfl).symm c) = ix2 r c := by
    funext ax; apply Fin.ext
    match ax with
    | ⟨0, _⟩ => exact lhsG_0 _ _
    | ⟨1, _⟩ => exact (lhsG_1 _ _).trans hc
  have hr : dot_S64x42880_S42880x64_S64x64_1_0_0_1_n_n.rhsIdx (ix2 r q)
      ((contrEquiv1 dot_S64x42880_S42880x64_S64x64_1_0_0_1_n_n 42880 rfl rfl).symm c) = ix2 c q := by
    funext ax; apply Fin.ext
    match ax with
    | ⟨0, _⟩ => exact (rhsG_0 _ _).trans hc
    | ⟨1, _⟩ => exact rhsG_1 _ _
  rw [hl, hr]

/-- The one-hot matrix of a tile's indices against the 27136 row numbers, at an entry. -/
theorem onehot27136_apply (v5 : IVec S1x64x1 32) (r : Fin 64) (p : Fin 27136) :
    (truncf .bf16 (sitofp (F := Ideal) .f32 (extui 32 (cmpi .eq (broadcastTo S64x27136 (shapeCast S64x1 v5 shapeCasts_S1x64x1_S64x1) broadcasts_S64x1_S64x27136)
      (iota .tc S64x27136 32 [1] iota_S64x27136_d1_w32)) natLt_1_32)) bitsLt_bf16_f32 : FVec Ideal S64x27136 .bf16) (ix2 r p)
      = if v5 (ix3 (0 : Fin 1) r (0 : Fin 1)) = BitVec.ofNat 32 p.val then (1 : EReal) else 0 := by
  have hb : broadcastTo S64x27136 (shapeCast S64x1 v5 shapeCasts_S1x64x1_S64x1) broadcasts_S64x1_S64x27136 (ix2 r p)
      = v5 (ix3 (0 : Fin 1) r (0 : Fin 1)) :=
    (broadcastTo_apply _ _ (ix2 r p) (ix2 r (0 : Fin 1)) (fun a => match a with | ⟨0, _⟩ => rfl | ⟨1, _⟩ => rfl)).trans (col_apply v5 r)
  have hi : iota .tc S64x27136 32 [1] iota_S64x27136_d1_w32 (ix2 r p) = BitVec.ofNat 32 p.val :=
    iota_single_apply .tc S64x27136 32 1 iota_S64x27136_d1_w32 (ix2 r p)
  show (((((IntOp.cmpi .eq (broadcastTo S64x27136 (shapeCast S64x1 v5 shapeCasts_S1x64x1_S64x1) broadcasts_S64x1_S64x27136 (ix2 r p))
      (iota .tc S64x27136 32 [1] iota_S64x27136_d1_w32 (ix2 r p))).setWidth 32).toInt : ℝ) : EReal)) = _
  rw [hb, hi]
  exact onehot_word _ _

/-! The operand indices of the second product (64 × 27136 and 64 × 64, both contracted on their first axis),
    coordinate by coordinate. -/
theorem lhsS_0 (j : S27136x64.Idx) (k : dot_S64x27136_S64x64_S27136x64_0_0_1_1_n_n.contr.Idx) :
    (dot_S64x27136_S64x64_S27136x64_0_0_1_1_n_n.lhsIdx j k 0 : ℕ) = k ⟨0, by decide⟩ := by
  simp [DotDims.lhsIdx, dot_S64x27136_S64x64_S27136x64_0_0_1_1_n_n]; rfl
theorem lhsS_1 (j : S27136x64.Idx) (k : dot_S64x27136_S64x64_S27136x64_0_0_1_1_n_n.contr.Idx) :
    (dot_S64x27136_S64x64_S27136x64_0_0_1_1_n_n.lhsIdx j k 1 : ℕ) = j 0 := by
  simp [DotDims.lhsIdx, dot_S64x27136_S64x64_S27136x64_0_0_1_1_n_n]; rfl
theorem rhsS_0 (j : S27136x64.Idx) (k : dot_S64x27136_S64x64_S27136x64_0_0_1_1_n_n.contr.Idx) :
    (dot_S64x27136_S64x64_S27136x64_0_0_1_1_n_n.rhsIdx j k 0 : ℕ) = k ⟨0, by decide⟩ := by
  simp [DotDims.rhsIdx, dot_S64x27136_S64x64_S27136x64_0_0_1_1_n_n]; rfl
theorem rhsS_1 (j : S27136x64.Idx) (k : dot_S64x27136_S64x64_S27136x64_0_0_1_1_n_n.contr.Idx) :
    (dot_S64x27136_S64x64_S27136x64_0_0_1_1_n_n.rhsIdx j k 1 : ℕ) = j 1 := by
  simp [DotDims.rhsIdx, dot_S64x27136_S64x64_S27136x64_0_0_1_1_n_n]; rfl

/-- The second product, into the zero accumulator, at an entry: the plain sum over the tile's 64 rows. -/
theorem scatterProd_apply (A : FVec Ideal S64x27136 .bf16) (B : FVec Ideal S64x64 .bf16) (p : Fin 27136) (q : Fin 64) :
    matmul dot_S64x27136_S64x64_S27136x64_0_0_1_1_n_n none A B (constant (F := Ideal) S27136x64 .f32 0x00000000#32) (ix2 p q)
      = ∑ r : Fin 64, A (ix2 r p) * B (ix2 r q) := by
  show FloatOps.matmul dot_S64x27136_S64x64_S27136x64_0_0_1_1_n_n none A B (constant (F := Ideal) S27136x64 .f32 0x00000000#32) (ix2 p q) = _
  rw [Ideal.matmul_constant_zero_apply,
    ← Equiv.sum_comp (contrEquiv1 dot_S64x27136_S64x64_S27136x64_0_0_1_1_n_n 64 rfl rfl).symm]
  refine Finset.sum_congr rfl fun c _ => ?_
  have hc := contrEquiv1_symm_val dot_S64x27136_S64x64_S27136x64_0_0_1_1_n_n 64 rfl rfl c
  have hl : dot_S64x27136_S64x64_S27136x64_0_0_1_1_n_n.lhsIdx (ix2 p q)
      ((contrEquiv1 dot_S64x27136_S64x64_S27136x64_0_0_1_1_n_n 64 rfl rfl).symm c) = ix2 c p := by
    funext ax; apply Fin.ext
    match ax with
    | ⟨0, _⟩ => exact (lhsS_0 _ _).trans hc
    | ⟨1, _⟩ => exact lhsS_1 _ _
  have hr : dot_S64x27136_S64x64_S27136x64_0_0_1_1_n_n.rhsIdx (ix2 p q)
      ((contrEquiv1 dot_S64x27136_S64x64_S27136x64_0_0_1_1_n_n 64 rfl rfl).symm c) = ix2 c q := by
    funext ax; apply Fin.ext
    match ax with
    | ⟨0, _⟩ => exact (rhsS_0 _ _).trans hc
    | ⟨1, _⟩ => exact rhsS_1 _ _
  rw [hl, hr]

/-- What one grid point adds at an entry: over the tile's 64 edges, the one-hot weight of the edge's destination at
    the entry's row times the gathered table entry (itself the one-hot row of the edge's source against the table's
    column) times the edge's scale. -/
theorem contrib_apply (v3 v5 : IVec S1x64x1 32) (v7 : FVec Ideal S1x64x1 .f32) (v15 : FVec Ideal S42880x64 .bf16)
    (p : Fin 27136) (q : Fin 64) :
    Reg6.contrib (F := Ideal) v3 v5 v7 v15 (ix2 p q)
      = ∑ r : Fin 64, (if v5 (ix3 (0 : Fin 1) r (0 : Fin 1)) = BitVec.ofNat 32 p.val then (1 : EReal) else 0)
          * ((∑ s : Fin 42880, (if v3 (ix3 (0 : Fin 1) r (0 : Fin 1)) = BitVec.ofNat 32 s.val then (1 : EReal) else 0) * v15 (ix2 s q))
              * v7 (ix3 (0 : Fin 1) r (0 : Fin 1))) := by
  unfold Reg6.contrib
  refine (scatterProd_apply _ _ p q).trans (Finset.sum_congr rfl fun r _ => ?_)
  refine congrArg₂ (· * ·) (onehot27136_apply v5 r p) ?_
  refine (truncf_apply (φ := .f32) (ψ := .bf16) _ bitsLt_bf16_f32 (ix2 r q)).trans ?_
  refine (mulf_apply (φ := .f32) _ _ (ix2 r q)).trans ?_
  refine congrArg₂ (· * ·) ?_ (scale_apply v7 r q)
  refine (gatherProd_apply _ _ r q).trans (Finset.sum_congr rfl fun s _ => ?_)
  refine congrArg₂ (· * ·) (onehot42880_apply v3 r s) ?_
  exact congrFun (shapeCast_self v15 shapeCasts_S42880x64_S42880x64) (ix2 s q)

/-! ## The padded arrays read at an index -/

/-- An edge array read at an edge number, with a fixed value beyond the last edge. -/
def rd {α : Type} (z : α) (x : S2000000.Idx → α) (e : ℕ) : α := if h : e < 2000000 then x (ix1 ⟨e, h⟩) else z

theorem rd_fin {α : Type} (z : α) (x : S2000000.Idx → α) (i : Fin 2000000) : rd z x i.val = x (ix1 i) := dif_pos i.isLt

theorem rd_of_le {α : Type} (z : α) (x : S2000000.Idx → α) (e : ℕ) (h : 2000000 ≤ e) : rd z x e = z := dif_neg (by omega)

/-- The padded edge array, split in two halves, at row 64 k + r of half h: edge number h · (64 · 15625) + 64 k + r. -/
theorem halves_read {α : Type} (z : α) (x : S2000000.Idx → α) (v : S_.Idx → α) (h : Fin 2) (k : Fin 15625) (r : Fin 64)
    (hm : 64 * k.val + r.val < 1000000) :
    shapeCast S2x1000000x1 (pad S2000000 ![0] ![0] ![0] x v pads_S2000000_S2000000_000 h_S_) shapeCasts_S2000000_S2x1000000x1
        (ix3 h (⟨64 * k.val + r.val, hm⟩ : Fin 1000000) (0 : Fin 1))
      = rd z x (h.val * (64 * 15625) + 64 * k.val + r.val) := by
  have he : h.val * (64 * 15625) + 64 * k.val + r.val < 2000000 := by have := h.isLt; omega
  refine (shapeCast_apply _ _ (ix3 h (⟨64 * k.val + r.val, hm⟩ : Fin 1000000) (0 : Fin 1))
    (ix1 (⟨h.val * (64 * 15625) + 64 * k.val + r.val, he⟩ : Fin 2000000)) ?_).trans ?_
  · rw [Shape.rowMajor_val_one, Shape.rowMajor_val_three]
    show h.val * (64 * 15625) + 64 * k.val + r.val = (h.val * 1000000 + (64 * k.val + r.val)) * 1 + 0
    omega
  · refine (pad_apply_of_inside _ _ _ x v pads_S2000000_S2000000_000 h_S_
      (ix1 (⟨h.val * (64 * 15625) + 64 * k.val + r.val, he⟩ : Fin 2000000))
      (ix1 (⟨h.val * (64 * 15625) + 64 * k.val + r.val, he⟩ : Fin 2000000)) (fun a => match a with
        | ⟨0, _⟩ => by
          show h.val * (64 * 15625) + 64 * k.val + r.val = 0 + (h.val * (64 * 15625) + 64 * k.val + r.val) * (0 + 1)
          omega)).trans ?_
    exact (rd_fin z x (⟨h.val * (64 * 15625) + 64 * k.val + r.val, he⟩ : Fin 2000000)).symm

/-- The table padded with zero rows, at a row below the true row count: the table's own entry. -/
theorem table_read (tbl : FVec Ideal S42852x64 .f32) (v : FVec Ideal S_ .f32) (s : Fin 42880) (hs : s.val < 42852) (q : Fin 64) :
    (truncf .bf16 (pad S42880x64 ![0, 0] ![28, 0] ![0, 0] tbl v pads_S42852x64_S42880x64_0280_000 h_S_) bitsLt_bf16_f32
        : FVec Ideal S42880x64 .bf16) (ix2 s q) = tbl (ix2 (⟨s.val, hs⟩ : Fin 42852) q) := by
  refine (truncf_apply (φ := .f32) (ψ := .bf16) _ bitsLt_bf16_f32 (ix2 s q)).trans ?_
  exact pad_apply_of_inside _ _ _ tbl v pads_S42852x64_S42880x64_0280_000 h_S_ (ix2 s q) (ix2 (⟨s.val, hs⟩ : Fin 42852) q)
    (fun a => match a with
      | ⟨0, _⟩ => by show s.val = 0 + s.val * (0 + 1); omega
      | ⟨1, _⟩ => by show q.val = 0 + q.val * (0 + 1); omega)

/-- The two halves of the result added and cut to the true row count, at an entry. -/
theorem halves_add_read (X : FVec Ideal S2x27136x64 .f32) (n : Fin 27094) (d : Fin 64) (hn : n.val < 27136) :
    extractStridedSlice S27094x64 ![0, 0]
        (addf (shapeCast S27136x64 (extractStridedSlice S1x27136x64 ![0, 0, 0] X slices_S2x27136x64_S1x27136x64_0_0_0) shapeCasts_S1x27136x64_S27136x64)
          (shapeCast S27136x64 (extractStridedSlice S1x27136x64 ![1, 0, 0] X slices_S2x27136x64_S1x27136x64_1_0_0) shapeCasts_S1x27136x64_S27136x64))
        slices_S27136x64_S27094x64_0_0 (ix2 n d)
      = X (ix3 (0 : Fin 2) (⟨n.val, hn⟩ : Fin 27136) d) + X (ix3 (1 : Fin 2) (⟨n.val, hn⟩ : Fin 27136) d) := by
  refine (extractStridedSlice_apply _ _ slices_S27136x64_S27094x64_0_0 (ix2 n d) (ix2 (⟨n.val, hn⟩ : Fin 27136) d)
    (fun a => match a with
      | ⟨0, _⟩ => by show n.val = 0 + n.val; omega
      | ⟨1, _⟩ => by show d.val = 0 + d.val; omega)).trans ?_
  refine (addf_apply (φ := .f32) _ _ (ix2 (⟨n.val, hn⟩ : Fin 27136) d)).trans ?_
  refine congrArg₂ (· + ·) ?_ ?_
  · refine (shapeCast_apply _ _ (ix2 (⟨n.val, hn⟩ : Fin 27136) d) (ix3 (0 : Fin 1) (⟨n.val, hn⟩ : Fin 27136) d) ?_).trans ?_
    · rw [Shape.rowMajor_val_three, Shape.rowMajor_val_two]
      show (0 * 27136 + n.val) * 64 + d.val = n.val * 64 + d.val
      omega
    · exact extractStridedSlice_apply _ X slices_S2x27136x64_S1x27136x64_0_0_0 (ix3 (0 : Fin 1) (⟨n.val, hn⟩ : Fin 27136) d)
        (ix3 (0 : Fin 2) (⟨n.val, hn⟩ : Fin 27136) d) (fun a => match a with
          | ⟨0, _⟩ => by show 0 = 0 + 0; omega
          | ⟨1, _⟩ => by show n.val = 0 + n.val; omega
          | ⟨2, _⟩ => by show d.val = 0 + d.val; omega)
  · refine (shapeCast_apply _ _ (ix2 (⟨n.val, hn⟩ : Fin 27136) d) (ix3 (0 : Fin 1) (⟨n.val, hn⟩ : Fin 27136) d) ?_).trans ?_
    · rw [Shape.rowMajor_val_three, Shape.rowMajor_val_two]
      show (0 * 27136 + n.val) * 64 + d.val = n.val * 64 + d.val
      omega
    · exact extractStridedSlice_apply _ X slices_S2x27136x64_S1x27136x64_1_0_0 (ix3 (0 : Fin 1) (⟨n.val, hn⟩ : Fin 27136) d)
        (ix3 (1 : Fin 2) (⟨n.val, hn⟩ : Fin 27136) d) (fun a => match a with
          | ⟨0, _⟩ => by show 1 = 1 + 0; omega
          | ⟨1, _⟩ => by show n.val = 0 + n.val; omega
          | ⟨2, _⟩ => by show d.val = 0 + d.val; omega)

/-! ## Words and numbers -/

/-- A 32-bit word equals the word of a small number exactly when its value is that number. -/
theorem word_eq_iff (w : BitVec 32) (n : ℕ) (hn : n < 4294967296) : w = BitVec.ofNat 32 n ↔ w.toNat = n := by
  constructor
  · intro h
    rw [h, BitVec.toNat_ofNat]
    exact Nat.mod_eq_of_lt (by omega)
  · intro h
    apply BitVec.eq_of_toNat_eq
    rw [BitVec.toNat_ofNat, Nat.mod_eq_of_lt (by omega), h]

/-- A word whose signed value lies in [0, N) has its unsigned value below N. -/
theorem toNat_lt_of_toInt (w : BitVec 32) (N : ℕ) (h0 : 0 ≤ w.toInt) (h1 : w.toInt < (N : ℤ)) : w.toNat < N := by
  have hw := w.isLt
  rw [BitVec.toInt_eq_toNat_cond] at h0 h1
  split_ifs at h0 h1 <;> omega

/-- A one-hot row against the row numbers of the padded table picks the row of the word's value. -/
theorem gather_row (T : FVec Ideal S42880x64 .bf16) (w : BitVec 32) (hw : w.toNat < 42880) (q : Fin 64) :
    ∑ s : Fin 42880, (if w = BitVec.ofNat 32 s.val then (1 : EReal) else 0) * T (ix2 s q)
      = T (ix2 (⟨w.toNat, hw⟩ : Fin 42880) q) := by
  refine Eq.trans (Finset.sum_congr rfl fun s _ => ?_)
    (Cert.Spec.onehot_sum_fintype (⟨w.toNat, hw⟩ : Fin 42880) (fun s => T (ix2 s q)))
  refine congrArg (· * T (ix2 s q)) ?_
  refine if_congr ?_ rfl rfl
  rw [word_eq_iff w s.val (by have := s.isLt; omega)]
  exact ⟨fun h => Fin.ext h, fun h => congrArg Fin.val h⟩

/-! ## One edge's term -/

/-- The one-hot weight of edge e's destination at row p; beyond the last edge the index is the all-ones word, which
    is no row number. -/
def ohd (dst : IVec S2000000 32) (p : ℕ) (e : ℕ) : EReal :=
  if rd 4294967295#32 dst e = BitVec.ofNat 32 p then 1 else 0

/-- The row the one-hot product gathers for edge e from the padded table, at column q, times the edge's scale. -/
def gat (T : FVec Ideal S42880x64 .bf16) (src : IVec S2000000 32) (sc : FVec Ideal S2000000 .f32) (q : Fin 64) (e : ℕ) : EReal :=
  (∑ s : Fin 42880, (if rd 4294967295#32 src e = BitVec.ofNat 32 s.val then (1 : EReal) else 0) * T (ix2 s q))
    * rd (α := EReal) 0 sc e

/-- The specification's term of edge e at column q. -/
def spf (tbl : FVec Ideal S42852x64 .f32) (src : IVec S2000000 32) (sc : FVec Ideal S2000000 .f32) (q : Fin 64) (e : ℕ) : EReal :=
  tbl (ix2 (⟨(rd 4294967295#32 src e).toNat % 42852, Nat.mod_lt _ (by omega)⟩ : Fin 42852) q) * rd (α := EReal) 0 sc e

/-- Edge e's destination is row n. -/
def hits (dst : IVec S2000000 32) (n : ℕ) (e : ℕ) : Prop := (rd 4294967295#32 dst e).toNat = n

instance (dst : IVec S2000000 32) (n : ℕ) : DecidablePred (hits dst n) := fun e => inferInstanceAs (Decidable (_ = _))

theorem ohd_of_lt (dst : IVec S2000000 32) (n : ℕ) (hn : n < 4294967295) (e : ℕ) :
    ohd dst n e = if hits dst n e then 1 else 0 :=
  if_congr (word_eq_iff _ n (by omega)) rfl rfl

theorem ohd_of_le (dst : IVec S2000000 32) (n : ℕ) (hn : n < 4294967295) (e : ℕ) (he : 2000000 ≤ e) : ohd dst n e = 0 := by
  unfold ohd
  rw [rd_of_le _ _ _ he]
  refine if_neg fun h => ?_
  have h1 := (word_eq_iff _ n (by omega)).mp h
  have h2 : (4294967295#32 : BitVec 32).toNat = 4294967295 := rfl
  omega

theorem gat_eq_spf (tbl : FVec Ideal S42852x64 .f32) (v : FVec Ideal S_ .f32) (src : IVec S2000000 32) (sc : FVec Ideal S2000000 .f32)
    (hsrc : ∀ i, 0 ≤ (src i).toInt ∧ (src i).toInt < 42852) (q : Fin 64) (e : ℕ) (he : e < 2000000) :
    gat (truncf .bf16 (pad S42880x64 ![0, 0] ![28, 0] ![0, 0] tbl v pads_S42852x64_S42880x64_0280_000 h_S_) bitsLt_bf16_f32) src sc q e
      = spf tbl src sc q e := by
  unfold gat spf
  have hw : rd 4294967295#32 src e = src (ix1 (⟨e, he⟩ : Fin 2000000)) := rd_fin _ src (⟨e, he⟩ : Fin 2000000)
  obtain ⟨h0, h1⟩ := hsrc (ix1 (⟨e, he⟩ : Fin 2000000))
  rw [← hw] at h0 h1
  have hlt : (rd 4294967295#32 src e).toNat < 42852 := toNat_lt_of_toInt _ 42852 h0 h1
  refine congrArg (· * rd (α := EReal) 0 sc e) ?_
  refine (gather_row _ _ (by omega) q).trans ?_
  refine (table_read tbl v _ hlt q).trans ?_
  exact congrArg (fun a => tbl (ix2 a q)) (Fin.ext (Nat.mod_eq_of_lt hlt).symm)

/-! ## The region's output and the whole aggregation -/

theorem out_apply (A0 A1 : IVec S2x1000000x1 32) (A2 : FVec Ideal S2x1000000x1 .f32) (A3 : FVec Ideal S42880x64 .bf16)
    (h : Fin 2) (p : Fin 27136) (q : Fin 64) :
    Reg6.out A0 A1 A2 A3 (ix3 h p q)
      = ∑ k : Fin 15625, Reg6.contrib (F := Ideal) (Reg6.blkI (F := Ideal) A0 h k) (Reg6.blkI (F := Ideal) A1 h k) (Reg6.blkF A2 h k) A3 (ix2 p q) := rfl

theorem blkI_read (z : BitVec 32) (x : IVec S2000000 32) (v : IVec S_ 32) (h : Fin 2) (k : Fin 15625) (r : Fin 64) :
    Reg6.blkI (F := Ideal) (shapeCast S2x1000000x1 (pad S2000000 ![0] ![0] ![0] x v pads_S2000000_S2000000_000 h_S_) shapeCasts_S2000000_S2x1000000x1)
        h k (ix3 (0 : Fin 1) r (0 : Fin 1))
      = rd z x (h.val * (64 * 15625) + 64 * k.val + r.val) :=
  halves_read z x v h k r (by have := k.isLt; have := r.isLt; omega)

theorem blkF_read (z : EReal) (x : FVec Ideal S2000000 .f32) (v : FVec Ideal S_ .f32) (h : Fin 2) (k : Fin 15625) (r : Fin 64) :
    Reg6.blkF (F := Ideal) (shapeCast S2x1000000x1 (pad S2000000 ![0] ![0] ![0] x v pads_S2000000_S2000000_000 h_S_) shapeCasts_S2000000_S2x1000000x1)
        h k (ix3 (0 : Fin 1) r (0 : Fin 1))
      = rd (α := EReal) z x (h.val * (64 * 15625) + 64 * k.val + r.val) :=
  halves_read (α := EReal) z x v h k r (by have := k.isLt; have := r.isLt; omega)

/-- One half of the region's output at an entry: the tiled sum of the edges' terms. -/
theorem half_apply (T : FVec Ideal S42880x64 .bf16) (src dst : IVec S2000000 32) (sc : FVec Ideal S2000000 .f32)
    (vs vd : IVec S_ 32) (vf : FVec Ideal S_ .f32) (h : Fin 2) (p : Fin 27136) (q : Fin 64) :
    Reg6.out
        (shapeCast S2x1000000x1 (pad S2000000 ![0] ![0] ![0] src vs pads_S2000000_S2000000_000 h_S_) shapeCasts_S2000000_S2x1000000x1)
        (shapeCast S2x1000000x1 (pad S2000000 ![0] ![0] ![0] dst vd pads_S2000000_S2000000_000 h_S_) shapeCasts_S2000000_S2x1000000x1)
        (shapeCast S2x1000000x1 (pad S2000000 ![0] ![0] ![0] sc vf pads_S2000000_S2000000_000 h_S_) shapeCasts_S2000000_S2x1000000x1)
        T (ix3 h p q)
      = ∑ k ∈ Finset.range 15625, ∑ r ∈ Finset.range 64,
          ohd dst p.val (h.val * (64 * 15625) + 64 * k + r) * gat T src sc q (h.val * (64 * 15625) + 64 * k + r) := by
  refine (out_apply _ _ _ T h p q).trans ?_
  refine Eq.trans ?_ (Cert.Spec.sum_fin_eq_range 15625 (fun k => ∑ r ∈ Finset.range 64,
    ohd dst p.val (h.val * (64 * 15625) + 64 * k + r) * gat T src sc q (h.val * (64 * 15625) + 64 * k + r)))
  refine Finset.sum_congr rfl fun k _ => ?_
  refine (contrib_apply _ _ _ T p q).trans ?_
  refine Eq.trans ?_ (Cert.Spec.sum_fin_eq_range 64 (fun r =>
    ohd dst p.val (h.val * (64 * 15625) + 64 * k.val + r) * gat T src sc q (h.val * (64 * 15625) + 64 * k.val + r)))
  refine Finset.sum_congr rfl fun r _ => ?_
  rw [blkI_read 4294967295#32 dst vd h k r, blkI_read 4294967295#32 src vs h k r, blkF_read 0 sc vf h k r]
  rfl

theorem sum_two (Φ : ℕ → EReal) : ∑ c ∈ Finset.range 2, Φ c = Φ 0 + Φ 1 := by
  rw [Finset.sum_range_succ, Finset.sum_range_one]

/-- The two halves' tiled sums of the edges' terms add up to the specification's sum over the edges, once the gathered
    term of every true edge is the specification's. -/
theorem tiled_eq_spec (T : FVec Ideal S42880x64 .bf16) (tbl : FVec Ideal S42852x64 .f32) (src dst : IVec S2000000 32)
    (sc : FVec Ideal S2000000 .f32) (n : Fin 27094) (d : Fin 64)
    (hg : ∀ e, e < 2000000 → gat T src sc d e = spf tbl src sc d e) :
    (∑ k ∈ Finset.range 15625, ∑ r ∈ Finset.range 64,
        ohd dst n.val ((0 : Fin 2).val * (64 * 15625) + 64 * k + r) * gat T src sc d ((0 : Fin 2).val * (64 * 15625) + 64 * k + r))
      + (∑ k ∈ Finset.range 15625, ∑ r ∈ Finset.range 64,
        ohd dst n.val ((1 : Fin 2).val * (64 * 15625) + 64 * k + r) * gat T src sc d ((1 : Fin 2).val * (64 * 15625) + 64 * k + r))
      = Cert.AggSpec.aggSU tbl src dst sc (ix2 n d) := by
  have hn' : n.val < 4294967295 := by have := n.isLt; omega
  have h1 : ∀ e, e < 2000000 → ohd dst n.val e = if hits dst n.val e then 1 else 0 := fun e _ => ohd_of_lt dst n.val hn' e
  have h0 : ∀ e, 2000000 ≤ e → ohd dst n.val e = 0 := fun e he => ohd_of_le dst n.val hn' e he
  have key := Cert.Spec.agg_nat 2000000 15625 (by omega) (ohd dst n.val) (gat T src sc d) (spf tbl src sc d) (hits dst n.val) h1 h0 hg
  rw [sum_two] at key
  refine Eq.trans ?_ (key.trans ?_)
  · rfl
  · refine (Cert.Spec.filter_sum_fin 2000000 (hits dst n.val) (spf tbl src sc d)).symm.trans ?_
    rw [Finset.sum_filter]
    refine Finset.sum_congr rfl fun e _ => ?_
    refine if_congr ?_ ?_ rfl
    · show (rd 4294967295#32 dst e.val).toNat = n.val ↔ (dst (ix1 e)).toNat = n.val
      rw [rd_fin]
    · show tbl (ix2 (⟨(rd 4294967295#32 src e.val).toNat % 42852, Nat.mod_lt _ (by omega)⟩ : Fin 42852) d) * rd (α := EReal) 0 sc e.val = _
      rw [rd_fin, rd_fin]

/-- The kernel's result at an entry is the specification's sum over the edges. -/
theorem kernel_sum (tbl : FVec Ideal S42852x64 .f32) (src dst : IVec S2000000 32) (sc : FVec Ideal S2000000 .f32)
    (vs vd : IVec S_ 32) (vf vt : FVec Ideal S_ .f32)
    (hsrc : ∀ i, 0 ≤ (src i).toInt ∧ (src i).toInt < 42852) (n : Fin 27094) (d : Fin 64) :
    extractStridedSlice S27094x64 ![0, 0]
        (addf
          (shapeCast S27136x64 (extractStridedSlice S1x27136x64 ![0, 0, 0]
            (Reg6.out
              (shapeCast S2x1000000x1 (pad S2000000 ![0] ![0] ![0] src vs pads_S2000000_S2000000_000 h_S_) shapeCasts_S2000000_S2x1000000x1)
              (shapeCast S2x1000000x1 (pad S2000000 ![0] ![0] ![0] dst vd pads_S2000000_S2000000_000 h_S_) shapeCasts_S2000000_S2x1000000x1)
              (shapeCast S2x1000000x1 (pad S2000000 ![0] ![0] ![0] sc vf pads_S2000000_S2000000_000 h_S_) shapeCasts_S2000000_S2x1000000x1)
              (truncf .bf16 (pad S42880x64 ![0, 0] ![28, 0] ![0, 0] tbl vt pads_S42852x64_S42880x64_0280_000 h_S_) bitsLt_bf16_f32))
            slices_S2x27136x64_S1x27136x64_0_0_0) shapeCasts_S1x27136x64_S27136x64)
          (shapeCast S27136x64 (extractStridedSlice S1x27136x64 ![1, 0, 0]
            (Reg6.out
              (shapeCast S2x1000000x1 (pad S2000000 ![0] ![0] ![0] src vs pads_S2000000_S2000000_000 h_S_) shapeCasts_S2000000_S2x1000000x1)
              (shapeCast S2x1000000x1 (pad S2000000 ![0] ![0] ![0] dst vd pads_S2000000_S2000000_000 h_S_) shapeCasts_S2000000_S2x1000000x1)
              (shapeCast S2x1000000x1 (pad S2000000 ![0] ![0] ![0] sc vf pads_S2000000_S2000000_000 h_S_) shapeCasts_S2000000_S2x1000000x1)
              (truncf .bf16 (pad S42880x64 ![0, 0] ![28, 0] ![0, 0] tbl vt pads_S42852x64_S42880x64_0280_000 h_S_) bitsLt_bf16_f32))
            slices_S2x27136x64_S1x27136x64_1_0_0) shapeCasts_S1x27136x64_S27136x64))
        slices_S27136x64_S27094x64_0_0 (ix2 n d)
      = Cert.AggSpec.aggSU tbl src dst sc (ix2 n d) := by
  have hn : n.val < 27136 := by have := n.isLt; omega
  refine (halves_add_read _ n d hn).trans ?_
  rw [half_apply _ src dst sc vs vd vf (0 : Fin 2), half_apply _ src dst sc vs vd vf (1 : Fin 2)]
  exact tiled_eq_spec _ tbl src dst sc n d (fun e he => gat_eq_spf tbl vt src sc hsrc d e he)

/-- The kernel side of the aggregation: the padded and halved edge arrays and the padded table run through the region,
    the two halves added and cut to the true rows, is the sum over the edges. -/
theorem aggK6 (tbl : FVec Ideal S42852x64 .f32) (src dst : IVec S2000000 32) (sc : FVec Ideal S2000000 .f32)
    (hsrc : ∀ i, 0 ≤ (src i).toInt ∧ (src i).toInt < 42852) (hdst : ∀ i, 0 ≤ (dst i).toInt ∧ (dst i).toInt < 27094) :
    KHost7.v188 (F := Ideal) (Reg6.out (KHost6.v177 (F := Ideal) src) (KHost6.v179 (F := Ideal) dst)
        (KHost6.v181 (F := Ideal) sc) (KHost6.v175 (F := Ideal) tbl))
      = Cert.AggSpec.aggSU tbl src dst sc := by
  funext i
  obtain ⟨n, d, rfl⟩ : ∃ (n : Fin 27094) (d : Fin 64), i = ix2 n d := ⟨i 0, i 1, eq_ix2 i⟩
  exact kernel_sum tbl src dst sc _ _ _ _ hsrc n d

end Cert.AggK6

end
-- ==== Proof.AggK7.lean ====
/-
  The kernel side of the aggregation from the user table onto the spot rows over the bipartite edges.

  The idealized kernel program pads the edge arrays and the table, runs one region over two halves of the padded edge
  list, tile by tile (64 edges a tile), and adds the two halves. Read index by index at the extended reals this is the
  plain sum over the edges: in a tile the one-hot matrix of the source indices times the table gathers one table row per
  edge (a one-hot row picks exactly one entry of a column; the table's zero padding rows lie beyond every true index),
  the rows are scaled, and the one-hot matrix of the destination indices, contracted over the tile, adds each scaled row
  to its destination row. Re-indexing (half, tile, row) to the edge number turns the tiled sum into the sum over the
  edges whose destination is the row read.
-/
import proofs.«400075_j26585847562450_2_alg».proof.Proof.KHost7
import proofs.«400075_j26585847562450_2_alg».proof.Proof.KHost8
import proofs.«400075_j26585847562450_2_alg».proof.Proof.RegDefs
import proofs.«400075_j26585847562450_2_alg».proof.Proof.Spec
import proofs.«400075_j26585847562450_2_alg».proof.Proof.AggSpec
import Idealize.ShloMosaic.Lib.Pipeline.Value
import Idealize.ShloMosaic.Lib.KernelVsHost
import Idealize.ShloMosaic.Lib.StableHlo.Predicate
import Idealize.ShloMosaic.PureOps.Ideal.Laws
import Idealize.ShloMosaic.Lib.ValueIdx
import Idealize.ShloMosaic.Lib.ValueIdxRank1

noncomputable section

namespace Cert.AggK7

open Cert.KernelIdeal Cert.KernelIdeal.Gen Idealize.ShloMosaic Idealize.ShloMosaic.ValueIdx Idealize.ShloMosaic.StableHlo

/-! ## One tile: the two one-hot products at an entry -/

/-- A compared pair of words, widened and converted, is 1 where the words agree and 0 elsewhere. -/
theorem onehot_word (a b : BitVec 32) :
    (((((IntOp.cmpi .eq a b).setWidth 32).toInt : ℝ) : EReal)) = if a = b then (1 : EReal) else 0 := by
  by_cases h : a = b
  · rw [if_pos h, Predicate.cmpi_eq_iff.mpr h]
    show ((((1 : ℤ) : ℝ) : EReal)) = 1
    simp
  · have h0 : IntOp.cmpi .eq a b = 0#1 := by
      rcases (show ∀ x : BitVec 1, x = 1#1 ∨ x = 0#1 from by decide) (IntOp.cmpi .eq a b) with h1 | h1
      · exact absurd (Predicate.cmpi_eq_iff.mp h1) h
      · exact h1
    rw [if_neg h, h0]
    show ((((0 : ℤ) : ℝ) : EReal)) = 0
    simp

/-- A tile's column block viewed as a 64 × 1 column, at a row. -/
theorem col_apply {α : Type} (v : S1x64x1.Idx → α) (r : Fin 64) :
    shapeCast S64x1 v shapeCasts_S1x64x1_S64x1 (ix2 r (0 : Fin 1)) = v (ix3 (0 : Fin 1) r (0 : Fin 1)) := by
  refine shapeCast_apply _ _ (ix2 r (0 : Fin 1)) (ix3 (0 : Fin 1) r (0 : Fin 1)) ?_
  rw [Shape.rowMajor_val_three, Shape.rowMajor_val_two]
  show (0 * 64 + r.val) * 1 + 0 = r.val * 1 + 0
  omega

/-- The one-hot matrix of a tile's indices against the 27136 row numbers, at an entry. -/
theorem onehot27136_apply (v3 : IVec S1x64x1 32) (r : Fin 64) (s : Fin 27136) :
    (truncf .bf16 (sitofp (F := Ideal) .f32 (extui 32 (cmpi .eq (broadcastTo S64x27136 (shapeCast S64x1 v3 shapeCasts_S1x64x1_S64x1) broadcasts_S64x1_S64x27136)
      (iota .tc S64x27136 32 [1] iota_S64x27136_d1_w32)) natLt_1_32)) bitsLt_bf16_f32 : FVec Ideal S64x27136 .bf16) (ix2 r s)
      = if v3 (ix3 (0 : Fin 1) r (0 : Fin 1)) = BitVec.ofNat 32 s.val then (1 : EReal) else 0 := by
  have hb : broadcastTo S64x27136 (shapeCast S64x1 v3 shapeCasts_S1x64x1_S64x1) broadcasts_S64x1_S64x27136 (ix2 r s)
      = v3 (ix3 (0 : Fin 1) r (0 : Fin 1)) :=
    (broadcastTo_apply _ _ (ix2 r s) (ix2 r (0 : Fin 1)) (fun a => match a with | ⟨0, _⟩ => rfl | ⟨1, _⟩ => rfl)).trans (col_apply v3 r)
  have hi : iota .tc S64x27136 32 [1] iota_S64x27136_d1_w32 (ix2 r s) = BitVec.ofNat 32 s.val :=
    iota_single_apply .tc S64x27136 32 1 iota_S64x27136_d1_w32 (ix2 r s)
  show (((((IntOp.cmpi .eq (broadcastTo S64x27136 (shapeCast S64x1 v3 shapeCasts_S1x64x1_S64x1) broadcasts_S64x1_S64x27136 (ix2 r s))
      (iota .tc S64x27136 32 [1] iota_S64x27136_d1_w32 (ix2 r s))).setWidth 32).toInt : ℝ) : EReal)) = _
  rw [hb, hi]
  exact onehot_word _ _

/-- The scales of a tile broadcast along the 64 columns, at an entry. -/
theorem scale_apply (v7 : FVec Ideal S1x64x1 .f32) (r q : Fin 64) :
    broadcastTo S64x64 (shapeCast S64x1 v7 shapeCasts_S1x64x1_S64x1) broadcasts_S64x1_S64x64 (ix2 r q) = v7 (ix3 (0 : Fin 1) r (0 : Fin 1)) :=
  (broadcastTo_apply _ _ (ix2 r q) (ix2 r (0 : Fin 1)) (fun a => match a with | ⟨0, _⟩ => rfl | ⟨1, _⟩ => rfl)).trans (col_apply v7 r)

/-! The operand indices of the first product (64 × 27136 by 27136 × 64), coordinate by coordinate. -/
theorem lhsG_0 (j : S64x64.Idx) (k : dot_S64x27136_S27136x64_S64x64_1_0_0_1_n_n.contr.Idx) :
    (dot_S64x27136_S27136x64_S64x64_1_0_0_1_n_n.lhsIdx j k 0 : ℕ) = j 0 := by
  simp [DotDims.lhsIdx, dot_S64x27136_S27136x64_S64x64_1_0_0_1_n_n]; rfl
theorem lhsG_1 (j : S64x64.Idx) (k : dot_S64x27136_S27136x64_S64x64_1_0_0_1_n_n.contr.Idx) :
    (dot_S64x27136_S27136x64_S64x64_1_0_0_1_n_n.lhsIdx j k 1 : ℕ) = k ⟨0, by decide⟩ := by
  simp [DotDims.lhsIdx, dot_S64x27136_S27136x64_S64x64_1_0_0_1_n_n]; rfl
theorem rhsG_0 (j : S64x64.Idx) (k : dot_S64x27136_S27136x64_S64x64_1_0_0_1_n_n.contr.Idx) :
    (dot_S64x27136_S27136x64_S64x64_1_0_0_1_n_n.rhsIdx j k 0 : ℕ) = k ⟨0, by decide⟩ := by
  simp [DotDims.rhsIdx, dot_S64x27136_S27136x64_S64x64_1_0_0_1_n_n]; rfl
theorem rhsG_1 (j : S64x64.Idx) (k : dot_S64x27136_S27136x64_S64x64_1_0_0_1_n_n.contr.Idx) :
    (dot_S64x27136_S27136x64_S64x64_1_0_0_1_n_n.rhsIdx j k 1 : ℕ) = j 1 := by
  simp [DotDims.rhsIdx, dot_S64x27136_S27136x64_S64x64_1_0_0_1_n_n]; rfl

/-- The first product, into the zero accumulator, at an entry: the plain sum over the contracted coordinate. -/
theorem gatherProd_apply (A : FVec Ideal S64x27136 .bf16) (B : FVec Ideal S27136x64 .bf16) (r q : Fin 64) :
    matmul dot_S64x27136_S27136x64_S64x64_1_0_0_1_n_n none A B (constant (F := Ideal) S64x64 .f32 0x00000000#32) (ix2 r q)
      = ∑ s : Fin 27136, A (ix2 r s) * B (ix2 s q) := by
  show FloatOps.matmul dot_S64x27136_S27136x64_S64x64_1_0_0_1_n_n none A B (constant (F := Ideal) S64x64 .f32 0x00000000#32) (ix2 r q) = _
  rw [Ideal.matmul_constant_zero_apply,
    ← Equiv.sum_comp (contrEquiv1 dot_S64x27136_S27136x64_S64x64_1_0_0_1_n_n 27136 rfl rfl).symm]
  refine Finset.sum_congr rfl fun c _ => ?_
  have hc := contrEquiv1_symm_val dot_S64x27136_S27136x64_S64x64_1_0_0_1_n_n 27136 rfl rfl c
  have hl : dot_S64x27136_S27136x64_S64x64_1_0_0_1_n_n.lhsIdx (ix2 r q)
      ((contrEquiv1 dot_S64x27136_S27136x64_S64x64_1_0_0_1_n_n 27136 rfl rfl).symm c) = ix2 r c := by
    funext ax; apply Fin.ext
    match ax with
    | ⟨0, _⟩ => exact lhsG_0 _ _
    | ⟨1, _⟩ => exact (lhsG_1 _ _).trans hc
  have hr : dot_S64x27136_S27136x64_S64x64_1_0_0_1_n_n.rhsIdx (ix2 r q)
      ((contrEquiv1 dot_S64x27136_S27136x64_S64x64_1_0_0_1_n_n 27136 rfl rfl).symm c) = ix2 c q := by
    funext ax; apply Fin.ext
    match ax with
    | ⟨0, _⟩ => exact (rhsG_0 _ _).trans hc
    | ⟨1, _⟩ => exact rhsG_1 _ _
  rw [hl, hr]

/-- The one-hot matrix of a tile's indices against the 42880 row numbers, at an entry. -/
theorem onehot42880_apply (v5 : IVec S1x64x1 32) (r : Fin 64) (p : Fin 42880) :
    (truncf .bf16 (sitofp (F := Ideal) .f32 (extui 32 (cmpi .eq (broadcastTo S64x42880 (shapeCast S64x1 v5 shapeCasts_S1x64x1_S64x1) broadcasts_S64x1_S64x42880)
      (iota .tc S64x42880 32 [1] iota_S64x42880_d1_w32)) natLt_1_32)) bitsLt_bf16_f32 : FVec Ideal S64x42880 .bf16) (ix2 r p)
      = if v5 (ix3 (0 : Fin 1) r (0 : Fin 1)) = BitVec.ofNat 32 p.val then (1 : EReal) else 0 := by
  have hb : broadcastTo S64x42880 (shapeCast S64x1 v5 shapeCasts_S1x64x1_S64x1) broadcasts_S64x1_S64x42880 (ix2 r p)
      = v5 (ix3 (0 : Fin 1) r (0 : Fin 1)) :=
    (broadcastTo_apply _ _ (ix2 r p) (ix2 r (0 : Fin 1)) (fun a => match a with | ⟨0, _⟩ => rfl | ⟨1, _⟩ => rfl)).trans (col_apply v5 r)
  have hi : iota .tc S64x42880 32 [1] iota_S64x42880_d1_w32 (ix2 r p) = BitVec.ofNat 32 p.val :=
    iota_single_apply .tc S64x42880 32 1 iota_S64x42880_d1_w32 (ix2 r p)
  show (((((IntOp.cmpi .eq (broadcastTo S64x42880 (shapeCast S64x1 v5 shapeCasts_S1x64x1_S64x1) broadcasts_S64x1_S64x42880 (ix2 r p))
      (iota .tc S64x42880 32 [1] iota_S64x42880_d1_w32 (ix2 r p))).setWidth 32).toInt : ℝ) : EReal)) = _
  rw [hb, hi]
  exact onehot_word _ _

/-! The operand indices of the second product (64 × 42880 and 64 × 64, both contracted on their first axis),
    coordinate by coordinate. -/
theorem lhsS_0 (j : S42880x64.Idx) (k : dot_S64x42880_S64x64_S42880x64_0_0_1_1_n_n.contr.Idx) :
    (dot_S64x42880_S64x64_S42880x64_0_0_1_1_n_n.lhsIdx j k 0 : ℕ) = k ⟨0, by decide⟩ := by
  simp [DotDims.lhsIdx, dot_S64x42880_S64x64_S42880x64_0_0_1_1_n_n]; rfl
theorem lhsS_1 (j : S42880x64.Idx) (k : dot_S64x42880_S64x64_S42880x64_0_0_1_1_n_n.contr.Idx) :
    (dot_S64x42880_S64x64_S42880x64_0_0_1_1_n_n.lhsIdx j k 1 : ℕ) = j 0 := by
  simp [DotDims.lhsIdx, dot_S64x42880_S64x64_S42880x64_0_0_1_1_n_n]; rfl
theorem rhsS_0 (j : S42880x64.Idx) (k : dot_S64x42880_S64x64_S42880x64_0_0_1_1_n_n.contr.Idx) :
    (dot_S64x42880_S64x64_S42880x64_0_0_1_1_n_n.rhsIdx j k 0 : ℕ) = k ⟨0, by decide⟩ := by
  simp [DotDims.rhsIdx, dot_S64x42880_S64x64_S42880x64_0_0_1_1_n_n]; rfl
theorem rhsS_1 (j : S42880x64.Idx) (k : dot_S64x42880_S64x64_S42880x64_0_0_1_1_n_n.contr.Idx) :
    (dot_S64x42880_S64x64_S42880x64_0_0_1_1_n_n.rhsIdx j k 1 : ℕ) = j 1 := by
  simp [DotDims.rhsIdx, dot_S64x42880_S64x64_S42880x64_0_0_1_1_n_n]; rfl

/-- The second product, into the zero accumulator, at an entry: the plain sum over the tile's 64 rows. -/
theorem scatterProd_apply (A : FVec Ideal S64x42880 .bf16) (B : FVec Ideal S64x64 .bf16) (p : Fin 42880) (q : Fin 64) :
    matmul dot_S64x42880_S64x64_S42880x64_0_0_1_1_n_n none A B (constant (F := Ideal) S42880x64 .f32 0x00000000#32) (ix2 p q)
      = ∑ r : Fin 64, A (ix2 r p) * B (ix2 r q) := by
  show FloatOps.matmul dot_S64x42880_S64x64_S42880x64_0_0_1_1_n_n none A B (constant (F := Ideal) S42880x64 .f32 0x00000000#32) (ix2 p q) = _
  rw [Ideal.matmul_constant_zero_apply,
    ← Equiv.sum_comp (contrEquiv1 dot_S64x42880_S64x64_S42880x64_0_0_1_1_n_n 64 rfl rfl).symm]
  refine Finset.sum_congr rfl fun c _ => ?_
  have hc := contrEquiv1_symm_val dot_S64x42880_S64x64_S42880x64_0_0_1_1_n_n 64 rfl rfl c
  have hl : dot_S64x42880_S64x64_S42880x64_0_0_1_1_n_n.lhsIdx (ix2 p q)
      ((contrEquiv1 dot_S64x42880_S64x64_S42880x64_0_0_1_1_n_n 64 rfl rfl).symm c) = ix2 c p := by
    funext ax; apply Fin.ext
    match ax with
    | ⟨0, _⟩ => exact (lhsS_0 _ _).trans hc
    | ⟨1, _⟩ => exact lhsS_1 _ _
  have hr : dot_S64x42880_S64x64_S42880x64_0_0_1_1_n_n.rhsIdx (ix2 p q)
      ((contrEquiv1 dot_S64x42880_S64x64_S42880x64_0_0_1_1_n_n 64 rfl rfl).symm c) = ix2 c q := by
    funext ax; apply Fin.ext
    match ax with
    | ⟨0, _⟩ => exact (rhsS_0 _ _).trans hc
    | ⟨1, _⟩ => exact rhsS_1 _ _
  rw [hl, hr]

/-- What one grid point adds at an entry: over the tile's 64 edges, the one-hot weight of the edge's destination at
    the entry's row times the gathered table entry (itself the one-hot row of the edge's source against the table's
    column) times the edge's scale. -/
theorem contrib_apply (v3 v5 : IVec S1x64x1 32) (v7 : FVec Ideal S1x64x1 .f32) (v15 : FVec Ideal S27136x64 .bf16)
    (p : Fin 42880) (q : Fin 64) :
    Reg7.contrib (F := Ideal) v3 v5 v7 v15 (ix2 p q)
      = ∑ r : Fin 64, (if v5 (ix3 (0 : Fin 1) r (0 : Fin 1)) = BitVec.ofNat 32 p.val then (1 : EReal) else 0)
          * ((∑ s : Fin 27136, (if v3 (ix3 (0 : Fin 1) r (0 : Fin 1)) = BitVec.ofNat 32 s.val then (1 : EReal) else 0) * v15 (ix2 s q))
              * v7 (ix3 (0 : Fin 1) r (0 : Fin 1))) := by
  unfold Reg7.contrib
  refine (scatterProd_apply _ _ p q).trans (Finset.sum_congr rfl fun r _ => ?_)
  refine congrArg₂ (· * ·) (onehot42880_apply v5 r p) ?_
  refine (truncf_apply (φ := .f32) (ψ := .bf16) _ bitsLt_bf16_f32 (ix2 r q)).trans ?_
  refine (mulf_apply (φ := .f32) _ _ (ix2 r q)).trans ?_
  refine congrArg₂ (· * ·) ?_ (scale_apply v7 r q)
  refine (gatherProd_apply _ _ r q).trans (Finset.sum_congr rfl fun s _ => ?_)
  refine congrArg₂ (· * ·) (onehot27136_apply v3 r s) ?_
  exact congrFun (shapeCast_self v15 shapeCasts_S27136x64_S27136x64) (ix2 s q)

/-! ## The padded arrays read at an index -/

/-- An edge array read at an edge number, with a fixed value beyond the last edge. -/
def rd {α : Type} (z : α) (x : S2000000.Idx → α) (e : ℕ) : α := if h : e < 2000000 then x (ix1 ⟨e, h⟩) else z

theorem rd_fin {α : Type} (z : α) (x : S2000000.Idx → α) (i : Fin 2000000) : rd z x i.val = x (ix1 i) := dif_pos i.isLt

theorem rd_of_le {α : Type} (z : α) (x : S2000000.Idx → α) (e : ℕ) (h : 2000000 ≤ e) : rd z x e = z := dif_neg (by omega)

/-- The padded edge array, split in two halves, at row 64 k + r of half h: edge number h · (64 · 15625) + 64 k + r. -/
theorem halves_read {α : Type} (z : α) (x : S2000000.Idx → α) (v : S_.Idx → α) (h : Fin 2) (k : Fin 15625) (r : Fin 64)
    (hm : 64 * k.val + r.val < 1000000) :
    shapeCast S2x1000000x1 (pad S2000000 ![0] ![0] ![0] x v pads_S2000000_S2000000_000 h_S_) shapeCasts_S2000000_S2x1000000x1
        (ix3 h (⟨64 * k.val + r.val, hm⟩ : Fin 1000000) (0 : Fin 1))
      = rd z x (h.val * (64 * 15625) + 64 * k.val + r.val) := by
  have he : h.val * (64 * 15625) + 64 * k.val + r.val < 2000000 := by have := h.isLt; omega
  refine (shapeCast_apply _ _ (ix3 h (⟨64 * k.val + r.val, hm⟩ : Fin 1000000) (0 : Fin 1))
    (ix1 (⟨h.val * (64 * 15625) + 64 * k.val + r.val, he⟩ : Fin 2000000)) ?_).trans ?_
  · rw [Shape.rowMajor_val_one, Shape.rowMajor_val_three]
    show h.val * (64 * 15625) + 64 * k.val + r.val = (h.val * 1000000 + (64 * k.val + r.val)) * 1 + 0
    omega
  · refine (pad_apply_of_inside _ _ _ x v pads_S2000000_S2000000_000 h_S_
      (ix1 (⟨h.val * (64 * 15625) + 64 * k.val + r.val, he⟩ : Fin 2000000))
      (ix1 (⟨h.val * (64 * 15625) + 64 * k.val + r.val, he⟩ : Fin 2000000)) (fun a => match a with
        | ⟨0, _⟩ => by
          show h.val * (64 * 15625) + 64 * k.val + r.val = 0 + (h.val * (64 * 15625) + 64 * k.val + r.val) * (0 + 1)
          omega)).trans ?_
    exact (rd_fin z x (⟨h.val * (64 * 15625) + 64 * k.val + r.val, he⟩ : Fin 2000000)).symm

/-- The table padded with zero rows, at a row below the true row count: the table's own entry. -/
theorem table_read (tbl : FVec Ideal S27094x64 .f32) (v : FVec Ideal S_ .f32) (s : Fin 27136) (hs : s.val < 27094) (q : Fin 64) :
    (truncf .bf16 (pad S27136x64 ![0, 0] ![42, 0] ![0, 0] tbl v pads_S27094x64_S27136x64_0420_000 h_S_) bitsLt_bf16_f32
        : FVec Ideal S27136x64 .bf16) (ix2 s q) = tbl (ix2 (⟨s.val, hs⟩ : Fin 27094) q) := by
  refine (truncf_apply (φ := .f32) (ψ := .bf16) _ bitsLt_bf16_f32 (ix2 s q)).trans ?_
  exact pad_apply_of_inside _ _ _ tbl v pads_S27094x64_S27136x64_0420_000 h_S_ (ix2 s q) (ix2 (⟨s.val, hs⟩ : Fin 27094) q)
    (fun a => match a with
      | ⟨0, _⟩ => by show s.val = 0 + s.val * (0 + 1); omega
      | ⟨1, _⟩ => by show q.val = 0 + q.val * (0 + 1); omega)

/-- The two halves of the result added and cut to the true row count, at an entry. -/
theorem halves_add_read (X : FVec Ideal S2x42880x64 .f32) (n : Fin 42852) (d : Fin 64) (hn : n.val < 42880) :
    extractStridedSlice S42852x64 ![0, 0]
        (addf (shapeCast S42880x64 (extractStridedSlice S1x42880x64 ![0, 0, 0] X slices_S2x42880x64_S1x42880x64_0_0_0) shapeCasts_S1x42880x64_S42880x64)
          (shapeCast S42880x64 (extractStridedSlice S1x42880x64 ![1, 0, 0] X slices_S2x42880x64_S1x42880x64_1_0_0) shapeCasts_S1x42880x64_S42880x64))
        slices_S42880x64_S42852x64_0_0 (ix2 n d)
      = X (ix3 (0 : Fin 2) (⟨n.val, hn⟩ : Fin 42880) d) + X (ix3 (1 : Fin 2) (⟨n.val, hn⟩ : Fin 42880) d) := by
  refine (extractStridedSlice_apply _ _ slices_S42880x64_S42852x64_0_0 (ix2 n d) (ix2 (⟨n.val, hn⟩ : Fin 42880) d)
    (fun a => match a with
      | ⟨0, _⟩ => by show n.val = 0 + n.val; omega
      | ⟨1, _⟩ => by show d.val = 0 + d.val; omega)).trans ?_
  refine (addf_apply (φ := .f32) _ _ (ix2 (⟨n.val, hn⟩ : Fin 42880) d)).trans ?_
  refine congrArg₂ (· + ·) ?_ ?_
  · refine (shapeCast_apply _ _ (ix2 (⟨n.val, hn⟩ : Fin 42880) d) (ix3 (0 : Fin 1) (⟨n.val, hn⟩ : Fin 42880) d) ?_).trans ?_
    · rw [Shape.rowMajor_val_three, Shape.rowMajor_val_two]
      show (0 * 42880 + n.val) * 64 + d.val = n.val * 64 + d.val
      omega
    · exact extractStridedSlice_apply _ X slices_S2x42880x64_S1x42880x64_0_0_0 (ix3 (0 : Fin 1) (⟨n.val, hn⟩ : Fin 42880) d)
        (ix3 (0 : Fin 2) (⟨n.val, hn⟩ : Fin 42880) d) (fun a => match a with
          | ⟨0, _⟩ => by show 0 = 0 + 0; omega
          | ⟨1, _⟩ => by show n.val = 0 + n.val; omega
          | ⟨2, _⟩ => by show d.val = 0 + d.val; omega)
  · refine (shapeCast_apply _ _ (ix2 (⟨n.val, hn⟩ : Fin 42880) d) (ix3 (0 : Fin 1) (⟨n.val, hn⟩ : Fin 42880) d) ?_).trans ?_
    · rw [Shape.rowMajor_val_three, Shape.rowMajor_val_two]
      show (0 * 42880 + n.val) * 64 + d.val = n.val * 64 + d.val
      omega
    · exact extractStridedSlice_apply _ X slices_S2x42880x64_S1x42880x64_1_0_0 (ix3 (0 : Fin 1) (⟨n.val, hn⟩ : Fin 42880) d)
        (ix3 (1 : Fin 2) (⟨n.val, hn⟩ : Fin 42880) d) (fun a => match a with
          | ⟨0, _⟩ => by show 1 = 1 + 0; omega
          | ⟨1, _⟩ => by show n.val = 0 + n.val; omega
          | ⟨2, _⟩ => by show d.val = 0 + d.val; omega)

/-! ## Words and numbers -/

/-- A 32-bit word equals the word of a small number exactly when its value is that number. -/
theorem word_eq_iff (w : BitVec 32) (n : ℕ) (hn : n < 4294967296) : w = BitVec.ofNat 32 n ↔ w.toNat = n := by
  constructor
  · intro h
    rw [h, BitVec.toNat_ofNat]
    exact Nat.mod_eq_of_lt (by omega)
  · intro h
    apply BitVec.eq_of_toNat_eq
    rw [BitVec.toNat_ofNat, Nat.mod_eq_of_lt (by omega), h]

/-- A word whose signed value lies in [0, N) has its unsigned value below N. -/
theorem toNat_lt_of_toInt (w : BitVec 32) (N : ℕ) (h0 : 0 ≤ w.toInt) (h1 : w.toInt < (N : ℤ)) : w.toNat < N := by
  have hw := w.isLt
  rw [BitVec.toInt_eq_toNat_cond] at h0 h1
  split_ifs at h0 h1 <;> omega

/-- A one-hot row against the row numbers of the padded table picks the row of the word's value. -/
theorem gather_row (T : FVec Ideal S27136x64 .bf16) (w : BitVec 32) (hw : w.toNat < 27136) (q : Fin 64) :
    ∑ s : Fin 27136, (if w = BitVec.ofNat 32 s.val then (1 : EReal) else 0) * T (ix2 s q)
      = T (ix2 (⟨w.toNat, hw⟩ : Fin 27136) q) := by
  refine Eq.trans (Finset.sum_congr rfl fun s _ => ?_)
    (Cert.Spec.onehot_sum_fintype (⟨w.toNat, hw⟩ : Fin 27136) (fun s => T (ix2 s q)))
  refine congrArg (· * T (ix2 s q)) ?_
  refine if_congr ?_ rfl rfl
  rw [word_eq_iff w s.val (by have := s.isLt; omega)]
  exact ⟨fun h => Fin.ext h, fun h => congrArg Fin.val h⟩

/-! ## One edge's term -/

/-- The one-hot weight of edge e's destination at row p; beyond the last edge the index is the all-ones word, which
    is no row number. -/
def ohd (dst : IVec S2000000 32) (p : ℕ) (e : ℕ) : EReal :=
  if rd 4294967295#32 dst e = BitVec.ofNat 32 p then 1 else 0

/-- The row the one-hot product gathers for edge e from the padded table, at column q, times the edge's scale. -/
def gat (T : FVec Ideal S27136x64 .bf16) (src : IVec S2000000 32) (sc : FVec Ideal S2000000 .f32) (q : Fin 64) (e : ℕ) : EReal :=
  (∑ s : Fin 27136, (if rd 4294967295#32 src e = BitVec.ofNat 32 s.val then (1 : EReal) else 0) * T (ix2 s q))
    * rd (α := EReal) 0 sc e

/-- The specification's term of edge e at column q. -/
def spf (tbl : FVec Ideal S27094x64 .f32) (src : IVec S2000000 32) (sc : FVec Ideal S2000000 .f32) (q : Fin 64) (e : ℕ) : EReal :=
  tbl (ix2 (⟨(rd 4294967295#32 src e).toNat % 27094, Nat.mod_lt _ (by omega)⟩ : Fin 27094) q) * rd (α := EReal) 0 sc e

/-- Edge e's destination is row n. -/
def hits (dst : IVec S2000000 32) (n : ℕ) (e : ℕ) : Prop := (rd 4294967295#32 dst e).toNat = n

instance (dst : IVec S2000000 32) (n : ℕ) : DecidablePred (hits dst n) := fun e => inferInstanceAs (Decidable (_ = _))

theorem ohd_of_lt (dst : IVec S2000000 32) (n : ℕ) (hn : n < 4294967295) (e : ℕ) :
    ohd dst n e = if hits dst n e then 1 else 0 :=
  if_congr (word_eq_iff _ n (by omega)) rfl rfl

theorem ohd_of_le (dst : IVec S2000000 32) (n : ℕ) (hn : n < 4294967295) (e : ℕ) (he : 2000000 ≤ e) : ohd dst n e = 0 := by
  unfold ohd
  rw [rd_of_le _ _ _ he]
  refine if_neg fun h => ?_
  have h1 := (word_eq_iff _ n (by omega)).mp h
  have h2 : (4294967295#32 : BitVec 32).toNat = 4294967295 := rfl
  omega

theorem gat_eq_spf (tbl : FVec Ideal S27094x64 .f32) (v : FVec Ideal S_ .f32) (src : IVec S2000000 32) (sc : FVec Ideal S2000000 .f32)
    (hsrc : ∀ i, 0 ≤ (src i).toInt ∧ (src i).toInt < 27094) (q : Fin 64) (e : ℕ) (he : e < 2000000) :
    gat (truncf .bf16 (pad S27136x64 ![0, 0] ![42, 0] ![0, 0] tbl v pads_S27094x64_S27136x64_0420_000 h_S_) bitsLt_bf16_f32) src sc q e
      = spf tbl src sc q e := by
  unfold gat spf
  have hw : rd 4294967295#32 src e = src (ix1 (⟨e, he⟩ : Fin 2000000)) := rd_fin _ src (⟨e, he⟩ : Fin 2000000)
  obtain ⟨h0, h1⟩ := hsrc (ix1 (⟨e, he⟩ : Fin 2000000))
  rw [← hw] at h0 h1
  have hlt : (rd 4294967295#32 src e).toNat < 27094 := toNat_lt_of_toInt _ 27094 h0 h1
  refine congrArg (· * rd (α := EReal) 0 sc e) ?_
  refine (gather_row _ _ (by omega) q).trans ?_
  refine (table_read tbl v _ hlt q).trans ?_
  exact congrArg (fun a => tbl (ix2 a q)) (Fin.ext (Nat.mod_eq_of_lt hlt).symm)

/-! ## The region's output and the whole aggregation -/

theorem out_apply (A0 A1 : IVec S2x1000000x1 32) (A2 : FVec Ideal S2x1000000x1 .f32) (A3 : FVec Ideal S27136x64 .bf16)
    (h : Fin 2) (p : Fin 42880) (q : Fin 64) :
    Reg7.out A0 A1 A2 A3 (ix3 h p q)
      = ∑ k : Fin 15625, Reg7.contrib (F := Ideal) (Reg7.blkI (F := Ideal) A0 h k) (Reg7.blkI (F := Ideal) A1 h k) (Reg7.blkF A2 h k) A3 (ix2 p q) := rfl

theorem blkI_read (z : BitVec 32) (x : IVec S2000000 32) (v : IVec S_ 32) (h : Fin 2) (k : Fin 15625) (r : Fin 64) :
    Reg7.blkI (F := Ideal) (shapeCast S2x1000000x1 (pad S2000000 ![0] ![0] ![0] x v pads_S2000000_S2000000_000 h_S_) shapeCasts_S2000000_S2x1000000x1)
        h k (ix3 (0 : Fin 1) r (0 : Fin 1))
      = rd z x (h.val * (64 * 15625) + 64 * k.val + r.val) :=
  halves_read z x v h k r (by have := k.isLt; have := r.isLt; omega)

theorem blkF_read (z : EReal) (x : FVec Ideal S2000000 .f32) (v : FVec Ideal S_ .f32) (h : Fin 2) (k : Fin 15625) (r : Fin 64) :
    Reg7.blkF (F := Ideal) (shapeCast S2x1000000x1 (pad S2000000 ![0] ![0] ![0] x v pads_S2000000_S2000000_000 h_S_) shapeCasts_S2000000_S2x1000000x1)
        h k (ix3 (0 : Fin 1) r (0 : Fin 1))
      = rd (α := EReal) z x (h.val * (64 * 15625) + 64 * k.val + r.val) :=
  halves_read (α := EReal) z x v h k r (by have := k.isLt; have := r.isLt; omega)

/-- One half of the region's output at an entry: the tiled sum of the edges' terms. -/
theorem half_apply (T : FVec Ideal S27136x64 .bf16) (src dst : IVec S2000000 32) (sc : FVec Ideal S2000000 .f32)
    (vs vd : IVec S_ 32) (vf : FVec Ideal S_ .f32) (h : Fin 2) (p : Fin 42880) (q : Fin 64) :
    Reg7.out
        (shapeCast S2x1000000x1 (pad S2000000 ![0] ![0] ![0] src vs pads_S2000000_S2000000_000 h_S_) shapeCasts_S2000000_S2x1000000x1)
        (shapeCast S2x1000000x1 (pad S2000000 ![0] ![0] ![0] dst vd pads_S2000000_S2000000_000 h_S_) shapeCasts_S2000000_S2x1000000x1)
        (shapeCast S2x1000000x1 (pad S2000000 ![0] ![0] ![0] sc vf pads_S2000000_S2000000_000 h_S_) shapeCasts_S2000000_S2x1000000x1)
        T (ix3 h p q)
      = ∑ k ∈ Finset.range 15625, ∑ r ∈ Finset.range 64,
          ohd dst p.val (h.val * (64 * 15625) + 64 * k + r) * gat T src sc q (h.val * (64 * 15625) + 64 * k + r) := by
  refine (out_apply _ _ _ T h p q).trans ?_
  refine Eq.trans ?_ (Cert.Spec.sum_fin_eq_range 15625 (fun k => ∑ r ∈ Finset.range 64,
    ohd dst p.val (h.val * (64 * 15625) + 64 * k + r) * gat T src sc q (h.val * (64 * 15625) + 64 * k + r)))
  refine Finset.sum_congr rfl fun k _ => ?_
  refine (contrib_apply _ _ _ T p q).trans ?_
  refine Eq.trans ?_ (Cert.Spec.sum_fin_eq_range 64 (fun r =>
    ohd dst p.val (h.val * (64 * 15625) + 64 * k.val + r) * gat T src sc q (h.val * (64 * 15625) + 64 * k.val + r)))
  refine Finset.sum_congr rfl fun r _ => ?_
  rw [blkI_read 4294967295#32 dst vd h k r, blkI_read 4294967295#32 src vs h k r, blkF_read 0 sc vf h k r]
  rfl

theorem sum_two (Φ : ℕ → EReal) : ∑ c ∈ Finset.range 2, Φ c = Φ 0 + Φ 1 := by
  rw [Finset.sum_range_succ, Finset.sum_range_one]

/-- The two halves' tiled sums of the edges' terms add up to the specification's sum over the edges, once the gathered
    term of every true edge is the specification's. -/
theorem tiled_eq_spec (T : FVec Ideal S27136x64 .bf16) (tbl : FVec Ideal S27094x64 .f32) (src dst : IVec S2000000 32)
    (sc : FVec Ideal S2000000 .f32) (n : Fin 42852) (d : Fin 64)
    (hg : ∀ e, e < 2000000 → gat T src sc d e = spf tbl src sc d e) :
    (∑ k ∈ Finset.range 15625, ∑ r ∈ Finset.range 64,
        ohd dst n.val ((0 : Fin 2).val * (64 * 15625) + 64 * k + r) * gat T src sc d ((0 : Fin 2).val * (64 * 15625) + 64 * k + r))
      + (∑ k ∈ Finset.range 15625, ∑ r ∈ Finset.range 64,
        ohd dst n.val ((1 : Fin 2).val * (64 * 15625) + 64 * k + r) * gat T src sc d ((1 : Fin 2).val * (64 * 15625) + 64 * k + r))
      = Cert.AggSpec.aggUS tbl src dst sc (ix2 n d) := by
  have hn' : n.val < 4294967295 := by have := n.isLt; omega
  have h1 : ∀ e, e < 2000000 → ohd dst n.val e = if hits dst n.val e then 1 else 0 := fun e _ => ohd_of_lt dst n.val hn' e
  have h0 : ∀ e, 2000000 ≤ e → ohd dst n.val e = 0 := fun e he => ohd_of_le dst n.val hn' e he
  have key := Cert.Spec.agg_nat 2000000 15625 (by omega) (ohd dst n.val) (gat T src sc d) (spf tbl src sc d) (hits dst n.val) h1 h0 hg
  rw [sum_two] at key
  refine Eq.trans ?_ (key.trans ?_)
  · rfl
  · refine (Cert.Spec.filter_sum_fin 2000000 (hits dst n.val) (spf tbl src sc d)).symm.trans ?_
    rw [Finset.sum_filter]
    refine Finset.sum_congr rfl fun e _ => ?_
    refine if_congr ?_ ?_ rfl
    · show (rd 4294967295#32 dst e.val).toNat = n.val ↔ (dst (ix1 e)).toNat = n.val
      rw [rd_fin]
    · show tbl (ix2 (⟨(rd 4294967295#32 src e.val).toNat % 27094, Nat.mod_lt _ (by omega)⟩ : Fin 27094) d) * rd (α := EReal) 0 sc e.val = _
      rw [rd_fin, rd_fin]

/-- The kernel's result at an entry is the specification's sum over the edges. -/
theorem kernel_sum (tbl : FVec Ideal S27094x64 .f32) (src dst : IVec S2000000 32) (sc : FVec Ideal S2000000 .f32)
    (vs vd : IVec S_ 32) (vf vt : FVec Ideal S_ .f32)
    (hsrc : ∀ i, 0 ≤ (src i).toInt ∧ (src i).toInt < 27094) (n : Fin 42852) (d : Fin 64) :
    extractStridedSlice S42852x64 ![0, 0]
        (addf
          (shapeCast S42880x64 (extractStridedSlice S1x42880x64 ![0, 0, 0]
            (Reg7.out
              (shapeCast S2x1000000x1 (pad S2000000 ![0] ![0] ![0] src vs pads_S2000000_S2000000_000 h_S_) shapeCasts_S2000000_S2x1000000x1)
              (shapeCast S2x1000000x1 (pad S2000000 ![0] ![0] ![0] dst vd pads_S2000000_S2000000_000 h_S_) shapeCasts_S2000000_S2x1000000x1)
              (shapeCast S2x1000000x1 (pad S2000000 ![0] ![0] ![0] sc vf pads_S2000000_S2000000_000 h_S_) shapeCasts_S2000000_S2x1000000x1)
              (truncf .bf16 (pad S27136x64 ![0, 0] ![42, 0] ![0, 0] tbl vt pads_S27094x64_S27136x64_0420_000 h_S_) bitsLt_bf16_f32))
            slices_S2x42880x64_S1x42880x64_0_0_0) shapeCasts_S1x42880x64_S42880x64)
          (shapeCast S42880x64 (extractStridedSlice S1x42880x64 ![1, 0, 0]
            (Reg7.out
              (shapeCast S2x1000000x1 (pad S2000000 ![0] ![0] ![0] src vs pads_S2000000_S2000000_000 h_S_) shapeCasts_S2000000_S2x1000000x1)
              (shapeCast S2x1000000x1 (pad S2000000 ![0] ![0] ![0] dst vd pads_S2000000_S2000000_000 h_S_) shapeCasts_S2000000_S2x1000000x1)
              (shapeCast S2x1000000x1 (pad S2000000 ![0] ![0] ![0] sc vf pads_S2000000_S2000000_000 h_S_) shapeCasts_S2000000_S2x1000000x1)
              (truncf .bf16 (pad S27136x64 ![0, 0] ![42, 0] ![0, 0] tbl vt pads_S27094x64_S27136x64_0420_000 h_S_) bitsLt_bf16_f32))
            slices_S2x42880x64_S1x42880x64_1_0_0) shapeCasts_S1x42880x64_S42880x64))
        slices_S42880x64_S42852x64_0_0 (ix2 n d)
      = Cert.AggSpec.aggUS tbl src dst sc (ix2 n d) := by
  have hn : n.val < 42880 := by have := n.isLt; omega
  refine (halves_add_read _ n d hn).trans ?_
  rw [half_apply _ src dst sc vs vd vf (0 : Fin 2), half_apply _ src dst sc vs vd vf (1 : Fin 2)]
  exact tiled_eq_spec _ tbl src dst sc n d (fun e he => gat_eq_spf tbl vt src sc hsrc d e he)

/-- The kernel side of the aggregation: the padded and halved edge arrays and the padded table run through the region,
    the two halves added and cut to the true rows, is the sum over the edges. -/
theorem aggK7 (tbl : FVec Ideal S27094x64 .f32) (src dst : IVec S2000000 32) (sc : FVec Ideal S2000000 .f32)
    (hsrc : ∀ i, 0 ≤ (src i).toInt ∧ (src i).toInt < 27094) (hdst : ∀ i, 0 ≤ (dst i).toInt ∧ (dst i).toInt < 42852) :
    KHost8.v203 (F := Ideal) (Reg7.out (KHost7.v192 (F := Ideal) src) (KHost7.v194 (F := Ideal) dst)
        (KHost7.v196 (F := Ideal) sc) (KHost7.v190 (F := Ideal) tbl))
      = Cert.AggSpec.aggUS tbl src dst sc := by
  funext i
  obtain ⟨n, d, rfl⟩ : ∃ (n : Fin 42852) (d : Fin 64), i = ix2 n d := ⟨i 0, i 1, eq_ix2 i⟩
  exact kernel_sum tbl src dst sc _ _ _ _ hsrc n d

end Cert.AggK7

end
-- ==== Proof.AggR0.lean ====
/-
  The reference side of one graph aggregation (a segment sum of scaled gathered rows), read index by index at the extended
  reals: a scatter-add, onto a zero array at the destination indices, of the edge scales times the table rows gathered at
  the source indices is the plain sum over the edges. The pieces, each over arbitrary table and edge-list sizes: a signed
  index inside its table reads the same unsigned, and the normalisation of negative indices leaves it alone; a vector laid as
  a column, and a column laid along rows, read at an index; the row gather reads the table's row at the start index clamped
  into the table; an update (e, q) of the row scatter lands at (destination of e, q), so entry (n, q) of the accumulating
  scatter is the operand's entry plus the sum over the edges with destination n of the update at (e, q); multiplication
  commutes. The last theorem instantiates the sizes.
-/
import proofs.«400075_j26585847562450_2_alg».proof.Proof.RStages
import proofs.«400075_j26585847562450_2_alg».proof.Proof.AggSpec
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Pipeline.Value
import Idealize.ShloMosaic.Lib.IdealHost

noncomputable section

namespace Cert.AggR0

open Idealize.ShloMosaic Idealize.ShloMosaic.ValueIdx

/-! ## Words: a signed index inside its table -/

/-- A word whose signed reading is nonnegative reads the same unsigned. -/
theorem toInt_toNat_of_nonneg (a : BitVec 32) (h : 0 ≤ a.toInt) : a.toInt.toNat = a.toNat := by
  have hc := BitVec.toInt_eq_toNat_cond a
  have hlt := a.isLt
  split at hc <;> omega

/-- The index normalisation (a negative index counts from the end) leaves a nonnegative index as it is. -/
theorem norm_word (a k : BitVec 32) (h : 0 ≤ a.toInt) :
    Scalar.select (IntOp.cmpi .slt a 0#32) (IntOp.addi a k) a = a := by
  have hs : a.slt 0#32 = false := by
    rw [BitVec.slt_eq_decide, BitVec.toInt_zero]
    exact decide_eq_false (by omega)
  show Scalar.select (BitVec.ofBool (a.slt 0#32)) (IntOp.addi a k) a = a
  rw [hs]
  exact select_zero _ _

/-! ## Layout operations read at an index -/

section Layout
variable {α : Type}

/-- A vector laid as an [E × 1] column reads, at (e, 0), the vector at e. -/
theorem bcast_col_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply ![0] h v (ix2 e z) (ix1 e) ?_
  intro a
  match a with
  | ⟨0, _⟩ =>
    show e.val = if E = 1 then 0 else e.val
    split
    · have := e.isLt; omega
    · rfl

/-- An [E × 1] column laid along the rows of an [E × C] rectangle reads, at (e, q), the column at (e, 0). -/
theorem bcast_colrow_apply {E C : Nat} (h : (⟨2, ![E, 1]⟩ : Shape).BroadcastsInDim ⟨2, ![E, C]⟩ ![0, 1])
    (v : (⟨2, ![E, 1]⟩ : Shape).Idx → α) (e : Fin E) (q : Fin C) :
    broadcastInDim ⟨2, ![E, C]⟩ ![0, 1] h v (ix2 e q) = v (ix2 e (0 : Fin 1)) := by
  refine broadcastInDim_apply ![0, 1] h v (ix2 e q) (ix2 e (0 : Fin 1)) ?_
  intro a
  match a with
  | ⟨0, _⟩ =>
    show e.val = if E = 1 then 0 else e.val
    split
    · have := e.isLt; omega
    · rfl
  | ⟨1, _⟩ =>
    show (0 : Nat) = if (1 : Nat) = 1 then 0 else q.val
    rfl

end Layout

/-- The normalised index column at (e, 0) is the index of edge e when that index is nonnegative. -/
theorem norm_col_apply {E : Nat} (hc : (⟨1, ![E]⟩ : Shape).BroadcastsInDim ⟨2, ![E, 1]⟩ ![0])
    (hs : (⟨0, ![]⟩ : Shape).BroadcastsInDim ⟨1, ![E]⟩ ![]) (k : BitVec 32) (src : IVec ⟨1, ![E]⟩ 32)
    (e : Fin E) (z : Fin 1) (h0 : 0 ≤ (src (ix1 e)).toInt) :
    broadcastInDim ⟨2, ![E, 1]⟩ ![0] hc
      (select (cmpi .slt src (broadcastInDim ⟨1, ![E]⟩ ![] hs (constantI ⟨0, ![]⟩ 32 0#32)))
        (addi src (broadcastInDim ⟨1, ![E]⟩ ![] hs (constantI ⟨0, ![]⟩ 32 k))) src) (ix2 e z)
      = src (ix1 e) := by
  refine (bcast_col_apply hc _ e z).trans ?_
  exact norm_word (src (ix1 e)) k h0

/-! ## The row gather read at an index -/

section Gather
variable {α : Type}

abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q)
      = x (ix2 ⟨min (idx (ix2 e (0 : Fin 1))).toInt.toNat (N - 1), by omega⟩ q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    rw [hs]
    simp only [Nat.add_zero, Nat.zero_add]
    rfl

end Gather

/-! ## The row scatter: where an update lands -/

section Scatter

abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

theorem scatter_row_start0 :
    (rowScatterDims N E C wf).start (ix2 e q) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatter_row_start1 :
    (rowScatterDims N E C wf).start (ix2 e q) idx 1 = 0 := by
  unfold ScatterDims.start
  rw [dif_neg (show ¬ (1 : Fin 2) ∈ ([0] : List (Fin 2)) by decide)]

theorem scatter_row_window0 :
    (rowScatterDims N E C wf).window (ix2 e q) 0 = 0 := by
  rfl

theorem scatter_row_window1 :
    (rowScatterDims N E C wf).window (ix2 e q) 1 = q.val := by
  rfl

/-- An update (e, q) whose destination index, read signed, lies in the table lands at (that row, q). -/
theorem scatter_row_resultIdx (h0 : 0 ≤ (idx (ix2 e (0 : Fin 1))).toInt) (h1 : (idx (ix2 e (0 : Fin 1))).toInt < (N : Int)) :
    (rowScatterDims N E C wf).resultIdx? (ix2 e q) idx
      = some (ix2 ⟨(idx (ix2 e (0 : Fin 1))).toInt.toNat, by omega⟩ q) := by
  have hq := q.isLt
  unfold ScatterDims.resultIdx?
  have hall : ∀ a : Fin 2, 0 ≤ (rowScatterDims N E C wf).start (ix2 e q) idx a + ((rowScatterDims N E C wf).window (ix2 e q) a : Int)
      ∧ (rowScatterDims N E C wf).start (ix2 e q) idx a + ((rowScatterDims N E C wf).window (ix2 e q) a : Int)
        < ((⟨2, ![N, C]⟩ : Shape).size a : Int) := by
    intro a
    match a with
    | ⟨0, _⟩ =>
      show 0 ≤ (rowScatterDims N E C wf).start (ix2 e q) idx 0 + ((rowScatterDims N E C wf).window (ix2 e q) 0 : Int)
        ∧ (rowScatterDims N E C wf).start (ix2 e q) idx 0 + ((rowScatterDims N E C wf).window (ix2 e q) 0 : Int) < (N : Int)
      rw [scatter_row_start0, scatter_row_window0]; omega
    | ⟨1, _⟩ =>
      show 0 ≤ (rowScatterDims N E C wf).start (ix2 e q) idx 1 + ((rowScatterDims N E C wf).window (ix2 e q) 1 : Int)
        ∧ (rowScatterDims N E C wf).start (ix2 e q) idx 1 + ((rowScatterDims N E C wf).window (ix2 e q) 1 : Int) < (C : Int)
      rw [scatter_row_start1, scatter_row_window1]; omega
  rw [dif_pos hall]
  congr 1
  funext a
  refine Fin.ext ?_
  match a with
  | ⟨0, _⟩ =>
    show ((rowScatterDims N E C wf).start (ix2 e q) idx 0 + ((rowScatterDims N E C wf).window (ix2 e q) 0 : Int)).toNat = _
    rw [scatter_row_start0, scatter_row_window0]; simp
  | ⟨1, _⟩ =>
    show ((rowScatterDims N E C wf).start (ix2 e q) idx 1 + ((rowScatterDims N E C wf).window (ix2 e q) 1 : Int)).toNat = q.val
    rw [scatter_row_start1, scatter_row_window1]; simp

end Scatter

/-! ## The accumulating row scatter read at an index -/

/-- With every destination index inside the table, entry (n, q) of the accumulating scatter is the operand's entry plus
    the sum over the edges whose destination is n of the update at (edge, q). -/
theorem scatterAdd_row_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (hidx : ∀ e : Fin E, 0 ≤ (idx (ix2 e (0 : Fin 1))).toInt ∧ (idx (ix2 e (0 : Fin 1))).toInt < (N : Int))
    (n : Fin N) (q : Fin C) :
    Host.scatterAdd (F := Ideal) (rowScatterDims N E C wf) x idx upd (ix2 n q)
      = (x (ix2 n q) : EReal)
        + ∑ e : Fin E, if (idx (ix2 e (0 : Fin 1))).toInt.toNat = n.val then (upd (ix2 e q) : EReal) else 0 := by
  show (x (ix2 n q) : EReal)
      + ∑ j ∈ Finset.univ.filter (fun j => (rowScatterDims N E C wf).resultIdx? j idx = some (ix2 n q)), (upd j : EReal) = _
  congr 1
  rw [Finset.sum_filter, sum_idx2]
  refine Finset.sum_congr rfl (fun e _ => ?_)
  have key : ∀ q' : Fin C, ((rowScatterDims N E C wf).resultIdx? (ix2 e q') idx = some (ix2 n q))
      ↔ ((idx (ix2 e (0 : Fin 1))).toInt.toNat = n.val ∧ q' = q) := by
    intro q'
    rw [scatter_row_resultIdx wf idx e q' (hidx e).1 (hidx e).2, Option.some.injEq]
    constructor
    · intro h
      exact ⟨congrArg Fin.val (congrFun h 0), congrFun h 1⟩
    · rintro ⟨h0, rfl⟩
      have hn : (⟨(idx (ix2 e (0 : Fin 1))).toInt.toNat, by have := hidx e; omega⟩ : Fin N) = n := Fin.ext h0
      rw [hn]
  simp only [key]
  by_cases hA : (idx (ix2 e (0 : Fin 1))).toInt.toNat = n.val
  · simp only [hA, true_and, if_true]
    rw [Finset.sum_ite_eq' Finset.univ q (fun q' => (upd (ix2 e q') : EReal))]
    simp
  · simp only [hA, false_and, if_false]
    exact Finset.sum_const_zero

/-! ## One aggregation of the reference, as the sum over the edges -/

/-- The target function read at (n, d). -/
theorem agg_apply {ns nd E : Nat} (hns : 0 < ns) (tbl : FVec Ideal ⟨2, ![ns, 64]⟩ .f32) (src dst : IVec ⟨1, ![E]⟩ 32)
    (sc : FVec Ideal ⟨1, ![E]⟩ .f32) (n : Fin nd) (d : Fin 64) :
    Cert.AggSpec.agg ns nd E hns tbl src dst sc (ix2 n d)
      = ∑ e : Fin E, if (dst (ix1 e)).toNat = n.val then
          ((tbl (ix2 (⟨(src (ix1 e)).toNat % ns, Nat.mod_lt _ hns⟩ : Fin ns) d) : EReal) * (sc (ix1 e) : EReal) : EReal)
        else 0 := rfl

/-- A scatter-add, onto a zero array at the destination indices, of the scales times the table's rows gathered at the
    (normalised) source indices is the aggregation over the edges, when every index lies in its table. -/
theorem agg_ref {ns nd E : Nat} (hns : 0 < ns)
    (wfg : GatherDims.WF ⟨2, ![ns, 64]⟩ ⟨2, ![E, 1]⟩ ⟨2, ![E, 64]⟩ [1] [0] [] [0] [] 1 ![1, 64])
    (wfs : ScatterDims.WF ⟨2, ![nd, 64]⟩ ⟨2, ![E, 1]⟩ ⟨2, ![E, 64]⟩ [1] [0] [0] 1)
    (hz : (⟨0, ![]⟩ : Shape).BroadcastsInDim ⟨2, ![nd, 64]⟩ ![])
    (hs : (⟨0, ![]⟩ : Shape).BroadcastsInDim ⟨1, ![E]⟩ ![])
    (hc : (⟨1, ![E]⟩ : Shape).BroadcastsInDim ⟨2, ![E, 1]⟩ ![0])
    (hcr : (⟨2, ![E, 1]⟩ : Shape).BroadcastsInDim ⟨2, ![E, 64]⟩ ![0, 1])
    (k : BitVec 32)
    (tbl : FVec Ideal ⟨2, ![ns, 64]⟩ .f32) (src dst : IVec ⟨1, ![E]⟩ 32) (sc : FVec Ideal ⟨1, ![E]⟩ .f32)
    (hsrc : ∀ i, 0 ≤ (src i).toInt ∧ (src i).toInt < (ns : Int))
    (hdst : ∀ i, 0 ≤ (dst i).toInt ∧ (dst i).toInt < (nd : Int)) :
    Host.scatterAdd (F := Ideal) (rowScatterDims nd E 64 wfs)
        (broadcastInDim ⟨2, ![nd, 64]⟩ ![] hz (constant (F := Ideal) ⟨0, ![]⟩ .f32 0x00000000#32))
        (broadcastInDim ⟨2, ![E, 1]⟩ ![0] hc dst)
        (mulf (broadcastInDim ⟨2, ![E, 64]⟩ ![0, 1] hcr (broadcastInDim ⟨2, ![E, 1]⟩ ![0] hc sc))
          (Host.gather (rowGatherDims ns E 64 wfg) tbl
            (broadcastInDim ⟨2, ![E, 1]⟩ ![0] hc
              (select (cmpi .slt src (broadcastInDim ⟨1, ![E]⟩ ![] hs (constantI ⟨0, ![]⟩ 32 0#32)))
                (addi src (broadcastInDim ⟨1, ![E]⟩ ![] hs (constantI ⟨0, ![]⟩ 32 k))) src))))
      = Cert.AggSpec.agg ns nd E hns tbl src dst sc := by
  funext i
  obtain ⟨n, d, rfl⟩ : ∃ (n : Fin nd) (d : Fin 64), i = ix2 n d := ⟨i 0, i 1, eq_ix2 i⟩
  refine (scatterAdd_row_apply wfs _ _ _ ?_ n d).trans ?_
  · intro e
    rw [bcast_col_apply hc dst e 0]
    exact hdst (ix1 e)
  · rw [agg_apply hns tbl src dst sc n d, broadcastInDim_scalar_apply hz _ (ix2 n d), constant_apply,
      Ideal.ofBits_zero_f32, zero_add]
    refine Finset.sum_congr rfl (fun e _ => ?_)
    rw [bcast_col_apply hc dst e 0, toInt_toNat_of_nonneg _ (hdst (ix1 e)).1]
    refine if_congr Iff.rfl ?_ rfl
    have hlt : (src (ix1 e)).toNat < ns := by
      have h1 := toInt_toNat_of_nonneg _ (hsrc (ix1 e)).1
      have h2 := (hsrc (ix1 e)).2
      omega
    rw [mulf_apply, bcast_colrow_apply hcr _ e d, bcast_col_apply hc sc e 0, gather_row_apply hns wfg tbl _ e d]
    refine (mul_comm _ _).trans ?_
    refine congrArg (fun r => (tbl (ix2 r d) : EReal) * (sc (ix1 e) : EReal)) (Fin.ext ?_)
    dsimp only
    rw [norm_col_apply hc hs k src e 0 (hsrc (ix1 e)).1, toInt_toNat_of_nonneg _ (hsrc (ix1 e)).1,
      Nat.mod_eq_of_lt hlt]
    omega

/-! ## The user graph's aggregation of the user table -/

open Cert.ReferenceIdeal in
/-- What the reference computes for the aggregation over the user graph's edges is the sum over those edges. -/
theorem aggR0 (tbl : FVec Ideal S27094x64 .f32) (src dst : IVec S541880 32) (sc : FVec Ideal S541880 .f32)
    (hsrc : ∀ i, 0 ≤ (src i).toInt ∧ (src i).toInt < 27094) (hdst : ∀ i, 0 ≤ (dst i).toInt ∧ (dst i).toInt < 27094) :
    Cert.ReferenceIdeal.RStages.v40 (F := Ideal) dst sc tbl src = Cert.AggSpec.aggUU tbl src dst sc := by
  unfold Cert.ReferenceIdeal.RStages.v40
  exact agg_ref (ns := 27094) (nd := 27094) (E := 541880) (by decide) _ _ _ _ _ _ 27094#32 tbl src dst sc
    (fun i => ⟨(hsrc i).1, by have := (hsrc i).2; omega⟩) (fun i => ⟨(hdst i).1, by have := (hdst i).2; omega⟩)

end Cert.AggR0

end
-- ==== Proof.AggR1.lean ====
/-
  The reference side of one graph aggregation (a segment sum of scaled gathered rows), read index by index at the extended
  reals: a scatter-add, onto a zero array at the destination indices, of the edge scales times the table rows gathered at
  the source indices is the plain sum over the edges. The pieces, each over arbitrary table and edge-list sizes: a signed
  index inside its table reads the same unsigned, and the normalisation of negative indices leaves it alone; a vector laid as
  a column, and a column laid along rows, read at an index; the row gather reads the table's row at the start index clamped
  into the table; an update (e, q) of the row scatter lands at (destination of e, q), so entry (n, q) of the accumulating
  scatter is the operand's entry plus the sum over the edges with destination n of the update at (e, q); multiplication
  commutes. The last theorem instantiates the sizes.
-/
import proofs.«400075_j26585847562450_2_alg».proof.Proof.RStages
import proofs.«400075_j26585847562450_2_alg».proof.Proof.AggSpec
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Pipeline.Value
import Idealize.ShloMosaic.Lib.IdealHost

noncomputable section

namespace Cert.AggR1

open Idealize.ShloMosaic Idealize.ShloMosaic.ValueIdx

/-! ## Words: a signed index inside its table -/

/-- A word whose signed reading is nonnegative reads the same unsigned. -/
theorem toInt_toNat_of_nonneg (a : BitVec 32) (h : 0 ≤ a.toInt) : a.toInt.toNat = a.toNat := by
  have hc := BitVec.toInt_eq_toNat_cond a
  have hlt := a.isLt
  split at hc <;> omega

/-- The index normalisation (a negative index counts from the end) leaves a nonnegative index as it is. -/
theorem norm_word (a k : BitVec 32) (h : 0 ≤ a.toInt) :
    Scalar.select (IntOp.cmpi .slt a 0#32) (IntOp.addi a k) a = a := by
  have hs : a.slt 0#32 = false := by
    rw [BitVec.slt_eq_decide, BitVec.toInt_zero]
    exact decide_eq_false (by omega)
  show Scalar.select (BitVec.ofBool (a.slt 0#32)) (IntOp.addi a k) a = a
  rw [hs]
  exact select_zero _ _

/-! ## Layout operations read at an index -/

section Layout
variable {α : Type}

/-- A vector laid as an [E × 1] column reads, at (e, 0), the vector at e. -/
theorem bcast_col_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply ![0] h v (ix2 e z) (ix1 e) ?_
  intro a
  match a with
  | ⟨0, _⟩ =>
    show e.val = if E = 1 then 0 else e.val
    split
    · have := e.isLt; omega
    · rfl

/-- An [E × 1] column laid along the rows of an [E × C] rectangle reads, at (e, q), the column at (e, 0). -/
theorem bcast_colrow_apply {E C : Nat} (h : (⟨2, ![E, 1]⟩ : Shape).BroadcastsInDim ⟨2, ![E, C]⟩ ![0, 1])
    (v : (⟨2, ![E, 1]⟩ : Shape).Idx → α) (e : Fin E) (q : Fin C) :
    broadcastInDim ⟨2, ![E, C]⟩ ![0, 1] h v (ix2 e q) = v (ix2 e (0 : Fin 1)) := by
  refine broadcastInDim_apply ![0, 1] h v (ix2 e q) (ix2 e (0 : Fin 1)) ?_
  intro a
  match a with
  | ⟨0, _⟩ =>
    show e.val = if E = 1 then 0 else e.val
    split
    · have := e.isLt; omega
    · rfl
  | ⟨1, _⟩ =>
    show (0 : Nat) = if (1 : Nat) = 1 then 0 else q.val
    rfl

end Layout

/-- The normalised index column at (e, 0) is the index of edge e when that index is nonnegative. -/
theorem norm_col_apply {E : Nat} (hc : (⟨1, ![E]⟩ : Shape).BroadcastsInDim ⟨2, ![E, 1]⟩ ![0])
    (hs : (⟨0, ![]⟩ : Shape).BroadcastsInDim ⟨1, ![E]⟩ ![]) (k : BitVec 32) (src : IVec ⟨1, ![E]⟩ 32)
    (e : Fin E) (z : Fin 1) (h0 : 0 ≤ (src (ix1 e)).toInt) :
    broadcastInDim ⟨2, ![E, 1]⟩ ![0] hc
      (select (cmpi .slt src (broadcastInDim ⟨1, ![E]⟩ ![] hs (constantI ⟨0, ![]⟩ 32 0#32)))
        (addi src (broadcastInDim ⟨1, ![E]⟩ ![] hs (constantI ⟨0, ![]⟩ 32 k))) src) (ix2 e z)
      = src (ix1 e) := by
  refine (bcast_col_apply hc _ e z).trans ?_
  exact norm_word (src (ix1 e)) k h0

/-! ## The row gather read at an index -/

section Gather
variable {α : Type}

abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q)
      = x (ix2 ⟨min (idx (ix2 e (0 : Fin 1))).toInt.toNat (N - 1), by omega⟩ q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    rw [hs]
    simp only [Nat.add_zero, Nat.zero_add]
    rfl

end Gather

/-! ## The row scatter: where an update lands -/

section Scatter

abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

theorem scatter_row_start0 :
    (rowScatterDims N E C wf).start (ix2 e q) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatter_row_start1 :
    (rowScatterDims N E C wf).start (ix2 e q) idx 1 = 0 := by
  unfold ScatterDims.start
  rw [dif_neg (show ¬ (1 : Fin 2) ∈ ([0] : List (Fin 2)) by decide)]

theorem scatter_row_window0 :
    (rowScatterDims N E C wf).window (ix2 e q) 0 = 0 := by
  rfl

theorem scatter_row_window1 :
    (rowScatterDims N E C wf).window (ix2 e q) 1 = q.val := by
  rfl

/-- An update (e, q) whose destination index, read signed, lies in the table lands at (that row, q). -/
theorem scatter_row_resultIdx (h0 : 0 ≤ (idx (ix2 e (0 : Fin 1))).toInt) (h1 : (idx (ix2 e (0 : Fin 1))).toInt < (N : Int)) :
    (rowScatterDims N E C wf).resultIdx? (ix2 e q) idx
      = some (ix2 ⟨(idx (ix2 e (0 : Fin 1))).toInt.toNat, by omega⟩ q) := by
  have hq := q.isLt
  unfold ScatterDims.resultIdx?
  have hall : ∀ a : Fin 2, 0 ≤ (rowScatterDims N E C wf).start (ix2 e q) idx a + ((rowScatterDims N E C wf).window (ix2 e q) a : Int)
      ∧ (rowScatterDims N E C wf).start (ix2 e q) idx a + ((rowScatterDims N E C wf).window (ix2 e q) a : Int)
        < ((⟨2, ![N, C]⟩ : Shape).size a : Int) := by
    intro a
    match a with
    | ⟨0, _⟩ =>
      show 0 ≤ (rowScatterDims N E C wf).start (ix2 e q) idx 0 + ((rowScatterDims N E C wf).window (ix2 e q) 0 : Int)
        ∧ (rowScatterDims N E C wf).start (ix2 e q) idx 0 + ((rowScatterDims N E C wf).window (ix2 e q) 0 : Int) < (N : Int)
      rw [scatter_row_start0, scatter_row_window0]; omega
    | ⟨1, _⟩ =>
      show 0 ≤ (rowScatterDims N E C wf).start (ix2 e q) idx 1 + ((rowScatterDims N E C wf).window (ix2 e q) 1 : Int)
        ∧ (rowScatterDims N E C wf).start (ix2 e q) idx 1 + ((rowScatterDims N E C wf).window (ix2 e q) 1 : Int) < (C : Int)
      rw [scatter_row_start1, scatter_row_window1]; omega
  rw [dif_pos hall]
  congr 1
  funext a
  refine Fin.ext ?_
  match a with
  | ⟨0, _⟩ =>
    show ((rowScatterDims N E C wf).start (ix2 e q) idx 0 + ((rowScatterDims N E C wf).window (ix2 e q) 0 : Int)).toNat = _
    rw [scatter_row_start0, scatter_row_window0]; simp
  | ⟨1, _⟩ =>
    show ((rowScatterDims N E C wf).start (ix2 e q) idx 1 + ((rowScatterDims N E C wf).window (ix2 e q) 1 : Int)).toNat = q.val
    rw [scatter_row_start1, scatter_row_window1]; simp

end Scatter

/-! ## The accumulating row scatter read at an index -/

/-- With every destination index inside the table, entry (n, q) of the accumulating scatter is the operand's entry plus
    the sum over the edges whose destination is n of the update at (edge, q). -/
theorem scatterAdd_row_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (hidx : ∀ e : Fin E, 0 ≤ (idx (ix2 e (0 : Fin 1))).toInt ∧ (idx (ix2 e (0 : Fin 1))).toInt < (N : Int))
    (n : Fin N) (q : Fin C) :
    Host.scatterAdd (F := Ideal) (rowScatterDims N E C wf) x idx upd (ix2 n q)
      = (x (ix2 n q) : EReal)
        + ∑ e : Fin E, if (idx (ix2 e (0 : Fin 1))).toInt.toNat = n.val then (upd (ix2 e q) : EReal) else 0 := by
  show (x (ix2 n q) : EReal)
      + ∑ j ∈ Finset.univ.filter (fun j => (rowScatterDims N E C wf).resultIdx? j idx = some (ix2 n q)), (upd j : EReal) = _
  congr 1
  rw [Finset.sum_filter, sum_idx2]
  refine Finset.sum_congr rfl (fun e _ => ?_)
  have key : ∀ q' : Fin C, ((rowScatterDims N E C wf).resultIdx? (ix2 e q') idx = some (ix2 n q))
      ↔ ((idx (ix2 e (0 : Fin 1))).toInt.toNat = n.val ∧ q' = q) := by
    intro q'
    rw [scatter_row_resultIdx wf idx e q' (hidx e).1 (hidx e).2, Option.some.injEq]
    constructor
    · intro h
      exact ⟨congrArg Fin.val (congrFun h 0), congrFun h 1⟩
    · rintro ⟨h0, rfl⟩
      have hn : (⟨(idx (ix2 e (0 : Fin 1))).toInt.toNat, by have := hidx e; omega⟩ : Fin N) = n := Fin.ext h0
      rw [hn]
  simp only [key]
  by_cases hA : (idx (ix2 e (0 : Fin 1))).toInt.toNat = n.val
  · simp only [hA, true_and, if_true]
    rw [Finset.sum_ite_eq' Finset.univ q (fun q' => (upd (ix2 e q') : EReal))]
    simp
  · simp only [hA, false_and, if_false]
    exact Finset.sum_const_zero

/-! ## One aggregation of the reference, as the sum over the edges -/

/-- The target function read at (n, d). -/
theorem agg_apply {ns nd E : Nat} (hns : 0 < ns) (tbl : FVec Ideal ⟨2, ![ns, 64]⟩ .f32) (src dst : IVec ⟨1, ![E]⟩ 32)
    (sc : FVec Ideal ⟨1, ![E]⟩ .f32) (n : Fin nd) (d : Fin 64) :
    Cert.AggSpec.agg ns nd E hns tbl src dst sc (ix2 n d)
      = ∑ e : Fin E, if (dst (ix1 e)).toNat = n.val then
          ((tbl (ix2 (⟨(src (ix1 e)).toNat % ns, Nat.mod_lt _ hns⟩ : Fin ns) d) : EReal) * (sc (ix1 e) : EReal) : EReal)
        else 0 := rfl

/-- A scatter-add, onto a zero array at the destination indices, of the scales times the table's rows gathered at the
    (normalised) source indices is the aggregation over the edges, when every index lies in its table. -/
theorem agg_ref {ns nd E : Nat} (hns : 0 < ns)
    (wfg : GatherDims.WF ⟨2, ![ns, 64]⟩ ⟨2, ![E, 1]⟩ ⟨2, ![E, 64]⟩ [1] [0] [] [0] [] 1 ![1, 64])
    (wfs : ScatterDims.WF ⟨2, ![nd, 64]⟩ ⟨2, ![E, 1]⟩ ⟨2, ![E, 64]⟩ [1] [0] [0] 1)
    (hz : (⟨0, ![]⟩ : Shape).BroadcastsInDim ⟨2, ![nd, 64]⟩ ![])
    (hs : (⟨0, ![]⟩ : Shape).BroadcastsInDim ⟨1, ![E]⟩ ![])
    (hc : (⟨1, ![E]⟩ : Shape).BroadcastsInDim ⟨2, ![E, 1]⟩ ![0])
    (hcr : (⟨2, ![E, 1]⟩ : Shape).BroadcastsInDim ⟨2, ![E, 64]⟩ ![0, 1])
    (k : BitVec 32)
    (tbl : FVec Ideal ⟨2, ![ns, 64]⟩ .f32) (src dst : IVec ⟨1, ![E]⟩ 32) (sc : FVec Ideal ⟨1, ![E]⟩ .f32)
    (hsrc : ∀ i, 0 ≤ (src i).toInt ∧ (src i).toInt < (ns : Int))
    (hdst : ∀ i, 0 ≤ (dst i).toInt ∧ (dst i).toInt < (nd : Int)) :
    Host.scatterAdd (F := Ideal) (rowScatterDims nd E 64 wfs)
        (broadcastInDim ⟨2, ![nd, 64]⟩ ![] hz (constant (F := Ideal) ⟨0, ![]⟩ .f32 0x00000000#32))
        (broadcastInDim ⟨2, ![E, 1]⟩ ![0] hc dst)
        (mulf (broadcastInDim ⟨2, ![E, 64]⟩ ![0, 1] hcr (broadcastInDim ⟨2, ![E, 1]⟩ ![0] hc sc))
          (Host.gather (rowGatherDims ns E 64 wfg) tbl
            (broadcastInDim ⟨2, ![E, 1]⟩ ![0] hc
              (select (cmpi .slt src (broadcastInDim ⟨1, ![E]⟩ ![] hs (constantI ⟨0, ![]⟩ 32 0#32)))
                (addi src (broadcastInDim ⟨1, ![E]⟩ ![] hs (constantI ⟨0, ![]⟩ 32 k))) src))))
      = Cert.AggSpec.agg ns nd E hns tbl src dst sc := by
  funext i
  obtain ⟨n, d, rfl⟩ : ∃ (n : Fin nd) (d : Fin 64), i = ix2 n d := ⟨i 0, i 1, eq_ix2 i⟩
  refine (scatterAdd_row_apply wfs _ _ _ ?_ n d).trans ?_
  · intro e
    rw [bcast_col_apply hc dst e 0]
    exact hdst (ix1 e)
  · rw [agg_apply hns tbl src dst sc n d, broadcastInDim_scalar_apply hz _ (ix2 n d), constant_apply,
      Ideal.ofBits_zero_f32, zero_add]
    refine Finset.sum_congr rfl (fun e _ => ?_)
    rw [bcast_col_apply hc dst e 0, toInt_toNat_of_nonneg _ (hdst (ix1 e)).1]
    refine if_congr Iff.rfl ?_ rfl
    have hlt : (src (ix1 e)).toNat < ns := by
      have h1 := toInt_toNat_of_nonneg _ (hsrc (ix1 e)).1
      have h2 := (hsrc (ix1 e)).2
      omega
    rw [mulf_apply, bcast_colrow_apply hcr _ e d, bcast_col_apply hc sc e 0, gather_row_apply hns wfg tbl _ e d]
    refine (mul_comm _ _).trans ?_
    refine congrArg (fun r => (tbl (ix2 r d) : EReal) * (sc (ix1 e) : EReal)) (Fin.ext ?_)
    dsimp only
    rw [norm_col_apply hc hs k src e 0 (hsrc (ix1 e)).1, toInt_toNat_of_nonneg _ (hsrc (ix1 e)).1,
      Nat.mod_eq_of_lt hlt]
    omega

/-! ## The spot graph's aggregation of the spot table -/

open Cert.ReferenceIdeal in
/-- What the reference computes for the aggregation over the spot graph's edges is the sum over those edges. -/
theorem aggR1 (tbl : FVec Ideal S42852x64 .f32) (src dst : IVec S1285560 32) (sc : FVec Ideal S1285560 .f32)
    (hsrc : ∀ i, 0 ≤ (src i).toInt ∧ (src i).toInt < 42852) (hdst : ∀ i, 0 ≤ (dst i).toInt ∧ (dst i).toInt < 42852) :
    Cert.ReferenceIdeal.RStages.v81 (F := Ideal) dst sc tbl src = Cert.AggSpec.aggSS tbl src dst sc := by
  unfold Cert.ReferenceIdeal.RStages.v81
  exact agg_ref (ns := 42852) (nd := 42852) (E := 1285560) (by decide) _ _ _ _ _ _ 42852#32 tbl src dst sc
    (fun i => ⟨(hsrc i).1, by have := (hsrc i).2; omega⟩) (fun i => ⟨(hdst i).1, by have := (hdst i).2; omega⟩)

end Cert.AggR1

end
-- ==== Proof.AggR2.lean ====
/-
  The reference side of one graph aggregation, read index by index at the extended reals.

  The reference computes an aggregation as a scatter-add, onto a zero array, of the rows of a table gathered at the edges'
  source indices and multiplied by the edges' scales, the rows landing at the edges' destination indices. Read at entry
  (n, d) this is the plain sum, over the edges e whose destination is n, of table (source e, d) times scale e:

  * a source index that is non-negative is left alone by the index normalisation (add the table's length to a negative
    index), and one below the table's length is left alone by the gather's clamp, so the gather reads the table's row at
    the source index itself;
  * the scatter reads each destination index signed and does not clamp it; the row axis is the inserted one and the
    column axis the window, so update (e, c) lands at (destination e, c), and the filtered sum over the updates that land
    at (n, d) is the sum over the edges with destination n of update (e, d);
  * the zero array contributes 0.

  The lemmas on the gather, the scatter and the broadcasts are stated for arbitrary sizes, with the dimension numbers as
  hypotheses (each an equation between short axis lists); the last theorem instantiates them at this program's sizes.
-/
import proofs.«400075_j26585847562450_2_alg».proof.Proof.RStages
import proofs.«400075_j26585847562450_2_alg».proof.Proof.AggSpec
import Idealize.ShloMosaic.PureOps.Ideal
import Idealize.ShloMosaic.PureOps.Ideal.Laws
import Idealize.ShloMosaic.Lib.ValueIdx
import Idealize.ShloMosaic.Lib.ValueIdxRank1

set_option maxRecDepth 16384

noncomputable section

namespace Cert.AggR2

open Cert.ReferenceIdeal Idealize.ShloMosaic Idealize.ShloMosaic.ValueIdx

/-! ## Words -/

/-- jnp's index normalisation (add the table's length to a negative index) leaves a non-negative word alone. -/
theorem norm_word (w K : BitVec 32) (h : 0 ≤ w.toInt) :
    Scalar.select (IntOp.cmpi .slt w 0#32) (IntOp.addi w K) w = w := by
  have hlt : w.slt 0#32 = false := by
    simp only [BitVec.slt, BitVec.toInt_zero, decide_eq_false_iff_not, not_lt]
    exact h
  have hc : IntOp.cmpi .slt w 0#32 = 0#1 := by
    show BitVec.ofBool (w.slt 0#32) = 0#1
    rw [hlt]; rfl
  rw [hc]
  exact select_zero _ _

/-- A 32-bit word that is non-negative read signed is its unsigned value. -/
theorem toInt_eq_toNat (w : BitVec 32) (h : 0 ≤ w.toInt) : w.toInt = (w.toNat : Int) := by
  have hlt := w.isLt
  rw [BitVec.toInt_eq_toNat_cond] at h ⊢
  split
  · rfl
  · next hh => rw [if_neg hh] at h; omega

/-! ## Coordinates of a rank-2 index at an axis known only by an equation -/

theorem ix2_val_axis0 {n m : Nat} (p : Fin n) (q : Fin m) (x : Fin (⟨2, ![n, m]⟩ : Shape).rank) (hx : x = 0) :
    ((ix2 p q) x).val = p.val := by subst hx; rfl

theorem ix2_val_axis1 {n m : Nat} (p : Fin n) (q : Fin m) (x : Fin (⟨2, ![n, m]⟩ : Shape).rank) (hx : x = 1) :
    ((ix2 p q) x).val = q.val := by subst hx; rfl

/-- Any entry of a one-element list is its element. -/
theorem getElem_of_eq_singleton {α : Type} (l : List α) (a : α) (h : l = [a]) (k : Nat) (hk : k < l.length) :
    l[k] = a := by
  subst h
  have hk0 : k = 0 := by simpa using hk
  subst hk0
  rfl

/-! ## Broadcasts read at an index -/

/-- A vector kept as an [n × 1] column reads, at (p, 0), the vector at p. -/
theorem col_apply {α : Type} {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-- An [n × 1] column laid across the m columns of a rectangle reads, at (p, q), the column at (p, 0). -/
theorem across_apply {α : Type} {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) := by
  simp only [broadcastInDim]
  congr 1
  funext a
  match a with
  | ⟨0, _⟩ =>
    apply Fin.ext
    have hp := p.isLt
    split
    · next h1 => change n = 1 at h1; show (0 : Nat) = p.val; omega
    · rfl
  | ⟨1, _⟩ =>
    apply Fin.ext
    split
    · rfl
    · next h1 => exact absurd rfl h1

/-! ## Axis lists of a rank-2 shape (facts about the rank alone) -/

theorem kept2_drop1 : ((List.finRange 2).filter (· ∉ [(1 : Fin 2)])) = [0] := by decide
theorem kept2_drop0 : ((List.finRange 2).filter (· ∉ [(0 : Fin 2)])) = [1] := by decide
theorem axes2_but1 : ((List.finRange 2).filter (fun b : Fin 2 => b.val ≠ 1)) = [0] := by decide
theorem idxOf2_00 : List.idxOf (0 : Fin 2) [0] = 0 := by decide
theorem idxOf2_11 : List.idxOf (1 : Fin 2) [1] = 0 := by decide
theorem one_notin2 : (1 : Fin 2) ∉ [(0 : Fin 2)] := by decide
theorem zero_notin2 : (0 : Fin 2) ∉ [(1 : Fin 2)] := by decide
theorem one_notin2_nil : (1 : Fin 2) ∉ [(0 : Fin 2)] ∧ (1 : Fin 2) ∉ ([] : List (Fin 2)) := by decide

/-! ## The row take: a gather of whole rows of a rank-2 table at a column of start indices -/

section Gather

variable {N E C w : Nat} (G : GatherDims ⟨2, ![N, C]⟩ ⟨2, ![E, 1]⟩ ⟨2, ![E, C]⟩)

/-- The start-indices index a result index (e, c) reads its one start component at is (e, 0). -/
theorem gather_siIdx (hoff : G.offsetDims = [1]) (hivd : G.indexVectorDim = 1)
    (e : Fin E) (c : Fin C) (k : Fin G.startIndexMap.length) (hk : k.val = 0) :
    G.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    refine ix2_val_axis0 e c _ ?_
    refine getElem_of_eq_singleton _ _ ?_ _ _
    show (⟨2, ![E, C]⟩ : Shape).kept G.offsetDims = [0]
    rw [hoff]; exact kept2_drop1
  | ⟨1, _⟩ =>
    unfold GatherDims.siIdx
    rw [dif_pos (by rw [hivd])]
    apply Fin.ext
    exact hk

/-- On the table's row axis the operand index is the start index read signed and clamped into the table. -/
theorem gather_axis0 (hoff : G.offsetDims = [1]) (hcoll : G.collapsedSliceDims = [0]) (hob : G.operandBatchingDims = [])
    (hsim : G.startIndexMap = [0]) (hivd : G.indexVectorDim = 1)
    (idx : IVec ⟨2, ![E, 1]⟩ w) (e : Fin E) (c : Fin C) :
    (G.operandIdx (ix2 e c) idx 0).val = min (idx (ix2 e 0)).toInt.toNat (N - 1) := by
  have hb : (0 : Fin 2) ∉ G.operandBatchingDims := by rw [hob]; exact List.not_mem_nil
  have hk : (0 : Fin 2) ∉ G.sKept := by rw [GatherDims.mem_sKept, hcoll]; simp
  have hm : (0 : Fin 2) ∈ G.startIndexMap := by rw [hsim]; exact List.mem_singleton.mpr rfl
  have hsl : G.sliceSizes 0 = 1 := G.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - G.sliceSizes 0) = min (idx (ix2 e 0)).toInt.toNat (N - 1)
  rw [hsl, gather_siIdx G hoff hivd e c _ (by show List.idxOf (0 : Fin 2) G.startIndexMap = 0; rw [hsim]; exact idxOf2_00)]

/-- On the table's column axis the operand index is the result's column. -/
theorem gather_axis1 (hoff : G.offsetDims = [1]) (hcoll : G.collapsedSliceDims = [0]) (hob : G.operandBatchingDims = [])
    (hsim : G.startIndexMap = [0])
    (idx : IVec ⟨2, ![E, 1]⟩ w) (e : Fin E) (c : Fin C) :
    (G.operandIdx (ix2 e c) idx 1).val = c.val := by
  have hb : (1 : Fin 2) ∉ G.operandBatchingDims := by rw [hob]; exact List.not_mem_nil
  have hk : (1 : Fin 2) ∈ G.sKept := by rw [GatherDims.mem_sKept, hcoll, hob]; exact one_notin2_nil
  have hm : (1 : Fin 2) ∉ G.startIndexMap := by rw [hsim]; exact one_notin2
  simp only [GatherDims.operandIdx, GatherDims.batchCoord_eq_zero _ _ _ hb, Nat.add_zero, GatherDims.start, dif_neg hm,
    Nat.zero_add, GatherDims.offCoord, dif_pos hk]
  refine ix2_val_axis1 e c _ ?_
  exact getElem_of_eq_singleton _ _ hoff _ _

/-- The gather reads, at (e, c), the table's row at e's start index (signed, clamped), column c. -/
theorem gather_rows {α : Type} (hoff : G.offsetDims = [1]) (hcoll : G.collapsedSliceDims = [0])
    (hob : G.operandBatchingDims = []) (hsim : G.startIndexMap = [0]) (hivd : G.indexVectorDim = 1)
    (x : (⟨2, ![N, C]⟩ : Shape).Idx → α) (idx : IVec ⟨2, ![E, 1]⟩ w) (e : Fin E) (c : Fin C) (hN : 0 < N) :
    Host.gather G x idx (ix2 e c)
      = x (ix2 (⟨min (idx (ix2 e 0)).toInt.toNat (N - 1), by omega⟩ : Fin N) c) := by
  unfold Host.gather
  congr 1
  funext a
  match a with
  | ⟨0, _⟩ => exact Fin.ext (gather_axis0 G hoff hcoll hob hsim hivd idx e c)
  | ⟨1, _⟩ => exact Fin.ext (gather_axis1 G hoff hcoll hob hsim idx e c)

/-- When e's start index, read signed, is a row r of the table, the gather reads row r there (the clamp does nothing). -/
theorem gather_rows_inrange {α : Type} (hoff : G.offsetDims = [1]) (hcoll : G.collapsedSliceDims = [0])
    (hob : G.operandBatchingDims = []) (hsim : G.startIndexMap = [0]) (hivd : G.indexVectorDim = 1)
    (x : (⟨2, ![N, C]⟩ : Shape).Idx → α) (idx : IVec ⟨2, ![E, 1]⟩ w) (e : Fin E) (c : Fin C) (r : Fin N)
    (hr : (idx (ix2 e 0)).toInt = (r.val : Int)) :
    Host.gather G x idx (ix2 e c) = x (ix2 r c) := by
  have hN : 0 < N := Nat.lt_of_le_of_lt (Nat.zero_le _) r.isLt
  rw [gather_rows G hoff hcoll hob hsim hivd x idx e c hN]
  have hfin : (⟨min (idx (ix2 e 0)).toInt.toNat (N - 1), by omega⟩ : Fin N) = r := by
    apply Fin.ext
    show min (idx (ix2 e 0)).toInt.toNat (N - 1) = r.val
    have hlt := r.isLt
    rw [hr, Int.toNat_natCast]
    omega
  rw [hfin]

end Gather

/-! ## The row scatter: updates (e, c) land at (start index of e, c) -/

section Scatter

variable {M E C w : Nat} (D : ScatterDims ⟨2, ![M, C]⟩ ⟨2, ![E, 1]⟩ ⟨2, ![E, C]⟩)

/-- The scatter-indices index an update index (e, c) reads its one start component at is (e, 0). -/
theorem scatter_siIdx (huw : D.updateWindowDims = [1]) (hivd : D.indexVectorDim = 1)
    (e : Fin E) (c : Fin C) (k : Fin D.scatterDimsToOperandDims.length) (hk : k.val = 0) :
    D.siIdx (ix2 e c) k = ix2 e 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    refine ix2_val_axis0 e c _ ?_
    refine getElem_of_eq_singleton _ _ ?_ _ _
    show (⟨2, ![E, C]⟩ : Shape).kept D.updateWindowDims = [0]
    rw [huw]; exact kept2_drop1
  | ⟨1, _⟩ =>
    unfold ScatterDims.siIdx
    rw [dif_pos (by rw [hivd])]
    apply Fin.ext
    exact hk

/-- On the row axis the window starts at the scatter index of the update's edge, read signed, not clamped. -/
theorem scatter_start0 (huw : D.updateWindowDims = [1]) (hsd : D.scatterDimsToOperandDims = [0])
    (hivd : D.indexVectorDim = 1) (idx : IVec ⟨2, ![E, 1]⟩ w) (e : Fin E) (c : Fin C) :
    D.start (ix2 e c) idx 0 = (idx (ix2 e 0)).toInt := by
  have hm : (0 : Fin 2) ∈ D.scatterDimsToOperandDims := by rw [hsd]; exact List.mem_singleton.mpr rfl
  unfold ScatterDims.start
  rw [dif_pos hm, scatter_siIdx D huw hivd e c _
    (by show List.idxOf (0 : Fin 2) D.scatterDimsToOperandDims = 0; rw [hsd]; exact idxOf2_00)]

/-- On the column axis the window starts at 0. -/
theorem scatter_start1 (hsd : D.scatterDimsToOperandDims = [0]) (idx : IVec ⟨2, ![E, 1]⟩ w) (e : Fin E) (c : Fin C) :
    D.start (ix2 e c) idx 1 = 0 := by
  have hm : (1 : Fin 2) ∉ D.scatterDimsToOperandDims := by rw [hsd]; exact one_notin2
  unfold ScatterDims.start
  rw [dif_neg hm]

theorem scatter_sKept (hiw : D.insertedWindowDims = [0]) : D.sKept = [1] := by
  show (⟨2, ![M, C]⟩ : Shape).kept D.insertedWindowDims = [1]
  rw [hiw]; exact kept2_drop0

/-- The row axis is inserted: its window coordinate is 0. -/
theorem scatter_window0 (hiw : D.insertedWindowDims = [0]) (e : Fin E) (c : Fin C) : D.window (ix2 e c) 0 = 0 := by
  have hk : (0 : Fin 2) ∉ D.sKept := by rw [scatter_sKept D hiw]; exact zero_notin2
  unfold ScatterDims.window
  rw [dif_neg hk]

/-- The column axis is the window: its window coordinate is the update's column. -/
theorem scatter_window1 (huw : D.updateWindowDims = [1]) (hiw : D.insertedWindowDims = [0]) (e : Fin E) (c : Fin C) :
    D.window (ix2 e c) 1 = c.val := by
  have hk : (1 : Fin 2) ∈ D.sKept := by rw [scatter_sKept D hiw]; exact List.mem_singleton.mpr rfl
  unfold ScatterDims.window
  rw [dif_pos hk]
  refine ix2_val_axis1 e c _ ?_
  exact getElem_of_eq_singleton _ _ huw _ _

/-- Update (e, c) lands at (n, d) exactly when e's scatter index, read signed, is n and c is d. -/
theorem scatter_lands_iff (huw : D.updateWindowDims = [1]) (hiw : D.insertedWindowDims = [0])
    (hsd : D.scatterDimsToOperandDims = [0]) (hivd : D.indexVectorDim = 1)
    (idx : IVec ⟨2, ![E, 1]⟩ w) (e : Fin E) (c : Fin C) (n : Fin M) (d : Fin C) :
    D.resultIdx? (ix2 e c) idx = some (ix2 n d) ↔ (idx (ix2 e 0)).toInt = (n.val : Int) ∧ c = d := by
  have A0 : D.start (ix2 e c) idx 0 + (D.window (ix2 e c) 0 : Int) = (idx (ix2 e 0)).toInt := by
    rw [scatter_start0 D huw hsd hivd, scatter_window0 D hiw]; simp
  have A1 : D.start (ix2 e c) idx 1 + (D.window (ix2 e c) 1 : Int) = (c.val : Int) := by
    rw [scatter_start1 D hsd, scatter_window1 D huw hiw]; simp
  have hn := n.isLt
  have hc := c.isLt
  unfold ScatterDims.resultIdx?
  constructor
  · intro hr
    split at hr
    · next h =>
      have hf := Option.some.inj hr
      have h0 : (D.start (ix2 e c) idx 0 + (D.window (ix2 e c) 0 : Int)).toNat = n.val :=
        congrArg (fun f : (⟨2, ![M, C]⟩ : Shape).Idx => (f 0).val) hf
      have h1 : (D.start (ix2 e c) idx 1 + (D.window (ix2 e c) 1 : Int)).toNat = d.val :=
        congrArg (fun f : (⟨2, ![M, C]⟩ : Shape).Idx => (f 1).val) hf
      have hp := (h 0).1
      rw [A0] at h0 hp
      rw [A1] at h1
      exact ⟨by omega, Fin.ext (by omega)⟩
    · exact absurd hr (by simp)
  · rintro ⟨ht, hcd⟩
    subst hcd
    have hcond : ∀ a, 0 ≤ D.start (ix2 e c) idx a + (D.window (ix2 e c) a : Int)
        ∧ D.start (ix2 e c) idx a + (D.window (ix2 e c) a : Int) < ((⟨2, ![M, C]⟩ : Shape).size a : Int) := by
      intro a
      match a with
      | ⟨0, _⟩ =>
        show 0 ≤ D.start (ix2 e c) idx 0 + (D.window (ix2 e c) 0 : Int)
          ∧ D.start (ix2 e c) idx 0 + (D.window (ix2 e c) 0 : Int) < (M : Int)
        rw [A0]; omega
      | ⟨1, _⟩ =>
        show 0 ≤ D.start (ix2 e c) idx 1 + (D.window (ix2 e c) 1 : Int)
          ∧ D.start (ix2 e c) idx 1 + (D.window (ix2 e c) 1 : Int) < (C : Int)
        rw [A1]; omega
    rw [dif_pos hcond]
    congr 1
    funext a
    match a with
    | ⟨0, _⟩ =>
      apply Fin.ext
      show (D.start (ix2 e c) idx 0 + (D.window (ix2 e c) 0 : Int)).toNat = n.val
      rw [A0]; omega
    | ⟨1, _⟩ =>
      apply Fin.ext
      show (D.start (ix2 e c) idx 1 + (D.window (ix2 e c) 1 : Int)).toNat = c.val
      rw [A1]; omega

/-- The accumulating scatter of rows, read at (n, d): the operand there plus the updates (e, d) of the edges e whose scatter
    index is n. -/
theorem scatterAdd_rows {φ : FTy} (huw : D.updateWindowDims = [1]) (hiw : D.insertedWindowDims = [0])
    (hsd : D.scatterDimsToOperandDims = [0]) (hivd : D.indexVectorDim = 1)
    (x : FVec Ideal ⟨2, ![M, C]⟩ φ) (idx : IVec ⟨2, ![E, 1]⟩ w) (u : FVec Ideal ⟨2, ![E, C]⟩ φ) (n : Fin M) (d : Fin C) :
    Host.scatterAdd (F := Ideal) D x idx u (ix2 n d)
      = (x (ix2 n d) : EReal)
        + ∑ e : Fin E, if (idx (ix2 e 0)).toInt = (n.val : Int) then (u (ix2 e d) : EReal) else 0 := by
  unfold Host.scatterAdd
  rw [Ideal.hostScatterAdd_def]
  unfold Ideal.hostScatterAdd
  congr 1
  rw [Finset.sum_filter, sum_idx2]
  refine Finset.sum_congr rfl fun e _ => ?_
  simp only [scatter_lands_iff D huw hiw hsd hivd idx e _ n d]
  by_cases ht : (idx (ix2 e 0)).toInt = (n.val : Int)
  · simp [ht]
  · simp [ht]

end Scatter

/-! ## One aggregation: gather the rows, scale them, scatter-add them onto a zero array -/

section Pipeline

variable {N M E C : Nat}

/-- The normalised source index of an edge whose index is non-negative is the index itself. -/
theorem norm_apply (b3 : (⟨0, ![]⟩ : Shape).BroadcastsInDim ⟨1, ![E]⟩ ![]) (K : BitVec 32) (src : IVec ⟨1, ![E]⟩ 32) (e : Fin E)
    (h : 0 ≤ (src (ix1 e)).toInt) :
    select (cmpi .slt src (broadcastInDim ⟨1, ![E]⟩ ![] b3 (constantI ⟨0, ![]⟩ 32 0#32)))
      (addi src (broadcastInDim ⟨1, ![E]⟩ ![] b3 (constantI ⟨0, ![]⟩ 32 K))) src (ix1 e) = src (ix1 e) :=
  norm_word (src (ix1 e)) K h

/-- Entry (n, d) of the aggregation is the sum, over the edges whose destination is n, of the table's row at the edge's
    source, column d, times the edge's scale. -/
theorem agg_pipeline (hN : 0 < N)
    (D : ScatterDims ⟨2, ![M, C]⟩ ⟨2, ![E, 1]⟩ ⟨2, ![E, C]⟩)
    (huw : D.updateWindowDims = [1]) (hiw : D.insertedWindowDims = [0])
    (hsd : D.scatterDimsToOperandDims = [0]) (hivdD : D.indexVectorDim = 1)
    (G : GatherDims ⟨2, ![N, C]⟩ ⟨2, ![E, 1]⟩ ⟨2, ![E, C]⟩)
    (hoff : G.offsetDims = [1]) (hcoll : G.collapsedSliceDims = [0]) (hob : G.operandBatchingDims = [])
    (hsim : G.startIndexMap = [0]) (hivdG : G.indexVectorDim = 1)
    (b0 : (⟨0, ![]⟩ : Shape).BroadcastsInDim ⟨2, ![M, C]⟩ ![])
    (b1 : (⟨1, ![E]⟩ : Shape).BroadcastsInDim ⟨2, ![E, 1]⟩ ![0])
    (b2 : (⟨2, ![E, 1]⟩ : Shape).BroadcastsInDim ⟨2, ![E, C]⟩ ![0, 1])
    (b3 : (⟨0, ![]⟩ : Shape).BroadcastsInDim ⟨1, ![E]⟩ ![])
    (K : BitVec 32)
    (tbl : FVec Ideal ⟨2, ![N, C]⟩ .f32) (src dst : IVec ⟨1, ![E]⟩ 32) (sc : FVec Ideal ⟨1, ![E]⟩ .f32)
    (hsrc : ∀ i, 0 ≤ (src i).toInt ∧ (src i).toInt < (N : Int))
    (hdst : ∀ i, 0 ≤ (dst i).toInt)
    (n : Fin M) (d : Fin C) :
    Host.scatterAdd (F := Ideal) D
        (broadcastInDim ⟨2, ![M, C]⟩ ![] b0 (constant (F := Ideal) ⟨0, ![]⟩ .f32 0x00000000#32))
        (broadcastInDim ⟨2, ![E, 1]⟩ ![0] b1 dst)
        (mulf
          (Host.gather G tbl (broadcastInDim ⟨2, ![E, 1]⟩ ![0] b1
            (select (cmpi .slt src (broadcastInDim ⟨1, ![E]⟩ ![] b3 (constantI ⟨0, ![]⟩ 32 0#32)))
              (addi src (broadcastInDim ⟨1, ![E]⟩ ![] b3 (constantI ⟨0, ![]⟩ 32 K))) src)))
          (broadcastInDim ⟨2, ![E, C]⟩ ![0, 1] b2 (broadcastInDim ⟨2, ![E, 1]⟩ ![0] b1 sc)))
        (ix2 n d)
      = ∑ e : Fin E, if (dst (ix1 e)).toNat = n.val then
          ((tbl (ix2 (⟨(src (ix1 e)).toNat % N, Nat.mod_lt _ hN⟩ : Fin N) d) : EReal) * (sc (ix1 e) : EReal) : EReal)
        else 0 := by
  refine (scatterAdd_rows D huw hiw hsd hivdD _ _ _ n d).trans ?_
  have hz : (broadcastInDim ⟨2, ![M, C]⟩ ![] b0 (constant (F := Ideal) ⟨0, ![]⟩ .f32 0x00000000#32) (ix2 n d) : EReal) = 0 :=
    Ideal.ofBits_zero_f32
  rw [hz, zero_add]
  refine Finset.sum_congr rfl fun e _ => ?_
  have hd := hdst (ix1 e)
  have hs := hsrc (ix1 e)
  have hsN : (src (ix1 e)).toNat < N := by have := toInt_eq_toNat _ hs.1; omega
  refine if_congr ?_ ?_ rfl
  · rw [col_apply b1 dst e 0, toInt_eq_toNat _ hd]
    exact Int.natCast_inj
  · have hr : (broadcastInDim ⟨2, ![E, 1]⟩ ![0] b1
          (select (cmpi .slt src (broadcastInDim ⟨1, ![E]⟩ ![] b3 (constantI ⟨0, ![]⟩ 32 0#32)))
            (addi src (broadcastInDim ⟨1, ![E]⟩ ![] b3 (constantI ⟨0, ![]⟩ 32 K))) src) (ix2 e 0)).toInt
        = (((⟨(src (ix1 e)).toNat % N, Nat.mod_lt _ hN⟩ : Fin N).val : Nat) : Int) := by
      rw [col_apply b1 _ e 0, norm_apply b3 K src e hs.1, toInt_eq_toNat _ hs.1]
      show ((src (ix1 e)).toNat : Int) = (((src (ix1 e)).toNat % N : Nat) : Int)
      rw [Nat.mod_eq_of_lt hsN]
    rw [mulf_apply, gather_rows_inrange G hoff hcoll hob hsim hivdG tbl _ e d _ hr, across_apply b2 _ e d,
      col_apply b1 sc e 0]

end Pipeline

/-! ## This program's aggregation of the spot table onto the user rows -/

/-- The reference's aggregation over the bipartite edges, from the spot table onto the user rows, is the plain sum over
    the edges. -/
theorem aggR2 (tbl : FVec Ideal S42852x64 .f32) (src dst : IVec S2000000 32) (sc : FVec Ideal S2000000 .f32)
    (hsrc : ∀ i, 0 ≤ (src i).toInt ∧ (src i).toInt < 42852) (hdst : ∀ i, 0 ≤ (dst i).toInt ∧ (dst i).toInt < 27094) :
    Cert.ReferenceIdeal.RStages.v119 (F := Ideal) dst tbl src sc = Cert.AggSpec.aggSU tbl src dst sc := by
  funext i
  obtain ⟨n, d, rfl⟩ : ∃ (n : Fin 27094) (d : Fin 64), i = ix2 n d := ⟨i 0, i 1, eq_ix2 i⟩
  unfold Cert.ReferenceIdeal.RStages.v119
  refine (agg_pipeline (N := 42852) (M := 27094) (E := 2000000) (C := 64) (by omega)
    scatter_S27094x64_S2000000x1_S2000000x64_1_0_0_1 rfl rfl rfl rfl
    gather_S42852x64_S2000000x1_S2000000x64_1_0_n_n_0_1_164 rfl rfl rfl rfl rfl
    Facts₀.bcast_S_S27094x64 Facts₀.bcast_S2000000_S2000000x1_0 Facts₀.bcast_S2000000x1_S2000000x64_0_1
    Facts₀.bcast_S_S2000000 42852#32 tbl src dst sc
    (fun i => ⟨(hsrc i).1, by have := (hsrc i).2; omega⟩) (fun i => (hdst i).1) n d).trans ?_
  rfl

end Cert.AggR2

end
-- ==== Proof.AggR3.lean ====
/- The reference side of one graph aggregation, read index by index at the extended reals.

  The reference computes an aggregation as a scatter-add, onto a zero array, of the rows of a table gathered at the edges'
  source indices and multiplied by the edges' scales, the rows landing at the edges' destination indices. Read at entry
  (n, d) this is the plain sum, over the edges e whose destination is n, of table (source e, d) times scale e:

  * a source index that is non-negative is left alone by the index normalisation (add the table's length to a negative
    index), and one below the table's length is left alone by the gather's clamp, so the gather reads the table's row at
    the source index itself;
  * the scatter reads each destination index signed and does not clamp it; the row axis is the inserted one and the
    column axis the window, so update (e, c) lands at (destination e, c), and the filtered sum over the updates that land
    at (n, d) is the sum over the edges with destination n of update (e, d);
  * the zero array contributes 0.

  The lemmas on the gather, the scatter and the broadcasts are stated for arbitrary sizes, with the dimension numbers as
  hypotheses (each an equation between short axis lists); the last theorem instantiates them at this program's sizes.
-/
import proofs.«400075_j26585847562450_2_alg».proof.Proof.RStages
import proofs.«400075_j26585847562450_2_alg».proof.Proof.AggSpec
import Idealize.ShloMosaic.PureOps.Ideal
import Idealize.ShloMosaic.PureOps.Ideal.Laws
import Idealize.ShloMosaic.Lib.ValueIdx
import Idealize.ShloMosaic.Lib.ValueIdxRank1

set_option maxRecDepth 16384

noncomputable section

namespace Cert.AggR3

open Cert.ReferenceIdeal Idealize.ShloMosaic Idealize.ShloMosaic.ValueIdx

/-! ## Words -/

/-- jnp's index normalisation (add the table's length to a negative index) leaves a non-negative word alone. -/
theorem norm_word (w K : BitVec 32) (h : 0 ≤ w.toInt) :
    Scalar.select (IntOp.cmpi .slt w 0#32) (IntOp.addi w K) w = w := by
  have hlt : w.slt 0#32 = false := by
    simp only [BitVec.slt, BitVec.toInt_zero, decide_eq_false_iff_not, not_lt]
    exact h
  have hc : IntOp.cmpi .slt w 0#32 = 0#1 := by
    show BitVec.ofBool (w.slt 0#32) = 0#1
    rw [hlt]; rfl
  rw [hc]
  exact select_zero _ _

/-- A 32-bit word that is non-negative read signed is its unsigned value. -/
theorem toInt_eq_toNat (w : BitVec 32) (h : 0 ≤ w.toInt) : w.toInt = (w.toNat : Int) := by
  have hlt := w.isLt
  rw [BitVec.toInt_eq_toNat_cond] at h ⊢
  split
  · rfl
  · next hh => rw [if_neg hh] at h; omega

/-! ## Coordinates of a rank-2 index at an axis known only by an equation -/

theorem ix2_val_axis0 {n m : Nat} (p : Fin n) (q : Fin m) (x : Fin (⟨2, ![n, m]⟩ : Shape).rank) (hx : x = 0) :
    ((ix2 p q) x).val = p.val := by subst hx; rfl

theorem ix2_val_axis1 {n m : Nat} (p : Fin n) (q : Fin m) (x : Fin (⟨2, ![n, m]⟩ : Shape).rank) (hx : x = 1) :
    ((ix2 p q) x).val = q.val := by subst hx; rfl

/-- Any entry of a one-element list is its element. -/
theorem getElem_of_eq_singleton {α : Type} (l : List α) (a : α) (h : l = [a]) (k : Nat) (hk : k < l.length) :
    l[k] = a := by
  subst h
  have hk0 : k = 0 := by simpa using hk
  subst hk0
  rfl

/-! ## Broadcasts read at an index -/

/-- A vector kept as an [n × 1] column reads, at (p, 0), the vector at p. -/
theorem col_apply {α : Type} {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-- An [n × 1] column laid across the m columns of a rectangle reads, at (p, q), the column at (p, 0). -/
theorem across_apply {α : Type} {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) := by
  simp only [broadcastInDim]
  congr 1
  funext a
  match a with
  | ⟨0, _⟩ =>
    apply Fin.ext
    have hp := p.isLt
    split
    · next h1 => change n = 1 at h1; show (0 : Nat) = p.val; omega
    · rfl
  | ⟨1, _⟩ =>
    apply Fin.ext
    split
    · rfl
    · next h1 => exact absurd rfl h1

/-! ## Axis lists of a rank-2 shape (facts about the rank alone) -/

theorem kept2_drop1 : ((List.finRange 2).filter (· ∉ [(1 : Fin 2)])) = [0] := by decide
theorem kept2_drop0 : ((List.finRange 2).filter (· ∉ [(0 : Fin 2)])) = [1] := by decide
theorem axes2_but1 : ((List.finRange 2).filter (fun b : Fin 2 => b.val ≠ 1)) = [0] := by decide
theorem idxOf2_00 : List.idxOf (0 : Fin 2) [0] = 0 := by decide
theorem idxOf2_11 : List.idxOf (1 : Fin 2) [1] = 0 := by decide
theorem one_notin2 : (1 : Fin 2) ∉ [(0 : Fin 2)] := by decide
theorem zero_notin2 : (0 : Fin 2) ∉ [(1 : Fin 2)] := by decide
theorem one_notin2_nil : (1 : Fin 2) ∉ [(0 : Fin 2)] ∧ (1 : Fin 2) ∉ ([] : List (Fin 2)) := by decide

/-! ## The row take: a gather of whole rows of a rank-2 table at a column of start indices -/

section Gather

variable {N E C w : Nat} (G : GatherDims ⟨2, ![N, C]⟩ ⟨2, ![E, 1]⟩ ⟨2, ![E, C]⟩)

/-- The start-indices index a result index (e, c) reads its one start component at is (e, 0). -/
theorem gather_siIdx (hoff : G.offsetDims = [1]) (hivd : G.indexVectorDim = 1)
    (e : Fin E) (c : Fin C) (k : Fin G.startIndexMap.length) (hk : k.val = 0) :
    G.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    refine ix2_val_axis0 e c _ ?_
    refine getElem_of_eq_singleton _ _ ?_ _ _
    show (⟨2, ![E, C]⟩ : Shape).kept G.offsetDims = [0]
    rw [hoff]; exact kept2_drop1
  | ⟨1, _⟩ =>
    unfold GatherDims.siIdx
    rw [dif_pos (by rw [hivd])]
    apply Fin.ext
    exact hk

/-- On the table's row axis the operand index is the start index read signed and clamped into the table. -/
theorem gather_axis0 (hoff : G.offsetDims = [1]) (hcoll : G.collapsedSliceDims = [0]) (hob : G.operandBatchingDims = [])
    (hsim : G.startIndexMap = [0]) (hivd : G.indexVectorDim = 1)
    (idx : IVec ⟨2, ![E, 1]⟩ w) (e : Fin E) (c : Fin C) :
    (G.operandIdx (ix2 e c) idx 0).val = min (idx (ix2 e 0)).toInt.toNat (N - 1) := by
  have hb : (0 : Fin 2) ∉ G.operandBatchingDims := by rw [hob]; exact List.not_mem_nil
  have hk : (0 : Fin 2) ∉ G.sKept := by rw [GatherDims.mem_sKept, hcoll]; simp
  have hm : (0 : Fin 2) ∈ G.startIndexMap := by rw [hsim]; exact List.mem_singleton.mpr rfl
  have hsl : G.sliceSizes 0 = 1 := G.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - G.sliceSizes 0) = min (idx (ix2 e 0)).toInt.toNat (N - 1)
  rw [hsl, gather_siIdx G hoff hivd e c _ (by show List.idxOf (0 : Fin 2) G.startIndexMap = 0; rw [hsim]; exact idxOf2_00)]

/-- On the table's column axis the operand index is the result's column. -/
theorem gather_axis1 (hoff : G.offsetDims = [1]) (hcoll : G.collapsedSliceDims = [0]) (hob : G.operandBatchingDims = [])
    (hsim : G.startIndexMap = [0])
    (idx : IVec ⟨2, ![E, 1]⟩ w) (e : Fin E) (c : Fin C) :
    (G.operandIdx (ix2 e c) idx 1).val = c.val := by
  have hb : (1 : Fin 2) ∉ G.operandBatchingDims := by rw [hob]; exact List.not_mem_nil
  have hk : (1 : Fin 2) ∈ G.sKept := by rw [GatherDims.mem_sKept, hcoll, hob]; exact one_notin2_nil
  have hm : (1 : Fin 2) ∉ G.startIndexMap := by rw [hsim]; exact one_notin2
  simp only [GatherDims.operandIdx, GatherDims.batchCoord_eq_zero _ _ _ hb, Nat.add_zero, GatherDims.start, dif_neg hm,
    Nat.zero_add, GatherDims.offCoord, dif_pos hk]
  refine ix2_val_axis1 e c _ ?_
  exact getElem_of_eq_singleton _ _ hoff _ _

/-- The gather reads, at (e, c), the table's row at e's start index (signed, clamped), column c. -/
theorem gather_rows {α : Type} (hoff : G.offsetDims = [1]) (hcoll : G.collapsedSliceDims = [0])
    (hob : G.operandBatchingDims = []) (hsim : G.startIndexMap = [0]) (hivd : G.indexVectorDim = 1)
    (x : (⟨2, ![N, C]⟩ : Shape).Idx → α) (idx : IVec ⟨2, ![E, 1]⟩ w) (e : Fin E) (c : Fin C) (hN : 0 < N) :
    Host.gather G x idx (ix2 e c)
      = x (ix2 (⟨min (idx (ix2 e 0)).toInt.toNat (N - 1), by omega⟩ : Fin N) c) := by
  unfold Host.gather
  congr 1
  funext a
  match a with
  | ⟨0, _⟩ => exact Fin.ext (gather_axis0 G hoff hcoll hob hsim hivd idx e c)
  | ⟨1, _⟩ => exact Fin.ext (gather_axis1 G hoff hcoll hob hsim idx e c)

/-- When e's start index, read signed, is a row r of the table, the gather reads row r there (the clamp does nothing). -/
theorem gather_rows_inrange {α : Type} (hoff : G.offsetDims = [1]) (hcoll : G.collapsedSliceDims = [0])
    (hob : G.operandBatchingDims = []) (hsim : G.startIndexMap = [0]) (hivd : G.indexVectorDim = 1)
    (x : (⟨2, ![N, C]⟩ : Shape).Idx → α) (idx : IVec ⟨2, ![E, 1]⟩ w) (e : Fin E) (c : Fin C) (r : Fin N)
    (hr : (idx (ix2 e 0)).toInt = (r.val : Int)) :
    Host.gather G x idx (ix2 e c) = x (ix2 r c) := by
  have hN : 0 < N := Nat.lt_of_le_of_lt (Nat.zero_le _) r.isLt
  rw [gather_rows G hoff hcoll hob hsim hivd x idx e c hN]
  have hfin : (⟨min (idx (ix2 e 0)).toInt.toNat (N - 1), by omega⟩ : Fin N) = r := by
    apply Fin.ext
    show min (idx (ix2 e 0)).toInt.toNat (N - 1) = r.val
    have hlt := r.isLt
    rw [hr, Int.toNat_natCast]
    omega
  rw [hfin]

end Gather

/-! ## The row scatter: updates (e, c) land at (start index of e, c) -/

section Scatter

variable {M E C w : Nat} (D : ScatterDims ⟨2, ![M, C]⟩ ⟨2, ![E, 1]⟩ ⟨2, ![E, C]⟩)

/-- The scatter-indices index an update index (e, c) reads its one start component at is (e, 0). -/
theorem scatter_siIdx (huw : D.updateWindowDims = [1]) (hivd : D.indexVectorDim = 1)
    (e : Fin E) (c : Fin C) (k : Fin D.scatterDimsToOperandDims.length) (hk : k.val = 0) :
    D.siIdx (ix2 e c) k = ix2 e 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    refine ix2_val_axis0 e c _ ?_
    refine getElem_of_eq_singleton _ _ ?_ _ _
    show (⟨2, ![E, C]⟩ : Shape).kept D.updateWindowDims = [0]
    rw [huw]; exact kept2_drop1
  | ⟨1, _⟩ =>
    unfold ScatterDims.siIdx
    rw [dif_pos (by rw [hivd])]
    apply Fin.ext
    exact hk

/-- On the row axis the window starts at the scatter index of the update's edge, read signed, not clamped. -/
theorem scatter_start0 (huw : D.updateWindowDims = [1]) (hsd : D.scatterDimsToOperandDims = [0])
    (hivd : D.indexVectorDim = 1) (idx : IVec ⟨2, ![E, 1]⟩ w) (e : Fin E) (c : Fin C) :
    D.start (ix2 e c) idx 0 = (idx (ix2 e 0)).toInt := by
  have hm : (0 : Fin 2) ∈ D.scatterDimsToOperandDims := by rw [hsd]; exact List.mem_singleton.mpr rfl
  unfold ScatterDims.start
  rw [dif_pos hm, scatter_siIdx D huw hivd e c _
    (by show List.idxOf (0 : Fin 2) D.scatterDimsToOperandDims = 0; rw [hsd]; exact idxOf2_00)]

/-- On the column axis the window starts at 0. -/
theorem scatter_start1 (hsd : D.scatterDimsToOperandDims = [0]) (idx : IVec ⟨2, ![E, 1]⟩ w) (e : Fin E) (c : Fin C) :
    D.start (ix2 e c) idx 1 = 0 := by
  have hm : (1 : Fin 2) ∉ D.scatterDimsToOperandDims := by rw [hsd]; exact one_notin2
  unfold ScatterDims.start
  rw [dif_neg hm]

theorem scatter_sKept (hiw : D.insertedWindowDims = [0]) : D.sKept = [1] := by
  show (⟨2, ![M, C]⟩ : Shape).kept D.insertedWindowDims = [1]
  rw [hiw]; exact kept2_drop0

/-- The row axis is inserted: its window coordinate is 0. -/
theorem scatter_window0 (hiw : D.insertedWindowDims = [0]) (e : Fin E) (c : Fin C) : D.window (ix2 e c) 0 = 0 := by
  have hk : (0 : Fin 2) ∉ D.sKept := by rw [scatter_sKept D hiw]; exact zero_notin2
  unfold ScatterDims.window
  rw [dif_neg hk]

/-- The column axis is the window: its window coordinate is the update's column. -/
theorem scatter_window1 (huw : D.updateWindowDims = [1]) (hiw : D.insertedWindowDims = [0]) (e : Fin E) (c : Fin C) :
    D.window (ix2 e c) 1 = c.val := by
  have hk : (1 : Fin 2) ∈ D.sKept := by rw [scatter_sKept D hiw]; exact List.mem_singleton.mpr rfl
  unfold ScatterDims.window
  rw [dif_pos hk]
  refine ix2_val_axis1 e c _ ?_
  exact getElem_of_eq_singleton _ _ huw _ _

/-- Update (e, c) lands at (n, d) exactly when e's scatter index, read signed, is n and c is d. -/
theorem scatter_lands_iff (huw : D.updateWindowDims = [1]) (hiw : D.insertedWindowDims = [0])
    (hsd : D.scatterDimsToOperandDims = [0]) (hivd : D.indexVectorDim = 1)
    (idx : IVec ⟨2, ![E, 1]⟩ w) (e : Fin E) (c : Fin C) (n : Fin M) (d : Fin C) :
    D.resultIdx? (ix2 e c) idx = some (ix2 n d) ↔ (idx (ix2 e 0)).toInt = (n.val : Int) ∧ c = d := by
  have A0 : D.start (ix2 e c) idx 0 + (D.window (ix2 e c) 0 : Int) = (idx (ix2 e 0)).toInt := by
    rw [scatter_start0 D huw hsd hivd, scatter_window0 D hiw]; simp
  have A1 : D.start (ix2 e c) idx 1 + (D.window (ix2 e c) 1 : Int) = (c.val : Int) := by
    rw [scatter_start1 D hsd, scatter_window1 D huw hiw]; simp
  have hn := n.isLt
  have hc := c.isLt
  unfold ScatterDims.resultIdx?
  constructor
  · intro hr
    split at hr
    · next h =>
      have hf := Option.some.inj hr
      have h0 : (D.start (ix2 e c) idx 0 + (D.window (ix2 e c) 0 : Int)).toNat = n.val :=
        congrArg (fun f : (⟨2, ![M, C]⟩ : Shape).Idx => (f 0).val) hf
      have h1 : (D.start (ix2 e c) idx 1 + (D.window (ix2 e c) 1 : Int)).toNat = d.val :=
        congrArg (fun f : (⟨2, ![M, C]⟩ : Shape).Idx => (f 1).val) hf
      have hp := (h 0).1
      rw [A0] at h0 hp
      rw [A1] at h1
      exact ⟨by omega, Fin.ext (by omega)⟩
    · exact absurd hr (by simp)
  · rintro ⟨ht, hcd⟩
    subst hcd
    have hcond : ∀ a, 0 ≤ D.start (ix2 e c) idx a + (D.window (ix2 e c) a : Int)
        ∧ D.start (ix2 e c) idx a + (D.window (ix2 e c) a : Int) < ((⟨2, ![M, C]⟩ : Shape).size a : Int) := by
      intro a
      match a with
      | ⟨0, _⟩ =>
        show 0 ≤ D.start (ix2 e c) idx 0 + (D.window (ix2 e c) 0 : Int)
          ∧ D.start (ix2 e c) idx 0 + (D.window (ix2 e c) 0 : Int) < (M : Int)
        rw [A0]; omega
      | ⟨1, _⟩ =>
        show 0 ≤ D.start (ix2 e c) idx 1 + (D.window (ix2 e c) 1 : Int)
          ∧ D.start (ix2 e c) idx 1 + (D.window (ix2 e c) 1 : Int) < (C : Int)
        rw [A1]; omega
    rw [dif_pos hcond]
    congr 1
    funext a
    match a with
    | ⟨0, _⟩ =>
      apply Fin.ext
      show (D.start (ix2 e c) idx 0 + (D.window (ix2 e c) 0 : Int)).toNat = n.val
      rw [A0]; omega
    | ⟨1, _⟩ =>
      apply Fin.ext
      show (D.start (ix2 e c) idx 1 + (D.window (ix2 e c) 1 : Int)).toNat = c.val
      rw [A1]; omega

/-- The accumulating scatter of rows, read at (n, d): the operand there plus the updates (e, d) of the edges e whose scatter
    index is n. -/
theorem scatterAdd_rows {φ : FTy} (huw : D.updateWindowDims = [1]) (hiw : D.insertedWindowDims = [0])
    (hsd : D.scatterDimsToOperandDims = [0]) (hivd : D.indexVectorDim = 1)
    (x : FVec Ideal ⟨2, ![M, C]⟩ φ) (idx : IVec ⟨2, ![E, 1]⟩ w) (u : FVec Ideal ⟨2, ![E, C]⟩ φ) (n : Fin M) (d : Fin C) :
    Host.scatterAdd (F := Ideal) D x idx u (ix2 n d)
      = (x (ix2 n d) : EReal)
        + ∑ e : Fin E, if (idx (ix2 e 0)).toInt = (n.val : Int) then (u (ix2 e d) : EReal) else 0 := by
  unfold Host.scatterAdd
  rw [Ideal.hostScatterAdd_def]
  unfold Ideal.hostScatterAdd
  congr 1
  rw [Finset.sum_filter, sum_idx2]
  refine Finset.sum_congr rfl fun e _ => ?_
  simp only [scatter_lands_iff D huw hiw hsd hivd idx e _ n d]
  by_cases ht : (idx (ix2 e 0)).toInt = (n.val : Int)
  · simp [ht]
  · simp [ht]

end Scatter

/-! ## One aggregation: gather the rows, scale them, scatter-add them onto a zero array -/

section Pipeline

variable {N M E C : Nat}

/-- The normalised source index of an edge whose index is non-negative is the index itself. -/
theorem norm_apply (b3 : (⟨0, ![]⟩ : Shape).BroadcastsInDim ⟨1, ![E]⟩ ![]) (K : BitVec 32) (src : IVec ⟨1, ![E]⟩ 32) (e : Fin E)
    (h : 0 ≤ (src (ix1 e)).toInt) :
    select (cmpi .slt src (broadcastInDim ⟨1, ![E]⟩ ![] b3 (constantI ⟨0, ![]⟩ 32 0#32)))
      (addi src (broadcastInDim ⟨1, ![E]⟩ ![] b3 (constantI ⟨0, ![]⟩ 32 K))) src (ix1 e) = src (ix1 e) :=
  norm_word (src (ix1 e)) K h

/-- Entry (n, d) of the aggregation is the sum, over the edges whose destination is n, of the table's row at the edge's
    source, column d, times the edge's scale. -/
theorem agg_pipeline (hN : 0 < N)
    (D : ScatterDims ⟨2, ![M, C]⟩ ⟨2, ![E, 1]⟩ ⟨2, ![E, C]⟩)
    (huw : D.updateWindowDims = [1]) (hiw : D.insertedWindowDims = [0])
    (hsd : D.scatterDimsToOperandDims = [0]) (hivdD : D.indexVectorDim = 1)
    (G : GatherDims ⟨2, ![N, C]⟩ ⟨2, ![E, 1]⟩ ⟨2, ![E, C]⟩)
    (hoff : G.offsetDims = [1]) (hcoll : G.collapsedSliceDims = [0]) (hob : G.operandBatchingDims = [])
    (hsim : G.startIndexMap = [0]) (hivdG : G.indexVectorDim = 1)
    (b0 : (⟨0, ![]⟩ : Shape).BroadcastsInDim ⟨2, ![M, C]⟩ ![])
    (b1 : (⟨1, ![E]⟩ : Shape).BroadcastsInDim ⟨2, ![E, 1]⟩ ![0])
    (b2 : (⟨2, ![E, 1]⟩ : Shape).BroadcastsInDim ⟨2, ![E, C]⟩ ![0, 1])
    (b3 : (⟨0, ![]⟩ : Shape).BroadcastsInDim ⟨1, ![E]⟩ ![])
    (K : BitVec 32)
    (tbl : FVec Ideal ⟨2, ![N, C]⟩ .f32) (src dst : IVec ⟨1, ![E]⟩ 32) (sc : FVec Ideal ⟨1, ![E]⟩ .f32)
    (hsrc : ∀ i, 0 ≤ (src i).toInt ∧ (src i).toInt < (N : Int))
    (hdst : ∀ i, 0 ≤ (dst i).toInt)
    (n : Fin M) (d : Fin C) :
    Host.scatterAdd (F := Ideal) D
        (broadcastInDim ⟨2, ![M, C]⟩ ![] b0 (constant (F := Ideal) ⟨0, ![]⟩ .f32 0x00000000#32))
        (broadcastInDim ⟨2, ![E, 1]⟩ ![0] b1 dst)
        (mulf
          (Host.gather G tbl (broadcastInDim ⟨2, ![E, 1]⟩ ![0] b1
            (select (cmpi .slt src (broadcastInDim ⟨1, ![E]⟩ ![] b3 (constantI ⟨0, ![]⟩ 32 0#32)))
              (addi src (broadcastInDim ⟨1, ![E]⟩ ![] b3 (constantI ⟨0, ![]⟩ 32 K))) src)))
          (broadcastInDim ⟨2, ![E, C]⟩ ![0, 1] b2 (broadcastInDim ⟨2, ![E, 1]⟩ ![0] b1 sc)))
        (ix2 n d)
      = ∑ e : Fin E, if (dst (ix1 e)).toNat = n.val then
          ((tbl (ix2 (⟨(src (ix1 e)).toNat % N, Nat.mod_lt _ hN⟩ : Fin N) d) : EReal) * (sc (ix1 e) : EReal) : EReal)
        else 0 := by
  refine (scatterAdd_rows D huw hiw hsd hivdD _ _ _ n d).trans ?_
  have hz : (broadcastInDim ⟨2, ![M, C]⟩ ![] b0 (constant (F := Ideal) ⟨0, ![]⟩ .f32 0x00000000#32) (ix2 n d) : EReal) = 0 :=
    Ideal.ofBits_zero_f32
  rw [hz, zero_add]
  refine Finset.sum_congr rfl fun e _ => ?_
  have hd := hdst (ix1 e)
  have hs := hsrc (ix1 e)
  have hsN : (src (ix1 e)).toNat < N := by have := toInt_eq_toNat _ hs.1; omega
  refine if_congr ?_ ?_ rfl
  · rw [col_apply b1 dst e 0, toInt_eq_toNat _ hd]
    exact Int.natCast_inj
  · have hr : (broadcastInDim ⟨2, ![E, 1]⟩ ![0] b1
          (select (cmpi .slt src (broadcastInDim ⟨1, ![E]⟩ ![] b3 (constantI ⟨0, ![]⟩ 32 0#32)))
            (addi src (broadcastInDim ⟨1, ![E]⟩ ![] b3 (constantI ⟨0, ![]⟩ 32 K))) src) (ix2 e 0)).toInt
        = (((⟨(src (ix1 e)).toNat % N, Nat.mod_lt _ hN⟩ : Fin N).val : Nat) : Int) := by
      rw [col_apply b1 _ e 0, norm_apply b3 K src e hs.1, toInt_eq_toNat _ hs.1]
      show ((src (ix1 e)).toNat : Int) = (((src (ix1 e)).toNat % N : Nat) : Int)
      rw [Nat.mod_eq_of_lt hsN]
    rw [mulf_apply, gather_rows_inrange G hoff hcoll hob hsim hivdG tbl _ e d _ hr, across_apply b2 _ e d,
      col_apply b1 sc e 0]

end Pipeline

/-! ## This program's aggregation of the user table onto the spot rows -/

/-- The reference's aggregation over the bipartite edges, from the user table onto the spot rows, is the plain sum over
    the edges. -/
theorem aggR3 (tbl : FVec Ideal S27094x64 .f32) (src dst : IVec S2000000 32) (sc : FVec Ideal S2000000 .f32)
    (hsrc : ∀ i, 0 ≤ (src i).toInt ∧ (src i).toInt < 27094) (hdst : ∀ i, 0 ≤ (dst i).toInt ∧ (dst i).toInt < 42852) :
    Cert.ReferenceIdeal.RStages.v131 (F := Ideal) dst tbl src sc = Cert.AggSpec.aggUS tbl src dst sc := by
  funext i
  obtain ⟨n, d, rfl⟩ : ∃ (n : Fin 42852) (d : Fin 64), i = ix2 n d := ⟨i 0, i 1, eq_ix2 i⟩
  unfold Cert.ReferenceIdeal.RStages.v131
  refine (agg_pipeline (N := 27094) (M := 42852) (E := 2000000) (C := 64) (by omega)
    scatter_S42852x64_S2000000x1_S2000000x64_1_0_0_1 rfl rfl rfl rfl
    gather_S27094x64_S2000000x1_S2000000x64_1_0_n_n_0_1_164 rfl rfl rfl rfl rfl
    Facts₀.bcast_S_S42852x64 Facts₀.bcast_S2000000_S2000000x1_0 Facts₀.bcast_S2000000x1_S2000000x64_0_1
    Facts₀.bcast_S_S2000000 27094#32 tbl src dst sc
    (fun i => ⟨(hsrc i).1, by have := (hsrc i).2; omega⟩) (fun i => (hdst i).1) n d).trans ?_
  rfl

end Cert.AggR3

end
-- ==== Proof.AggR4.lean ====
/- The reference side of one graph aggregation, read index by index at the extended reals.

  The reference computes an aggregation as a scatter-add, onto a zero array, of the rows of a table gathered at the edges'
  source indices and multiplied by the edges' scales, the rows landing at the edges' destination indices. Read at entry
  (n, d) this is the plain sum, over the edges e whose destination is n, of table (source e, d) times scale e:

  * a source index that is non-negative is left alone by the index normalisation (add the table's length to a negative
    index), and one below the table's length is left alone by the gather's clamp, so the gather reads the table's row at
    the source index itself;
  * the scatter reads each destination index signed and does not clamp it; the row axis is the inserted one and the
    column axis the window, so update (e, c) lands at (destination e, c), and the filtered sum over the updates that land
    at (n, d) is the sum over the edges with destination n of update (e, d);
  * the zero array contributes 0.

  The lemmas on the gather, the scatter and the broadcasts are stated for arbitrary sizes, with the dimension numbers as
  hypotheses (each an equation between short axis lists); the last theorem instantiates them at this program's sizes.
-/
import proofs.«400075_j26585847562450_2_alg».proof.Proof.RStages
import proofs.«400075_j26585847562450_2_alg».proof.Proof.AggSpec
import Idealize.ShloMosaic.PureOps.Ideal
import Idealize.ShloMosaic.PureOps.Ideal.Laws
import Idealize.ShloMosaic.Lib.ValueIdx
import Idealize.ShloMosaic.Lib.ValueIdxRank1

set_option maxRecDepth 16384

noncomputable section

namespace Cert.AggR4

open Cert.ReferenceIdeal Idealize.ShloMosaic Idealize.ShloMosaic.ValueIdx

/-! ## Words -/

/-- jnp's index normalisation (add the table's length to a negative index) leaves a non-negative word alone. -/
theorem norm_word (w K : BitVec 32) (h : 0 ≤ w.toInt) :
    Scalar.select (IntOp.cmpi .slt w 0#32) (IntOp.addi w K) w = w := by
  have hlt : w.slt 0#32 = false := by
    simp only [BitVec.slt, BitVec.toInt_zero, decide_eq_false_iff_not, not_lt]
    exact h
  have hc : IntOp.cmpi .slt w 0#32 = 0#1 := by
    show BitVec.ofBool (w.slt 0#32) = 0#1
    rw [hlt]; rfl
  rw [hc]
  exact select_zero _ _

/-- A 32-bit word that is non-negative read signed is its unsigned value. -/
theorem toInt_eq_toNat (w : BitVec 32) (h : 0 ≤ w.toInt) : w.toInt = (w.toNat : Int) := by
  have hlt := w.isLt
  rw [BitVec.toInt_eq_toNat_cond] at h ⊢
  split
  · rfl
  · next hh => rw [if_neg hh] at h; omega

/-! ## Coordinates of a rank-2 index at an axis known only by an equation -/

theorem ix2_val_axis0 {n m : Nat} (p : Fin n) (q : Fin m) (x : Fin (⟨2, ![n, m]⟩ : Shape).rank) (hx : x = 0) :
    ((ix2 p q) x).val = p.val := by subst hx; rfl

theorem ix2_val_axis1 {n m : Nat} (p : Fin n) (q : Fin m) (x : Fin (⟨2, ![n, m]⟩ : Shape).rank) (hx : x = 1) :
    ((ix2 p q) x).val = q.val := by subst hx; rfl

/-- Any entry of a one-element list is its element. -/
theorem getElem_of_eq_singleton {α : Type} (l : List α) (a : α) (h : l = [a]) (k : Nat) (hk : k < l.length) :
    l[k] = a := by
  subst h
  have hk0 : k = 0 := by simpa using hk
  subst hk0
  rfl

/-! ## Broadcasts read at an index -/

/-- A vector kept as an [n × 1] column reads, at (p, 0), the vector at p. -/
theorem col_apply {α : Type} {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-- An [n × 1] column laid across the m columns of a rectangle reads, at (p, q), the column at (p, 0). -/
theorem across_apply {α : Type} {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) := by
  simp only [broadcastInDim]
  congr 1
  funext a
  match a with
  | ⟨0, _⟩ =>
    apply Fin.ext
    have hp := p.isLt
    split
    · next h1 => change n = 1 at h1; show (0 : Nat) = p.val; omega
    · rfl
  | ⟨1, _⟩ =>
    apply Fin.ext
    split
    · rfl
    · next h1 => exact absurd rfl h1

/-! ## Axis lists of a rank-2 shape (facts about the rank alone) -/

theorem kept2_drop1 : ((List.finRange 2).filter (· ∉ [(1 : Fin 2)])) = [0] := by decide
theorem kept2_drop0 : ((List.finRange 2).filter (· ∉ [(0 : Fin 2)])) = [1] := by decide
theorem axes2_but1 : ((List.finRange 2).filter (fun b : Fin 2 => b.val ≠ 1)) = [0] := by decide
theorem idxOf2_00 : List.idxOf (0 : Fin 2) [0] = 0 := by decide
theorem idxOf2_11 : List.idxOf (1 : Fin 2) [1] = 0 := by decide
theorem one_notin2 : (1 : Fin 2) ∉ [(0 : Fin 2)] := by decide
theorem zero_notin2 : (0 : Fin 2) ∉ [(1 : Fin 2)] := by decide
theorem one_notin2_nil : (1 : Fin 2) ∉ [(0 : Fin 2)] ∧ (1 : Fin 2) ∉ ([] : List (Fin 2)) := by decide

/-! ## The row take: a gather of whole rows of a rank-2 table at a column of start indices -/

section Gather

variable {N E C w : Nat} (G : GatherDims ⟨2, ![N, C]⟩ ⟨2, ![E, 1]⟩ ⟨2, ![E, C]⟩)

/-- The start-indices index a result index (e, c) reads its one start component at is (e, 0). -/
theorem gather_siIdx (hoff : G.offsetDims = [1]) (hivd : G.indexVectorDim = 1)
    (e : Fin E) (c : Fin C) (k : Fin G.startIndexMap.length) (hk : k.val = 0) :
    G.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    refine ix2_val_axis0 e c _ ?_
    refine getElem_of_eq_singleton _ _ ?_ _ _
    show (⟨2, ![E, C]⟩ : Shape).kept G.offsetDims = [0]
    rw [hoff]; exact kept2_drop1
  | ⟨1, _⟩ =>
    unfold GatherDims.siIdx
    rw [dif_pos (by rw [hivd])]
    apply Fin.ext
    exact hk

/-- On the table's row axis the operand index is the start index read signed and clamped into the table. -/
theorem gather_axis0 (hoff : G.offsetDims = [1]) (hcoll : G.collapsedSliceDims = [0]) (hob : G.operandBatchingDims = [])
    (hsim : G.startIndexMap = [0]) (hivd : G.indexVectorDim = 1)
    (idx : IVec ⟨2, ![E, 1]⟩ w) (e : Fin E) (c : Fin C) :
    (G.operandIdx (ix2 e c) idx 0).val = min (idx (ix2 e 0)).toInt.toNat (N - 1) := by
  have hb : (0 : Fin 2) ∉ G.operandBatchingDims := by rw [hob]; exact List.not_mem_nil
  have hk : (0 : Fin 2) ∉ G.sKept := by rw [GatherDims.mem_sKept, hcoll]; simp
  have hm : (0 : Fin 2) ∈ G.startIndexMap := by rw [hsim]; exact List.mem_singleton.mpr rfl
  have hsl : G.sliceSizes 0 = 1 := G.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - G.sliceSizes 0) = min (idx (ix2 e 0)).toInt.toNat (N - 1)
  rw [hsl, gather_siIdx G hoff hivd e c _ (by show List.idxOf (0 : Fin 2) G.startIndexMap = 0; rw [hsim]; exact idxOf2_00)]

/-- On the table's column axis the operand index is the result's column. -/
theorem gather_axis1 (hoff : G.offsetDims = [1]) (hcoll : G.collapsedSliceDims = [0]) (hob : G.operandBatchingDims = [])
    (hsim : G.startIndexMap = [0])
    (idx : IVec ⟨2, ![E, 1]⟩ w) (e : Fin E) (c : Fin C) :
    (G.operandIdx (ix2 e c) idx 1).val = c.val := by
  have hb : (1 : Fin 2) ∉ G.operandBatchingDims := by rw [hob]; exact List.not_mem_nil
  have hk : (1 : Fin 2) ∈ G.sKept := by rw [GatherDims.mem_sKept, hcoll, hob]; exact one_notin2_nil
  have hm : (1 : Fin 2) ∉ G.startIndexMap := by rw [hsim]; exact one_notin2
  simp only [GatherDims.operandIdx, GatherDims.batchCoord_eq_zero _ _ _ hb, Nat.add_zero, GatherDims.start, dif_neg hm,
    Nat.zero_add, GatherDims.offCoord, dif_pos hk]
  refine ix2_val_axis1 e c _ ?_
  exact getElem_of_eq_singleton _ _ hoff _ _

/-- The gather reads, at (e, c), the table's row at e's start index (signed, clamped), column c. -/
theorem gather_rows {α : Type} (hoff : G.offsetDims = [1]) (hcoll : G.collapsedSliceDims = [0])
    (hob : G.operandBatchingDims = []) (hsim : G.startIndexMap = [0]) (hivd : G.indexVectorDim = 1)
    (x : (⟨2, ![N, C]⟩ : Shape).Idx → α) (idx : IVec ⟨2, ![E, 1]⟩ w) (e : Fin E) (c : Fin C) (hN : 0 < N) :
    Host.gather G x idx (ix2 e c)
      = x (ix2 (⟨min (idx (ix2 e 0)).toInt.toNat (N - 1), by omega⟩ : Fin N) c) := by
  unfold Host.gather
  congr 1
  funext a
  match a with
  | ⟨0, _⟩ => exact Fin.ext (gather_axis0 G hoff hcoll hob hsim hivd idx e c)
  | ⟨1, _⟩ => exact Fin.ext (gather_axis1 G hoff hcoll hob hsim idx e c)

/-- When e's start index, read signed, is a row r of the table, the gather reads row r there (the clamp does nothing). -/
theorem gather_rows_inrange {α : Type} (hoff : G.offsetDims = [1]) (hcoll : G.collapsedSliceDims = [0])
    (hob : G.operandBatchingDims = []) (hsim : G.startIndexMap = [0]) (hivd : G.indexVectorDim = 1)
    (x : (⟨2, ![N, C]⟩ : Shape).Idx → α) (idx : IVec ⟨2, ![E, 1]⟩ w) (e : Fin E) (c : Fin C) (r : Fin N)
    (hr : (idx (ix2 e 0)).toInt = (r.val : Int)) :
    Host.gather G x idx (ix2 e c) = x (ix2 r c) := by
  have hN : 0 < N := Nat.lt_of_le_of_lt (Nat.zero_le _) r.isLt
  rw [gather_rows G hoff hcoll hob hsim hivd x idx e c hN]
  have hfin : (⟨min (idx (ix2 e 0)).toInt.toNat (N - 1), by omega⟩ : Fin N) = r := by
    apply Fin.ext
    show min (idx (ix2 e 0)).toInt.toNat (N - 1) = r.val
    have hlt := r.isLt
    rw [hr, Int.toNat_natCast]
    omega
  rw [hfin]

end Gather

/-! ## The row scatter: updates (e, c) land at (start index of e, c) -/

section Scatter

variable {M E C w : Nat} (D : ScatterDims ⟨2, ![M, C]⟩ ⟨2, ![E, 1]⟩ ⟨2, ![E, C]⟩)

/-- The scatter-indices index an update index (e, c) reads its one start component at is (e, 0). -/
theorem scatter_siIdx (huw : D.updateWindowDims = [1]) (hivd : D.indexVectorDim = 1)
    (e : Fin E) (c : Fin C) (k : Fin D.scatterDimsToOperandDims.length) (hk : k.val = 0) :
    D.siIdx (ix2 e c) k = ix2 e 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    refine ix2_val_axis0 e c _ ?_
    refine getElem_of_eq_singleton _ _ ?_ _ _
    show (⟨2, ![E, C]⟩ : Shape).kept D.updateWindowDims = [0]
    rw [huw]; exact kept2_drop1
  | ⟨1, _⟩ =>
    unfold ScatterDims.siIdx
    rw [dif_pos (by rw [hivd])]
    apply Fin.ext
    exact hk

/-- On the row axis the window starts at the scatter index of the update's edge, read signed, not clamped. -/
theorem scatter_start0 (huw : D.updateWindowDims = [1]) (hsd : D.scatterDimsToOperandDims = [0])
    (hivd : D.indexVectorDim = 1) (idx : IVec ⟨2, ![E, 1]⟩ w) (e : Fin E) (c : Fin C) :
    D.start (ix2 e c) idx 0 = (idx (ix2 e 0)).toInt := by
  have hm : (0 : Fin 2) ∈ D.scatterDimsToOperandDims := by rw [hsd]; exact List.mem_singleton.mpr rfl
  unfold ScatterDims.start
  rw [dif_pos hm, scatter_siIdx D huw hivd e c _
    (by show List.idxOf (0 : Fin 2) D.scatterDimsToOperandDims = 0; rw [hsd]; exact idxOf2_00)]

/-- On the column axis the window starts at 0. -/
theorem scatter_start1 (hsd : D.scatterDimsToOperandDims = [0]) (idx : IVec ⟨2, ![E, 1]⟩ w) (e : Fin E) (c : Fin C) :
    D.start (ix2 e c) idx 1 = 0 := by
  have hm : (1 : Fin 2) ∉ D.scatterDimsToOperandDims := by rw [hsd]; exact one_notin2
  unfold ScatterDims.start
  rw [dif_neg hm]

theorem scatter_sKept (hiw : D.insertedWindowDims = [0]) : D.sKept = [1] := by
  show (⟨2, ![M, C]⟩ : Shape).kept D.insertedWindowDims = [1]
  rw [hiw]; exact kept2_drop0

/-- The row axis is inserted: its window coordinate is 0. -/
theorem scatter_window0 (hiw : D.insertedWindowDims = [0]) (e : Fin E) (c : Fin C) : D.window (ix2 e c) 0 = 0 := by
  have hk : (0 : Fin 2) ∉ D.sKept := by rw [scatter_sKept D hiw]; exact zero_notin2
  unfold ScatterDims.window
  rw [dif_neg hk]

/-- The column axis is the window: its window coordinate is the update's column. -/
theorem scatter_window1 (huw : D.updateWindowDims = [1]) (hiw : D.insertedWindowDims = [0]) (e : Fin E) (c : Fin C) :
    D.window (ix2 e c) 1 = c.val := by
  have hk : (1 : Fin 2) ∈ D.sKept := by rw [scatter_sKept D hiw]; exact List.mem_singleton.mpr rfl
  unfold ScatterDims.window
  rw [dif_pos hk]
  refine ix2_val_axis1 e c _ ?_
  exact getElem_of_eq_singleton _ _ huw _ _

/-- Update (e, c) lands at (n, d) exactly when e's scatter index, read signed, is n and c is d. -/
theorem scatter_lands_iff (huw : D.updateWindowDims = [1]) (hiw : D.insertedWindowDims = [0])
    (hsd : D.scatterDimsToOperandDims = [0]) (hivd : D.indexVectorDim = 1)
    (idx : IVec ⟨2, ![E, 1]⟩ w) (e : Fin E) (c : Fin C) (n : Fin M) (d : Fin C) :
    D.resultIdx? (ix2 e c) idx = some (ix2 n d) ↔ (idx (ix2 e 0)).toInt = (n.val : Int) ∧ c = d := by
  have A0 : D.start (ix2 e c) idx 0 + (D.window (ix2 e c) 0 : Int) = (idx (ix2 e 0)).toInt := by
    rw [scatter_start0 D huw hsd hivd, scatter_window0 D hiw]; simp
  have A1 : D.start (ix2 e c) idx 1 + (D.window (ix2 e c) 1 : Int) = (c.val : Int) := by
    rw [scatter_start1 D hsd, scatter_window1 D huw hiw]; simp
  have hn := n.isLt
  have hc := c.isLt
  unfold ScatterDims.resultIdx?
  constructor
  · intro hr
    split at hr
    · next h =>
      have hf := Option.some.inj hr
      have h0 : (D.start (ix2 e c) idx 0 + (D.window (ix2 e c) 0 : Int)).toNat = n.val :=
        congrArg (fun f : (⟨2, ![M, C]⟩ : Shape).Idx => (f 0).val) hf
      have h1 : (D.start (ix2 e c) idx 1 + (D.window (ix2 e c) 1 : Int)).toNat = d.val :=
        congrArg (fun f : (⟨2, ![M, C]⟩ : Shape).Idx => (f 1).val) hf
      have hp := (h 0).1
      rw [A0] at h0 hp
      rw [A1] at h1
      exact ⟨by omega, Fin.ext (by omega)⟩
    · exact absurd hr (by simp)
  · rintro ⟨ht, hcd⟩
    subst hcd
    have hcond : ∀ a, 0 ≤ D.start (ix2 e c) idx a + (D.window (ix2 e c) a : Int)
        ∧ D.start (ix2 e c) idx a + (D.window (ix2 e c) a : Int) < ((⟨2, ![M, C]⟩ : Shape).size a : Int) := by
      intro a
      match a with
      | ⟨0, _⟩ =>
        show 0 ≤ D.start (ix2 e c) idx 0 + (D.window (ix2 e c) 0 : Int)
          ∧ D.start (ix2 e c) idx 0 + (D.window (ix2 e c) 0 : Int) < (M : Int)
        rw [A0]; omega
      | ⟨1, _⟩ =>
        show 0 ≤ D.start (ix2 e c) idx 1 + (D.window (ix2 e c) 1 : Int)
          ∧ D.start (ix2 e c) idx 1 + (D.window (ix2 e c) 1 : Int) < (C : Int)
        rw [A1]; omega
    rw [dif_pos hcond]
    congr 1
    funext a
    match a with
    | ⟨0, _⟩ =>
      apply Fin.ext
      show (D.start (ix2 e c) idx 0 + (D.window (ix2 e c) 0 : Int)).toNat = n.val
      rw [A0]; omega
    | ⟨1, _⟩ =>
      apply Fin.ext
      show (D.start (ix2 e c) idx 1 + (D.window (ix2 e c) 1 : Int)).toNat = c.val
      rw [A1]; omega

/-- The accumulating scatter of rows, read at (n, d): the operand there plus the updates (e, d) of the edges e whose scatter
    index is n. -/
theorem scatterAdd_rows {φ : FTy} (huw : D.updateWindowDims = [1]) (hiw : D.insertedWindowDims = [0])
    (hsd : D.scatterDimsToOperandDims = [0]) (hivd : D.indexVectorDim = 1)
    (x : FVec Ideal ⟨2, ![M, C]⟩ φ) (idx : IVec ⟨2, ![E, 1]⟩ w) (u : FVec Ideal ⟨2, ![E, C]⟩ φ) (n : Fin M) (d : Fin C) :
    Host.scatterAdd (F := Ideal) D x idx u (ix2 n d)
      = (x (ix2 n d) : EReal)
        + ∑ e : Fin E, if (idx (ix2 e 0)).toInt = (n.val : Int) then (u (ix2 e d) : EReal) else 0 := by
  unfold Host.scatterAdd
  rw [Ideal.hostScatterAdd_def]
  unfold Ideal.hostScatterAdd
  congr 1
  rw [Finset.sum_filter, sum_idx2]
  refine Finset.sum_congr rfl fun e _ => ?_
  simp only [scatter_lands_iff D huw hiw hsd hivd idx e _ n d]
  by_cases ht : (idx (ix2 e 0)).toInt = (n.val : Int)
  · simp [ht]
  · simp [ht]

end Scatter

/-! ## One aggregation: gather the rows, scale them, scatter-add them onto a zero array -/

section Pipeline

variable {N M E C : Nat}

/-- The normalised source index of an edge whose index is non-negative is the index itself. -/
theorem norm_apply (b3 : (⟨0, ![]⟩ : Shape).BroadcastsInDim ⟨1, ![E]⟩ ![]) (K : BitVec 32) (src : IVec ⟨1, ![E]⟩ 32) (e : Fin E)
    (h : 0 ≤ (src (ix1 e)).toInt) :
    select (cmpi .slt src (broadcastInDim ⟨1, ![E]⟩ ![] b3 (constantI ⟨0, ![]⟩ 32 0#32)))
      (addi src (broadcastInDim ⟨1, ![E]⟩ ![] b3 (constantI ⟨0, ![]⟩ 32 K))) src (ix1 e) = src (ix1 e) :=
  norm_word (src (ix1 e)) K h

/-- Entry (n, d) of the aggregation is the sum, over the edges whose destination is n, of the table's row at the edge's
    source, column d, times the edge's scale. -/
theorem agg_pipeline (hN : 0 < N)
    (D : ScatterDims ⟨2, ![M, C]⟩ ⟨2, ![E, 1]⟩ ⟨2, ![E, C]⟩)
    (huw : D.updateWindowDims = [1]) (hiw : D.insertedWindowDims = [0])
    (hsd : D.scatterDimsToOperandDims = [0]) (hivdD : D.indexVectorDim = 1)
    (G : GatherDims ⟨2, ![N, C]⟩ ⟨2, ![E, 1]⟩ ⟨2, ![E, C]⟩)
    (hoff : G.offsetDims = [1]) (hcoll : G.collapsedSliceDims = [0]) (hob : G.operandBatchingDims = [])
    (hsim : G.startIndexMap = [0]) (hivdG : G.indexVectorDim = 1)
    (b0 : (⟨0, ![]⟩ : Shape).BroadcastsInDim ⟨2, ![M, C]⟩ ![])
    (b1 : (⟨1, ![E]⟩ : Shape).BroadcastsInDim ⟨2, ![E, 1]⟩ ![0])
    (b2 : (⟨2, ![E, 1]⟩ : Shape).BroadcastsInDim ⟨2, ![E, C]⟩ ![0, 1])
    (b3 : (⟨0, ![]⟩ : Shape).BroadcastsInDim ⟨1, ![E]⟩ ![])
    (K : BitVec 32)
    (tbl : FVec Ideal ⟨2, ![N, C]⟩ .f32) (src dst : IVec ⟨1, ![E]⟩ 32) (sc : FVec Ideal ⟨1, ![E]⟩ .f32)
    (hsrc : ∀ i, 0 ≤ (src i).toInt ∧ (src i).toInt < (N : Int))
    (hdst : ∀ i, 0 ≤ (dst i).toInt)
    (n : Fin M) (d : Fin C) :
    Host.scatterAdd (F := Ideal) D
        (broadcastInDim ⟨2, ![M, C]⟩ ![] b0 (constant (F := Ideal) ⟨0, ![]⟩ .f32 0x00000000#32))
        (broadcastInDim ⟨2, ![E, 1]⟩ ![0] b1 dst)
        (mulf
          (Host.gather G tbl (broadcastInDim ⟨2, ![E, 1]⟩ ![0] b1
            (select (cmpi .slt src (broadcastInDim ⟨1, ![E]⟩ ![] b3 (constantI ⟨0, ![]⟩ 32 0#32)))
              (addi src (broadcastInDim ⟨1, ![E]⟩ ![] b3 (constantI ⟨0, ![]⟩ 32 K))) src)))
          (broadcastInDim ⟨2, ![E, C]⟩ ![0, 1] b2 (broadcastInDim ⟨2, ![E, 1]⟩ ![0] b1 sc)))
        (ix2 n d)
      = ∑ e : Fin E, if (dst (ix1 e)).toNat = n.val then
          ((tbl (ix2 (⟨(src (ix1 e)).toNat % N, Nat.mod_lt _ hN⟩ : Fin N) d) : EReal) * (sc (ix1 e) : EReal) : EReal)
        else 0 := by
  refine (scatterAdd_rows D huw hiw hsd hivdD _ _ _ n d).trans ?_
  have hz : (broadcastInDim ⟨2, ![M, C]⟩ ![] b0 (constant (F := Ideal) ⟨0, ![]⟩ .f32 0x00000000#32) (ix2 n d) : EReal) = 0 :=
    Ideal.ofBits_zero_f32
  rw [hz, zero_add]
  refine Finset.sum_congr rfl fun e _ => ?_
  have hd := hdst (ix1 e)
  have hs := hsrc (ix1 e)
  have hsN : (src (ix1 e)).toNat < N := by have := toInt_eq_toNat _ hs.1; omega
  refine if_congr ?_ ?_ rfl
  · rw [col_apply b1 dst e 0, toInt_eq_toNat _ hd]
    exact Int.natCast_inj
  · have hr : (broadcastInDim ⟨2, ![E, 1]⟩ ![0] b1
          (select (cmpi .slt src (broadcastInDim ⟨1, ![E]⟩ ![] b3 (constantI ⟨0, ![]⟩ 32 0#32)))
            (addi src (broadcastInDim ⟨1, ![E]⟩ ![] b3 (constantI ⟨0, ![]⟩ 32 K))) src) (ix2 e 0)).toInt
        = (((⟨(src (ix1 e)).toNat % N, Nat.mod_lt _ hN⟩ : Fin N).val : Nat) : Int) := by
      rw [col_apply b1 _ e 0, norm_apply b3 K src e hs.1, toInt_eq_toNat _ hs.1]
      show ((src (ix1 e)).toNat : Int) = (((src (ix1 e)).toNat % N : Nat) : Int)
      rw [Nat.mod_eq_of_lt hsN]
    rw [mulf_apply, gather_rows_inrange G hoff hcoll hob hsim hivdG tbl _ e d _ hr, across_apply b2 _ e d,
      col_apply b1 sc e 0]

end Pipeline

/-! ## This program's aggregation of the spot table onto the user rows -/

/-- The reference's aggregation over the bipartite edges, from the spot table onto the user rows, is the plain sum over
    the edges. -/
theorem aggR4 (tbl : FVec Ideal S42852x64 .f32) (src dst : IVec S2000000 32) (sc : FVec Ideal S2000000 .f32)
    (hsrc : ∀ i, 0 ≤ (src i).toInt ∧ (src i).toInt < 42852) (hdst : ∀ i, 0 ≤ (dst i).toInt ∧ (dst i).toInt < 27094) :
    Cert.ReferenceIdeal.RStages.v145 (F := Ideal) dst tbl src sc = Cert.AggSpec.aggSU tbl src dst sc := by
  funext i
  obtain ⟨n, d, rfl⟩ : ∃ (n : Fin 27094) (d : Fin 64), i = ix2 n d := ⟨i 0, i 1, eq_ix2 i⟩
  unfold Cert.ReferenceIdeal.RStages.v145
  refine (agg_pipeline (N := 42852) (M := 27094) (E := 2000000) (C := 64) (by omega)
    scatter_S27094x64_S2000000x1_S2000000x64_1_0_0_1 rfl rfl rfl rfl
    gather_S42852x64_S2000000x1_S2000000x64_1_0_n_n_0_1_164 rfl rfl rfl rfl rfl
    Facts₀.bcast_S_S27094x64 Facts₀.bcast_S2000000_S2000000x1_0 Facts₀.bcast_S2000000x1_S2000000x64_0_1
    Facts₀.bcast_S_S2000000 42852#32 tbl src dst sc
    (fun i => ⟨(hsrc i).1, by have := (hsrc i).2; omega⟩) (fun i => (hdst i).1) n d).trans ?_
  rfl

end Cert.AggR4

end
-- ==== Proof.AggR5.lean ====
/- The reference side of one graph aggregation, read index by index at the extended reals.

  The reference computes an aggregation as a scatter-add, onto a zero array, of the rows of a table gathered at the edges'
  source indices and multiplied by the edges' scales, the rows landing at the edges' destination indices. Read at entry
  (n, d) this is the plain sum, over the edges e whose destination is n, of table (source e, d) times scale e:

  * a source index that is non-negative is left alone by the index normalisation (add the table's length to a negative
    index), and one below the table's length is left alone by the gather's clamp, so the gather reads the table's row at
    the source index itself;
  * the scatter reads each destination index signed and does not clamp it; the row axis is the inserted one and the
    column axis the window, so update (e, c) lands at (destination e, c), and the filtered sum over the updates that land
    at (n, d) is the sum over the edges with destination n of update (e, d);
  * the zero array contributes 0.

  The lemmas on the gather, the scatter and the broadcasts are stated for arbitrary sizes, with the dimension numbers as
  hypotheses (each an equation between short axis lists); the last theorem instantiates them at this program's sizes.
-/
import proofs.«400075_j26585847562450_2_alg».proof.Proof.RStages
import proofs.«400075_j26585847562450_2_alg».proof.Proof.AggSpec
import Idealize.ShloMosaic.PureOps.Ideal
import Idealize.ShloMosaic.PureOps.Ideal.Laws
import Idealize.ShloMosaic.Lib.ValueIdx
import Idealize.ShloMosaic.Lib.ValueIdxRank1

set_option maxRecDepth 16384

noncomputable section

namespace Cert.AggR5

open Cert.ReferenceIdeal Idealize.ShloMosaic Idealize.ShloMosaic.ValueIdx

/-! ## Words -/

/-- jnp's index normalisation (add the table's length to a negative index) leaves a non-negative word alone. -/
theorem norm_word (w K : BitVec 32) (h : 0 ≤ w.toInt) :
    Scalar.select (IntOp.cmpi .slt w 0#32) (IntOp.addi w K) w = w := by
  have hlt : w.slt 0#32 = false := by
    simp only [BitVec.slt, BitVec.toInt_zero, decide_eq_false_iff_not, not_lt]
    exact h
  have hc : IntOp.cmpi .slt w 0#32 = 0#1 := by
    show BitVec.ofBool (w.slt 0#32) = 0#1
    rw [hlt]; rfl
  rw [hc]
  exact select_zero _ _

/-- A 32-bit word that is non-negative read signed is its unsigned value. -/
theorem toInt_eq_toNat (w : BitVec 32) (h : 0 ≤ w.toInt) : w.toInt = (w.toNat : Int) := by
  have hlt := w.isLt
  rw [BitVec.toInt_eq_toNat_cond] at h ⊢
  split
  · rfl
  · next hh => rw [if_neg hh] at h; omega

/-! ## Coordinates of a rank-2 index at an axis known only by an equation -/

theorem ix2_val_axis0 {n m : Nat} (p : Fin n) (q : Fin m) (x : Fin (⟨2, ![n, m]⟩ : Shape).rank) (hx : x = 0) :
    ((ix2 p q) x).val = p.val := by subst hx; rfl

theorem ix2_val_axis1 {n m : Nat} (p : Fin n) (q : Fin m) (x : Fin (⟨2, ![n, m]⟩ : Shape).rank) (hx : x = 1) :
    ((ix2 p q) x).val = q.val := by subst hx; rfl

/-- Any entry of a one-element list is its element. -/
theorem getElem_of_eq_singleton {α : Type} (l : List α) (a : α) (h : l = [a]) (k : Nat) (hk : k < l.length) :
    l[k] = a := by
  subst h
  have hk0 : k = 0 := by simpa using hk
  subst hk0
  rfl

/-! ## Broadcasts read at an index -/

/-- A vector kept as an [n × 1] column reads, at (p, 0), the vector at p. -/
theorem col_apply {α : Type} {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-- An [n × 1] column laid across the m columns of a rectangle reads, at (p, q), the column at (p, 0). -/
theorem across_apply {α : Type} {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) := by
  simp only [broadcastInDim]
  congr 1
  funext a
  match a with
  | ⟨0, _⟩ =>
    apply Fin.ext
    have hp := p.isLt
    split
    · next h1 => change n = 1 at h1; show (0 : Nat) = p.val; omega
    · rfl
  | ⟨1, _⟩ =>
    apply Fin.ext
    split
    · rfl
    · next h1 => exact absurd rfl h1

/-! ## Axis lists of a rank-2 shape (facts about the rank alone) -/

theorem kept2_drop1 : ((List.finRange 2).filter (· ∉ [(1 : Fin 2)])) = [0] := by decide
theorem kept2_drop0 : ((List.finRange 2).filter (· ∉ [(0 : Fin 2)])) = [1] := by decide
theorem axes2_but1 : ((List.finRange 2).filter (fun b : Fin 2 => b.val ≠ 1)) = [0] := by decide
theorem idxOf2_00 : List.idxOf (0 : Fin 2) [0] = 0 := by decide
theorem idxOf2_11 : List.idxOf (1 : Fin 2) [1] = 0 := by decide
theorem one_notin2 : (1 : Fin 2) ∉ [(0 : Fin 2)] := by decide
theorem zero_notin2 : (0 : Fin 2) ∉ [(1 : Fin 2)] := by decide
theorem one_notin2_nil : (1 : Fin 2) ∉ [(0 : Fin 2)] ∧ (1 : Fin 2) ∉ ([] : List (Fin 2)) := by decide

/-! ## The row take: a gather of whole rows of a rank-2 table at a column of start indices -/

section Gather

variable {N E C w : Nat} (G : GatherDims ⟨2, ![N, C]⟩ ⟨2, ![E, 1]⟩ ⟨2, ![E, C]⟩)

/-- The start-indices index a result index (e, c) reads its one start component at is (e, 0). -/
theorem gather_siIdx (hoff : G.offsetDims = [1]) (hivd : G.indexVectorDim = 1)
    (e : Fin E) (c : Fin C) (k : Fin G.startIndexMap.length) (hk : k.val = 0) :
    G.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    refine ix2_val_axis0 e c _ ?_
    refine getElem_of_eq_singleton _ _ ?_ _ _
    show (⟨2, ![E, C]⟩ : Shape).kept G.offsetDims = [0]
    rw [hoff]; exact kept2_drop1
  | ⟨1, _⟩ =>
    unfold GatherDims.siIdx
    rw [dif_pos (by rw [hivd])]
    apply Fin.ext
    exact hk

/-- On the table's row axis the operand index is the start index read signed and clamped into the table. -/
theorem gather_axis0 (hoff : G.offsetDims = [1]) (hcoll : G.collapsedSliceDims = [0]) (hob : G.operandBatchingDims = [])
    (hsim : G.startIndexMap = [0]) (hivd : G.indexVectorDim = 1)
    (idx : IVec ⟨2, ![E, 1]⟩ w) (e : Fin E) (c : Fin C) :
    (G.operandIdx (ix2 e c) idx 0).val = min (idx (ix2 e 0)).toInt.toNat (N - 1) := by
  have hb : (0 : Fin 2) ∉ G.operandBatchingDims := by rw [hob]; exact List.not_mem_nil
  have hk : (0 : Fin 2) ∉ G.sKept := by rw [GatherDims.mem_sKept, hcoll]; simp
  have hm : (0 : Fin 2) ∈ G.startIndexMap := by rw [hsim]; exact List.mem_singleton.mpr rfl
  have hsl : G.sliceSizes 0 = 1 := G.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - G.sliceSizes 0) = min (idx (ix2 e 0)).toInt.toNat (N - 1)
  rw [hsl, gather_siIdx G hoff hivd e c _ (by show List.idxOf (0 : Fin 2) G.startIndexMap = 0; rw [hsim]; exact idxOf2_00)]

/-- On the table's column axis the operand index is the result's column. -/
theorem gather_axis1 (hoff : G.offsetDims = [1]) (hcoll : G.collapsedSliceDims = [0]) (hob : G.operandBatchingDims = [])
    (hsim : G.startIndexMap = [0])
    (idx : IVec ⟨2, ![E, 1]⟩ w) (e : Fin E) (c : Fin C) :
    (G.operandIdx (ix2 e c) idx 1).val = c.val := by
  have hb : (1 : Fin 2) ∉ G.operandBatchingDims := by rw [hob]; exact List.not_mem_nil
  have hk : (1 : Fin 2) ∈ G.sKept := by rw [GatherDims.mem_sKept, hcoll, hob]; exact one_notin2_nil
  have hm : (1 : Fin 2) ∉ G.startIndexMap := by rw [hsim]; exact one_notin2
  simp only [GatherDims.operandIdx, GatherDims.batchCoord_eq_zero _ _ _ hb, Nat.add_zero, GatherDims.start, dif_neg hm,
    Nat.zero_add, GatherDims.offCoord, dif_pos hk]
  refine ix2_val_axis1 e c _ ?_
  exact getElem_of_eq_singleton _ _ hoff _ _

/-- The gather reads, at (e, c), the table's row at e's start index (signed, clamped), column c. -/
theorem gather_rows {α : Type} (hoff : G.offsetDims = [1]) (hcoll : G.collapsedSliceDims = [0])
    (hob : G.operandBatchingDims = []) (hsim : G.startIndexMap = [0]) (hivd : G.indexVectorDim = 1)
    (x : (⟨2, ![N, C]⟩ : Shape).Idx → α) (idx : IVec ⟨2, ![E, 1]⟩ w) (e : Fin E) (c : Fin C) (hN : 0 < N) :
    Host.gather G x idx (ix2 e c)
      = x (ix2 (⟨min (idx (ix2 e 0)).toInt.toNat (N - 1), by omega⟩ : Fin N) c) := by
  unfold Host.gather
  congr 1
  funext a
  match a with
  | ⟨0, _⟩ => exact Fin.ext (gather_axis0 G hoff hcoll hob hsim hivd idx e c)
  | ⟨1, _⟩ => exact Fin.ext (gather_axis1 G hoff hcoll hob hsim idx e c)

/-- When e's start index, read signed, is a row r of the table, the gather reads row r there (the clamp does nothing). -/
theorem gather_rows_inrange {α : Type} (hoff : G.offsetDims = [1]) (hcoll : G.collapsedSliceDims = [0])
    (hob : G.operandBatchingDims = []) (hsim : G.startIndexMap = [0]) (hivd : G.indexVectorDim = 1)
    (x : (⟨2, ![N, C]⟩ : Shape).Idx → α) (idx : IVec ⟨2, ![E, 1]⟩ w) (e : Fin E) (c : Fin C) (r : Fin N)
    (hr : (idx (ix2 e 0)).toInt = (r.val : Int)) :
    Host.gather G x idx (ix2 e c) = x (ix2 r c) := by
  have hN : 0 < N := Nat.lt_of_le_of_lt (Nat.zero_le _) r.isLt
  rw [gather_rows G hoff hcoll hob hsim hivd x idx e c hN]
  have hfin : (⟨min (idx (ix2 e 0)).toInt.toNat (N - 1), by omega⟩ : Fin N) = r := by
    apply Fin.ext
    show min (idx (ix2 e 0)).toInt.toNat (N - 1) = r.val
    have hlt := r.isLt
    rw [hr, Int.toNat_natCast]
    omega
  rw [hfin]

end Gather

/-! ## The row scatter: updates (e, c) land at (start index of e, c) -/

section Scatter

variable {M E C w : Nat} (D : ScatterDims ⟨2, ![M, C]⟩ ⟨2, ![E, 1]⟩ ⟨2, ![E, C]⟩)

/-- The scatter-indices index an update index (e, c) reads its one start component at is (e, 0). -/
theorem scatter_siIdx (huw : D.updateWindowDims = [1]) (hivd : D.indexVectorDim = 1)
    (e : Fin E) (c : Fin C) (k : Fin D.scatterDimsToOperandDims.length) (hk : k.val = 0) :
    D.siIdx (ix2 e c) k = ix2 e 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    refine ix2_val_axis0 e c _ ?_
    refine getElem_of_eq_singleton _ _ ?_ _ _
    show (⟨2, ![E, C]⟩ : Shape).kept D.updateWindowDims = [0]
    rw [huw]; exact kept2_drop1
  | ⟨1, _⟩ =>
    unfold ScatterDims.siIdx
    rw [dif_pos (by rw [hivd])]
    apply Fin.ext
    exact hk

/-- On the row axis the window starts at the scatter index of the update's edge, read signed, not clamped. -/
theorem scatter_start0 (huw : D.updateWindowDims = [1]) (hsd : D.scatterDimsToOperandDims = [0])
    (hivd : D.indexVectorDim = 1) (idx : IVec ⟨2, ![E, 1]⟩ w) (e : Fin E) (c : Fin C) :
    D.start (ix2 e c) idx 0 = (idx (ix2 e 0)).toInt := by
  have hm : (0 : Fin 2) ∈ D.scatterDimsToOperandDims := by rw [hsd]; exact List.mem_singleton.mpr rfl
  unfold ScatterDims.start
  rw [dif_pos hm, scatter_siIdx D huw hivd e c _
    (by show List.idxOf (0 : Fin 2) D.scatterDimsToOperandDims = 0; rw [hsd]; exact idxOf2_00)]

/-- On the column axis the window starts at 0. -/
theorem scatter_start1 (hsd : D.scatterDimsToOperandDims = [0]) (idx : IVec ⟨2, ![E, 1]⟩ w) (e : Fin E) (c : Fin C) :
    D.start (ix2 e c) idx 1 = 0 := by
  have hm : (1 : Fin 2) ∉ D.scatterDimsToOperandDims := by rw [hsd]; exact one_notin2
  unfold ScatterDims.start
  rw [dif_neg hm]

theorem scatter_sKept (hiw : D.insertedWindowDims = [0]) : D.sKept = [1] := by
  show (⟨2, ![M, C]⟩ : Shape).kept D.insertedWindowDims = [1]
  rw [hiw]; exact kept2_drop0

/-- The row axis is inserted: its window coordinate is 0. -/
theorem scatter_window0 (hiw : D.insertedWindowDims = [0]) (e : Fin E) (c : Fin C) : D.window (ix2 e c) 0 = 0 := by
  have hk : (0 : Fin 2) ∉ D.sKept := by rw [scatter_sKept D hiw]; exact zero_notin2
  unfold ScatterDims.window
  rw [dif_neg hk]

/-- The column axis is the window: its window coordinate is the update's column. -/
theorem scatter_window1 (huw : D.updateWindowDims = [1]) (hiw : D.insertedWindowDims = [0]) (e : Fin E) (c : Fin C) :
    D.window (ix2 e c) 1 = c.val := by
  have hk : (1 : Fin 2) ∈ D.sKept := by rw [scatter_sKept D hiw]; exact List.mem_singleton.mpr rfl
  unfold ScatterDims.window
  rw [dif_pos hk]
  refine ix2_val_axis1 e c _ ?_
  exact getElem_of_eq_singleton _ _ huw _ _

/-- Update (e, c) lands at (n, d) exactly when e's scatter index, read signed, is n and c is d. -/
theorem scatter_lands_iff (huw : D.updateWindowDims = [1]) (hiw : D.insertedWindowDims = [0])
    (hsd : D.scatterDimsToOperandDims = [0]) (hivd : D.indexVectorDim = 1)
    (idx : IVec ⟨2, ![E, 1]⟩ w) (e : Fin E) (c : Fin C) (n : Fin M) (d : Fin C) :
    D.resultIdx? (ix2 e c) idx = some (ix2 n d) ↔ (idx (ix2 e 0)).toInt = (n.val : Int) ∧ c = d := by
  have A0 : D.start (ix2 e c) idx 0 + (D.window (ix2 e c) 0 : Int) = (idx (ix2 e 0)).toInt := by
    rw [scatter_start0 D huw hsd hivd, scatter_window0 D hiw]; simp
  have A1 : D.start (ix2 e c) idx 1 + (D.window (ix2 e c) 1 : Int) = (c.val : Int) := by
    rw [scatter_start1 D hsd, scatter_window1 D huw hiw]; simp
  have hn := n.isLt
  have hc := c.isLt
  unfold ScatterDims.resultIdx?
  constructor
  · intro hr
    split at hr
    · next h =>
      have hf := Option.some.inj hr
      have h0 : (D.start (ix2 e c) idx 0 + (D.window (ix2 e c) 0 : Int)).toNat = n.val :=
        congrArg (fun f : (⟨2, ![M, C]⟩ : Shape).Idx => (f 0).val) hf
      have h1 : (D.start (ix2 e c) idx 1 + (D.window (ix2 e c) 1 : Int)).toNat = d.val :=
        congrArg (fun f : (⟨2, ![M, C]⟩ : Shape).Idx => (f 1).val) hf
      have hp := (h 0).1
      rw [A0] at h0 hp
      rw [A1] at h1
      exact ⟨by omega, Fin.ext (by omega)⟩
    · exact absurd hr (by simp)
  · rintro ⟨ht, hcd⟩
    subst hcd
    have hcond : ∀ a, 0 ≤ D.start (ix2 e c) idx a + (D.window (ix2 e c) a : Int)
        ∧ D.start (ix2 e c) idx a + (D.window (ix2 e c) a : Int) < ((⟨2, ![M, C]⟩ : Shape).size a : Int) := by
      intro a
      match a with
      | ⟨0, _⟩ =>
        show 0 ≤ D.start (ix2 e c) idx 0 + (D.window (ix2 e c) 0 : Int)
          ∧ D.start (ix2 e c) idx 0 + (D.window (ix2 e c) 0 : Int) < (M : Int)
        rw [A0]; omega
      | ⟨1, _⟩ =>
        show 0 ≤ D.start (ix2 e c) idx 1 + (D.window (ix2 e c) 1 : Int)
          ∧ D.start (ix2 e c) idx 1 + (D.window (ix2 e c) 1 : Int) < (C : Int)
        rw [A1]; omega
    rw [dif_pos hcond]
    congr 1
    funext a
    match a with
    | ⟨0, _⟩ =>
      apply Fin.ext
      show (D.start (ix2 e c) idx 0 + (D.window (ix2 e c) 0 : Int)).toNat = n.val
      rw [A0]; omega
    | ⟨1, _⟩ =>
      apply Fin.ext
      show (D.start (ix2 e c) idx 1 + (D.window (ix2 e c) 1 : Int)).toNat = c.val
      rw [A1]; omega

/-- The accumulating scatter of rows, read at (n, d): the operand there plus the updates (e, d) of the edges e whose scatter
    index is n. -/
theorem scatterAdd_rows {φ : FTy} (huw : D.updateWindowDims = [1]) (hiw : D.insertedWindowDims = [0])
    (hsd : D.scatterDimsToOperandDims = [0]) (hivd : D.indexVectorDim = 1)
    (x : FVec Ideal ⟨2, ![M, C]⟩ φ) (idx : IVec ⟨2, ![E, 1]⟩ w) (u : FVec Ideal ⟨2, ![E, C]⟩ φ) (n : Fin M) (d : Fin C) :
    Host.scatterAdd (F := Ideal) D x idx u (ix2 n d)
      = (x (ix2 n d) : EReal)
        + ∑ e : Fin E, if (idx (ix2 e 0)).toInt = (n.val : Int) then (u (ix2 e d) : EReal) else 0 := by
  unfold Host.scatterAdd
  rw [Ideal.hostScatterAdd_def]
  unfold Ideal.hostScatterAdd
  congr 1
  rw [Finset.sum_filter, sum_idx2]
  refine Finset.sum_congr rfl fun e _ => ?_
  simp only [scatter_lands_iff D huw hiw hsd hivd idx e _ n d]
  by_cases ht : (idx (ix2 e 0)).toInt = (n.val : Int)
  · simp [ht]
  · simp [ht]

end Scatter

/-! ## One aggregation: gather the rows, scale them, scatter-add them onto a zero array -/

section Pipeline

variable {N M E C : Nat}

/-- The normalised source index of an edge whose index is non-negative is the index itself. -/
theorem norm_apply (b3 : (⟨0, ![]⟩ : Shape).BroadcastsInDim ⟨1, ![E]⟩ ![]) (K : BitVec 32) (src : IVec ⟨1, ![E]⟩ 32) (e : Fin E)
    (h : 0 ≤ (src (ix1 e)).toInt) :
    select (cmpi .slt src (broadcastInDim ⟨1, ![E]⟩ ![] b3 (constantI ⟨0, ![]⟩ 32 0#32)))
      (addi src (broadcastInDim ⟨1, ![E]⟩ ![] b3 (constantI ⟨0, ![]⟩ 32 K))) src (ix1 e) = src (ix1 e) :=
  norm_word (src (ix1 e)) K h

/-- Entry (n, d) of the aggregation is the sum, over the edges whose destination is n, of the table's row at the edge's
    source, column d, times the edge's scale. -/
theorem agg_pipeline (hN : 0 < N)
    (D : ScatterDims ⟨2, ![M, C]⟩ ⟨2, ![E, 1]⟩ ⟨2, ![E, C]⟩)
    (huw : D.updateWindowDims = [1]) (hiw : D.insertedWindowDims = [0])
    (hsd : D.scatterDimsToOperandDims = [0]) (hivdD : D.indexVectorDim = 1)
    (G : GatherDims ⟨2, ![N, C]⟩ ⟨2, ![E, 1]⟩ ⟨2, ![E, C]⟩)
    (hoff : G.offsetDims = [1]) (hcoll : G.collapsedSliceDims = [0]) (hob : G.operandBatchingDims = [])
    (hsim : G.startIndexMap = [0]) (hivdG : G.indexVectorDim = 1)
    (b0 : (⟨0, ![]⟩ : Shape).BroadcastsInDim ⟨2, ![M, C]⟩ ![])
    (b1 : (⟨1, ![E]⟩ : Shape).BroadcastsInDim ⟨2, ![E, 1]⟩ ![0])
    (b2 : (⟨2, ![E, 1]⟩ : Shape).BroadcastsInDim ⟨2, ![E, C]⟩ ![0, 1])
    (b3 : (⟨0, ![]⟩ : Shape).BroadcastsInDim ⟨1, ![E]⟩ ![])
    (K : BitVec 32)
    (tbl : FVec Ideal ⟨2, ![N, C]⟩ .f32) (src dst : IVec ⟨1, ![E]⟩ 32) (sc : FVec Ideal ⟨1, ![E]⟩ .f32)
    (hsrc : ∀ i, 0 ≤ (src i).toInt ∧ (src i).toInt < (N : Int))
    (hdst : ∀ i, 0 ≤ (dst i).toInt)
    (n : Fin M) (d : Fin C) :
    Host.scatterAdd (F := Ideal) D
        (broadcastInDim ⟨2, ![M, C]⟩ ![] b0 (constant (F := Ideal) ⟨0, ![]⟩ .f32 0x00000000#32))
        (broadcastInDim ⟨2, ![E, 1]⟩ ![0] b1 dst)
        (mulf
          (Host.gather G tbl (broadcastInDim ⟨2, ![E, 1]⟩ ![0] b1
            (select (cmpi .slt src (broadcastInDim ⟨1, ![E]⟩ ![] b3 (constantI ⟨0, ![]⟩ 32 0#32)))
              (addi src (broadcastInDim ⟨1, ![E]⟩ ![] b3 (constantI ⟨0, ![]⟩ 32 K))) src)))
          (broadcastInDim ⟨2, ![E, C]⟩ ![0, 1] b2 (broadcastInDim ⟨2, ![E, 1]⟩ ![0] b1 sc)))
        (ix2 n d)
      = ∑ e : Fin E, if (dst (ix1 e)).toNat = n.val then
          ((tbl (ix2 (⟨(src (ix1 e)).toNat % N, Nat.mod_lt _ hN⟩ : Fin N) d) : EReal) * (sc (ix1 e) : EReal) : EReal)
        else 0 := by
  refine (scatterAdd_rows D huw hiw hsd hivdD _ _ _ n d).trans ?_
  have hz : (broadcastInDim ⟨2, ![M, C]⟩ ![] b0 (constant (F := Ideal) ⟨0, ![]⟩ .f32 0x00000000#32) (ix2 n d) : EReal) = 0 :=
    Ideal.ofBits_zero_f32
  rw [hz, zero_add]
  refine Finset.sum_congr rfl fun e _ => ?_
  have hd := hdst (ix1 e)
  have hs := hsrc (ix1 e)
  have hsN : (src (ix1 e)).toNat < N := by have := toInt_eq_toNat _ hs.1; omega
  refine if_congr ?_ ?_ rfl
  · rw [col_apply b1 dst e 0, toInt_eq_toNat _ hd]
    exact Int.natCast_inj
  · have hr : (broadcastInDim ⟨2, ![E, 1]⟩ ![0] b1
          (select (cmpi .slt src (broadcastInDim ⟨1, ![E]⟩ ![] b3 (constantI ⟨0, ![]⟩ 32 0#32)))
            (addi src (broadcastInDim ⟨1, ![E]⟩ ![] b3 (constantI ⟨0, ![]⟩ 32 K))) src) (ix2 e 0)).toInt
        = (((⟨(src (ix1 e)).toNat % N, Nat.mod_lt _ hN⟩ : Fin N).val : Nat) : Int) := by
      rw [col_apply b1 _ e 0, norm_apply b3 K src e hs.1, toInt_eq_toNat _ hs.1]
      show ((src (ix1 e)).toNat : Int) = (((src (ix1 e)).toNat % N : Nat) : Int)
      rw [Nat.mod_eq_of_lt hsN]
    rw [mulf_apply, gather_rows_inrange G hoff hcoll hob hsim hivdG tbl _ e d _ hr, across_apply b2 _ e d,
      col_apply b1 sc e 0]

end Pipeline

/-! ## This program's aggregation of the user table onto the spot rows -/

/-- The reference's aggregation over the bipartite edges, from the user table onto the spot rows, is the plain sum over
    the edges. -/
theorem aggR5 (tbl : FVec Ideal S27094x64 .f32) (src dst : IVec S2000000 32) (sc : FVec Ideal S2000000 .f32)
    (hsrc : ∀ i, 0 ≤ (src i).toInt ∧ (src i).toInt < 27094) (hdst : ∀ i, 0 ≤ (dst i).toInt ∧ (dst i).toInt < 42852) :
    Cert.ReferenceIdeal.RStages.v157 (F := Ideal) dst tbl src sc = Cert.AggSpec.aggUS tbl src dst sc := by
  funext i
  obtain ⟨n, d, rfl⟩ : ∃ (n : Fin 42852) (d : Fin 64), i = ix2 n d := ⟨i 0, i 1, eq_ix2 i⟩
  unfold Cert.ReferenceIdeal.RStages.v157
  refine (agg_pipeline (N := 27094) (M := 42852) (E := 2000000) (C := 64) (by omega)
    scatter_S42852x64_S2000000x1_S2000000x64_1_0_0_1 rfl rfl rfl rfl
    gather_S27094x64_S2000000x1_S2000000x64_1_0_n_n_0_1_164 rfl rfl rfl rfl rfl
    Facts₀.bcast_S_S42852x64 Facts₀.bcast_S2000000_S2000000x1_0 Facts₀.bcast_S2000000x1_S2000000x64_0_1
    Facts₀.bcast_S_S2000000 27094#32 tbl src dst sc
    (fun i => ⟨(hsrc i).1, by have := (hsrc i).2; omega⟩) (fun i => (hdst i).1) n d).trans ?_
  rfl

end Cert.AggR5

end
-- ==== Proof.AggR6.lean ====
/- The reference side of one graph aggregation, read index by index at the extended reals.

  The reference computes an aggregation as a scatter-add, onto a zero array, of the rows of a table gathered at the edges'
  source indices and multiplied by the edges' scales, the rows landing at the edges' destination indices. Read at entry
  (n, d) this is the plain sum, over the edges e whose destination is n, of table (source e, d) times scale e:

  * a source index that is non-negative is left alone by the index normalisation (add the table's length to a negative
    index), and one below the table's length is left alone by the gather's clamp, so the gather reads the table's row at
    the source index itself;
  * the scatter reads each destination index signed and does not clamp it; the row axis is the inserted one and the
    column axis the window, so update (e, c) lands at (destination e, c), and the filtered sum over the updates that land
    at (n, d) is the sum over the edges with destination n of update (e, d);
  * the zero array contributes 0.

  The lemmas on the gather, the scatter and the broadcasts are stated for arbitrary sizes, with the dimension numbers as
  hypotheses (each an equation between short axis lists); the last theorem instantiates them at this program's sizes.
-/
import proofs.«400075_j26585847562450_2_alg».proof.Proof.RStages
import proofs.«400075_j26585847562450_2_alg».proof.Proof.AggSpec
import Idealize.ShloMosaic.PureOps.Ideal
import Idealize.ShloMosaic.PureOps.Ideal.Laws
import Idealize.ShloMosaic.Lib.ValueIdx
import Idealize.ShloMosaic.Lib.ValueIdxRank1

set_option maxRecDepth 16384

noncomputable section

namespace Cert.AggR6

open Cert.ReferenceIdeal Idealize.ShloMosaic Idealize.ShloMosaic.ValueIdx

/-! ## Words -/

/-- jnp's index normalisation (add the table's length to a negative index) leaves a non-negative word alone. -/
theorem norm_word (w K : BitVec 32) (h : 0 ≤ w.toInt) :
    Scalar.select (IntOp.cmpi .slt w 0#32) (IntOp.addi w K) w = w := by
  have hlt : w.slt 0#32 = false := by
    simp only [BitVec.slt, BitVec.toInt_zero, decide_eq_false_iff_not, not_lt]
    exact h
  have hc : IntOp.cmpi .slt w 0#32 = 0#1 := by
    show BitVec.ofBool (w.slt 0#32) = 0#1
    rw [hlt]; rfl
  rw [hc]
  exact select_zero _ _

/-- A 32-bit word that is non-negative read signed is its unsigned value. -/
theorem toInt_eq_toNat (w : BitVec 32) (h : 0 ≤ w.toInt) : w.toInt = (w.toNat : Int) := by
  have hlt := w.isLt
  rw [BitVec.toInt_eq_toNat_cond] at h ⊢
  split
  · rfl
  · next hh => rw [if_neg hh] at h; omega

/-! ## Coordinates of a rank-2 index at an axis known only by an equation -/

theorem ix2_val_axis0 {n m : Nat} (p : Fin n) (q : Fin m) (x : Fin (⟨2, ![n, m]⟩ : Shape).rank) (hx : x = 0) :
    ((ix2 p q) x).val = p.val := by subst hx; rfl

theorem ix2_val_axis1 {n m : Nat} (p : Fin n) (q : Fin m) (x : Fin (⟨2, ![n, m]⟩ : Shape).rank) (hx : x = 1) :
    ((ix2 p q) x).val = q.val := by subst hx; rfl

/-- Any entry of a one-element list is its element. -/
theorem getElem_of_eq_singleton {α : Type} (l : List α) (a : α) (h : l = [a]) (k : Nat) (hk : k < l.length) :
    l[k] = a := by
  subst h
  have hk0 : k = 0 := by simpa using hk
  subst hk0
  rfl

/-! ## Broadcasts read at an index -/

/-- A vector kept as an [n × 1] column reads, at (p, 0), the vector at p. -/
theorem col_apply {α : Type} {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-- An [n × 1] column laid across the m columns of a rectangle reads, at (p, q), the column at (p, 0). -/
theorem across_apply {α : Type} {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) := by
  simp only [broadcastInDim]
  congr 1
  funext a
  match a with
  | ⟨0, _⟩ =>
    apply Fin.ext
    have hp := p.isLt
    split
    · next h1 => change n = 1 at h1; show (0 : Nat) = p.val; omega
    · rfl
  | ⟨1, _⟩ =>
    apply Fin.ext
    split
    · rfl
    · next h1 => exact absurd rfl h1

/-! ## Axis lists of a rank-2 shape (facts about the rank alone) -/

theorem kept2_drop1 : ((List.finRange 2).filter (· ∉ [(1 : Fin 2)])) = [0] := by decide
theorem kept2_drop0 : ((List.finRange 2).filter (· ∉ [(0 : Fin 2)])) = [1] := by decide
theorem axes2_but1 : ((List.finRange 2).filter (fun b : Fin 2 => b.val ≠ 1)) = [0] := by decide
theorem idxOf2_00 : List.idxOf (0 : Fin 2) [0] = 0 := by decide
theorem idxOf2_11 : List.idxOf (1 : Fin 2) [1] = 0 := by decide
theorem one_notin2 : (1 : Fin 2) ∉ [(0 : Fin 2)] := by decide
theorem zero_notin2 : (0 : Fin 2) ∉ [(1 : Fin 2)] := by decide
theorem one_notin2_nil : (1 : Fin 2) ∉ [(0 : Fin 2)] ∧ (1 : Fin 2) ∉ ([] : List (Fin 2)) := by decide

/-! ## The row take: a gather of whole rows of a rank-2 table at a column of start indices -/

section Gather

variable {N E C w : Nat} (G : GatherDims ⟨2, ![N, C]⟩ ⟨2, ![E, 1]⟩ ⟨2, ![E, C]⟩)

/-- The start-indices index a result index (e, c) reads its one start component at is (e, 0). -/
theorem gather_siIdx (hoff : G.offsetDims = [1]) (hivd : G.indexVectorDim = 1)
    (e : Fin E) (c : Fin C) (k : Fin G.startIndexMap.length) (hk : k.val = 0) :
    G.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    refine ix2_val_axis0 e c _ ?_
    refine getElem_of_eq_singleton _ _ ?_ _ _
    show (⟨2, ![E, C]⟩ : Shape).kept G.offsetDims = [0]
    rw [hoff]; exact kept2_drop1
  | ⟨1, _⟩ =>
    unfold GatherDims.siIdx
    rw [dif_pos (by rw [hivd])]
    apply Fin.ext
    exact hk

/-- On the table's row axis the operand index is the start index read signed and clamped into the table. -/
theorem gather_axis0 (hoff : G.offsetDims = [1]) (hcoll : G.collapsedSliceDims = [0]) (hob : G.operandBatchingDims = [])
    (hsim : G.startIndexMap = [0]) (hivd : G.indexVectorDim = 1)
    (idx : IVec ⟨2, ![E, 1]⟩ w) (e : Fin E) (c : Fin C) :
    (G.operandIdx (ix2 e c) idx 0).val = min (idx (ix2 e 0)).toInt.toNat (N - 1) := by
  have hb : (0 : Fin 2) ∉ G.operandBatchingDims := by rw [hob]; exact List.not_mem_nil
  have hk : (0 : Fin 2) ∉ G.sKept := by rw [GatherDims.mem_sKept, hcoll]; simp
  have hm : (0 : Fin 2) ∈ G.startIndexMap := by rw [hsim]; exact List.mem_singleton.mpr rfl
  have hsl : G.sliceSizes 0 = 1 := G.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - G.sliceSizes 0) = min (idx (ix2 e 0)).toInt.toNat (N - 1)
  rw [hsl, gather_siIdx G hoff hivd e c _ (by show List.idxOf (0 : Fin 2) G.startIndexMap = 0; rw [hsim]; exact idxOf2_00)]

/-- On the table's column axis the operand index is the result's column. -/
theorem gather_axis1 (hoff : G.offsetDims = [1]) (hcoll : G.collapsedSliceDims = [0]) (hob : G.operandBatchingDims = [])
    (hsim : G.startIndexMap = [0])
    (idx : IVec ⟨2, ![E, 1]⟩ w) (e : Fin E) (c : Fin C) :
    (G.operandIdx (ix2 e c) idx 1).val = c.val := by
  have hb : (1 : Fin 2) ∉ G.operandBatchingDims := by rw [hob]; exact List.not_mem_nil
  have hk : (1 : Fin 2) ∈ G.sKept := by rw [GatherDims.mem_sKept, hcoll, hob]; exact one_notin2_nil
  have hm : (1 : Fin 2) ∉ G.startIndexMap := by rw [hsim]; exact one_notin2
  simp only [GatherDims.operandIdx, GatherDims.batchCoord_eq_zero _ _ _ hb, Nat.add_zero, GatherDims.start, dif_neg hm,
    Nat.zero_add, GatherDims.offCoord, dif_pos hk]
  refine ix2_val_axis1 e c _ ?_
  exact getElem_of_eq_singleton _ _ hoff _ _

/-- The gather reads, at (e, c), the table's row at e's start index (signed, clamped), column c. -/
theorem gather_rows {α : Type} (hoff : G.offsetDims = [1]) (hcoll : G.collapsedSliceDims = [0])
    (hob : G.operandBatchingDims = []) (hsim : G.startIndexMap = [0]) (hivd : G.indexVectorDim = 1)
    (x : (⟨2, ![N, C]⟩ : Shape).Idx → α) (idx : IVec ⟨2, ![E, 1]⟩ w) (e : Fin E) (c : Fin C) (hN : 0 < N) :
    Host.gather G x idx (ix2 e c)
      = x (ix2 (⟨min (idx (ix2 e 0)).toInt.toNat (N - 1), by omega⟩ : Fin N) c) := by
  unfold Host.gather
  congr 1
  funext a
  match a with
  | ⟨0, _⟩ => exact Fin.ext (gather_axis0 G hoff hcoll hob hsim hivd idx e c)
  | ⟨1, _⟩ => exact Fin.ext (gather_axis1 G hoff hcoll hob hsim idx e c)

/-- When e's start index, read signed, is a row r of the table, the gather reads row r there (the clamp does nothing). -/
theorem gather_rows_inrange {α : Type} (hoff : G.offsetDims = [1]) (hcoll : G.collapsedSliceDims = [0])
    (hob : G.operandBatchingDims = []) (hsim : G.startIndexMap = [0]) (hivd : G.indexVectorDim = 1)
    (x : (⟨2, ![N, C]⟩ : Shape).Idx → α) (idx : IVec ⟨2, ![E, 1]⟩ w) (e : Fin E) (c : Fin C) (r : Fin N)
    (hr : (idx (ix2 e 0)).toInt = (r.val : Int)) :
    Host.gather G x idx (ix2 e c) = x (ix2 r c) := by
  have hN : 0 < N := Nat.lt_of_le_of_lt (Nat.zero_le _) r.isLt
  rw [gather_rows G hoff hcoll hob hsim hivd x idx e c hN]
  have hfin : (⟨min (idx (ix2 e 0)).toInt.toNat (N - 1), by omega⟩ : Fin N) = r := by
    apply Fin.ext
    show min (idx (ix2 e 0)).toInt.toNat (N - 1) = r.val
    have hlt := r.isLt
    rw [hr, Int.toNat_natCast]
    omega
  rw [hfin]

end Gather

/-! ## The row scatter: updates (e, c) land at (start index of e, c) -/

section Scatter

variable {M E C w : Nat} (D : ScatterDims ⟨2, ![M, C]⟩ ⟨2, ![E, 1]⟩ ⟨2, ![E, C]⟩)

/-- The scatter-indices index an update index (e, c) reads its one start component at is (e, 0). -/
theorem scatter_siIdx (huw : D.updateWindowDims = [1]) (hivd : D.indexVectorDim = 1)
    (e : Fin E) (c : Fin C) (k : Fin D.scatterDimsToOperandDims.length) (hk : k.val = 0) :
    D.siIdx (ix2 e c) k = ix2 e 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    refine ix2_val_axis0 e c _ ?_
    refine getElem_of_eq_singleton _ _ ?_ _ _
    show (⟨2, ![E, C]⟩ : Shape).kept D.updateWindowDims = [0]
    rw [huw]; exact kept2_drop1
  | ⟨1, _⟩ =>
    unfold ScatterDims.siIdx
    rw [dif_pos (by rw [hivd])]
    apply Fin.ext
    exact hk

/-- On the row axis the window starts at the scatter index of the update's edge, read signed, not clamped. -/
theorem scatter_start0 (huw : D.updateWindowDims = [1]) (hsd : D.scatterDimsToOperandDims = [0])
    (hivd : D.indexVectorDim = 1) (idx : IVec ⟨2, ![E, 1]⟩ w) (e : Fin E) (c : Fin C) :
    D.start (ix2 e c) idx 0 = (idx (ix2 e 0)).toInt := by
  have hm : (0 : Fin 2) ∈ D.scatterDimsToOperandDims := by rw [hsd]; exact List.mem_singleton.mpr rfl
  unfold ScatterDims.start
  rw [dif_pos hm, scatter_siIdx D huw hivd e c _
    (by show List.idxOf (0 : Fin 2) D.scatterDimsToOperandDims = 0; rw [hsd]; exact idxOf2_00)]

/-- On the column axis the window starts at 0. -/
theorem scatter_start1 (hsd : D.scatterDimsToOperandDims = [0]) (idx : IVec ⟨2, ![E, 1]⟩ w) (e : Fin E) (c : Fin C) :
    D.start (ix2 e c) idx 1 = 0 := by
  have hm : (1 : Fin 2) ∉ D.scatterDimsToOperandDims := by rw [hsd]; exact one_notin2
  unfold ScatterDims.start
  rw [dif_neg hm]

theorem scatter_sKept (hiw : D.insertedWindowDims = [0]) : D.sKept = [1] := by
  show (⟨2, ![M, C]⟩ : Shape).kept D.insertedWindowDims = [1]
  rw [hiw]; exact kept2_drop0

/-- The row axis is inserted: its window coordinate is 0. -/
theorem scatter_window0 (hiw : D.insertedWindowDims = [0]) (e : Fin E) (c : Fin C) : D.window (ix2 e c) 0 = 0 := by
  have hk : (0 : Fin 2) ∉ D.sKept := by rw [scatter_sKept D hiw]; exact zero_notin2
  unfold ScatterDims.window
  rw [dif_neg hk]

/-- The column axis is the window: its window coordinate is the update's column. -/
theorem scatter_window1 (huw : D.updateWindowDims = [1]) (hiw : D.insertedWindowDims = [0]) (e : Fin E) (c : Fin C) :
    D.window (ix2 e c) 1 = c.val := by
  have hk : (1 : Fin 2) ∈ D.sKept := by rw [scatter_sKept D hiw]; exact List.mem_singleton.mpr rfl
  unfold ScatterDims.window
  rw [dif_pos hk]
  refine ix2_val_axis1 e c _ ?_
  exact getElem_of_eq_singleton _ _ huw _ _

/-- Update (e, c) lands at (n, d) exactly when e's scatter index, read signed, is n and c is d. -/
theorem scatter_lands_iff (huw : D.updateWindowDims = [1]) (hiw : D.insertedWindowDims = [0])
    (hsd : D.scatterDimsToOperandDims = [0]) (hivd : D.indexVectorDim = 1)
    (idx : IVec ⟨2, ![E, 1]⟩ w) (e : Fin E) (c : Fin C) (n : Fin M) (d : Fin C) :
    D.resultIdx? (ix2 e c) idx = some (ix2 n d) ↔ (idx (ix2 e 0)).toInt = (n.val : Int) ∧ c = d := by
  have A0 : D.start (ix2 e c) idx 0 + (D.window (ix2 e c) 0 : Int) = (idx (ix2 e 0)).toInt := by
    rw [scatter_start0 D huw hsd hivd, scatter_window0 D hiw]; simp
  have A1 : D.start (ix2 e c) idx 1 + (D.window (ix2 e c) 1 : Int) = (c.val : Int) := by
    rw [scatter_start1 D hsd, scatter_window1 D huw hiw]; simp
  have hn := n.isLt
  have hc := c.isLt
  unfold ScatterDims.resultIdx?
  constructor
  · intro hr
    split at hr
    · next h =>
      have hf := Option.some.inj hr
      have h0 : (D.start (ix2 e c) idx 0 + (D.window (ix2 e c) 0 : Int)).toNat = n.val :=
        congrArg (fun f : (⟨2, ![M, C]⟩ : Shape).Idx => (f 0).val) hf
      have h1 : (D.start (ix2 e c) idx 1 + (D.window (ix2 e c) 1 : Int)).toNat = d.val :=
        congrArg (fun f : (⟨2, ![M, C]⟩ : Shape).Idx => (f 1).val) hf
      have hp := (h 0).1
      rw [A0] at h0 hp
      rw [A1] at h1
      exact ⟨by omega, Fin.ext (by omega)⟩
    · exact absurd hr (by simp)
  · rintro ⟨ht, hcd⟩
    subst hcd
    have hcond : ∀ a, 0 ≤ D.start (ix2 e c) idx a + (D.window (ix2 e c) a : Int)
        ∧ D.start (ix2 e c) idx a + (D.window (ix2 e c) a : Int) < ((⟨2, ![M, C]⟩ : Shape).size a : Int) := by
      intro a
      match a with
      | ⟨0, _⟩ =>
        show 0 ≤ D.start (ix2 e c) idx 0 + (D.window (ix2 e c) 0 : Int)
          ∧ D.start (ix2 e c) idx 0 + (D.window (ix2 e c) 0 : Int) < (M : Int)
        rw [A0]; omega
      | ⟨1, _⟩ =>
        show 0 ≤ D.start (ix2 e c) idx 1 + (D.window (ix2 e c) 1 : Int)
          ∧ D.start (ix2 e c) idx 1 + (D.window (ix2 e c) 1 : Int) < (C : Int)
        rw [A1]; omega
    rw [dif_pos hcond]
    congr 1
    funext a
    match a with
    | ⟨0, _⟩ =>
      apply Fin.ext
      show (D.start (ix2 e c) idx 0 + (D.window (ix2 e c) 0 : Int)).toNat = n.val
      rw [A0]; omega
    | ⟨1, _⟩ =>
      apply Fin.ext
      show (D.start (ix2 e c) idx 1 + (D.window (ix2 e c) 1 : Int)).toNat = c.val
      rw [A1]; omega

/-- The accumulating scatter of rows, read at (n, d): the operand there plus the updates (e, d) of the edges e whose scatter
    index is n. -/
theorem scatterAdd_rows {φ : FTy} (huw : D.updateWindowDims = [1]) (hiw : D.insertedWindowDims = [0])
    (hsd : D.scatterDimsToOperandDims = [0]) (hivd : D.indexVectorDim = 1)
    (x : FVec Ideal ⟨2, ![M, C]⟩ φ) (idx : IVec ⟨2, ![E, 1]⟩ w) (u : FVec Ideal ⟨2, ![E, C]⟩ φ) (n : Fin M) (d : Fin C) :
    Host.scatterAdd (F := Ideal) D x idx u (ix2 n d)
      = (x (ix2 n d) : EReal)
        + ∑ e : Fin E, if (idx (ix2 e 0)).toInt = (n.val : Int) then (u (ix2 e d) : EReal) else 0 := by
  unfold Host.scatterAdd
  rw [Ideal.hostScatterAdd_def]
  unfold Ideal.hostScatterAdd
  congr 1
  rw [Finset.sum_filter, sum_idx2]
  refine Finset.sum_congr rfl fun e _ => ?_
  simp only [scatter_lands_iff D huw hiw hsd hivd idx e _ n d]
  by_cases ht : (idx (ix2 e 0)).toInt = (n.val : Int)
  · simp [ht]
  · simp [ht]

end Scatter

/-! ## One aggregation: gather the rows, scale them, scatter-add them onto a zero array -/

section Pipeline

variable {N M E C : Nat}

/-- The normalised source index of an edge whose index is non-negative is the index itself. -/
theorem norm_apply (b3 : (⟨0, ![]⟩ : Shape).BroadcastsInDim ⟨1, ![E]⟩ ![]) (K : BitVec 32) (src : IVec ⟨1, ![E]⟩ 32) (e : Fin E)
    (h : 0 ≤ (src (ix1 e)).toInt) :
    select (cmpi .slt src (broadcastInDim ⟨1, ![E]⟩ ![] b3 (constantI ⟨0, ![]⟩ 32 0#32)))
      (addi src (broadcastInDim ⟨1, ![E]⟩ ![] b3 (constantI ⟨0, ![]⟩ 32 K))) src (ix1 e) = src (ix1 e) :=
  norm_word (src (ix1 e)) K h

/-- Entry (n, d) of the aggregation is the sum, over the edges whose destination is n, of the table's row at the edge's
    source, column d, times the edge's scale. -/
theorem agg_pipeline (hN : 0 < N)
    (D : ScatterDims ⟨2, ![M, C]⟩ ⟨2, ![E, 1]⟩ ⟨2, ![E, C]⟩)
    (huw : D.updateWindowDims = [1]) (hiw : D.insertedWindowDims = [0])
    (hsd : D.scatterDimsToOperandDims = [0]) (hivdD : D.indexVectorDim = 1)
    (G : GatherDims ⟨2, ![N, C]⟩ ⟨2, ![E, 1]⟩ ⟨2, ![E, C]⟩)
    (hoff : G.offsetDims = [1]) (hcoll : G.collapsedSliceDims = [0]) (hob : G.operandBatchingDims = [])
    (hsim : G.startIndexMap = [0]) (hivdG : G.indexVectorDim = 1)
    (b0 : (⟨0, ![]⟩ : Shape).BroadcastsInDim ⟨2, ![M, C]⟩ ![])
    (b1 : (⟨1, ![E]⟩ : Shape).BroadcastsInDim ⟨2, ![E, 1]⟩ ![0])
    (b2 : (⟨2, ![E, 1]⟩ : Shape).BroadcastsInDim ⟨2, ![E, C]⟩ ![0, 1])
    (b3 : (⟨0, ![]⟩ : Shape).BroadcastsInDim ⟨1, ![E]⟩ ![])
    (K : BitVec 32)
    (tbl : FVec Ideal ⟨2, ![N, C]⟩ .f32) (src dst : IVec ⟨1, ![E]⟩ 32) (sc : FVec Ideal ⟨1, ![E]⟩ .f32)
    (hsrc : ∀ i, 0 ≤ (src i).toInt ∧ (src i).toInt < (N : Int))
    (hdst : ∀ i, 0 ≤ (dst i).toInt)
    (n : Fin M) (d : Fin C) :
    Host.scatterAdd (F := Ideal) D
        (broadcastInDim ⟨2, ![M, C]⟩ ![] b0 (constant (F := Ideal) ⟨0, ![]⟩ .f32 0x00000000#32))
        (broadcastInDim ⟨2, ![E, 1]⟩ ![0] b1 dst)
        (mulf
          (Host.gather G tbl (broadcastInDim ⟨2, ![E, 1]⟩ ![0] b1
            (select (cmpi .slt src (broadcastInDim ⟨1, ![E]⟩ ![] b3 (constantI ⟨0, ![]⟩ 32 0#32)))
              (addi src (broadcastInDim ⟨1, ![E]⟩ ![] b3 (constantI ⟨0, ![]⟩ 32 K))) src)))
          (broadcastInDim ⟨2, ![E, C]⟩ ![0, 1] b2 (broadcastInDim ⟨2, ![E, 1]⟩ ![0] b1 sc)))
        (ix2 n d)
      = ∑ e : Fin E, if (dst (ix1 e)).toNat = n.val then
          ((tbl (ix2 (⟨(src (ix1 e)).toNat % N, Nat.mod_lt _ hN⟩ : Fin N) d) : EReal) * (sc (ix1 e) : EReal) : EReal)
        else 0 := by
  refine (scatterAdd_rows D huw hiw hsd hivdD _ _ _ n d).trans ?_
  have hz : (broadcastInDim ⟨2, ![M, C]⟩ ![] b0 (constant (F := Ideal) ⟨0, ![]⟩ .f32 0x00000000#32) (ix2 n d) : EReal) = 0 :=
    Ideal.ofBits_zero_f32
  rw [hz, zero_add]
  refine Finset.sum_congr rfl fun e _ => ?_
  have hd := hdst (ix1 e)
  have hs := hsrc (ix1 e)
  have hsN : (src (ix1 e)).toNat < N := by have := toInt_eq_toNat _ hs.1; omega
  refine if_congr ?_ ?_ rfl
  · rw [col_apply b1 dst e 0, toInt_eq_toNat _ hd]
    exact Int.natCast_inj
  · have hr : (broadcastInDim ⟨2, ![E, 1]⟩ ![0] b1
          (select (cmpi .slt src (broadcastInDim ⟨1, ![E]⟩ ![] b3 (constantI ⟨0, ![]⟩ 32 0#32)))
            (addi src (broadcastInDim ⟨1, ![E]⟩ ![] b3 (constantI ⟨0, ![]⟩ 32 K))) src) (ix2 e 0)).toInt
        = (((⟨(src (ix1 e)).toNat % N, Nat.mod_lt _ hN⟩ : Fin N).val : Nat) : Int) := by
      rw [col_apply b1 _ e 0, norm_apply b3 K src e hs.1, toInt_eq_toNat _ hs.1]
      show ((src (ix1 e)).toNat : Int) = (((src (ix1 e)).toNat % N : Nat) : Int)
      rw [Nat.mod_eq_of_lt hsN]
    rw [mulf_apply, gather_rows_inrange G hoff hcoll hob hsim hivdG tbl _ e d _ hr, across_apply b2 _ e d,
      col_apply b1 sc e 0]

end Pipeline

/-! ## This program's aggregation of the spot table onto the user rows -/

/-- The reference's aggregation over the bipartite edges, from the spot table onto the user rows, is the plain sum over
    the edges. -/
theorem aggR6 (tbl : FVec Ideal S42852x64 .f32) (src dst : IVec S2000000 32) (sc : FVec Ideal S2000000 .f32)
    (hsrc : ∀ i, 0 ≤ (src i).toInt ∧ (src i).toInt < 42852) (hdst : ∀ i, 0 ≤ (dst i).toInt ∧ (dst i).toInt < 27094) :
    Cert.ReferenceIdeal.RStages.v171 (F := Ideal) dst tbl src sc = Cert.AggSpec.aggSU tbl src dst sc := by
  funext i
  obtain ⟨n, d, rfl⟩ : ∃ (n : Fin 27094) (d : Fin 64), i = ix2 n d := ⟨i 0, i 1, eq_ix2 i⟩
  unfold Cert.ReferenceIdeal.RStages.v171
  refine (agg_pipeline (N := 42852) (M := 27094) (E := 2000000) (C := 64) (by omega)
    scatter_S27094x64_S2000000x1_S2000000x64_1_0_0_1 rfl rfl rfl rfl
    gather_S42852x64_S2000000x1_S2000000x64_1_0_n_n_0_1_164 rfl rfl rfl rfl rfl
    Facts₀.bcast_S_S27094x64 Facts₀.bcast_S2000000_S2000000x1_0 Facts₀.bcast_S2000000x1_S2000000x64_0_1
    Facts₀.bcast_S_S2000000 42852#32 tbl src dst sc
    (fun i => ⟨(hsrc i).1, by have := (hsrc i).2; omega⟩) (fun i => (hdst i).1) n d).trans ?_
  rfl

end Cert.AggR6

end
-- ==== Proof.AggR7.lean ====
/- The reference side of one graph aggregation, read index by index at the extended reals.

  The reference computes an aggregation as a scatter-add, onto a zero array, of the rows of a table gathered at the edges'
  source indices and multiplied by the edges' scales, the rows landing at the edges' destination indices. Read at entry
  (n, d) this is the plain sum, over the edges e whose destination is n, of table (source e, d) times scale e:

  * a source index that is non-negative is left alone by the index normalisation (add the table's length to a negative
    index), and one below the table's length is left alone by the gather's clamp, so the gather reads the table's row at
    the source index itself;
  * the scatter reads each destination index signed and does not clamp it; the row axis is the inserted one and the
    column axis the window, so update (e, c) lands at (destination e, c), and the filtered sum over the updates that land
    at (n, d) is the sum over the edges with destination n of update (e, d);
  * the zero array contributes 0.

  The lemmas on the gather, the scatter and the broadcasts are stated for arbitrary sizes, with the dimension numbers as
  hypotheses (each an equation between short axis lists); the last theorem instantiates them at this program's sizes.
-/
import proofs.«400075_j26585847562450_2_alg».proof.Proof.RStages
import proofs.«400075_j26585847562450_2_alg».proof.Proof.AggSpec
import Idealize.ShloMosaic.PureOps.Ideal
import Idealize.ShloMosaic.PureOps.Ideal.Laws
import Idealize.ShloMosaic.Lib.ValueIdx
import Idealize.ShloMosaic.Lib.ValueIdxRank1

set_option maxRecDepth 16384

noncomputable section

namespace Cert.AggR7

open Cert.ReferenceIdeal Idealize.ShloMosaic Idealize.ShloMosaic.ValueIdx

/-! ## Words -/

/-- jnp's index normalisation (add the table's length to a negative index) leaves a non-negative word alone. -/
theorem norm_word (w K : BitVec 32) (h : 0 ≤ w.toInt) :
    Scalar.select (IntOp.cmpi .slt w 0#32) (IntOp.addi w K) w = w := by
  have hlt : w.slt 0#32 = false := by
    simp only [BitVec.slt, BitVec.toInt_zero, decide_eq_false_iff_not, not_lt]
    exact h
  have hc : IntOp.cmpi .slt w 0#32 = 0#1 := by
    show BitVec.ofBool (w.slt 0#32) = 0#1
    rw [hlt]; rfl
  rw [hc]
  exact select_zero _ _

/-- A 32-bit word that is non-negative read signed is its unsigned value. -/
theorem toInt_eq_toNat (w : BitVec 32) (h : 0 ≤ w.toInt) : w.toInt = (w.toNat : Int) := by
  have hlt := w.isLt
  rw [BitVec.toInt_eq_toNat_cond] at h ⊢
  split
  · rfl
  · next hh => rw [if_neg hh] at h; omega

/-! ## Coordinates of a rank-2 index at an axis known only by an equation -/

theorem ix2_val_axis0 {n m : Nat} (p : Fin n) (q : Fin m) (x : Fin (⟨2, ![n, m]⟩ : Shape).rank) (hx : x = 0) :
    ((ix2 p q) x).val = p.val := by subst hx; rfl

theorem ix2_val_axis1 {n m : Nat} (p : Fin n) (q : Fin m) (x : Fin (⟨2, ![n, m]⟩ : Shape).rank) (hx : x = 1) :
    ((ix2 p q) x).val = q.val := by subst hx; rfl

/-- Any entry of a one-element list is its element. -/
theorem getElem_of_eq_singleton {α : Type} (l : List α) (a : α) (h : l = [a]) (k : Nat) (hk : k < l.length) :
    l[k] = a := by
  subst h
  have hk0 : k = 0 := by simpa using hk
  subst hk0
  rfl

/-! ## Broadcasts read at an index -/

/-- A vector kept as an [n × 1] column reads, at (p, 0), the vector at p. -/
theorem col_apply {α : Type} {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-- An [n × 1] column laid across the m columns of a rectangle reads, at (p, q), the column at (p, 0). -/
theorem across_apply {α : Type} {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) := by
  simp only [broadcastInDim]
  congr 1
  funext a
  match a with
  | ⟨0, _⟩ =>
    apply Fin.ext
    have hp := p.isLt
    split
    · next h1 => change n = 1 at h1; show (0 : Nat) = p.val; omega
    · rfl
  | ⟨1, _⟩ =>
    apply Fin.ext
    split
    · rfl
    · next h1 => exact absurd rfl h1

/-! ## Axis lists of a rank-2 shape (facts about the rank alone) -/

theorem kept2_drop1 : ((List.finRange 2).filter (· ∉ [(1 : Fin 2)])) = [0] := by decide
theorem kept2_drop0 : ((List.finRange 2).filter (· ∉ [(0 : Fin 2)])) = [1] := by decide
theorem axes2_but1 : ((List.finRange 2).filter (fun b : Fin 2 => b.val ≠ 1)) = [0] := by decide
theorem idxOf2_00 : List.idxOf (0 : Fin 2) [0] = 0 := by decide
theorem idxOf2_11 : List.idxOf (1 : Fin 2) [1] = 0 := by decide
theorem one_notin2 : (1 : Fin 2) ∉ [(0 : Fin 2)] := by decide
theorem zero_notin2 : (0 : Fin 2) ∉ [(1 : Fin 2)] := by decide
theorem one_notin2_nil : (1 : Fin 2) ∉ [(0 : Fin 2)] ∧ (1 : Fin 2) ∉ ([] : List (Fin 2)) := by decide

/-! ## The row take: a gather of whole rows of a rank-2 table at a column of start indices -/

section Gather

variable {N E C w : Nat} (G : GatherDims ⟨2, ![N, C]⟩ ⟨2, ![E, 1]⟩ ⟨2, ![E, C]⟩)

/-- The start-indices index a result index (e, c) reads its one start component at is (e, 0). -/
theorem gather_siIdx (hoff : G.offsetDims = [1]) (hivd : G.indexVectorDim = 1)
    (e : Fin E) (c : Fin C) (k : Fin G.startIndexMap.length) (hk : k.val = 0) :
    G.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    refine ix2_val_axis0 e c _ ?_
    refine getElem_of_eq_singleton _ _ ?_ _ _
    show (⟨2, ![E, C]⟩ : Shape).kept G.offsetDims = [0]
    rw [hoff]; exact kept2_drop1
  | ⟨1, _⟩ =>
    unfold GatherDims.siIdx
    rw [dif_pos (by rw [hivd])]
    apply Fin.ext
    exact hk

/-- On the table's row axis the operand index is the start index read signed and clamped into the table. -/
theorem gather_axis0 (hoff : G.offsetDims = [1]) (hcoll : G.collapsedSliceDims = [0]) (hob : G.operandBatchingDims = [])
    (hsim : G.startIndexMap = [0]) (hivd : G.indexVectorDim = 1)
    (idx : IVec ⟨2, ![E, 1]⟩ w) (e : Fin E) (c : Fin C) :
    (G.operandIdx (ix2 e c) idx 0).val = min (idx (ix2 e 0)).toInt.toNat (N - 1) := by
  have hb : (0 : Fin 2) ∉ G.operandBatchingDims := by rw [hob]; exact List.not_mem_nil
  have hk : (0 : Fin 2) ∉ G.sKept := by rw [GatherDims.mem_sKept, hcoll]; simp
  have hm : (0 : Fin 2) ∈ G.startIndexMap := by rw [hsim]; exact List.mem_singleton.mpr rfl
  have hsl : G.sliceSizes 0 = 1 := G.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - G.sliceSizes 0) = min (idx (ix2 e 0)).toInt.toNat (N - 1)
  rw [hsl, gather_siIdx G hoff hivd e c _ (by show List.idxOf (0 : Fin 2) G.startIndexMap = 0; rw [hsim]; exact idxOf2_00)]

/-- On the table's column axis the operand index is the result's column. -/
theorem gather_axis1 (hoff : G.offsetDims = [1]) (hcoll : G.collapsedSliceDims = [0]) (hob : G.operandBatchingDims = [])
    (hsim : G.startIndexMap = [0])
    (idx : IVec ⟨2, ![E, 1]⟩ w) (e : Fin E) (c : Fin C) :
    (G.operandIdx (ix2 e c) idx 1).val = c.val := by
  have hb : (1 : Fin 2) ∉ G.operandBatchingDims := by rw [hob]; exact List.not_mem_nil
  have hk : (1 : Fin 2) ∈ G.sKept := by rw [GatherDims.mem_sKept, hcoll, hob]; exact one_notin2_nil
  have hm : (1 : Fin 2) ∉ G.startIndexMap := by rw [hsim]; exact one_notin2
  simp only [GatherDims.operandIdx, GatherDims.batchCoord_eq_zero _ _ _ hb, Nat.add_zero, GatherDims.start, dif_neg hm,
    Nat.zero_add, GatherDims.offCoord, dif_pos hk]
  refine ix2_val_axis1 e c _ ?_
  exact getElem_of_eq_singleton _ _ hoff _ _

/-- The gather reads, at (e, c), the table's row at e's start index (signed, clamped), column c. -/
theorem gather_rows {α : Type} (hoff : G.offsetDims = [1]) (hcoll : G.collapsedSliceDims = [0])
    (hob : G.operandBatchingDims = []) (hsim : G.startIndexMap = [0]) (hivd : G.indexVectorDim = 1)
    (x : (⟨2, ![N, C]⟩ : Shape).Idx → α) (idx : IVec ⟨2, ![E, 1]⟩ w) (e : Fin E) (c : Fin C) (hN : 0 < N) :
    Host.gather G x idx (ix2 e c)
      = x (ix2 (⟨min (idx (ix2 e 0)).toInt.toNat (N - 1), by omega⟩ : Fin N) c) := by
  unfold Host.gather
  congr 1
  funext a
  match a with
  | ⟨0, _⟩ => exact Fin.ext (gather_axis0 G hoff hcoll hob hsim hivd idx e c)
  | ⟨1, _⟩ => exact Fin.ext (gather_axis1 G hoff hcoll hob hsim idx e c)

/-- When e's start index, read signed, is a row r of the table, the gather reads row r there (the clamp does nothing). -/
theorem gather_rows_inrange {α : Type} (hoff : G.offsetDims = [1]) (hcoll : G.collapsedSliceDims = [0])
    (hob : G.operandBatchingDims = []) (hsim : G.startIndexMap = [0]) (hivd : G.indexVectorDim = 1)
    (x : (⟨2, ![N, C]⟩ : Shape).Idx → α) (idx : IVec ⟨2, ![E, 1]⟩ w) (e : Fin E) (c : Fin C) (r : Fin N)
    (hr : (idx (ix2 e 0)).toInt = (r.val : Int)) :
    Host.gather G x idx (ix2 e c) = x (ix2 r c) := by
  have hN : 0 < N := Nat.lt_of_le_of_lt (Nat.zero_le _) r.isLt
  rw [gather_rows G hoff hcoll hob hsim hivd x idx e c hN]
  have hfin : (⟨min (idx (ix2 e 0)).toInt.toNat (N - 1), by omega⟩ : Fin N) = r := by
    apply Fin.ext
    show min (idx (ix2 e 0)).toInt.toNat (N - 1) = r.val
    have hlt := r.isLt
    rw [hr, Int.toNat_natCast]
    omega
  rw [hfin]

end Gather

/-! ## The row scatter: updates (e, c) land at (start index of e, c) -/

section Scatter

variable {M E C w : Nat} (D : ScatterDims ⟨2, ![M, C]⟩ ⟨2, ![E, 1]⟩ ⟨2, ![E, C]⟩)

/-- The scatter-indices index an update index (e, c) reads its one start component at is (e, 0). -/
theorem scatter_siIdx (huw : D.updateWindowDims = [1]) (hivd : D.indexVectorDim = 1)
    (e : Fin E) (c : Fin C) (k : Fin D.scatterDimsToOperandDims.length) (hk : k.val = 0) :
    D.siIdx (ix2 e c) k = ix2 e 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    refine ix2_val_axis0 e c _ ?_
    refine getElem_of_eq_singleton _ _ ?_ _ _
    show (⟨2, ![E, C]⟩ : Shape).kept D.updateWindowDims = [0]
    rw [huw]; exact kept2_drop1
  | ⟨1, _⟩ =>
    unfold ScatterDims.siIdx
    rw [dif_pos (by rw [hivd])]
    apply Fin.ext
    exact hk

/-- On the row axis the window starts at the scatter index of the update's edge, read signed, not clamped. -/
theorem scatter_start0 (huw : D.updateWindowDims = [1]) (hsd : D.scatterDimsToOperandDims = [0])
    (hivd : D.indexVectorDim = 1) (idx : IVec ⟨2, ![E, 1]⟩ w) (e : Fin E) (c : Fin C) :
    D.start (ix2 e c) idx 0 = (idx (ix2 e 0)).toInt := by
  have hm : (0 : Fin 2) ∈ D.scatterDimsToOperandDims := by rw [hsd]; exact List.mem_singleton.mpr rfl
  unfold ScatterDims.start
  rw [dif_pos hm, scatter_siIdx D huw hivd e c _
    (by show List.idxOf (0 : Fin 2) D.scatterDimsToOperandDims = 0; rw [hsd]; exact idxOf2_00)]

/-- On the column axis the window starts at 0. -/
theorem scatter_start1 (hsd : D.scatterDimsToOperandDims = [0]) (idx : IVec ⟨2, ![E, 1]⟩ w) (e : Fin E) (c : Fin C) :
    D.start (ix2 e c) idx 1 = 0 := by
  have hm : (1 : Fin 2) ∉ D.scatterDimsToOperandDims := by rw [hsd]; exact one_notin2
  unfold ScatterDims.start
  rw [dif_neg hm]

theorem scatter_sKept (hiw : D.insertedWindowDims = [0]) : D.sKept = [1] := by
  show (⟨2, ![M, C]⟩ : Shape).kept D.insertedWindowDims = [1]
  rw [hiw]; exact kept2_drop0

/-- The row axis is inserted: its window coordinate is 0. -/
theorem scatter_window0 (hiw : D.insertedWindowDims = [0]) (e : Fin E) (c : Fin C) : D.window (ix2 e c) 0 = 0 := by
  have hk : (0 : Fin 2) ∉ D.sKept := by rw [scatter_sKept D hiw]; exact zero_notin2
  unfold ScatterDims.window
  rw [dif_neg hk]

/-- The column axis is the window: its window coordinate is the update's column. -/
theorem scatter_window1 (huw : D.updateWindowDims = [1]) (hiw : D.insertedWindowDims = [0]) (e : Fin E) (c : Fin C) :
    D.window (ix2 e c) 1 = c.val := by
  have hk : (1 : Fin 2) ∈ D.sKept := by rw [scatter_sKept D hiw]; exact List.mem_singleton.mpr rfl
  unfold ScatterDims.window
  rw [dif_pos hk]
  refine ix2_val_axis1 e c _ ?_
  exact getElem_of_eq_singleton _ _ huw _ _

/-- Update (e, c) lands at (n, d) exactly when e's scatter index, read signed, is n and c is d. -/
theorem scatter_lands_iff (huw : D.updateWindowDims = [1]) (hiw : D.insertedWindowDims = [0])
    (hsd : D.scatterDimsToOperandDims = [0]) (hivd : D.indexVectorDim = 1)
    (idx : IVec ⟨2, ![E, 1]⟩ w) (e : Fin E) (c : Fin C) (n : Fin M) (d : Fin C) :
    D.resultIdx? (ix2 e c) idx = some (ix2 n d) ↔ (idx (ix2 e 0)).toInt = (n.val : Int) ∧ c = d := by
  have A0 : D.start (ix2 e c) idx 0 + (D.window (ix2 e c) 0 : Int) = (idx (ix2 e 0)).toInt := by
    rw [scatter_start0 D huw hsd hivd, scatter_window0 D hiw]; simp
  have A1 : D.start (ix2 e c) idx 1 + (D.window (ix2 e c) 1 : Int) = (c.val : Int) := by
    rw [scatter_start1 D hsd, scatter_window1 D huw hiw]; simp
  have hn := n.isLt
  have hc := c.isLt
  unfold ScatterDims.resultIdx?
  constructor
  · intro hr
    split at hr
    · next h =>
      have hf := Option.some.inj hr
      have h0 : (D.start (ix2 e c) idx 0 + (D.window (ix2 e c) 0 : Int)).toNat = n.val :=
        congrArg (fun f : (⟨2, ![M, C]⟩ : Shape).Idx => (f 0).val) hf
      have h1 : (D.start (ix2 e c) idx 1 + (D.window (ix2 e c) 1 : Int)).toNat = d.val :=
        congrArg (fun f : (⟨2, ![M, C]⟩ : Shape).Idx => (f 1).val) hf
      have hp := (h 0).1
      rw [A0] at h0 hp
      rw [A1] at h1
      exact ⟨by omega, Fin.ext (by omega)⟩
    · exact absurd hr (by simp)
  · rintro ⟨ht, hcd⟩
    subst hcd
    have hcond : ∀ a, 0 ≤ D.start (ix2 e c) idx a + (D.window (ix2 e c) a : Int)
        ∧ D.start (ix2 e c) idx a + (D.window (ix2 e c) a : Int) < ((⟨2, ![M, C]⟩ : Shape).size a : Int) := by
      intro a
      match a with
      | ⟨0, _⟩ =>
        show 0 ≤ D.start (ix2 e c) idx 0 + (D.window (ix2 e c) 0 : Int)
          ∧ D.start (ix2 e c) idx 0 + (D.window (ix2 e c) 0 : Int) < (M : Int)
        rw [A0]; omega
      | ⟨1, _⟩ =>
        show 0 ≤ D.start (ix2 e c) idx 1 + (D.window (ix2 e c) 1 : Int)
          ∧ D.start (ix2 e c) idx 1 + (D.window (ix2 e c) 1 : Int) < (C : Int)
        rw [A1]; omega
    rw [dif_pos hcond]
    congr 1
    funext a
    match a with
    | ⟨0, _⟩ =>
      apply Fin.ext
      show (D.start (ix2 e c) idx 0 + (D.window (ix2 e c) 0 : Int)).toNat = n.val
      rw [A0]; omega
    | ⟨1, _⟩ =>
      apply Fin.ext
      show (D.start (ix2 e c) idx 1 + (D.window (ix2 e c) 1 : Int)).toNat = c.val
      rw [A1]; omega

/-- The accumulating scatter of rows, read at (n, d): the operand there plus the updates (e, d) of the edges e whose scatter
    index is n. -/
theorem scatterAdd_rows {φ : FTy} (huw : D.updateWindowDims = [1]) (hiw : D.insertedWindowDims = [0])
    (hsd : D.scatterDimsToOperandDims = [0]) (hivd : D.indexVectorDim = 1)
    (x : FVec Ideal ⟨2, ![M, C]⟩ φ) (idx : IVec ⟨2, ![E, 1]⟩ w) (u : FVec Ideal ⟨2, ![E, C]⟩ φ) (n : Fin M) (d : Fin C) :
    Host.scatterAdd (F := Ideal) D x idx u (ix2 n d)
      = (x (ix2 n d) : EReal)
        + ∑ e : Fin E, if (idx (ix2 e 0)).toInt = (n.val : Int) then (u (ix2 e d) : EReal) else 0 := by
  unfold Host.scatterAdd
  rw [Ideal.hostScatterAdd_def]
  unfold Ideal.hostScatterAdd
  congr 1
  rw [Finset.sum_filter, sum_idx2]
  refine Finset.sum_congr rfl fun e _ => ?_
  simp only [scatter_lands_iff D huw hiw hsd hivd idx e _ n d]
  by_cases ht : (idx (ix2 e 0)).toInt = (n.val : Int)
  · simp [ht]
  · simp [ht]

end Scatter

/-! ## One aggregation: gather the rows, scale them, scatter-add them onto a zero array -/

section Pipeline

variable {N M E C : Nat}

/-- The normalised source index of an edge whose index is non-negative is the index itself. -/
theorem norm_apply (b3 : (⟨0, ![]⟩ : Shape).BroadcastsInDim ⟨1, ![E]⟩ ![]) (K : BitVec 32) (src : IVec ⟨1, ![E]⟩ 32) (e : Fin E)
    (h : 0 ≤ (src (ix1 e)).toInt) :
    select (cmpi .slt src (broadcastInDim ⟨1, ![E]⟩ ![] b3 (constantI ⟨0, ![]⟩ 32 0#32)))
      (addi src (broadcastInDim ⟨1, ![E]⟩ ![] b3 (constantI ⟨0, ![]⟩ 32 K))) src (ix1 e) = src (ix1 e) :=
  norm_word (src (ix1 e)) K h

/-- Entry (n, d) of the aggregation is the sum, over the edges whose destination is n, of the table's row at the edge's
    source, column d, times the edge's scale. -/
theorem agg_pipeline (hN : 0 < N)
    (D : ScatterDims ⟨2, ![M, C]⟩ ⟨2, ![E, 1]⟩ ⟨2, ![E, C]⟩)
    (huw : D.updateWindowDims = [1]) (hiw : D.insertedWindowDims = [0])
    (hsd : D.scatterDimsToOperandDims = [0]) (hivdD : D.indexVectorDim = 1)
    (G : GatherDims ⟨2, ![N, C]⟩ ⟨2, ![E, 1]⟩ ⟨2, ![E, C]⟩)
    (hoff : G.offsetDims = [1]) (hcoll : G.collapsedSliceDims = [0]) (hob : G.operandBatchingDims = [])
    (hsim : G.startIndexMap = [0]) (hivdG : G.indexVectorDim = 1)
    (b0 : (⟨0, ![]⟩ : Shape).BroadcastsInDim ⟨2, ![M, C]⟩ ![])
    (b1 : (⟨1, ![E]⟩ : Shape).BroadcastsInDim ⟨2, ![E, 1]⟩ ![0])
    (b2 : (⟨2, ![E, 1]⟩ : Shape).BroadcastsInDim ⟨2, ![E, C]⟩ ![0, 1])
    (b3 : (⟨0, ![]⟩ : Shape).BroadcastsInDim ⟨1, ![E]⟩ ![])
    (K : BitVec 32)
    (tbl : FVec Ideal ⟨2, ![N, C]⟩ .f32) (src dst : IVec ⟨1, ![E]⟩ 32) (sc : FVec Ideal ⟨1, ![E]⟩ .f32)
    (hsrc : ∀ i, 0 ≤ (src i).toInt ∧ (src i).toInt < (N : Int))
    (hdst : ∀ i, 0 ≤ (dst i).toInt)
    (n : Fin M) (d : Fin C) :
    Host.scatterAdd (F := Ideal) D
        (broadcastInDim ⟨2, ![M, C]⟩ ![] b0 (constant (F := Ideal) ⟨0, ![]⟩ .f32 0x00000000#32))
        (broadcastInDim ⟨2, ![E, 1]⟩ ![0] b1 dst)
        (mulf
          (Host.gather G tbl (broadcastInDim ⟨2, ![E, 1]⟩ ![0] b1
            (select (cmpi .slt src (broadcastInDim ⟨1, ![E]⟩ ![] b3 (constantI ⟨0, ![]⟩ 32 0#32)))
              (addi src (broadcastInDim ⟨1, ![E]⟩ ![] b3 (constantI ⟨0, ![]⟩ 32 K))) src)))
          (broadcastInDim ⟨2, ![E, C]⟩ ![0, 1] b2 (broadcastInDim ⟨2, ![E, 1]⟩ ![0] b1 sc)))
        (ix2 n d)
      = ∑ e : Fin E, if (dst (ix1 e)).toNat = n.val then
          ((tbl (ix2 (⟨(src (ix1 e)).toNat % N, Nat.mod_lt _ hN⟩ : Fin N) d) : EReal) * (sc (ix1 e) : EReal) : EReal)
        else 0 := by
  refine (scatterAdd_rows D huw hiw hsd hivdD _ _ _ n d).trans ?_
  have hz : (broadcastInDim ⟨2, ![M, C]⟩ ![] b0 (constant (F := Ideal) ⟨0, ![]⟩ .f32 0x00000000#32) (ix2 n d) : EReal) = 0 :=
    Ideal.ofBits_zero_f32
  rw [hz, zero_add]
  refine Finset.sum_congr rfl fun e _ => ?_
  have hd := hdst (ix1 e)
  have hs := hsrc (ix1 e)
  have hsN : (src (ix1 e)).toNat < N := by have := toInt_eq_toNat _ hs.1; omega
  refine if_congr ?_ ?_ rfl
  · rw [col_apply b1 dst e 0, toInt_eq_toNat _ hd]
    exact Int.natCast_inj
  · have hr : (broadcastInDim ⟨2, ![E, 1]⟩ ![0] b1
          (select (cmpi .slt src (broadcastInDim ⟨1, ![E]⟩ ![] b3 (constantI ⟨0, ![]⟩ 32 0#32)))
            (addi src (broadcastInDim ⟨1, ![E]⟩ ![] b3 (constantI ⟨0, ![]⟩ 32 K))) src) (ix2 e 0)).toInt
        = (((⟨(src (ix1 e)).toNat % N, Nat.mod_lt _ hN⟩ : Fin N).val : Nat) : Int) := by
      rw [col_apply b1 _ e 0, norm_apply b3 K src e hs.1, toInt_eq_toNat _ hs.1]
      show ((src (ix1 e)).toNat : Int) = (((src (ix1 e)).toNat % N : Nat) : Int)
      rw [Nat.mod_eq_of_lt hsN]
    rw [mulf_apply, gather_rows_inrange G hoff hcoll hob hsim hivdG tbl _ e d _ hr, across_apply b2 _ e d,
      col_apply b1 sc e 0]

end Pipeline

/-! ## This program's aggregation of the user table onto the spot rows -/

/-- The reference's aggregation over the bipartite edges, from the user table onto the spot rows, is the plain sum over
    the edges. -/
theorem aggR7 (tbl : FVec Ideal S27094x64 .f32) (src dst : IVec S2000000 32) (sc : FVec Ideal S2000000 .f32)
    (hsrc : ∀ i, 0 ≤ (src i).toInt ∧ (src i).toInt < 27094) (hdst : ∀ i, 0 ≤ (dst i).toInt ∧ (dst i).toInt < 42852) :
    Cert.ReferenceIdeal.RStages.v183 (F := Ideal) dst tbl src sc = Cert.AggSpec.aggUS tbl src dst sc := by
  funext i
  obtain ⟨n, d, rfl⟩ : ∃ (n : Fin 42852) (d : Fin 64), i = ix2 n d := ⟨i 0, i 1, eq_ix2 i⟩
  unfold Cert.ReferenceIdeal.RStages.v183
  refine (agg_pipeline (N := 27094) (M := 42852) (E := 2000000) (C := 64) (by omega)
    scatter_S42852x64_S2000000x1_S2000000x64_1_0_0_1 rfl rfl rfl rfl
    gather_S27094x64_S2000000x1_S2000000x64_1_0_n_n_0_1_164 rfl rfl rfl rfl rfl
    Facts₀.bcast_S_S42852x64 Facts₀.bcast_S2000000_S2000000x1_0 Facts₀.bcast_S2000000x1_S2000000x64_0_1
    Facts₀.bcast_S_S2000000 27094#32 tbl src dst sc
    (fun i => ⟨(hsrc i).1, by have := (hsrc i).2; omega⟩) (fun i => (hdst i).1) n d).trans ?_
  rfl

end Cert.AggR7

end
-- ==== Proof.Glue.lean ====
/-
  Three small bridges between the kernel program's and the reference program's named arrays.

  * The row and column index vectors (row 0 and row 1 of a [2, E] edge index array: a unit-stride slice of one row, then a
    reshape that drops the unit axis) read, at each position, one word of the edge index array; so a range that holds of every
    word of the edge index array holds of every word of each vector.
  * The first graph's edge norm. The kernel program multiplies the inverse square-root degree gathered at the row index by the
    one gathered at the column index. The reference multiplies the first by the edge weight in between, and that graph's edge
    weights are the constant 1.0 laid over the edges: x * 1 = x on the extended reals. The gathers, the wrap of a negative index
    (select (idx < 0) (idx + 27094) idx) and the layout of the index vector as a column are the same operations on both sides; the
    two programs name their dimension records and shapes apart, and the records are the same literals.
-/
import proofs.«400075_j26585847562450_2_alg».proof.Proof.KDefs
import proofs.«400075_j26585847562450_2_alg».proof.Proof.RDefs
import Idealize.ShloMosaic.Lib.Pipeline.Value
import Idealize.ShloMosaic.Lib.ValueIdx
import Idealize.ShloMosaic.PureOps.Ideal

set_option maxRecDepth 16384

noncomputable section

namespace Cert.Glue

open Cert.KernelIdeal.KDefs Cert.ReferenceIdeal.RDefs Idealize.ShloMosaic

/-! ## Rows of an edge index array

A reshape reads its operand at the index with the same row-major position, a unit-stride slice reads its operand at the index
shifted by the offsets: whatever that index is, the word read is a word of the operand. -/

/-- Row 0 of the first graph's edge index array, word by word in the table's range. -/
theorem v1_range (a5 : IVec ⟨2, ![2, 541880]⟩ 32) (h : ∀ i, 0 ≤ (a5 i).toInt ∧ (a5 i).toInt < 27094) :
    ∀ i, 0 ≤ ((Cert.KernelIdeal.KHost0.v1 (F := Ideal) a5 : IVec ⟨1, ![541880]⟩ 32) i).toInt
      ∧ ((Cert.KernelIdeal.KHost0.v1 (F := Ideal) a5 : IVec ⟨1, ![541880]⟩ 32) i).toInt < 27094 :=
  fun i => h _

/-- Row 1 of the first graph's edge index array. -/
theorem v3_range (a5 : IVec ⟨2, ![2, 541880]⟩ 32) (h : ∀ i, 0 ≤ (a5 i).toInt ∧ (a5 i).toInt < 27094) :
    ∀ i, 0 ≤ ((Cert.KernelIdeal.KHost0.v3 (F := Ideal) a5 : IVec ⟨1, ![541880]⟩ 32) i).toInt
      ∧ ((Cert.KernelIdeal.KHost0.v3 (F := Ideal) a5 : IVec ⟨1, ![541880]⟩ 32) i).toInt < 27094 :=
  fun i => h _

/-- Row 0 of the second graph's edge index array. -/
theorem v44_range (a6 : IVec ⟨2, ![2, 1285560]⟩ 32) (h : ∀ i, 0 ≤ (a6 i).toInt ∧ (a6 i).toInt < 42852) :
    ∀ i, 0 ≤ ((Cert.KernelIdeal.KHost1.v44 (F := Ideal) a6 : IVec ⟨1, ![1285560]⟩ 32) i).toInt
      ∧ ((Cert.KernelIdeal.KHost1.v44 (F := Ideal) a6 : IVec ⟨1, ![1285560]⟩ 32) i).toInt < 42852 :=
  fun i => h _

/-- Row 1 of the second graph's edge index array. -/
theorem v46_range (a6 : IVec ⟨2, ![2, 1285560]⟩ 32) (h : ∀ i, 0 ≤ (a6 i).toInt ∧ (a6 i).toInt < 42852) :
    ∀ i, 0 ≤ ((Cert.KernelIdeal.KHost1.v46 (F := Ideal) a6 : IVec ⟨1, ![1285560]⟩ 32) i).toInt
      ∧ ((Cert.KernelIdeal.KHost1.v46 (F := Ideal) a6 : IVec ⟨1, ![1285560]⟩ 32) i).toInt < 42852 :=
  fun i => h _

theorem k1_range (A : Cert.Args) (h : ∀ i, 0 ≤ (A.a5 i).toInt ∧ (A.a5 i).toInt < 27094) :
    ∀ i, 0 ≤ ((k1 A : IVec ⟨1, ![541880]⟩ 32) i).toInt ∧ ((k1 A : IVec ⟨1, ![541880]⟩ 32) i).toInt < 27094 :=
  v1_range A.a5 h

theorem k3_range (A : Cert.Args) (h : ∀ i, 0 ≤ (A.a5 i).toInt ∧ (A.a5 i).toInt < 27094) :
    ∀ i, 0 ≤ ((k3 A : IVec ⟨1, ![541880]⟩ 32) i).toInt ∧ ((k3 A : IVec ⟨1, ![541880]⟩ 32) i).toInt < 27094 :=
  v3_range A.a5 h

theorem k44_range (A : Cert.Args) (h : ∀ i, 0 ≤ (A.a6 i).toInt ∧ (A.a6 i).toInt < 42852) :
    ∀ i, 0 ≤ ((k44 A : IVec ⟨1, ![1285560]⟩ 32) i).toInt ∧ ((k44 A : IVec ⟨1, ![1285560]⟩ 32) i).toInt < 42852 :=
  v44_range A.a6 h

theorem k46_range (A : Cert.Args) (h : ∀ i, 0 ≤ (A.a6 i).toInt ∧ (A.a6 i).toInt < 42852) :
    ∀ i, 0 ≤ ((k46 A : IVec ⟨1, ![1285560]⟩ 32) i).toInt ∧ ((k46 A : IVec ⟨1, ![1285560]⟩ 32) i).toInt < 42852 :=
  v46_range A.a6 h

/-! ## The first graph's edge norm -/

/-- The pattern of 1.0 denotes 1. -/
theorem one_eq : Ideal.ofBits .f32 0x3F800000#32 = 1 := by simp [Ideal.ofBits, Ideal.ieee, -EReal.coe_mul]; norm_num

/-- On equal operands the kernel program's edge norm is the reference's: the factor 1.0 in between changes nothing. -/
theorem v26_eq_v27 (t : FVec Ideal ⟨1, ![27094]⟩ .f32) (p q : IVec ⟨1, ![541880]⟩ 32) :
    (Cert.KernelIdeal.KHost0.v26 (F := Ideal) t p q : FVec Ideal ⟨1, ![541880]⟩ .f32)
      = Cert.ReferenceIdeal.RStages.v27 (F := Ideal) t p q := by
  unfold Cert.KernelIdeal.KHost0.v26 Cert.ReferenceIdeal.RStages.v27
  funext i
  -- at index i: g p i * g q i on the left, (g p i * c i) * g q i on the right, c the constant 1.0 laid over the edges
  show FloatOps.mulf (F := Ideal) (φ := .f32) _ _
    = FloatOps.mulf (F := Ideal) (φ := .f32) (FloatOps.mulf (F := Ideal) (φ := .f32) _ (Ideal.ofBits .f32 0x3F800000#32)) _
  rw [one_eq]
  show (_ : EReal) * _ = (_ * 1) * _
  rw [mul_one]
  -- the two gathered factors: the same operations, the dimension records and shapes the same literals under two names
  rfl

theorem k26_eq_r27 (A : Cert.Args) (h11 : (k11 A : FVec Ideal ⟨1, ![27094]⟩ .f32) = r11 A)
    (h1 : (k1 A : IVec ⟨1, ![541880]⟩ 32) = r2 A) (h3 : (k3 A : IVec ⟨1, ![541880]⟩ 32) = r4 A) :
    (k26 A : FVec Ideal ⟨1, ![541880]⟩ .f32) = r27 A := by
  show (Cert.KernelIdeal.KHost0.v26 (F := Ideal) (k11 A) (k1 A) (k3 A) : FVec Ideal ⟨1, ![541880]⟩ .f32)
    = Cert.ReferenceIdeal.RStages.v27 (F := Ideal) (r11 A) (r2 A) (r4 A)
  rw [← h11, ← h1, ← h3]
  exact v26_eq_v27 _ _ _

end Cert.Glue

end
-- ==== Proof.Bridge.lean ====
/-
  The two programs compute the same two result arrays from the same arguments, stage by stage.

  Both programs are the same dataflow over the seven argument arrays: the row and column indices of the user graph and of
  the spot graph, their inverse square-root degrees and edge norms, one aggregation over each graph added to its embedding
  table, then three rounds of the two bipartite aggregations (spots to users, users to spots), the running sums of the two
  sides, and a final scaling by a quarter. Where the two programs use literally the same operations the named arrays are
  equal by unfolding; each aggregation is equal because both programs' versions equal the plain sum over the edges, the
  index ranges being those of the arguments. The equalities are chained in program order.
-/
import proofs.«400075_j26585847562450_2_alg».proof.Proof.KDefs
import proofs.«400075_j26585847562450_2_alg».proof.Proof.RDefs
import proofs.«400075_j26585847562450_2_alg».proof.Proof.AggSpec
import proofs.«400075_j26585847562450_2_alg».proof.Proof.AggK0
import proofs.«400075_j26585847562450_2_alg».proof.Proof.AggK1
import proofs.«400075_j26585847562450_2_alg».proof.Proof.AggK2
import proofs.«400075_j26585847562450_2_alg».proof.Proof.AggK3
import proofs.«400075_j26585847562450_2_alg».proof.Proof.AggK4
import proofs.«400075_j26585847562450_2_alg».proof.Proof.AggK5
import proofs.«400075_j26585847562450_2_alg».proof.Proof.AggK6
import proofs.«400075_j26585847562450_2_alg».proof.Proof.AggK7
import proofs.«400075_j26585847562450_2_alg».proof.Proof.AggR0
import proofs.«400075_j26585847562450_2_alg».proof.Proof.AggR1
import proofs.«400075_j26585847562450_2_alg».proof.Proof.AggR2
import proofs.«400075_j26585847562450_2_alg».proof.Proof.AggR3
import proofs.«400075_j26585847562450_2_alg».proof.Proof.AggR4
import proofs.«400075_j26585847562450_2_alg».proof.Proof.AggR5
import proofs.«400075_j26585847562450_2_alg».proof.Proof.AggR6
import proofs.«400075_j26585847562450_2_alg».proof.Proof.AggR7
import proofs.«400075_j26585847562450_2_alg».proof.Proof.Glue

noncomputable section

namespace Cert.Bridge

open Idealize.ShloMosaic Cert.KernelIdeal.KDefs Cert.ReferenceIdeal.RDefs

/-- Every edge endpoint lies in its table: the bipartite list's user and spot indices and the two graphs' (row, column)
    index arrays. -/
structure Ranges (A : Cert.Args) : Prop where
  h3 : ∀ i, 0 ≤ (A.a3 i).toInt ∧ (A.a3 i).toInt < 27094
  h4 : ∀ i, 0 ≤ (A.a4 i).toInt ∧ (A.a4 i).toInt < 42852
  h5 : ∀ i, 0 ≤ (A.a5 i).toInt ∧ (A.a5 i).toInt < 27094
  h6 : ∀ i, 0 ≤ (A.a6 i).toInt ∧ (A.a6 i).toInt < 42852

section stages

variable (A : Cert.Args)

/-! ### The user graph: rows, columns, inverse square-root degrees, edge norms, first aggregation -/

/-- The user graph's row indices: the same slice and reshape of the user graph's (row, column) index array. -/
theorem k1_eq : k1 A = r2 A := rfl

/-- The user graph's column indices. -/
theorem k3_eq : k3 A = r4 A := rfl

/-- The inverse square-root degrees: the same scatter of ones, reciprocal square root and select, of equal column indices. -/
theorem k11_eq : k11 A = r11 A := by
  unfold k11 r11
  rw [k3_eq A]
  rfl

/-- The edge norms: the product of the two gathered inverse square-root degrees. -/
theorem k26_eq : k26 A = r27 A := Cert.Glue.k26_eq_r27 A (k11_eq A) (k1_eq A) (k3_eq A)

/-- The user-graph aggregation of the user embeddings: both programs compute the edge sum. -/
theorem k41_eq (H : Ranges A) : k41 A = r40 A := by
  have hs := Cert.Glue.k1_range A H.h5
  have hd := Cert.Glue.k3_range A H.h5
  have hk : k41 A = Cert.AggSpec.aggUU A.a0 (k1 A) (k3 A) (k26 A) :=
    Cert.AggK0.aggK0 A.a0 (k1 A) (k3 A) (k26 A) hs hd
  have hr : r40 A = Cert.AggSpec.aggUU A.a0 (k1 A) (k3 A) (k26 A) := by
    unfold r40
    rw [← k1_eq A, ← k3_eq A, ← k26_eq A]
    exact Cert.AggR0.aggR0 A.a0 (k1 A) (k3 A) (k26 A) hs hd
  exact hk.trans hr.symm

/-- The user embeddings plus their aggregation. -/
theorem k42_eq (H : Ranges A) : k42 A = r41 A := by
  unfold k42 r41
  rw [k41_eq A H]
  rfl

/-! ### The spot graph -/

/-- The spot graph's row indices. -/
theorem k44_eq : k44 A = r43 A := rfl

/-- The spot graph's column indices. -/
theorem k46_eq : k46 A = r45 A := rfl

/-- The weighted inverse square-root degrees of the spot graph. -/
theorem k53_eq : k53 A = r52 A := by
  unfold k53 r52
  rw [k46_eq A]
  rfl

/-- The spot graph's edge norms. -/
theorem k69_eq : k69 A = r68 A := by
  unfold k69 r68
  rw [k53_eq A, k44_eq A, k46_eq A]
  rfl

/-- The spot-graph aggregation of the spot embeddings. -/
theorem k84_eq (H : Ranges A) : k84 A = r81 A := by
  have hs := Cert.Glue.k44_range A H.h6
  have hd := Cert.Glue.k46_range A H.h6
  have hk : k84 A = Cert.AggSpec.aggSS A.a1 (k44 A) (k46 A) (k69 A) :=
    Cert.AggK1.aggK1 A.a1 (k44 A) (k46 A) (k69 A) hs hd
  have hr : r81 A = Cert.AggSpec.aggSS A.a1 (k44 A) (k46 A) (k69 A) := by
    unfold r81
    rw [← k46_eq A, ← k69_eq A, ← k44_eq A]
    exact Cert.AggR1.aggR1 A.a1 (k44 A) (k46 A) (k69 A) hs hd
  exact hk.trans hr.symm

/-- The spot embeddings plus their aggregation. -/
theorem k85_eq (H : Ranges A) : k85 A = r82 A := by
  unfold k85 r82
  rw [k84_eq A H]
  rfl

/-! ### The bipartite layers -/

/-- The bipartite edge norms: the same operations of the two index lists. -/
theorem k109_eq : k109 A = r106 A := rfl

/-- First layer, spots to users. -/
theorem k124_eq (H : Ranges A) : k124 A = r119 A := by
  have hs := H.h4
  have hd := H.h3
  have hk : k124 A = Cert.AggSpec.aggSU (k85 A) A.a4 A.a3 (k109 A) :=
    Cert.AggK2.aggK2 (k85 A) A.a4 A.a3 (k109 A) hs hd
  have hr : r119 A = Cert.AggSpec.aggSU (k85 A) A.a4 A.a3 (k109 A) := by
    unfold r119
    rw [← k85_eq A H, ← k109_eq A]
    exact Cert.AggR2.aggR2 (k85 A) A.a4 A.a3 (k109 A) hs hd
  exact hk.trans hr.symm

/-- First layer, users to spots. -/
theorem k139_eq (H : Ranges A) : k139 A = r131 A := by
  have hs := H.h3
  have hd := H.h4
  have hk : k139 A = Cert.AggSpec.aggUS (k42 A) A.a3 A.a4 (k109 A) :=
    Cert.AggK3.aggK3 (k42 A) A.a3 A.a4 (k109 A) hs hd
  have hr : r131 A = Cert.AggSpec.aggUS (k42 A) A.a3 A.a4 (k109 A) := by
    unfold r131
    rw [← k42_eq A H, ← k109_eq A]
    exact Cert.AggR3.aggR3 (k42 A) A.a3 A.a4 (k109 A) hs hd
  exact hk.trans hr.symm

/-- Running sum of the spot side after the first layer. -/
theorem k140_eq (H : Ranges A) : k140 A = r132 A := by
  unfold k140 r132
  rw [k85_eq A H, k139_eq A H]
  rfl

/-- Running sum of the user side after the first layer. -/
theorem k141_eq (H : Ranges A) : k141 A = r133 A := by
  unfold k141 r133
  rw [k42_eq A H, k124_eq A H]
  rfl

/-- Second layer, spots to users. -/
theorem k156_eq (H : Ranges A) : k156 A = r145 A := by
  have hs := H.h4
  have hd := H.h3
  have hk : k156 A = Cert.AggSpec.aggSU (k139 A) A.a4 A.a3 (k109 A) :=
    Cert.AggK4.aggK4 (k139 A) A.a4 A.a3 (k109 A) hs hd
  have hr : r145 A = Cert.AggSpec.aggSU (k139 A) A.a4 A.a3 (k109 A) := by
    unfold r145
    rw [← k139_eq A H, ← k109_eq A]
    exact Cert.AggR4.aggR4 (k139 A) A.a4 A.a3 (k109 A) hs hd
  exact hk.trans hr.symm

/-- Second layer, users to spots. -/
theorem k171_eq (H : Ranges A) : k171 A = r157 A := by
  have hs := H.h3
  have hd := H.h4
  have hk : k171 A = Cert.AggSpec.aggUS (k124 A) A.a3 A.a4 (k109 A) :=
    Cert.AggK5.aggK5 (k124 A) A.a3 A.a4 (k109 A) hs hd
  have hr : r157 A = Cert.AggSpec.aggUS (k124 A) A.a3 A.a4 (k109 A) := by
    unfold r157
    rw [← k124_eq A H, ← k109_eq A]
    exact Cert.AggR5.aggR5 (k124 A) A.a3 A.a4 (k109 A) hs hd
  exact hk.trans hr.symm

/-- Running sum of the spot side after the second layer. -/
theorem k172_eq (H : Ranges A) : k172 A = r158 A := by
  unfold k172 r158
  rw [k140_eq A H, k171_eq A H]
  rfl

/-- Running sum of the user side after the second layer. -/
theorem k173_eq (H : Ranges A) : k173 A = r159 A := by
  unfold k173 r159
  rw [k141_eq A H, k156_eq A H]
  rfl

/-- Third layer, spots to users. -/
theorem k188_eq (H : Ranges A) : k188 A = r171 A := by
  have hs := H.h4
  have hd := H.h3
  have hk : k188 A = Cert.AggSpec.aggSU (k171 A) A.a4 A.a3 (k109 A) :=
    Cert.AggK6.aggK6 (k171 A) A.a4 A.a3 (k109 A) hs hd
  have hr : r171 A = Cert.AggSpec.aggSU (k171 A) A.a4 A.a3 (k109 A) := by
    unfold r171
    rw [← k171_eq A H, ← k109_eq A]
    exact Cert.AggR6.aggR6 (k171 A) A.a4 A.a3 (k109 A) hs hd
  exact hk.trans hr.symm

/-- Third layer, users to spots. -/
theorem k203_eq (H : Ranges A) : k203 A = r183 A := by
  have hs := H.h3
  have hd := H.h4
  have hk : k203 A = Cert.AggSpec.aggUS (k156 A) A.a3 A.a4 (k109 A) :=
    Cert.AggK7.aggK7 (k156 A) A.a3 A.a4 (k109 A) hs hd
  have hr : r183 A = Cert.AggSpec.aggUS (k156 A) A.a3 A.a4 (k109 A) := by
    unfold r183
    rw [← k156_eq A H, ← k109_eq A]
    exact Cert.AggR7.aggR7 (k156 A) A.a3 A.a4 (k109 A) hs hd
  exact hk.trans hr.symm

/-- Sum of the spot side over the layers. -/
theorem k204_eq (H : Ranges A) : k204 A = r184 A := by
  unfold k204 r184
  rw [k172_eq A H, k203_eq A H]
  rfl

/-- Sum of the user side over the layers. -/
theorem k205_eq (H : Ranges A) : k205 A = r185 A := by
  unfold k205 r185
  rw [k173_eq A H, k188_eq A H]
  rfl

/-- The spot result: the layer sum scaled by a quarter. -/
theorem k207_eq (H : Ranges A) : k207 A = r187 A := by
  unfold k207 r187
  rw [k204_eq A H]
  rfl

/-- The user result: the layer sum scaled by a quarter. -/
theorem k209_eq (H : Ranges A) : k209 A = r189 A := by
  unfold k209 r189
  rw [k205_eq A H]
  rfl

end stages

/-- The two programs compute the same two result arrays from the same arguments, when every edge endpoint lies in its
    table. -/
theorem results (A : Cert.Args) (h3 : ∀ i, 0 ≤ (A.a3 i).toInt ∧ (A.a3 i).toInt < 27094) (h4 : ∀ i, 0 ≤ (A.a4 i).toInt ∧ (A.a4 i).toInt < 42852)
    (h5 : ∀ i, 0 ≤ (A.a5 i).toInt ∧ (A.a5 i).toInt < 27094) (h6 : ∀ i, 0 ≤ (A.a6 i).toInt ∧ (A.a6 i).toInt < 42852) :
    (k207 A : FVec Ideal ⟨2, ![42852, 64]⟩ .f32) = r187 A ∧ (k209 A : FVec Ideal ⟨2, ![27094, 64]⟩ .f32) = r189 A :=
  have H : Ranges A := ⟨h3, h4, h5, h6⟩
  ⟨k207_eq A H, k209_eq A H⟩

end Cert.Bridge

end
-- ==== Proof.PreFacts.lean ====
/-
  The printed precondition, read back as index ranges. The predicate is a conjunction (by `and` on one-bit
  words) of whole-array conjunctions (a reduce by `and` over every axis, from the constant 1): first "|x| is below
  +inf" for each of the three floating-point arrays, then for each of the four index arrays "every word is at least 0,
  signed" and "every word is below n, signed", with n = 27094 for arguments 3 and 5 and n = 42852 for arguments 4
  and 6. A conjunction that is 1 has both conjuncts 1; a whole-array conjunction that is 1 has a 1 at every index; a
  signed comparison that is 1 orders the two words' signed values; the right-hand word is a scalar constant read
  everywhere, so its signed value is the literal's. The three floating-point conjuncts are not read.
-/
import proofs.«400075_j26585847562450_2_alg».proof.Pre_finite_inputs
import proofs.«400075_j26585847562450_2_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

attribute [local instance] Cert.Pre_finite_inputs.Gen.facts

/-- The scalar shape has one index. -/
local instance : Subsingleton S_.Idx := ⟨fun a b => funext fun d => d.elim0⟩

/-! ## The literals' signed values -/

theorem toInt_zero32 : (0#32 : BitVec 32).toInt = 0 := by decide
theorem toInt_27094 : (27094#32 : BitVec 32).toInt = 27094 := by decide
theorem toInt_42852 : (42852#32 : BitVec 32).toInt = 42852 := by decide

/-! ## One whole-array conjunct

The array compared, word by word, with a scalar constant `k` laid over its shape; the comparison's bits reduced by
`and` over every axis. If the result is 1, every word stands in that relation to `k`. -/

/-- "Every word is at least k": the signed value of each word is at least that of `k`. -/
theorem all_sge {s : Shape} {axes : List (Fin s.rank)} (hb : S_.BroadcastsInDim s (![] : Fin 0 → Fin s.rank))
    (hr : s.ReducesTo axes S_) (h0 : 0 < S_.numel) (a : IVec s 32) (k : BitVec 32) (init : IVec S_ 1)
    (e : Host.reduce IntOp.andi (cmpi .sge a (broadcastInDim s ![] hb (constantI S_ 32 k))) init hr h0 ValueIdx.ix0 = 1#1)
    (i : s.Idx) : k.toInt ≤ (a i).toInt := by
  have hi : cmpi .sge a (broadcastInDim s ![] hb (constantI S_ 32 k)) i = 1#1 :=
    Host.reduce_andi_all _ init hr h0 ValueIdx.ix0 e i
  -- at index i the comparison is of the word a i with the constant
  have hi' : IntOp.cmpi .sge (a i) k = 1#1 := hi
  exact IntOp.cmpi_sge.1 hi'

/-- "Every word is below k": the signed value of each word is below that of `k`. -/
theorem all_slt {s : Shape} {axes : List (Fin s.rank)} (hb : S_.BroadcastsInDim s (![] : Fin 0 → Fin s.rank))
    (hr : s.ReducesTo axes S_) (h0 : 0 < S_.numel) (a : IVec s 32) (k : BitVec 32) (init : IVec S_ 1)
    (e : Host.reduce IntOp.andi (cmpi .slt a (broadcastInDim s ![] hb (constantI S_ 32 k))) init hr h0 ValueIdx.ix0 = 1#1)
    (i : s.Idx) : (a i).toInt < k.toInt := by
  have hi : cmpi .slt a (broadcastInDim s ![] hb (constantI S_ 32 k)) i = 1#1 :=
    Host.reduce_andi_all _ init hr h0 ValueIdx.ix0 e i
  have hi' : IntOp.cmpi .slt (a i) k = 1#1 := hi
  exact IntOp.cmpi_slt.1 hi'

/-- A whole-array conjunction of a mask already formed: every bit is 1. -/
theorem all_one {s : Shape} {axes : List (Fin s.rank)} (hr : s.ReducesTo axes S_) (h0 : 0 < S_.numel)
    (p : IVec s 1) (init : IVec S_ 1)
    (e : Host.reduce IntOp.andi p init hr h0 ValueIdx.ix0 = 1#1) (i : s.Idx) : p i = 1#1 :=
  Host.reduce_andi_all p init hr h0 ValueIdx.ix0 e i

/-! ## The last part of the chain

It takes the conjunction so far (`v29`), the mask "argument 5 is at least 0" still to be reduced (`v31`), and adds
"argument 5 below 27094", "argument 6 at least 0", "argument 6 below 42852". -/

theorem part2 (a5 : IVec S2x541880 32) (a6 : IVec S2x1285560 32) (v29 : IVec S_ 1) (v31 : IVec S2x541880 1) (c13 : IVec S_ 1)
    (h : fn_part2 (F := Ideal) a5 a6 v29 v31 c13 ValueIdx.ix0 = 1#1) :
    v29 ValueIdx.ix0 = 1#1 ∧ (∀ i, v31 i = 1#1) ∧ (∀ i, (a5 i).toInt < 27094)
      ∧ (∀ i, 0 ≤ (a6 i).toInt ∧ (a6 i).toInt < 42852) := by
  unfold fn_part2 at h
  simp only [andi, IntOp.andi_eq_one] at h
  obtain ⟨⟨⟨⟨h29, h32⟩, h36⟩, h40⟩, h44⟩ := h
  refine ⟨h29, fun i => all_one _ _ v31 c13 h32 i, fun i => ?_, fun i => ⟨?_, ?_⟩⟩
  · have := all_slt _ _ _ a5 27094#32 _ h36 i
    rwa [toInt_27094] at this
  · have := all_sge _ _ _ a6 0#32 _ h40 i
    rwa [toInt_zero32] at this
  · have := all_slt _ _ _ a6 42852#32 _ h44 i
    rwa [toInt_42852] at this

/-! ## The middle part of the chain

It takes the conjunction so far (`v13`: the three floating-point conjuncts), the mask "argument 3 is at least 0" still
to be reduced (`v15`), adds "argument 3 below 27094", "argument 4 at least 0", "argument 4 below 42852", forms the
mask "argument 5 is at least 0", and hands on to the last part. -/

theorem part1 (a3 a4 : IVec S2000000 32) (a5 : IVec S2x541880 32) (a6 : IVec S2x1285560 32) (v13 : IVec S_ 1)
    (v15 : IVec S2000000 1) (c5 : IVec S_ 1)
    (h : fn_part1 (F := Ideal) a3 a4 a5 a6 v13 v15 c5 ValueIdx.ix0 = 1#1) :
    (∀ i, v15 i = 1#1) ∧ (∀ i, (a3 i).toInt < 27094) ∧ (∀ i, 0 ≤ (a4 i).toInt ∧ (a4 i).toInt < 42852)
      ∧ (∀ i, 0 ≤ (a5 i).toInt ∧ (a5 i).toInt < 27094) ∧ (∀ i, 0 ≤ (a6 i).toInt ∧ (a6 i).toInt < 42852) := by
  unfold fn_part1 at h
  obtain ⟨h29, h31, h5, h6⟩ := part2 a5 a6 _ _ _ h
  simp only [andi, IntOp.andi_eq_one] at h29
  obtain ⟨⟨⟨⟨-, h16⟩, h20⟩, h24⟩, h28⟩ := h29
  refine ⟨fun i => all_one _ _ v15 c5 h16 i, fun i => ?_, fun i => ⟨?_, ?_⟩, fun i => ⟨?_, h5 i⟩, h6⟩
  · have := all_slt _ _ _ a3 27094#32 _ h20 i
    rwa [toInt_27094] at this
  · have := all_sge _ _ _ a4 0#32 _ h24 i
    rwa [toInt_zero32] at this
  · have := all_slt _ _ _ a4 42852#32 _ h28 i
    rwa [toInt_42852] at this
  · -- the mask handed to the last part is the comparison of argument 5 with the constant 0
    have hi : IntOp.cmpi .sge (a5 i) 0#32 = 1#1 := h31 i
    have := IntOp.cmpi_sge.1 hi
    rwa [toInt_zero32] at this

/-! ## The whole predicate -/

/-- If the printed precondition holds, every word of the four index arrays lies in its table's range:
    arguments 3 and 5 in [0, 27094), arguments 4 and 6 in [0, 42852), read signed. -/
theorem ranges (a0 : FVec Ideal S27094x64 .f32) (a1 : FVec Ideal S42852x64 .f32) (a2 : FVec Ideal S1285560 .f32)
    (a3 a4 : IVec S2000000 32) (a5 : IVec S2x541880 32) (a6 : IVec S2x1285560 32)
    (h : Cert.Pre_finite_inputs.fn (F := Ideal) a0 a1 a2 a3 a4 a5 a6 = fun _ => 1#1) :
    (∀ i, 0 ≤ (a3 i).toInt ∧ (a3 i).toInt < 27094) ∧ (∀ i, 0 ≤ (a4 i).toInt ∧ (a4 i).toInt < 42852)
      ∧ (∀ i, 0 ≤ (a5 i).toInt ∧ (a5 i).toInt < 27094) ∧ (∀ i, 0 ≤ (a6 i).toInt ∧ (a6 i).toInt < 42852) := by
  have e := congrFun h ValueIdx.ix0
  unfold Cert.Pre_finite_inputs.fn at e
  obtain ⟨h15, h3, h4, h5, h6⟩ := part1 a3 a4 a5 a6 _ _ _ e
  refine ⟨fun i => ⟨?_, h3 i⟩, h4, h5, h6⟩
  -- the mask handed to the middle part is the comparison of argument 3 with the constant 0
  have hi : IntOp.cmpi .sge (a3 i) 0#32 = 1#1 := h15 i
  have := IntOp.cmpi_sge.1 hi
  rwa [toInt_zero32] at this

end Cert.PreFacts

end
-- ==== Proof.lean ====
/-
  The certificate's claims, assembled.

  The kernel program aggregates over a graph's edges eight times (two light-convolution passes, then three layers of
  bipartite propagation in both directions); each aggregation gathers source rows by a one-hot matrix product, scales them
  and scatters them by a second one-hot product, tile by tile over the padded edge list split in two halves whose partial
  results are added. The reference gathers, scales and scatter-adds. With every edge index inside its table (the added
  evident-domain conjuncts of the precondition) each aggregation of either program is the plain sum, over the edges landing
  on a node, of the scaled source rows, so the two programs' result arrays are equal stage by stage; the degree and norm
  computations around the aggregations are the same host operations in both programs, up to a multiplication by one.
  The frames of the two kernel programs are the generated ones (their one module cut into parts); the reference's frame is its run (the generated one, repaired) with the results
  dropped; the ideal pass rewrote nothing.
-/
import proofs.«400075_j26585847562450_2_alg».proof.Defs
import proofs.«400075_j26585847562450_2_alg».proof.Proof.Gen.Kernel
import proofs.«400075_j26585847562450_2_alg».proof.Proof.KFS
import proofs.«400075_j26585847562450_2_alg».proof.Proof.Gen.KernelIdeal
import proofs.«400075_j26585847562450_2_alg».proof.Proof.KIFS
import proofs.«400075_j26585847562450_2_alg».proof.Proof.Gen.ReferenceIdeal
import proofs.«400075_j26585847562450_2_alg».proof.Proof.Gen.Pre_finite_inputs
import proofs.«400075_j26585847562450_2_alg».proof.Proof.KRun
import proofs.«400075_j26585847562450_2_alg».proof.Proof.KVal
import proofs.«400075_j26585847562450_2_alg».proof.Proof.RRun
import proofs.«400075_j26585847562450_2_alg».proof.Proof.Bridge
import proofs.«400075_j26585847562450_2_alg».proof.Proof.PreFacts
import Idealize.ShloMosaic.Adequacy
import Idealize.ShloMosaic.Init

set_option maxRecDepth 16384

noncomputable section

namespace Cert.Proof

open Idealize.ShloMosaic Idealize.SL.Sem

attribute [local instance] Cert.Pre_finite_inputs.Gen.facts

/-- The index ranges the precondition states, at the kernel program's launch memory. -/
theorem ranges (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i, 0 ≤ ((Cert.KernelIdeal.KVal.argsK m c).a3 i).toInt ∧ ((Cert.KernelIdeal.KVal.argsK m c).a3 i).toInt < 27094)
    ∧ (∀ i, 0 ≤ ((Cert.KernelIdeal.KVal.argsK m c).a4 i).toInt ∧ ((Cert.KernelIdeal.KVal.argsK m c).a4 i).toInt < 42852)
    ∧ (∀ i, 0 ≤ ((Cert.KernelIdeal.KVal.argsK m c).a5 i).toInt ∧ ((Cert.KernelIdeal.KVal.argsK m c).a5 i).toInt < 27094)
    ∧ (∀ i, 0 ≤ ((Cert.KernelIdeal.KVal.argsK m c).a6 i).toInt ∧ ((Cert.KernelIdeal.KVal.argsK m c).a6 i).toInt < 42852) :=
  Cert.PreFacts.ranges _ _ _ _ _ _ _ (hpre c)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KDefs.k207 (Cert.KernelIdeal.KVal.argsK m c),
    fun c => Cert.KernelIdeal.KDefs.k209 (Cert.KernelIdeal.KVal.argsK m c), ?_, ?_⟩
  · exact (θ_run Cert.KernelIdeal.defs _ _).mono
      (fun _ h c => ⟨(h c).1.trans (Cert.KernelIdeal.KVal.w85_v207 m ρ c), (h c).2.1.trans (Cert.KernelIdeal.KVal.w85_v209 m ρ c), (h c).2.2⟩)
      (Cert.KernelIdeal.GenV.run_values (F := Ideal) m ρ)
  · refine (θ_run Cert.ReferenceIdeal.defs _ _).mono (fun _ h c => ?_) (Cert.ReferenceIdeal.RRun.run m' ρ')
    have hargs : Cert.ReferenceIdeal.RRun.argsR m' c = Cert.KernelIdeal.KVal.argsK m c := by
      obtain ⟨e0, e1, e2, e3, e4, e5, e6⟩ := hagree c
      unfold Cert.ReferenceIdeal.RRun.argsR Cert.KernelIdeal.KVal.argsK
      rw [e0, e1, e2, e3, e4, e5, e6]
    obtain ⟨r3, r4, r5, r6⟩ := ranges m hpre c
    obtain ⟨b0, b1⟩ := Cert.Bridge.results (Cert.KernelIdeal.KVal.argsK m c) r3 r4 r5 r6
    refine ⟨(h c).1.trans ?_, (h c).2.1.trans ?_, (h c).2.2⟩
    · rw [hargs]; exact b0.symm
    · rw [hargs]; exact b1.symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2.2) (Cert.ReferenceIdeal.RRun.run m ρ),
    trivial,
    algebraic⟩

end Cert.Proof

end
